-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v78)) (v2 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_v79) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3276) = v0 c
          ∧ r.2.mem ((c.tc : Thread Cert.ReferenceIdeal.nD Cert.ReferenceIdeal.τ).loc Cert.ReferenceIdeal.main_v3265) = v1 c
          ∧ r.2.mem ((c.tc : Thread Cert.ReferenceIdeal.nD Cert.ReferenceIdeal.τ).loc Cert.ReferenceIdeal.main_v3387) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x131072x3 : Shape := ⟨3, ![32, 131072, 3]⟩
abbrev S32x131072 : Shape := ⟨2, ![32, 131072]⟩
abbrev S32 : Shape := ⟨1, ![32]⟩
abbrev S32x5 : Shape := ⟨2, ![32, 5]⟩
abbrev S_ : Shape := ⟨0, ![]⟩

class Facts : Prop where
  bcast_S_S32x131072x3 : S_.BroadcastsInDim S32x131072x3 (![] : Fin 0 → Fin S32x131072x3.rank)
  reducesTo_S32x131072x3_S_d0_1_2 : S32x131072x3.ReducesTo [0, 1, 2] S_
  h_S_ : 0 < S_.numel
  bcast_S_S32x131072 : S_.BroadcastsInDim S32x131072 (![] : Fin 0 → Fin S32x131072.rank)
  reducesTo_S32x131072_S_d0_1 : S32x131072.ReducesTo [0, 1] S_
  bcast_S_S32 : S_.BroadcastsInDim S32 (![] : Fin 0 → Fin S32.rank)
  reducesTo_S32_S_d0 : S32.ReducesTo [0] S_
  bcast_S_S32x5 : S_.BroadcastsInDim S32x5 (![] : Fin 0 → Fin S32x5.rank)
  reducesTo_S32x5_S_d0_1 : S32x5.ReducesTo [0, 1] S_
  reducesTo_S_S_d : S_.ReducesTo [] S_

variable [Facts]

def fn_part3 {F : FTy → Type} [FloatOps F] (main_v46 : IVec S_ 1) (main_v49 : IVec S_ 1) : IVec S_ 1 :=
  let main_v50 : IVec S_ 1 := andi main_v46 main_v49
  main_v50

def fn_part2 {F : FTy → Type} [FloatOps F] (main_arg2 : FVec F S32x131072 .f32) (main_arg7 : FVec F S32x5 .f32) (main_arg8 : FVec F S_ .f32) (main_v33 : IVec S_ 1) : IVec S_ 1 :=
  let main_v34 : FVec F S32x5 .f32 := Host.absf main_arg7
  let main_cst_12 : FVec F S_ .f32 := constant S_ .f32 0x7F800000#32
  let main_v35 : FVec F S32x5 .f32 := broadcastInDim S32x5 ![] bcast_S_S32x5 main_cst_12
  let main_v36 : IVec S32x5 1 := cmpf .olt main_v34 main_v35
  let main_c_13 : IVec S_ 1 := constantI S_ 1 1#1
  let main_v37 : IVec S_ 1 := (fun x v => Host.reduce IntOp.andi x v reducesTo_S32x5_S_d0_1 h_S_) main_v36 main_c_13
  let main_v38 : IVec S_ 1 := andi main_v33 main_v37
  let main_v39 : FVec F S_ .f32 := Host.absf main_arg8
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  let main_cst_16 : FVec F S_ .f32 := constant S_ .f32 0x00000000#32
  let main_v43 : FVec F S32x131072 .f32 := broadcastInDim S32x131072 ![] bcast_S_S32x131072 main_cst_16
  let main_v44 : IVec S32x131072 1 := cmpf .une main_arg2 main_v43
  let main_c_17 : IVec S_ 1 := constantI S_ 1 1#1
  let main_v45 : IVec S_ 1 := (fun x v => Host.reduce IntOp.andi x v reducesTo_S32x131072_S_d0_1 h_S_) main_v44 main_c_17
  let main_v46 : IVec S_ 1 := andi main_v42 main_v45
  let main_cst_18 : FVec F S_ .f32 := constant S_ .f32 0x00000000#32
  let main_v47 : FVec F S32x5 .f32 := broadcastInDim S32x5 ![] bcast_S_S32x5 main_cst_18
  let main_v48 : IVec S32x5 1 := cmpf .une main_arg7 main_v47
  let main_c_19 : IVec S_ 1 := constantI S_ 1 1#1
  let main_v49 : IVec S_ 1 := (fun x v => Host.reduce IntOp.andi x v reducesTo_S32x5_S_d0_1 h_S_) main_v48 main_c_19
  fn_part3 (F := F) main_v46 main_v49

def fn_part1 {F : FTy → Type} [FloatOps F] (main_arg2 : FVec F S32x131072 .f32) (main_arg4 : FVec F S32 .f32) (main_arg5 : FVec F S32x5 .f32) (main_arg6 : FVec F S32x5 .f32) (main_arg7 : FVec F S32x5 .f32) (main_arg8 : FVec F S_ .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x5 .f32 := Host.absf main_arg5
  let main_cst_8 : FVec F S_ .f32 := constant S_ .f32 0x7F800000#32
  let main_v25 : FVec F S32x5 .f32 := broadcastInDim S32x5 ![] bcast_S_S32x5 main_cst_8
  let main_v26 : IVec S32x5 1 := cmpf .olt main_v24 main_v25
  let main_c_9 : IVec S_ 1 := constantI S_ 1 1#1
  let main_v27 : IVec S_ 1 := (fun x v => Host.reduce IntOp.andi x v reducesTo_S32x5_S_d0_1 h_S_) main_v26 main_c_9
  let main_v28 : IVec S_ 1 := andi main_v23 main_v27
  let main_v29 : FVec F S32x5 .f32 := Host.absf main_arg6
  let main_cst_10 : FVec F S_ .f32 := constant S_ .f32 0x7F800000#32
  let main_v30 : FVec F S32x5 .f32 := broadcastInDim S32x5 ![] bcast_S_S32x5 main_cst_10
  let main_v31 : IVec S32x5 1 := cmpf .olt main_v29 main_v30
  let main_c_11 : IVec S_ 1 := constantI S_ 1 1#1
  let main_v32 : IVec S_ 1 := (fun x v => Host.reduce IntOp.andi x v reducesTo_S32x5_S_d0_1 h_S_) main_v31 main_c_11
  let main_v33 : IVec S_ 1 := andi main_v28 main_v32
  fn_part2 (F := F) main_arg2 main_arg7 main_arg8 main_v33

def fn {F : FTy → Type} [FloatOps F] (main_arg0 : FVec F S32x131072x3 .f32) (main_arg1 : FVec F S32x131072x3 .f32) (main_arg2 : FVec F S32x131072 .f32) (main_arg3 : FVec F S32 .f32) (main_arg4 : FVec F S32 .f32) (main_arg5 : FVec F S32x5 .f32) (main_arg6 : FVec F S32x5 .f32) (main_arg7 : FVec F S32x5 .f32) (main_arg8 : FVec F S_ .f32) : IVec S_ 1 :=
  let main_v0 : FVec F S32x131072x3 .f32 := Host.absf main_arg0
  let main_cst : FVec F S_ .f32 := constant S_ .f32 0x7F800000#32
  let main_v1 : FVec F S32x131072x3 .f32 := broadcastInDim S32x131072x3 ![] bcast_S_S32x131072x3 main_cst
  let main_v2 : IVec S32x131072x3 1 := cmpf .olt main_v0 main_v1
  let main_c : IVec S_ 1 := constantI S_ 1 1#1
  let main_v3 : IVec S_ 1 := (fun x v => Host.reduce IntOp.andi x v reducesTo_S32x131072x3_S_d0_1_2 h_S_) main_v2 main_c
  let main_v4 : FVec F S32x131072x3 .f32 := Host.absf main_arg1
  let main_cst_0 : FVec F S_ .f32 := constant S_ .f32 0x7F800000#32
  let main_v5 : FVec F S32x131072x3 .f32 := broadcastInDim S32x131072x3 ![] bcast_S_S32x131072x3 main_cst_0
  let main_v6 : IVec S32x131072x3 1 := cmpf .olt main_v4 main_v5
  let main_c_1 : IVec S_ 1 := constantI S_ 1 1#1
  let main_v7 : IVec S_ 1 := (fun x v => Host.reduce IntOp.andi x v reducesTo_S32x131072x3_S_d0_1_2 h_S_) main_v6 main_c_1
  let main_v8 : IVec S_ 1 := andi main_v3 main_v7
  let main_v9 : FVec F S32x131072 .f32 := Host.absf main_arg2
  let main_cst_2 : FVec F S_ .f32 := constant S_ .f32 0x7F800000#32
  let main_v10 : FVec F S32x131072 .f32 := broadcastInDim S32x131072 ![] bcast_S_S32x131072 main_cst_2
  let main_v11 : IVec S32x131072 1 := cmpf .olt main_v9 main_v10
  let main_c_3 : IVec S_ 1 := constantI S_ 1 1#1
  let main_v12 : IVec S_ 1 := (fun x v => Host.reduce IntOp.andi x v reducesTo_S32x131072_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg2 main_arg4 main_arg5 main_arg6 main_arg7 main_arg8 main_v13 main_v16
-- ==== Kernel.lean ====
abbrev S32x131072x3 : Shape := ⟨3, ![32, 131072, 3]⟩
abbrev S32x131072 : Shape := ⟨2, ![32, 131072]⟩
abbrev S32 : Shape := ⟨1, ![32]⟩
abbrev S32x5 : Shape := ⟨2, ![32, 5]⟩
abbrev S_ : Shape := ⟨0, ![]⟩
abbrev S32x1 : Shape := ⟨2, ![32, 1]⟩
abbrev S32x14 : Shape := ⟨2, ![32, 14]⟩
abbrev S32x131072x1 : Shape := ⟨3, ![32, 131072, 1]⟩
abbrev S32x1x5 : Shape := ⟨3, ![32, 1, 5]⟩
abbrev S32x1x1 : Shape := ⟨3, ![32, 1, 1]⟩
abbrev S32x1x14 : Shape := ⟨3, ![32, 1, 14]⟩
abbrev S2x131072x3 : Shape := ⟨3, ![2, 131072, 3]⟩
abbrev S2x131072x1 : Shape := ⟨3, ![2, 131072, 1]⟩
abbrev S2x1x5 : Shape := ⟨3, ![2, 1, 5]⟩
abbrev S2x1x1 : Shape := ⟨3, ![2, 1, 1]⟩
abbrev S2x1x14 : Shape := ⟨3, ![2, 1, 14]⟩
abbrev S2x131072 : Shape := ⟨2, ![2, 131072]⟩
abbrev S2x1 : Shape := ⟨2, ![2, 1]⟩

abbrev nBuf : Space → Nat
  | .hbm => 119
  | .vmem => 20
  | .smem => 0
  | _ => 0

abbrev bufTy : (tb : Table) → Fin (tcTables nBuf tb) → BufTy
  | .hbm, ⟨0, _⟩ => ⟨S32x131072x3, .f32⟩
  | .hbm, ⟨1, _⟩ => ⟨S32x131072x3, .f32⟩
  | .hbm, ⟨2, _⟩ => ⟨S32x131072, .f32⟩
  | .hbm, ⟨3, _⟩ => ⟨S32, .f32⟩
  | .hbm, ⟨4, _⟩ => ⟨S32, .f32⟩
  | .hbm, ⟨5, _⟩ => ⟨S32x5, .f32⟩
  | .hbm, ⟨6, _⟩ => ⟨S32x5, .f32⟩
  | .hbm, ⟨7, _⟩ => ⟨S32x5, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S32, .f32⟩
  | .hbm, ⟨80, _⟩ => ⟨S32, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S32, .f32⟩
  | .hbm, ⟨86, _⟩ => ⟨S32, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S32, .f32⟩
  | .hbm, ⟨92, _⟩ => ⟨S32, .f32⟩
  | .hbm, ⟨93, _⟩ => ⟨S32x1, .f32⟩
  | .hbm, ⟨94, _⟩ => ⟨S32x1, .f32⟩
  | .hbm, ⟨95, _⟩ => ⟨S32x1, .f32⟩
  | .hbm, ⟨96, _⟩ => ⟨S32x1, .f32⟩
  | .hbm, ⟨97, _⟩ => ⟨S32x1, .f32⟩
  | .hbm, ⟨98, _⟩ => ⟨S32x1, .f32⟩
  | .hbm, ⟨99, _⟩ => ⟨S32x1, .f32⟩
  | .hbm, ⟨100, _⟩ => ⟨S32x1, .f32⟩
  | .hbm, ⟨101, _⟩ => ⟨S32x1, .f32⟩
  | .hbm, ⟨102, _⟩ => ⟨S32x1, .f32⟩
  | .hbm, ⟨103, _⟩ => ⟨S32x1, .f32⟩
  | .hbm, ⟨104, _⟩ => ⟨S32x1, .f32⟩
  | .hbm, ⟨105, _⟩ => ⟨S32x1, .f32⟩
  | .hbm, ⟨106, _⟩ => ⟨S32x1, .f32⟩
  | .hbm, ⟨107, _⟩ => ⟨S32x14, .f32⟩
  | .hbm, ⟨108, _⟩ => ⟨S32x131072x1, .f32⟩
  | .hbm, ⟨109, _⟩ => ⟨S32x1x5, .f32⟩
  | .hbm, ⟨110, _⟩ => ⟨S32x1x5, .f32⟩
  | .hbm, ⟨111, _⟩ => ⟨S32x1x5, .f32⟩
  | .hbm, ⟨112, _⟩ => ⟨S32x1x1, .f32⟩
  | .hbm, ⟨113, _⟩ => ⟨S32x1x14, .f32⟩
  | .hbm, ⟨114, _⟩ => ⟨S32x131072x3, .f32⟩
  | .hbm, ⟨115, _⟩ => ⟨S32x1x5, .f32⟩
  | .hbm, ⟨116, _⟩ => ⟨S32x1x5, .f32⟩
  | .hbm, ⟨117, _⟩ => ⟨S32x5, .f32⟩
  | .hbm, ⟨118, _⟩ => ⟨S32x5, .f32⟩
  | .local _ .vmem, ⟨0, _⟩ => ⟨S2x131072x3, .f32⟩
  | .local _ .vmem, ⟨1, _⟩ => ⟨S2x131072x3, .f32⟩
  | .local _ .vmem, ⟨2, _⟩ => ⟨S2x131072x1, .f32⟩
  | .local _ .vmem, ⟨3, _⟩ => ⟨S2x131072x1, .f32⟩
  | .local _ .vmem, ⟨4, _⟩ => ⟨S2x1x5, .f32⟩
  | .local _ .vmem, ⟨5, _⟩ => ⟨S2x1x5, .f32⟩
  | .local _ .vmem, ⟨6, _⟩ => ⟨S2x1x5, .f32⟩
  | .local _ .vmem, ⟨7, _⟩ => ⟨S2x1x5, .f32⟩
  | .local _ .vmem, ⟨8, _⟩ => ⟨S2x1x5, .f32⟩
  | .local _ .vmem, ⟨9, _⟩ => ⟨S2x1x5, .f32⟩
  | .local _ .vmem, ⟨10, _⟩ => ⟨S2x1x1, .f32⟩
  | .local _ .vmem, ⟨11, _⟩ => ⟨S2x1x1, .f32⟩
  | .local _ .vmem, ⟨12, _⟩ => ⟨S2x1x14, .f32⟩
  | .local _ .vmem, ⟨13, _⟩ => ⟨S2x1x14, .f32⟩
  | .local _ .vmem, ⟨14, _⟩ => ⟨S2x131072x3, .f32⟩
  | .local _ .vmem, ⟨15, _⟩ => ⟨S2x131072x3, .f32⟩
  | .local _ .vmem, ⟨16, _⟩ => ⟨S2x1x5, .f32⟩
  | .local _ .vmem, ⟨17, _⟩ => ⟨S2x1x5, .f32⟩
  | .local _ .vmem, ⟨18, _⟩ => ⟨S2x1x5, .f32⟩
  | .local _ .vmem, ⟨19, _⟩ => ⟨S2x1x5, .f32⟩
  | _, _ => ⟨S32x131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_cst_6 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_cst_8 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_9 : Ref sig .tc := ⟨.hbm, 39, rfl⟩
abbrev main_v20 : Ref sig .tc := ⟨.hbm, 40, rfl⟩
abbrev main_cst_10 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_11 : Ref sig .tc := ⟨.hbm, 45, rfl⟩
abbrev main_v24 : Ref sig .tc := ⟨.hbm, 46, rfl⟩
abbrev main_cst_12 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_13 : Ref sig .tc := ⟨.hbm, 51, rfl⟩
abbrev main_v28 : Ref sig .tc := ⟨.hbm, 52, rfl⟩
abbrev main_cst_14 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_15 : Ref sig .tc := ⟨.hbm, 57, rfl⟩
abbrev main_v32 : Ref sig .tc := ⟨.hbm, 58, rfl⟩
abbrev main_cst_16 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_17 : Ref sig .tc := ⟨.hbm, 63, rfl⟩
abbrev main_v36 : Ref sig .tc := ⟨.hbm, 64, rfl⟩
abbrev main_cst_18 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_19 : Ref sig .tc := ⟨.hbm, 69, rfl⟩
abbrev main_v40 : Ref sig .tc := ⟨.hbm, 70, rfl⟩
abbrev main_cst_20 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_21 : Ref sig .tc := ⟨.hbm, 75, rfl⟩
abbrev main_v44 : Ref sig .tc := ⟨.hbm, 76, rfl⟩
abbrev main_cst_22 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_23 : Ref sig .tc := ⟨.hbm, 81, rfl⟩
abbrev main_v48 : Ref sig .tc := ⟨.hbm, 82, rfl⟩
abbrev main_cst_24 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_25 : Ref sig .tc := ⟨.hbm, 87, rfl⟩
abbrev main_v52 : Ref sig .tc := ⟨.hbm, 88, rfl⟩
abbrev main_cst_26 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77_0 : Ref sig .tc := ⟨.hbm, 114, rfl⟩
abbrev main_v77_1 : Ref sig .tc := ⟨.hbm, 115, rfl⟩
abbrev main_v77_2 : Ref sig .tc := ⟨.hbm, 116, rfl⟩
abbrev main_v78 : Ref sig .tc := ⟨.hbm, 117, rfl⟩
abbrev main_v79 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x131072x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x131072x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x14 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x131072x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x5 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x5 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S32 : S_.BroadcastsInDim S32 (![] : Fin 0 → Fin S32.rank)
  bcast_S32_S32x1_0 : S32.BroadcastsInDim S32x1 (![0] : Fin 1 → Fin S32x1.rank)
  concatenates_S32x1_S32x1_S32x1_S32x1_S32x1_S32x1_S32x1_S32x1_S32x1_S32x1_S32x1_S32x1_S32x1_S32x1_S32x14_d1 : Shape.Concatenates [S32x1, S32x1, S32x1, S32x1, S32x1, S32x1, S32x1, S32x1, S32x1, S32x1, S32x1, S32x1, S32x1, S32x1] S32x14 1
  bcast_S32x131072_S32x131072x1_0_1 : S32x131072.BroadcastsInDim S32x131072x1 (![0, 1] : Fin 2 → Fin S32x131072x1.rank)
  shapeCasts_S32x5_S32x1x5 : S32x5.ShapeCasts S32x1x5
  shapeCasts_S32_S32x1x1 : S32.ShapeCasts S32x1x1
  shapeCasts_S32x14_S32x1x14 : S32x14.ShapeCasts S32x1x14
  inb_S2x131072x3_S2x131072x3_0_0_0 : ∀ a, (![0, 0, 0] : Fin 3 → Nat) a + S2x131072x3.size a ≤ S2x131072x3.size a
  h_S2x131072x3 : 0 < S2x131072x3.numel
  inb_S2x131072x1_S2x131072x1_0_0_0 : ∀ a, (![0, 0, 0] : Fin 3 → Nat) a + S2x131072x1.size a ≤ S2x131072x1.size a
  h_S2x131072x1 : 0 < S2x131072x1.numel
  shapeCasts_S2x131072x1_S2x131072x1 : S2x131072x1.ShapeCasts S2x131072x1
  inb_S2x1x1_S2x1x1_0_0_0 : ∀ a, (![0, 0, 0] : Fin 3 → Nat) a + S2x1x1.size a ≤ S2x1x1.size a
  h_S2x1x1 : 0 < S2x1x1.numel
  shapeCasts_S2x1x1_S2x1x1 : S2x1x1.ShapeCasts S2x1x1
  broadcasts_S2x131072x1_S2x131072x3 : S2x131072x1.Broadcasts S2x131072x3
  reduces_S2x131072x3_S2x131072 : S2x131072x3.Reduces [2] S2x131072
  shapeCasts_S2x131072_S2x131072x1 : S2x131072.ShapeCasts S2x131072x1
  reduces_S2x131072x1_S2x1 : S2x131072x1.Reduces [1] S2x1
  shapeCasts_S2x1_S2x1x1 : S2x1.ShapeCasts S2x1x1
  inb_S2x1x5_S2x1x1_0_0_0 : ∀ a, (![0, 0, 0] : Fin 3 → Nat) a + S2x1x1.size a ≤ S2x1x5.size a
  inb_S2x1x5_S2x1x1_0_0_1 : ∀ a, (![0, 0, 1] : Fin 3 → Nat) a + S2x1x1.size a ≤ S2x1x5.size a
  inb_S2x1x5_S2x1x1_0_0_2 : ∀ a, (![0, 0, 2] : Fin 3 → Nat) a + S2x1x1.size a ≤ S2x1x5.size a
  inb_S2x1x5_S2x1x1_0_0_3 : ∀ a, (![0, 0, 3] : Fin 3 → Nat) a + S2x1x1.size a ≤ S2x1x5.size a
  inb_S2x1x5_S2x1x1_0_0_4 : ∀ a, (![0, 0, 4] : Fin 3 → Nat) a + S2x1x1.size a ≤ S2x1x5.size a
  inb_S2x1x14_S2x1x1_0_0_0 : ∀ a, (![0, 0, 0] : Fin 3 → Nat) a + S2x1x1.size a ≤ S2x1x14.size a
  inb_S2x1x14_S2x1x1_0_0_1 : ∀ a, (![0, 0, 1] : Fin 3 → Nat) a + S2x1x1.size a ≤ S2x1x14.size a
  inb_S2x1x14_S2x1x1_0_0_2 : ∀ a, (![0, 0, 2] : Fin 3 → Nat) a + S2x1x1.size a ≤ S2x1x14.size a
  inb_S2x1x14_S2x1x1_0_0_3 : ∀ a, (![0, 0, 3] : Fin 3 → Nat) a + S2x1x1.size a ≤ S2x1x14.size a
  inb_S2x1x14_S2x1x1_0_0_4 : ∀ a, (![0, 0, 4] : Fin 3 → Nat) a + S2x1x1.size a ≤ S2x1x14.size a
  inb_S2x1x14_S2x1x1_0_0_5 : ∀ a, (![0, 0, 5] : Fin 3 → Nat) a + S2x1x1.size a ≤ S2x1x14.size a
  inb_S2x1x14_S2x1x1_0_0_6 : ∀ a, (![0, 0, 6] : Fin 3 → Nat) a + S2x1x1.size a ≤ S2x1x14.size a
  inb_S2x1x14_S2x1x1_0_0_7 : ∀ a, (![0, 0, 7] : Fin 3 → Nat) a + S2x1x1.size a ≤ S2x1x14.size a
  inb_S2x1x14_S2x1x1_0_0_8 : ∀ a, (![0, 0, 8] : Fin 3 → Nat) a + S2x1x1.size a ≤ S2x1x14.size a
  inb_S2x1x14_S2x1x1_0_0_9 : ∀ a, (![0, 0, 9] : Fin 3 → Nat) a + S2x1x1.size a ≤ S2x1x14.size a
  inb_S2x1x14_S2x1x1_0_0_10 : ∀ a, (![0, 0, 10] : Fin 3 → Nat) a + S2x1x1.size a ≤ S2x1x14.size a
  inb_S2x1x14_S2x1x1_0_0_11 : ∀ a, (![0, 0, 11] : Fin 3 → Nat) a + S2x1x1.size a ≤ S2x1x14.size a
  inb_S2x1x14_S2x1x1_0_0_12 : ∀ a, (![0, 0, 12] : Fin 3 → Nat) a + S2x1x1.size a ≤ S2x1x14.size a
  inb_S2x1x14_S2x1x1_0_0_13 : ∀ a, (![0, 0, 13] : Fin 3 → Nat) a + S2x1x1.size a ≤ S2x1x14.size a
  broadcasts_S2x1x1_S2x131072x3 : S2x1x1.Broadcasts S2x131072x3
  concatenates_S2x1x1_S2x1x1_S2x1x1_S2x1x1_S2x1x1_S2x1x5_d2 : Shape.Concatenates [S2x1x1, S2x1x1, S2x1x1, S2x1x1, S2x1x1] S2x1x5 2
  inb_S2x1x5_S2x1x5_0_0_0 : ∀ a, (![0, 0, 0] : Fin 3 → Nat) a + S2x1x5.size a ≤ S2x1x5.size a
  h_S2x1x5 : 0 < S2x1x5.numel
  shapeCasts_S32x1x5_S32x5 : S32x1x5.ShapeCasts S32x5
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x131072x3.size a ≤ S32x131072x3.size a
  hwx0_0 : ∀ i : grid0.Coords, EltTy.bits .f32 = 32 ∨ (Rect.block (s := S32x131072x3) S2x131072x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x131072x1.size a ≤ S32x131072x1.size a
  hwx0_1 : ∀ i : grid0.Coords, EltTy.bits .f32 = 32 ∨ (Rect.block (s := S32x131072x1) S2x131072x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x5.size a ≤ S32x1x5.size a
  hwx0_2 : ∀ i : grid0.Coords, EltTy.bits .f32 = 32 ∨ (Rect.block (s := S32x1x5) S2x1x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1x5.size a ≤ S32x1x5.size a
  hwx0_3 : ∀ i : grid0.Coords, EltTy.bits .f32 = 32 ∨ (Rect.block (s := S32x1x5) S2x1x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1x5.size a ≤ S32x1x5.size a
  hwx0_4 : ∀ i : grid0.Coords, EltTy.bits .f32 = 32 ∨ (Rect.block (s := S32x1x5) S2x1x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1x1.size a ≤ S32x1x1.size a
  hwx0_5 : ∀ i : grid0.Coords, EltTy.bits .f32 = 32 ∨ (Rect.block (s := S32x1x1) S2x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1x14.size a ≤ S32x1x14.size a
  hwx0_6 : ∀ i : grid0.Coords, EltTy.bits .f32 = 32 ∨ (Rect.block (s := S32x1x14) S2x1x14.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x131072x3.size a ≤ S32x131072x3.size a
  hwx0_7 : ∀ i : grid0.Coords, EltTy.bits .f32 = 32 ∨ (Rect.block (s := S32x131072x3) S2x131072x3.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1x5.size a ≤ S32x1x5.size a
  hwx0_8 : ∀ i : grid0.Coords, EltTy.bits .f32 = 32 ∨ (Rect.block (s := S32x1x5) S2x1x5.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x1x5.size a ≤ S32x1x5.size a
  hwx0_9 : ∀ i : grid0.Coords, EltTy.bits .f32 = 32 ∨ (Rect.block (s := S32x1x5) S2x1x5.size (cc0_transform_9 i) (hinb0_9 i)).WholeWords (EltTy.packing .f32)

variable [Facts₀]

abbrev win0_0 : Pipeline.Window sig grid0 :=
  Pipeline.Window.ofSpec (Memref.whole main_arg1) S2x131072x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v71) S2x131072x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v72) S2x1x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v73) S2x1x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v74) S2x1x5.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v75) S2x1x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v76) S2x1x14.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v77_0) S2x131072x3.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v77_1) S2x1x5.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v77_2) S2x1x5.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x131072x3 : Shape := ⟨3, ![32, 131072, 3]⟩
abbrev S32x131072 : Shape := ⟨2, ![32, 131072]⟩
abbrev S32 : Shape := ⟨1, ![32]⟩
abbrev S32x5 : Shape := ⟨2, ![32, 5]⟩
abbrev S_ : Shape := ⟨0, ![]⟩
abbrev S32x4 : Shape := ⟨2, ![32, 4]⟩
abbrev S32x1 : Shape := ⟨2, ![32, 1]⟩
abbrev S32x131072x1 : Shape := ⟨3, ![32, 131072, 1]⟩
abbrev S1 : Shape := ⟨1, ![1]⟩
abbrev S32x1x1 : Shape := ⟨3, ![32, 1, 1]⟩

abbrev nBuf : Space → Nat
  | .hbm => 3873
  | .vmem => 0
  | .smem => 0
  | _ => 0

abbrev hbmTy0_0 (i : Nat) : BufTy := match i % 128 with
  | 0 => ⟨S32x131072x3, .f32⟩
  | 1 => ⟨S32x131072x3, .f32⟩
  | 2 => ⟨S32x131072, .f32⟩
  | 3 => ⟨S32, .f32⟩
  | 4 => ⟨S32, .f32⟩
  | 5 => ⟨S32x5, .f32⟩
  | 6 => ⟨S32x5, .f32⟩
  | 7 => ⟨S32x5, .f32⟩
  | 8 => ⟨S_, .f32⟩
  | 9 => ⟨S_, .f32⟩
  | 10 => ⟨S_, .f32⟩
  | 11 => ⟨S_, .f32⟩
  | 12 => ⟨S_, .f32⟩
  | 13 => ⟨S32, .f32⟩
  | 14 => ⟨S32, .f32⟩
  | 15 => ⟨S32x5, .f32⟩
  | 16 => ⟨S32x5, .f32⟩
  | 17 => ⟨S32x4, .f32⟩
  | 18 => ⟨S32x1, .f32⟩
  | 19 => ⟨S32x4, .f32⟩
  | 20 => ⟨S32x4, .f32⟩
  | 21 => ⟨S32x131072x3, .f32⟩
  | 22 => ⟨S32x131072x1, .f32⟩
  | 23 => ⟨S32x131072x3, .f32⟩
  | 24 => ⟨S32x131072x3, .f32⟩
  | 25 => ⟨S_, .f32⟩
  | 26 => ⟨S32, .f32⟩
  | 27 => ⟨S_, .f32⟩
  | 28 => ⟨S32, .f32⟩
  | 29 => ⟨S32, .f32⟩
  | 30 => ⟨S32, .f32⟩
  | 31 => ⟨S32x1, .f32⟩
  | 32 => ⟨S32x5, .f32⟩
  | 33 => ⟨S32x1, .f32⟩
  | 34 => ⟨S32, .f32⟩
  | 35 => ⟨S_, .f32⟩
  | 36 => ⟨S32, .f32⟩
  | 37 => ⟨S32, .f32⟩
  | 38 => ⟨S32, .f32⟩
  | 39 => ⟨S_, .i32⟩
  | 40 => ⟨S1, .i32⟩
  | 41 => ⟨S32x5, .f32⟩
  | 42 => ⟨S32x1, .f32⟩
  | 43 => ⟨S32, .f32⟩
  | 44 => ⟨S32, .f32⟩
  | 45 => ⟨S32x1, .f32⟩
  | 46 => ⟨S32, .f32⟩
  | 47 => ⟨S32, .f32⟩
  | 48 => ⟨S_, .f32⟩
  | 49 => ⟨S32, .f32⟩
  | 50 => ⟨S32, .f32⟩
  | 51 => ⟨S32, .f32⟩
  | 52 => ⟨S32, .f32⟩
  | 53 => ⟨S32x1, .f32⟩
  | 54 => ⟨S32, .f32⟩
  | 55 => ⟨S32, .f32⟩
  | 56 => ⟨S32x1, .f32⟩
  | 57 => ⟨S32, .f32⟩
  | 58 => ⟨S_, .f32⟩
  | 59 => ⟨S32, .f32⟩
  | 60 => ⟨S32, .f32⟩
  | 61 => ⟨S32, .f32⟩
  | 62 => ⟨S32, .f32⟩
  | 63 => ⟨S32, .f32⟩
  | 64 => ⟨S_, .i32⟩
  | 65 => ⟨S1, .i32⟩
  | 66 => ⟨S32x5, .f32⟩
  | 67 => ⟨S32x1, .f32⟩
  | 68 => ⟨S32, .f32⟩
  | 69 => ⟨S32, .f32⟩
  | 70 => ⟨S32x1, .f32⟩
  | 71 => ⟨S32, .f32⟩
  | 72 => ⟨S32, .f32⟩
  | 73 => ⟨S_, .f32⟩
  | 74 => ⟨S32, .f32⟩
  | 75 => ⟨S32, .f32⟩
  | 76 => ⟨S32, .f32⟩
  | 77 => ⟨S32, .f32⟩
  | 78 => ⟨S32x1, .f32⟩
  | 79 => ⟨S32, .f32⟩
  | 80 => ⟨S32, .f32⟩
  | 81 => ⟨S32x1, .f32⟩
  | 82 => ⟨S32, .f32⟩
  | 83 => ⟨S_, .f32⟩
  | 84 => ⟨S32, .f32⟩
  | 85 => ⟨S32, .f32⟩
  | 86 => ⟨S32, .f32⟩
  | 87 => ⟨S32, .f32⟩
  | 88 => ⟨S32, .f32⟩
  | 89 => ⟨S_, .i32⟩
  | 90 => ⟨S1, .i32⟩
  | 91 => ⟨S32x5, .f32⟩
  | 92 => ⟨S32x1, .f32⟩
  | 93 => ⟨S32, .f32⟩
  | 94 => ⟨S32, .f32⟩
  | 95 => ⟨S32x1, .f32⟩
  | 96 => ⟨S32, .f32⟩
  | 97 => ⟨S32, .f32⟩
  | 98 => ⟨S_, .f32⟩
  | 99 => ⟨S32, .f32⟩
  | 100 => ⟨S32, .f32⟩
  | 101 => ⟨S32, .f32⟩
  | 102 => ⟨S32, .f32⟩
  | 103 => ⟨S32x1, .f32⟩
  | 104 => ⟨S32, .f32⟩
  | 105 => ⟨S32, .f32⟩
  | 106 => ⟨S32x1, .f32⟩
  | 107 => ⟨S32, .f32⟩
  | 108 => ⟨S_, .f32⟩
  | 109 => ⟨S32, .f32⟩
  | 110 => ⟨S32, .f32⟩
  | 111 => ⟨S32, .f32⟩
  | 112 => ⟨S32, .f32⟩
  | 113 => ⟨S32, .f32⟩
  | 114 => ⟨S_, .i32⟩
  | 115 => ⟨S1, .i32⟩
  | 116 => ⟨S32x5, .f32⟩
  | 117 => ⟨S32x1, .f32⟩
  | 118 => ⟨S32, .f32⟩
  | 119 => ⟨S32, .f32⟩
  | 120 => ⟨S32x1, .f32⟩
  | 121 => ⟨S32, .f32⟩
  | 122 => ⟨S32, .f32⟩
  | 123 => ⟨S_, .f32⟩
  | 124 => ⟨S32, .f32⟩
  | 125 => ⟨S32, .f32⟩
  | 126 => ⟨S32, .f32⟩
  | 127 => ⟨S32, .f32⟩
  | _ => ⟨S32x131072x3, .f32⟩

abbrev hbmTy0_1 (i : Nat) : BufTy := match i % 128 with
  | 0 => ⟨S32x1, .f32⟩
  | 1 => ⟨S32, .f32⟩
  | 2 => ⟨S32, .f32⟩
  | 3 => ⟨S32x1, .f32⟩
  | 4 => ⟨S32, .f32⟩
  | 5 => ⟨S_, .f32⟩
  | 6 => ⟨S32, .f32⟩
  | 7 => ⟨S32, .f32⟩
  | 8 => ⟨S32, .f32⟩
  | 9 => ⟨S32, .f32⟩
  | 10 => ⟨S32, .f32⟩
  | 11 => ⟨S_, .i32⟩
  | 12 => ⟨S1, .i32⟩
  | 13 => ⟨S32x5, .f32⟩
  | 14 => ⟨S32x5, .f32⟩
  | 15 => ⟨S32x1, .f32⟩
  | 16 => ⟨S32x5, .f32⟩
  | 17 => ⟨S32x5, .f32⟩
  | 18 => ⟨S32x5, .f32⟩
  | 19 => ⟨S32x1, .f32⟩
  | 20 => ⟨S32, .f32⟩
  | 21 => ⟨S32, .f32⟩
  | 22 => ⟨S32x1, .f32⟩
  | 23 => ⟨S32, .f32⟩
  | 24 => ⟨S32, .f32⟩
  | 25 => ⟨S32, .f32⟩
  | 26 => ⟨S32, .f32⟩
  | 27 => ⟨S32x1x1, .f32⟩
  | 28 => ⟨S32x131072x3, .f32⟩
  | 29 => ⟨S32x131072x3, .f32⟩
  | 30 => ⟨S32x5, .f32⟩
  | 31 => ⟨S32x5, .f32⟩
  | 32 => ⟨S32x4, .f32⟩
  | 33 => ⟨S32x1, .f32⟩
  | 34 => ⟨S32x4, .f32⟩
  | 35 => ⟨S32x4, .f32⟩
  | 36 => ⟨S32x131072x3, .f32⟩
  | 37 => ⟨S32x131072x1, .f32⟩
  | 38 => ⟨S32x131072x3, .f32⟩
  | 39 => ⟨S32x131072x3, .f32⟩
  | 40 => ⟨S_, .f32⟩
  | 41 => ⟨S32, .f32⟩
  | 42 => ⟨S_, .f32⟩
  | 43 => ⟨S32, .f32⟩
  | 44 => ⟨S32, .f32⟩
  | 45 => ⟨S32, .f32⟩
  | 46 => ⟨S32x1, .f32⟩
  | 47 => ⟨S32x5, .f32⟩
  | 48 => ⟨S32x1, .f32⟩
  | 49 => ⟨S32, .f32⟩
  | 50 => ⟨S32, .f32⟩
  | 51 => ⟨S32x1, .f32⟩
  | 52 => ⟨S32, .f32⟩
  | 53 => ⟨S32, .f32⟩
  | 54 => ⟨S_, .f32⟩
  | 55 => ⟨S32, .f32⟩
  | 56 => ⟨S32, .f32⟩
  | 57 => ⟨S32, .f32⟩
  | 58 => ⟨S32, .f32⟩
  | 59 => ⟨S32x1, .f32⟩
  | 60 => ⟨S32, .f32⟩
  | 61 => ⟨S32, .f32⟩
  | 62 => ⟨S32x1, .f32⟩
  | 63 => ⟨S32, .f32⟩
  | 64 => ⟨S_, .f32⟩
  | 65 => ⟨S32, .f32⟩
  | 66 => ⟨S32, .f32⟩
  | 67 => ⟨S32, .f32⟩
  | 68 => ⟨S32, .f32⟩
  | 69 => ⟨S32, .f32⟩
  | 70 => ⟨S_, .i32⟩
  | 71 => ⟨S1, .i32⟩
  | 72 => ⟨S32x5, .f32⟩
  | 73 => ⟨S32x1, .f32⟩
  | 74 => ⟨S32, .f32⟩
  | 75 => ⟨S32, .f32⟩
  | 76 => ⟨S32x1, .f32⟩
  | 77 => ⟨S32, .f32⟩
  | 78 => ⟨S32, .f32⟩
  | 79 => ⟨S_, .f32⟩
  | 80 => ⟨S32, .f32⟩
  | 81 => ⟨S32, .f32⟩
  | 82 => ⟨S32, .f32⟩
  | 83 => ⟨S32, .f32⟩
  | 84 => ⟨S32x1, .f32⟩
  | 85 => ⟨S32, .f32⟩
  | 86 => ⟨S32, .f32⟩
  | 87 => ⟨S32x1, .f32⟩
  | 88 => ⟨S32, .f32⟩
  | 89 => ⟨S_, .f32⟩
  | 90 => ⟨S32, .f32⟩
  | 91 => ⟨S32, .f32⟩
  | 92 => ⟨S32, .f32⟩
  | 93 => ⟨S32, .f32⟩
  | 94 => ⟨S32, .f32⟩
  | 95 => ⟨S_, .i32⟩
  | 96 => ⟨S1, .i32⟩
  | 97 => ⟨S32x5, .f32⟩
  | 98 => ⟨S32x1, .f32⟩
  | 99 => ⟨S32, .f32⟩
  | 100 => ⟨S32, .f32⟩
  | 101 => ⟨S32x1, .f32⟩
  | 102 => ⟨S32, .f32⟩
  | 103 => ⟨S32, .f32⟩
  | 104 => ⟨S_, .f32⟩
  | 105 => ⟨S32, .f32⟩
  | 106 => ⟨S32, .f32⟩
  | 107 => ⟨S32, .f32⟩
  | 108 => ⟨S32, .f32⟩
  | 109 => ⟨S32x1, .f32⟩
  | 110 => ⟨S32, .f32⟩
  | 111 => ⟨S32, .f32⟩
  | 112 => ⟨S32x1, .f32⟩
  | 113 => ⟨S32, .f32⟩
  | 114 => ⟨S_, .f32⟩
  | 115 => ⟨S32, .f32⟩
  | 116 => ⟨S32, .f32⟩
  | 117 => ⟨S32, .f32⟩
  | 118 => ⟨S32, .f32⟩
  | 119 => ⟨S32, .f32⟩
  | 120 => ⟨S_, .i32⟩
  | 121 => ⟨S1, .i32⟩
  | 122 => ⟨S32x5, .f32⟩
  | 123 => ⟨S32x1, .f32⟩
  | 124 => ⟨S32, .f32⟩
  | 125 => ⟨S32, .f32⟩
  | 126 => ⟨S32x1, .f32⟩
  | 127 => ⟨S32, .f32⟩
  | _ => ⟨S32x131072x3, .f32⟩

abbrev hbmTy0_2 (i : Nat) : BufTy := match i % 128 with
  | 0 => ⟨S32, .f32⟩
  | 1 => ⟨S_, .f32⟩
  | 2 => ⟨S32, .f32⟩
  | 3 => ⟨S32, .f32⟩
  | 4 => ⟨S32, .f32⟩
  | 5 => ⟨S32, .f32⟩
  | 6 => ⟨S32x1, .f32⟩
  | 7 => ⟨S32, .f32⟩
  | 8 => ⟨S32, .f32⟩
  | 9 => ⟨S32x1, .f32⟩
  | 10 => ⟨S32, .f32⟩
  | 11 => ⟨S_, .f32⟩
  | 12 => ⟨S32, .f32⟩
  | 13 => ⟨S32, .f32⟩
  | 14 => ⟨S32, .f32⟩
  | 15 => ⟨S32, .f32⟩
  | 16 => ⟨S32, .f32⟩
  | 17 => ⟨S_, .i32⟩
  | 18 => ⟨S1, .i32⟩
  | 19 => ⟨S32x5, .f32⟩
  | 20 => ⟨S32x1, .f32⟩
  | 21 => ⟨S32, .f32⟩
  | 22 => ⟨S_, .f32⟩
  | 23 => ⟨S32, .f32⟩
  | 24 => ⟨S32, .f32⟩
  | 25 => ⟨S32, .f32⟩
  | 26 => ⟨S_, .i32⟩
  | 27 => ⟨S1, .i32⟩
  | 28 => ⟨S32x5, .f32⟩
  | 29 => ⟨S_, .f32⟩
  | 30 => ⟨S_, .f32⟩
  | 31 => ⟨S_, .f32⟩
  | 32 => ⟨S_, .f32⟩
  | 33 => ⟨S32, .f32⟩
  | 34 => ⟨S32, .f32⟩
  | 35 => ⟨S32x5, .f32⟩
  | 36 => ⟨S32x5, .f32⟩
  | 37 => ⟨S32x4, .f32⟩
  | 38 => ⟨S32x1, .f32⟩
  | 39 => ⟨S32x4, .f32⟩
  | 40 => ⟨S32x4, .f32⟩
  | 41 => ⟨S32x131072x3, .f32⟩
  | 42 => ⟨S32x131072x1, .f32⟩
  | 43 => ⟨S32x131072x3, .f32⟩
  | 44 => ⟨S32x131072x3, .f32⟩
  | 45 => ⟨S_, .f32⟩
  | 46 => ⟨S32, .f32⟩
  | 47 => ⟨S_, .f32⟩
  | 48 => ⟨S32, .f32⟩
  | 49 => ⟨S32, .f32⟩
  | 50 => ⟨S32, .f32⟩
  | 51 => ⟨S32x1, .f32⟩
  | 52 => ⟨S32x5, .f32⟩
  | 53 => ⟨S32x1, .f32⟩
  | 54 => ⟨S32, .f32⟩
  | 55 => ⟨S_, .f32⟩
  | 56 => ⟨S32, .f32⟩
  | 57 => ⟨S32, .f32⟩
  | 58 => ⟨S32, .f32⟩
  | 59 => ⟨S_, .i32⟩
  | 60 => ⟨S1, .i32⟩
  | 61 => ⟨S32x5, .f32⟩
  | 62 => ⟨S32x1, .f32⟩
  | 63 => ⟨S32, .f32⟩
  | 64 => ⟨S32, .f32⟩
  | 65 => ⟨S32x1, .f32⟩
  | 66 => ⟨S32, .f32⟩
  | 67 => ⟨S32, .f32⟩
  | 68 => ⟨S_, .f32⟩
  | 69 => ⟨S32, .f32⟩
  | 70 => ⟨S32, .f32⟩
  | 71 => ⟨S32, .f32⟩
  | 72 => ⟨S32, .f32⟩
  | 73 => ⟨S32x1, .f32⟩
  | 74 => ⟨S32, .f32⟩
  | 75 => ⟨S32, .f32⟩
  | 76 => ⟨S32x1, .f32⟩
  | 77 => ⟨S32, .f32⟩
  | 78 => ⟨S_, .f32⟩
  | 79 => ⟨S32, .f32⟩
  | 80 => ⟨S32, .f32⟩
  | 81 => ⟨S32, .f32⟩
  | 82 => ⟨S32, .f32⟩
  | 83 => ⟨S32, .f32⟩
  | 84 => ⟨S_, .i32⟩
  | 85 => ⟨S1, .i32⟩
  | 86 => ⟨S32x5, .f32⟩
  | 87 => ⟨S32x1, .f32⟩
  | 88 => ⟨S32, .f32⟩
  | 89 => ⟨S32, .f32⟩
  | 90 => ⟨S32x1, .f32⟩
  | 91 => ⟨S32, .f32⟩
  | 92 => ⟨S32, .f32⟩
  | 93 => ⟨S_, .f32⟩
  | 94 => ⟨S32, .f32⟩
  | 95 => ⟨S32, .f32⟩
  | 96 => ⟨S32, .f32⟩
  | 97 => ⟨S32, .f32⟩
  | 98 => ⟨S32x1, .f32⟩
  | 99 => ⟨S32, .f32⟩
  | 100 => ⟨S32, .f32⟩
  | 101 => ⟨S32x1, .f32⟩
  | 102 => ⟨S32, .f32⟩
  | 103 => ⟨S_, .f32⟩
  | 104 => ⟨S32, .f32⟩
  | 105 => ⟨S32, .f32⟩
  | 106 => ⟨S32, .f32⟩
  | 107 => ⟨S32, .f32⟩
  | 108 => ⟨S32, .f32⟩
  | 109 => ⟨S_, .i32⟩
  | 110 => ⟨S1, .i32⟩
  | 111 => ⟨S32x5, .f32⟩
  | 112 => ⟨S32x1, .f32⟩
  | 113 => ⟨S32, .f32⟩
  | 114 => ⟨S32, .f32⟩
  | 115 => ⟨S32x1, .f32⟩
  | 116 => ⟨S32, .f32⟩
  | 117 => ⟨S32, .f32⟩
  | 118 => ⟨S_, .f32⟩
  | 119 => ⟨S32, .f32⟩
  | 120 => ⟨S32, .f32⟩
  | 121 => ⟨S32, .f32⟩
  | 122 => ⟨S32, .f32⟩
  | 123 => ⟨S32x1, .f32⟩
  | 124 => ⟨S32, .f32⟩
  | 125 => ⟨S32, .f32⟩
  | 126 => ⟨S32x1, .f32⟩
  | 127 => ⟨S32, .f32⟩
  | _ => ⟨S32x131072x3, .f32⟩

abbrev hbmTy0_3 (i : Nat) : BufTy := match i % 128 with
  | 0 => ⟨S_, .f32⟩
  | 1 => ⟨S32, .f32⟩
  | 2 => ⟨S32, .f32⟩
  | 3 => ⟨S32, .f32⟩
  | 4 => ⟨S32, .f32⟩
  | 5 => ⟨S32, .f32⟩
  | 6 => ⟨S_, .i32⟩
  | 7 => ⟨S1, .i32⟩
  | 8 => ⟨S32x5, .f32⟩
  | 9 => ⟨S32x1, .f32⟩
  | 10 => ⟨S32, .f32⟩
  | 11 => ⟨S32, .f32⟩
  | 12 => ⟨S32x1, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S32, .f32⟩
  | 20 => ⟨S32x1, .f32⟩
  | 21 => ⟨S32, .f32⟩
  | 22 => ⟨S32, .f32⟩
  | 23 => ⟨S32x1, .f32⟩
  | 24 => ⟨S32, .f32⟩
  | 25 => ⟨S_, .f32⟩
  | 26 => ⟨S32, .f32⟩
  | 27 => ⟨S32, .f32⟩
  | 28 => ⟨S32, .f32⟩
  | 29 => ⟨S32, .f32⟩
  | 30 => ⟨S32, .f32⟩
  | 31 => ⟨S_, .i32⟩
  | 32 => ⟨S1, .i32⟩
  | 33 => ⟨S32x5, .f32⟩
  | 34 => ⟨S32x5, .f32⟩
  | 35 => ⟨S32x1, .f32⟩
  | 36 => ⟨S32x5, .f32⟩
  | 37 => ⟨S32x5, .f32⟩
  | 38 => ⟨S32x5, .f32⟩
  | 39 => ⟨S32x1, .f32⟩
  | 40 => ⟨S32, .f32⟩
  | 41 => ⟨S32, .f32⟩
  | 42 => ⟨S32x1, .f32⟩
  | 43 => ⟨S32, .f32⟩
  | 44 => ⟨S32, .f32⟩
  | 45 => ⟨S32, .f32⟩
  | 46 => ⟨S32, .f32⟩
  | 47 => ⟨S32x1x1, .f32⟩
  | 48 => ⟨S32x131072x3, .f32⟩
  | 49 => ⟨S32x131072x3, .f32⟩
  | 50 => ⟨S32x5, .f32⟩
  | 51 => ⟨S32x5, .f32⟩
  | 52 => ⟨S32x4, .f32⟩
  | 53 => ⟨S32x1, .f32⟩
  | 54 => ⟨S32x4, .f32⟩
  | 55 => ⟨S32x4, .f32⟩
  | 56 => ⟨S32x131072x3, .f32⟩
  | 57 => ⟨S32x131072x1, .f32⟩
  | 58 => ⟨S32x131072x3, .f32⟩
  | 59 => ⟨S32x131072x3, .f32⟩
  | 60 => ⟨S_, .f32⟩
  | 61 => ⟨S32, .f32⟩
  | 62 => ⟨S_, .f32⟩
  | 63 => ⟨S32, .f32⟩
  | 64 => ⟨S32, .f32⟩
  | 65 => ⟨S32, .f32⟩
  | 66 => ⟨S32x1, .f32⟩
  | 67 => ⟨S32x5, .f32⟩
  | 68 => ⟨S32x1, .f32⟩
  | 69 => ⟨S32, .f32⟩
  | 70 => ⟨S32, .f32⟩
  | 71 => ⟨S32x1, .f32⟩
  | 72 => ⟨S32, .f32⟩
  | 73 => ⟨S32, .f32⟩
  | 74 => ⟨S_, .f32⟩
  | 75 => ⟨S32, .f32⟩
  | 76 => ⟨S32, .f32⟩
  | 77 => ⟨S32, .f32⟩
  | 78 => ⟨S32, .f32⟩
  | 79 => ⟨S32x1, .f32⟩
  | 80 => ⟨S32, .f32⟩
  | 81 => ⟨S32, .f32⟩
  | 82 => ⟨S32x1, .f32⟩
  | 83 => ⟨S32, .f32⟩
  | 84 => ⟨S_, .f32⟩
  | 85 => ⟨S32, .f32⟩
  | 86 => ⟨S32, .f32⟩
  | 87 => ⟨S32, .f32⟩
  | 88 => ⟨S32, .f32⟩
  | 89 => ⟨S32, .f32⟩
  | 90 => ⟨S_, .i32⟩
  | 91 => ⟨S1, .i32⟩
  | 92 => ⟨S32x5, .f32⟩
  | 93 => ⟨S32x1, .f32⟩
  | 94 => ⟨S32, .f32⟩
  | 95 => ⟨S32, .f32⟩
  | 96 => ⟨S32x1, .f32⟩
  | 97 => ⟨S32, .f32⟩
  | 98 => ⟨S32, .f32⟩
  | 99 => ⟨S_, .f32⟩
  | 100 => ⟨S32, .f32⟩
  | 101 => ⟨S32, .f32⟩
  | 102 => ⟨S32, .f32⟩
  | 103 => ⟨S32, .f32⟩
  | 104 => ⟨S32x1, .f32⟩
  | 105 => ⟨S32, .f32⟩
  | 106 => ⟨S32, .f32⟩
  | 107 => ⟨S32x1, .f32⟩
  | 108 => ⟨S32, .f32⟩
  | 109 => ⟨S_, .f32⟩
  | 110 => ⟨S32, .f32⟩
  | 111 => ⟨S32, .f32⟩
  | 112 => ⟨S32, .f32⟩
  | 113 => ⟨S32, .f32⟩
  | 114 => ⟨S32, .f32⟩
  | 115 => ⟨S_, .i32⟩
  | 116 => ⟨S1, .i32⟩
  | 117 => ⟨S32x5, .f32⟩
  | 118 => ⟨S32x1, .f32⟩
  | 119 => ⟨S32, .f32⟩
  | 120 => ⟨S32, .f32⟩
  | 121 => ⟨S32x1, .f32⟩
  | 122 => ⟨S32, .f32⟩
  | 123 => ⟨S32, .f32⟩
  | 124 => ⟨S_, .f32⟩
  | 125 => ⟨S32, .f32⟩
  | 126 => ⟨S32, .f32⟩
  | 127 => ⟨S32, .f32⟩
  | _ => ⟨S32x131072x3, .f32⟩

abbrev hbmTy0_4 (i : Nat) : BufTy := match i % 128 with
  | 0 => ⟨S32, .f32⟩
  | 1 => ⟨S32x1, .f32⟩
  | 2 => ⟨S32, .f32⟩
  | 3 => ⟨S32, .f32⟩
  | 4 => ⟨S32x1, .f32⟩
  | 5 => ⟨S32, .f32⟩
  | 6 => ⟨S_, .f32⟩
  | 7 => ⟨S32, .f32⟩
  | 8 => ⟨S32, .f32⟩
  | 9 => ⟨S32, .f32⟩
  | 10 => ⟨S32, .f32⟩
  | 11 => ⟨S32, .f32⟩
  | 12 => ⟨S_, .i32⟩
  | 13 => ⟨S1, .i32⟩
  | 14 => ⟨S32x5, .f32⟩
  | 15 => ⟨S32x1, .f32⟩
  | 16 => ⟨S32, .f32⟩
  | 17 => ⟨S32, .f32⟩
  | 18 => ⟨S32x1, .f32⟩
  | 19 => ⟨S32, .f32⟩
  | 20 => ⟨S32, .f32⟩
  | 21 => ⟨S_, .f32⟩
  | 22 => ⟨S32, .f32⟩
  | 23 => ⟨S32, .f32⟩
  | 24 => ⟨S32, .f32⟩
  | 25 => ⟨S32, .f32⟩
  | 26 => ⟨S32x1, .f32⟩
  | 27 => ⟨S32, .f32⟩
  | 28 => ⟨S32, .f32⟩
  | 29 => ⟨S32x1, .f32⟩
  | 30 => ⟨S32, .f32⟩
  | 31 => ⟨S_, .f32⟩
  | 32 => ⟨S32, .f32⟩
  | 33 => ⟨S32, .f32⟩
  | 34 => ⟨S32, .f32⟩
  | 35 => ⟨S32, .f32⟩
  | 36 => ⟨S32, .f32⟩
  | 37 => ⟨S_, .i32⟩
  | 38 => ⟨S1, .i32⟩
  | 39 => ⟨S32x5, .f32⟩
  | 40 => ⟨S32x1, .f32⟩
  | 41 => ⟨S32, .f32⟩
  | 42 => ⟨S_, .f32⟩
  | 43 => ⟨S32, .f32⟩
  | 44 => ⟨S32, .f32⟩
  | 45 => ⟨S32, .f32⟩
  | 46 => ⟨S_, .i32⟩
  | 47 => ⟨S1, .i32⟩
  | 48 => ⟨S32x5, .f32⟩
  | 49 => ⟨S_, .f32⟩
  | 50 => ⟨S_, .f32⟩
  | 51 => ⟨S_, .f32⟩
  | 52 => ⟨S_, .f32⟩
  | 53 => ⟨S32, .f32⟩
  | 54 => ⟨S32, .f32⟩
  | 55 => ⟨S32x5, .f32⟩
  | 56 => ⟨S32x5, .f32⟩
  | 57 => ⟨S32x4, .f32⟩
  | 58 => ⟨S32x1, .f32⟩
  | 59 => ⟨S32x4, .f32⟩
  | 60 => ⟨S32x4, .f32⟩
  | 61 => ⟨S32x131072x3, .f32⟩
  | 62 => ⟨S32x131072x1, .f32⟩
  | 63 => ⟨S32x131072x3, .f32⟩
  | 64 => ⟨S32x131072x3, .f32⟩
  | 65 => ⟨S_, .f32⟩
  | 66 => ⟨S32, .f32⟩
  | 67 => ⟨S_, .f32⟩
  | 68 => ⟨S32, .f32⟩
  | 69 => ⟨S32, .f32⟩
  | 70 => ⟨S32, .f32⟩
  | 71 => ⟨S32x1, .f32⟩
  | 72 => ⟨S32x5, .f32⟩
  | 73 => ⟨S32x1, .f32⟩
  | 74 => ⟨S32, .f32⟩
  | 75 => ⟨S_, .f32⟩
  | 76 => ⟨S32, .f32⟩
  | 77 => ⟨S32, .f32⟩
  | 78 => ⟨S32, .f32⟩
  | 79 => ⟨S_, .i32⟩
  | 80 => ⟨S1, .i32⟩
  | 81 => ⟨S32x5, .f32⟩
  | 82 => ⟨S32x1, .f32⟩
  | 83 => ⟨S32, .f32⟩
  | 84 => ⟨S32, .f32⟩
  | 85 => ⟨S32x1, .f32⟩
  | 86 => ⟨S32, .f32⟩
  | 87 => ⟨S32, .f32⟩
  | 88 => ⟨S_, .f32⟩
  | 89 => ⟨S32, .f32⟩
  | 90 => ⟨S32, .f32⟩
  | 91 => ⟨S32, .f32⟩
  | 92 => ⟨S32, .f32⟩
  | 93 => ⟨S32x1, .f32⟩
  | 94 => ⟨S32, .f32⟩
  | 95 => ⟨S32, .f32⟩
  | 96 => ⟨S32x1, .f32⟩
  | 97 => ⟨S32, .f32⟩
  | 98 => ⟨S_, .f32⟩
  | 99 => ⟨S32, .f32⟩
  | 100 => ⟨S32, .f32⟩
  | 101 => ⟨S32, .f32⟩
  | 102 => ⟨S32, .f32⟩
  | 103 => ⟨S32, .f32⟩
  | 104 => ⟨S_, .i32⟩
  | 105 => ⟨S1, .i32⟩
  | 106 => ⟨S32x5, .f32⟩
  | 107 => ⟨S32x1, .f32⟩
  | 108 => ⟨S32, .f32⟩
  | 109 => ⟨S32, .f32⟩
  | 110 => ⟨S32x1, .f32⟩
  | 111 => ⟨S32, .f32⟩
  | 112 => ⟨S32, .f32⟩
  | 113 => ⟨S_, .f32⟩
  | 114 => ⟨S32, .f32⟩
  | 115 => ⟨S32, .f32⟩
  | 116 => ⟨S32, .f32⟩
  | 117 => ⟨S32, .f32⟩
  | 118 => ⟨S32x1, .f32⟩
  | 119 => ⟨S32, .f32⟩
  | 120 => ⟨S32, .f32⟩
  | 121 => ⟨S32x1, .f32⟩
  | 122 => ⟨S32, .f32⟩
  | 123 => ⟨S_, .f32⟩
  | 124 => ⟨S32, .f32⟩
  | 125 => ⟨S32, .f32⟩
  | 126 => ⟨S32, .f32⟩
  | 127 => ⟨S32, .f32⟩
  | _ => ⟨S32x131072x3, .f32⟩

abbrev hbmTy0_5 (i : Nat) : BufTy := match i % 128 with
  | 0 => ⟨S32, .f32⟩
  | 1 => ⟨S_, .i32⟩
  | 2 => ⟨S1, .i32⟩
  | 3 => ⟨S32x5, .f32⟩
  | 4 => ⟨S32x1, .f32⟩
  | 5 => ⟨S32, .f32⟩
  | 6 => ⟨S32, .f32⟩
  | 7 => ⟨S32x1, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S32, .f32⟩
  | 15 => ⟨S32x1, .f32⟩
  | 16 => ⟨S32, .f32⟩
  | 17 => ⟨S32, .f32⟩
  | 18 => ⟨S32x1, .f32⟩
  | 19 => ⟨S32, .f32⟩
  | 20 => ⟨S_, .f32⟩
  | 21 => ⟨S32, .f32⟩
  | 22 => ⟨S32, .f32⟩
  | 23 => ⟨S32, .f32⟩
  | 24 => ⟨S32, .f32⟩
  | 25 => ⟨S32, .f32⟩
  | 26 => ⟨S_, .i32⟩
  | 27 => ⟨S1, .i32⟩
  | 28 => ⟨S32x5, .f32⟩
  | 29 => ⟨S32x1, .f32⟩
  | 30 => ⟨S32, .f32⟩
  | 31 => ⟨S32, .f32⟩
  | 32 => ⟨S32x1, .f32⟩
  | 33 => ⟨S32, .f32⟩
  | 34 => ⟨S32, .f32⟩
  | 35 => ⟨S_, .f32⟩
  | 36 => ⟨S32, .f32⟩
  | 37 => ⟨S32, .f32⟩
  | 38 => ⟨S32, .f32⟩
  | 39 => ⟨S32, .f32⟩
  | 40 => ⟨S32x1, .f32⟩
  | 41 => ⟨S32, .f32⟩
  | 42 => ⟨S32, .f32⟩
  | 43 => ⟨S32x1, .f32⟩
  | 44 => ⟨S32, .f32⟩
  | 45 => ⟨S_, .f32⟩
  | 46 => ⟨S32, .f32⟩
  | 47 => ⟨S32, .f32⟩
  | 48 => ⟨S32, .f32⟩
  | 49 => ⟨S32, .f32⟩
  | 50 => ⟨S32, .f32⟩
  | 51 => ⟨S_, .i32⟩
  | 52 => ⟨S1, .i32⟩
  | 53 => ⟨S32x5, .f32⟩
  | 54 => ⟨S32x5, .f32⟩
  | 55 => ⟨S32x1, .f32⟩
  | 56 => ⟨S32x5, .f32⟩
  | 57 => ⟨S32x5, .f32⟩
  | 58 => ⟨S32x5, .f32⟩
  | 59 => ⟨S32x1, .f32⟩
  | 60 => ⟨S32, .f32⟩
  | 61 => ⟨S32, .f32⟩
  | 62 => ⟨S32x1, .f32⟩
  | 63 => ⟨S32, .f32⟩
  | 64 => ⟨S32, .f32⟩
  | 65 => ⟨S32, .f32⟩
  | 66 => ⟨S32, .f32⟩
  | 67 => ⟨S32x1x1, .f32⟩
  | 68 => ⟨S32x131072x3, .f32⟩
  | 69 => ⟨S32x131072x3, .f32⟩
  | 70 => ⟨S32x5, .f32⟩
  | 71 => ⟨S32x5, .f32⟩
  | 72 => ⟨S32x4, .f32⟩
  | 73 => ⟨S32x1, .f32⟩
  | 74 => ⟨S32x4, .f32⟩
  | 75 => ⟨S32x4, .f32⟩
  | 76 => ⟨S32x131072x3, .f32⟩
  | 77 => ⟨S32x131072x1, .f32⟩
  | 78 => ⟨S32x131072x3, .f32⟩
  | 79 => ⟨S32x131072x3, .f32⟩
  | 80 => ⟨S_, .f32⟩
  | 81 => ⟨S32, .f32⟩
  | 82 => ⟨S_, .f32⟩
  | 83 => ⟨S32, .f32⟩
  | 84 => ⟨S32, .f32⟩
  | 85 => ⟨S32, .f32⟩
  | 86 => ⟨S32x1, .f32⟩
  | 87 => ⟨S32x5, .f32⟩
  | 88 => ⟨S32x1, .f32⟩
  | 89 => ⟨S32, .f32⟩
  | 90 => ⟨S32, .f32⟩
  | 91 => ⟨S32x1, .f32⟩
  | 92 => ⟨S32, .f32⟩
  | 93 => ⟨S32, .f32⟩
  | 94 => ⟨S_, .f32⟩
  | 95 => ⟨S32, .f32⟩
  | 96 => ⟨S32, .f32⟩
  | 97 => ⟨S32, .f32⟩
  | 98 => ⟨S32, .f32⟩
  | 99 => ⟨S32x1, .f32⟩
  | 100 => ⟨S32, .f32⟩
  | 101 => ⟨S32, .f32⟩
  | 102 => ⟨S32x1, .f32⟩
  | 103 => ⟨S32, .f32⟩
  | 104 => ⟨S_, .f32⟩
  | 105 => ⟨S32, .f32⟩
  | 106 => ⟨S32, .f32⟩
  | 107 => ⟨S32, .f32⟩
  | 108 => ⟨S32, .f32⟩
  | 109 => ⟨S32, .f32⟩
  | 110 => ⟨S_, .i32⟩
  | 111 => ⟨S1, .i32⟩
  | 112 => ⟨S32x5, .f32⟩
  | 113 => ⟨S32x1, .f32⟩
  | 114 => ⟨S32, .f32⟩
  | 115 => ⟨S32, .f32⟩
  | 116 => ⟨S32x1, .f32⟩
  | 117 => ⟨S32, .f32⟩
  | 118 => ⟨S32, .f32⟩
  | 119 => ⟨S_, .f32⟩
  | 120 => ⟨S32, .f32⟩
  | 121 => ⟨S32, .f32⟩
  | 122 => ⟨S32, .f32⟩
  | 123 => ⟨S32, .f32⟩
  | 124 => ⟨S32x1, .f32⟩
  | 125 => ⟨S32, .f32⟩
  | 126 => ⟨S32, .f32⟩
  | 127 => ⟨S32x1, .f32⟩
  | _ => ⟨S32x131072x3, .f32⟩

abbrev hbmTy0_6 (i : Nat) : BufTy := match i % 128 with
  | 0 => ⟨S32, .f32⟩
  | 1 => ⟨S_, .f32⟩
  | 2 => ⟨S32, .f32⟩
  | 3 => ⟨S32, .f32⟩
  | 4 => ⟨S32, .f32⟩
  | 5 => ⟨S32, .f32⟩
  | 6 => ⟨S32, .f32⟩
  | 7 => ⟨S_, .i32⟩
  | 8 => ⟨S1, .i32⟩
  | 9 => ⟨S32x5, .f32⟩
  | 10 => ⟨S32x1, .f32⟩
  | 11 => ⟨S32, .f32⟩
  | 12 => ⟨S32, .f32⟩
  | 13 => ⟨S32x1, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S32, .f32⟩
  | 21 => ⟨S32x1, .f32⟩
  | 22 => ⟨S32, .f32⟩
  | 23 => ⟨S32, .f32⟩
  | 24 => ⟨S32x1, .f32⟩
  | 25 => ⟨S32, .f32⟩
  | 26 => ⟨S_, .f32⟩
  | 27 => ⟨S32, .f32⟩
  | 28 => ⟨S32, .f32⟩
  | 29 => ⟨S32, .f32⟩
  | 30 => ⟨S32, .f32⟩
  | 31 => ⟨S32, .f32⟩
  | 32 => ⟨S_, .i32⟩
  | 33 => ⟨S1, .i32⟩
  | 34 => ⟨S32x5, .f32⟩
  | 35 => ⟨S32x1, .f32⟩
  | 36 => ⟨S32, .f32⟩
  | 37 => ⟨S32, .f32⟩
  | 38 => ⟨S32x1, .f32⟩
  | 39 => ⟨S32, .f32⟩
  | 40 => ⟨S32, .f32⟩
  | 41 => ⟨S_, .f32⟩
  | 42 => ⟨S32, .f32⟩
  | 43 => ⟨S32, .f32⟩
  | 44 => ⟨S32, .f32⟩
  | 45 => ⟨S32, .f32⟩
  | 46 => ⟨S32x1, .f32⟩
  | 47 => ⟨S32, .f32⟩
  | 48 => ⟨S32, .f32⟩
  | 49 => ⟨S32x1, .f32⟩
  | 50 => ⟨S32, .f32⟩
  | 51 => ⟨S_, .f32⟩
  | 52 => ⟨S32, .f32⟩
  | 53 => ⟨S32, .f32⟩
  | 54 => ⟨S32, .f32⟩
  | 55 => ⟨S32, .f32⟩
  | 56 => ⟨S32, .f32⟩
  | 57 => ⟨S_, .i32⟩
  | 58 => ⟨S1, .i32⟩
  | 59 => ⟨S32x5, .f32⟩
  | 60 => ⟨S32x1, .f32⟩
  | 61 => ⟨S32, .f32⟩
  | 62 => ⟨S_, .f32⟩
  | 63 => ⟨S32, .f32⟩
  | 64 => ⟨S32, .f32⟩
  | 65 => ⟨S32, .f32⟩
  | 66 => ⟨S_, .i32⟩
  | 67 => ⟨S1, .i32⟩
  | 68 => ⟨S32x5, .f32⟩
  | 69 => ⟨S_, .f32⟩
  | 70 => ⟨S_, .f32⟩
  | 71 => ⟨S_, .f32⟩
  | 72 => ⟨S_, .f32⟩
  | 73 => ⟨S32, .f32⟩
  | 74 => ⟨S32, .f32⟩
  | 75 => ⟨S32x5, .f32⟩
  | 76 => ⟨S32x5, .f32⟩
  | 77 => ⟨S32x4, .f32⟩
  | 78 => ⟨S32x1, .f32⟩
  | 79 => ⟨S32x4, .f32⟩
  | 80 => ⟨S32x4, .f32⟩
  | 81 => ⟨S32x131072x3, .f32⟩
  | 82 => ⟨S32x131072x1, .f32⟩
  | 83 => ⟨S32x131072x3, .f32⟩
  | 84 => ⟨S32x131072x3, .f32⟩
  | 85 => ⟨S_, .f32⟩
  | 86 => ⟨S32, .f32⟩
  | 87 => ⟨S_, .f32⟩
  | 88 => ⟨S32, .f32⟩
  | 89 => ⟨S32, .f32⟩
  | 90 => ⟨S32, .f32⟩
  | 91 => ⟨S32x1, .f32⟩
  | 92 => ⟨S32x5, .f32⟩
  | 93 => ⟨S32x1, .f32⟩
  | 94 => ⟨S32, .f32⟩
  | 95 => ⟨S_, .f32⟩
  | 96 => ⟨S32, .f32⟩
  | 97 => ⟨S32, .f32⟩
  | 98 => ⟨S32, .f32⟩
  | 99 => ⟨S_, .i32⟩
  | 100 => ⟨S1, .i32⟩
  | 101 => ⟨S32x5, .f32⟩
  | 102 => ⟨S32x1, .f32⟩
  | 103 => ⟨S32, .f32⟩
  | 104 => ⟨S32, .f32⟩
  | 105 => ⟨S32x1, .f32⟩
  | 106 => ⟨S32, .f32⟩
  | 107 => ⟨S32, .f32⟩
  | 108 => ⟨S_, .f32⟩
  | 109 => ⟨S32, .f32⟩
  | 110 => ⟨S32, .f32⟩
  | 111 => ⟨S32, .f32⟩
  | 112 => ⟨S32, .f32⟩
  | 113 => ⟨S32x1, .f32⟩
  | 114 => ⟨S32, .f32⟩
  | 115 => ⟨S32, .f32⟩
  | 116 => ⟨S32x1, .f32⟩
  | 117 => ⟨S32, .f32⟩
  | 118 => ⟨S_, .f32⟩
  | 119 => ⟨S32, .f32⟩
  | 120 => ⟨S32, .f32⟩
  | 121 => ⟨S32, .f32⟩
  | 122 => ⟨S32, .f32⟩
  | 123 => ⟨S32, .f32⟩
  | 124 => ⟨S_, .i32⟩
  | 125 => ⟨S1, .i32⟩
  | 126 => ⟨S32x5, .f32⟩
  | 127 => ⟨S32x1, .f32⟩
  | _ => ⟨S32x131072x3, .f32⟩

abbrev hbmTy0_7 (i : Nat) : BufTy := match i % 128 with
  | 0 => ⟨S32, .f32⟩
  | 1 => ⟨S32, .f32⟩
  | 2 => ⟨S32x1, .f32⟩
  | 3 => ⟨S32, .f32⟩
  | 4 => ⟨S32, .f32⟩
  | 5 => ⟨S_, .f32⟩
  | 6 => ⟨S32, .f32⟩
  | 7 => ⟨S32, .f32⟩
  | 8 => ⟨S32, .f32⟩
  | 9 => ⟨S32, .f32⟩
  | 10 => ⟨S32x1, .f32⟩
  | 11 => ⟨S32, .f32⟩
  | 12 => ⟨S32, .f32⟩
  | 13 => ⟨S32x1, .f32⟩
  | 14 => ⟨S32, .f32⟩
  | 15 => ⟨S_, .f32⟩
  | 16 => ⟨S32, .f32⟩
  | 17 => ⟨S32, .f32⟩
  | 18 => ⟨S32, .f32⟩
  | 19 => ⟨S32, .f32⟩
  | 20 => ⟨S32, .f32⟩
  | 21 => ⟨S_, .i32⟩
  | 22 => ⟨S1, .i32⟩
  | 23 => ⟨S32x5, .f32⟩
  | 24 => ⟨S32x1, .f32⟩
  | 25 => ⟨S32, .f32⟩
  | 26 => ⟨S32, .f32⟩
  | 27 => ⟨S32x1, .f32⟩
  | 28 => ⟨S32, .f32⟩
  | 29 => ⟨S32, .f32⟩
  | 30 => ⟨S_, .f32⟩
  | 31 => ⟨S32, .f32⟩
  | 32 => ⟨S32, .f32⟩
  | 33 => ⟨S32, .f32⟩
  | 34 => ⟨S32, .f32⟩
  | 35 => ⟨S32x1, .f32⟩
  | 36 => ⟨S32, .f32⟩
  | 37 => ⟨S32, .f32⟩
  | 38 => ⟨S32x1, .f32⟩
  | 39 => ⟨S32, .f32⟩
  | 40 => ⟨S_, .f32⟩
  | 41 => ⟨S32, .f32⟩
  | 42 => ⟨S32, .f32⟩
  | 43 => ⟨S32, .f32⟩
  | 44 => ⟨S32, .f32⟩
  | 45 => ⟨S32, .f32⟩
  | 46 => ⟨S_, .i32⟩
  | 47 => ⟨S1, .i32⟩
  | 48 => ⟨S32x5, .f32⟩
  | 49 => ⟨S32x1, .f32⟩
  | 50 => ⟨S32, .f32⟩
  | 51 => ⟨S32, .f32⟩
  | 52 => ⟨S32x1, .f32⟩
  | 53 => ⟨S32, .f32⟩
  | 54 => ⟨S32, .f32⟩
  | 55 => ⟨S_, .f32⟩
  | 56 => ⟨S32, .f32⟩
  | 57 => ⟨S32, .f32⟩
  | 58 => ⟨S32, .f32⟩
  | 59 => ⟨S32, .f32⟩
  | 60 => ⟨S32x1, .f32⟩
  | 61 => ⟨S32, .f32⟩
  | 62 => ⟨S32, .f32⟩
  | 63 => ⟨S32x1, .f32⟩
  | 64 => ⟨S32, .f32⟩
  | 65 => ⟨S_, .f32⟩
  | 66 => ⟨S32, .f32⟩
  | 67 => ⟨S32, .f32⟩
  | 68 => ⟨S32, .f32⟩
  | 69 => ⟨S32, .f32⟩
  | 70 => ⟨S32, .f32⟩
  | 71 => ⟨S_, .i32⟩
  | 72 => ⟨S1, .i32⟩
  | 73 => ⟨S32x5, .f32⟩
  | 74 => ⟨S32x5, .f32⟩
  | 75 => ⟨S32x1, .f32⟩
  | 76 => ⟨S32x5, .f32⟩
  | 77 => ⟨S32x5, .f32⟩
  | 78 => ⟨S32x5, .f32⟩
  | 79 => ⟨S32x1, .f32⟩
  | 80 => ⟨S32, .f32⟩
  | 81 => ⟨S32, .f32⟩
  | 82 => ⟨S32x1, .f32⟩
  | 83 => ⟨S32, .f32⟩
  | 84 => ⟨S32, .f32⟩
  | 85 => ⟨S32, .f32⟩
  | 86 => ⟨S32, .f32⟩
  | 87 => ⟨S32x1x1, .f32⟩
  | 88 => ⟨S32x131072x3, .f32⟩
  | 89 => ⟨S32x131072x3, .f32⟩
  | 90 => ⟨S32x5, .f32⟩
  | 91 => ⟨S32x5, .f32⟩
  | 92 => ⟨S32x4, .f32⟩
  | 93 => ⟨S32x1, .f32⟩
  | 94 => ⟨S32x4, .f32⟩
  | 95 => ⟨S32x4, .f32⟩
  | 96 => ⟨S32x131072x3, .f32⟩
  | 97 => ⟨S32x131072x1, .f32⟩
  | 98 => ⟨S32x131072x3, .f32⟩
  | 99 => ⟨S32x131072x3, .f32⟩
  | 100 => ⟨S_, .f32⟩
  | 101 => ⟨S32, .f32⟩
  | 102 => ⟨S_, .f32⟩
  | 103 => ⟨S32, .f32⟩
  | 104 => ⟨S32, .f32⟩
  | 105 => ⟨S32, .f32⟩
  | 106 => ⟨S32x1, .f32⟩
  | 107 => ⟨S32x5, .f32⟩
  | 108 => ⟨S32x1, .f32⟩
  | 109 => ⟨S32, .f32⟩
  | 110 => ⟨S32, .f32⟩
  | 111 => ⟨S32x1, .f32⟩
  | 112 => ⟨S32, .f32⟩
  | 113 => ⟨S32, .f32⟩
  | 114 => ⟨S_, .f32⟩
  | 115 => ⟨S32, .f32⟩
  | 116 => ⟨S32, .f32⟩
  | 117 => ⟨S32, .f32⟩
  | 118 => ⟨S32, .f32⟩
  | 119 => ⟨S32x1, .f32⟩
  | 120 => ⟨S32, .f32⟩
  | 121 => ⟨S32, .f32⟩
  | 122 => ⟨S32x1, .f32⟩
  | 123 => ⟨S32, .f32⟩
  | 124 => ⟨S_, .f32⟩
  | 125 => ⟨S32, .f32⟩
  | 126 => ⟨S32, .f32⟩
  | 127 => ⟨S32, .f32⟩
  | _ => ⟨S32x131072x3, .f32⟩

abbrev hbmTy0_8 (i : Nat) : BufTy := match i % 128 with
  | 0 => ⟨S32, .f32⟩
  | 1 => ⟨S32, .f32⟩
  | 2 => ⟨S_, .i32⟩
  | 3 => ⟨S1, .i32⟩
  | 4 => ⟨S32x5, .f32⟩
  | 5 => ⟨S32x1, .f32⟩
  | 6 => ⟨S32, .f32⟩
  | 7 => ⟨S32, .f32⟩
  | 8 => ⟨S32x1, .f32⟩
  | 9 => ⟨S32, .f32⟩
  | 10 => ⟨S32, .f32⟩
  | 11 => ⟨S_, .f32⟩
  | 12 => ⟨S32, .f32⟩
  | 13 => ⟨S32, .f32⟩
  | 14 => ⟨S32, .f32⟩
  | 15 => ⟨S32, .f32⟩
  | 16 => ⟨S32x1, .f32⟩
  | 17 => ⟨S32, .f32⟩
  | 18 => ⟨S32, .f32⟩
  | 19 => ⟨S32x1, .f32⟩
  | 20 => ⟨S32, .f32⟩
  | 21 => ⟨S_, .f32⟩
  | 22 => ⟨S32, .f32⟩
  | 23 => ⟨S32, .f32⟩
  | 24 => ⟨S32, .f32⟩
  | 25 => ⟨S32, .f32⟩
  | 26 => ⟨S32, .f32⟩
  | 27 => ⟨S_, .i32⟩
  | 28 => ⟨S1, .i32⟩
  | 29 => ⟨S32x5, .f32⟩
  | 30 => ⟨S32x1, .f32⟩
  | 31 => ⟨S32, .f32⟩
  | 32 => ⟨S32, .f32⟩
  | 33 => ⟨S32x1, .f32⟩
  | 34 => ⟨S32, .f32⟩
  | 35 => ⟨S32, .f32⟩
  | 36 => ⟨S_, .f32⟩
  | 37 => ⟨S32, .f32⟩
  | 38 => ⟨S32, .f32⟩
  | 39 => ⟨S32, .f32⟩
  | 40 => ⟨S32, .f32⟩
  | 41 => ⟨S32x1, .f32⟩
  | 42 => ⟨S32, .f32⟩
  | 43 => ⟨S32, .f32⟩
  | 44 => ⟨S32x1, .f32⟩
  | 45 => ⟨S32, .f32⟩
  | 46 => ⟨S_, .f32⟩
  | 47 => ⟨S32, .f32⟩
  | 48 => ⟨S32, .f32⟩
  | 49 => ⟨S32, .f32⟩
  | 50 => ⟨S32, .f32⟩
  | 51 => ⟨S32, .f32⟩
  | 52 => ⟨S_, .i32⟩
  | 53 => ⟨S1, .i32⟩
  | 54 => ⟨S32x5, .f32⟩
  | 55 => ⟨S32x1, .f32⟩
  | 56 => ⟨S32, .f32⟩
  | 57 => ⟨S32, .f32⟩
  | 58 => ⟨S32x1, .f32⟩
  | 59 => ⟨S32, .f32⟩
  | 60 => ⟨S32, .f32⟩
  | 61 => ⟨S_, .f32⟩
  | 62 => ⟨S32, .f32⟩
  | 63 => ⟨S32, .f32⟩
  | 64 => ⟨S32, .f32⟩
  | 65 => ⟨S32, .f32⟩
  | 66 => ⟨S32x1, .f32⟩
  | 67 => ⟨S32, .f32⟩
  | 68 => ⟨S32, .f32⟩
  | 69 => ⟨S32x1, .f32⟩
  | 70 => ⟨S32, .f32⟩
  | 71 => ⟨S_, .f32⟩
  | 72 => ⟨S32, .f32⟩
  | 73 => ⟨S32, .f32⟩
  | 74 => ⟨S32, .f32⟩
  | 75 => ⟨S32, .f32⟩
  | 76 => ⟨S32, .f32⟩
  | 77 => ⟨S_, .i32⟩
  | 78 => ⟨S1, .i32⟩
  | 79 => ⟨S32x5, .f32⟩
  | 80 => ⟨S32x1, .f32⟩
  | 81 => ⟨S32, .f32⟩
  | 82 => ⟨S_, .f32⟩
  | 83 => ⟨S32, .f32⟩
  | 84 => ⟨S32, .f32⟩
  | 85 => ⟨S32, .f32⟩
  | 86 => ⟨S_, .i32⟩
  | 87 => ⟨S1, .i32⟩
  | 88 => ⟨S32x5, .f32⟩
  | 89 => ⟨S_, .f32⟩
  | 90 => ⟨S_, .f32⟩
  | 91 => ⟨S_, .f32⟩
  | 92 => ⟨S_, .f32⟩
  | 93 => ⟨S32, .f32⟩
  | 94 => ⟨S32, .f32⟩
  | 95 => ⟨S32x5, .f32⟩
  | 96 => ⟨S32x5, .f32⟩
  | 97 => ⟨S32x4, .f32⟩
  | 98 => ⟨S32x1, .f32⟩
  | 99 => ⟨S32x4, .f32⟩
  | 100 => ⟨S32x4, .f32⟩
  | 101 => ⟨S32x131072x3, .f32⟩
  | 102 => ⟨S32x131072x1, .f32⟩
  | 103 => ⟨S32x131072x3, .f32⟩
  | 104 => ⟨S32x131072x3, .f32⟩
  | 105 => ⟨S_, .f32⟩
  | 106 => ⟨S32, .f32⟩
  | 107 => ⟨S_, .f32⟩
  | 108 => ⟨S32, .f32⟩
  | 109 => ⟨S32, .f32⟩
  | 110 => ⟨S32, .f32⟩
  | 111 => ⟨S32x1, .f32⟩
  | 112 => ⟨S32x5, .f32⟩
  | 113 => ⟨S32x1, .f32⟩
  | 114 => ⟨S32, .f32⟩
  | 115 => ⟨S_, .f32⟩
  | 116 => ⟨S32, .f32⟩
  | 117 => ⟨S32, .f32⟩
  | 118 => ⟨S32, .f32⟩
  | 119 => ⟨S_, .i32⟩
  | 120 => ⟨S1, .i32⟩
  | 121 => ⟨S32x5, .f32⟩
  | 122 => ⟨S32x1, .f32⟩
  | 123 => ⟨S32, .f32⟩
  | 124 => ⟨S32, .f32⟩
  | 125 => ⟨S32x1, .f32⟩
  | 126 => ⟨S32, .f32⟩
  | 127 => ⟨S32, .f32⟩
  | _ => ⟨S32x131072x3, .f32⟩

abbrev hbmTy0_9 (i : Nat) : BufTy := match i % 128 with
  | 0 => ⟨S_, .f32⟩
  | 1 => ⟨S32, .f32⟩
  | 2 => ⟨S32, .f32⟩
  | 3 => ⟨S32, .f32⟩
  | 4 => ⟨S32, .f32⟩
  | 5 => ⟨S32x1, .f32⟩
  | 6 => ⟨S32, .f32⟩
  | 7 => ⟨S32, .f32⟩
  | 8 => ⟨S32x1, .f32⟩
  | 9 => ⟨S32, .f32⟩
  | 10 => ⟨S_, .f32⟩
  | 11 => ⟨S32, .f32⟩
  | 12 => ⟨S32, .f32⟩
  | 13 => ⟨S32, .f32⟩
  | 14 => ⟨S32, .f32⟩
  | 15 => ⟨S32, .f32⟩
  | 16 => ⟨S_, .i32⟩
  | 17 => ⟨S1, .i32⟩
  | 18 => ⟨S32x5, .f32⟩
  | 19 => ⟨S32x1, .f32⟩
  | 20 => ⟨S32, .f32⟩
  | 21 => ⟨S32, .f32⟩
  | 22 => ⟨S32x1, .f32⟩
  | 23 => ⟨S32, .f32⟩
  | 24 => ⟨S32, .f32⟩
  | 25 => ⟨S_, .f32⟩
  | 26 => ⟨S32, .f32⟩
  | 27 => ⟨S32, .f32⟩
  | 28 => ⟨S32, .f32⟩
  | 29 => ⟨S32, .f32⟩
  | 30 => ⟨S32x1, .f32⟩
  | 31 => ⟨S32, .f32⟩
  | 32 => ⟨S32, .f32⟩
  | 33 => ⟨S32x1, .f32⟩
  | 34 => ⟨S32, .f32⟩
  | 35 => ⟨S_, .f32⟩
  | 36 => ⟨S32, .f32⟩
  | 37 => ⟨S32, .f32⟩
  | 38 => ⟨S32, .f32⟩
  | 39 => ⟨S32, .f32⟩
  | 40 => ⟨S32, .f32⟩
  | 41 => ⟨S_, .i32⟩
  | 42 => ⟨S1, .i32⟩
  | 43 => ⟨S32x5, .f32⟩
  | 44 => ⟨S32x1, .f32⟩
  | 45 => ⟨S32, .f32⟩
  | 46 => ⟨S32, .f32⟩
  | 47 => ⟨S32x1, .f32⟩
  | 48 => ⟨S32, .f32⟩
  | 49 => ⟨S32, .f32⟩
  | 50 => ⟨S_, .f32⟩
  | 51 => ⟨S32, .f32⟩
  | 52 => ⟨S32, .f32⟩
  | 53 => ⟨S32, .f32⟩
  | 54 => ⟨S32, .f32⟩
  | 55 => ⟨S32x1, .f32⟩
  | 56 => ⟨S32, .f32⟩
  | 57 => ⟨S32, .f32⟩
  | 58 => ⟨S32x1, .f32⟩
  | 59 => ⟨S32, .f32⟩
  | 60 => ⟨S_, .f32⟩
  | 61 => ⟨S32, .f32⟩
  | 62 => ⟨S32, .f32⟩
  | 63 => ⟨S32, .f32⟩
  | 64 => ⟨S32, .f32⟩
  | 65 => ⟨S32, .f32⟩
  | 66 => ⟨S_, .i32⟩
  | 67 => ⟨S1, .i32⟩
  | 68 => ⟨S32x5, .f32⟩
  | 69 => ⟨S32x1, .f32⟩
  | 70 => ⟨S32, .f32⟩
  | 71 => ⟨S32, .f32⟩
  | 72 => ⟨S32x1, .f32⟩
  | 73 => ⟨S32, .f32⟩
  | 74 => ⟨S32, .f32⟩
  | 75 => ⟨S_, .f32⟩
  | 76 => ⟨S32, .f32⟩
  | 77 => ⟨S32, .f32⟩
  | 78 => ⟨S32, .f32⟩
  | 79 => ⟨S32, .f32⟩
  | 80 => ⟨S32x1, .f32⟩
  | 81 => ⟨S32, .f32⟩
  | 82 => ⟨S32, .f32⟩
  | 83 => ⟨S32x1, .f32⟩
  | 84 => ⟨S32, .f32⟩
  | 85 => ⟨S_, .f32⟩
  | 86 => ⟨S32, .f32⟩
  | 87 => ⟨S32, .f32⟩
  | 88 => ⟨S32, .f32⟩
  | 89 => ⟨S32, .f32⟩
  | 90 => ⟨S32, .f32⟩
  | 91 => ⟨S_, .i32⟩
  | 92 => ⟨S1, .i32⟩
  | 93 => ⟨S32x5, .f32⟩
  | 94 => ⟨S32x5, .f32⟩
  | 95 => ⟨S32x1, .f32⟩
  | 96 => ⟨S32x5, .f32⟩
  | 97 => ⟨S32x5, .f32⟩
  | 98 => ⟨S32x5, .f32⟩
  | 99 => ⟨S32x1, .f32⟩
  | 100 => ⟨S32, .f32⟩
  | 101 => ⟨S32, .f32⟩
  | 102 => ⟨S32x1, .f32⟩
  | 103 => ⟨S32, .f32⟩
  | 104 => ⟨S32, .f32⟩
  | 105 => ⟨S32, .f32⟩
  | 106 => ⟨S32, .f32⟩
  | 107 => ⟨S32x1x1, .f32⟩
  | 108 => ⟨S32x131072x3, .f32⟩
  | 109 => ⟨S32x131072x3, .f32⟩
  | 110 => ⟨S32x5, .f32⟩
  | 111 => ⟨S32x5, .f32⟩
  | 112 => ⟨S32x4, .f32⟩
  | 113 => ⟨S32x1, .f32⟩
  | 114 => ⟨S32x4, .f32⟩
  | 115 => ⟨S32x4, .f32⟩
  | 116 => ⟨S32x131072x3, .f32⟩
  | 117 => ⟨S32x131072x1, .f32⟩
  | 118 => ⟨S32x131072x3, .f32⟩
  | 119 => ⟨S32x131072x3, .f32⟩
  | 120 => ⟨S_, .f32⟩
  | 121 => ⟨S32, .f32⟩
  | 122 => ⟨S_, .f32⟩
  | 123 => ⟨S32, .f32⟩
  | 124 => ⟨S32, .f32⟩
  | 125 => ⟨S32, .f32⟩
  | 126 => ⟨S32x1, .f32⟩
  | 127 => ⟨S32x5, .f32⟩
  | _ => ⟨S32x131072x3, .f32⟩

abbrev hbmTy0_10 (i : Nat) : BufTy := match i % 128 with
  | 0 => ⟨S32x1, .f32⟩
  | 1 => ⟨S32, .f32⟩
  | 2 => ⟨S32, .f32⟩
  | 3 => ⟨S32x1, .f32⟩
  | 4 => ⟨S32, .f32⟩
  | 5 => ⟨S32, .f32⟩
  | 6 => ⟨S_, .f32⟩
  | 7 => ⟨S32, .f32⟩
  | 8 => ⟨S32, .f32⟩
  | 9 => ⟨S32, .f32⟩
  | 10 => ⟨S32, .f32⟩
  | 11 => ⟨S32x1, .f32⟩
  | 12 => ⟨S32, .f32⟩
  | 13 => ⟨S32, .f32⟩
  | 14 => ⟨S32x1, .f32⟩
  | 15 => ⟨S32, .f32⟩
  | 16 => ⟨S_, .f32⟩
  | 17 => ⟨S32, .f32⟩
  | 18 => ⟨S32, .f32⟩
  | 19 => ⟨S32, .f32⟩
  | 20 => ⟨S32, .f32⟩
  | 21 => ⟨S32, .f32⟩
  | 22 => ⟨S_, .i32⟩
  | 23 => ⟨S1, .i32⟩
  | 24 => ⟨S32x5, .f32⟩
  | 25 => ⟨S32x1, .f32⟩
  | 26 => ⟨S32, .f32⟩
  | 27 => ⟨S32, .f32⟩
  | 28 => ⟨S32x1, .f32⟩
  | 29 => ⟨S32, .f32⟩
  | 30 => ⟨S32, .f32⟩
  | 31 => ⟨S_, .f32⟩
  | 32 => ⟨S32, .f32⟩
  | 33 => ⟨S32, .f32⟩
  | 34 => ⟨S32, .f32⟩
  | 35 => ⟨S32, .f32⟩
  | 36 => ⟨S32x1, .f32⟩
  | 37 => ⟨S32, .f32⟩
  | 38 => ⟨S32, .f32⟩
  | 39 => ⟨S32x1, .f32⟩
  | 40 => ⟨S32, .f32⟩
  | 41 => ⟨S_, .f32⟩
  | 42 => ⟨S32, .f32⟩
  | 43 => ⟨S32, .f32⟩
  | 44 => ⟨S32, .f32⟩
  | 45 => ⟨S32, .f32⟩
  | 46 => ⟨S32, .f32⟩
  | 47 => ⟨S_, .i32⟩
  | 48 => ⟨S1, .i32⟩
  | 49 => ⟨S32x5, .f32⟩
  | 50 => ⟨S32x1, .f32⟩
  | 51 => ⟨S32, .f32⟩
  | 52 => ⟨S32, .f32⟩
  | 53 => ⟨S32x1, .f32⟩
  | 54 => ⟨S32, .f32⟩
  | 55 => ⟨S32, .f32⟩
  | 56 => ⟨S_, .f32⟩
  | 57 => ⟨S32, .f32⟩
  | 58 => ⟨S32, .f32⟩
  | 59 => ⟨S32, .f32⟩
  | 60 => ⟨S32, .f32⟩
  | 61 => ⟨S32x1, .f32⟩
  | 62 => ⟨S32, .f32⟩
  | 63 => ⟨S32, .f32⟩
  | 64 => ⟨S32x1, .f32⟩
  | 65 => ⟨S32, .f32⟩
  | 66 => ⟨S_, .f32⟩
  | 67 => ⟨S32, .f32⟩
  | 68 => ⟨S32, .f32⟩
  | 69 => ⟨S32, .f32⟩
  | 70 => ⟨S32, .f32⟩
  | 71 => ⟨S32, .f32⟩
  | 72 => ⟨S_, .i32⟩
  | 73 => ⟨S1, .i32⟩
  | 74 => ⟨S32x5, .f32⟩
  | 75 => ⟨S32x1, .f32⟩
  | 76 => ⟨S32, .f32⟩
  | 77 => ⟨S32, .f32⟩
  | 78 => ⟨S32x1, .f32⟩
  | 79 => ⟨S32, .f32⟩
  | 80 => ⟨S32, .f32⟩
  | 81 => ⟨S_, .f32⟩
  | 82 => ⟨S32, .f32⟩
  | 83 => ⟨S32, .f32⟩
  | 84 => ⟨S32, .f32⟩
  | 85 => ⟨S32, .f32⟩
  | 86 => ⟨S32x1, .f32⟩
  | 87 => ⟨S32, .f32⟩
  | 88 => ⟨S32, .f32⟩
  | 89 => ⟨S32x1, .f32⟩
  | 90 => ⟨S32, .f32⟩
  | 91 => ⟨S_, .f32⟩
  | 92 => ⟨S32, .f32⟩
  | 93 => ⟨S32, .f32⟩
  | 94 => ⟨S32, .f32⟩
  | 95 => ⟨S32, .f32⟩
  | 96 => ⟨S32, .f32⟩
  | 97 => ⟨S_, .i32⟩
  | 98 => ⟨S1, .i32⟩
  | 99 => ⟨S32x5, .f32⟩
  | 100 => ⟨S32x1, .f32⟩
  | 101 => ⟨S32, .f32⟩
  | 102 => ⟨S_, .f32⟩
  | 103 => ⟨S32, .f32⟩
  | 104 => ⟨S32, .f32⟩
  | 105 => ⟨S32, .f32⟩
  | 106 => ⟨S_, .i32⟩
  | 107 => ⟨S1, .i32⟩
  | 108 => ⟨S32x5, .f32⟩
  | 109 => ⟨S_, .f32⟩
  | 110 => ⟨S_, .f32⟩
  | 111 => ⟨S_, .f32⟩
  | 112 => ⟨S_, .f32⟩
  | 113 => ⟨S32, .f32⟩
  | 114 => ⟨S32, .f32⟩
  | 115 => ⟨S32x5, .f32⟩
  | 116 => ⟨S32x5, .f32⟩
  | 117 => ⟨S32x4, .f32⟩
  | 118 => ⟨S32x1, .f32⟩
  | 119 => ⟨S32x4, .f32⟩
  | 120 => ⟨S32x4, .f32⟩
  | 121 => ⟨S32x131072x3, .f32⟩
  | 122 => ⟨S32x131072x1, .f32⟩
  | 123 => ⟨S32x131072x3, .f32⟩
  | 124 => ⟨S32x131072x3, .f32⟩
  | 125 => ⟨S_, .f32⟩
  | 126 => ⟨S32, .f32⟩
  | 127 => ⟨S_, .f32⟩
  | _ => ⟨S32x131072x3, .f32⟩

abbrev hbmTy0_11 (i : Nat) : BufTy := match i % 128 with
  | 0 => ⟨S32, .f32⟩
  | 1 => ⟨S32, .f32⟩
  | 2 => ⟨S32, .f32⟩
  | 3 => ⟨S32x1, .f32⟩
  | 4 => ⟨S32x5, .f32⟩
  | 5 => ⟨S32x1, .f32⟩
  | 6 => ⟨S32, .f32⟩
  | 7 => ⟨S_, .f32⟩
  | 8 => ⟨S32, .f32⟩
  | 9 => ⟨S32, .f32⟩
  | 10 => ⟨S32, .f32⟩
  | 11 => ⟨S_, .i32⟩
  | 12 => ⟨S1, .i32⟩
  | 13 => ⟨S32x5, .f32⟩
  | 14 => ⟨S32x1, .f32⟩
  | 15 => ⟨S32, .f32⟩
  | 16 => ⟨S32, .f32⟩
  | 17 => ⟨S32x1, .f32⟩
  | 18 => ⟨S32, .f32⟩
  | 19 => ⟨S32, .f32⟩
  | 20 => ⟨S_, .f32⟩
  | 21 => ⟨S32, .f32⟩
  | 22 => ⟨S32, .f32⟩
  | 23 => ⟨S32, .f32⟩
  | 24 => ⟨S32, .f32⟩
  | 25 => ⟨S32x1, .f32⟩
  | 26 => ⟨S32, .f32⟩
  | 27 => ⟨S32, .f32⟩
  | 28 => ⟨S32x1, .f32⟩
  | 29 => ⟨S32, .f32⟩
  | 30 => ⟨S_, .f32⟩
  | 31 => ⟨S32, .f32⟩
  | 32 => ⟨S32, .f32⟩
  | 33 => ⟨S32, .f32⟩
  | 34 => ⟨S32, .f32⟩
  | 35 => ⟨S32, .f32⟩
  | 36 => ⟨S_, .i32⟩
  | 37 => ⟨S1, .i32⟩
  | 38 => ⟨S32x5, .f32⟩
  | 39 => ⟨S32x1, .f32⟩
  | 40 => ⟨S32, .f32⟩
  | 41 => ⟨S32, .f32⟩
  | 42 => ⟨S32x1, .f32⟩
  | 43 => ⟨S32, .f32⟩
  | 44 => ⟨S32, .f32⟩
  | 45 => ⟨S_, .f32⟩
  | 46 => ⟨S32, .f32⟩
  | 47 => ⟨S32, .f32⟩
  | 48 => ⟨S32, .f32⟩
  | 49 => ⟨S32, .f32⟩
  | 50 => ⟨S32x1, .f32⟩
  | 51 => ⟨S32, .f32⟩
  | 52 => ⟨S32, .f32⟩
  | 53 => ⟨S32x1, .f32⟩
  | 54 => ⟨S32, .f32⟩
  | 55 => ⟨S_, .f32⟩
  | 56 => ⟨S32, .f32⟩
  | 57 => ⟨S32, .f32⟩
  | 58 => ⟨S32, .f32⟩
  | 59 => ⟨S32, .f32⟩
  | 60 => ⟨S32, .f32⟩
  | 61 => ⟨S_, .i32⟩
  | 62 => ⟨S1, .i32⟩
  | 63 => ⟨S32x5, .f32⟩
  | 64 => ⟨S32x1, .f32⟩
  | 65 => ⟨S32, .f32⟩
  | 66 => ⟨S32, .f32⟩
  | 67 => ⟨S32x1, .f32⟩
  | 68 => ⟨S32, .f32⟩
  | 69 => ⟨S32, .f32⟩
  | 70 => ⟨S_, .f32⟩
  | 71 => ⟨S32, .f32⟩
  | 72 => ⟨S32, .f32⟩
  | 73 => ⟨S32, .f32⟩
  | 74 => ⟨S32, .f32⟩
  | 75 => ⟨S32x1, .f32⟩
  | 76 => ⟨S32, .f32⟩
  | 77 => ⟨S32, .f32⟩
  | 78 => ⟨S32x1, .f32⟩
  | 79 => ⟨S32, .f32⟩
  | 80 => ⟨S_, .f32⟩
  | 81 => ⟨S32, .f32⟩
  | 82 => ⟨S32, .f32⟩
  | 83 => ⟨S32, .f32⟩
  | 84 => ⟨S32, .f32⟩
  | 85 => ⟨S32, .f32⟩
  | 86 => ⟨S_, .i32⟩
  | 87 => ⟨S1, .i32⟩
  | 88 => ⟨S32x5, .f32⟩
  | 89 => ⟨S32x1, .f32⟩
  | 90 => ⟨S32, .f32⟩
  | 91 => ⟨S32, .f32⟩
  | 92 => ⟨S32x1, .f32⟩
  | 93 => ⟨S32, .f32⟩
  | 94 => ⟨S32, .f32⟩
  | 95 => ⟨S_, .f32⟩
  | 96 => ⟨S32, .f32⟩
  | 97 => ⟨S32, .f32⟩
  | 98 => ⟨S32, .f32⟩
  | 99 => ⟨S32, .f32⟩
  | 100 => ⟨S32x1, .f32⟩
  | 101 => ⟨S32, .f32⟩
  | 102 => ⟨S32, .f32⟩
  | 103 => ⟨S32x1, .f32⟩
  | 104 => ⟨S32, .f32⟩
  | 105 => ⟨S_, .f32⟩
  | 106 => ⟨S32, .f32⟩
  | 107 => ⟨S32, .f32⟩
  | 108 => ⟨S32, .f32⟩
  | 109 => ⟨S32, .f32⟩
  | 110 => ⟨S32, .f32⟩
  | 111 => ⟨S_, .i32⟩
  | 112 => ⟨S1, .i32⟩
  | 113 => ⟨S32x5, .f32⟩
  | 114 => ⟨S32x5, .f32⟩
  | 115 => ⟨S32x1, .f32⟩
  | 116 => ⟨S32x5, .f32⟩
  | 117 => ⟨S32x5, .f32⟩
  | 118 => ⟨S32x5, .f32⟩
  | 119 => ⟨S32x1, .f32⟩
  | 120 => ⟨S32, .f32⟩
  | 121 => ⟨S32, .f32⟩
  | 122 => ⟨S32x1, .f32⟩
  | 123 => ⟨S32, .f32⟩
  | 124 => ⟨S32, .f32⟩
  | 125 => ⟨S32, .f32⟩
  | 126 => ⟨S32, .f32⟩
  | 127 => ⟨S32x1x1, .f32⟩
  | _ => ⟨S32x131072x3, .f32⟩

abbrev hbmTy0_12 (i : Nat) : BufTy := match i % 128 with
  | 0 => ⟨S32x131072x3, .f32⟩
  | 1 => ⟨S32x131072x3, .f32⟩
  | 2 => ⟨S32x5, .f32⟩
  | 3 => ⟨S32x5, .f32⟩
  | 4 => ⟨S32x4, .f32⟩
  | 5 => ⟨S32x1, .f32⟩
  | 6 => ⟨S32x4, .f32⟩
  | 7 => ⟨S32x4, .f32⟩
  | 8 => ⟨S32x131072x3, .f32⟩
  | 9 => ⟨S32x131072x1, .f32⟩
  | 10 => ⟨S32x131072x3, .f32⟩
  | 11 => ⟨S32x131072x3, .f32⟩
  | 12 => ⟨S_, .f32⟩
  | 13 => ⟨S32, .f32⟩
  | 14 => ⟨S_, .f32⟩
  | 15 => ⟨S32, .f32⟩
  | 16 => ⟨S32, .f32⟩
  | 17 => ⟨S32, .f32⟩
  | 18 => ⟨S32x1, .f32⟩
  | 19 => ⟨S32x5, .f32⟩
  | 20 => ⟨S32x1, .f32⟩
  | 21 => ⟨S32, .f32⟩
  | 22 => ⟨S32, .f32⟩
  | 23 => ⟨S32x1, .f32⟩
  | 24 => ⟨S32, .f32⟩
  | 25 => ⟨S32, .f32⟩
  | 26 => ⟨S_, .f32⟩
  | 27 => ⟨S32, .f32⟩
  | 28 => ⟨S32, .f32⟩
  | 29 => ⟨S32, .f32⟩
  | 30 => ⟨S32, .f32⟩
  | 31 => ⟨S32x1, .f32⟩
  | 32 => ⟨S32, .f32⟩
  | 33 => ⟨S32, .f32⟩
  | 34 => ⟨S32x1, .f32⟩
  | 35 => ⟨S32, .f32⟩
  | 36 => ⟨S_, .f32⟩
  | 37 => ⟨S32, .f32⟩
  | 38 => ⟨S32, .f32⟩
  | 39 => ⟨S32, .f32⟩
  | 40 => ⟨S32, .f32⟩
  | 41 => ⟨S32, .f32⟩
  | 42 => ⟨S_, .i32⟩
  | 43 => ⟨S1, .i32⟩
  | 44 => ⟨S32x5, .f32⟩
  | 45 => ⟨S32x1, .f32⟩
  | 46 => ⟨S32, .f32⟩
  | 47 => ⟨S32, .f32⟩
  | 48 => ⟨S32x1, .f32⟩
  | 49 => ⟨S32, .f32⟩
  | 50 => ⟨S32, .f32⟩
  | 51 => ⟨S_, .f32⟩
  | 52 => ⟨S32, .f32⟩
  | 53 => ⟨S32, .f32⟩
  | 54 => ⟨S32, .f32⟩
  | 55 => ⟨S32, .f32⟩
  | 56 => ⟨S32x1, .f32⟩
  | 57 => ⟨S32, .f32⟩
  | 58 => ⟨S32, .f32⟩
  | 59 => ⟨S32x1, .f32⟩
  | 60 => ⟨S32, .f32⟩
  | 61 => ⟨S_, .f32⟩
  | 62 => ⟨S32, .f32⟩
  | 63 => ⟨S32, .f32⟩
  | 64 => ⟨S32, .f32⟩
  | 65 => ⟨S32, .f32⟩
  | 66 => ⟨S32, .f32⟩
  | 67 => ⟨S_, .i32⟩
  | 68 => ⟨S1, .i32⟩
  | 69 => ⟨S32x5, .f32⟩
  | 70 => ⟨S32x1, .f32⟩
  | 71 => ⟨S32, .f32⟩
  | 72 => ⟨S32, .f32⟩
  | 73 => ⟨S32x1, .f32⟩
  | 74 => ⟨S32, .f32⟩
  | 75 => ⟨S32, .f32⟩
  | 76 => ⟨S_, .f32⟩
  | 77 => ⟨S32, .f32⟩
  | 78 => ⟨S32, .f32⟩
  | 79 => ⟨S32, .f32⟩
  | 80 => ⟨S32, .f32⟩
  | 81 => ⟨S32x1, .f32⟩
  | 82 => ⟨S32, .f32⟩
  | 83 => ⟨S32, .f32⟩
  | 84 => ⟨S32x1, .f32⟩
  | 85 => ⟨S32, .f32⟩
  | 86 => ⟨S_, .f32⟩
  | 87 => ⟨S32, .f32⟩
  | 88 => ⟨S32, .f32⟩
  | 89 => ⟨S32, .f32⟩
  | 90 => ⟨S32, .f32⟩
  | 91 => ⟨S32, .f32⟩
  | 92 => ⟨S_, .i32⟩
  | 93 => ⟨S1, .i32⟩
  | 94 => ⟨S32x5, .f32⟩
  | 95 => ⟨S32x1, .f32⟩
  | 96 => ⟨S32, .f32⟩
  | 97 => ⟨S32, .f32⟩
  | 98 => ⟨S32x1, .f32⟩
  | 99 => ⟨S32, .f32⟩
  | 100 => ⟨S32, .f32⟩
  | 101 => ⟨S_, .f32⟩
  | 102 => ⟨S32, .f32⟩
  | 103 => ⟨S32, .f32⟩
  | 104 => ⟨S32, .f32⟩
  | 105 => ⟨S32, .f32⟩
  | 106 => ⟨S32x1, .f32⟩
  | 107 => ⟨S32, .f32⟩
  | 108 => ⟨S32, .f32⟩
  | 109 => ⟨S32x1, .f32⟩
  | 110 => ⟨S32, .f32⟩
  | 111 => ⟨S_, .f32⟩
  | 112 => ⟨S32, .f32⟩
  | 113 => ⟨S32, .f32⟩
  | 114 => ⟨S32, .f32⟩
  | 115 => ⟨S32, .f32⟩
  | 116 => ⟨S32, .f32⟩
  | 117 => ⟨S_, .i32⟩
  | 118 => ⟨S1, .i32⟩
  | 119 => ⟨S32x5, .f32⟩
  | 120 => ⟨S32x1, .f32⟩
  | 121 => ⟨S32, .f32⟩
  | 122 => ⟨S_, .f32⟩
  | 123 => ⟨S32, .f32⟩
  | 124 => ⟨S32, .f32⟩
  | 125 => ⟨S32, .f32⟩
  | 126 => ⟨S_, .i32⟩
  | 127 => ⟨S1, .i32⟩
  | _ => ⟨S32x131072x3, .f32⟩

abbrev hbmTy0_13 (i : Nat) : BufTy := match i % 128 with
  | 0 => ⟨S32x5, .f32⟩
  | 1 => ⟨S_, .f32⟩
  | 2 => ⟨S_, .f32⟩
  | 3 => ⟨S_, .f32⟩
  | 4 => ⟨S_, .f32⟩
  | 5 => ⟨S32, .f32⟩
  | 6 => ⟨S32, .f32⟩
  | 7 => ⟨S32x5, .f32⟩
  | 8 => ⟨S32x5, .f32⟩
  | 9 => ⟨S32x4, .f32⟩
  | 10 => ⟨S32x1, .f32⟩
  | 11 => ⟨S32x4, .f32⟩
  | 12 => ⟨S32x4, .f32⟩
  | 13 => ⟨S32x131072x3, .f32⟩
  | 14 => ⟨S32x131072x1, .f32⟩
  | 15 => ⟨S32x131072x3, .f32⟩
  | 16 => ⟨S32x131072x3, .f32⟩
  | 17 => ⟨S_, .f32⟩
  | 18 => ⟨S32, .f32⟩
  | 19 => ⟨S_, .f32⟩
  | 20 => ⟨S32, .f32⟩
  | 21 => ⟨S32, .f32⟩
  | 22 => ⟨S32, .f32⟩
  | 23 => ⟨S32x1, .f32⟩
  | 24 => ⟨S32x5, .f32⟩
  | 25 => ⟨S32x1, .f32⟩
  | 26 => ⟨S32, .f32⟩
  | 27 => ⟨S_, .f32⟩
  | 28 => ⟨S32, .f32⟩
  | 29 => ⟨S32, .f32⟩
  | 30 => ⟨S32, .f32⟩
  | 31 => ⟨S_, .i32⟩
  | 32 => ⟨S1, .i32⟩
  | 33 => ⟨S32x5, .f32⟩
  | 34 => ⟨S32x1, .f32⟩
  | 35 => ⟨S32, .f32⟩
  | 36 => ⟨S32, .f32⟩
  | 37 => ⟨S32x1, .f32⟩
  | 38 => ⟨S32, .f32⟩
  | 39 => ⟨S32, .f32⟩
  | 40 => ⟨S_, .f32⟩
  | 41 => ⟨S32, .f32⟩
  | 42 => ⟨S32, .f32⟩
  | 43 => ⟨S32, .f32⟩
  | 44 => ⟨S32, .f32⟩
  | 45 => ⟨S32x1, .f32⟩
  | 46 => ⟨S32, .f32⟩
  | 47 => ⟨S32, .f32⟩
  | 48 => ⟨S32x1, .f32⟩
  | 49 => ⟨S32, .f32⟩
  | 50 => ⟨S_, .f32⟩
  | 51 => ⟨S32, .f32⟩
  | 52 => ⟨S32, .f32⟩
  | 53 => ⟨S32, .f32⟩
  | 54 => ⟨S32, .f32⟩
  | 55 => ⟨S32, .f32⟩
  | 56 => ⟨S_, .i32⟩
  | 57 => ⟨S1, .i32⟩
  | 58 => ⟨S32x5, .f32⟩
  | 59 => ⟨S32x1, .f32⟩
  | 60 => ⟨S32, .f32⟩
  | 61 => ⟨S32, .f32⟩
  | 62 => ⟨S32x1, .f32⟩
  | 63 => ⟨S32, .f32⟩
  | 64 => ⟨S32, .f32⟩
  | 65 => ⟨S_, .f32⟩
  | 66 => ⟨S32, .f32⟩
  | 67 => ⟨S32, .f32⟩
  | 68 => ⟨S32, .f32⟩
  | 69 => ⟨S32, .f32⟩
  | 70 => ⟨S32x1, .f32⟩
  | 71 => ⟨S32, .f32⟩
  | 72 => ⟨S32, .f32⟩
  | 73 => ⟨S32x1, .f32⟩
  | 74 => ⟨S32, .f32⟩
  | 75 => ⟨S_, .f32⟩
  | 76 => ⟨S32, .f32⟩
  | 77 => ⟨S32, .f32⟩
  | 78 => ⟨S32, .f32⟩
  | 79 => ⟨S32, .f32⟩
  | 80 => ⟨S32, .f32⟩
  | 81 => ⟨S_, .i32⟩
  | 82 => ⟨S1, .i32⟩
  | 83 => ⟨S32x5, .f32⟩
  | 84 => ⟨S32x1, .f32⟩
  | 85 => ⟨S32, .f32⟩
  | 86 => ⟨S32, .f32⟩
  | 87 => ⟨S32x1, .f32⟩
  | 88 => ⟨S32, .f32⟩
  | 89 => ⟨S32, .f32⟩
  | 90 => ⟨S_, .f32⟩
  | 91 => ⟨S32, .f32⟩
  | 92 => ⟨S32, .f32⟩
  | 93 => ⟨S32, .f32⟩
  | 94 => ⟨S32, .f32⟩
  | 95 => ⟨S32x1, .f32⟩
  | 96 => ⟨S32, .f32⟩
  | 97 => ⟨S32, .f32⟩
  | 98 => ⟨S32x1, .f32⟩
  | 99 => ⟨S32, .f32⟩
  | 100 => ⟨S_, .f32⟩
  | 101 => ⟨S32, .f32⟩
  | 102 => ⟨S32, .f32⟩
  | 103 => ⟨S32, .f32⟩
  | 104 => ⟨S32, .f32⟩
  | 105 => ⟨S32, .f32⟩
  | 106 => ⟨S_, .i32⟩
  | 107 => ⟨S1, .i32⟩
  | 108 => ⟨S32x5, .f32⟩
  | 109 => ⟨S32x1, .f32⟩
  | 110 => ⟨S32, .f32⟩
  | 111 => ⟨S32, .f32⟩
  | 112 => ⟨S32x1, .f32⟩
  | 113 => ⟨S32, .f32⟩
  | 114 => ⟨S32, .f32⟩
  | 115 => ⟨S_, .f32⟩
  | 116 => ⟨S32, .f32⟩
  | 117 => ⟨S32, .f32⟩
  | 118 => ⟨S32, .f32⟩
  | 119 => ⟨S32, .f32⟩
  | 120 => ⟨S32x1, .f32⟩
  | 121 => ⟨S32, .f32⟩
  | 122 => ⟨S32, .f32⟩
  | 123 => ⟨S32x1, .f32⟩
  | 124 => ⟨S32, .f32⟩
  | 125 => ⟨S_, .f32⟩
  | 126 => ⟨S32, .f32⟩
  | 127 => ⟨S32, .f32⟩
  | _ => ⟨S32x131072x3, .f32⟩

abbrev hbmTy0_14 (i : Nat) : BufTy := match i % 128 with
  | 0 => ⟨S32, .f32⟩
  | 1 => ⟨S32, .f32⟩
  | 2 => ⟨S32, .f32⟩
  | 3 => ⟨S_, .i32⟩
  | 4 => ⟨S1, .i32⟩
  | 5 => ⟨S32x5, .f32⟩
  | 6 => ⟨S32x5, .f32⟩
  | 7 => ⟨S32x1, .f32⟩
  | 8 => ⟨S32x5, .f32⟩
  | 9 => ⟨S32x5, .f32⟩
  | 10 => ⟨S32x5, .f32⟩
  | 11 => ⟨S32x1, .f32⟩
  | 12 => ⟨S32, .f32⟩
  | 13 => ⟨S32, .f32⟩
  | 14 => ⟨S32x1, .f32⟩
  | 15 => ⟨S32, .f32⟩
  | 16 => ⟨S32, .f32⟩
  | 17 => ⟨S32, .f32⟩
  | 18 => ⟨S32, .f32⟩
  | 19 => ⟨S32x1x1, .f32⟩
  | 20 => ⟨S32x131072x3, .f32⟩
  | 21 => ⟨S32x131072x3, .f32⟩
  | 22 => ⟨S32x5, .f32⟩
  | 23 => ⟨S32x5, .f32⟩
  | 24 => ⟨S32x4, .f32⟩
  | 25 => ⟨S32x1, .f32⟩
  | 26 => ⟨S32x4, .f32⟩
  | 27 => ⟨S32x4, .f32⟩
  | 28 => ⟨S32x131072x3, .f32⟩
  | 29 => ⟨S32x131072x1, .f32⟩
  | 30 => ⟨S32x131072x3, .f32⟩
  | 31 => ⟨S32x131072x3, .f32⟩
  | 32 => ⟨S_, .f32⟩
  | 33 => ⟨S32, .f32⟩
  | 34 => ⟨S_, .f32⟩
  | 35 => ⟨S32, .f32⟩
  | 36 => ⟨S32, .f32⟩
  | 37 => ⟨S32, .f32⟩
  | 38 => ⟨S32x1, .f32⟩
  | 39 => ⟨S32x5, .f32⟩
  | 40 => ⟨S32x1, .f32⟩
  | 41 => ⟨S32, .f32⟩
  | 42 => ⟨S32, .f32⟩
  | 43 => ⟨S32x1, .f32⟩
  | 44 => ⟨S32, .f32⟩
  | 45 => ⟨S32, .f32⟩
  | 46 => ⟨S_, .f32⟩
  | 47 => ⟨S32, .f32⟩
  | 48 => ⟨S32, .f32⟩
  | 49 => ⟨S32, .f32⟩
  | 50 => ⟨S32, .f32⟩
  | 51 => ⟨S32x1, .f32⟩
  | 52 => ⟨S32, .f32⟩
  | 53 => ⟨S32, .f32⟩
  | 54 => ⟨S32x1, .f32⟩
  | 55 => ⟨S32, .f32⟩
  | 56 => ⟨S_, .f32⟩
  | 57 => ⟨S32, .f32⟩
  | 58 => ⟨S32, .f32⟩
  | 59 => ⟨S32, .f32⟩
  | 60 => ⟨S32, .f32⟩
  | 61 => ⟨S32, .f32⟩
  | 62 => ⟨S_, .i32⟩
  | 63 => ⟨S1, .i32⟩
  | 64 => ⟨S32x5, .f32⟩
  | 65 => ⟨S32x1, .f32⟩
  | 66 => ⟨S32, .f32⟩
  | 67 => ⟨S32, .f32⟩
  | 68 => ⟨S32x1, .f32⟩
  | 69 => ⟨S32, .f32⟩
  | 70 => ⟨S32, .f32⟩
  | 71 => ⟨S_, .f32⟩
  | 72 => ⟨S32, .f32⟩
  | 73 => ⟨S32, .f32⟩
  | 74 => ⟨S32, .f32⟩
  | 75 => ⟨S32, .f32⟩
  | 76 => ⟨S32x1, .f32⟩
  | 77 => ⟨S32, .f32⟩
  | 78 => ⟨S32, .f32⟩
  | 79 => ⟨S32x1, .f32⟩
  | 80 => ⟨S32, .f32⟩
  | 81 => ⟨S_, .f32⟩
  | 82 => ⟨S32, .f32⟩
  | 83 => ⟨S32, .f32⟩
  | 84 => ⟨S32, .f32⟩
  | 85 => ⟨S32, .f32⟩
  | 86 => ⟨S32, .f32⟩
  | 87 => ⟨S_, .i32⟩
  | 88 => ⟨S1, .i32⟩
  | 89 => ⟨S32x5, .f32⟩
  | 90 => ⟨S32x1, .f32⟩
  | 91 => ⟨S32, .f32⟩
  | 92 => ⟨S32, .f32⟩
  | 93 => ⟨S32x1, .f32⟩
  | 94 => ⟨S32, .f32⟩
  | 95 => ⟨S32, .f32⟩
  | 96 => ⟨S_, .f32⟩
  | 97 => ⟨S32, .f32⟩
  | 98 => ⟨S32, .f32⟩
  | 99 => ⟨S32, .f32⟩
  | 100 => ⟨S32, .f32⟩
  | 101 => ⟨S32x1, .f32⟩
  | 102 => ⟨S32, .f32⟩
  | 103 => ⟨S32, .f32⟩
  | 104 => ⟨S32x1, .f32⟩
  | 105 => ⟨S32, .f32⟩
  | 106 => ⟨S_, .f32⟩
  | 107 => ⟨S32, .f32⟩
  | 108 => ⟨S32, .f32⟩
  | 109 => ⟨S32, .f32⟩
  | 110 => ⟨S32, .f32⟩
  | 111 => ⟨S32, .f32⟩
  | 112 => ⟨S_, .i32⟩
  | 113 => ⟨S1, .i32⟩
  | 114 => ⟨S32x5, .f32⟩
  | 115 => ⟨S32x1, .f32⟩
  | 116 => ⟨S32, .f32⟩
  | 117 => ⟨S32, .f32⟩
  | 118 => ⟨S32x1, .f32⟩
  | 119 => ⟨S32, .f32⟩
  | 120 => ⟨S32, .f32⟩
  | 121 => ⟨S_, .f32⟩
  | 122 => ⟨S32, .f32⟩
  | 123 => ⟨S32, .f32⟩
  | 124 => ⟨S32, .f32⟩
  | 125 => ⟨S32, .f32⟩
  | 126 => ⟨S32x1, .f32⟩
  | 127 => ⟨S32, .f32⟩
  | _ => ⟨S32x131072x3, .f32⟩

abbrev hbmTy0_15 (i : Nat) : BufTy := match i % 128 with
  | 0 => ⟨S32, .f32⟩
  | 1 => ⟨S32x1, .f32⟩
  | 2 => ⟨S32, .f32⟩
  | 3 => ⟨S_, .f32⟩
  | 4 => ⟨S32, .f32⟩
  | 5 => ⟨S32, .f32⟩
  | 6 => ⟨S32, .f32⟩
  | 7 => ⟨S32, .f32⟩
  | 8 => ⟨S32, .f32⟩
  | 9 => ⟨S_, .i32⟩
  | 10 => ⟨S1, .i32⟩
  | 11 => ⟨S32x5, .f32⟩
  | 12 => ⟨S32x1, .f32⟩
  | 13 => ⟨S32, .f32⟩
  | 14 => ⟨S_, .f32⟩
  | 15 => ⟨S32, .f32⟩
  | 16 => ⟨S32, .f32⟩
  | 17 => ⟨S32, .f32⟩
  | 18 => ⟨S_, .i32⟩
  | 19 => ⟨S1, .i32⟩
  | 20 => ⟨S32x5, .f32⟩
  | 21 => ⟨S_, .f32⟩
  | 22 => ⟨S_, .f32⟩
  | 23 => ⟨S_, .f32⟩
  | 24 => ⟨S_, .f32⟩
  | 25 => ⟨S32, .f32⟩
  | 26 => ⟨S32, .f32⟩
  | 27 => ⟨S32x5, .f32⟩
  | 28 => ⟨S32x5, .f32⟩
  | 29 => ⟨S32x4, .f32⟩
  | 30 => ⟨S32x1, .f32⟩
  | 31 => ⟨S32x4, .f32⟩
  | 32 => ⟨S32x4, .f32⟩
  | 33 => ⟨S32x131072x3, .f32⟩
  | 34 => ⟨S32x131072x1, .f32⟩
  | 35 => ⟨S32x131072x3, .f32⟩
  | 36 => ⟨S32x131072x3, .f32⟩
  | 37 => ⟨S_, .f32⟩
  | 38 => ⟨S32, .f32⟩
  | 39 => ⟨S_, .f32⟩
  | 40 => ⟨S32, .f32⟩
  | 41 => ⟨S32, .f32⟩
  | 42 => ⟨S32, .f32⟩
  | 43 => ⟨S32x1, .f32⟩
  | 44 => ⟨S32x5, .f32⟩
  | 45 => ⟨S32x1, .f32⟩
  | 46 => ⟨S32, .f32⟩
  | 47 => ⟨S_, .f32⟩
  | 48 => ⟨S32, .f32⟩
  | 49 => ⟨S32, .f32⟩
  | 50 => ⟨S32, .f32⟩
  | 51 => ⟨S_, .i32⟩
  | 52 => ⟨S1, .i32⟩
  | 53 => ⟨S32x5, .f32⟩
  | 54 => ⟨S32x1, .f32⟩
  | 55 => ⟨S32, .f32⟩
  | 56 => ⟨S32, .f32⟩
  | 57 => ⟨S32x1, .f32⟩
  | 58 => ⟨S32, .f32⟩
  | 59 => ⟨S32, .f32⟩
  | 60 => ⟨S_, .f32⟩
  | 61 => ⟨S32, .f32⟩
  | 62 => ⟨S32, .f32⟩
  | 63 => ⟨S32, .f32⟩
  | 64 => ⟨S32, .f32⟩
  | 65 => ⟨S32x1, .f32⟩
  | 66 => ⟨S32, .f32⟩
  | 67 => ⟨S32, .f32⟩
  | 68 => ⟨S32x1, .f32⟩
  | 69 => ⟨S32, .f32⟩
  | 70 => ⟨S_, .f32⟩
  | 71 => ⟨S32, .f32⟩
  | 72 => ⟨S32, .f32⟩
  | 73 => ⟨S32, .f32⟩
  | 74 => ⟨S32, .f32⟩
  | 75 => ⟨S32, .f32⟩
  | 76 => ⟨S_, .i32⟩
  | 77 => ⟨S1, .i32⟩
  | 78 => ⟨S32x5, .f32⟩
  | 79 => ⟨S32x1, .f32⟩
  | 80 => ⟨S32, .f32⟩
  | 81 => ⟨S32, .f32⟩
  | 82 => ⟨S32x1, .f32⟩
  | 83 => ⟨S32, .f32⟩
  | 84 => ⟨S32, .f32⟩
  | 85 => ⟨S_, .f32⟩
  | 86 => ⟨S32, .f32⟩
  | 87 => ⟨S32, .f32⟩
  | 88 => ⟨S32, .f32⟩
  | 89 => ⟨S32, .f32⟩
  | 90 => ⟨S32x1, .f32⟩
  | 91 => ⟨S32, .f32⟩
  | 92 => ⟨S32, .f32⟩
  | 93 => ⟨S32x1, .f32⟩
  | 94 => ⟨S32, .f32⟩
  | 95 => ⟨S_, .f32⟩
  | 96 => ⟨S32, .f32⟩
  | 97 => ⟨S32, .f32⟩
  | 98 => ⟨S32, .f32⟩
  | 99 => ⟨S32, .f32⟩
  | 100 => ⟨S32, .f32⟩
  | 101 => ⟨S_, .i32⟩
  | 102 => ⟨S1, .i32⟩
  | 103 => ⟨S32x5, .f32⟩
  | 104 => ⟨S32x1, .f32⟩
  | 105 => ⟨S32, .f32⟩
  | 106 => ⟨S32, .f32⟩
  | 107 => ⟨S32x1, .f32⟩
  | 108 => ⟨S32, .f32⟩
  | 109 => ⟨S32, .f32⟩
  | 110 => ⟨S_, .f32⟩
  | 111 => ⟨S32, .f32⟩
  | 112 => ⟨S32, .f32⟩
  | 113 => ⟨S32, .f32⟩
  | 114 => ⟨S32, .f32⟩
  | 115 => ⟨S32x1, .f32⟩
  | 116 => ⟨S32, .f32⟩
  | 117 => ⟨S32, .f32⟩
  | 118 => ⟨S32x1, .f32⟩
  | 119 => ⟨S32, .f32⟩
  | 120 => ⟨S_, .f32⟩
  | 121 => ⟨S32, .f32⟩
  | 122 => ⟨S32, .f32⟩
  | 123 => ⟨S32, .f32⟩
  | 124 => ⟨S32, .f32⟩
  | 125 => ⟨S32, .f32⟩
  | 126 => ⟨S_, .i32⟩
  | 127 => ⟨S1, .i32⟩
  | _ => ⟨S32x131072x3, .f32⟩

abbrev hbmTy0_16 (i : Nat) : BufTy := match i % 128 with
  | 0 => ⟨S32x5, .f32⟩
  | 1 => ⟨S32x1, .f32⟩
  | 2 => ⟨S32, .f32⟩
  | 3 => ⟨S32, .f32⟩
  | 4 => ⟨S32x1, .f32⟩
  | 5 => ⟨S32, .f32⟩
  | 6 => ⟨S32, .f32⟩
  | 7 => ⟨S_, .f32⟩
  | 8 => ⟨S32, .f32⟩
  | 9 => ⟨S32, .f32⟩
  | 10 => ⟨S32, .f32⟩
  | 11 => ⟨S32, .f32⟩
  | 12 => ⟨S32x1, .f32⟩
  | 13 => ⟨S32, .f32⟩
  | 14 => ⟨S32, .f32⟩
  | 15 => ⟨S32x1, .f32⟩
  | 16 => ⟨S32, .f32⟩
  | 17 => ⟨S_, .f32⟩
  | 18 => ⟨S32, .f32⟩
  | 19 => ⟨S32, .f32⟩
  | 20 => ⟨S32, .f32⟩
  | 21 => ⟨S32, .f32⟩
  | 22 => ⟨S32, .f32⟩
  | 23 => ⟨S_, .i32⟩
  | 24 => ⟨S1, .i32⟩
  | 25 => ⟨S32x5, .f32⟩
  | 26 => ⟨S32x5, .f32⟩
  | 27 => ⟨S32x1, .f32⟩
  | 28 => ⟨S32x5, .f32⟩
  | 29 => ⟨S32x5, .f32⟩
  | 30 => ⟨S32x5, .f32⟩
  | 31 => ⟨S32x1, .f32⟩
  | 32 => ⟨S32, .f32⟩
  | 33 => ⟨S32, .f32⟩
  | 34 => ⟨S32x1, .f32⟩
  | 35 => ⟨S32, .f32⟩
  | 36 => ⟨S32, .f32⟩
  | 37 => ⟨S32, .f32⟩
  | 38 => ⟨S32, .f32⟩
  | 39 => ⟨S32x1x1, .f32⟩
  | 40 => ⟨S32x131072x3, .f32⟩
  | 41 => ⟨S32x131072x3, .f32⟩
  | 42 => ⟨S32x5, .f32⟩
  | 43 => ⟨S32x5, .f32⟩
  | 44 => ⟨S32x4, .f32⟩
  | 45 => ⟨S32x1, .f32⟩
  | 46 => ⟨S32x4, .f32⟩
  | 47 => ⟨S32x4, .f32⟩
  | 48 => ⟨S32x131072x3, .f32⟩
  | 49 => ⟨S32x131072x1, .f32⟩
  | 50 => ⟨S32x131072x3, .f32⟩
  | 51 => ⟨S32x131072x3, .f32⟩
  | 52 => ⟨S_, .f32⟩
  | 53 => ⟨S32, .f32⟩
  | 54 => ⟨S_, .f32⟩
  | 55 => ⟨S32, .f32⟩
  | 56 => ⟨S32, .f32⟩
  | 57 => ⟨S32, .f32⟩
  | 58 => ⟨S32x1, .f32⟩
  | 59 => ⟨S32x5, .f32⟩
  | 60 => ⟨S32x1, .f32⟩
  | 61 => ⟨S32, .f32⟩
  | 62 => ⟨S32, .f32⟩
  | 63 => ⟨S32x1, .f32⟩
  | 64 => ⟨S32, .f32⟩
  | 65 => ⟨S32, .f32⟩
  | 66 => ⟨S_, .f32⟩
  | 67 => ⟨S32, .f32⟩
  | 68 => ⟨S32, .f32⟩
  | 69 => ⟨S32, .f32⟩
  | 70 => ⟨S32, .f32⟩
  | 71 => ⟨S32x1, .f32⟩
  | 72 => ⟨S32, .f32⟩
  | 73 => ⟨S32, .f32⟩
  | 74 => ⟨S32x1, .f32⟩
  | 75 => ⟨S32, .f32⟩
  | 76 => ⟨S_, .f32⟩
  | 77 => ⟨S32, .f32⟩
  | 78 => ⟨S32, .f32⟩
  | 79 => ⟨S32, .f32⟩
  | 80 => ⟨S32, .f32⟩
  | 81 => ⟨S32, .f32⟩
  | 82 => ⟨S_, .i32⟩
  | 83 => ⟨S1, .i32⟩
  | 84 => ⟨S32x5, .f32⟩
  | 85 => ⟨S32x1, .f32⟩
  | 86 => ⟨S32, .f32⟩
  | 87 => ⟨S32, .f32⟩
  | 88 => ⟨S32x1, .f32⟩
  | 89 => ⟨S32, .f32⟩
  | 90 => ⟨S32, .f32⟩
  | 91 => ⟨S_, .f32⟩
  | 92 => ⟨S32, .f32⟩
  | 93 => ⟨S32, .f32⟩
  | 94 => ⟨S32, .f32⟩
  | 95 => ⟨S32, .f32⟩
  | 96 => ⟨S32x1, .f32⟩
  | 97 => ⟨S32, .f32⟩
  | 98 => ⟨S32, .f32⟩
  | 99 => ⟨S32x1, .f32⟩
  | 100 => ⟨S32, .f32⟩
  | 101 => ⟨S_, .f32⟩
  | 102 => ⟨S32, .f32⟩
  | 103 => ⟨S32, .f32⟩
  | 104 => ⟨S32, .f32⟩
  | 105 => ⟨S32, .f32⟩
  | 106 => ⟨S32, .f32⟩
  | 107 => ⟨S_, .i32⟩
  | 108 => ⟨S1, .i32⟩
  | 109 => ⟨S32x5, .f32⟩
  | 110 => ⟨S32x1, .f32⟩
  | 111 => ⟨S32, .f32⟩
  | 112 => ⟨S32, .f32⟩
  | 113 => ⟨S32x1, .f32⟩
  | 114 => ⟨S32, .f32⟩
  | 115 => ⟨S32, .f32⟩
  | 116 => ⟨S_, .f32⟩
  | 117 => ⟨S32, .f32⟩
  | 118 => ⟨S32, .f32⟩
  | 119 => ⟨S32, .f32⟩
  | 120 => ⟨S32, .f32⟩
  | 121 => ⟨S32x1, .f32⟩
  | 122 => ⟨S32, .f32⟩
  | 123 => ⟨S32, .f32⟩
  | 124 => ⟨S32x1, .f32⟩
  | 125 => ⟨S32, .f32⟩
  | 126 => ⟨S_, .f32⟩
  | 127 => ⟨S32, .f32⟩
  | _ => ⟨S32x131072x3, .f32⟩

abbrev hbmTy0_17 (i : Nat) : BufTy := match i % 128 with
  | 0 => ⟨S32, .f32⟩
  | 1 => ⟨S32, .f32⟩
  | 2 => ⟨S32, .f32⟩
  | 3 => ⟨S32, .f32⟩
  | 4 => ⟨S_, .i32⟩
  | 5 => ⟨S1, .i32⟩
  | 6 => ⟨S32x5, .f32⟩
  | 7 => ⟨S32x1, .f32⟩
  | 8 => ⟨S32, .f32⟩
  | 9 => ⟨S32, .f32⟩
  | 10 => ⟨S32x1, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S32, .f32⟩
  | 18 => ⟨S32x1, .f32⟩
  | 19 => ⟨S32, .f32⟩
  | 20 => ⟨S32, .f32⟩
  | 21 => ⟨S32x1, .f32⟩
  | 22 => ⟨S32, .f32⟩
  | 23 => ⟨S_, .f32⟩
  | 24 => ⟨S32, .f32⟩
  | 25 => ⟨S32, .f32⟩
  | 26 => ⟨S32, .f32⟩
  | 27 => ⟨S32, .f32⟩
  | 28 => ⟨S32, .f32⟩
  | 29 => ⟨S_, .i32⟩
  | 30 => ⟨S1, .i32⟩
  | 31 => ⟨S32x5, .f32⟩
  | 32 => ⟨S32x1, .f32⟩
  | 33 => ⟨S32, .f32⟩
  | 34 => ⟨S_, .f32⟩
  | 35 => ⟨S32, .f32⟩
  | 36 => ⟨S32, .f32⟩
  | 37 => ⟨S32, .f32⟩
  | 38 => ⟨S_, .i32⟩
  | 39 => ⟨S1, .i32⟩
  | 40 => ⟨S32x5, .f32⟩
  | 41 => ⟨S_, .f32⟩
  | 42 => ⟨S_, .f32⟩
  | 43 => ⟨S_, .f32⟩
  | 44 => ⟨S_, .f32⟩
  | 45 => ⟨S32, .f32⟩
  | 46 => ⟨S32, .f32⟩
  | 47 => ⟨S32x5, .f32⟩
  | 48 => ⟨S32x5, .f32⟩
  | 49 => ⟨S32x4, .f32⟩
  | 50 => ⟨S32x1, .f32⟩
  | 51 => ⟨S32x4, .f32⟩
  | 52 => ⟨S32x4, .f32⟩
  | 53 => ⟨S32x131072x3, .f32⟩
  | 54 => ⟨S32x131072x1, .f32⟩
  | 55 => ⟨S32x131072x3, .f32⟩
  | 56 => ⟨S32x131072x3, .f32⟩
  | 57 => ⟨S_, .f32⟩
  | 58 => ⟨S32, .f32⟩
  | 59 => ⟨S_, .f32⟩
  | 60 => ⟨S32, .f32⟩
  | 61 => ⟨S32, .f32⟩
  | 62 => ⟨S32, .f32⟩
  | 63 => ⟨S32x1, .f32⟩
  | 64 => ⟨S32x5, .f32⟩
  | 65 => ⟨S32x1, .f32⟩
  | 66 => ⟨S32, .f32⟩
  | 67 => ⟨S_, .f32⟩
  | 68 => ⟨S32, .f32⟩
  | 69 => ⟨S32, .f32⟩
  | 70 => ⟨S32, .f32⟩
  | 71 => ⟨S_, .i32⟩
  | 72 => ⟨S1, .i32⟩
  | 73 => ⟨S32x5, .f32⟩
  | 74 => ⟨S32x1, .f32⟩
  | 75 => ⟨S32, .f32⟩
  | 76 => ⟨S32, .f32⟩
  | 77 => ⟨S32x1, .f32⟩
  | 78 => ⟨S32, .f32⟩
  | 79 => ⟨S32, .f32⟩
  | 80 => ⟨S_, .f32⟩
  | 81 => ⟨S32, .f32⟩
  | 82 => ⟨S32, .f32⟩
  | 83 => ⟨S32, .f32⟩
  | 84 => ⟨S32, .f32⟩
  | 85 => ⟨S32x1, .f32⟩
  | 86 => ⟨S32, .f32⟩
  | 87 => ⟨S32, .f32⟩
  | 88 => ⟨S32x1, .f32⟩
  | 89 => ⟨S32, .f32⟩
  | 90 => ⟨S_, .f32⟩
  | 91 => ⟨S32, .f32⟩
  | 92 => ⟨S32, .f32⟩
  | 93 => ⟨S32, .f32⟩
  | 94 => ⟨S32, .f32⟩
  | 95 => ⟨S32, .f32⟩
  | 96 => ⟨S_, .i32⟩
  | 97 => ⟨S1, .i32⟩
  | 98 => ⟨S32x5, .f32⟩
  | 99 => ⟨S32x1, .f32⟩
  | 100 => ⟨S32, .f32⟩
  | 101 => ⟨S32, .f32⟩
  | 102 => ⟨S32x1, .f32⟩
  | 103 => ⟨S32, .f32⟩
  | 104 => ⟨S32, .f32⟩
  | 105 => ⟨S_, .f32⟩
  | 106 => ⟨S32, .f32⟩
  | 107 => ⟨S32, .f32⟩
  | 108 => ⟨S32, .f32⟩
  | 109 => ⟨S32, .f32⟩
  | 110 => ⟨S32x1, .f32⟩
  | 111 => ⟨S32, .f32⟩
  | 112 => ⟨S32, .f32⟩
  | 113 => ⟨S32x1, .f32⟩
  | 114 => ⟨S32, .f32⟩
  | 115 => ⟨S_, .f32⟩
  | 116 => ⟨S32, .f32⟩
  | 117 => ⟨S32, .f32⟩
  | 118 => ⟨S32, .f32⟩
  | 119 => ⟨S32, .f32⟩
  | 120 => ⟨S32, .f32⟩
  | 121 => ⟨S_, .i32⟩
  | 122 => ⟨S1, .i32⟩
  | 123 => ⟨S32x5, .f32⟩
  | 124 => ⟨S32x1, .f32⟩
  | 125 => ⟨S32, .f32⟩
  | 126 => ⟨S32, .f32⟩
  | 127 => ⟨S32x1, .f32⟩
  | _ => ⟨S32x131072x3, .f32⟩

abbrev hbmTy0_18 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S32, .f32⟩
  | 6 => ⟨S32, .f32⟩
  | 7 => ⟨S32x1, .f32⟩
  | 8 => ⟨S32, .f32⟩
  | 9 => ⟨S32, .f32⟩
  | 10 => ⟨S32x1, .f32⟩
  | 11 => ⟨S32, .f32⟩
  | 12 => ⟨S_, .f32⟩
  | 13 => ⟨S32, .f32⟩
  | 14 => ⟨S32, .f32⟩
  | 15 => ⟨S32, .f32⟩
  | 16 => ⟨S32, .f32⟩
  | 17 => ⟨S32, .f32⟩
  | 18 => ⟨S_, .i32⟩
  | 19 => ⟨S1, .i32⟩
  | 20 => ⟨S32x5, .f32⟩
  | 21 => ⟨S32x1, .f32⟩
  | 22 => ⟨S32, .f32⟩
  | 23 => ⟨S32, .f32⟩
  | 24 => ⟨S32x1, .f32⟩
  | 25 => ⟨S32, .f32⟩
  | 26 => ⟨S32, .f32⟩
  | 27 => ⟨S_, .f32⟩
  | 28 => ⟨S32, .f32⟩
  | 29 => ⟨S32, .f32⟩
  | 30 => ⟨S32, .f32⟩
  | 31 => ⟨S32, .f32⟩
  | 32 => ⟨S32x1, .f32⟩
  | 33 => ⟨S32, .f32⟩
  | 34 => ⟨S32, .f32⟩
  | 35 => ⟨S32x1, .f32⟩
  | 36 => ⟨S32, .f32⟩
  | 37 => ⟨S_, .f32⟩
  | 38 => ⟨S32, .f32⟩
  | 39 => ⟨S32, .f32⟩
  | 40 => ⟨S32, .f32⟩
  | 41 => ⟨S32, .f32⟩
  | 42 => ⟨S32, .f32⟩
  | 43 => ⟨S_, .i32⟩
  | 44 => ⟨S1, .i32⟩
  | 45 => ⟨S32x5, .f32⟩
  | 46 => ⟨S32x5, .f32⟩
  | 47 => ⟨S32x1, .f32⟩
  | 48 => ⟨S32x5, .f32⟩
  | 49 => ⟨S32x5, .f32⟩
  | 50 => ⟨S32x5, .f32⟩
  | 51 => ⟨S32x1, .f32⟩
  | 52 => ⟨S32, .f32⟩
  | 53 => ⟨S32, .f32⟩
  | 54 => ⟨S32x1, .f32⟩
  | 55 => ⟨S32, .f32⟩
  | 56 => ⟨S32, .f32⟩
  | 57 => ⟨S32, .f32⟩
  | 58 => ⟨S32, .f32⟩
  | 59 => ⟨S32x1x1, .f32⟩
  | 60 => ⟨S32x131072x3, .f32⟩
  | 61 => ⟨S32x131072x3, .f32⟩
  | 62 => ⟨S32x5, .f32⟩
  | 63 => ⟨S32x5, .f32⟩
  | 64 => ⟨S32x4, .f32⟩
  | 65 => ⟨S32x1, .f32⟩
  | 66 => ⟨S32x4, .f32⟩
  | 67 => ⟨S32x4, .f32⟩
  | 68 => ⟨S32x131072x3, .f32⟩
  | 69 => ⟨S32x131072x1, .f32⟩
  | 70 => ⟨S32x131072x3, .f32⟩
  | 71 => ⟨S32x131072x3, .f32⟩
  | 72 => ⟨S_, .f32⟩
  | 73 => ⟨S32, .f32⟩
  | 74 => ⟨S_, .f32⟩
  | 75 => ⟨S32, .f32⟩
  | 76 => ⟨S32, .f32⟩
  | 77 => ⟨S32, .f32⟩
  | 78 => ⟨S32x1, .f32⟩
  | 79 => ⟨S32x5, .f32⟩
  | 80 => ⟨S32x1, .f32⟩
  | 81 => ⟨S32, .f32⟩
  | 82 => ⟨S32, .f32⟩
  | 83 => ⟨S32x1, .f32⟩
  | 84 => ⟨S32, .f32⟩
  | 85 => ⟨S32, .f32⟩
  | 86 => ⟨S_, .f32⟩
  | 87 => ⟨S32, .f32⟩
  | 88 => ⟨S32, .f32⟩
  | 89 => ⟨S32, .f32⟩
  | 90 => ⟨S32, .f32⟩
  | 91 => ⟨S32x1, .f32⟩
  | 92 => ⟨S32, .f32⟩
  | 93 => ⟨S32, .f32⟩
  | 94 => ⟨S32x1, .f32⟩
  | 95 => ⟨S32, .f32⟩
  | 96 => ⟨S_, .f32⟩
  | 97 => ⟨S32, .f32⟩
  | 98 => ⟨S32, .f32⟩
  | 99 => ⟨S32, .f32⟩
  | 100 => ⟨S32, .f32⟩
  | 101 => ⟨S32, .f32⟩
  | 102 => ⟨S_, .i32⟩
  | 103 => ⟨S1, .i32⟩
  | 104 => ⟨S32x5, .f32⟩
  | 105 => ⟨S32x1, .f32⟩
  | 106 => ⟨S32, .f32⟩
  | 107 => ⟨S32, .f32⟩
  | 108 => ⟨S32x1, .f32⟩
  | 109 => ⟨S32, .f32⟩
  | 110 => ⟨S32, .f32⟩
  | 111 => ⟨S_, .f32⟩
  | 112 => ⟨S32, .f32⟩
  | 113 => ⟨S32, .f32⟩
  | 114 => ⟨S32, .f32⟩
  | 115 => ⟨S32, .f32⟩
  | 116 => ⟨S32x1, .f32⟩
  | 117 => ⟨S32, .f32⟩
  | 118 => ⟨S32, .f32⟩
  | 119 => ⟨S32x1, .f32⟩
  | 120 => ⟨S32, .f32⟩
  | 121 => ⟨S_, .f32⟩
  | 122 => ⟨S32, .f32⟩
  | 123 => ⟨S32, .f32⟩
  | 124 => ⟨S32, .f32⟩
  | 125 => ⟨S32, .f32⟩
  | 126 => ⟨S32, .f32⟩
  | 127 => ⟨S_, .i32⟩
  | _ => ⟨S32x131072x3, .f32⟩

abbrev hbmTy0_19 (i : Nat) : BufTy := match i % 128 with
  | 0 => ⟨S1, .i32⟩
  | 1 => ⟨S32x5, .f32⟩
  | 2 => ⟨S32x1, .f32⟩
  | 3 => ⟨S32, .f32⟩
  | 4 => ⟨S32, .f32⟩
  | 5 => ⟨S32x1, .f32⟩
  | 6 => ⟨S32, .f32⟩
  | 7 => ⟨S32, .f32⟩
  | 8 => ⟨S_, .f32⟩
  | 9 => ⟨S32, .f32⟩
  | 10 => ⟨S32, .f32⟩
  | 11 => ⟨S32, .f32⟩
  | 12 => ⟨S32, .f32⟩
  | 13 => ⟨S32x1, .f32⟩
  | 14 => ⟨S32, .f32⟩
  | 15 => ⟨S32, .f32⟩
  | 16 => ⟨S32x1, .f32⟩
  | 17 => ⟨S32, .f32⟩
  | 18 => ⟨S_, .f32⟩
  | 19 => ⟨S32, .f32⟩
  | 20 => ⟨S32, .f32⟩
  | 21 => ⟨S32, .f32⟩
  | 22 => ⟨S32, .f32⟩
  | 23 => ⟨S32, .f32⟩
  | 24 => ⟨S_, .i32⟩
  | 25 => ⟨S1, .i32⟩
  | 26 => ⟨S32x5, .f32⟩
  | 27 => ⟨S32x1, .f32⟩
  | 28 => ⟨S32, .f32⟩
  | 29 => ⟨S32, .f32⟩
  | 30 => ⟨S32x1, .f32⟩
  | 31 => ⟨S32, .f32⟩
  | 32 => ⟨S32, .f32⟩
  | 33 => ⟨S_, .f32⟩
  | 34 => ⟨S32, .f32⟩
  | 35 => ⟨S32, .f32⟩
  | 36 => ⟨S32, .f32⟩
  | 37 => ⟨S32, .f32⟩
  | 38 => ⟨S32x1, .f32⟩
  | 39 => ⟨S32, .f32⟩
  | 40 => ⟨S32, .f32⟩
  | 41 => ⟨S32x1, .f32⟩
  | 42 => ⟨S32, .f32⟩
  | 43 => ⟨S_, .f32⟩
  | 44 => ⟨S32, .f32⟩
  | 45 => ⟨S32, .f32⟩
  | 46 => ⟨S32, .f32⟩
  | 47 => ⟨S32, .f32⟩
  | 48 => ⟨S32, .f32⟩
  | 49 => ⟨S_, .i32⟩
  | 50 => ⟨S1, .i32⟩
  | 51 => ⟨S32x5, .f32⟩
  | 52 => ⟨S32x1, .f32⟩
  | 53 => ⟨S32, .f32⟩
  | 54 => ⟨S_, .f32⟩
  | 55 => ⟨S32, .f32⟩
  | 56 => ⟨S32, .f32⟩
  | 57 => ⟨S32, .f32⟩
  | 58 => ⟨S_, .i32⟩
  | 59 => ⟨S1, .i32⟩
  | 60 => ⟨S32x5, .f32⟩
  | 61 => ⟨S_, .f32⟩
  | 62 => ⟨S_, .f32⟩
  | 63 => ⟨S_, .f32⟩
  | 64 => ⟨S_, .f32⟩
  | 65 => ⟨S32, .f32⟩
  | 66 => ⟨S32, .f32⟩
  | 67 => ⟨S32x5, .f32⟩
  | 68 => ⟨S32x5, .f32⟩
  | 69 => ⟨S32x4, .f32⟩
  | 70 => ⟨S32x1, .f32⟩
  | 71 => ⟨S32x4, .f32⟩
  | 72 => ⟨S32x4, .f32⟩
  | 73 => ⟨S32x131072x3, .f32⟩
  | 74 => ⟨S32x131072x1, .f32⟩
  | 75 => ⟨S32x131072x3, .f32⟩
  | 76 => ⟨S32x131072x3, .f32⟩
  | 77 => ⟨S_, .f32⟩
  | 78 => ⟨S32, .f32⟩
  | 79 => ⟨S_, .f32⟩
  | 80 => ⟨S32, .f32⟩
  | 81 => ⟨S32, .f32⟩
  | 82 => ⟨S32, .f32⟩
  | 83 => ⟨S32x1, .f32⟩
  | 84 => ⟨S32x5, .f32⟩
  | 85 => ⟨S32x1, .f32⟩
  | 86 => ⟨S32, .f32⟩
  | 87 => ⟨S_, .f32⟩
  | 88 => ⟨S32, .f32⟩
  | 89 => ⟨S32, .f32⟩
  | 90 => ⟨S32, .f32⟩
  | 91 => ⟨S_, .i32⟩
  | 92 => ⟨S1, .i32⟩
  | 93 => ⟨S32x5, .f32⟩
  | 94 => ⟨S32x1, .f32⟩
  | 95 => ⟨S32, .f32⟩
  | 96 => ⟨S32, .f32⟩
  | 97 => ⟨S32x1, .f32⟩
  | 98 => ⟨S32, .f32⟩
  | 99 => ⟨S32, .f32⟩
  | 100 => ⟨S_, .f32⟩
  | 101 => ⟨S32, .f32⟩
  | 102 => ⟨S32, .f32⟩
  | 103 => ⟨S32, .f32⟩
  | 104 => ⟨S32, .f32⟩
  | 105 => ⟨S32x1, .f32⟩
  | 106 => ⟨S32, .f32⟩
  | 107 => ⟨S32, .f32⟩
  | 108 => ⟨S32x1, .f32⟩
  | 109 => ⟨S32, .f32⟩
  | 110 => ⟨S_, .f32⟩
  | 111 => ⟨S32, .f32⟩
  | 112 => ⟨S32, .f32⟩
  | 113 => ⟨S32, .f32⟩
  | 114 => ⟨S32, .f32⟩
  | 115 => ⟨S32, .f32⟩
  | 116 => ⟨S_, .i32⟩
  | 117 => ⟨S1, .i32⟩
  | 118 => ⟨S32x5, .f32⟩
  | 119 => ⟨S32x1, .f32⟩
  | 120 => ⟨S32, .f32⟩
  | 121 => ⟨S32, .f32⟩
  | 122 => ⟨S32x1, .f32⟩
  | 123 => ⟨S32, .f32⟩
  | 124 => ⟨S32, .f32⟩
  | 125 => ⟨S_, .f32⟩
  | 126 => ⟨S32, .f32⟩
  | 127 => ⟨S32, .f32⟩
  | _ => ⟨S32x131072x3, .f32⟩

abbrev hbmTy0_20 (i : Nat) : BufTy := match i % 128 with
  | 0 => ⟨S32, .f32⟩
  | 1 => ⟨S32, .f32⟩
  | 2 => ⟨S32x1, .f32⟩
  | 3 => ⟨S32, .f32⟩
  | 4 => ⟨S32, .f32⟩
  | 5 => ⟨S32x1, .f32⟩
  | 6 => ⟨S32, .f32⟩
  | 7 => ⟨S_, .f32⟩
  | 8 => ⟨S32, .f32⟩
  | 9 => ⟨S32, .f32⟩
  | 10 => ⟨S32, .f32⟩
  | 11 => ⟨S32, .f32⟩
  | 12 => ⟨S32, .f32⟩
  | 13 => ⟨S_, .i32⟩
  | 14 => ⟨S1, .i32⟩
  | 15 => ⟨S32x5, .f32⟩
  | 16 => ⟨S32x1, .f32⟩
  | 17 => ⟨S32, .f32⟩
  | 18 => ⟨S32, .f32⟩
  | 19 => ⟨S32x1, .f32⟩
  | 20 => ⟨S32, .f32⟩
  | 21 => ⟨S32, .f32⟩
  | 22 => ⟨S_, .f32⟩
  | 23 => ⟨S32, .f32⟩
  | 24 => ⟨S32, .f32⟩
  | 25 => ⟨S32, .f32⟩
  | 26 => ⟨S32, .f32⟩
  | 27 => ⟨S32x1, .f32⟩
  | 28 => ⟨S32, .f32⟩
  | 29 => ⟨S32, .f32⟩
  | 30 => ⟨S32x1, .f32⟩
  | 31 => ⟨S32, .f32⟩
  | 32 => ⟨S_, .f32⟩
  | 33 => ⟨S32, .f32⟩
  | 34 => ⟨S32, .f32⟩
  | 35 => ⟨S32, .f32⟩
  | 36 => ⟨S32, .f32⟩
  | 37 => ⟨S32, .f32⟩
  | 38 => ⟨S_, .i32⟩
  | 39 => ⟨S1, .i32⟩
  | 40 => ⟨S32x5, .f32⟩
  | 41 => ⟨S32x1, .f32⟩
  | 42 => ⟨S32, .f32⟩
  | 43 => ⟨S32, .f32⟩
  | 44 => ⟨S32x1, .f32⟩
  | 45 => ⟨S32, .f32⟩
  | 46 => ⟨S32, .f32⟩
  | 47 => ⟨S_, .f32⟩
  | 48 => ⟨S32, .f32⟩
  | 49 => ⟨S32, .f32⟩
  | 50 => ⟨S32, .f32⟩
  | 51 => ⟨S32, .f32⟩
  | 52 => ⟨S32x1, .f32⟩
  | 53 => ⟨S32, .f32⟩
  | 54 => ⟨S32, .f32⟩
  | 55 => ⟨S32x1, .f32⟩
  | 56 => ⟨S32, .f32⟩
  | 57 => ⟨S_, .f32⟩
  | 58 => ⟨S32, .f32⟩
  | 59 => ⟨S32, .f32⟩
  | 60 => ⟨S32, .f32⟩
  | 61 => ⟨S32, .f32⟩
  | 62 => ⟨S32, .f32⟩
  | 63 => ⟨S_, .i32⟩
  | 64 => ⟨S1, .i32⟩
  | 65 => ⟨S32x5, .f32⟩
  | 66 => ⟨S32x5, .f32⟩
  | 67 => ⟨S32x1, .f32⟩
  | 68 => ⟨S32x5, .f32⟩
  | 69 => ⟨S32x5, .f32⟩
  | 70 => ⟨S32x5, .f32⟩
  | 71 => ⟨S32x1, .f32⟩
  | 72 => ⟨S32, .f32⟩
  | 73 => ⟨S32, .f32⟩
  | 74 => ⟨S32x1, .f32⟩
  | 75 => ⟨S32, .f32⟩
  | 76 => ⟨S32, .f32⟩
  | 77 => ⟨S32, .f32⟩
  | 78 => ⟨S32, .f32⟩
  | 79 => ⟨S32x1x1, .f32⟩
  | 80 => ⟨S32x131072x3, .f32⟩
  | 81 => ⟨S32x131072x3, .f32⟩
  | 82 => ⟨S32x5, .f32⟩
  | 83 => ⟨S32x5, .f32⟩
  | 84 => ⟨S32x4, .f32⟩
  | 85 => ⟨S32x1, .f32⟩
  | 86 => ⟨S32x4, .f32⟩
  | 87 => ⟨S32x4, .f32⟩
  | 88 => ⟨S32x131072x3, .f32⟩
  | 89 => ⟨S32x131072x1, .f32⟩
  | 90 => ⟨S32x131072x3, .f32⟩
  | 91 => ⟨S32x131072x3, .f32⟩
  | 92 => ⟨S_, .f32⟩
  | 93 => ⟨S32, .f32⟩
  | 94 => ⟨S_, .f32⟩
  | 95 => ⟨S32, .f32⟩
  | 96 => ⟨S32, .f32⟩
  | 97 => ⟨S32, .f32⟩
  | 98 => ⟨S32x1, .f32⟩
  | 99 => ⟨S32x5, .f32⟩
  | 100 => ⟨S32x1, .f32⟩
  | 101 => ⟨S32, .f32⟩
  | 102 => ⟨S32, .f32⟩
  | 103 => ⟨S32x1, .f32⟩
  | 104 => ⟨S32, .f32⟩
  | 105 => ⟨S32, .f32⟩
  | 106 => ⟨S_, .f32⟩
  | 107 => ⟨S32, .f32⟩
  | 108 => ⟨S32, .f32⟩
  | 109 => ⟨S32, .f32⟩
  | 110 => ⟨S32, .f32⟩
  | 111 => ⟨S32x1, .f32⟩
  | 112 => ⟨S32, .f32⟩
  | 113 => ⟨S32, .f32⟩
  | 114 => ⟨S32x1, .f32⟩
  | 115 => ⟨S32, .f32⟩
  | 116 => ⟨S_, .f32⟩
  | 117 => ⟨S32, .f32⟩
  | 118 => ⟨S32, .f32⟩
  | 119 => ⟨S32, .f32⟩
  | 120 => ⟨S32, .f32⟩
  | 121 => ⟨S32, .f32⟩
  | 122 => ⟨S_, .i32⟩
  | 123 => ⟨S1, .i32⟩
  | 124 => ⟨S32x5, .f32⟩
  | 125 => ⟨S32x1, .f32⟩
  | 126 => ⟨S32, .f32⟩
  | 127 => ⟨S32, .f32⟩
  | _ => ⟨S32x131072x3, .f32⟩

abbrev hbmTy0_21 (i : Nat) : BufTy := match i % 128 with
  | 0 => ⟨S32x1, .f32⟩
  | 1 => ⟨S32, .f32⟩
  | 2 => ⟨S32, .f32⟩
  | 3 => ⟨S_, .f32⟩
  | 4 => ⟨S32, .f32⟩
  | 5 => ⟨S32, .f32⟩
  | 6 => ⟨S32, .f32⟩
  | 7 => ⟨S32, .f32⟩
  | 8 => ⟨S32x1, .f32⟩
  | 9 => ⟨S32, .f32⟩
  | 10 => ⟨S32, .f32⟩
  | 11 => ⟨S32x1, .f32⟩
  | 12 => ⟨S32, .f32⟩
  | 13 => ⟨S_, .f32⟩
  | 14 => ⟨S32, .f32⟩
  | 15 => ⟨S32, .f32⟩
  | 16 => ⟨S32, .f32⟩
  | 17 => ⟨S32, .f32⟩
  | 18 => ⟨S32, .f32⟩
  | 19 => ⟨S_, .i32⟩
  | 20 => ⟨S1, .i32⟩
  | 21 => ⟨S32x5, .f32⟩
  | 22 => ⟨S32x1, .f32⟩
  | 23 => ⟨S32, .f32⟩
  | 24 => ⟨S32, .f32⟩
  | 25 => ⟨S32x1, .f32⟩
  | 26 => ⟨S32, .f32⟩
  | 27 => ⟨S32, .f32⟩
  | 28 => ⟨S_, .f32⟩
  | 29 => ⟨S32, .f32⟩
  | 30 => ⟨S32, .f32⟩
  | 31 => ⟨S32, .f32⟩
  | 32 => ⟨S32, .f32⟩
  | 33 => ⟨S32x1, .f32⟩
  | 34 => ⟨S32, .f32⟩
  | 35 => ⟨S32, .f32⟩
  | 36 => ⟨S32x1, .f32⟩
  | 37 => ⟨S32, .f32⟩
  | 38 => ⟨S_, .f32⟩
  | 39 => ⟨S32, .f32⟩
  | 40 => ⟨S32, .f32⟩
  | 41 => ⟨S32, .f32⟩
  | 42 => ⟨S32, .f32⟩
  | 43 => ⟨S32, .f32⟩
  | 44 => ⟨S_, .i32⟩
  | 45 => ⟨S1, .i32⟩
  | 46 => ⟨S32x5, .f32⟩
  | 47 => ⟨S32x1, .f32⟩
  | 48 => ⟨S32, .f32⟩
  | 49 => ⟨S32, .f32⟩
  | 50 => ⟨S32x1, .f32⟩
  | 51 => ⟨S32, .f32⟩
  | 52 => ⟨S32, .f32⟩
  | 53 => ⟨S_, .f32⟩
  | 54 => ⟨S32, .f32⟩
  | 55 => ⟨S32, .f32⟩
  | 56 => ⟨S32, .f32⟩
  | 57 => ⟨S32, .f32⟩
  | 58 => ⟨S32x1, .f32⟩
  | 59 => ⟨S32, .f32⟩
  | 60 => ⟨S32, .f32⟩
  | 61 => ⟨S32x1, .f32⟩
  | 62 => ⟨S32, .f32⟩
  | 63 => ⟨S_, .f32⟩
  | 64 => ⟨S32, .f32⟩
  | 65 => ⟨S32, .f32⟩
  | 66 => ⟨S32, .f32⟩
  | 67 => ⟨S32, .f32⟩
  | 68 => ⟨S32, .f32⟩
  | 69 => ⟨S_, .i32⟩
  | 70 => ⟨S1, .i32⟩
  | 71 => ⟨S32x5, .f32⟩
  | 72 => ⟨S32x1, .f32⟩
  | 73 => ⟨S32, .f32⟩
  | 74 => ⟨S_, .f32⟩
  | 75 => ⟨S32, .f32⟩
  | 76 => ⟨S32, .f32⟩
  | 77 => ⟨S32, .f32⟩
  | 78 => ⟨S_, .i32⟩
  | 79 => ⟨S1, .i32⟩
  | 80 => ⟨S32x5, .f32⟩
  | 81 => ⟨S_, .f32⟩
  | 82 => ⟨S_, .f32⟩
  | 83 => ⟨S_, .f32⟩
  | 84 => ⟨S_, .f32⟩
  | 85 => ⟨S32, .f32⟩
  | 86 => ⟨S32, .f32⟩
  | 87 => ⟨S32x5, .f32⟩
  | 88 => ⟨S32x5, .f32⟩
  | 89 => ⟨S32x4, .f32⟩
  | 90 => ⟨S32x1, .f32⟩
  | 91 => ⟨S32x4, .f32⟩
  | 92 => ⟨S32x4, .f32⟩
  | 93 => ⟨S32x131072x3, .f32⟩
  | 94 => ⟨S32x131072x1, .f32⟩
  | 95 => ⟨S32x131072x3, .f32⟩
  | 96 => ⟨S32x131072x3, .f32⟩
  | 97 => ⟨S_, .f32⟩
  | 98 => ⟨S32, .f32⟩
  | 99 => ⟨S_, .f32⟩
  | 100 => ⟨S32, .f32⟩
  | 101 => ⟨S32, .f32⟩
  | 102 => ⟨S32, .f32⟩
  | 103 => ⟨S32x1, .f32⟩
  | 104 => ⟨S32x5, .f32⟩
  | 105 => ⟨S32x1, .f32⟩
  | 106 => ⟨S32, .f32⟩
  | 107 => ⟨S_, .f32⟩
  | 108 => ⟨S32, .f32⟩
  | 109 => ⟨S32, .f32⟩
  | 110 => ⟨S32, .f32⟩
  | 111 => ⟨S_, .i32⟩
  | 112 => ⟨S1, .i32⟩
  | 113 => ⟨S32x5, .f32⟩
  | 114 => ⟨S32x1, .f32⟩
  | 115 => ⟨S32, .f32⟩
  | 116 => ⟨S32, .f32⟩
  | 117 => ⟨S32x1, .f32⟩
  | 118 => ⟨S32, .f32⟩
  | 119 => ⟨S32, .f32⟩
  | 120 => ⟨S_, .f32⟩
  | 121 => ⟨S32, .f32⟩
  | 122 => ⟨S32, .f32⟩
  | 123 => ⟨S32, .f32⟩
  | 124 => ⟨S32, .f32⟩
  | 125 => ⟨S32x1, .f32⟩
  | 126 => ⟨S32, .f32⟩
  | 127 => ⟨S32, .f32⟩
  | _ => ⟨S32x131072x3, .f32⟩

abbrev hbmTy0_22 (i : Nat) : BufTy := match i % 128 with
  | 0 => ⟨S32x1, .f32⟩
  | 1 => ⟨S32, .f32⟩
  | 2 => ⟨S_, .f32⟩
  | 3 => ⟨S32, .f32⟩
  | 4 => ⟨S32, .f32⟩
  | 5 => ⟨S32, .f32⟩
  | 6 => ⟨S32, .f32⟩
  | 7 => ⟨S32, .f32⟩
  | 8 => ⟨S_, .i32⟩
  | 9 => ⟨S1, .i32⟩
  | 10 => ⟨S32x5, .f32⟩
  | 11 => ⟨S32x1, .f32⟩
  | 12 => ⟨S32, .f32⟩
  | 13 => ⟨S32, .f32⟩
  | 14 => ⟨S32x1, .f32⟩
  | 15 => ⟨S32, .f32⟩
  | 16 => ⟨S32, .f32⟩
  | 17 => ⟨S_, .f32⟩
  | 18 => ⟨S32, .f32⟩
  | 19 => ⟨S32, .f32⟩
  | 20 => ⟨S32, .f32⟩
  | 21 => ⟨S32, .f32⟩
  | 22 => ⟨S32x1, .f32⟩
  | 23 => ⟨S32, .f32⟩
  | 24 => ⟨S32, .f32⟩
  | 25 => ⟨S32x1, .f32⟩
  | 26 => ⟨S32, .f32⟩
  | 27 => ⟨S_, .f32⟩
  | 28 => ⟨S32, .f32⟩
  | 29 => ⟨S32, .f32⟩
  | 30 => ⟨S32, .f32⟩
  | 31 => ⟨S32, .f32⟩
  | 32 => ⟨S32, .f32⟩
  | 33 => ⟨S_, .i32⟩
  | 34 => ⟨S1, .i32⟩
  | 35 => ⟨S32x5, .f32⟩
  | 36 => ⟨S32x1, .f32⟩
  | 37 => ⟨S32, .f32⟩
  | 38 => ⟨S32, .f32⟩
  | 39 => ⟨S32x1, .f32⟩
  | 40 => ⟨S32, .f32⟩
  | 41 => ⟨S32, .f32⟩
  | 42 => ⟨S_, .f32⟩
  | 43 => ⟨S32, .f32⟩
  | 44 => ⟨S32, .f32⟩
  | 45 => ⟨S32, .f32⟩
  | 46 => ⟨S32, .f32⟩
  | 47 => ⟨S32x1, .f32⟩
  | 48 => ⟨S32, .f32⟩
  | 49 => ⟨S32, .f32⟩
  | 50 => ⟨S32x1, .f32⟩
  | 51 => ⟨S32, .f32⟩
  | 52 => ⟨S_, .f32⟩
  | 53 => ⟨S32, .f32⟩
  | 54 => ⟨S32, .f32⟩
  | 55 => ⟨S32, .f32⟩
  | 56 => ⟨S32, .f32⟩
  | 57 => ⟨S32, .f32⟩
  | 58 => ⟨S_, .i32⟩
  | 59 => ⟨S1, .i32⟩
  | 60 => ⟨S32x5, .f32⟩
  | 61 => ⟨S32x1, .f32⟩
  | 62 => ⟨S32, .f32⟩
  | 63 => ⟨S32, .f32⟩
  | 64 => ⟨S32x1, .f32⟩
  | 65 => ⟨S32, .f32⟩
  | 66 => ⟨S32, .f32⟩
  | 67 => ⟨S_, .f32⟩
  | 68 => ⟨S32, .f32⟩
  | 69 => ⟨S32, .f32⟩
  | 70 => ⟨S32, .f32⟩
  | 71 => ⟨S32, .f32⟩
  | 72 => ⟨S32x1, .f32⟩
  | 73 => ⟨S32, .f32⟩
  | 74 => ⟨S32, .f32⟩
  | 75 => ⟨S32x1, .f32⟩
  | 76 => ⟨S32, .f32⟩
  | 77 => ⟨S_, .f32⟩
  | 78 => ⟨S32, .f32⟩
  | 79 => ⟨S32, .f32⟩
  | 80 => ⟨S32, .f32⟩
  | 81 => ⟨S32, .f32⟩
  | 82 => ⟨S32, .f32⟩
  | 83 => ⟨S_, .i32⟩
  | 84 => ⟨S1, .i32⟩
  | 85 => ⟨S32x5, .f32⟩
  | 86 => ⟨S32x5, .f32⟩
  | 87 => ⟨S32x1, .f32⟩
  | 88 => ⟨S32x5, .f32⟩
  | 89 => ⟨S32x5, .f32⟩
  | 90 => ⟨S32x5, .f32⟩
  | 91 => ⟨S32x1, .f32⟩
  | 92 => ⟨S32, .f32⟩
  | 93 => ⟨S32, .f32⟩
  | 94 => ⟨S32x1, .f32⟩
  | 95 => ⟨S32, .f32⟩
  | 96 => ⟨S32, .f32⟩
  | 97 => ⟨S32, .f32⟩
  | 98 => ⟨S32, .f32⟩
  | 99 => ⟨S32x1x1, .f32⟩
  | 100 => ⟨S32x131072x3, .f32⟩
  | 101 => ⟨S32x131072x3, .f32⟩
  | 102 => ⟨S32x5, .f32⟩
  | 103 => ⟨S32x5, .f32⟩
  | 104 => ⟨S32x4, .f32⟩
  | 105 => ⟨S32x1, .f32⟩
  | 106 => ⟨S32x4, .f32⟩
  | 107 => ⟨S32x4, .f32⟩
  | 108 => ⟨S32x131072x3, .f32⟩
  | 109 => ⟨S32x131072x1, .f32⟩
  | 110 => ⟨S32x131072x3, .f32⟩
  | 111 => ⟨S32x131072x3, .f32⟩
  | 112 => ⟨S_, .f32⟩
  | 113 => ⟨S32, .f32⟩
  | 114 => ⟨S_, .f32⟩
  | 115 => ⟨S32, .f32⟩
  | 116 => ⟨S32, .f32⟩
  | 117 => ⟨S32, .f32⟩
  | 118 => ⟨S32x1, .f32⟩
  | 119 => ⟨S32x5, .f32⟩
  | 120 => ⟨S32x1, .f32⟩
  | 121 => ⟨S32, .f32⟩
  | 122 => ⟨S32, .f32⟩
  | 123 => ⟨S32x1, .f32⟩
  | 124 => ⟨S32, .f32⟩
  | 125 => ⟨S32, .f32⟩
  | 126 => ⟨S_, .f32⟩
  | 127 => ⟨S32, .f32⟩
  | _ => ⟨S32x131072x3, .f32⟩

abbrev hbmTy0_23 (i : Nat) : BufTy := match i % 128 with
  | 0 => ⟨S32, .f32⟩
  | 1 => ⟨S32, .f32⟩
  | 2 => ⟨S32, .f32⟩
  | 3 => ⟨S32x1, .f32⟩
  | 4 => ⟨S32, .f32⟩
  | 5 => ⟨S32, .f32⟩
  | 6 => ⟨S32x1, .f32⟩
  | 7 => ⟨S32, .f32⟩
  | 8 => ⟨S_, .f32⟩
  | 9 => ⟨S32, .f32⟩
  | 10 => ⟨S32, .f32⟩
  | 11 => ⟨S32, .f32⟩
  | 12 => ⟨S32, .f32⟩
  | 13 => ⟨S32, .f32⟩
  | 14 => ⟨S_, .i32⟩
  | 15 => ⟨S1, .i32⟩
  | 16 => ⟨S32x5, .f32⟩
  | 17 => ⟨S32x1, .f32⟩
  | 18 => ⟨S32, .f32⟩
  | 19 => ⟨S32, .f32⟩
  | 20 => ⟨S32x1, .f32⟩
  | 21 => ⟨S32, .f32⟩
  | 22 => ⟨S32, .f32⟩
  | 23 => ⟨S_, .f32⟩
  | 24 => ⟨S32, .f32⟩
  | 25 => ⟨S32, .f32⟩
  | 26 => ⟨S32, .f32⟩
  | 27 => ⟨S32, .f32⟩
  | 28 => ⟨S32x1, .f32⟩
  | 29 => ⟨S32, .f32⟩
  | 30 => ⟨S32, .f32⟩
  | 31 => ⟨S32x1, .f32⟩
  | 32 => ⟨S32, .f32⟩
  | 33 => ⟨S_, .f32⟩
  | 34 => ⟨S32, .f32⟩
  | 35 => ⟨S32, .f32⟩
  | 36 => ⟨S32, .f32⟩
  | 37 => ⟨S32, .f32⟩
  | 38 => ⟨S32, .f32⟩
  | 39 => ⟨S_, .i32⟩
  | 40 => ⟨S1, .i32⟩
  | 41 => ⟨S32x5, .f32⟩
  | 42 => ⟨S32x1, .f32⟩
  | 43 => ⟨S32, .f32⟩
  | 44 => ⟨S32, .f32⟩
  | 45 => ⟨S32x1, .f32⟩
  | 46 => ⟨S32, .f32⟩
  | 47 => ⟨S32, .f32⟩
  | 48 => ⟨S_, .f32⟩
  | 49 => ⟨S32, .f32⟩
  | 50 => ⟨S32, .f32⟩
  | 51 => ⟨S32, .f32⟩
  | 52 => ⟨S32, .f32⟩
  | 53 => ⟨S32x1, .f32⟩
  | 54 => ⟨S32, .f32⟩
  | 55 => ⟨S32, .f32⟩
  | 56 => ⟨S32x1, .f32⟩
  | 57 => ⟨S32, .f32⟩
  | 58 => ⟨S_, .f32⟩
  | 59 => ⟨S32, .f32⟩
  | 60 => ⟨S32, .f32⟩
  | 61 => ⟨S32, .f32⟩
  | 62 => ⟨S32, .f32⟩
  | 63 => ⟨S32, .f32⟩
  | 64 => ⟨S_, .i32⟩
  | 65 => ⟨S1, .i32⟩
  | 66 => ⟨S32x5, .f32⟩
  | 67 => ⟨S32x1, .f32⟩
  | 68 => ⟨S32, .f32⟩
  | 69 => ⟨S32, .f32⟩
  | 70 => ⟨S32x1, .f32⟩
  | 71 => ⟨S32, .f32⟩
  | 72 => ⟨S32, .f32⟩
  | 73 => ⟨S_, .f32⟩
  | 74 => ⟨S32, .f32⟩
  | 75 => ⟨S32, .f32⟩
  | 76 => ⟨S32, .f32⟩
  | 77 => ⟨S32, .f32⟩
  | 78 => ⟨S32x1, .f32⟩
  | 79 => ⟨S32, .f32⟩
  | 80 => ⟨S32, .f32⟩
  | 81 => ⟨S32x1, .f32⟩
  | 82 => ⟨S32, .f32⟩
  | 83 => ⟨S_, .f32⟩
  | 84 => ⟨S32, .f32⟩
  | 85 => ⟨S32, .f32⟩
  | 86 => ⟨S32, .f32⟩
  | 87 => ⟨S32, .f32⟩
  | 88 => ⟨S32, .f32⟩
  | 89 => ⟨S_, .i32⟩
  | 90 => ⟨S1, .i32⟩
  | 91 => ⟨S32x5, .f32⟩
  | 92 => ⟨S32x1, .f32⟩
  | 93 => ⟨S32, .f32⟩
  | 94 => ⟨S_, .f32⟩
  | 95 => ⟨S32, .f32⟩
  | 96 => ⟨S32, .f32⟩
  | 97 => ⟨S32, .f32⟩
  | 98 => ⟨S_, .i32⟩
  | 99 => ⟨S1, .i32⟩
  | 100 => ⟨S32x5, .f32⟩
  | 101 => ⟨S_, .f32⟩
  | 102 => ⟨S_, .f32⟩
  | 103 => ⟨S_, .f32⟩
  | 104 => ⟨S_, .f32⟩
  | 105 => ⟨S32, .f32⟩
  | 106 => ⟨S32, .f32⟩
  | 107 => ⟨S32x5, .f32⟩
  | 108 => ⟨S32x5, .f32⟩
  | 109 => ⟨S32x4, .f32⟩
  | 110 => ⟨S32x1, .f32⟩
  | 111 => ⟨S32x4, .f32⟩
  | 112 => ⟨S32x4, .f32⟩
  | 113 => ⟨S32x131072x3, .f32⟩
  | 114 => ⟨S32x131072x1, .f32⟩
  | 115 => ⟨S32x131072x3, .f32⟩
  | 116 => ⟨S32x131072x3, .f32⟩
  | 117 => ⟨S_, .f32⟩
  | 118 => ⟨S32, .f32⟩
  | 119 => ⟨S_, .f32⟩
  | 120 => ⟨S32, .f32⟩
  | 121 => ⟨S32, .f32⟩
  | 122 => ⟨S32, .f32⟩
  | 123 => ⟨S32x1, .f32⟩
  | 124 => ⟨S32x5, .f32⟩
  | 125 => ⟨S32x1, .f32⟩
  | 126 => ⟨S32, .f32⟩
  | 127 => ⟨S_, .f32⟩
  | _ => ⟨S32x131072x3, .f32⟩

abbrev hbmTy0_24 (i : Nat) : BufTy := match i % 128 with
  | 0 => ⟨S32, .f32⟩
  | 1 => ⟨S32, .f32⟩
  | 2 => ⟨S32, .f32⟩
  | 3 => ⟨S_, .i32⟩
  | 4 => ⟨S1, .i32⟩
  | 5 => ⟨S32x5, .f32⟩
  | 6 => ⟨S32x1, .f32⟩
  | 7 => ⟨S32, .f32⟩
  | 8 => ⟨S32, .f32⟩
  | 9 => ⟨S32x1, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S32, .f32⟩
  | 17 => ⟨S32x1, .f32⟩
  | 18 => ⟨S32, .f32⟩
  | 19 => ⟨S32, .f32⟩
  | 20 => ⟨S32x1, .f32⟩
  | 21 => ⟨S32, .f32⟩
  | 22 => ⟨S_, .f32⟩
  | 23 => ⟨S32, .f32⟩
  | 24 => ⟨S32, .f32⟩
  | 25 => ⟨S32, .f32⟩
  | 26 => ⟨S32, .f32⟩
  | 27 => ⟨S32, .f32⟩
  | 28 => ⟨S_, .i32⟩
  | 29 => ⟨S1, .i32⟩
  | 30 => ⟨S32x5, .f32⟩
  | 31 => ⟨S32x1, .f32⟩
  | 32 => ⟨S32, .f32⟩
  | 33 => ⟨S32, .f32⟩
  | 34 => ⟨S32x1, .f32⟩
  | 35 => ⟨S32, .f32⟩
  | 36 => ⟨S32, .f32⟩
  | 37 => ⟨S_, .f32⟩
  | 38 => ⟨S32, .f32⟩
  | 39 => ⟨S32, .f32⟩
  | 40 => ⟨S32, .f32⟩
  | 41 => ⟨S32, .f32⟩
  | 42 => ⟨S32x1, .f32⟩
  | 43 => ⟨S32, .f32⟩
  | 44 => ⟨S32, .f32⟩
  | 45 => ⟨S32x1, .f32⟩
  | 46 => ⟨S32, .f32⟩
  | 47 => ⟨S_, .f32⟩
  | 48 => ⟨S32, .f32⟩
  | 49 => ⟨S32, .f32⟩
  | 50 => ⟨S32, .f32⟩
  | 51 => ⟨S32, .f32⟩
  | 52 => ⟨S32, .f32⟩
  | 53 => ⟨S_, .i32⟩
  | 54 => ⟨S1, .i32⟩
  | 55 => ⟨S32x5, .f32⟩
  | 56 => ⟨S32x1, .f32⟩
  | 57 => ⟨S32, .f32⟩
  | 58 => ⟨S32, .f32⟩
  | 59 => ⟨S32x1, .f32⟩
  | 60 => ⟨S32, .f32⟩
  | 61 => ⟨S32, .f32⟩
  | 62 => ⟨S_, .f32⟩
  | 63 => ⟨S32, .f32⟩
  | 64 => ⟨S32, .f32⟩
  | 65 => ⟨S32, .f32⟩
  | 66 => ⟨S32, .f32⟩
  | 67 => ⟨S32x1, .f32⟩
  | 68 => ⟨S32, .f32⟩
  | 69 => ⟨S32, .f32⟩
  | 70 => ⟨S32x1, .f32⟩
  | 71 => ⟨S32, .f32⟩
  | 72 => ⟨S_, .f32⟩
  | 73 => ⟨S32, .f32⟩
  | 74 => ⟨S32, .f32⟩
  | 75 => ⟨S32, .f32⟩
  | 76 => ⟨S32, .f32⟩
  | 77 => ⟨S32, .f32⟩
  | 78 => ⟨S_, .i32⟩
  | 79 => ⟨S1, .i32⟩
  | 80 => ⟨S32x5, .f32⟩
  | 81 => ⟨S32x1, .f32⟩
  | 82 => ⟨S32, .f32⟩
  | 83 => ⟨S32, .f32⟩
  | 84 => ⟨S32x1, .f32⟩
  | 85 => ⟨S32, .f32⟩
  | 86 => ⟨S32, .f32⟩
  | 87 => ⟨S_, .f32⟩
  | 88 => ⟨S32, .f32⟩
  | 89 => ⟨S32, .f32⟩
  | 90 => ⟨S32, .f32⟩
  | 91 => ⟨S32, .f32⟩
  | 92 => ⟨S32x1, .f32⟩
  | 93 => ⟨S32, .f32⟩
  | 94 => ⟨S32, .f32⟩
  | 95 => ⟨S32x1, .f32⟩
  | 96 => ⟨S32, .f32⟩
  | 97 => ⟨S_, .f32⟩
  | 98 => ⟨S32, .f32⟩
  | 99 => ⟨S32, .f32⟩
  | 100 => ⟨S32, .f32⟩
  | 101 => ⟨S32, .f32⟩
  | 102 => ⟨S32, .f32⟩
  | 103 => ⟨S_, .i32⟩
  | 104 => ⟨S1, .i32⟩
  | 105 => ⟨S32x5, .f32⟩
  | 106 => ⟨S32x5, .f32⟩
  | 107 => ⟨S32x1, .f32⟩
  | 108 => ⟨S32x5, .f32⟩
  | 109 => ⟨S32x5, .f32⟩
  | 110 => ⟨S32x5, .f32⟩
  | 111 => ⟨S32x1, .f32⟩
  | 112 => ⟨S32, .f32⟩
  | 113 => ⟨S32, .f32⟩
  | 114 => ⟨S32x1, .f32⟩
  | 115 => ⟨S32, .f32⟩
  | 116 => ⟨S32, .f32⟩
  | 117 => ⟨S32, .f32⟩
  | 118 => ⟨S32, .f32⟩
  | 119 => ⟨S32x1x1, .f32⟩
  | 120 => ⟨S32x131072x3, .f32⟩
  | 121 => ⟨S32x131072x3, .f32⟩
  | 122 => ⟨S32x5, .f32⟩
  | 123 => ⟨S32x5, .f32⟩
  | 124 => ⟨S32x4, .f32⟩
  | 125 => ⟨S32x1, .f32⟩
  | 126 => ⟨S32x4, .f32⟩
  | 127 => ⟨S32x4, .f32⟩
  | _ => ⟨S32x131072x3, .f32⟩

abbrev hbmTy0_25 (i : Nat) : BufTy := match i % 128 with
  | 0 => ⟨S32x131072x3, .f32⟩
  | 1 => ⟨S32x131072x1, .f32⟩
  | 2 => ⟨S32x131072x3, .f32⟩
  | 3 => ⟨S32x131072x3, .f32⟩
  | 4 => ⟨S_, .f32⟩
  | 5 => ⟨S32, .f32⟩
  | 6 => ⟨S_, .f32⟩
  | 7 => ⟨S32, .f32⟩
  | 8 => ⟨S32, .f32⟩
  | 9 => ⟨S32, .f32⟩
  | 10 => ⟨S32x1, .f32⟩
  | 11 => ⟨S32x5, .f32⟩
  | 12 => ⟨S32x1, .f32⟩
  | 13 => ⟨S32, .f32⟩
  | 14 => ⟨S32, .f32⟩
  | 15 => ⟨S32x1, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S32, .f32⟩
  | 23 => ⟨S32x1, .f32⟩
  | 24 => ⟨S32, .f32⟩
  | 25 => ⟨S32, .f32⟩
  | 26 => ⟨S32x1, .f32⟩
  | 27 => ⟨S32, .f32⟩
  | 28 => ⟨S_, .f32⟩
  | 29 => ⟨S32, .f32⟩
  | 30 => ⟨S32, .f32⟩
  | 31 => ⟨S32, .f32⟩
  | 32 => ⟨S32, .f32⟩
  | 33 => ⟨S32, .f32⟩
  | 34 => ⟨S_, .i32⟩
  | 35 => ⟨S1, .i32⟩
  | 36 => ⟨S32x5, .f32⟩
  | 37 => ⟨S32x1, .f32⟩
  | 38 => ⟨S32, .f32⟩
  | 39 => ⟨S32, .f32⟩
  | 40 => ⟨S32x1, .f32⟩
  | 41 => ⟨S32, .f32⟩
  | 42 => ⟨S32, .f32⟩
  | 43 => ⟨S_, .f32⟩
  | 44 => ⟨S32, .f32⟩
  | 45 => ⟨S32, .f32⟩
  | 46 => ⟨S32, .f32⟩
  | 47 => ⟨S32, .f32⟩
  | 48 => ⟨S32x1, .f32⟩
  | 49 => ⟨S32, .f32⟩
  | 50 => ⟨S32, .f32⟩
  | 51 => ⟨S32x1, .f32⟩
  | 52 => ⟨S32, .f32⟩
  | 53 => ⟨S_, .f32⟩
  | 54 => ⟨S32, .f32⟩
  | 55 => ⟨S32, .f32⟩
  | 56 => ⟨S32, .f32⟩
  | 57 => ⟨S32, .f32⟩
  | 58 => ⟨S32, .f32⟩
  | 59 => ⟨S_, .i32⟩
  | 60 => ⟨S1, .i32⟩
  | 61 => ⟨S32x5, .f32⟩
  | 62 => ⟨S32x1, .f32⟩
  | 63 => ⟨S32, .f32⟩
  | 64 => ⟨S32, .f32⟩
  | 65 => ⟨S32x1, .f32⟩
  | 66 => ⟨S32, .f32⟩
  | 67 => ⟨S32, .f32⟩
  | 68 => ⟨S_, .f32⟩
  | 69 => ⟨S32, .f32⟩
  | 70 => ⟨S32, .f32⟩
  | 71 => ⟨S32, .f32⟩
  | 72 => ⟨S32, .f32⟩
  | 73 => ⟨S32x1, .f32⟩
  | 74 => ⟨S32, .f32⟩
  | 75 => ⟨S32, .f32⟩
  | 76 => ⟨S32x1, .f32⟩
  | 77 => ⟨S32, .f32⟩
  | 78 => ⟨S_, .f32⟩
  | 79 => ⟨S32, .f32⟩
  | 80 => ⟨S32, .f32⟩
  | 81 => ⟨S32, .f32⟩
  | 82 => ⟨S32, .f32⟩
  | 83 => ⟨S32, .f32⟩
  | 84 => ⟨S_, .i32⟩
  | 85 => ⟨S1, .i32⟩
  | 86 => ⟨S32x5, .f32⟩
  | 87 => ⟨S32x1, .f32⟩
  | 88 => ⟨S32, .f32⟩
  | 89 => ⟨S32, .f32⟩
  | 90 => ⟨S32x1, .f32⟩
  | 91 => ⟨S32, .f32⟩
  | 92 => ⟨S32, .f32⟩
  | 93 => ⟨S_, .f32⟩
  | 94 => ⟨S32, .f32⟩
  | 95 => ⟨S32, .f32⟩
  | 96 => ⟨S32, .f32⟩
  | 97 => ⟨S32, .f32⟩
  | 98 => ⟨S32x1, .f32⟩
  | 99 => ⟨S32, .f32⟩
  | 100 => ⟨S32, .f32⟩
  | 101 => ⟨S32x1, .f32⟩
  | 102 => ⟨S32, .f32⟩
  | 103 => ⟨S_, .f32⟩
  | 104 => ⟨S32, .f32⟩
  | 105 => ⟨S32, .f32⟩
  | 106 => ⟨S32, .f32⟩
  | 107 => ⟨S32, .f32⟩
  | 108 => ⟨S32, .f32⟩
  | 109 => ⟨S_, .i32⟩
  | 110 => ⟨S1, .i32⟩
  | 111 => ⟨S32x5, .f32⟩
  | 112 => ⟨S32x1, .f32⟩
  | 113 => ⟨S32, .f32⟩
  | 114 => ⟨S_, .f32⟩
  | 115 => ⟨S32, .f32⟩
  | 116 => ⟨S32, .f32⟩
  | 117 => ⟨S32, .f32⟩
  | 118 => ⟨S_, .i32⟩
  | 119 => ⟨S1, .i32⟩
  | 120 => ⟨S32x5, .f32⟩
  | 121 => ⟨S_, .f32⟩
  | 122 => ⟨S_, .f32⟩
  | 123 => ⟨S_, .f32⟩
  | 124 => ⟨S_, .f32⟩
  | 125 => ⟨S32, .f32⟩
  | 126 => ⟨S32, .f32⟩
  | 127 => ⟨S32x5, .f32⟩
  | _ => ⟨S32x131072x3, .f32⟩

abbrev hbmTy0_26 (i : Nat) : BufTy := match i % 128 with
  | 0 => ⟨S32x5, .f32⟩
  | 1 => ⟨S32x4, .f32⟩
  | 2 => ⟨S32x1, .f32⟩
  | 3 => ⟨S32x4, .f32⟩
  | 4 => ⟨S32x4, .f32⟩
  | 5 => ⟨S32x131072x3, .f32⟩
  | 6 => ⟨S32x131072x1, .f32⟩
  | 7 => ⟨S32x131072x3, .f32⟩
  | 8 => ⟨S32x131072x3, .f32⟩
  | 9 => ⟨S_, .f32⟩
  | 10 => ⟨S32, .f32⟩
  | 11 => ⟨S_, .f32⟩
  | 12 => ⟨S32, .f32⟩
  | 13 => ⟨S32, .f32⟩
  | 14 => ⟨S32, .f32⟩
  | 15 => ⟨S32x1, .f32⟩
  | 16 => ⟨S32x5, .f32⟩
  | 17 => ⟨S32x1, .f32⟩
  | 18 => ⟨S32, .f32⟩
  | 19 => ⟨S_, .f32⟩
  | 20 => ⟨S32, .f32⟩
  | 21 => ⟨S32, .f32⟩
  | 22 => ⟨S32, .f32⟩
  | 23 => ⟨S_, .i32⟩
  | 24 => ⟨S1, .i32⟩
  | 25 => ⟨S32x5, .f32⟩
  | 26 => ⟨S32x1, .f32⟩
  | 27 => ⟨S32, .f32⟩
  | 28 => ⟨S32, .f32⟩
  | 29 => ⟨S32x1, .f32⟩
  | 30 => ⟨S32, .f32⟩
  | 31 => ⟨S32, .f32⟩
  | 32 => ⟨S_, .f32⟩
  | 33 => ⟨S32, .f32⟩
  | 34 => ⟨S32, .f32⟩
  | 35 => ⟨S32, .f32⟩
  | 36 => ⟨S32, .f32⟩
  | 37 => ⟨S32x1, .f32⟩
  | 38 => ⟨S32, .f32⟩
  | 39 => ⟨S32, .f32⟩
  | 40 => ⟨S32x1, .f32⟩
  | 41 => ⟨S32, .f32⟩
  | 42 => ⟨S_, .f32⟩
  | 43 => ⟨S32, .f32⟩
  | 44 => ⟨S32, .f32⟩
  | 45 => ⟨S32, .f32⟩
  | 46 => ⟨S32, .f32⟩
  | 47 => ⟨S32, .f32⟩
  | 48 => ⟨S_, .i32⟩
  | 49 => ⟨S1, .i32⟩
  | 50 => ⟨S32x5, .f32⟩
  | 51 => ⟨S32x1, .f32⟩
  | 52 => ⟨S32, .f32⟩
  | 53 => ⟨S32, .f32⟩
  | 54 => ⟨S32x1, .f32⟩
  | 55 => ⟨S32, .f32⟩
  | 56 => ⟨S32, .f32⟩
  | 57 => ⟨S_, .f32⟩
  | 58 => ⟨S32, .f32⟩
  | 59 => ⟨S32, .f32⟩
  | 60 => ⟨S32, .f32⟩
  | 61 => ⟨S32, .f32⟩
  | 62 => ⟨S32x1, .f32⟩
  | 63 => ⟨S32, .f32⟩
  | 64 => ⟨S32, .f32⟩
  | 65 => ⟨S32x1, .f32⟩
  | 66 => ⟨S32, .f32⟩
  | 67 => ⟨S_, .f32⟩
  | 68 => ⟨S32, .f32⟩
  | 69 => ⟨S32, .f32⟩
  | 70 => ⟨S32, .f32⟩
  | 71 => ⟨S32, .f32⟩
  | 72 => ⟨S32, .f32⟩
  | 73 => ⟨S_, .i32⟩
  | 74 => ⟨S1, .i32⟩
  | 75 => ⟨S32x5, .f32⟩
  | 76 => ⟨S32x1, .f32⟩
  | 77 => ⟨S32, .f32⟩
  | 78 => ⟨S32, .f32⟩
  | 79 => ⟨S32x1, .f32⟩
  | 80 => ⟨S32, .f32⟩
  | 81 => ⟨S32, .f32⟩
  | 82 => ⟨S_, .f32⟩
  | 83 => ⟨S32, .f32⟩
  | 84 => ⟨S32, .f32⟩
  | 85 => ⟨S32, .f32⟩
  | 86 => ⟨S32, .f32⟩
  | 87 => ⟨S32x1, .f32⟩
  | 88 => ⟨S32, .f32⟩
  | 89 => ⟨S32, .f32⟩
  | 90 => ⟨S32x1, .f32⟩
  | 91 => ⟨S32, .f32⟩
  | 92 => ⟨S_, .f32⟩
  | 93 => ⟨S32, .f32⟩
  | 94 => ⟨S32, .f32⟩
  | 95 => ⟨S32, .f32⟩
  | 96 => ⟨S32, .f32⟩
  | 97 => ⟨S32, .f32⟩
  | 98 => ⟨S_, .i32⟩
  | 99 => ⟨S1, .i32⟩
  | 100 => ⟨S32x5, .f32⟩
  | 101 => ⟨S32x1, .f32⟩
  | 102 => ⟨S32, .f32⟩
  | 103 => ⟨S32, .f32⟩
  | 104 => ⟨S32x1, .f32⟩
  | 105 => ⟨S32, .f32⟩
  | 106 => ⟨S32, .f32⟩
  | 107 => ⟨S_, .f32⟩
  | 108 => ⟨S32, .f32⟩
  | 109 => ⟨S32, .f32⟩
  | 110 => ⟨S32, .f32⟩
  | 111 => ⟨S32, .f32⟩
  | 112 => ⟨S32x1, .f32⟩
  | 113 => ⟨S32, .f32⟩
  | 114 => ⟨S32, .f32⟩
  | 115 => ⟨S32x1, .f32⟩
  | 116 => ⟨S32, .f32⟩
  | 117 => ⟨S_, .f32⟩
  | 118 => ⟨S32, .f32⟩
  | 119 => ⟨S32, .f32⟩
  | 120 => ⟨S32, .f32⟩
  | 121 => ⟨S32, .f32⟩
  | 122 => ⟨S32, .f32⟩
  | 123 => ⟨S_, .i32⟩
  | 124 => ⟨S1, .i32⟩
  | 125 => ⟨S32x5, .f32⟩
  | 126 => ⟨S32x5, .f32⟩
  | 127 => ⟨S32x1, .f32⟩
  | _ => ⟨S32x131072x3, .f32⟩

abbrev hbmTy0_27 (i : Nat) : BufTy := match i % 128 with
  | 0 => ⟨S32x5, .f32⟩
  | 1 => ⟨S32x5, .f32⟩
  | 2 => ⟨S32x5, .f32⟩
  | 3 => ⟨S32x1, .f32⟩
  | 4 => ⟨S32, .f32⟩
  | 5 => ⟨S32, .f32⟩
  | 6 => ⟨S32x1, .f32⟩
  | 7 => ⟨S32, .f32⟩
  | 8 => ⟨S32, .f32⟩
  | 9 => ⟨S32, .f32⟩
  | 10 => ⟨S32, .f32⟩
  | 11 => ⟨S32x1x1, .f32⟩
  | 12 => ⟨S32x131072x3, .f32⟩
  | 13 => ⟨S32x131072x3, .f32⟩
  | 14 => ⟨S32x5, .f32⟩
  | 15 => ⟨S32x5, .f32⟩
  | 16 => ⟨S32x4, .f32⟩
  | 17 => ⟨S32x1, .f32⟩
  | 18 => ⟨S32x4, .f32⟩
  | 19 => ⟨S32x4, .f32⟩
  | 20 => ⟨S32x131072x3, .f32⟩
  | 21 => ⟨S32x131072x1, .f32⟩
  | 22 => ⟨S32x131072x3, .f32⟩
  | 23 => ⟨S32x131072x3, .f32⟩
  | 24 => ⟨S_, .f32⟩
  | 25 => ⟨S32, .f32⟩
  | 26 => ⟨S_, .f32⟩
  | 27 => ⟨S32, .f32⟩
  | 28 => ⟨S32, .f32⟩
  | 29 => ⟨S32, .f32⟩
  | 30 => ⟨S32x1, .f32⟩
  | 31 => ⟨S32x5, .f32⟩
  | 32 => ⟨S32x1, .f32⟩
  | 33 => ⟨S32, .f32⟩
  | 34 => ⟨S32, .f32⟩
  | 35 => ⟨S32x1, .f32⟩
  | 36 => ⟨S32, .f32⟩
  | 37 => ⟨S32, .f32⟩
  | 38 => ⟨S_, .f32⟩
  | 39 => ⟨S32, .f32⟩
  | 40 => ⟨S32, .f32⟩
  | 41 => ⟨S32, .f32⟩
  | 42 => ⟨S32, .f32⟩
  | 43 => ⟨S32x1, .f32⟩
  | 44 => ⟨S32, .f32⟩
  | 45 => ⟨S32, .f32⟩
  | 46 => ⟨S32x1, .f32⟩
  | 47 => ⟨S32, .f32⟩
  | 48 => ⟨S_, .f32⟩
  | 49 => ⟨S32, .f32⟩
  | 50 => ⟨S32, .f32⟩
  | 51 => ⟨S32, .f32⟩
  | 52 => ⟨S32, .f32⟩
  | 53 => ⟨S32, .f32⟩
  | 54 => ⟨S_, .i32⟩
  | 55 => ⟨S1, .i32⟩
  | 56 => ⟨S32x5, .f32⟩
  | 57 => ⟨S32x1, .f32⟩
  | 58 => ⟨S32, .f32⟩
  | 59 => ⟨S32, .f32⟩
  | 60 => ⟨S32x1, .f32⟩
  | 61 => ⟨S32, .f32⟩
  | 62 => ⟨S32, .f32⟩
  | 63 => ⟨S_, .f32⟩
  | 64 => ⟨S32, .f32⟩
  | 65 => ⟨S32, .f32⟩
  | 66 => ⟨S32, .f32⟩
  | 67 => ⟨S32, .f32⟩
  | 68 => ⟨S32x1, .f32⟩
  | 69 => ⟨S32, .f32⟩
  | 70 => ⟨S32, .f32⟩
  | 71 => ⟨S32x1, .f32⟩
  | 72 => ⟨S32, .f32⟩
  | 73 => ⟨S_, .f32⟩
  | 74 => ⟨S32, .f32⟩
  | 75 => ⟨S32, .f32⟩
  | 76 => ⟨S32, .f32⟩
  | 77 => ⟨S32, .f32⟩
  | 78 => ⟨S32, .f32⟩
  | 79 => ⟨S_, .i32⟩
  | 80 => ⟨S1, .i32⟩
  | 81 => ⟨S32x5, .f32⟩
  | 82 => ⟨S32x1, .f32⟩
  | 83 => ⟨S32, .f32⟩
  | 84 => ⟨S32, .f32⟩
  | 85 => ⟨S32x1, .f32⟩
  | 86 => ⟨S32, .f32⟩
  | 87 => ⟨S32, .f32⟩
  | 88 => ⟨S_, .f32⟩
  | 89 => ⟨S32, .f32⟩
  | 90 => ⟨S32, .f32⟩
  | 91 => ⟨S32, .f32⟩
  | 92 => ⟨S32, .f32⟩
  | 93 => ⟨S32x1, .f32⟩
  | 94 => ⟨S32, .f32⟩
  | 95 => ⟨S32, .f32⟩
  | 96 => ⟨S32x1, .f32⟩
  | 97 => ⟨S32, .f32⟩
  | 98 => ⟨S_, .f32⟩
  | 99 => ⟨S32, .f32⟩
  | 100 => ⟨S32, .f32⟩
  | 101 => ⟨S32, .f32⟩
  | 102 => ⟨S32, .f32⟩
  | 103 => ⟨S32, .f32⟩
  | 104 => ⟨S_, .i32⟩
  | 105 => ⟨S1, .i32⟩
  | 106 => ⟨S32x5, .f32⟩
  | 107 => ⟨S32x1, .f32⟩
  | 108 => ⟨S32, .f32⟩
  | 109 => ⟨S32, .f32⟩
  | 110 => ⟨S32x1, .f32⟩
  | 111 => ⟨S32, .f32⟩
  | 112 => ⟨S32, .f32⟩
  | 113 => ⟨S_, .f32⟩
  | 114 => ⟨S32, .f32⟩
  | 115 => ⟨S32, .f32⟩
  | 116 => ⟨S32, .f32⟩
  | 117 => ⟨S32, .f32⟩
  | 118 => ⟨S32x1, .f32⟩
  | 119 => ⟨S32, .f32⟩
  | 120 => ⟨S32, .f32⟩
  | 121 => ⟨S32x1, .f32⟩
  | 122 => ⟨S32, .f32⟩
  | 123 => ⟨S_, .f32⟩
  | 124 => ⟨S32, .f32⟩
  | 125 => ⟨S32, .f32⟩
  | 126 => ⟨S32, .f32⟩
  | 127 => ⟨S32, .f32⟩
  | _ => ⟨S32x131072x3, .f32⟩

abbrev hbmTy0_28 (i : Nat) : BufTy := match i % 128 with
  | 0 => ⟨S32, .f32⟩
  | 1 => ⟨S_, .i32⟩
  | 2 => ⟨S1, .i32⟩
  | 3 => ⟨S32x5, .f32⟩
  | 4 => ⟨S32x1, .f32⟩
  | 5 => ⟨S32, .f32⟩
  | 6 => ⟨S_, .f32⟩
  | 7 => ⟨S32, .f32⟩
  | 8 => ⟨S32, .f32⟩
  | 9 => ⟨S32, .f32⟩
  | 10 => ⟨S_, .i32⟩
  | 11 => ⟨S1, .i32⟩
  | 12 => ⟨S32x5, .f32⟩
  | 13 => ⟨S_, .f32⟩
  | 14 => ⟨S_, .f32⟩
  | 15 => ⟨S_, .f32⟩
  | 16 => ⟨S_, .f32⟩
  | 17 => ⟨S32, .f32⟩
  | 18 => ⟨S32, .f32⟩
  | 19 => ⟨S32x5, .f32⟩
  | 20 => ⟨S32x5, .f32⟩
  | 21 => ⟨S32x4, .f32⟩
  | 22 => ⟨S32x1, .f32⟩
  | 23 => ⟨S32x4, .f32⟩
  | 24 => ⟨S32x4, .f32⟩
  | 25 => ⟨S32x131072x3, .f32⟩
  | 26 => ⟨S32x131072x1, .f32⟩
  | 27 => ⟨S32x131072x3, .f32⟩
  | 28 => ⟨S32x131072x3, .f32⟩
  | 29 => ⟨S_, .f32⟩
  | 30 => ⟨S32, .f32⟩
  | 31 => ⟨S_, .f32⟩
  | 32 => ⟨S32, .f32⟩
  | 33 => ⟨S32, .f32⟩
  | 34 => ⟨S32, .f32⟩
  | 35 => ⟨S32x1, .f32⟩
  | 36 => ⟨S32x5, .f32⟩
  | 37 => ⟨S32x1, .f32⟩
  | 38 => ⟨S32, .f32⟩
  | 39 => ⟨S_, .f32⟩
  | 40 => ⟨S32, .f32⟩
  | 41 => ⟨S32, .f32⟩
  | 42 => ⟨S32, .f32⟩
  | 43 => ⟨S_, .i32⟩
  | 44 => ⟨S1, .i32⟩
  | 45 => ⟨S32x5, .f32⟩
  | 46 => ⟨S32x1, .f32⟩
  | 47 => ⟨S32, .f32⟩
  | 48 => ⟨S32, .f32⟩
  | 49 => ⟨S32x1, .f32⟩
  | 50 => ⟨S32, .f32⟩
  | 51 => ⟨S32, .f32⟩
  | 52 => ⟨S_, .f32⟩
  | 53 => ⟨S32, .f32⟩
  | 54 => ⟨S32, .f32⟩
  | 55 => ⟨S32, .f32⟩
  | 56 => ⟨S32, .f32⟩
  | 57 => ⟨S32x1, .f32⟩
  | 58 => ⟨S32, .f32⟩
  | 59 => ⟨S32, .f32⟩
  | 60 => ⟨S32x1, .f32⟩
  | 61 => ⟨S32, .f32⟩
  | 62 => ⟨S_, .f32⟩
  | 63 => ⟨S32, .f32⟩
  | 64 => ⟨S32, .f32⟩
  | 65 => ⟨S32, .f32⟩
  | 66 => ⟨S32, .f32⟩
  | 67 => ⟨S32, .f32⟩
  | 68 => ⟨S_, .i32⟩
  | 69 => ⟨S1, .i32⟩
  | 70 => ⟨S32x5, .f32⟩
  | 71 => ⟨S32x1, .f32⟩
  | 72 => ⟨S32, .f32⟩
  | 73 => ⟨S32, .f32⟩
  | 74 => ⟨S32x1, .f32⟩
  | 75 => ⟨S32, .f32⟩
  | 76 => ⟨S32, .f32⟩
  | 77 => ⟨S_, .f32⟩
  | 78 => ⟨S32, .f32⟩
  | 79 => ⟨S32, .f32⟩
  | 80 => ⟨S32, .f32⟩
  | 81 => ⟨S32, .f32⟩
  | 82 => ⟨S32x1, .f32⟩
  | 83 => ⟨S32, .f32⟩
  | 84 => ⟨S32, .f32⟩
  | 85 => ⟨S32x1, .f32⟩
  | 86 => ⟨S32, .f32⟩
  | 87 => ⟨S_, .f32⟩
  | 88 => ⟨S32, .f32⟩
  | 89 => ⟨S32, .f32⟩
  | 90 => ⟨S32, .f32⟩
  | 91 => ⟨S32, .f32⟩
  | 92 => ⟨S32, .f32⟩
  | 93 => ⟨S_, .i32⟩
  | 94 => ⟨S1, .i32⟩
  | 95 => ⟨S32x5, .f32⟩
  | 96 => ⟨S32x1, .f32⟩
  | 97 => ⟨S32, .f32⟩
  | 98 => ⟨S32, .f32⟩
  | 99 => ⟨S32x1, .f32⟩
  | 100 => ⟨S32, .f32⟩
  | 101 => ⟨S32, .f32⟩
  | 102 => ⟨S_, .f32⟩
  | 103 => ⟨S32, .f32⟩
  | 104 => ⟨S32, .f32⟩
  | 105 => ⟨S32, .f32⟩
  | 106 => ⟨S32, .f32⟩
  | 107 => ⟨S32x1, .f32⟩
  | 108 => ⟨S32, .f32⟩
  | 109 => ⟨S32, .f32⟩
  | 110 => ⟨S32x1, .f32⟩
  | 111 => ⟨S32, .f32⟩
  | 112 => ⟨S_, .f32⟩
  | 113 => ⟨S32, .f32⟩
  | 114 => ⟨S32, .f32⟩
  | 115 => ⟨S32, .f32⟩
  | 116 => ⟨S32, .f32⟩
  | 117 => ⟨S32, .f32⟩
  | 118 => ⟨S_, .i32⟩
  | 119 => ⟨S1, .i32⟩
  | 120 => ⟨S32x5, .f32⟩
  | 121 => ⟨S32x1, .f32⟩
  | 122 => ⟨S32, .f32⟩
  | 123 => ⟨S32, .f32⟩
  | 124 => ⟨S32x1, .f32⟩
  | 125 => ⟨S32, .f32⟩
  | 126 => ⟨S32, .f32⟩
  | 127 => ⟨S_, .f32⟩
  | _ => ⟨S32x131072x3, .f32⟩

abbrev hbmTy0_29 (i : Nat) : BufTy := match i % 128 with
  | 0 => ⟨S32, .f32⟩
  | 1 => ⟨S32, .f32⟩
  | 2 => ⟨S32, .f32⟩
  | 3 => ⟨S32, .f32⟩
  | 4 => ⟨S32x1, .f32⟩
  | 5 => ⟨S32, .f32⟩
  | 6 => ⟨S32, .f32⟩
  | 7 => ⟨S32x1, .f32⟩
  | 8 => ⟨S32, .f32⟩
  | 9 => ⟨S_, .f32⟩
  | 10 => ⟨S32, .f32⟩
  | 11 => ⟨S32, .f32⟩
  | 12 => ⟨S32, .f32⟩
  | 13 => ⟨S32, .f32⟩
  | 14 => ⟨S32, .f32⟩
  | 15 => ⟨S_, .i32⟩
  | 16 => ⟨S1, .i32⟩
  | 17 => ⟨S32x5, .f32⟩
  | 18 => ⟨S32x5, .f32⟩
  | 19 => ⟨S32x1, .f32⟩
  | 20 => ⟨S32x5, .f32⟩
  | 21 => ⟨S32x5, .f32⟩
  | 22 => ⟨S32x5, .f32⟩
  | 23 => ⟨S32x1, .f32⟩
  | 24 => ⟨S32, .f32⟩
  | 25 => ⟨S32, .f32⟩
  | 26 => ⟨S32x1, .f32⟩
  | 27 => ⟨S32, .f32⟩
  | 28 => ⟨S32, .f32⟩
  | 29 => ⟨S32, .f32⟩
  | 30 => ⟨S32, .f32⟩
  | 31 => ⟨S32x1x1, .f32⟩
  | 32 => ⟨S32x131072x3, .f32⟩
  | 33 => ⟨S32x131072x3, .f32⟩
  | 34 => ⟨S32x5, .f32⟩
  | 35 => ⟨S32x5, .f32⟩
  | 36 => ⟨S32x4, .f32⟩
  | 37 => ⟨S32x1, .f32⟩
  | 38 => ⟨S32x4, .f32⟩
  | 39 => ⟨S32x4, .f32⟩
  | 40 => ⟨S32x131072x3, .f32⟩
  | 41 => ⟨S32x131072x1, .f32⟩
  | 42 => ⟨S32x131072x3, .f32⟩
  | 43 => ⟨S32x131072x3, .f32⟩
  | 44 => ⟨S_, .f32⟩
  | 45 => ⟨S32, .f32⟩
  | 46 => ⟨S_, .f32⟩
  | 47 => ⟨S32, .f32⟩
  | 48 => ⟨S32, .f32⟩
  | 49 => ⟨S32, .f32⟩
  | 50 => ⟨S32x1, .f32⟩
  | 51 => ⟨S32x5, .f32⟩
  | 52 => ⟨S32x1, .f32⟩
  | 53 => ⟨S32, .f32⟩
  | 54 => ⟨S32, .f32⟩
  | 55 => ⟨S32x1, .f32⟩
  | 56 => ⟨S32, .f32⟩
  | 57 => ⟨S32, .f32⟩
  | 58 => ⟨S_, .f32⟩
  | 59 => ⟨S32, .f32⟩
  | 60 => ⟨S32, .f32⟩
  | 61 => ⟨S32, .f32⟩
  | 62 => ⟨S32, .f32⟩
  | 63 => ⟨S32x1, .f32⟩
  | 64 => ⟨S32, .f32⟩
  | 65 => ⟨S32, .f32⟩
  | 66 => ⟨S32x1, .f32⟩
  | 67 => ⟨S32, .f32⟩
  | 68 => ⟨S_, .f32⟩
  | 69 => ⟨S32, .f32⟩
  | 70 => ⟨S32, .f32⟩
  | 71 => ⟨S32, .f32⟩
  | 72 => ⟨S32, .f32⟩
  | 73 => ⟨S32, .f32⟩
  | 74 => ⟨S_, .i32⟩
  | 75 => ⟨S1, .i32⟩
  | 76 => ⟨S32x5, .f32⟩
  | 77 => ⟨S32x1, .f32⟩
  | 78 => ⟨S32, .f32⟩
  | 79 => ⟨S32, .f32⟩
  | 80 => ⟨S32x1, .f32⟩
  | 81 => ⟨S32, .f32⟩
  | 82 => ⟨S32, .f32⟩
  | 83 => ⟨S_, .f32⟩
  | 84 => ⟨S32, .f32⟩
  | 85 => ⟨S32, .f32⟩
  | 86 => ⟨S32, .f32⟩
  | 87 => ⟨S32, .f32⟩
  | 88 => ⟨S32x1, .f32⟩
  | 89 => ⟨S32, .f32⟩
  | 90 => ⟨S32, .f32⟩
  | 91 => ⟨S32x1, .f32⟩
  | 92 => ⟨S32, .f32⟩
  | 93 => ⟨S_, .f32⟩
  | 94 => ⟨S32, .f32⟩
  | 95 => ⟨S32, .f32⟩
  | 96 => ⟨S32, .f32⟩
  | 97 => ⟨S32, .f32⟩
  | 98 => ⟨S32, .f32⟩
  | 99 => ⟨S_, .i32⟩
  | 100 => ⟨S1, .i32⟩
  | 101 => ⟨S32x5, .f32⟩
  | 102 => ⟨S32x1, .f32⟩
  | 103 => ⟨S32, .f32⟩
  | 104 => ⟨S32, .f32⟩
  | 105 => ⟨S32x1, .f32⟩
  | 106 => ⟨S32, .f32⟩
  | 107 => ⟨S32, .f32⟩
  | 108 => ⟨S_, .f32⟩
  | 109 => ⟨S32, .f32⟩
  | 110 => ⟨S32, .f32⟩
  | 111 => ⟨S32, .f32⟩
  | 112 => ⟨S32, .f32⟩
  | 113 => ⟨S32x1, .f32⟩
  | 114 => ⟨S32, .f32⟩
  | 115 => ⟨S32, .f32⟩
  | 116 => ⟨S32x1, .f32⟩
  | 117 => ⟨S32, .f32⟩
  | 118 => ⟨S_, .f32⟩
  | 119 => ⟨S32, .f32⟩
  | 120 => ⟨S32, .f32⟩
  | 121 => ⟨S32, .f32⟩
  | 122 => ⟨S32, .f32⟩
  | 123 => ⟨S32, .f32⟩
  | 124 => ⟨S_, .i32⟩
  | 125 => ⟨S1, .i32⟩
  | 126 => ⟨S32x5, .f32⟩
  | 127 => ⟨S32x1, .f32⟩
  | _ => ⟨S32x131072x3, .f32⟩

abbrev hbmTy0_30 (i : Nat) : BufTy := match i % 128 with
  | 0 => ⟨S32, .f32⟩
  | 1 => ⟨S32, .f32⟩
  | 2 => ⟨S32x1, .f32⟩
  | 3 => ⟨S32, .f32⟩
  | 4 => ⟨S32, .f32⟩
  | 5 => ⟨S_, .f32⟩
  | 6 => ⟨S32, .f32⟩
  | 7 => ⟨S32, .f32⟩
  | 8 => ⟨S32, .f32⟩
  | 9 => ⟨S32, .f32⟩
  | 10 => ⟨S32x1, .f32⟩
  | 11 => ⟨S32, .f32⟩
  | 12 => ⟨S32, .f32⟩
  | 13 => ⟨S32x1, .f32⟩
  | 14 => ⟨S32, .f32⟩
  | 15 => ⟨S_, .f32⟩
  | 16 => ⟨S32, .f32⟩
  | 17 => ⟨S32, .f32⟩
  | 18 => ⟨S32, .f32⟩
  | 19 => ⟨S32, .f32⟩
  | 20 => ⟨S32, .f32⟩
  | 21 => ⟨S_, .i32⟩
  | 22 => ⟨S1, .i32⟩
  | 23 => ⟨S32x5, .f32⟩
  | 24 => ⟨S32x1, .f32⟩
  | 25 => ⟨S32, .f32⟩
  | 26 => ⟨S_, .f32⟩
  | 27 => ⟨S32, .f32⟩
  | 28 => ⟨S32, .f32⟩
  | 29 => ⟨S32, .f32⟩
  | 30 => ⟨S_, .i32⟩
  | 31 => ⟨S1, .i32⟩
  | 32 => ⟨S32x5, .f32⟩
  | _ => ⟨S32x131072x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | _ => ⟨S32x131072x3, .f32⟩

abbrev bufTy : (tb : Table) → Fin (tcTables nBuf tb) → BufTy
  | .hbm, ⟨i, _⟩ => hbmTy i
  | _, _ => ⟨S32x131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_5 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_c_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_10 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_11 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_c_12 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_13 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_14 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_c_15 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_cst_16 : Ref sig .tc := ⟨.hbm, 168, rfl⟩
abbrev main_v141 : Ref sig .tc := ⟨.hbm, 169, rfl⟩
abbrev main_cst_17 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_cst_18 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_cst_19 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_c_20 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_cst_21 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_cst_22 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_c_23 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_cst_24 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_cst_25 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_c_26 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_cst_27 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_cst_28 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_c_29 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_cst_30 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_c_31 : Ref sig .tc := ⟨.hbm, 282, rfl⟩
abbrev main_v240 : Ref sig .tc := ⟨.hbm, 283, rfl⟩
abbrev main_v241 : Ref sig .tc := ⟨.hbm, 284, rfl⟩
abbrev main_cst_32 : Ref sig .tc := ⟨.hbm, 285, rfl⟩
abbrev main_v242 : Ref sig .tc := ⟨.hbm, 286, rfl⟩
abbrev main_cst_33 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_cst_34 : Ref sig .tc := ⟨.hbm, 301, rfl⟩
abbrev main_v256 : Ref sig .tc := ⟨.hbm, 302, rfl⟩
abbrev main_cst_35 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_cst_36 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_c_37 : Ref sig .tc := ⟨.hbm, 315, rfl⟩
abbrev main_v267 : Ref sig .tc := ⟨.hbm, 316, rfl⟩
abbrev main_v268 : Ref sig .tc := ⟨.hbm, 317, rfl⟩
abbrev main_v269 : Ref sig .tc := ⟨.hbm, 318, rfl⟩
abbrev main_v270 : Ref sig .tc := ⟨.hbm, 319, rfl⟩
abbrev main_v271 : Ref sig .tc := ⟨.hbm, 320, rfl⟩
abbrev main_v272 : Ref sig .tc := ⟨.hbm, 321, rfl⟩
abbrev main_v273 : Ref sig .tc := ⟨.hbm, 322, rfl⟩
abbrev main_v274 : Ref sig .tc := ⟨.hbm, 323, rfl⟩
abbrev main_cst_38 : Ref sig .tc := ⟨.hbm, 324, rfl⟩
abbrev main_v275 : Ref sig .tc := ⟨.hbm, 325, rfl⟩
abbrev main_v276 : Ref sig .tc := ⟨.hbm, 326, rfl⟩
abbrev main_v277 : Ref sig .tc := ⟨.hbm, 327, rfl⟩
abbrev main_v278 : Ref sig .tc := ⟨.hbm, 328, rfl⟩
abbrev main_v279 : Ref sig .tc := ⟨.hbm, 329, rfl⟩
abbrev main_v280 : Ref sig .tc := ⟨.hbm, 330, rfl⟩
abbrev main_v281 : Ref sig .tc := ⟨.hbm, 331, rfl⟩
abbrev main_v282 : Ref sig .tc := ⟨.hbm, 332, rfl⟩
abbrev main_v283 : Ref sig .tc := ⟨.hbm, 333, rfl⟩
abbrev main_cst_39 : Ref sig .tc := ⟨.hbm, 334, rfl⟩
abbrev main_v284 : Ref sig .tc := ⟨.hbm, 335, rfl⟩
abbrev main_v285 : Ref sig .tc := ⟨.hbm, 336, rfl⟩
abbrev main_v286 : Ref sig .tc := ⟨.hbm, 337, rfl⟩
abbrev main_v287 : Ref sig .tc := ⟨.hbm, 338, rfl⟩
abbrev main_v288 : Ref sig .tc := ⟨.hbm, 339, rfl⟩
abbrev main_c_40 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_v295 : Ref sig .tc := ⟨.hbm, 347, rfl⟩
abbrev main_v296 : Ref sig .tc := ⟨.hbm, 348, rfl⟩
abbrev main_cst_41 : Ref sig .tc := ⟨.hbm, 349, rfl⟩
abbrev main_v297 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_v303 : Ref sig .tc := ⟨.hbm, 356, rfl⟩
abbrev main_v304 : Ref sig .tc := ⟨.hbm, 357, rfl⟩
abbrev main_v305 : Ref sig .tc := ⟨.hbm, 358, rfl⟩
abbrev main_cst_42 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_c_43 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_v315 : Ref sig .tc := ⟨.hbm, 370, rfl⟩
abbrev main_v316 : Ref sig .tc := ⟨.hbm, 371, rfl⟩
abbrev main_v317 : Ref sig .tc := ⟨.hbm, 372, rfl⟩
abbrev main_v318 : Ref sig .tc := ⟨.hbm, 373, rfl⟩
abbrev main_cst_44 : Ref sig .tc := ⟨.hbm, 374, rfl⟩
abbrev main_v319 : Ref sig .tc := ⟨.hbm, 375, rfl⟩
abbrev main_v320 : Ref sig .tc := ⟨.hbm, 376, rfl⟩
abbrev main_v321 : Ref sig .tc := ⟨.hbm, 377, rfl⟩
abbrev main_v322 : Ref sig .tc := ⟨.hbm, 378, rfl⟩
abbrev main_v323 : Ref sig .tc := ⟨.hbm, 379, rfl⟩
abbrev main_v324 : Ref sig .tc := ⟨.hbm, 380, rfl⟩
abbrev main_v325 : Ref sig .tc := ⟨.hbm, 381, rfl⟩
abbrev main_v326 : Ref sig .tc := ⟨.hbm, 382, rfl⟩
abbrev main_v327 : Ref sig .tc := ⟨.hbm, 383, rfl⟩
abbrev main_cst_45 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_v332 : Ref sig .tc := ⟨.hbm, 389, rfl⟩
abbrev main_c_46 : Ref sig .tc := ⟨.hbm, 390, rfl⟩
abbrev main_v333 : Ref sig .tc := ⟨.hbm, 391, rfl⟩
abbrev main_v334 : Ref sig .tc := ⟨.hbm, 392, rfl⟩
abbrev main_v335 : Ref sig .tc := ⟨.hbm, 393, rfl⟩
abbrev main_v336 : Ref sig .tc := ⟨.hbm, 394, rfl⟩
abbrev main_v337 : Ref sig .tc := ⟨.hbm, 395, rfl⟩
abbrev main_v338 : Ref sig .tc := ⟨.hbm, 396, rfl⟩
abbrev main_v339 : Ref sig .tc := ⟨.hbm, 397, rfl⟩
abbrev main_v340 : Ref sig .tc := ⟨.hbm, 398, rfl⟩
abbrev main_cst_47 : Ref sig .tc := ⟨.hbm, 399, rfl⟩
abbrev main_v341 : Ref sig .tc := ⟨.hbm, 400, rfl⟩
abbrev main_v342 : Ref sig .tc := ⟨.hbm, 401, rfl⟩
abbrev main_v343 : Ref sig .tc := ⟨.hbm, 402, rfl⟩
abbrev main_v344 : Ref sig .tc := ⟨.hbm, 403, rfl⟩
abbrev main_v345 : Ref sig .tc := ⟨.hbm, 404, rfl⟩
abbrev main_v346 : Ref sig .tc := ⟨.hbm, 405, rfl⟩
abbrev main_v347 : Ref sig .tc := ⟨.hbm, 406, rfl⟩
abbrev main_v348 : Ref sig .tc := ⟨.hbm, 407, rfl⟩
abbrev main_v349 : Ref sig .tc := ⟨.hbm, 408, rfl⟩
abbrev main_cst_48 : Ref sig .tc := ⟨.hbm, 409, rfl⟩
abbrev main_v350 : Ref sig .tc := ⟨.hbm, 410, rfl⟩
abbrev main_v351 : Ref sig .tc := ⟨.hbm, 411, rfl⟩
abbrev main_v352 : Ref sig .tc := ⟨.hbm, 412, rfl⟩
abbrev main_v353 : Ref sig .tc := ⟨.hbm, 413, rfl⟩
abbrev main_v354 : Ref sig .tc := ⟨.hbm, 414, rfl⟩
abbrev main_c_49 : Ref sig .tc := ⟨.hbm, 415, rfl⟩
abbrev main_v355 : Ref sig .tc := ⟨.hbm, 416, rfl⟩
abbrev main_v356 : Ref sig .tc := ⟨.hbm, 417, rfl⟩
abbrev main_v357 : Ref sig .tc := ⟨.hbm, 418, rfl⟩
abbrev main_v358 : Ref sig .tc := ⟨.hbm, 419, rfl⟩
abbrev main_v359 : Ref sig .tc := ⟨.hbm, 420, rfl⟩
abbrev main_v360 : Ref sig .tc := ⟨.hbm, 421, rfl⟩
abbrev main_v361 : Ref sig .tc := ⟨.hbm, 422, rfl⟩
abbrev main_v362 : Ref sig .tc := ⟨.hbm, 423, rfl⟩
abbrev main_v363 : Ref sig .tc := ⟨.hbm, 424, rfl⟩
abbrev main_v364 : Ref sig .tc := ⟨.hbm, 425, rfl⟩
abbrev main_v365 : Ref sig .tc := ⟨.hbm, 426, rfl⟩
abbrev main_v366 : Ref sig .tc := ⟨.hbm, 427, rfl⟩
abbrev main_v367 : Ref sig .tc := ⟨.hbm, 428, rfl⟩
abbrev main_v368 : Ref sig .tc := ⟨.hbm, 429, rfl⟩
abbrev main_v369 : Ref sig .tc := ⟨.hbm, 430, rfl⟩
abbrev main_v370 : Ref sig .tc := ⟨.hbm, 431, rfl⟩
abbrev main_v371 : Ref sig .tc := ⟨.hbm, 432, rfl⟩
abbrev main_v372 : Ref sig .tc := ⟨.hbm, 433, rfl⟩
abbrev main_v373 : Ref sig .tc := ⟨.hbm, 434, rfl⟩
abbrev main_v374 : Ref sig .tc := ⟨.hbm, 435, rfl⟩
abbrev main_v375 : Ref sig .tc := ⟨.hbm, 436, rfl⟩
abbrev main_v376 : Ref sig .tc := ⟨.hbm, 437, rfl⟩
abbrev main_v377 : Ref sig .tc := ⟨.hbm, 438, rfl⟩
abbrev main_v378 : Ref sig .tc := ⟨.hbm, 439, rfl⟩
abbrev main_v379 : Ref sig .tc := ⟨.hbm, 440, rfl⟩
abbrev main_v380 : Ref sig .tc := ⟨.hbm, 441, rfl⟩
abbrev main_v381 : Ref sig .tc := ⟨.hbm, 442, rfl⟩
abbrev main_v382 : Ref sig .tc := ⟨.hbm, 443, rfl⟩
abbrev main_cst_50 : Ref sig .tc := ⟨.hbm, 444, rfl⟩
abbrev main_v383 : Ref sig .tc := ⟨.hbm, 445, rfl⟩
abbrev main_cst_51 : Ref sig .tc := ⟨.hbm, 446, rfl⟩
abbrev main_v384 : Ref sig .tc := ⟨.hbm, 447, rfl⟩
abbrev main_v385 : Ref sig .tc := ⟨.hbm, 448, rfl⟩
abbrev main_v386 : Ref sig .tc := ⟨.hbm, 449, rfl⟩
abbrev main_v387 : Ref sig .tc := ⟨.hbm, 450, rfl⟩
abbrev main_v388 : Ref sig .tc := ⟨.hbm, 451, rfl⟩
abbrev main_v389 : Ref sig .tc := ⟨.hbm, 452, rfl⟩
abbrev main_v390 : Ref sig .tc := ⟨.hbm, 453, rfl⟩
abbrev main_v391 : Ref sig .tc := ⟨.hbm, 454, rfl⟩
abbrev main_v392 : Ref sig .tc := ⟨.hbm, 455, rfl⟩
abbrev main_v393 : Ref sig .tc := ⟨.hbm, 456, rfl⟩
abbrev main_v394 : Ref sig .tc := ⟨.hbm, 457, rfl⟩
abbrev main_cst_52 : Ref sig .tc := ⟨.hbm, 458, rfl⟩
abbrev main_v395 : Ref sig .tc := ⟨.hbm, 459, rfl⟩
abbrev main_v396 : Ref sig .tc := ⟨.hbm, 460, rfl⟩
abbrev main_v397 : Ref sig .tc := ⟨.hbm, 461, rfl⟩
abbrev main_v398 : Ref sig .tc := ⟨.hbm, 462, rfl⟩
abbrev main_v399 : Ref sig .tc := ⟨.hbm, 463, rfl⟩
abbrev main_v400 : Ref sig .tc := ⟨.hbm, 464, rfl⟩
abbrev main_v401 : Ref sig .tc := ⟨.hbm, 465, rfl⟩
abbrev main_v402 : Ref sig .tc := ⟨.hbm, 466, rfl⟩
abbrev main_v403 : Ref sig .tc := ⟨.hbm, 467, rfl⟩
abbrev main_cst_53 : Ref sig .tc := ⟨.hbm, 468, rfl⟩
abbrev main_v404 : Ref sig .tc := ⟨.hbm, 469, rfl⟩
abbrev main_v405 : Ref sig .tc := ⟨.hbm, 470, rfl⟩
abbrev main_v406 : Ref sig .tc := ⟨.hbm, 471, rfl⟩
abbrev main_v407 : Ref sig .tc := ⟨.hbm, 472, rfl⟩
abbrev main_v408 : Ref sig .tc := ⟨.hbm, 473, rfl⟩
abbrev main_c_54 : Ref sig .tc := ⟨.hbm, 474, rfl⟩
abbrev main_v409 : Ref sig .tc := ⟨.hbm, 475, rfl⟩
abbrev main_v410 : Ref sig .tc := ⟨.hbm, 476, rfl⟩
abbrev main_v411 : Ref sig .tc := ⟨.hbm, 477, rfl⟩
abbrev main_v412 : Ref sig .tc := ⟨.hbm, 478, rfl⟩
abbrev main_v413 : Ref sig .tc := ⟨.hbm, 479, rfl⟩
abbrev main_v414 : Ref sig .tc := ⟨.hbm, 480, rfl⟩
abbrev main_v415 : Ref sig .tc := ⟨.hbm, 481, rfl⟩
abbrev main_v416 : Ref sig .tc := ⟨.hbm, 482, rfl⟩
abbrev main_cst_55 : Ref sig .tc := ⟨.hbm, 483, rfl⟩
abbrev main_v417 : Ref sig .tc := ⟨.hbm, 484, rfl⟩
abbrev main_v418 : Ref sig .tc := ⟨.hbm, 485, rfl⟩
abbrev main_v419 : Ref sig .tc := ⟨.hbm, 486, rfl⟩
abbrev main_v420 : Ref sig .tc := ⟨.hbm, 487, rfl⟩
abbrev main_v421 : Ref sig .tc := ⟨.hbm, 488, rfl⟩
abbrev main_v422 : Ref sig .tc := ⟨.hbm, 489, rfl⟩
abbrev main_v423 : Ref sig .tc := ⟨.hbm, 490, rfl⟩
abbrev main_v424 : Ref sig .tc := ⟨.hbm, 491, rfl⟩
abbrev main_v425 : Ref sig .tc := ⟨.hbm, 492, rfl⟩
abbrev main_cst_56 : Ref sig .tc := ⟨.hbm, 493, rfl⟩
abbrev main_v426 : Ref sig .tc := ⟨.hbm, 494, rfl⟩
abbrev main_v427 : Ref sig .tc := ⟨.hbm, 495, rfl⟩
abbrev main_v428 : Ref sig .tc := ⟨.hbm, 496, rfl⟩
abbrev main_v429 : Ref sig .tc := ⟨.hbm, 497, rfl⟩
abbrev main_v430 : Ref sig .tc := ⟨.hbm, 498, rfl⟩
abbrev main_c_57 : Ref sig .tc := ⟨.hbm, 499, rfl⟩
abbrev main_v431 : Ref sig .tc := ⟨.hbm, 500, rfl⟩
abbrev main_v432 : Ref sig .tc := ⟨.hbm, 501, rfl⟩
abbrev main_v433 : Ref sig .tc := ⟨.hbm, 502, rfl⟩
abbrev main_v434 : Ref sig .tc := ⟨.hbm, 503, rfl⟩
abbrev main_v435 : Ref sig .tc := ⟨.hbm, 504, rfl⟩
abbrev main_v436 : Ref sig .tc := ⟨.hbm, 505, rfl⟩
abbrev main_v437 : Ref sig .tc := ⟨.hbm, 506, rfl⟩
abbrev main_v438 : Ref sig .tc := ⟨.hbm, 507, rfl⟩
abbrev main_cst_58 : Ref sig .tc := ⟨.hbm, 508, rfl⟩
abbrev main_v439 : Ref sig .tc := ⟨.hbm, 509, rfl⟩
abbrev main_v440 : Ref sig .tc := ⟨.hbm, 510, rfl⟩
abbrev main_v441 : Ref sig .tc := ⟨.hbm, 511, rfl⟩
abbrev main_v442 : Ref sig .tc := ⟨.hbm, 512, rfl⟩
abbrev main_v443 : Ref sig .tc := ⟨.hbm, 513, rfl⟩
abbrev main_v444 : Ref sig .tc := ⟨.hbm, 514, rfl⟩
abbrev main_v445 : Ref sig .tc := ⟨.hbm, 515, rfl⟩
abbrev main_v446 : Ref sig .tc := ⟨.hbm, 516, rfl⟩
abbrev main_v447 : Ref sig .tc := ⟨.hbm, 517, rfl⟩
abbrev main_cst_59 : Ref sig .tc := ⟨.hbm, 518, rfl⟩
abbrev main_v448 : Ref sig .tc := ⟨.hbm, 519, rfl⟩
abbrev main_v449 : Ref sig .tc := ⟨.hbm, 520, rfl⟩
abbrev main_v450 : Ref sig .tc := ⟨.hbm, 521, rfl⟩
abbrev main_v451 : Ref sig .tc := ⟨.hbm, 522, rfl⟩
abbrev main_v452 : Ref sig .tc := ⟨.hbm, 523, rfl⟩
abbrev main_c_60 : Ref sig .tc := ⟨.hbm, 524, rfl⟩
abbrev main_v453 : Ref sig .tc := ⟨.hbm, 525, rfl⟩
abbrev main_v454 : Ref sig .tc := ⟨.hbm, 526, rfl⟩
abbrev main_v455 : Ref sig .tc := ⟨.hbm, 527, rfl⟩
abbrev main_v456 : Ref sig .tc := ⟨.hbm, 528, rfl⟩
abbrev main_v457 : Ref sig .tc := ⟨.hbm, 529, rfl⟩
abbrev main_v458 : Ref sig .tc := ⟨.hbm, 530, rfl⟩
abbrev main_v459 : Ref sig .tc := ⟨.hbm, 531, rfl⟩
abbrev main_v460 : Ref sig .tc := ⟨.hbm, 532, rfl⟩
abbrev main_cst_61 : Ref sig .tc := ⟨.hbm, 533, rfl⟩
abbrev main_v461 : Ref sig .tc := ⟨.hbm, 534, rfl⟩
abbrev main_v462 : Ref sig .tc := ⟨.hbm, 535, rfl⟩
abbrev main_v463 : Ref sig .tc := ⟨.hbm, 536, rfl⟩
abbrev main_v464 : Ref sig .tc := ⟨.hbm, 537, rfl⟩
abbrev main_v465 : Ref sig .tc := ⟨.hbm, 538, rfl⟩
abbrev main_v466 : Ref sig .tc := ⟨.hbm, 539, rfl⟩
abbrev main_v467 : Ref sig .tc := ⟨.hbm, 540, rfl⟩
abbrev main_v468 : Ref sig .tc := ⟨.hbm, 541, rfl⟩
abbrev main_v469 : Ref sig .tc := ⟨.hbm, 542, rfl⟩
abbrev main_cst_62 : Ref sig .tc := ⟨.hbm, 543, rfl⟩
abbrev main_v470 : Ref sig .tc := ⟨.hbm, 544, rfl⟩
abbrev main_v471 : Ref sig .tc := ⟨.hbm, 545, rfl⟩
abbrev main_v472 : Ref sig .tc := ⟨.hbm, 546, rfl⟩
abbrev main_v473 : Ref sig .tc := ⟨.hbm, 547, rfl⟩
abbrev main_v474 : Ref sig .tc := ⟨.hbm, 548, rfl⟩
abbrev main_c_63 : Ref sig .tc := ⟨.hbm, 549, rfl⟩
abbrev main_v475 : Ref sig .tc := ⟨.hbm, 550, rfl⟩
abbrev main_v476 : Ref sig .tc := ⟨.hbm, 551, rfl⟩
abbrev main_v477 : Ref sig .tc := ⟨.hbm, 552, rfl⟩
abbrev main_v478 : Ref sig .tc := ⟨.hbm, 553, rfl⟩
abbrev main_cst_64 : Ref sig .tc := ⟨.hbm, 554, rfl⟩
abbrev main_v479 : Ref sig .tc := ⟨.hbm, 555, rfl⟩
abbrev main_v480 : Ref sig .tc := ⟨.hbm, 556, rfl⟩
abbrev main_v481 : Ref sig .tc := ⟨.hbm, 557, rfl⟩
abbrev main_c_65 : Ref sig .tc := ⟨.hbm, 558, rfl⟩
abbrev main_v482 : Ref sig .tc := ⟨.hbm, 559, rfl⟩
abbrev main_v483 : Ref sig .tc := ⟨.hbm, 560, rfl⟩
abbrev main_cst_66 : Ref sig .tc := ⟨.hbm, 561, rfl⟩
abbrev main_v484 : Ref sig .tc := ⟨.hbm, 562, rfl⟩
abbrev main_cst_67 : Ref sig .tc := ⟨.hbm, 563, rfl⟩
abbrev main_v485 : Ref sig .tc := ⟨.hbm, 564, rfl⟩
abbrev main_v486 : Ref sig .tc := ⟨.hbm, 565, rfl⟩
abbrev main_v487 : Ref sig .tc := ⟨.hbm, 566, rfl⟩
abbrev main_v488 : Ref sig .tc := ⟨.hbm, 567, rfl⟩
abbrev main_v489 : Ref sig .tc := ⟨.hbm, 568, rfl⟩
abbrev main_v490 : Ref sig .tc := ⟨.hbm, 569, rfl⟩
abbrev main_v491 : Ref sig .tc := ⟨.hbm, 570, rfl⟩
abbrev main_v492 : Ref sig .tc := ⟨.hbm, 571, rfl⟩
abbrev main_v493 : Ref sig .tc := ⟨.hbm, 572, rfl⟩
abbrev main_v494 : Ref sig .tc := ⟨.hbm, 573, rfl⟩
abbrev main_v495 : Ref sig .tc := ⟨.hbm, 574, rfl⟩
abbrev main_v496 : Ref sig .tc := ⟨.hbm, 575, rfl⟩
abbrev main_v497 : Ref sig .tc := ⟨.hbm, 576, rfl⟩
abbrev main_cst_68 : Ref sig .tc := ⟨.hbm, 577, rfl⟩
abbrev main_v498 : Ref sig .tc := ⟨.hbm, 578, rfl⟩
abbrev main_cst_69 : Ref sig .tc := ⟨.hbm, 579, rfl⟩
abbrev main_v499 : Ref sig .tc := ⟨.hbm, 580, rfl⟩
abbrev main_v500 : Ref sig .tc := ⟨.hbm, 581, rfl⟩
abbrev main_v501 : Ref sig .tc := ⟨.hbm, 582, rfl⟩
abbrev main_v502 : Ref sig .tc := ⟨.hbm, 583, rfl⟩
abbrev main_v503 : Ref sig .tc := ⟨.hbm, 584, rfl⟩
abbrev main_v504 : Ref sig .tc := ⟨.hbm, 585, rfl⟩
abbrev main_v505 : Ref sig .tc := ⟨.hbm, 586, rfl⟩
abbrev main_cst_70 : Ref sig .tc := ⟨.hbm, 587, rfl⟩
abbrev main_v506 : Ref sig .tc := ⟨.hbm, 588, rfl⟩
abbrev main_v507 : Ref sig .tc := ⟨.hbm, 589, rfl⟩
abbrev main_v508 : Ref sig .tc := ⟨.hbm, 590, rfl⟩
abbrev main_c_71 : Ref sig .tc := ⟨.hbm, 591, rfl⟩
abbrev main_v509 : Ref sig .tc := ⟨.hbm, 592, rfl⟩
abbrev main_v510 : Ref sig .tc := ⟨.hbm, 593, rfl⟩
abbrev main_v511 : Ref sig .tc := ⟨.hbm, 594, rfl⟩
abbrev main_v512 : Ref sig .tc := ⟨.hbm, 595, rfl⟩
abbrev main_v513 : Ref sig .tc := ⟨.hbm, 596, rfl⟩
abbrev main_v514 : Ref sig .tc := ⟨.hbm, 597, rfl⟩
abbrev main_v515 : Ref sig .tc := ⟨.hbm, 598, rfl⟩
abbrev main_v516 : Ref sig .tc := ⟨.hbm, 599, rfl⟩
abbrev main_cst_72 : Ref sig .tc := ⟨.hbm, 600, rfl⟩
abbrev main_v517 : Ref sig .tc := ⟨.hbm, 601, rfl⟩
abbrev main_v518 : Ref sig .tc := ⟨.hbm, 602, rfl⟩
abbrev main_v519 : Ref sig .tc := ⟨.hbm, 603, rfl⟩
abbrev main_v520 : Ref sig .tc := ⟨.hbm, 604, rfl⟩
abbrev main_v521 : Ref sig .tc := ⟨.hbm, 605, rfl⟩
abbrev main_v522 : Ref sig .tc := ⟨.hbm, 606, rfl⟩
abbrev main_v523 : Ref sig .tc := ⟨.hbm, 607, rfl⟩
abbrev main_v524 : Ref sig .tc := ⟨.hbm, 608, rfl⟩
abbrev main_v525 : Ref sig .tc := ⟨.hbm, 609, rfl⟩
abbrev main_cst_73 : Ref sig .tc := ⟨.hbm, 610, rfl⟩
abbrev main_v526 : Ref sig .tc := ⟨.hbm, 611, rfl⟩
abbrev main_v527 : Ref sig .tc := ⟨.hbm, 612, rfl⟩
abbrev main_v528 : Ref sig .tc := ⟨.hbm, 613, rfl⟩
abbrev main_v529 : Ref sig .tc := ⟨.hbm, 614, rfl⟩
abbrev main_v530 : Ref sig .tc := ⟨.hbm, 615, rfl⟩
abbrev main_c_74 : Ref sig .tc := ⟨.hbm, 616, rfl⟩
abbrev main_v531 : Ref sig .tc := ⟨.hbm, 617, rfl⟩
abbrev main_v532 : Ref sig .tc := ⟨.hbm, 618, rfl⟩
abbrev main_v533 : Ref sig .tc := ⟨.hbm, 619, rfl⟩
abbrev main_v534 : Ref sig .tc := ⟨.hbm, 620, rfl⟩
abbrev main_v535 : Ref sig .tc := ⟨.hbm, 621, rfl⟩
abbrev main_v536 : Ref sig .tc := ⟨.hbm, 622, rfl⟩
abbrev main_v537 : Ref sig .tc := ⟨.hbm, 623, rfl⟩
abbrev main_v538 : Ref sig .tc := ⟨.hbm, 624, rfl⟩
abbrev main_cst_75 : Ref sig .tc := ⟨.hbm, 625, rfl⟩
abbrev main_v539 : Ref sig .tc := ⟨.hbm, 626, rfl⟩
abbrev main_v540 : Ref sig .tc := ⟨.hbm, 627, rfl⟩
abbrev main_v541 : Ref sig .tc := ⟨.hbm, 628, rfl⟩
abbrev main_v542 : Ref sig .tc := ⟨.hbm, 629, rfl⟩
abbrev main_v543 : Ref sig .tc := ⟨.hbm, 630, rfl⟩
abbrev main_v544 : Ref sig .tc := ⟨.hbm, 631, rfl⟩
abbrev main_v545 : Ref sig .tc := ⟨.hbm, 632, rfl⟩
abbrev main_v546 : Ref sig .tc := ⟨.hbm, 633, rfl⟩
abbrev main_v547 : Ref sig .tc := ⟨.hbm, 634, rfl⟩
abbrev main_cst_76 : Ref sig .tc := ⟨.hbm, 635, rfl⟩
abbrev main_v548 : Ref sig .tc := ⟨.hbm, 636, rfl⟩
abbrev main_v549 : Ref sig .tc := ⟨.hbm, 637, rfl⟩
abbrev main_v550 : Ref sig .tc := ⟨.hbm, 638, rfl⟩
abbrev main_v551 : Ref sig .tc := ⟨.hbm, 639, rfl⟩
abbrev main_v552 : Ref sig .tc := ⟨.hbm, 640, rfl⟩
abbrev main_c_77 : Ref sig .tc := ⟨.hbm, 641, rfl⟩
abbrev main_v553 : Ref sig .tc := ⟨.hbm, 642, rfl⟩
abbrev main_v554 : Ref sig .tc := ⟨.hbm, 643, rfl⟩
abbrev main_v555 : Ref sig .tc := ⟨.hbm, 644, rfl⟩
abbrev main_v556 : Ref sig .tc := ⟨.hbm, 645, rfl⟩
abbrev main_v557 : Ref sig .tc := ⟨.hbm, 646, rfl⟩
abbrev main_v558 : Ref sig .tc := ⟨.hbm, 647, rfl⟩
abbrev main_v559 : Ref sig .tc := ⟨.hbm, 648, rfl⟩
abbrev main_v560 : Ref sig .tc := ⟨.hbm, 649, rfl⟩
abbrev main_cst_78 : Ref sig .tc := ⟨.hbm, 650, rfl⟩
abbrev main_v561 : Ref sig .tc := ⟨.hbm, 651, rfl⟩
abbrev main_v562 : Ref sig .tc := ⟨.hbm, 652, rfl⟩
abbrev main_v563 : Ref sig .tc := ⟨.hbm, 653, rfl⟩
abbrev main_v564 : Ref sig .tc := ⟨.hbm, 654, rfl⟩
abbrev main_v565 : Ref sig .tc := ⟨.hbm, 655, rfl⟩
abbrev main_v566 : Ref sig .tc := ⟨.hbm, 656, rfl⟩
abbrev main_v567 : Ref sig .tc := ⟨.hbm, 657, rfl⟩
abbrev main_v568 : Ref sig .tc := ⟨.hbm, 658, rfl⟩
abbrev main_v569 : Ref sig .tc := ⟨.hbm, 659, rfl⟩
abbrev main_cst_79 : Ref sig .tc := ⟨.hbm, 660, rfl⟩
abbrev main_v570 : Ref sig .tc := ⟨.hbm, 661, rfl⟩
abbrev main_v571 : Ref sig .tc := ⟨.hbm, 662, rfl⟩
abbrev main_v572 : Ref sig .tc := ⟨.hbm, 663, rfl⟩
abbrev main_v573 : Ref sig .tc := ⟨.hbm, 664, rfl⟩
abbrev main_v574 : Ref sig .tc := ⟨.hbm, 665, rfl⟩
abbrev main_c_80 : Ref sig .tc := ⟨.hbm, 666, rfl⟩
abbrev main_v575 : Ref sig .tc := ⟨.hbm, 667, rfl⟩
abbrev main_v576 : Ref sig .tc := ⟨.hbm, 668, rfl⟩
abbrev main_v577 : Ref sig .tc := ⟨.hbm, 669, rfl⟩
abbrev main_v578 : Ref sig .tc := ⟨.hbm, 670, rfl⟩
abbrev main_v579 : Ref sig .tc := ⟨.hbm, 671, rfl⟩
abbrev main_v580 : Ref sig .tc := ⟨.hbm, 672, rfl⟩
abbrev main_v581 : Ref sig .tc := ⟨.hbm, 673, rfl⟩
abbrev main_v582 : Ref sig .tc := ⟨.hbm, 674, rfl⟩
abbrev main_cst_81 : Ref sig .tc := ⟨.hbm, 675, rfl⟩
abbrev main_v583 : Ref sig .tc := ⟨.hbm, 676, rfl⟩
abbrev main_v584 : Ref sig .tc := ⟨.hbm, 677, rfl⟩
abbrev main_v585 : Ref sig .tc := ⟨.hbm, 678, rfl⟩
abbrev main_v586 : Ref sig .tc := ⟨.hbm, 679, rfl⟩
abbrev main_v587 : Ref sig .tc := ⟨.hbm, 680, rfl⟩
abbrev main_v588 : Ref sig .tc := ⟨.hbm, 681, rfl⟩
abbrev main_v589 : Ref sig .tc := ⟨.hbm, 682, rfl⟩
abbrev main_v590 : Ref sig .tc := ⟨.hbm, 683, rfl⟩
abbrev main_v591 : Ref sig .tc := ⟨.hbm, 684, rfl⟩
abbrev main_cst_82 : Ref sig .tc := ⟨.hbm, 685, rfl⟩
abbrev main_v592 : Ref sig .tc := ⟨.hbm, 686, rfl⟩
abbrev main_v593 : Ref sig .tc := ⟨.hbm, 687, rfl⟩
abbrev main_v594 : Ref sig .tc := ⟨.hbm, 688, rfl⟩
abbrev main_v595 : Ref sig .tc := ⟨.hbm, 689, rfl⟩
abbrev main_v596 : Ref sig .tc := ⟨.hbm, 690, rfl⟩
abbrev main_c_83 : Ref sig .tc := ⟨.hbm, 691, rfl⟩
abbrev main_v597 : Ref sig .tc := ⟨.hbm, 692, rfl⟩
abbrev main_v598 : Ref sig .tc := ⟨.hbm, 693, rfl⟩
abbrev main_v599 : Ref sig .tc := ⟨.hbm, 694, rfl⟩
abbrev main_v600 : Ref sig .tc := ⟨.hbm, 695, rfl⟩
abbrev main_v601 : Ref sig .tc := ⟨.hbm, 696, rfl⟩
abbrev main_v602 : Ref sig .tc := ⟨.hbm, 697, rfl⟩
abbrev main_v603 : Ref sig .tc := ⟨.hbm, 698, rfl⟩
abbrev main_v604 : Ref sig .tc := ⟨.hbm, 699, rfl⟩
abbrev main_v605 : Ref sig .tc := ⟨.hbm, 700, rfl⟩
abbrev main_v606 : Ref sig .tc := ⟨.hbm, 701, rfl⟩
abbrev main_v607 : Ref sig .tc := ⟨.hbm, 702, rfl⟩
abbrev main_v608 : Ref sig .tc := ⟨.hbm, 703, rfl⟩
abbrev main_v609 : Ref sig .tc := ⟨.hbm, 704, rfl⟩
abbrev main_v610 : Ref sig .tc := ⟨.hbm, 705, rfl⟩
abbrev main_v611 : Ref sig .tc := ⟨.hbm, 706, rfl⟩
abbrev main_v612 : Ref sig .tc := ⟨.hbm, 707, rfl⟩
abbrev main_v613 : Ref sig .tc := ⟨.hbm, 708, rfl⟩
abbrev main_v614 : Ref sig .tc := ⟨.hbm, 709, rfl⟩
abbrev main_v615 : Ref sig .tc := ⟨.hbm, 710, rfl⟩
abbrev main_v616 : Ref sig .tc := ⟨.hbm, 711, rfl⟩
abbrev main_v617 : Ref sig .tc := ⟨.hbm, 712, rfl⟩
abbrev main_v618 : Ref sig .tc := ⟨.hbm, 713, rfl⟩
abbrev main_v619 : Ref sig .tc := ⟨.hbm, 714, rfl⟩
abbrev main_v620 : Ref sig .tc := ⟨.hbm, 715, rfl⟩
abbrev main_v621 : Ref sig .tc := ⟨.hbm, 716, rfl⟩
abbrev main_v622 : Ref sig .tc := ⟨.hbm, 717, rfl⟩
abbrev main_v623 : Ref sig .tc := ⟨.hbm, 718, rfl⟩
abbrev main_v624 : Ref sig .tc := ⟨.hbm, 719, rfl⟩
abbrev main_cst_84 : Ref sig .tc := ⟨.hbm, 720, rfl⟩
abbrev main_v625 : Ref sig .tc := ⟨.hbm, 721, rfl⟩
abbrev main_cst_85 : Ref sig .tc := ⟨.hbm, 722, rfl⟩
abbrev main_v626 : Ref sig .tc := ⟨.hbm, 723, rfl⟩
abbrev main_v627 : Ref sig .tc := ⟨.hbm, 724, rfl⟩
abbrev main_v628 : Ref sig .tc := ⟨.hbm, 725, rfl⟩
abbrev main_v629 : Ref sig .tc := ⟨.hbm, 726, rfl⟩
abbrev main_v630 : Ref sig .tc := ⟨.hbm, 727, rfl⟩
abbrev main_v631 : Ref sig .tc := ⟨.hbm, 728, rfl⟩
abbrev main_v632 : Ref sig .tc := ⟨.hbm, 729, rfl⟩
abbrev main_v633 : Ref sig .tc := ⟨.hbm, 730, rfl⟩
abbrev main_v634 : Ref sig .tc := ⟨.hbm, 731, rfl⟩
abbrev main_v635 : Ref sig .tc := ⟨.hbm, 732, rfl⟩
abbrev main_v636 : Ref sig .tc := ⟨.hbm, 733, rfl⟩
abbrev main_cst_86 : Ref sig .tc := ⟨.hbm, 734, rfl⟩
abbrev main_v637 : Ref sig .tc := ⟨.hbm, 735, rfl⟩
abbrev main_v638 : Ref sig .tc := ⟨.hbm, 736, rfl⟩
abbrev main_v639 : Ref sig .tc := ⟨.hbm, 737, rfl⟩
abbrev main_v640 : Ref sig .tc := ⟨.hbm, 738, rfl⟩
abbrev main_v641 : Ref sig .tc := ⟨.hbm, 739, rfl⟩
abbrev main_v642 : Ref sig .tc := ⟨.hbm, 740, rfl⟩
abbrev main_v643 : Ref sig .tc := ⟨.hbm, 741, rfl⟩
abbrev main_v644 : Ref sig .tc := ⟨.hbm, 742, rfl⟩
abbrev main_v645 : Ref sig .tc := ⟨.hbm, 743, rfl⟩
abbrev main_cst_87 : Ref sig .tc := ⟨.hbm, 744, rfl⟩
abbrev main_v646 : Ref sig .tc := ⟨.hbm, 745, rfl⟩
abbrev main_v647 : Ref sig .tc := ⟨.hbm, 746, rfl⟩
abbrev main_v648 : Ref sig .tc := ⟨.hbm, 747, rfl⟩
abbrev main_v649 : Ref sig .tc := ⟨.hbm, 748, rfl⟩
abbrev main_v650 : Ref sig .tc := ⟨.hbm, 749, rfl⟩
abbrev main_c_88 : Ref sig .tc := ⟨.hbm, 750, rfl⟩
abbrev main_v651 : Ref sig .tc := ⟨.hbm, 751, rfl⟩
abbrev main_v652 : Ref sig .tc := ⟨.hbm, 752, rfl⟩
abbrev main_v653 : Ref sig .tc := ⟨.hbm, 753, rfl⟩
abbrev main_v654 : Ref sig .tc := ⟨.hbm, 754, rfl⟩
abbrev main_v655 : Ref sig .tc := ⟨.hbm, 755, rfl⟩
abbrev main_v656 : Ref sig .tc := ⟨.hbm, 756, rfl⟩
abbrev main_v657 : Ref sig .tc := ⟨.hbm, 757, rfl⟩
abbrev main_v658 : Ref sig .tc := ⟨.hbm, 758, rfl⟩
abbrev main_cst_89 : Ref sig .tc := ⟨.hbm, 759, rfl⟩
abbrev main_v659 : Ref sig .tc := ⟨.hbm, 760, rfl⟩
abbrev main_v660 : Ref sig .tc := ⟨.hbm, 761, rfl⟩
abbrev main_v661 : Ref sig .tc := ⟨.hbm, 762, rfl⟩
abbrev main_v662 : Ref sig .tc := ⟨.hbm, 763, rfl⟩
abbrev main_v663 : Ref sig .tc := ⟨.hbm, 764, rfl⟩
abbrev main_v664 : Ref sig .tc := ⟨.hbm, 765, rfl⟩
abbrev main_v665 : Ref sig .tc := ⟨.hbm, 766, rfl⟩
abbrev main_v666 : Ref sig .tc := ⟨.hbm, 767, rfl⟩
abbrev main_v667 : Ref sig .tc := ⟨.hbm, 768, rfl⟩
abbrev main_cst_90 : Ref sig .tc := ⟨.hbm, 769, rfl⟩
abbrev main_v668 : Ref sig .tc := ⟨.hbm, 770, rfl⟩
abbrev main_v669 : Ref sig .tc := ⟨.hbm, 771, rfl⟩
abbrev main_v670 : Ref sig .tc := ⟨.hbm, 772, rfl⟩
abbrev main_v671 : Ref sig .tc := ⟨.hbm, 773, rfl⟩
abbrev main_v672 : Ref sig .tc := ⟨.hbm, 774, rfl⟩
abbrev main_c_91 : Ref sig .tc := ⟨.hbm, 775, rfl⟩
abbrev main_v673 : Ref sig .tc := ⟨.hbm, 776, rfl⟩
abbrev main_v674 : Ref sig .tc := ⟨.hbm, 777, rfl⟩
abbrev main_v675 : Ref sig .tc := ⟨.hbm, 778, rfl⟩
abbrev main_v676 : Ref sig .tc := ⟨.hbm, 779, rfl⟩
abbrev main_v677 : Ref sig .tc := ⟨.hbm, 780, rfl⟩
abbrev main_v678 : Ref sig .tc := ⟨.hbm, 781, rfl⟩
abbrev main_v679 : Ref sig .tc := ⟨.hbm, 782, rfl⟩
abbrev main_v680 : Ref sig .tc := ⟨.hbm, 783, rfl⟩
abbrev main_cst_92 : Ref sig .tc := ⟨.hbm, 784, rfl⟩
abbrev main_v681 : Ref sig .tc := ⟨.hbm, 785, rfl⟩
abbrev main_v682 : Ref sig .tc := ⟨.hbm, 786, rfl⟩
abbrev main_v683 : Ref sig .tc := ⟨.hbm, 787, rfl⟩
abbrev main_v684 : Ref sig .tc := ⟨.hbm, 788, rfl⟩
abbrev main_v685 : Ref sig .tc := ⟨.hbm, 789, rfl⟩
abbrev main_v686 : Ref sig .tc := ⟨.hbm, 790, rfl⟩
abbrev main_v687 : Ref sig .tc := ⟨.hbm, 791, rfl⟩
abbrev main_v688 : Ref sig .tc := ⟨.hbm, 792, rfl⟩
abbrev main_v689 : Ref sig .tc := ⟨.hbm, 793, rfl⟩
abbrev main_cst_93 : Ref sig .tc := ⟨.hbm, 794, rfl⟩
abbrev main_v690 : Ref sig .tc := ⟨.hbm, 795, rfl⟩
abbrev main_v691 : Ref sig .tc := ⟨.hbm, 796, rfl⟩
abbrev main_v692 : Ref sig .tc := ⟨.hbm, 797, rfl⟩
abbrev main_v693 : Ref sig .tc := ⟨.hbm, 798, rfl⟩
abbrev main_v694 : Ref sig .tc := ⟨.hbm, 799, rfl⟩
abbrev main_c_94 : Ref sig .tc := ⟨.hbm, 800, rfl⟩
abbrev main_v695 : Ref sig .tc := ⟨.hbm, 801, rfl⟩
abbrev main_v696 : Ref sig .tc := ⟨.hbm, 802, rfl⟩
abbrev main_v697 : Ref sig .tc := ⟨.hbm, 803, rfl⟩
abbrev main_v698 : Ref sig .tc := ⟨.hbm, 804, rfl⟩
abbrev main_v699 : Ref sig .tc := ⟨.hbm, 805, rfl⟩
abbrev main_v700 : Ref sig .tc := ⟨.hbm, 806, rfl⟩
abbrev main_v701 : Ref sig .tc := ⟨.hbm, 807, rfl⟩
abbrev main_v702 : Ref sig .tc := ⟨.hbm, 808, rfl⟩
abbrev main_cst_95 : Ref sig .tc := ⟨.hbm, 809, rfl⟩
abbrev main_v703 : Ref sig .tc := ⟨.hbm, 810, rfl⟩
abbrev main_v704 : Ref sig .tc := ⟨.hbm, 811, rfl⟩
abbrev main_v705 : Ref sig .tc := ⟨.hbm, 812, rfl⟩
abbrev main_v706 : Ref sig .tc := ⟨.hbm, 813, rfl⟩
abbrev main_v707 : Ref sig .tc := ⟨.hbm, 814, rfl⟩
abbrev main_v708 : Ref sig .tc := ⟨.hbm, 815, rfl⟩
abbrev main_v709 : Ref sig .tc := ⟨.hbm, 816, rfl⟩
abbrev main_v710 : Ref sig .tc := ⟨.hbm, 817, rfl⟩
abbrev main_v711 : Ref sig .tc := ⟨.hbm, 818, rfl⟩
abbrev main_cst_96 : Ref sig .tc := ⟨.hbm, 819, rfl⟩
abbrev main_v712 : Ref sig .tc := ⟨.hbm, 820, rfl⟩
abbrev main_v713 : Ref sig .tc := ⟨.hbm, 821, rfl⟩
abbrev main_v714 : Ref sig .tc := ⟨.hbm, 822, rfl⟩
abbrev main_v715 : Ref sig .tc := ⟨.hbm, 823, rfl⟩
abbrev main_v716 : Ref sig .tc := ⟨.hbm, 824, rfl⟩
abbrev main_c_97 : Ref sig .tc := ⟨.hbm, 825, rfl⟩
abbrev main_v717 : Ref sig .tc := ⟨.hbm, 826, rfl⟩
abbrev main_v718 : Ref sig .tc := ⟨.hbm, 827, rfl⟩
abbrev main_v719 : Ref sig .tc := ⟨.hbm, 828, rfl⟩
abbrev main_v720 : Ref sig .tc := ⟨.hbm, 829, rfl⟩
abbrev main_cst_98 : Ref sig .tc := ⟨.hbm, 830, rfl⟩
abbrev main_v721 : Ref sig .tc := ⟨.hbm, 831, rfl⟩
abbrev main_v722 : Ref sig .tc := ⟨.hbm, 832, rfl⟩
abbrev main_v723 : Ref sig .tc := ⟨.hbm, 833, rfl⟩
abbrev main_c_99 : Ref sig .tc := ⟨.hbm, 834, rfl⟩
abbrev main_v724 : Ref sig .tc := ⟨.hbm, 835, rfl⟩
abbrev main_v725 : Ref sig .tc := ⟨.hbm, 836, rfl⟩
abbrev main_cst_100 : Ref sig .tc := ⟨.hbm, 837, rfl⟩
abbrev main_v726 : Ref sig .tc := ⟨.hbm, 838, rfl⟩
abbrev main_cst_101 : Ref sig .tc := ⟨.hbm, 839, rfl⟩
abbrev main_v727 : Ref sig .tc := ⟨.hbm, 840, rfl⟩
abbrev main_v728 : Ref sig .tc := ⟨.hbm, 841, rfl⟩
abbrev main_v729 : Ref sig .tc := ⟨.hbm, 842, rfl⟩
abbrev main_v730 : Ref sig .tc := ⟨.hbm, 843, rfl⟩
abbrev main_v731 : Ref sig .tc := ⟨.hbm, 844, rfl⟩
abbrev main_v732 : Ref sig .tc := ⟨.hbm, 845, rfl⟩
abbrev main_v733 : Ref sig .tc := ⟨.hbm, 846, rfl⟩
abbrev main_v734 : Ref sig .tc := ⟨.hbm, 847, rfl⟩
abbrev main_v735 : Ref sig .tc := ⟨.hbm, 848, rfl⟩
abbrev main_v736 : Ref sig .tc := ⟨.hbm, 849, rfl⟩
abbrev main_v737 : Ref sig .tc := ⟨.hbm, 850, rfl⟩
abbrev main_v738 : Ref sig .tc := ⟨.hbm, 851, rfl⟩
abbrev main_v739 : Ref sig .tc := ⟨.hbm, 852, rfl⟩
abbrev main_cst_102 : Ref sig .tc := ⟨.hbm, 853, rfl⟩
abbrev main_v740 : Ref sig .tc := ⟨.hbm, 854, rfl⟩
abbrev main_cst_103 : Ref sig .tc := ⟨.hbm, 855, rfl⟩
abbrev main_v741 : Ref sig .tc := ⟨.hbm, 856, rfl⟩
abbrev main_v742 : Ref sig .tc := ⟨.hbm, 857, rfl⟩
abbrev main_v743 : Ref sig .tc := ⟨.hbm, 858, rfl⟩
abbrev main_v744 : Ref sig .tc := ⟨.hbm, 859, rfl⟩
abbrev main_v745 : Ref sig .tc := ⟨.hbm, 860, rfl⟩
abbrev main_v746 : Ref sig .tc := ⟨.hbm, 861, rfl⟩
abbrev main_v747 : Ref sig .tc := ⟨.hbm, 862, rfl⟩
abbrev main_cst_104 : Ref sig .tc := ⟨.hbm, 863, rfl⟩
abbrev main_v748 : Ref sig .tc := ⟨.hbm, 864, rfl⟩
abbrev main_v749 : Ref sig .tc := ⟨.hbm, 865, rfl⟩
abbrev main_v750 : Ref sig .tc := ⟨.hbm, 866, rfl⟩
abbrev main_c_105 : Ref sig .tc := ⟨.hbm, 867, rfl⟩
abbrev main_v751 : Ref sig .tc := ⟨.hbm, 868, rfl⟩
abbrev main_v752 : Ref sig .tc := ⟨.hbm, 869, rfl⟩
abbrev main_v753 : Ref sig .tc := ⟨.hbm, 870, rfl⟩
abbrev main_v754 : Ref sig .tc := ⟨.hbm, 871, rfl⟩
abbrev main_v755 : Ref sig .tc := ⟨.hbm, 872, rfl⟩
abbrev main_v756 : Ref sig .tc := ⟨.hbm, 873, rfl⟩
abbrev main_v757 : Ref sig .tc := ⟨.hbm, 874, rfl⟩
abbrev main_v758 : Ref sig .tc := ⟨.hbm, 875, rfl⟩
abbrev main_cst_106 : Ref sig .tc := ⟨.hbm, 876, rfl⟩
abbrev main_v759 : Ref sig .tc := ⟨.hbm, 877, rfl⟩
abbrev main_v760 : Ref sig .tc := ⟨.hbm, 878, rfl⟩
abbrev main_v761 : Ref sig .tc := ⟨.hbm, 879, rfl⟩
abbrev main_v762 : Ref sig .tc := ⟨.hbm, 880, rfl⟩
abbrev main_v763 : Ref sig .tc := ⟨.hbm, 881, rfl⟩
abbrev main_v764 : Ref sig .tc := ⟨.hbm, 882, rfl⟩
abbrev main_v765 : Ref sig .tc := ⟨.hbm, 883, rfl⟩
abbrev main_v766 : Ref sig .tc := ⟨.hbm, 884, rfl⟩
abbrev main_v767 : Ref sig .tc := ⟨.hbm, 885, rfl⟩
abbrev main_cst_107 : Ref sig .tc := ⟨.hbm, 886, rfl⟩
abbrev main_v768 : Ref sig .tc := ⟨.hbm, 887, rfl⟩
abbrev main_v769 : Ref sig .tc := ⟨.hbm, 888, rfl⟩
abbrev main_v770 : Ref sig .tc := ⟨.hbm, 889, rfl⟩
abbrev main_v771 : Ref sig .tc := ⟨.hbm, 890, rfl⟩
abbrev main_v772 : Ref sig .tc := ⟨.hbm, 891, rfl⟩
abbrev main_c_108 : Ref sig .tc := ⟨.hbm, 892, rfl⟩
abbrev main_v773 : Ref sig .tc := ⟨.hbm, 893, rfl⟩
abbrev main_v774 : Ref sig .tc := ⟨.hbm, 894, rfl⟩
abbrev main_v775 : Ref sig .tc := ⟨.hbm, 895, rfl⟩
abbrev main_v776 : Ref sig .tc := ⟨.hbm, 896, rfl⟩
abbrev main_v777 : Ref sig .tc := ⟨.hbm, 897, rfl⟩
abbrev main_v778 : Ref sig .tc := ⟨.hbm, 898, rfl⟩
abbrev main_v779 : Ref sig .tc := ⟨.hbm, 899, rfl⟩
abbrev main_v780 : Ref sig .tc := ⟨.hbm, 900, rfl⟩
abbrev main_cst_109 : Ref sig .tc := ⟨.hbm, 901, rfl⟩
abbrev main_v781 : Ref sig .tc := ⟨.hbm, 902, rfl⟩
abbrev main_v782 : Ref sig .tc := ⟨.hbm, 903, rfl⟩
abbrev main_v783 : Ref sig .tc := ⟨.hbm, 904, rfl⟩
abbrev main_v784 : Ref sig .tc := ⟨.hbm, 905, rfl⟩
abbrev main_v785 : Ref sig .tc := ⟨.hbm, 906, rfl⟩
abbrev main_v786 : Ref sig .tc := ⟨.hbm, 907, rfl⟩
abbrev main_v787 : Ref sig .tc := ⟨.hbm, 908, rfl⟩
abbrev main_v788 : Ref sig .tc := ⟨.hbm, 909, rfl⟩
abbrev main_v789 : Ref sig .tc := ⟨.hbm, 910, rfl⟩
abbrev main_cst_110 : Ref sig .tc := ⟨.hbm, 911, rfl⟩
abbrev main_v790 : Ref sig .tc := ⟨.hbm, 912, rfl⟩
abbrev main_v791 : Ref sig .tc := ⟨.hbm, 913, rfl⟩
abbrev main_v792 : Ref sig .tc := ⟨.hbm, 914, rfl⟩
abbrev main_v793 : Ref sig .tc := ⟨.hbm, 915, rfl⟩
abbrev main_v794 : Ref sig .tc := ⟨.hbm, 916, rfl⟩
abbrev main_c_111 : Ref sig .tc := ⟨.hbm, 917, rfl⟩
abbrev main_v795 : Ref sig .tc := ⟨.hbm, 918, rfl⟩
abbrev main_v796 : Ref sig .tc := ⟨.hbm, 919, rfl⟩
abbrev main_v797 : Ref sig .tc := ⟨.hbm, 920, rfl⟩
abbrev main_v798 : Ref sig .tc := ⟨.hbm, 921, rfl⟩
abbrev main_v799 : Ref sig .tc := ⟨.hbm, 922, rfl⟩
abbrev main_v800 : Ref sig .tc := ⟨.hbm, 923, rfl⟩
abbrev main_v801 : Ref sig .tc := ⟨.hbm, 924, rfl⟩
abbrev main_v802 : Ref sig .tc := ⟨.hbm, 925, rfl⟩
abbrev main_cst_112 : Ref sig .tc := ⟨.hbm, 926, rfl⟩
abbrev main_v803 : Ref sig .tc := ⟨.hbm, 927, rfl⟩
abbrev main_v804 : Ref sig .tc := ⟨.hbm, 928, rfl⟩
abbrev main_v805 : Ref sig .tc := ⟨.hbm, 929, rfl⟩
abbrev main_v806 : Ref sig .tc := ⟨.hbm, 930, rfl⟩
abbrev main_v807 : Ref sig .tc := ⟨.hbm, 931, rfl⟩
abbrev main_v808 : Ref sig .tc := ⟨.hbm, 932, rfl⟩
abbrev main_v809 : Ref sig .tc := ⟨.hbm, 933, rfl⟩
abbrev main_v810 : Ref sig .tc := ⟨.hbm, 934, rfl⟩
abbrev main_v811 : Ref sig .tc := ⟨.hbm, 935, rfl⟩
abbrev main_cst_113 : Ref sig .tc := ⟨.hbm, 936, rfl⟩
abbrev main_v812 : Ref sig .tc := ⟨.hbm, 937, rfl⟩
abbrev main_v813 : Ref sig .tc := ⟨.hbm, 938, rfl⟩
abbrev main_v814 : Ref sig .tc := ⟨.hbm, 939, rfl⟩
abbrev main_v815 : Ref sig .tc := ⟨.hbm, 940, rfl⟩
abbrev main_v816 : Ref sig .tc := ⟨.hbm, 941, rfl⟩
abbrev main_c_114 : Ref sig .tc := ⟨.hbm, 942, rfl⟩
abbrev main_v817 : Ref sig .tc := ⟨.hbm, 943, rfl⟩
abbrev main_v818 : Ref sig .tc := ⟨.hbm, 944, rfl⟩
abbrev main_v819 : Ref sig .tc := ⟨.hbm, 945, rfl⟩
abbrev main_v820 : Ref sig .tc := ⟨.hbm, 946, rfl⟩
abbrev main_v821 : Ref sig .tc := ⟨.hbm, 947, rfl⟩
abbrev main_v822 : Ref sig .tc := ⟨.hbm, 948, rfl⟩
abbrev main_v823 : Ref sig .tc := ⟨.hbm, 949, rfl⟩
abbrev main_v824 : Ref sig .tc := ⟨.hbm, 950, rfl⟩
abbrev main_cst_115 : Ref sig .tc := ⟨.hbm, 951, rfl⟩
abbrev main_v825 : Ref sig .tc := ⟨.hbm, 952, rfl⟩
abbrev main_v826 : Ref sig .tc := ⟨.hbm, 953, rfl⟩
abbrev main_v827 : Ref sig .tc := ⟨.hbm, 954, rfl⟩
abbrev main_v828 : Ref sig .tc := ⟨.hbm, 955, rfl⟩
abbrev main_v829 : Ref sig .tc := ⟨.hbm, 956, rfl⟩
abbrev main_v830 : Ref sig .tc := ⟨.hbm, 957, rfl⟩
abbrev main_v831 : Ref sig .tc := ⟨.hbm, 958, rfl⟩
abbrev main_v832 : Ref sig .tc := ⟨.hbm, 959, rfl⟩
abbrev main_v833 : Ref sig .tc := ⟨.hbm, 960, rfl⟩
abbrev main_cst_116 : Ref sig .tc := ⟨.hbm, 961, rfl⟩
abbrev main_v834 : Ref sig .tc := ⟨.hbm, 962, rfl⟩
abbrev main_v835 : Ref sig .tc := ⟨.hbm, 963, rfl⟩
abbrev main_v836 : Ref sig .tc := ⟨.hbm, 964, rfl⟩
abbrev main_v837 : Ref sig .tc := ⟨.hbm, 965, rfl⟩
abbrev main_v838 : Ref sig .tc := ⟨.hbm, 966, rfl⟩
abbrev main_c_117 : Ref sig .tc := ⟨.hbm, 967, rfl⟩
abbrev main_v839 : Ref sig .tc := ⟨.hbm, 968, rfl⟩
abbrev main_v840 : Ref sig .tc := ⟨.hbm, 969, rfl⟩
abbrev main_v841 : Ref sig .tc := ⟨.hbm, 970, rfl⟩
abbrev main_v842 : Ref sig .tc := ⟨.hbm, 971, rfl⟩
abbrev main_v843 : Ref sig .tc := ⟨.hbm, 972, rfl⟩
abbrev main_v844 : Ref sig .tc := ⟨.hbm, 973, rfl⟩
abbrev main_v845 : Ref sig .tc := ⟨.hbm, 974, rfl⟩
abbrev main_v846 : Ref sig .tc := ⟨.hbm, 975, rfl⟩
abbrev main_v847 : Ref sig .tc := ⟨.hbm, 976, rfl⟩
abbrev main_v848 : Ref sig .tc := ⟨.hbm, 977, rfl⟩
abbrev main_v849 : Ref sig .tc := ⟨.hbm, 978, rfl⟩
abbrev main_v850 : Ref sig .tc := ⟨.hbm, 979, rfl⟩
abbrev main_v851 : Ref sig .tc := ⟨.hbm, 980, rfl⟩
abbrev main_v852 : Ref sig .tc := ⟨.hbm, 981, rfl⟩
abbrev main_v853 : Ref sig .tc := ⟨.hbm, 982, rfl⟩
abbrev main_v854 : Ref sig .tc := ⟨.hbm, 983, rfl⟩
abbrev main_v855 : Ref sig .tc := ⟨.hbm, 984, rfl⟩
abbrev main_v856 : Ref sig .tc := ⟨.hbm, 985, rfl⟩
abbrev main_v857 : Ref sig .tc := ⟨.hbm, 986, rfl⟩
abbrev main_v858 : Ref sig .tc := ⟨.hbm, 987, rfl⟩
abbrev main_v859 : Ref sig .tc := ⟨.hbm, 988, rfl⟩
abbrev main_v860 : Ref sig .tc := ⟨.hbm, 989, rfl⟩
abbrev main_v861 : Ref sig .tc := ⟨.hbm, 990, rfl⟩
abbrev main_v862 : Ref sig .tc := ⟨.hbm, 991, rfl⟩
abbrev main_v863 : Ref sig .tc := ⟨.hbm, 992, rfl⟩
abbrev main_v864 : Ref sig .tc := ⟨.hbm, 993, rfl⟩
abbrev main_v865 : Ref sig .tc := ⟨.hbm, 994, rfl⟩
abbrev main_v866 : Ref sig .tc := ⟨.hbm, 995, rfl⟩
abbrev main_cst_118 : Ref sig .tc := ⟨.hbm, 996, rfl⟩
abbrev main_v867 : Ref sig .tc := ⟨.hbm, 997, rfl⟩
abbrev main_cst_119 : Ref sig .tc := ⟨.hbm, 998, rfl⟩
abbrev main_v868 : Ref sig .tc := ⟨.hbm, 999, rfl⟩
abbrev main_v869 : Ref sig .tc := ⟨.hbm, 1000, rfl⟩
abbrev main_v870 : Ref sig .tc := ⟨.hbm, 1001, rfl⟩
abbrev main_v871 : Ref sig .tc := ⟨.hbm, 1002, rfl⟩
abbrev main_v872 : Ref sig .tc := ⟨.hbm, 1003, rfl⟩
abbrev main_v873 : Ref sig .tc := ⟨.hbm, 1004, rfl⟩
abbrev main_v874 : Ref sig .tc := ⟨.hbm, 1005, rfl⟩
abbrev main_v875 : Ref sig .tc := ⟨.hbm, 1006, rfl⟩
abbrev main_v876 : Ref sig .tc := ⟨.hbm, 1007, rfl⟩
abbrev main_v877 : Ref sig .tc := ⟨.hbm, 1008, rfl⟩
abbrev main_v878 : Ref sig .tc := ⟨.hbm, 1009, rfl⟩
abbrev main_cst_120 : Ref sig .tc := ⟨.hbm, 1010, rfl⟩
abbrev main_v879 : Ref sig .tc := ⟨.hbm, 1011, rfl⟩
abbrev main_v880 : Ref sig .tc := ⟨.hbm, 1012, rfl⟩
abbrev main_v881 : Ref sig .tc := ⟨.hbm, 1013, rfl⟩
abbrev main_v882 : Ref sig .tc := ⟨.hbm, 1014, rfl⟩
abbrev main_v883 : Ref sig .tc := ⟨.hbm, 1015, rfl⟩
abbrev main_v884 : Ref sig .tc := ⟨.hbm, 1016, rfl⟩
abbrev main_v885 : Ref sig .tc := ⟨.hbm, 1017, rfl⟩
abbrev main_v886 : Ref sig .tc := ⟨.hbm, 1018, rfl⟩
abbrev main_v887 : Ref sig .tc := ⟨.hbm, 1019, rfl⟩
abbrev main_cst_121 : Ref sig .tc := ⟨.hbm, 1020, rfl⟩
abbrev main_v888 : Ref sig .tc := ⟨.hbm, 1021, rfl⟩
abbrev main_v889 : Ref sig .tc := ⟨.hbm, 1022, rfl⟩
abbrev main_v890 : Ref sig .tc := ⟨.hbm, 1023, rfl⟩
abbrev main_v891 : Ref sig .tc := ⟨.hbm, 1024, rfl⟩
abbrev main_v892 : Ref sig .tc := ⟨.hbm, 1025, rfl⟩
abbrev main_c_122 : Ref sig .tc := ⟨.hbm, 1026, rfl⟩
abbrev main_v893 : Ref sig .tc := ⟨.hbm, 1027, rfl⟩
abbrev main_v894 : Ref sig .tc := ⟨.hbm, 1028, rfl⟩
abbrev main_v895 : Ref sig .tc := ⟨.hbm, 1029, rfl⟩
abbrev main_v896 : Ref sig .tc := ⟨.hbm, 1030, rfl⟩
abbrev main_v897 : Ref sig .tc := ⟨.hbm, 1031, rfl⟩
abbrev main_v898 : Ref sig .tc := ⟨.hbm, 1032, rfl⟩
abbrev main_v899 : Ref sig .tc := ⟨.hbm, 1033, rfl⟩
abbrev main_v900 : Ref sig .tc := ⟨.hbm, 1034, rfl⟩
abbrev main_cst_123 : Ref sig .tc := ⟨.hbm, 1035, rfl⟩
abbrev main_v901 : Ref sig .tc := ⟨.hbm, 1036, rfl⟩
abbrev main_v902 : Ref sig .tc := ⟨.hbm, 1037, rfl⟩
abbrev main_v903 : Ref sig .tc := ⟨.hbm, 1038, rfl⟩
abbrev main_v904 : Ref sig .tc := ⟨.hbm, 1039, rfl⟩
abbrev main_v905 : Ref sig .tc := ⟨.hbm, 1040, rfl⟩
abbrev main_v906 : Ref sig .tc := ⟨.hbm, 1041, rfl⟩
abbrev main_v907 : Ref sig .tc := ⟨.hbm, 1042, rfl⟩
abbrev main_v908 : Ref sig .tc := ⟨.hbm, 1043, rfl⟩
abbrev main_v909 : Ref sig .tc := ⟨.hbm, 1044, rfl⟩
abbrev main_cst_124 : Ref sig .tc := ⟨.hbm, 1045, rfl⟩
abbrev main_v910 : Ref sig .tc := ⟨.hbm, 1046, rfl⟩
abbrev main_v911 : Ref sig .tc := ⟨.hbm, 1047, rfl⟩
abbrev main_v912 : Ref sig .tc := ⟨.hbm, 1048, rfl⟩
abbrev main_v913 : Ref sig .tc := ⟨.hbm, 1049, rfl⟩
abbrev main_v914 : Ref sig .tc := ⟨.hbm, 1050, rfl⟩
abbrev main_c_125 : Ref sig .tc := ⟨.hbm, 1051, rfl⟩
abbrev main_v915 : Ref sig .tc := ⟨.hbm, 1052, rfl⟩
abbrev main_v916 : Ref sig .tc := ⟨.hbm, 1053, rfl⟩
abbrev main_v917 : Ref sig .tc := ⟨.hbm, 1054, rfl⟩
abbrev main_v918 : Ref sig .tc := ⟨.hbm, 1055, rfl⟩
abbrev main_v919 : Ref sig .tc := ⟨.hbm, 1056, rfl⟩
abbrev main_v920 : Ref sig .tc := ⟨.hbm, 1057, rfl⟩
abbrev main_v921 : Ref sig .tc := ⟨.hbm, 1058, rfl⟩
abbrev main_v922 : Ref sig .tc := ⟨.hbm, 1059, rfl⟩
abbrev main_cst_126 : Ref sig .tc := ⟨.hbm, 1060, rfl⟩
abbrev main_v923 : Ref sig .tc := ⟨.hbm, 1061, rfl⟩
abbrev main_v924 : Ref sig .tc := ⟨.hbm, 1062, rfl⟩
abbrev main_v925 : Ref sig .tc := ⟨.hbm, 1063, rfl⟩
abbrev main_v926 : Ref sig .tc := ⟨.hbm, 1064, rfl⟩
abbrev main_v927 : Ref sig .tc := ⟨.hbm, 1065, rfl⟩
abbrev main_v928 : Ref sig .tc := ⟨.hbm, 1066, rfl⟩
abbrev main_v929 : Ref sig .tc := ⟨.hbm, 1067, rfl⟩
abbrev main_v930 : Ref sig .tc := ⟨.hbm, 1068, rfl⟩
abbrev main_v931 : Ref sig .tc := ⟨.hbm, 1069, rfl⟩
abbrev main_cst_127 : Ref sig .tc := ⟨.hbm, 1070, rfl⟩
abbrev main_v932 : Ref sig .tc := ⟨.hbm, 1071, rfl⟩
abbrev main_v933 : Ref sig .tc := ⟨.hbm, 1072, rfl⟩
abbrev main_v934 : Ref sig .tc := ⟨.hbm, 1073, rfl⟩
abbrev main_v935 : Ref sig .tc := ⟨.hbm, 1074, rfl⟩
abbrev main_v936 : Ref sig .tc := ⟨.hbm, 1075, rfl⟩
abbrev main_c_128 : Ref sig .tc := ⟨.hbm, 1076, rfl⟩
abbrev main_v937 : Ref sig .tc := ⟨.hbm, 1077, rfl⟩
abbrev main_v938 : Ref sig .tc := ⟨.hbm, 1078, rfl⟩
abbrev main_v939 : Ref sig .tc := ⟨.hbm, 1079, rfl⟩
abbrev main_v940 : Ref sig .tc := ⟨.hbm, 1080, rfl⟩
abbrev main_v941 : Ref sig .tc := ⟨.hbm, 1081, rfl⟩
abbrev main_v942 : Ref sig .tc := ⟨.hbm, 1082, rfl⟩
abbrev main_v943 : Ref sig .tc := ⟨.hbm, 1083, rfl⟩
abbrev main_v944 : Ref sig .tc := ⟨.hbm, 1084, rfl⟩
abbrev main_cst_129 : Ref sig .tc := ⟨.hbm, 1085, rfl⟩
abbrev main_v945 : Ref sig .tc := ⟨.hbm, 1086, rfl⟩
abbrev main_v946 : Ref sig .tc := ⟨.hbm, 1087, rfl⟩
abbrev main_v947 : Ref sig .tc := ⟨.hbm, 1088, rfl⟩
abbrev main_v948 : Ref sig .tc := ⟨.hbm, 1089, rfl⟩
abbrev main_v949 : Ref sig .tc := ⟨.hbm, 1090, rfl⟩
abbrev main_v950 : Ref sig .tc := ⟨.hbm, 1091, rfl⟩
abbrev main_v951 : Ref sig .tc := ⟨.hbm, 1092, rfl⟩
abbrev main_v952 : Ref sig .tc := ⟨.hbm, 1093, rfl⟩
abbrev main_v953 : Ref sig .tc := ⟨.hbm, 1094, rfl⟩
abbrev main_cst_130 : Ref sig .tc := ⟨.hbm, 1095, rfl⟩
abbrev main_v954 : Ref sig .tc := ⟨.hbm, 1096, rfl⟩
abbrev main_v955 : Ref sig .tc := ⟨.hbm, 1097, rfl⟩
abbrev main_v956 : Ref sig .tc := ⟨.hbm, 1098, rfl⟩
abbrev main_v957 : Ref sig .tc := ⟨.hbm, 1099, rfl⟩
abbrev main_v958 : Ref sig .tc := ⟨.hbm, 1100, rfl⟩
abbrev main_c_131 : Ref sig .tc := ⟨.hbm, 1101, rfl⟩
abbrev main_v959 : Ref sig .tc := ⟨.hbm, 1102, rfl⟩
abbrev main_v960 : Ref sig .tc := ⟨.hbm, 1103, rfl⟩
abbrev main_v961 : Ref sig .tc := ⟨.hbm, 1104, rfl⟩
abbrev main_v962 : Ref sig .tc := ⟨.hbm, 1105, rfl⟩
abbrev main_cst_132 : Ref sig .tc := ⟨.hbm, 1106, rfl⟩
abbrev main_v963 : Ref sig .tc := ⟨.hbm, 1107, rfl⟩
abbrev main_v964 : Ref sig .tc := ⟨.hbm, 1108, rfl⟩
abbrev main_v965 : Ref sig .tc := ⟨.hbm, 1109, rfl⟩
abbrev main_c_133 : Ref sig .tc := ⟨.hbm, 1110, rfl⟩
abbrev main_v966 : Ref sig .tc := ⟨.hbm, 1111, rfl⟩
abbrev main_v967 : Ref sig .tc := ⟨.hbm, 1112, rfl⟩
abbrev main_cst_134 : Ref sig .tc := ⟨.hbm, 1113, rfl⟩
abbrev main_v968 : Ref sig .tc := ⟨.hbm, 1114, rfl⟩
abbrev main_cst_135 : Ref sig .tc := ⟨.hbm, 1115, rfl⟩
abbrev main_v969 : Ref sig .tc := ⟨.hbm, 1116, rfl⟩
abbrev main_v970 : Ref sig .tc := ⟨.hbm, 1117, rfl⟩
abbrev main_v971 : Ref sig .tc := ⟨.hbm, 1118, rfl⟩
abbrev main_v972 : Ref sig .tc := ⟨.hbm, 1119, rfl⟩
abbrev main_v973 : Ref sig .tc := ⟨.hbm, 1120, rfl⟩
abbrev main_v974 : Ref sig .tc := ⟨.hbm, 1121, rfl⟩
abbrev main_v975 : Ref sig .tc := ⟨.hbm, 1122, rfl⟩
abbrev main_v976 : Ref sig .tc := ⟨.hbm, 1123, rfl⟩
abbrev main_v977 : Ref sig .tc := ⟨.hbm, 1124, rfl⟩
abbrev main_v978 : Ref sig .tc := ⟨.hbm, 1125, rfl⟩
abbrev main_v979 : Ref sig .tc := ⟨.hbm, 1126, rfl⟩
abbrev main_v980 : Ref sig .tc := ⟨.hbm, 1127, rfl⟩
abbrev main_v981 : Ref sig .tc := ⟨.hbm, 1128, rfl⟩
abbrev main_cst_136 : Ref sig .tc := ⟨.hbm, 1129, rfl⟩
abbrev main_v982 : Ref sig .tc := ⟨.hbm, 1130, rfl⟩
abbrev main_cst_137 : Ref sig .tc := ⟨.hbm, 1131, rfl⟩
abbrev main_v983 : Ref sig .tc := ⟨.hbm, 1132, rfl⟩
abbrev main_v984 : Ref sig .tc := ⟨.hbm, 1133, rfl⟩
abbrev main_v985 : Ref sig .tc := ⟨.hbm, 1134, rfl⟩
abbrev main_v986 : Ref sig .tc := ⟨.hbm, 1135, rfl⟩
abbrev main_v987 : Ref sig .tc := ⟨.hbm, 1136, rfl⟩
abbrev main_v988 : Ref sig .tc := ⟨.hbm, 1137, rfl⟩
abbrev main_v989 : Ref sig .tc := ⟨.hbm, 1138, rfl⟩
abbrev main_cst_138 : Ref sig .tc := ⟨.hbm, 1139, rfl⟩
abbrev main_v990 : Ref sig .tc := ⟨.hbm, 1140, rfl⟩
abbrev main_v991 : Ref sig .tc := ⟨.hbm, 1141, rfl⟩
abbrev main_v992 : Ref sig .tc := ⟨.hbm, 1142, rfl⟩
abbrev main_c_139 : Ref sig .tc := ⟨.hbm, 1143, rfl⟩
abbrev main_v993 : Ref sig .tc := ⟨.hbm, 1144, rfl⟩
abbrev main_v994 : Ref sig .tc := ⟨.hbm, 1145, rfl⟩
abbrev main_v995 : Ref sig .tc := ⟨.hbm, 1146, rfl⟩
abbrev main_v996 : Ref sig .tc := ⟨.hbm, 1147, rfl⟩
abbrev main_v997 : Ref sig .tc := ⟨.hbm, 1148, rfl⟩
abbrev main_v998 : Ref sig .tc := ⟨.hbm, 1149, rfl⟩
abbrev main_v999 : Ref sig .tc := ⟨.hbm, 1150, rfl⟩
abbrev main_v1000 : Ref sig .tc := ⟨.hbm, 1151, rfl⟩
abbrev main_cst_140 : Ref sig .tc := ⟨.hbm, 1152, rfl⟩
abbrev main_v1001 : Ref sig .tc := ⟨.hbm, 1153, rfl⟩
abbrev main_v1002 : Ref sig .tc := ⟨.hbm, 1154, rfl⟩
abbrev main_v1003 : Ref sig .tc := ⟨.hbm, 1155, rfl⟩
abbrev main_v1004 : Ref sig .tc := ⟨.hbm, 1156, rfl⟩
abbrev main_v1005 : Ref sig .tc := ⟨.hbm, 1157, rfl⟩
abbrev main_v1006 : Ref sig .tc := ⟨.hbm, 1158, rfl⟩
abbrev main_v1007 : Ref sig .tc := ⟨.hbm, 1159, rfl⟩
abbrev main_v1008 : Ref sig .tc := ⟨.hbm, 1160, rfl⟩
abbrev main_v1009 : Ref sig .tc := ⟨.hbm, 1161, rfl⟩
abbrev main_cst_141 : Ref sig .tc := ⟨.hbm, 1162, rfl⟩
abbrev main_v1010 : Ref sig .tc := ⟨.hbm, 1163, rfl⟩
abbrev main_v1011 : Ref sig .tc := ⟨.hbm, 1164, rfl⟩
abbrev main_v1012 : Ref sig .tc := ⟨.hbm, 1165, rfl⟩
abbrev main_v1013 : Ref sig .tc := ⟨.hbm, 1166, rfl⟩
abbrev main_v1014 : Ref sig .tc := ⟨.hbm, 1167, rfl⟩
abbrev main_c_142 : Ref sig .tc := ⟨.hbm, 1168, rfl⟩
abbrev main_v1015 : Ref sig .tc := ⟨.hbm, 1169, rfl⟩
abbrev main_v1016 : Ref sig .tc := ⟨.hbm, 1170, rfl⟩
abbrev main_v1017 : Ref sig .tc := ⟨.hbm, 1171, rfl⟩
abbrev main_v1018 : Ref sig .tc := ⟨.hbm, 1172, rfl⟩
abbrev main_v1019 : Ref sig .tc := ⟨.hbm, 1173, rfl⟩
abbrev main_v1020 : Ref sig .tc := ⟨.hbm, 1174, rfl⟩
abbrev main_v1021 : Ref sig .tc := ⟨.hbm, 1175, rfl⟩
abbrev main_v1022 : Ref sig .tc := ⟨.hbm, 1176, rfl⟩
abbrev main_cst_143 : Ref sig .tc := ⟨.hbm, 1177, rfl⟩
abbrev main_v1023 : Ref sig .tc := ⟨.hbm, 1178, rfl⟩
abbrev main_v1024 : Ref sig .tc := ⟨.hbm, 1179, rfl⟩
abbrev main_v1025 : Ref sig .tc := ⟨.hbm, 1180, rfl⟩
abbrev main_v1026 : Ref sig .tc := ⟨.hbm, 1181, rfl⟩
abbrev main_v1027 : Ref sig .tc := ⟨.hbm, 1182, rfl⟩
abbrev main_v1028 : Ref sig .tc := ⟨.hbm, 1183, rfl⟩
abbrev main_v1029 : Ref sig .tc := ⟨.hbm, 1184, rfl⟩
abbrev main_v1030 : Ref sig .tc := ⟨.hbm, 1185, rfl⟩
abbrev main_v1031 : Ref sig .tc := ⟨.hbm, 1186, rfl⟩
abbrev main_cst_144 : Ref sig .tc := ⟨.hbm, 1187, rfl⟩
abbrev main_v1032 : Ref sig .tc := ⟨.hbm, 1188, rfl⟩
abbrev main_v1033 : Ref sig .tc := ⟨.hbm, 1189, rfl⟩
abbrev main_v1034 : Ref sig .tc := ⟨.hbm, 1190, rfl⟩
abbrev main_v1035 : Ref sig .tc := ⟨.hbm, 1191, rfl⟩
abbrev main_v1036 : Ref sig .tc := ⟨.hbm, 1192, rfl⟩
abbrev main_c_145 : Ref sig .tc := ⟨.hbm, 1193, rfl⟩
abbrev main_v1037 : Ref sig .tc := ⟨.hbm, 1194, rfl⟩
abbrev main_v1038 : Ref sig .tc := ⟨.hbm, 1195, rfl⟩
abbrev main_v1039 : Ref sig .tc := ⟨.hbm, 1196, rfl⟩
abbrev main_v1040 : Ref sig .tc := ⟨.hbm, 1197, rfl⟩
abbrev main_v1041 : Ref sig .tc := ⟨.hbm, 1198, rfl⟩
abbrev main_v1042 : Ref sig .tc := ⟨.hbm, 1199, rfl⟩
abbrev main_v1043 : Ref sig .tc := ⟨.hbm, 1200, rfl⟩
abbrev main_v1044 : Ref sig .tc := ⟨.hbm, 1201, rfl⟩
abbrev main_cst_146 : Ref sig .tc := ⟨.hbm, 1202, rfl⟩
abbrev main_v1045 : Ref sig .tc := ⟨.hbm, 1203, rfl⟩
abbrev main_v1046 : Ref sig .tc := ⟨.hbm, 1204, rfl⟩
abbrev main_v1047 : Ref sig .tc := ⟨.hbm, 1205, rfl⟩
abbrev main_v1048 : Ref sig .tc := ⟨.hbm, 1206, rfl⟩
abbrev main_v1049 : Ref sig .tc := ⟨.hbm, 1207, rfl⟩
abbrev main_v1050 : Ref sig .tc := ⟨.hbm, 1208, rfl⟩
abbrev main_v1051 : Ref sig .tc := ⟨.hbm, 1209, rfl⟩
abbrev main_v1052 : Ref sig .tc := ⟨.hbm, 1210, rfl⟩
abbrev main_v1053 : Ref sig .tc := ⟨.hbm, 1211, rfl⟩
abbrev main_cst_147 : Ref sig .tc := ⟨.hbm, 1212, rfl⟩
abbrev main_v1054 : Ref sig .tc := ⟨.hbm, 1213, rfl⟩
abbrev main_v1055 : Ref sig .tc := ⟨.hbm, 1214, rfl⟩
abbrev main_v1056 : Ref sig .tc := ⟨.hbm, 1215, rfl⟩
abbrev main_v1057 : Ref sig .tc := ⟨.hbm, 1216, rfl⟩
abbrev main_v1058 : Ref sig .tc := ⟨.hbm, 1217, rfl⟩
abbrev main_c_148 : Ref sig .tc := ⟨.hbm, 1218, rfl⟩
abbrev main_v1059 : Ref sig .tc := ⟨.hbm, 1219, rfl⟩
abbrev main_v1060 : Ref sig .tc := ⟨.hbm, 1220, rfl⟩
abbrev main_v1061 : Ref sig .tc := ⟨.hbm, 1221, rfl⟩
abbrev main_v1062 : Ref sig .tc := ⟨.hbm, 1222, rfl⟩
abbrev main_v1063 : Ref sig .tc := ⟨.hbm, 1223, rfl⟩
abbrev main_v1064 : Ref sig .tc := ⟨.hbm, 1224, rfl⟩
abbrev main_v1065 : Ref sig .tc := ⟨.hbm, 1225, rfl⟩
abbrev main_v1066 : Ref sig .tc := ⟨.hbm, 1226, rfl⟩
abbrev main_cst_149 : Ref sig .tc := ⟨.hbm, 1227, rfl⟩
abbrev main_v1067 : Ref sig .tc := ⟨.hbm, 1228, rfl⟩
abbrev main_v1068 : Ref sig .tc := ⟨.hbm, 1229, rfl⟩
abbrev main_v1069 : Ref sig .tc := ⟨.hbm, 1230, rfl⟩
abbrev main_v1070 : Ref sig .tc := ⟨.hbm, 1231, rfl⟩
abbrev main_v1071 : Ref sig .tc := ⟨.hbm, 1232, rfl⟩
abbrev main_v1072 : Ref sig .tc := ⟨.hbm, 1233, rfl⟩
abbrev main_v1073 : Ref sig .tc := ⟨.hbm, 1234, rfl⟩
abbrev main_v1074 : Ref sig .tc := ⟨.hbm, 1235, rfl⟩
abbrev main_v1075 : Ref sig .tc := ⟨.hbm, 1236, rfl⟩
abbrev main_cst_150 : Ref sig .tc := ⟨.hbm, 1237, rfl⟩
abbrev main_v1076 : Ref sig .tc := ⟨.hbm, 1238, rfl⟩
abbrev main_v1077 : Ref sig .tc := ⟨.hbm, 1239, rfl⟩
abbrev main_v1078 : Ref sig .tc := ⟨.hbm, 1240, rfl⟩
abbrev main_v1079 : Ref sig .tc := ⟨.hbm, 1241, rfl⟩
abbrev main_v1080 : Ref sig .tc := ⟨.hbm, 1242, rfl⟩
abbrev main_c_151 : Ref sig .tc := ⟨.hbm, 1243, rfl⟩
abbrev main_v1081 : Ref sig .tc := ⟨.hbm, 1244, rfl⟩
abbrev main_v1082 : Ref sig .tc := ⟨.hbm, 1245, rfl⟩
abbrev main_v1083 : Ref sig .tc := ⟨.hbm, 1246, rfl⟩
abbrev main_v1084 : Ref sig .tc := ⟨.hbm, 1247, rfl⟩
abbrev main_v1085 : Ref sig .tc := ⟨.hbm, 1248, rfl⟩
abbrev main_v1086 : Ref sig .tc := ⟨.hbm, 1249, rfl⟩
abbrev main_v1087 : Ref sig .tc := ⟨.hbm, 1250, rfl⟩
abbrev main_v1088 : Ref sig .tc := ⟨.hbm, 1251, rfl⟩
abbrev main_v1089 : Ref sig .tc := ⟨.hbm, 1252, rfl⟩
abbrev main_v1090 : Ref sig .tc := ⟨.hbm, 1253, rfl⟩
abbrev main_v1091 : Ref sig .tc := ⟨.hbm, 1254, rfl⟩
abbrev main_v1092 : Ref sig .tc := ⟨.hbm, 1255, rfl⟩
abbrev main_v1093 : Ref sig .tc := ⟨.hbm, 1256, rfl⟩
abbrev main_v1094 : Ref sig .tc := ⟨.hbm, 1257, rfl⟩
abbrev main_v1095 : Ref sig .tc := ⟨.hbm, 1258, rfl⟩
abbrev main_v1096 : Ref sig .tc := ⟨.hbm, 1259, rfl⟩
abbrev main_v1097 : Ref sig .tc := ⟨.hbm, 1260, rfl⟩
abbrev main_v1098 : Ref sig .tc := ⟨.hbm, 1261, rfl⟩
abbrev main_v1099 : Ref sig .tc := ⟨.hbm, 1262, rfl⟩
abbrev main_v1100 : Ref sig .tc := ⟨.hbm, 1263, rfl⟩
abbrev main_v1101 : Ref sig .tc := ⟨.hbm, 1264, rfl⟩
abbrev main_v1102 : Ref sig .tc := ⟨.hbm, 1265, rfl⟩
abbrev main_v1103 : Ref sig .tc := ⟨.hbm, 1266, rfl⟩
abbrev main_v1104 : Ref sig .tc := ⟨.hbm, 1267, rfl⟩
abbrev main_v1105 : Ref sig .tc := ⟨.hbm, 1268, rfl⟩
abbrev main_v1106 : Ref sig .tc := ⟨.hbm, 1269, rfl⟩
abbrev main_v1107 : Ref sig .tc := ⟨.hbm, 1270, rfl⟩
abbrev main_v1108 : Ref sig .tc := ⟨.hbm, 1271, rfl⟩
abbrev main_cst_152 : Ref sig .tc := ⟨.hbm, 1272, rfl⟩
abbrev main_v1109 : Ref sig .tc := ⟨.hbm, 1273, rfl⟩
abbrev main_cst_153 : Ref sig .tc := ⟨.hbm, 1274, rfl⟩
abbrev main_v1110 : Ref sig .tc := ⟨.hbm, 1275, rfl⟩
abbrev main_v1111 : Ref sig .tc := ⟨.hbm, 1276, rfl⟩
abbrev main_v1112 : Ref sig .tc := ⟨.hbm, 1277, rfl⟩
abbrev main_v1113 : Ref sig .tc := ⟨.hbm, 1278, rfl⟩
abbrev main_v1114 : Ref sig .tc := ⟨.hbm, 1279, rfl⟩
abbrev main_v1115 : Ref sig .tc := ⟨.hbm, 1280, rfl⟩
abbrev main_v1116 : Ref sig .tc := ⟨.hbm, 1281, rfl⟩
abbrev main_v1117 : Ref sig .tc := ⟨.hbm, 1282, rfl⟩
abbrev main_v1118 : Ref sig .tc := ⟨.hbm, 1283, rfl⟩
abbrev main_v1119 : Ref sig .tc := ⟨.hbm, 1284, rfl⟩
abbrev main_v1120 : Ref sig .tc := ⟨.hbm, 1285, rfl⟩
abbrev main_cst_154 : Ref sig .tc := ⟨.hbm, 1286, rfl⟩
abbrev main_v1121 : Ref sig .tc := ⟨.hbm, 1287, rfl⟩
abbrev main_v1122 : Ref sig .tc := ⟨.hbm, 1288, rfl⟩
abbrev main_v1123 : Ref sig .tc := ⟨.hbm, 1289, rfl⟩
abbrev main_v1124 : Ref sig .tc := ⟨.hbm, 1290, rfl⟩
abbrev main_v1125 : Ref sig .tc := ⟨.hbm, 1291, rfl⟩
abbrev main_v1126 : Ref sig .tc := ⟨.hbm, 1292, rfl⟩
abbrev main_v1127 : Ref sig .tc := ⟨.hbm, 1293, rfl⟩
abbrev main_v1128 : Ref sig .tc := ⟨.hbm, 1294, rfl⟩
abbrev main_v1129 : Ref sig .tc := ⟨.hbm, 1295, rfl⟩
abbrev main_cst_155 : Ref sig .tc := ⟨.hbm, 1296, rfl⟩
abbrev main_v1130 : Ref sig .tc := ⟨.hbm, 1297, rfl⟩
abbrev main_v1131 : Ref sig .tc := ⟨.hbm, 1298, rfl⟩
abbrev main_v1132 : Ref sig .tc := ⟨.hbm, 1299, rfl⟩
abbrev main_v1133 : Ref sig .tc := ⟨.hbm, 1300, rfl⟩
abbrev main_v1134 : Ref sig .tc := ⟨.hbm, 1301, rfl⟩
abbrev main_c_156 : Ref sig .tc := ⟨.hbm, 1302, rfl⟩
abbrev main_v1135 : Ref sig .tc := ⟨.hbm, 1303, rfl⟩
abbrev main_v1136 : Ref sig .tc := ⟨.hbm, 1304, rfl⟩
abbrev main_v1137 : Ref sig .tc := ⟨.hbm, 1305, rfl⟩
abbrev main_v1138 : Ref sig .tc := ⟨.hbm, 1306, rfl⟩
abbrev main_v1139 : Ref sig .tc := ⟨.hbm, 1307, rfl⟩
abbrev main_v1140 : Ref sig .tc := ⟨.hbm, 1308, rfl⟩
abbrev main_v1141 : Ref sig .tc := ⟨.hbm, 1309, rfl⟩
abbrev main_v1142 : Ref sig .tc := ⟨.hbm, 1310, rfl⟩
abbrev main_cst_157 : Ref sig .tc := ⟨.hbm, 1311, rfl⟩
abbrev main_v1143 : Ref sig .tc := ⟨.hbm, 1312, rfl⟩
abbrev main_v1144 : Ref sig .tc := ⟨.hbm, 1313, rfl⟩
abbrev main_v1145 : Ref sig .tc := ⟨.hbm, 1314, rfl⟩
abbrev main_v1146 : Ref sig .tc := ⟨.hbm, 1315, rfl⟩
abbrev main_v1147 : Ref sig .tc := ⟨.hbm, 1316, rfl⟩
abbrev main_v1148 : Ref sig .tc := ⟨.hbm, 1317, rfl⟩
abbrev main_v1149 : Ref sig .tc := ⟨.hbm, 1318, rfl⟩
abbrev main_v1150 : Ref sig .tc := ⟨.hbm, 1319, rfl⟩
abbrev main_v1151 : Ref sig .tc := ⟨.hbm, 1320, rfl⟩
abbrev main_cst_158 : Ref sig .tc := ⟨.hbm, 1321, rfl⟩
abbrev main_v1152 : Ref sig .tc := ⟨.hbm, 1322, rfl⟩
abbrev main_v1153 : Ref sig .tc := ⟨.hbm, 1323, rfl⟩
abbrev main_v1154 : Ref sig .tc := ⟨.hbm, 1324, rfl⟩
abbrev main_v1155 : Ref sig .tc := ⟨.hbm, 1325, rfl⟩
abbrev main_v1156 : Ref sig .tc := ⟨.hbm, 1326, rfl⟩
abbrev main_c_159 : Ref sig .tc := ⟨.hbm, 1327, rfl⟩
abbrev main_v1157 : Ref sig .tc := ⟨.hbm, 1328, rfl⟩
abbrev main_v1158 : Ref sig .tc := ⟨.hbm, 1329, rfl⟩
abbrev main_v1159 : Ref sig .tc := ⟨.hbm, 1330, rfl⟩
abbrev main_v1160 : Ref sig .tc := ⟨.hbm, 1331, rfl⟩
abbrev main_v1161 : Ref sig .tc := ⟨.hbm, 1332, rfl⟩
abbrev main_v1162 : Ref sig .tc := ⟨.hbm, 1333, rfl⟩
abbrev main_v1163 : Ref sig .tc := ⟨.hbm, 1334, rfl⟩
abbrev main_v1164 : Ref sig .tc := ⟨.hbm, 1335, rfl⟩
abbrev main_cst_160 : Ref sig .tc := ⟨.hbm, 1336, rfl⟩
abbrev main_v1165 : Ref sig .tc := ⟨.hbm, 1337, rfl⟩
abbrev main_v1166 : Ref sig .tc := ⟨.hbm, 1338, rfl⟩
abbrev main_v1167 : Ref sig .tc := ⟨.hbm, 1339, rfl⟩
abbrev main_v1168 : Ref sig .tc := ⟨.hbm, 1340, rfl⟩
abbrev main_v1169 : Ref sig .tc := ⟨.hbm, 1341, rfl⟩
abbrev main_v1170 : Ref sig .tc := ⟨.hbm, 1342, rfl⟩
abbrev main_v1171 : Ref sig .tc := ⟨.hbm, 1343, rfl⟩
abbrev main_v1172 : Ref sig .tc := ⟨.hbm, 1344, rfl⟩
abbrev main_v1173 : Ref sig .tc := ⟨.hbm, 1345, rfl⟩
abbrev main_cst_161 : Ref sig .tc := ⟨.hbm, 1346, rfl⟩
abbrev main_v1174 : Ref sig .tc := ⟨.hbm, 1347, rfl⟩
abbrev main_v1175 : Ref sig .tc := ⟨.hbm, 1348, rfl⟩
abbrev main_v1176 : Ref sig .tc := ⟨.hbm, 1349, rfl⟩
abbrev main_v1177 : Ref sig .tc := ⟨.hbm, 1350, rfl⟩
abbrev main_v1178 : Ref sig .tc := ⟨.hbm, 1351, rfl⟩
abbrev main_c_162 : Ref sig .tc := ⟨.hbm, 1352, rfl⟩
abbrev main_v1179 : Ref sig .tc := ⟨.hbm, 1353, rfl⟩
abbrev main_v1180 : Ref sig .tc := ⟨.hbm, 1354, rfl⟩
abbrev main_v1181 : Ref sig .tc := ⟨.hbm, 1355, rfl⟩
abbrev main_v1182 : Ref sig .tc := ⟨.hbm, 1356, rfl⟩
abbrev main_v1183 : Ref sig .tc := ⟨.hbm, 1357, rfl⟩
abbrev main_v1184 : Ref sig .tc := ⟨.hbm, 1358, rfl⟩
abbrev main_v1185 : Ref sig .tc := ⟨.hbm, 1359, rfl⟩
abbrev main_v1186 : Ref sig .tc := ⟨.hbm, 1360, rfl⟩
abbrev main_cst_163 : Ref sig .tc := ⟨.hbm, 1361, rfl⟩
abbrev main_v1187 : Ref sig .tc := ⟨.hbm, 1362, rfl⟩
abbrev main_v1188 : Ref sig .tc := ⟨.hbm, 1363, rfl⟩
abbrev main_v1189 : Ref sig .tc := ⟨.hbm, 1364, rfl⟩
abbrev main_v1190 : Ref sig .tc := ⟨.hbm, 1365, rfl⟩
abbrev main_v1191 : Ref sig .tc := ⟨.hbm, 1366, rfl⟩
abbrev main_v1192 : Ref sig .tc := ⟨.hbm, 1367, rfl⟩
abbrev main_v1193 : Ref sig .tc := ⟨.hbm, 1368, rfl⟩
abbrev main_v1194 : Ref sig .tc := ⟨.hbm, 1369, rfl⟩
abbrev main_v1195 : Ref sig .tc := ⟨.hbm, 1370, rfl⟩
abbrev main_cst_164 : Ref sig .tc := ⟨.hbm, 1371, rfl⟩
abbrev main_v1196 : Ref sig .tc := ⟨.hbm, 1372, rfl⟩
abbrev main_v1197 : Ref sig .tc := ⟨.hbm, 1373, rfl⟩
abbrev main_v1198 : Ref sig .tc := ⟨.hbm, 1374, rfl⟩
abbrev main_v1199 : Ref sig .tc := ⟨.hbm, 1375, rfl⟩
abbrev main_v1200 : Ref sig .tc := ⟨.hbm, 1376, rfl⟩
abbrev main_c_165 : Ref sig .tc := ⟨.hbm, 1377, rfl⟩
abbrev main_v1201 : Ref sig .tc := ⟨.hbm, 1378, rfl⟩
abbrev main_v1202 : Ref sig .tc := ⟨.hbm, 1379, rfl⟩
abbrev main_v1203 : Ref sig .tc := ⟨.hbm, 1380, rfl⟩
abbrev main_v1204 : Ref sig .tc := ⟨.hbm, 1381, rfl⟩
abbrev main_cst_166 : Ref sig .tc := ⟨.hbm, 1382, rfl⟩
abbrev main_v1205 : Ref sig .tc := ⟨.hbm, 1383, rfl⟩
abbrev main_v1206 : Ref sig .tc := ⟨.hbm, 1384, rfl⟩
abbrev main_v1207 : Ref sig .tc := ⟨.hbm, 1385, rfl⟩
abbrev main_c_167 : Ref sig .tc := ⟨.hbm, 1386, rfl⟩
abbrev main_v1208 : Ref sig .tc := ⟨.hbm, 1387, rfl⟩
abbrev main_v1209 : Ref sig .tc := ⟨.hbm, 1388, rfl⟩
abbrev main_cst_168 : Ref sig .tc := ⟨.hbm, 1389, rfl⟩
abbrev main_v1210 : Ref sig .tc := ⟨.hbm, 1390, rfl⟩
abbrev main_cst_169 : Ref sig .tc := ⟨.hbm, 1391, rfl⟩
abbrev main_v1211 : Ref sig .tc := ⟨.hbm, 1392, rfl⟩
abbrev main_v1212 : Ref sig .tc := ⟨.hbm, 1393, rfl⟩
abbrev main_v1213 : Ref sig .tc := ⟨.hbm, 1394, rfl⟩
abbrev main_v1214 : Ref sig .tc := ⟨.hbm, 1395, rfl⟩
abbrev main_v1215 : Ref sig .tc := ⟨.hbm, 1396, rfl⟩
abbrev main_v1216 : Ref sig .tc := ⟨.hbm, 1397, rfl⟩
abbrev main_v1217 : Ref sig .tc := ⟨.hbm, 1398, rfl⟩
abbrev main_v1218 : Ref sig .tc := ⟨.hbm, 1399, rfl⟩
abbrev main_v1219 : Ref sig .tc := ⟨.hbm, 1400, rfl⟩
abbrev main_v1220 : Ref sig .tc := ⟨.hbm, 1401, rfl⟩
abbrev main_v1221 : Ref sig .tc := ⟨.hbm, 1402, rfl⟩
abbrev main_v1222 : Ref sig .tc := ⟨.hbm, 1403, rfl⟩
abbrev main_v1223 : Ref sig .tc := ⟨.hbm, 1404, rfl⟩
abbrev main_cst_170 : Ref sig .tc := ⟨.hbm, 1405, rfl⟩
abbrev main_v1224 : Ref sig .tc := ⟨.hbm, 1406, rfl⟩
abbrev main_cst_171 : Ref sig .tc := ⟨.hbm, 1407, rfl⟩
abbrev main_v1225 : Ref sig .tc := ⟨.hbm, 1408, rfl⟩
abbrev main_v1226 : Ref sig .tc := ⟨.hbm, 1409, rfl⟩
abbrev main_v1227 : Ref sig .tc := ⟨.hbm, 1410, rfl⟩
abbrev main_v1228 : Ref sig .tc := ⟨.hbm, 1411, rfl⟩
abbrev main_v1229 : Ref sig .tc := ⟨.hbm, 1412, rfl⟩
abbrev main_v1230 : Ref sig .tc := ⟨.hbm, 1413, rfl⟩
abbrev main_v1231 : Ref sig .tc := ⟨.hbm, 1414, rfl⟩
abbrev main_cst_172 : Ref sig .tc := ⟨.hbm, 1415, rfl⟩
abbrev main_v1232 : Ref sig .tc := ⟨.hbm, 1416, rfl⟩
abbrev main_v1233 : Ref sig .tc := ⟨.hbm, 1417, rfl⟩
abbrev main_v1234 : Ref sig .tc := ⟨.hbm, 1418, rfl⟩
abbrev main_c_173 : Ref sig .tc := ⟨.hbm, 1419, rfl⟩
abbrev main_v1235 : Ref sig .tc := ⟨.hbm, 1420, rfl⟩
abbrev main_v1236 : Ref sig .tc := ⟨.hbm, 1421, rfl⟩
abbrev main_v1237 : Ref sig .tc := ⟨.hbm, 1422, rfl⟩
abbrev main_v1238 : Ref sig .tc := ⟨.hbm, 1423, rfl⟩
abbrev main_v1239 : Ref sig .tc := ⟨.hbm, 1424, rfl⟩
abbrev main_v1240 : Ref sig .tc := ⟨.hbm, 1425, rfl⟩
abbrev main_v1241 : Ref sig .tc := ⟨.hbm, 1426, rfl⟩
abbrev main_v1242 : Ref sig .tc := ⟨.hbm, 1427, rfl⟩
abbrev main_cst_174 : Ref sig .tc := ⟨.hbm, 1428, rfl⟩
abbrev main_v1243 : Ref sig .tc := ⟨.hbm, 1429, rfl⟩
abbrev main_v1244 : Ref sig .tc := ⟨.hbm, 1430, rfl⟩
abbrev main_v1245 : Ref sig .tc := ⟨.hbm, 1431, rfl⟩
abbrev main_v1246 : Ref sig .tc := ⟨.hbm, 1432, rfl⟩
abbrev main_v1247 : Ref sig .tc := ⟨.hbm, 1433, rfl⟩
abbrev main_v1248 : Ref sig .tc := ⟨.hbm, 1434, rfl⟩
abbrev main_v1249 : Ref sig .tc := ⟨.hbm, 1435, rfl⟩
abbrev main_v1250 : Ref sig .tc := ⟨.hbm, 1436, rfl⟩
abbrev main_v1251 : Ref sig .tc := ⟨.hbm, 1437, rfl⟩
abbrev main_cst_175 : Ref sig .tc := ⟨.hbm, 1438, rfl⟩
abbrev main_v1252 : Ref sig .tc := ⟨.hbm, 1439, rfl⟩
abbrev main_v1253 : Ref sig .tc := ⟨.hbm, 1440, rfl⟩
abbrev main_v1254 : Ref sig .tc := ⟨.hbm, 1441, rfl⟩
abbrev main_v1255 : Ref sig .tc := ⟨.hbm, 1442, rfl⟩
abbrev main_v1256 : Ref sig .tc := ⟨.hbm, 1443, rfl⟩
abbrev main_c_176 : Ref sig .tc := ⟨.hbm, 1444, rfl⟩
abbrev main_v1257 : Ref sig .tc := ⟨.hbm, 1445, rfl⟩
abbrev main_v1258 : Ref sig .tc := ⟨.hbm, 1446, rfl⟩
abbrev main_v1259 : Ref sig .tc := ⟨.hbm, 1447, rfl⟩
abbrev main_v1260 : Ref sig .tc := ⟨.hbm, 1448, rfl⟩
abbrev main_v1261 : Ref sig .tc := ⟨.hbm, 1449, rfl⟩
abbrev main_v1262 : Ref sig .tc := ⟨.hbm, 1450, rfl⟩
abbrev main_v1263 : Ref sig .tc := ⟨.hbm, 1451, rfl⟩
abbrev main_v1264 : Ref sig .tc := ⟨.hbm, 1452, rfl⟩
abbrev main_cst_177 : Ref sig .tc := ⟨.hbm, 1453, rfl⟩
abbrev main_v1265 : Ref sig .tc := ⟨.hbm, 1454, rfl⟩
abbrev main_v1266 : Ref sig .tc := ⟨.hbm, 1455, rfl⟩
abbrev main_v1267 : Ref sig .tc := ⟨.hbm, 1456, rfl⟩
abbrev main_v1268 : Ref sig .tc := ⟨.hbm, 1457, rfl⟩
abbrev main_v1269 : Ref sig .tc := ⟨.hbm, 1458, rfl⟩
abbrev main_v1270 : Ref sig .tc := ⟨.hbm, 1459, rfl⟩
abbrev main_v1271 : Ref sig .tc := ⟨.hbm, 1460, rfl⟩
abbrev main_v1272 : Ref sig .tc := ⟨.hbm, 1461, rfl⟩
abbrev main_v1273 : Ref sig .tc := ⟨.hbm, 1462, rfl⟩
abbrev main_cst_178 : Ref sig .tc := ⟨.hbm, 1463, rfl⟩
abbrev main_v1274 : Ref sig .tc := ⟨.hbm, 1464, rfl⟩
abbrev main_v1275 : Ref sig .tc := ⟨.hbm, 1465, rfl⟩
abbrev main_v1276 : Ref sig .tc := ⟨.hbm, 1466, rfl⟩
abbrev main_v1277 : Ref sig .tc := ⟨.hbm, 1467, rfl⟩
abbrev main_v1278 : Ref sig .tc := ⟨.hbm, 1468, rfl⟩
abbrev main_c_179 : Ref sig .tc := ⟨.hbm, 1469, rfl⟩
abbrev main_v1279 : Ref sig .tc := ⟨.hbm, 1470, rfl⟩
abbrev main_v1280 : Ref sig .tc := ⟨.hbm, 1471, rfl⟩
abbrev main_v1281 : Ref sig .tc := ⟨.hbm, 1472, rfl⟩
abbrev main_v1282 : Ref sig .tc := ⟨.hbm, 1473, rfl⟩
abbrev main_v1283 : Ref sig .tc := ⟨.hbm, 1474, rfl⟩
abbrev main_v1284 : Ref sig .tc := ⟨.hbm, 1475, rfl⟩
abbrev main_v1285 : Ref sig .tc := ⟨.hbm, 1476, rfl⟩
abbrev main_v1286 : Ref sig .tc := ⟨.hbm, 1477, rfl⟩
abbrev main_cst_180 : Ref sig .tc := ⟨.hbm, 1478, rfl⟩
abbrev main_v1287 : Ref sig .tc := ⟨.hbm, 1479, rfl⟩
abbrev main_v1288 : Ref sig .tc := ⟨.hbm, 1480, rfl⟩
abbrev main_v1289 : Ref sig .tc := ⟨.hbm, 1481, rfl⟩
abbrev main_v1290 : Ref sig .tc := ⟨.hbm, 1482, rfl⟩
abbrev main_v1291 : Ref sig .tc := ⟨.hbm, 1483, rfl⟩
abbrev main_v1292 : Ref sig .tc := ⟨.hbm, 1484, rfl⟩
abbrev main_v1293 : Ref sig .tc := ⟨.hbm, 1485, rfl⟩
abbrev main_v1294 : Ref sig .tc := ⟨.hbm, 1486, rfl⟩
abbrev main_v1295 : Ref sig .tc := ⟨.hbm, 1487, rfl⟩
abbrev main_cst_181 : Ref sig .tc := ⟨.hbm, 1488, rfl⟩
abbrev main_v1296 : Ref sig .tc := ⟨.hbm, 1489, rfl⟩
abbrev main_v1297 : Ref sig .tc := ⟨.hbm, 1490, rfl⟩
abbrev main_v1298 : Ref sig .tc := ⟨.hbm, 1491, rfl⟩
abbrev main_v1299 : Ref sig .tc := ⟨.hbm, 1492, rfl⟩
abbrev main_v1300 : Ref sig .tc := ⟨.hbm, 1493, rfl⟩
abbrev main_c_182 : Ref sig .tc := ⟨.hbm, 1494, rfl⟩
abbrev main_v1301 : Ref sig .tc := ⟨.hbm, 1495, rfl⟩
abbrev main_v1302 : Ref sig .tc := ⟨.hbm, 1496, rfl⟩
abbrev main_v1303 : Ref sig .tc := ⟨.hbm, 1497, rfl⟩
abbrev main_v1304 : Ref sig .tc := ⟨.hbm, 1498, rfl⟩
abbrev main_v1305 : Ref sig .tc := ⟨.hbm, 1499, rfl⟩
abbrev main_v1306 : Ref sig .tc := ⟨.hbm, 1500, rfl⟩
abbrev main_v1307 : Ref sig .tc := ⟨.hbm, 1501, rfl⟩
abbrev main_v1308 : Ref sig .tc := ⟨.hbm, 1502, rfl⟩
abbrev main_cst_183 : Ref sig .tc := ⟨.hbm, 1503, rfl⟩
abbrev main_v1309 : Ref sig .tc := ⟨.hbm, 1504, rfl⟩
abbrev main_v1310 : Ref sig .tc := ⟨.hbm, 1505, rfl⟩
abbrev main_v1311 : Ref sig .tc := ⟨.hbm, 1506, rfl⟩
abbrev main_v1312 : Ref sig .tc := ⟨.hbm, 1507, rfl⟩
abbrev main_v1313 : Ref sig .tc := ⟨.hbm, 1508, rfl⟩
abbrev main_v1314 : Ref sig .tc := ⟨.hbm, 1509, rfl⟩
abbrev main_v1315 : Ref sig .tc := ⟨.hbm, 1510, rfl⟩
abbrev main_v1316 : Ref sig .tc := ⟨.hbm, 1511, rfl⟩
abbrev main_v1317 : Ref sig .tc := ⟨.hbm, 1512, rfl⟩
abbrev main_cst_184 : Ref sig .tc := ⟨.hbm, 1513, rfl⟩
abbrev main_v1318 : Ref sig .tc := ⟨.hbm, 1514, rfl⟩
abbrev main_v1319 : Ref sig .tc := ⟨.hbm, 1515, rfl⟩
abbrev main_v1320 : Ref sig .tc := ⟨.hbm, 1516, rfl⟩
abbrev main_v1321 : Ref sig .tc := ⟨.hbm, 1517, rfl⟩
abbrev main_v1322 : Ref sig .tc := ⟨.hbm, 1518, rfl⟩
abbrev main_c_185 : Ref sig .tc := ⟨.hbm, 1519, rfl⟩
abbrev main_v1323 : Ref sig .tc := ⟨.hbm, 1520, rfl⟩
abbrev main_v1324 : Ref sig .tc := ⟨.hbm, 1521, rfl⟩
abbrev main_v1325 : Ref sig .tc := ⟨.hbm, 1522, rfl⟩
abbrev main_v1326 : Ref sig .tc := ⟨.hbm, 1523, rfl⟩
abbrev main_v1327 : Ref sig .tc := ⟨.hbm, 1524, rfl⟩
abbrev main_v1328 : Ref sig .tc := ⟨.hbm, 1525, rfl⟩
abbrev main_v1329 : Ref sig .tc := ⟨.hbm, 1526, rfl⟩
abbrev main_v1330 : Ref sig .tc := ⟨.hbm, 1527, rfl⟩
abbrev main_v1331 : Ref sig .tc := ⟨.hbm, 1528, rfl⟩
abbrev main_v1332 : Ref sig .tc := ⟨.hbm, 1529, rfl⟩
abbrev main_v1333 : Ref sig .tc := ⟨.hbm, 1530, rfl⟩
abbrev main_v1334 : Ref sig .tc := ⟨.hbm, 1531, rfl⟩
abbrev main_v1335 : Ref sig .tc := ⟨.hbm, 1532, rfl⟩
abbrev main_v1336 : Ref sig .tc := ⟨.hbm, 1533, rfl⟩
abbrev main_v1337 : Ref sig .tc := ⟨.hbm, 1534, rfl⟩
abbrev main_v1338 : Ref sig .tc := ⟨.hbm, 1535, rfl⟩
abbrev main_v1339 : Ref sig .tc := ⟨.hbm, 1536, rfl⟩
abbrev main_v1340 : Ref sig .tc := ⟨.hbm, 1537, rfl⟩
abbrev main_v1341 : Ref sig .tc := ⟨.hbm, 1538, rfl⟩
abbrev main_v1342 : Ref sig .tc := ⟨.hbm, 1539, rfl⟩
abbrev main_v1343 : Ref sig .tc := ⟨.hbm, 1540, rfl⟩
abbrev main_v1344 : Ref sig .tc := ⟨.hbm, 1541, rfl⟩
abbrev main_v1345 : Ref sig .tc := ⟨.hbm, 1542, rfl⟩
abbrev main_v1346 : Ref sig .tc := ⟨.hbm, 1543, rfl⟩
abbrev main_v1347 : Ref sig .tc := ⟨.hbm, 1544, rfl⟩
abbrev main_v1348 : Ref sig .tc := ⟨.hbm, 1545, rfl⟩
abbrev main_v1349 : Ref sig .tc := ⟨.hbm, 1546, rfl⟩
abbrev main_v1350 : Ref sig .tc := ⟨.hbm, 1547, rfl⟩
abbrev main_cst_186 : Ref sig .tc := ⟨.hbm, 1548, rfl⟩
abbrev main_v1351 : Ref sig .tc := ⟨.hbm, 1549, rfl⟩
abbrev main_cst_187 : Ref sig .tc := ⟨.hbm, 1550, rfl⟩
abbrev main_v1352 : Ref sig .tc := ⟨.hbm, 1551, rfl⟩
abbrev main_v1353 : Ref sig .tc := ⟨.hbm, 1552, rfl⟩
abbrev main_v1354 : Ref sig .tc := ⟨.hbm, 1553, rfl⟩
abbrev main_v1355 : Ref sig .tc := ⟨.hbm, 1554, rfl⟩
abbrev main_v1356 : Ref sig .tc := ⟨.hbm, 1555, rfl⟩
abbrev main_v1357 : Ref sig .tc := ⟨.hbm, 1556, rfl⟩
abbrev main_v1358 : Ref sig .tc := ⟨.hbm, 1557, rfl⟩
abbrev main_v1359 : Ref sig .tc := ⟨.hbm, 1558, rfl⟩
abbrev main_v1360 : Ref sig .tc := ⟨.hbm, 1559, rfl⟩
abbrev main_v1361 : Ref sig .tc := ⟨.hbm, 1560, rfl⟩
abbrev main_v1362 : Ref sig .tc := ⟨.hbm, 1561, rfl⟩
abbrev main_cst_188 : Ref sig .tc := ⟨.hbm, 1562, rfl⟩
abbrev main_v1363 : Ref sig .tc := ⟨.hbm, 1563, rfl⟩
abbrev main_v1364 : Ref sig .tc := ⟨.hbm, 1564, rfl⟩
abbrev main_v1365 : Ref sig .tc := ⟨.hbm, 1565, rfl⟩
abbrev main_v1366 : Ref sig .tc := ⟨.hbm, 1566, rfl⟩
abbrev main_v1367 : Ref sig .tc := ⟨.hbm, 1567, rfl⟩
abbrev main_v1368 : Ref sig .tc := ⟨.hbm, 1568, rfl⟩
abbrev main_v1369 : Ref sig .tc := ⟨.hbm, 1569, rfl⟩
abbrev main_v1370 : Ref sig .tc := ⟨.hbm, 1570, rfl⟩
abbrev main_v1371 : Ref sig .tc := ⟨.hbm, 1571, rfl⟩
abbrev main_cst_189 : Ref sig .tc := ⟨.hbm, 1572, rfl⟩
abbrev main_v1372 : Ref sig .tc := ⟨.hbm, 1573, rfl⟩
abbrev main_v1373 : Ref sig .tc := ⟨.hbm, 1574, rfl⟩
abbrev main_v1374 : Ref sig .tc := ⟨.hbm, 1575, rfl⟩
abbrev main_v1375 : Ref sig .tc := ⟨.hbm, 1576, rfl⟩
abbrev main_v1376 : Ref sig .tc := ⟨.hbm, 1577, rfl⟩
abbrev main_c_190 : Ref sig .tc := ⟨.hbm, 1578, rfl⟩
abbrev main_v1377 : Ref sig .tc := ⟨.hbm, 1579, rfl⟩
abbrev main_v1378 : Ref sig .tc := ⟨.hbm, 1580, rfl⟩
abbrev main_v1379 : Ref sig .tc := ⟨.hbm, 1581, rfl⟩
abbrev main_v1380 : Ref sig .tc := ⟨.hbm, 1582, rfl⟩
abbrev main_v1381 : Ref sig .tc := ⟨.hbm, 1583, rfl⟩
abbrev main_v1382 : Ref sig .tc := ⟨.hbm, 1584, rfl⟩
abbrev main_v1383 : Ref sig .tc := ⟨.hbm, 1585, rfl⟩
abbrev main_v1384 : Ref sig .tc := ⟨.hbm, 1586, rfl⟩
abbrev main_cst_191 : Ref sig .tc := ⟨.hbm, 1587, rfl⟩
abbrev main_v1385 : Ref sig .tc := ⟨.hbm, 1588, rfl⟩
abbrev main_v1386 : Ref sig .tc := ⟨.hbm, 1589, rfl⟩
abbrev main_v1387 : Ref sig .tc := ⟨.hbm, 1590, rfl⟩
abbrev main_v1388 : Ref sig .tc := ⟨.hbm, 1591, rfl⟩
abbrev main_v1389 : Ref sig .tc := ⟨.hbm, 1592, rfl⟩
abbrev main_v1390 : Ref sig .tc := ⟨.hbm, 1593, rfl⟩
abbrev main_v1391 : Ref sig .tc := ⟨.hbm, 1594, rfl⟩
abbrev main_v1392 : Ref sig .tc := ⟨.hbm, 1595, rfl⟩
abbrev main_v1393 : Ref sig .tc := ⟨.hbm, 1596, rfl⟩
abbrev main_cst_192 : Ref sig .tc := ⟨.hbm, 1597, rfl⟩
abbrev main_v1394 : Ref sig .tc := ⟨.hbm, 1598, rfl⟩
abbrev main_v1395 : Ref sig .tc := ⟨.hbm, 1599, rfl⟩
abbrev main_v1396 : Ref sig .tc := ⟨.hbm, 1600, rfl⟩
abbrev main_v1397 : Ref sig .tc := ⟨.hbm, 1601, rfl⟩
abbrev main_v1398 : Ref sig .tc := ⟨.hbm, 1602, rfl⟩
abbrev main_c_193 : Ref sig .tc := ⟨.hbm, 1603, rfl⟩
abbrev main_v1399 : Ref sig .tc := ⟨.hbm, 1604, rfl⟩
abbrev main_v1400 : Ref sig .tc := ⟨.hbm, 1605, rfl⟩
abbrev main_v1401 : Ref sig .tc := ⟨.hbm, 1606, rfl⟩
abbrev main_v1402 : Ref sig .tc := ⟨.hbm, 1607, rfl⟩
abbrev main_v1403 : Ref sig .tc := ⟨.hbm, 1608, rfl⟩
abbrev main_v1404 : Ref sig .tc := ⟨.hbm, 1609, rfl⟩
abbrev main_v1405 : Ref sig .tc := ⟨.hbm, 1610, rfl⟩
abbrev main_v1406 : Ref sig .tc := ⟨.hbm, 1611, rfl⟩
abbrev main_cst_194 : Ref sig .tc := ⟨.hbm, 1612, rfl⟩
abbrev main_v1407 : Ref sig .tc := ⟨.hbm, 1613, rfl⟩
abbrev main_v1408 : Ref sig .tc := ⟨.hbm, 1614, rfl⟩
abbrev main_v1409 : Ref sig .tc := ⟨.hbm, 1615, rfl⟩
abbrev main_v1410 : Ref sig .tc := ⟨.hbm, 1616, rfl⟩
abbrev main_v1411 : Ref sig .tc := ⟨.hbm, 1617, rfl⟩
abbrev main_v1412 : Ref sig .tc := ⟨.hbm, 1618, rfl⟩
abbrev main_v1413 : Ref sig .tc := ⟨.hbm, 1619, rfl⟩
abbrev main_v1414 : Ref sig .tc := ⟨.hbm, 1620, rfl⟩
abbrev main_v1415 : Ref sig .tc := ⟨.hbm, 1621, rfl⟩
abbrev main_cst_195 : Ref sig .tc := ⟨.hbm, 1622, rfl⟩
abbrev main_v1416 : Ref sig .tc := ⟨.hbm, 1623, rfl⟩
abbrev main_v1417 : Ref sig .tc := ⟨.hbm, 1624, rfl⟩
abbrev main_v1418 : Ref sig .tc := ⟨.hbm, 1625, rfl⟩
abbrev main_v1419 : Ref sig .tc := ⟨.hbm, 1626, rfl⟩
abbrev main_v1420 : Ref sig .tc := ⟨.hbm, 1627, rfl⟩
abbrev main_c_196 : Ref sig .tc := ⟨.hbm, 1628, rfl⟩
abbrev main_v1421 : Ref sig .tc := ⟨.hbm, 1629, rfl⟩
abbrev main_v1422 : Ref sig .tc := ⟨.hbm, 1630, rfl⟩
abbrev main_v1423 : Ref sig .tc := ⟨.hbm, 1631, rfl⟩
abbrev main_v1424 : Ref sig .tc := ⟨.hbm, 1632, rfl⟩
abbrev main_v1425 : Ref sig .tc := ⟨.hbm, 1633, rfl⟩
abbrev main_v1426 : Ref sig .tc := ⟨.hbm, 1634, rfl⟩
abbrev main_v1427 : Ref sig .tc := ⟨.hbm, 1635, rfl⟩
abbrev main_v1428 : Ref sig .tc := ⟨.hbm, 1636, rfl⟩
abbrev main_cst_197 : Ref sig .tc := ⟨.hbm, 1637, rfl⟩
abbrev main_v1429 : Ref sig .tc := ⟨.hbm, 1638, rfl⟩
abbrev main_v1430 : Ref sig .tc := ⟨.hbm, 1639, rfl⟩
abbrev main_v1431 : Ref sig .tc := ⟨.hbm, 1640, rfl⟩
abbrev main_v1432 : Ref sig .tc := ⟨.hbm, 1641, rfl⟩
abbrev main_v1433 : Ref sig .tc := ⟨.hbm, 1642, rfl⟩
abbrev main_v1434 : Ref sig .tc := ⟨.hbm, 1643, rfl⟩
abbrev main_v1435 : Ref sig .tc := ⟨.hbm, 1644, rfl⟩
abbrev main_v1436 : Ref sig .tc := ⟨.hbm, 1645, rfl⟩
abbrev main_v1437 : Ref sig .tc := ⟨.hbm, 1646, rfl⟩
abbrev main_cst_198 : Ref sig .tc := ⟨.hbm, 1647, rfl⟩
abbrev main_v1438 : Ref sig .tc := ⟨.hbm, 1648, rfl⟩
abbrev main_v1439 : Ref sig .tc := ⟨.hbm, 1649, rfl⟩
abbrev main_v1440 : Ref sig .tc := ⟨.hbm, 1650, rfl⟩
abbrev main_v1441 : Ref sig .tc := ⟨.hbm, 1651, rfl⟩
abbrev main_v1442 : Ref sig .tc := ⟨.hbm, 1652, rfl⟩
abbrev main_c_199 : Ref sig .tc := ⟨.hbm, 1653, rfl⟩
abbrev main_v1443 : Ref sig .tc := ⟨.hbm, 1654, rfl⟩
abbrev main_v1444 : Ref sig .tc := ⟨.hbm, 1655, rfl⟩
abbrev main_v1445 : Ref sig .tc := ⟨.hbm, 1656, rfl⟩
abbrev main_v1446 : Ref sig .tc := ⟨.hbm, 1657, rfl⟩
abbrev main_cst_200 : Ref sig .tc := ⟨.hbm, 1658, rfl⟩
abbrev main_v1447 : Ref sig .tc := ⟨.hbm, 1659, rfl⟩
abbrev main_v1448 : Ref sig .tc := ⟨.hbm, 1660, rfl⟩
abbrev main_v1449 : Ref sig .tc := ⟨.hbm, 1661, rfl⟩
abbrev main_c_201 : Ref sig .tc := ⟨.hbm, 1662, rfl⟩
abbrev main_v1450 : Ref sig .tc := ⟨.hbm, 1663, rfl⟩
abbrev main_v1451 : Ref sig .tc := ⟨.hbm, 1664, rfl⟩
abbrev main_cst_202 : Ref sig .tc := ⟨.hbm, 1665, rfl⟩
abbrev main_v1452 : Ref sig .tc := ⟨.hbm, 1666, rfl⟩
abbrev main_cst_203 : Ref sig .tc := ⟨.hbm, 1667, rfl⟩
abbrev main_v1453 : Ref sig .tc := ⟨.hbm, 1668, rfl⟩
abbrev main_v1454 : Ref sig .tc := ⟨.hbm, 1669, rfl⟩
abbrev main_v1455 : Ref sig .tc := ⟨.hbm, 1670, rfl⟩
abbrev main_v1456 : Ref sig .tc := ⟨.hbm, 1671, rfl⟩
abbrev main_v1457 : Ref sig .tc := ⟨.hbm, 1672, rfl⟩
abbrev main_v1458 : Ref sig .tc := ⟨.hbm, 1673, rfl⟩
abbrev main_v1459 : Ref sig .tc := ⟨.hbm, 1674, rfl⟩
abbrev main_v1460 : Ref sig .tc := ⟨.hbm, 1675, rfl⟩
abbrev main_v1461 : Ref sig .tc := ⟨.hbm, 1676, rfl⟩
abbrev main_v1462 : Ref sig .tc := ⟨.hbm, 1677, rfl⟩
abbrev main_v1463 : Ref sig .tc := ⟨.hbm, 1678, rfl⟩
abbrev main_v1464 : Ref sig .tc := ⟨.hbm, 1679, rfl⟩
abbrev main_v1465 : Ref sig .tc := ⟨.hbm, 1680, rfl⟩
abbrev main_cst_204 : Ref sig .tc := ⟨.hbm, 1681, rfl⟩
abbrev main_v1466 : Ref sig .tc := ⟨.hbm, 1682, rfl⟩
abbrev main_cst_205 : Ref sig .tc := ⟨.hbm, 1683, rfl⟩
abbrev main_v1467 : Ref sig .tc := ⟨.hbm, 1684, rfl⟩
abbrev main_v1468 : Ref sig .tc := ⟨.hbm, 1685, rfl⟩
abbrev main_v1469 : Ref sig .tc := ⟨.hbm, 1686, rfl⟩
abbrev main_v1470 : Ref sig .tc := ⟨.hbm, 1687, rfl⟩
abbrev main_v1471 : Ref sig .tc := ⟨.hbm, 1688, rfl⟩
abbrev main_v1472 : Ref sig .tc := ⟨.hbm, 1689, rfl⟩
abbrev main_v1473 : Ref sig .tc := ⟨.hbm, 1690, rfl⟩
abbrev main_cst_206 : Ref sig .tc := ⟨.hbm, 1691, rfl⟩
abbrev main_v1474 : Ref sig .tc := ⟨.hbm, 1692, rfl⟩
abbrev main_v1475 : Ref sig .tc := ⟨.hbm, 1693, rfl⟩
abbrev main_v1476 : Ref sig .tc := ⟨.hbm, 1694, rfl⟩
abbrev main_c_207 : Ref sig .tc := ⟨.hbm, 1695, rfl⟩
abbrev main_v1477 : Ref sig .tc := ⟨.hbm, 1696, rfl⟩
abbrev main_v1478 : Ref sig .tc := ⟨.hbm, 1697, rfl⟩
abbrev main_v1479 : Ref sig .tc := ⟨.hbm, 1698, rfl⟩
abbrev main_v1480 : Ref sig .tc := ⟨.hbm, 1699, rfl⟩
abbrev main_v1481 : Ref sig .tc := ⟨.hbm, 1700, rfl⟩
abbrev main_v1482 : Ref sig .tc := ⟨.hbm, 1701, rfl⟩
abbrev main_v1483 : Ref sig .tc := ⟨.hbm, 1702, rfl⟩
abbrev main_v1484 : Ref sig .tc := ⟨.hbm, 1703, rfl⟩
abbrev main_cst_208 : Ref sig .tc := ⟨.hbm, 1704, rfl⟩
abbrev main_v1485 : Ref sig .tc := ⟨.hbm, 1705, rfl⟩
abbrev main_v1486 : Ref sig .tc := ⟨.hbm, 1706, rfl⟩
abbrev main_v1487 : Ref sig .tc := ⟨.hbm, 1707, rfl⟩
abbrev main_v1488 : Ref sig .tc := ⟨.hbm, 1708, rfl⟩
abbrev main_v1489 : Ref sig .tc := ⟨.hbm, 1709, rfl⟩
abbrev main_v1490 : Ref sig .tc := ⟨.hbm, 1710, rfl⟩
abbrev main_v1491 : Ref sig .tc := ⟨.hbm, 1711, rfl⟩
abbrev main_v1492 : Ref sig .tc := ⟨.hbm, 1712, rfl⟩
abbrev main_v1493 : Ref sig .tc := ⟨.hbm, 1713, rfl⟩
abbrev main_cst_209 : Ref sig .tc := ⟨.hbm, 1714, rfl⟩
abbrev main_v1494 : Ref sig .tc := ⟨.hbm, 1715, rfl⟩
abbrev main_v1495 : Ref sig .tc := ⟨.hbm, 1716, rfl⟩
abbrev main_v1496 : Ref sig .tc := ⟨.hbm, 1717, rfl⟩
abbrev main_v1497 : Ref sig .tc := ⟨.hbm, 1718, rfl⟩
abbrev main_v1498 : Ref sig .tc := ⟨.hbm, 1719, rfl⟩
abbrev main_c_210 : Ref sig .tc := ⟨.hbm, 1720, rfl⟩
abbrev main_v1499 : Ref sig .tc := ⟨.hbm, 1721, rfl⟩
abbrev main_v1500 : Ref sig .tc := ⟨.hbm, 1722, rfl⟩
abbrev main_v1501 : Ref sig .tc := ⟨.hbm, 1723, rfl⟩
abbrev main_v1502 : Ref sig .tc := ⟨.hbm, 1724, rfl⟩
abbrev main_v1503 : Ref sig .tc := ⟨.hbm, 1725, rfl⟩
abbrev main_v1504 : Ref sig .tc := ⟨.hbm, 1726, rfl⟩
abbrev main_v1505 : Ref sig .tc := ⟨.hbm, 1727, rfl⟩
abbrev main_v1506 : Ref sig .tc := ⟨.hbm, 1728, rfl⟩
abbrev main_cst_211 : Ref sig .tc := ⟨.hbm, 1729, rfl⟩
abbrev main_v1507 : Ref sig .tc := ⟨.hbm, 1730, rfl⟩
abbrev main_v1508 : Ref sig .tc := ⟨.hbm, 1731, rfl⟩
abbrev main_v1509 : Ref sig .tc := ⟨.hbm, 1732, rfl⟩
abbrev main_v1510 : Ref sig .tc := ⟨.hbm, 1733, rfl⟩
abbrev main_v1511 : Ref sig .tc := ⟨.hbm, 1734, rfl⟩
abbrev main_v1512 : Ref sig .tc := ⟨.hbm, 1735, rfl⟩
abbrev main_v1513 : Ref sig .tc := ⟨.hbm, 1736, rfl⟩
abbrev main_v1514 : Ref sig .tc := ⟨.hbm, 1737, rfl⟩
abbrev main_v1515 : Ref sig .tc := ⟨.hbm, 1738, rfl⟩
abbrev main_cst_212 : Ref sig .tc := ⟨.hbm, 1739, rfl⟩
abbrev main_v1516 : Ref sig .tc := ⟨.hbm, 1740, rfl⟩
abbrev main_v1517 : Ref sig .tc := ⟨.hbm, 1741, rfl⟩
abbrev main_v1518 : Ref sig .tc := ⟨.hbm, 1742, rfl⟩
abbrev main_v1519 : Ref sig .tc := ⟨.hbm, 1743, rfl⟩
abbrev main_v1520 : Ref sig .tc := ⟨.hbm, 1744, rfl⟩
abbrev main_c_213 : Ref sig .tc := ⟨.hbm, 1745, rfl⟩
abbrev main_v1521 : Ref sig .tc := ⟨.hbm, 1746, rfl⟩
abbrev main_v1522 : Ref sig .tc := ⟨.hbm, 1747, rfl⟩
abbrev main_v1523 : Ref sig .tc := ⟨.hbm, 1748, rfl⟩
abbrev main_v1524 : Ref sig .tc := ⟨.hbm, 1749, rfl⟩
abbrev main_v1525 : Ref sig .tc := ⟨.hbm, 1750, rfl⟩
abbrev main_v1526 : Ref sig .tc := ⟨.hbm, 1751, rfl⟩
abbrev main_v1527 : Ref sig .tc := ⟨.hbm, 1752, rfl⟩
abbrev main_v1528 : Ref sig .tc := ⟨.hbm, 1753, rfl⟩
abbrev main_cst_214 : Ref sig .tc := ⟨.hbm, 1754, rfl⟩
abbrev main_v1529 : Ref sig .tc := ⟨.hbm, 1755, rfl⟩
abbrev main_v1530 : Ref sig .tc := ⟨.hbm, 1756, rfl⟩
abbrev main_v1531 : Ref sig .tc := ⟨.hbm, 1757, rfl⟩
abbrev main_v1532 : Ref sig .tc := ⟨.hbm, 1758, rfl⟩
abbrev main_v1533 : Ref sig .tc := ⟨.hbm, 1759, rfl⟩
abbrev main_v1534 : Ref sig .tc := ⟨.hbm, 1760, rfl⟩
abbrev main_v1535 : Ref sig .tc := ⟨.hbm, 1761, rfl⟩
abbrev main_v1536 : Ref sig .tc := ⟨.hbm, 1762, rfl⟩
abbrev main_v1537 : Ref sig .tc := ⟨.hbm, 1763, rfl⟩
abbrev main_cst_215 : Ref sig .tc := ⟨.hbm, 1764, rfl⟩
abbrev main_v1538 : Ref sig .tc := ⟨.hbm, 1765, rfl⟩
abbrev main_v1539 : Ref sig .tc := ⟨.hbm, 1766, rfl⟩
abbrev main_v1540 : Ref sig .tc := ⟨.hbm, 1767, rfl⟩
abbrev main_v1541 : Ref sig .tc := ⟨.hbm, 1768, rfl⟩
abbrev main_v1542 : Ref sig .tc := ⟨.hbm, 1769, rfl⟩
abbrev main_c_216 : Ref sig .tc := ⟨.hbm, 1770, rfl⟩
abbrev main_v1543 : Ref sig .tc := ⟨.hbm, 1771, rfl⟩
abbrev main_v1544 : Ref sig .tc := ⟨.hbm, 1772, rfl⟩
abbrev main_v1545 : Ref sig .tc := ⟨.hbm, 1773, rfl⟩
abbrev main_v1546 : Ref sig .tc := ⟨.hbm, 1774, rfl⟩
abbrev main_v1547 : Ref sig .tc := ⟨.hbm, 1775, rfl⟩
abbrev main_v1548 : Ref sig .tc := ⟨.hbm, 1776, rfl⟩
abbrev main_v1549 : Ref sig .tc := ⟨.hbm, 1777, rfl⟩
abbrev main_v1550 : Ref sig .tc := ⟨.hbm, 1778, rfl⟩
abbrev main_cst_217 : Ref sig .tc := ⟨.hbm, 1779, rfl⟩
abbrev main_v1551 : Ref sig .tc := ⟨.hbm, 1780, rfl⟩
abbrev main_v1552 : Ref sig .tc := ⟨.hbm, 1781, rfl⟩
abbrev main_v1553 : Ref sig .tc := ⟨.hbm, 1782, rfl⟩
abbrev main_v1554 : Ref sig .tc := ⟨.hbm, 1783, rfl⟩
abbrev main_v1555 : Ref sig .tc := ⟨.hbm, 1784, rfl⟩
abbrev main_v1556 : Ref sig .tc := ⟨.hbm, 1785, rfl⟩
abbrev main_v1557 : Ref sig .tc := ⟨.hbm, 1786, rfl⟩
abbrev main_v1558 : Ref sig .tc := ⟨.hbm, 1787, rfl⟩
abbrev main_v1559 : Ref sig .tc := ⟨.hbm, 1788, rfl⟩
abbrev main_cst_218 : Ref sig .tc := ⟨.hbm, 1789, rfl⟩
abbrev main_v1560 : Ref sig .tc := ⟨.hbm, 1790, rfl⟩
abbrev main_v1561 : Ref sig .tc := ⟨.hbm, 1791, rfl⟩
abbrev main_v1562 : Ref sig .tc := ⟨.hbm, 1792, rfl⟩
abbrev main_v1563 : Ref sig .tc := ⟨.hbm, 1793, rfl⟩
abbrev main_v1564 : Ref sig .tc := ⟨.hbm, 1794, rfl⟩
abbrev main_c_219 : Ref sig .tc := ⟨.hbm, 1795, rfl⟩
abbrev main_v1565 : Ref sig .tc := ⟨.hbm, 1796, rfl⟩
abbrev main_v1566 : Ref sig .tc := ⟨.hbm, 1797, rfl⟩
abbrev main_v1567 : Ref sig .tc := ⟨.hbm, 1798, rfl⟩
abbrev main_v1568 : Ref sig .tc := ⟨.hbm, 1799, rfl⟩
abbrev main_v1569 : Ref sig .tc := ⟨.hbm, 1800, rfl⟩
abbrev main_v1570 : Ref sig .tc := ⟨.hbm, 1801, rfl⟩
abbrev main_v1571 : Ref sig .tc := ⟨.hbm, 1802, rfl⟩
abbrev main_v1572 : Ref sig .tc := ⟨.hbm, 1803, rfl⟩
abbrev main_v1573 : Ref sig .tc := ⟨.hbm, 1804, rfl⟩
abbrev main_v1574 : Ref sig .tc := ⟨.hbm, 1805, rfl⟩
abbrev main_v1575 : Ref sig .tc := ⟨.hbm, 1806, rfl⟩
abbrev main_v1576 : Ref sig .tc := ⟨.hbm, 1807, rfl⟩
abbrev main_v1577 : Ref sig .tc := ⟨.hbm, 1808, rfl⟩
abbrev main_v1578 : Ref sig .tc := ⟨.hbm, 1809, rfl⟩
abbrev main_v1579 : Ref sig .tc := ⟨.hbm, 1810, rfl⟩
abbrev main_v1580 : Ref sig .tc := ⟨.hbm, 1811, rfl⟩
abbrev main_v1581 : Ref sig .tc := ⟨.hbm, 1812, rfl⟩
abbrev main_v1582 : Ref sig .tc := ⟨.hbm, 1813, rfl⟩
abbrev main_v1583 : Ref sig .tc := ⟨.hbm, 1814, rfl⟩
abbrev main_v1584 : Ref sig .tc := ⟨.hbm, 1815, rfl⟩
abbrev main_v1585 : Ref sig .tc := ⟨.hbm, 1816, rfl⟩
abbrev main_v1586 : Ref sig .tc := ⟨.hbm, 1817, rfl⟩
abbrev main_v1587 : Ref sig .tc := ⟨.hbm, 1818, rfl⟩
abbrev main_v1588 : Ref sig .tc := ⟨.hbm, 1819, rfl⟩
abbrev main_v1589 : Ref sig .tc := ⟨.hbm, 1820, rfl⟩
abbrev main_v1590 : Ref sig .tc := ⟨.hbm, 1821, rfl⟩
abbrev main_v1591 : Ref sig .tc := ⟨.hbm, 1822, rfl⟩
abbrev main_v1592 : Ref sig .tc := ⟨.hbm, 1823, rfl⟩
abbrev main_cst_220 : Ref sig .tc := ⟨.hbm, 1824, rfl⟩
abbrev main_v1593 : Ref sig .tc := ⟨.hbm, 1825, rfl⟩
abbrev main_cst_221 : Ref sig .tc := ⟨.hbm, 1826, rfl⟩
abbrev main_v1594 : Ref sig .tc := ⟨.hbm, 1827, rfl⟩
abbrev main_v1595 : Ref sig .tc := ⟨.hbm, 1828, rfl⟩
abbrev main_v1596 : Ref sig .tc := ⟨.hbm, 1829, rfl⟩
abbrev main_v1597 : Ref sig .tc := ⟨.hbm, 1830, rfl⟩
abbrev main_v1598 : Ref sig .tc := ⟨.hbm, 1831, rfl⟩
abbrev main_v1599 : Ref sig .tc := ⟨.hbm, 1832, rfl⟩
abbrev main_v1600 : Ref sig .tc := ⟨.hbm, 1833, rfl⟩
abbrev main_v1601 : Ref sig .tc := ⟨.hbm, 1834, rfl⟩
abbrev main_v1602 : Ref sig .tc := ⟨.hbm, 1835, rfl⟩
abbrev main_v1603 : Ref sig .tc := ⟨.hbm, 1836, rfl⟩
abbrev main_v1604 : Ref sig .tc := ⟨.hbm, 1837, rfl⟩
abbrev main_cst_222 : Ref sig .tc := ⟨.hbm, 1838, rfl⟩
abbrev main_v1605 : Ref sig .tc := ⟨.hbm, 1839, rfl⟩
abbrev main_v1606 : Ref sig .tc := ⟨.hbm, 1840, rfl⟩
abbrev main_v1607 : Ref sig .tc := ⟨.hbm, 1841, rfl⟩
abbrev main_v1608 : Ref sig .tc := ⟨.hbm, 1842, rfl⟩
abbrev main_v1609 : Ref sig .tc := ⟨.hbm, 1843, rfl⟩
abbrev main_v1610 : Ref sig .tc := ⟨.hbm, 1844, rfl⟩
abbrev main_v1611 : Ref sig .tc := ⟨.hbm, 1845, rfl⟩
abbrev main_v1612 : Ref sig .tc := ⟨.hbm, 1846, rfl⟩
abbrev main_v1613 : Ref sig .tc := ⟨.hbm, 1847, rfl⟩
abbrev main_cst_223 : Ref sig .tc := ⟨.hbm, 1848, rfl⟩
abbrev main_v1614 : Ref sig .tc := ⟨.hbm, 1849, rfl⟩
abbrev main_v1615 : Ref sig .tc := ⟨.hbm, 1850, rfl⟩
abbrev main_v1616 : Ref sig .tc := ⟨.hbm, 1851, rfl⟩
abbrev main_v1617 : Ref sig .tc := ⟨.hbm, 1852, rfl⟩
abbrev main_v1618 : Ref sig .tc := ⟨.hbm, 1853, rfl⟩
abbrev main_c_224 : Ref sig .tc := ⟨.hbm, 1854, rfl⟩
abbrev main_v1619 : Ref sig .tc := ⟨.hbm, 1855, rfl⟩
abbrev main_v1620 : Ref sig .tc := ⟨.hbm, 1856, rfl⟩
abbrev main_v1621 : Ref sig .tc := ⟨.hbm, 1857, rfl⟩
abbrev main_v1622 : Ref sig .tc := ⟨.hbm, 1858, rfl⟩
abbrev main_v1623 : Ref sig .tc := ⟨.hbm, 1859, rfl⟩
abbrev main_v1624 : Ref sig .tc := ⟨.hbm, 1860, rfl⟩
abbrev main_v1625 : Ref sig .tc := ⟨.hbm, 1861, rfl⟩
abbrev main_v1626 : Ref sig .tc := ⟨.hbm, 1862, rfl⟩
abbrev main_cst_225 : Ref sig .tc := ⟨.hbm, 1863, rfl⟩
abbrev main_v1627 : Ref sig .tc := ⟨.hbm, 1864, rfl⟩
abbrev main_v1628 : Ref sig .tc := ⟨.hbm, 1865, rfl⟩
abbrev main_v1629 : Ref sig .tc := ⟨.hbm, 1866, rfl⟩
abbrev main_v1630 : Ref sig .tc := ⟨.hbm, 1867, rfl⟩
abbrev main_v1631 : Ref sig .tc := ⟨.hbm, 1868, rfl⟩
abbrev main_v1632 : Ref sig .tc := ⟨.hbm, 1869, rfl⟩
abbrev main_v1633 : Ref sig .tc := ⟨.hbm, 1870, rfl⟩
abbrev main_v1634 : Ref sig .tc := ⟨.hbm, 1871, rfl⟩
abbrev main_v1635 : Ref sig .tc := ⟨.hbm, 1872, rfl⟩
abbrev main_cst_226 : Ref sig .tc := ⟨.hbm, 1873, rfl⟩
abbrev main_v1636 : Ref sig .tc := ⟨.hbm, 1874, rfl⟩
abbrev main_v1637 : Ref sig .tc := ⟨.hbm, 1875, rfl⟩
abbrev main_v1638 : Ref sig .tc := ⟨.hbm, 1876, rfl⟩
abbrev main_v1639 : Ref sig .tc := ⟨.hbm, 1877, rfl⟩
abbrev main_v1640 : Ref sig .tc := ⟨.hbm, 1878, rfl⟩
abbrev main_c_227 : Ref sig .tc := ⟨.hbm, 1879, rfl⟩
abbrev main_v1641 : Ref sig .tc := ⟨.hbm, 1880, rfl⟩
abbrev main_v1642 : Ref sig .tc := ⟨.hbm, 1881, rfl⟩
abbrev main_v1643 : Ref sig .tc := ⟨.hbm, 1882, rfl⟩
abbrev main_v1644 : Ref sig .tc := ⟨.hbm, 1883, rfl⟩
abbrev main_v1645 : Ref sig .tc := ⟨.hbm, 1884, rfl⟩
abbrev main_v1646 : Ref sig .tc := ⟨.hbm, 1885, rfl⟩
abbrev main_v1647 : Ref sig .tc := ⟨.hbm, 1886, rfl⟩
abbrev main_v1648 : Ref sig .tc := ⟨.hbm, 1887, rfl⟩
abbrev main_cst_228 : Ref sig .tc := ⟨.hbm, 1888, rfl⟩
abbrev main_v1649 : Ref sig .tc := ⟨.hbm, 1889, rfl⟩
abbrev main_v1650 : Ref sig .tc := ⟨.hbm, 1890, rfl⟩
abbrev main_v1651 : Ref sig .tc := ⟨.hbm, 1891, rfl⟩
abbrev main_v1652 : Ref sig .tc := ⟨.hbm, 1892, rfl⟩
abbrev main_v1653 : Ref sig .tc := ⟨.hbm, 1893, rfl⟩
abbrev main_v1654 : Ref sig .tc := ⟨.hbm, 1894, rfl⟩
abbrev main_v1655 : Ref sig .tc := ⟨.hbm, 1895, rfl⟩
abbrev main_v1656 : Ref sig .tc := ⟨.hbm, 1896, rfl⟩
abbrev main_v1657 : Ref sig .tc := ⟨.hbm, 1897, rfl⟩
abbrev main_cst_229 : Ref sig .tc := ⟨.hbm, 1898, rfl⟩
abbrev main_v1658 : Ref sig .tc := ⟨.hbm, 1899, rfl⟩
abbrev main_v1659 : Ref sig .tc := ⟨.hbm, 1900, rfl⟩
abbrev main_v1660 : Ref sig .tc := ⟨.hbm, 1901, rfl⟩
abbrev main_v1661 : Ref sig .tc := ⟨.hbm, 1902, rfl⟩
abbrev main_v1662 : Ref sig .tc := ⟨.hbm, 1903, rfl⟩
abbrev main_c_230 : Ref sig .tc := ⟨.hbm, 1904, rfl⟩
abbrev main_v1663 : Ref sig .tc := ⟨.hbm, 1905, rfl⟩
abbrev main_v1664 : Ref sig .tc := ⟨.hbm, 1906, rfl⟩
abbrev main_v1665 : Ref sig .tc := ⟨.hbm, 1907, rfl⟩
abbrev main_v1666 : Ref sig .tc := ⟨.hbm, 1908, rfl⟩
abbrev main_v1667 : Ref sig .tc := ⟨.hbm, 1909, rfl⟩
abbrev main_v1668 : Ref sig .tc := ⟨.hbm, 1910, rfl⟩
abbrev main_v1669 : Ref sig .tc := ⟨.hbm, 1911, rfl⟩
abbrev main_v1670 : Ref sig .tc := ⟨.hbm, 1912, rfl⟩
abbrev main_cst_231 : Ref sig .tc := ⟨.hbm, 1913, rfl⟩
abbrev main_v1671 : Ref sig .tc := ⟨.hbm, 1914, rfl⟩
abbrev main_v1672 : Ref sig .tc := ⟨.hbm, 1915, rfl⟩
abbrev main_v1673 : Ref sig .tc := ⟨.hbm, 1916, rfl⟩
abbrev main_v1674 : Ref sig .tc := ⟨.hbm, 1917, rfl⟩
abbrev main_v1675 : Ref sig .tc := ⟨.hbm, 1918, rfl⟩
abbrev main_v1676 : Ref sig .tc := ⟨.hbm, 1919, rfl⟩
abbrev main_v1677 : Ref sig .tc := ⟨.hbm, 1920, rfl⟩
abbrev main_v1678 : Ref sig .tc := ⟨.hbm, 1921, rfl⟩
abbrev main_v1679 : Ref sig .tc := ⟨.hbm, 1922, rfl⟩
abbrev main_cst_232 : Ref sig .tc := ⟨.hbm, 1923, rfl⟩
abbrev main_v1680 : Ref sig .tc := ⟨.hbm, 1924, rfl⟩
abbrev main_v1681 : Ref sig .tc := ⟨.hbm, 1925, rfl⟩
abbrev main_v1682 : Ref sig .tc := ⟨.hbm, 1926, rfl⟩
abbrev main_v1683 : Ref sig .tc := ⟨.hbm, 1927, rfl⟩
abbrev main_v1684 : Ref sig .tc := ⟨.hbm, 1928, rfl⟩
abbrev main_c_233 : Ref sig .tc := ⟨.hbm, 1929, rfl⟩
abbrev main_v1685 : Ref sig .tc := ⟨.hbm, 1930, rfl⟩
abbrev main_v1686 : Ref sig .tc := ⟨.hbm, 1931, rfl⟩
abbrev main_v1687 : Ref sig .tc := ⟨.hbm, 1932, rfl⟩
abbrev main_v1688 : Ref sig .tc := ⟨.hbm, 1933, rfl⟩
abbrev main_cst_234 : Ref sig .tc := ⟨.hbm, 1934, rfl⟩
abbrev main_v1689 : Ref sig .tc := ⟨.hbm, 1935, rfl⟩
abbrev main_v1690 : Ref sig .tc := ⟨.hbm, 1936, rfl⟩
abbrev main_v1691 : Ref sig .tc := ⟨.hbm, 1937, rfl⟩
abbrev main_c_235 : Ref sig .tc := ⟨.hbm, 1938, rfl⟩
abbrev main_v1692 : Ref sig .tc := ⟨.hbm, 1939, rfl⟩
abbrev main_v1693 : Ref sig .tc := ⟨.hbm, 1940, rfl⟩
abbrev main_cst_236 : Ref sig .tc := ⟨.hbm, 1941, rfl⟩
abbrev main_v1694 : Ref sig .tc := ⟨.hbm, 1942, rfl⟩
abbrev main_cst_237 : Ref sig .tc := ⟨.hbm, 1943, rfl⟩
abbrev main_v1695 : Ref sig .tc := ⟨.hbm, 1944, rfl⟩
abbrev main_v1696 : Ref sig .tc := ⟨.hbm, 1945, rfl⟩
abbrev main_v1697 : Ref sig .tc := ⟨.hbm, 1946, rfl⟩
abbrev main_v1698 : Ref sig .tc := ⟨.hbm, 1947, rfl⟩
abbrev main_v1699 : Ref sig .tc := ⟨.hbm, 1948, rfl⟩
abbrev main_v1700 : Ref sig .tc := ⟨.hbm, 1949, rfl⟩
abbrev main_v1701 : Ref sig .tc := ⟨.hbm, 1950, rfl⟩
abbrev main_v1702 : Ref sig .tc := ⟨.hbm, 1951, rfl⟩
abbrev main_v1703 : Ref sig .tc := ⟨.hbm, 1952, rfl⟩
abbrev main_v1704 : Ref sig .tc := ⟨.hbm, 1953, rfl⟩
abbrev main_v1705 : Ref sig .tc := ⟨.hbm, 1954, rfl⟩
abbrev main_v1706 : Ref sig .tc := ⟨.hbm, 1955, rfl⟩
abbrev main_v1707 : Ref sig .tc := ⟨.hbm, 1956, rfl⟩
abbrev main_cst_238 : Ref sig .tc := ⟨.hbm, 1957, rfl⟩
abbrev main_v1708 : Ref sig .tc := ⟨.hbm, 1958, rfl⟩
abbrev main_cst_239 : Ref sig .tc := ⟨.hbm, 1959, rfl⟩
abbrev main_v1709 : Ref sig .tc := ⟨.hbm, 1960, rfl⟩
abbrev main_v1710 : Ref sig .tc := ⟨.hbm, 1961, rfl⟩
abbrev main_v1711 : Ref sig .tc := ⟨.hbm, 1962, rfl⟩
abbrev main_v1712 : Ref sig .tc := ⟨.hbm, 1963, rfl⟩
abbrev main_v1713 : Ref sig .tc := ⟨.hbm, 1964, rfl⟩
abbrev main_v1714 : Ref sig .tc := ⟨.hbm, 1965, rfl⟩
abbrev main_v1715 : Ref sig .tc := ⟨.hbm, 1966, rfl⟩
abbrev main_cst_240 : Ref sig .tc := ⟨.hbm, 1967, rfl⟩
abbrev main_v1716 : Ref sig .tc := ⟨.hbm, 1968, rfl⟩
abbrev main_v1717 : Ref sig .tc := ⟨.hbm, 1969, rfl⟩
abbrev main_v1718 : Ref sig .tc := ⟨.hbm, 1970, rfl⟩
abbrev main_c_241 : Ref sig .tc := ⟨.hbm, 1971, rfl⟩
abbrev main_v1719 : Ref sig .tc := ⟨.hbm, 1972, rfl⟩
abbrev main_v1720 : Ref sig .tc := ⟨.hbm, 1973, rfl⟩
abbrev main_v1721 : Ref sig .tc := ⟨.hbm, 1974, rfl⟩
abbrev main_v1722 : Ref sig .tc := ⟨.hbm, 1975, rfl⟩
abbrev main_v1723 : Ref sig .tc := ⟨.hbm, 1976, rfl⟩
abbrev main_v1724 : Ref sig .tc := ⟨.hbm, 1977, rfl⟩
abbrev main_v1725 : Ref sig .tc := ⟨.hbm, 1978, rfl⟩
abbrev main_v1726 : Ref sig .tc := ⟨.hbm, 1979, rfl⟩
abbrev main_cst_242 : Ref sig .tc := ⟨.hbm, 1980, rfl⟩
abbrev main_v1727 : Ref sig .tc := ⟨.hbm, 1981, rfl⟩
abbrev main_v1728 : Ref sig .tc := ⟨.hbm, 1982, rfl⟩
abbrev main_v1729 : Ref sig .tc := ⟨.hbm, 1983, rfl⟩
abbrev main_v1730 : Ref sig .tc := ⟨.hbm, 1984, rfl⟩
abbrev main_v1731 : Ref sig .tc := ⟨.hbm, 1985, rfl⟩
abbrev main_v1732 : Ref sig .tc := ⟨.hbm, 1986, rfl⟩
abbrev main_v1733 : Ref sig .tc := ⟨.hbm, 1987, rfl⟩
abbrev main_v1734 : Ref sig .tc := ⟨.hbm, 1988, rfl⟩
abbrev main_v1735 : Ref sig .tc := ⟨.hbm, 1989, rfl⟩
abbrev main_cst_243 : Ref sig .tc := ⟨.hbm, 1990, rfl⟩
abbrev main_v1736 : Ref sig .tc := ⟨.hbm, 1991, rfl⟩
abbrev main_v1737 : Ref sig .tc := ⟨.hbm, 1992, rfl⟩
abbrev main_v1738 : Ref sig .tc := ⟨.hbm, 1993, rfl⟩
abbrev main_v1739 : Ref sig .tc := ⟨.hbm, 1994, rfl⟩
abbrev main_v1740 : Ref sig .tc := ⟨.hbm, 1995, rfl⟩
abbrev main_c_244 : Ref sig .tc := ⟨.hbm, 1996, rfl⟩
abbrev main_v1741 : Ref sig .tc := ⟨.hbm, 1997, rfl⟩
abbrev main_v1742 : Ref sig .tc := ⟨.hbm, 1998, rfl⟩
abbrev main_v1743 : Ref sig .tc := ⟨.hbm, 1999, rfl⟩
abbrev main_v1744 : Ref sig .tc := ⟨.hbm, 2000, rfl⟩
abbrev main_v1745 : Ref sig .tc := ⟨.hbm, 2001, rfl⟩
abbrev main_v1746 : Ref sig .tc := ⟨.hbm, 2002, rfl⟩
abbrev main_v1747 : Ref sig .tc := ⟨.hbm, 2003, rfl⟩
abbrev main_v1748 : Ref sig .tc := ⟨.hbm, 2004, rfl⟩
abbrev main_cst_245 : Ref sig .tc := ⟨.hbm, 2005, rfl⟩
abbrev main_v1749 : Ref sig .tc := ⟨.hbm, 2006, rfl⟩
abbrev main_v1750 : Ref sig .tc := ⟨.hbm, 2007, rfl⟩
abbrev main_v1751 : Ref sig .tc := ⟨.hbm, 2008, rfl⟩
abbrev main_v1752 : Ref sig .tc := ⟨.hbm, 2009, rfl⟩
abbrev main_v1753 : Ref sig .tc := ⟨.hbm, 2010, rfl⟩
abbrev main_v1754 : Ref sig .tc := ⟨.hbm, 2011, rfl⟩
abbrev main_v1755 : Ref sig .tc := ⟨.hbm, 2012, rfl⟩
abbrev main_v1756 : Ref sig .tc := ⟨.hbm, 2013, rfl⟩
abbrev main_v1757 : Ref sig .tc := ⟨.hbm, 2014, rfl⟩
abbrev main_cst_246 : Ref sig .tc := ⟨.hbm, 2015, rfl⟩
abbrev main_v1758 : Ref sig .tc := ⟨.hbm, 2016, rfl⟩
abbrev main_v1759 : Ref sig .tc := ⟨.hbm, 2017, rfl⟩
abbrev main_v1760 : Ref sig .tc := ⟨.hbm, 2018, rfl⟩
abbrev main_v1761 : Ref sig .tc := ⟨.hbm, 2019, rfl⟩
abbrev main_v1762 : Ref sig .tc := ⟨.hbm, 2020, rfl⟩
abbrev main_c_247 : Ref sig .tc := ⟨.hbm, 2021, rfl⟩
abbrev main_v1763 : Ref sig .tc := ⟨.hbm, 2022, rfl⟩
abbrev main_v1764 : Ref sig .tc := ⟨.hbm, 2023, rfl⟩
abbrev main_v1765 : Ref sig .tc := ⟨.hbm, 2024, rfl⟩
abbrev main_v1766 : Ref sig .tc := ⟨.hbm, 2025, rfl⟩
abbrev main_v1767 : Ref sig .tc := ⟨.hbm, 2026, rfl⟩
abbrev main_v1768 : Ref sig .tc := ⟨.hbm, 2027, rfl⟩
abbrev main_v1769 : Ref sig .tc := ⟨.hbm, 2028, rfl⟩
abbrev main_v1770 : Ref sig .tc := ⟨.hbm, 2029, rfl⟩
abbrev main_cst_248 : Ref sig .tc := ⟨.hbm, 2030, rfl⟩
abbrev main_v1771 : Ref sig .tc := ⟨.hbm, 2031, rfl⟩
abbrev main_v1772 : Ref sig .tc := ⟨.hbm, 2032, rfl⟩
abbrev main_v1773 : Ref sig .tc := ⟨.hbm, 2033, rfl⟩
abbrev main_v1774 : Ref sig .tc := ⟨.hbm, 2034, rfl⟩
abbrev main_v1775 : Ref sig .tc := ⟨.hbm, 2035, rfl⟩
abbrev main_v1776 : Ref sig .tc := ⟨.hbm, 2036, rfl⟩
abbrev main_v1777 : Ref sig .tc := ⟨.hbm, 2037, rfl⟩
abbrev main_v1778 : Ref sig .tc := ⟨.hbm, 2038, rfl⟩
abbrev main_v1779 : Ref sig .tc := ⟨.hbm, 2039, rfl⟩
abbrev main_cst_249 : Ref sig .tc := ⟨.hbm, 2040, rfl⟩
abbrev main_v1780 : Ref sig .tc := ⟨.hbm, 2041, rfl⟩
abbrev main_v1781 : Ref sig .tc := ⟨.hbm, 2042, rfl⟩
abbrev main_v1782 : Ref sig .tc := ⟨.hbm, 2043, rfl⟩
abbrev main_v1783 : Ref sig .tc := ⟨.hbm, 2044, rfl⟩
abbrev main_v1784 : Ref sig .tc := ⟨.hbm, 2045, rfl⟩
abbrev main_c_250 : Ref sig .tc := ⟨.hbm, 2046, rfl⟩
abbrev main_v1785 : Ref sig .tc := ⟨.hbm, 2047, rfl⟩
abbrev main_v1786 : Ref sig .tc := ⟨.hbm, 2048, rfl⟩
abbrev main_v1787 : Ref sig .tc := ⟨.hbm, 2049, rfl⟩
abbrev main_v1788 : Ref sig .tc := ⟨.hbm, 2050, rfl⟩
abbrev main_v1789 : Ref sig .tc := ⟨.hbm, 2051, rfl⟩
abbrev main_v1790 : Ref sig .tc := ⟨.hbm, 2052, rfl⟩
abbrev main_v1791 : Ref sig .tc := ⟨.hbm, 2053, rfl⟩
abbrev main_v1792 : Ref sig .tc := ⟨.hbm, 2054, rfl⟩
abbrev main_cst_251 : Ref sig .tc := ⟨.hbm, 2055, rfl⟩
abbrev main_v1793 : Ref sig .tc := ⟨.hbm, 2056, rfl⟩
abbrev main_v1794 : Ref sig .tc := ⟨.hbm, 2057, rfl⟩
abbrev main_v1795 : Ref sig .tc := ⟨.hbm, 2058, rfl⟩
abbrev main_v1796 : Ref sig .tc := ⟨.hbm, 2059, rfl⟩
abbrev main_v1797 : Ref sig .tc := ⟨.hbm, 2060, rfl⟩
abbrev main_v1798 : Ref sig .tc := ⟨.hbm, 2061, rfl⟩
abbrev main_v1799 : Ref sig .tc := ⟨.hbm, 2062, rfl⟩
abbrev main_v1800 : Ref sig .tc := ⟨.hbm, 2063, rfl⟩
abbrev main_v1801 : Ref sig .tc := ⟨.hbm, 2064, rfl⟩
abbrev main_cst_252 : Ref sig .tc := ⟨.hbm, 2065, rfl⟩
abbrev main_v1802 : Ref sig .tc := ⟨.hbm, 2066, rfl⟩
abbrev main_v1803 : Ref sig .tc := ⟨.hbm, 2067, rfl⟩
abbrev main_v1804 : Ref sig .tc := ⟨.hbm, 2068, rfl⟩
abbrev main_v1805 : Ref sig .tc := ⟨.hbm, 2069, rfl⟩
abbrev main_v1806 : Ref sig .tc := ⟨.hbm, 2070, rfl⟩
abbrev main_c_253 : Ref sig .tc := ⟨.hbm, 2071, rfl⟩
abbrev main_v1807 : Ref sig .tc := ⟨.hbm, 2072, rfl⟩
abbrev main_v1808 : Ref sig .tc := ⟨.hbm, 2073, rfl⟩
abbrev main_v1809 : Ref sig .tc := ⟨.hbm, 2074, rfl⟩
abbrev main_v1810 : Ref sig .tc := ⟨.hbm, 2075, rfl⟩
abbrev main_v1811 : Ref sig .tc := ⟨.hbm, 2076, rfl⟩
abbrev main_v1812 : Ref sig .tc := ⟨.hbm, 2077, rfl⟩
abbrev main_v1813 : Ref sig .tc := ⟨.hbm, 2078, rfl⟩
abbrev main_v1814 : Ref sig .tc := ⟨.hbm, 2079, rfl⟩
abbrev main_v1815 : Ref sig .tc := ⟨.hbm, 2080, rfl⟩
abbrev main_v1816 : Ref sig .tc := ⟨.hbm, 2081, rfl⟩
abbrev main_v1817 : Ref sig .tc := ⟨.hbm, 2082, rfl⟩
abbrev main_v1818 : Ref sig .tc := ⟨.hbm, 2083, rfl⟩
abbrev main_v1819 : Ref sig .tc := ⟨.hbm, 2084, rfl⟩
abbrev main_v1820 : Ref sig .tc := ⟨.hbm, 2085, rfl⟩
abbrev main_v1821 : Ref sig .tc := ⟨.hbm, 2086, rfl⟩
abbrev main_v1822 : Ref sig .tc := ⟨.hbm, 2087, rfl⟩
abbrev main_v1823 : Ref sig .tc := ⟨.hbm, 2088, rfl⟩
abbrev main_v1824 : Ref sig .tc := ⟨.hbm, 2089, rfl⟩
abbrev main_v1825 : Ref sig .tc := ⟨.hbm, 2090, rfl⟩
abbrev main_v1826 : Ref sig .tc := ⟨.hbm, 2091, rfl⟩
abbrev main_v1827 : Ref sig .tc := ⟨.hbm, 2092, rfl⟩
abbrev main_v1828 : Ref sig .tc := ⟨.hbm, 2093, rfl⟩
abbrev main_v1829 : Ref sig .tc := ⟨.hbm, 2094, rfl⟩
abbrev main_v1830 : Ref sig .tc := ⟨.hbm, 2095, rfl⟩
abbrev main_v1831 : Ref sig .tc := ⟨.hbm, 2096, rfl⟩
abbrev main_v1832 : Ref sig .tc := ⟨.hbm, 2097, rfl⟩
abbrev main_v1833 : Ref sig .tc := ⟨.hbm, 2098, rfl⟩
abbrev main_v1834 : Ref sig .tc := ⟨.hbm, 2099, rfl⟩
abbrev main_cst_254 : Ref sig .tc := ⟨.hbm, 2100, rfl⟩
abbrev main_v1835 : Ref sig .tc := ⟨.hbm, 2101, rfl⟩
abbrev main_cst_255 : Ref sig .tc := ⟨.hbm, 2102, rfl⟩
abbrev main_v1836 : Ref sig .tc := ⟨.hbm, 2103, rfl⟩
abbrev main_v1837 : Ref sig .tc := ⟨.hbm, 2104, rfl⟩
abbrev main_v1838 : Ref sig .tc := ⟨.hbm, 2105, rfl⟩
abbrev main_v1839 : Ref sig .tc := ⟨.hbm, 2106, rfl⟩
abbrev main_v1840 : Ref sig .tc := ⟨.hbm, 2107, rfl⟩
abbrev main_v1841 : Ref sig .tc := ⟨.hbm, 2108, rfl⟩
abbrev main_v1842 : Ref sig .tc := ⟨.hbm, 2109, rfl⟩
abbrev main_v1843 : Ref sig .tc := ⟨.hbm, 2110, rfl⟩
abbrev main_v1844 : Ref sig .tc := ⟨.hbm, 2111, rfl⟩
abbrev main_v1845 : Ref sig .tc := ⟨.hbm, 2112, rfl⟩
abbrev main_v1846 : Ref sig .tc := ⟨.hbm, 2113, rfl⟩
abbrev main_cst_256 : Ref sig .tc := ⟨.hbm, 2114, rfl⟩
abbrev main_v1847 : Ref sig .tc := ⟨.hbm, 2115, rfl⟩
abbrev main_v1848 : Ref sig .tc := ⟨.hbm, 2116, rfl⟩
abbrev main_v1849 : Ref sig .tc := ⟨.hbm, 2117, rfl⟩
abbrev main_v1850 : Ref sig .tc := ⟨.hbm, 2118, rfl⟩
abbrev main_v1851 : Ref sig .tc := ⟨.hbm, 2119, rfl⟩
abbrev main_v1852 : Ref sig .tc := ⟨.hbm, 2120, rfl⟩
abbrev main_v1853 : Ref sig .tc := ⟨.hbm, 2121, rfl⟩
abbrev main_v1854 : Ref sig .tc := ⟨.hbm, 2122, rfl⟩
abbrev main_v1855 : Ref sig .tc := ⟨.hbm, 2123, rfl⟩
abbrev main_cst_257 : Ref sig .tc := ⟨.hbm, 2124, rfl⟩
abbrev main_v1856 : Ref sig .tc := ⟨.hbm, 2125, rfl⟩
abbrev main_v1857 : Ref sig .tc := ⟨.hbm, 2126, rfl⟩
abbrev main_v1858 : Ref sig .tc := ⟨.hbm, 2127, rfl⟩
abbrev main_v1859 : Ref sig .tc := ⟨.hbm, 2128, rfl⟩
abbrev main_v1860 : Ref sig .tc := ⟨.hbm, 2129, rfl⟩
abbrev main_c_258 : Ref sig .tc := ⟨.hbm, 2130, rfl⟩
abbrev main_v1861 : Ref sig .tc := ⟨.hbm, 2131, rfl⟩
abbrev main_v1862 : Ref sig .tc := ⟨.hbm, 2132, rfl⟩
abbrev main_v1863 : Ref sig .tc := ⟨.hbm, 2133, rfl⟩
abbrev main_v1864 : Ref sig .tc := ⟨.hbm, 2134, rfl⟩
abbrev main_v1865 : Ref sig .tc := ⟨.hbm, 2135, rfl⟩
abbrev main_v1866 : Ref sig .tc := ⟨.hbm, 2136, rfl⟩
abbrev main_v1867 : Ref sig .tc := ⟨.hbm, 2137, rfl⟩
abbrev main_v1868 : Ref sig .tc := ⟨.hbm, 2138, rfl⟩
abbrev main_cst_259 : Ref sig .tc := ⟨.hbm, 2139, rfl⟩
abbrev main_v1869 : Ref sig .tc := ⟨.hbm, 2140, rfl⟩
abbrev main_v1870 : Ref sig .tc := ⟨.hbm, 2141, rfl⟩
abbrev main_v1871 : Ref sig .tc := ⟨.hbm, 2142, rfl⟩
abbrev main_v1872 : Ref sig .tc := ⟨.hbm, 2143, rfl⟩
abbrev main_v1873 : Ref sig .tc := ⟨.hbm, 2144, rfl⟩
abbrev main_v1874 : Ref sig .tc := ⟨.hbm, 2145, rfl⟩
abbrev main_v1875 : Ref sig .tc := ⟨.hbm, 2146, rfl⟩
abbrev main_v1876 : Ref sig .tc := ⟨.hbm, 2147, rfl⟩
abbrev main_v1877 : Ref sig .tc := ⟨.hbm, 2148, rfl⟩
abbrev main_cst_260 : Ref sig .tc := ⟨.hbm, 2149, rfl⟩
abbrev main_v1878 : Ref sig .tc := ⟨.hbm, 2150, rfl⟩
abbrev main_v1879 : Ref sig .tc := ⟨.hbm, 2151, rfl⟩
abbrev main_v1880 : Ref sig .tc := ⟨.hbm, 2152, rfl⟩
abbrev main_v1881 : Ref sig .tc := ⟨.hbm, 2153, rfl⟩
abbrev main_v1882 : Ref sig .tc := ⟨.hbm, 2154, rfl⟩
abbrev main_c_261 : Ref sig .tc := ⟨.hbm, 2155, rfl⟩
abbrev main_v1883 : Ref sig .tc := ⟨.hbm, 2156, rfl⟩
abbrev main_v1884 : Ref sig .tc := ⟨.hbm, 2157, rfl⟩
abbrev main_v1885 : Ref sig .tc := ⟨.hbm, 2158, rfl⟩
abbrev main_v1886 : Ref sig .tc := ⟨.hbm, 2159, rfl⟩
abbrev main_v1887 : Ref sig .tc := ⟨.hbm, 2160, rfl⟩
abbrev main_v1888 : Ref sig .tc := ⟨.hbm, 2161, rfl⟩
abbrev main_v1889 : Ref sig .tc := ⟨.hbm, 2162, rfl⟩
abbrev main_v1890 : Ref sig .tc := ⟨.hbm, 2163, rfl⟩
abbrev main_cst_262 : Ref sig .tc := ⟨.hbm, 2164, rfl⟩
abbrev main_v1891 : Ref sig .tc := ⟨.hbm, 2165, rfl⟩
abbrev main_v1892 : Ref sig .tc := ⟨.hbm, 2166, rfl⟩
abbrev main_v1893 : Ref sig .tc := ⟨.hbm, 2167, rfl⟩
abbrev main_v1894 : Ref sig .tc := ⟨.hbm, 2168, rfl⟩
abbrev main_v1895 : Ref sig .tc := ⟨.hbm, 2169, rfl⟩
abbrev main_v1896 : Ref sig .tc := ⟨.hbm, 2170, rfl⟩
abbrev main_v1897 : Ref sig .tc := ⟨.hbm, 2171, rfl⟩
abbrev main_v1898 : Ref sig .tc := ⟨.hbm, 2172, rfl⟩
abbrev main_v1899 : Ref sig .tc := ⟨.hbm, 2173, rfl⟩
abbrev main_cst_263 : Ref sig .tc := ⟨.hbm, 2174, rfl⟩
abbrev main_v1900 : Ref sig .tc := ⟨.hbm, 2175, rfl⟩
abbrev main_v1901 : Ref sig .tc := ⟨.hbm, 2176, rfl⟩
abbrev main_v1902 : Ref sig .tc := ⟨.hbm, 2177, rfl⟩
abbrev main_v1903 : Ref sig .tc := ⟨.hbm, 2178, rfl⟩
abbrev main_v1904 : Ref sig .tc := ⟨.hbm, 2179, rfl⟩
abbrev main_c_264 : Ref sig .tc := ⟨.hbm, 2180, rfl⟩
abbrev main_v1905 : Ref sig .tc := ⟨.hbm, 2181, rfl⟩
abbrev main_v1906 : Ref sig .tc := ⟨.hbm, 2182, rfl⟩
abbrev main_v1907 : Ref sig .tc := ⟨.hbm, 2183, rfl⟩
abbrev main_v1908 : Ref sig .tc := ⟨.hbm, 2184, rfl⟩
abbrev main_v1909 : Ref sig .tc := ⟨.hbm, 2185, rfl⟩
abbrev main_v1910 : Ref sig .tc := ⟨.hbm, 2186, rfl⟩
abbrev main_v1911 : Ref sig .tc := ⟨.hbm, 2187, rfl⟩
abbrev main_v1912 : Ref sig .tc := ⟨.hbm, 2188, rfl⟩
abbrev main_cst_265 : Ref sig .tc := ⟨.hbm, 2189, rfl⟩
abbrev main_v1913 : Ref sig .tc := ⟨.hbm, 2190, rfl⟩
abbrev main_v1914 : Ref sig .tc := ⟨.hbm, 2191, rfl⟩
abbrev main_v1915 : Ref sig .tc := ⟨.hbm, 2192, rfl⟩
abbrev main_v1916 : Ref sig .tc := ⟨.hbm, 2193, rfl⟩
abbrev main_v1917 : Ref sig .tc := ⟨.hbm, 2194, rfl⟩
abbrev main_v1918 : Ref sig .tc := ⟨.hbm, 2195, rfl⟩
abbrev main_v1919 : Ref sig .tc := ⟨.hbm, 2196, rfl⟩
abbrev main_v1920 : Ref sig .tc := ⟨.hbm, 2197, rfl⟩
abbrev main_v1921 : Ref sig .tc := ⟨.hbm, 2198, rfl⟩
abbrev main_cst_266 : Ref sig .tc := ⟨.hbm, 2199, rfl⟩
abbrev main_v1922 : Ref sig .tc := ⟨.hbm, 2200, rfl⟩
abbrev main_v1923 : Ref sig .tc := ⟨.hbm, 2201, rfl⟩
abbrev main_v1924 : Ref sig .tc := ⟨.hbm, 2202, rfl⟩
abbrev main_v1925 : Ref sig .tc := ⟨.hbm, 2203, rfl⟩
abbrev main_v1926 : Ref sig .tc := ⟨.hbm, 2204, rfl⟩
abbrev main_c_267 : Ref sig .tc := ⟨.hbm, 2205, rfl⟩
abbrev main_v1927 : Ref sig .tc := ⟨.hbm, 2206, rfl⟩
abbrev main_v1928 : Ref sig .tc := ⟨.hbm, 2207, rfl⟩
abbrev main_v1929 : Ref sig .tc := ⟨.hbm, 2208, rfl⟩
abbrev main_v1930 : Ref sig .tc := ⟨.hbm, 2209, rfl⟩
abbrev main_cst_268 : Ref sig .tc := ⟨.hbm, 2210, rfl⟩
abbrev main_v1931 : Ref sig .tc := ⟨.hbm, 2211, rfl⟩
abbrev main_v1932 : Ref sig .tc := ⟨.hbm, 2212, rfl⟩
abbrev main_v1933 : Ref sig .tc := ⟨.hbm, 2213, rfl⟩
abbrev main_c_269 : Ref sig .tc := ⟨.hbm, 2214, rfl⟩
abbrev main_v1934 : Ref sig .tc := ⟨.hbm, 2215, rfl⟩
abbrev main_v1935 : Ref sig .tc := ⟨.hbm, 2216, rfl⟩
abbrev main_cst_270 : Ref sig .tc := ⟨.hbm, 2217, rfl⟩
abbrev main_v1936 : Ref sig .tc := ⟨.hbm, 2218, rfl⟩
abbrev main_cst_271 : Ref sig .tc := ⟨.hbm, 2219, rfl⟩
abbrev main_v1937 : Ref sig .tc := ⟨.hbm, 2220, rfl⟩
abbrev main_v1938 : Ref sig .tc := ⟨.hbm, 2221, rfl⟩
abbrev main_v1939 : Ref sig .tc := ⟨.hbm, 2222, rfl⟩
abbrev main_v1940 : Ref sig .tc := ⟨.hbm, 2223, rfl⟩
abbrev main_v1941 : Ref sig .tc := ⟨.hbm, 2224, rfl⟩
abbrev main_v1942 : Ref sig .tc := ⟨.hbm, 2225, rfl⟩
abbrev main_v1943 : Ref sig .tc := ⟨.hbm, 2226, rfl⟩
abbrev main_v1944 : Ref sig .tc := ⟨.hbm, 2227, rfl⟩
abbrev main_v1945 : Ref sig .tc := ⟨.hbm, 2228, rfl⟩
abbrev main_v1946 : Ref sig .tc := ⟨.hbm, 2229, rfl⟩
abbrev main_v1947 : Ref sig .tc := ⟨.hbm, 2230, rfl⟩
abbrev main_v1948 : Ref sig .tc := ⟨.hbm, 2231, rfl⟩
abbrev main_v1949 : Ref sig .tc := ⟨.hbm, 2232, rfl⟩
abbrev main_cst_272 : Ref sig .tc := ⟨.hbm, 2233, rfl⟩
abbrev main_v1950 : Ref sig .tc := ⟨.hbm, 2234, rfl⟩
abbrev main_cst_273 : Ref sig .tc := ⟨.hbm, 2235, rfl⟩
abbrev main_v1951 : Ref sig .tc := ⟨.hbm, 2236, rfl⟩
abbrev main_v1952 : Ref sig .tc := ⟨.hbm, 2237, rfl⟩
abbrev main_v1953 : Ref sig .tc := ⟨.hbm, 2238, rfl⟩
abbrev main_v1954 : Ref sig .tc := ⟨.hbm, 2239, rfl⟩
abbrev main_v1955 : Ref sig .tc := ⟨.hbm, 2240, rfl⟩
abbrev main_v1956 : Ref sig .tc := ⟨.hbm, 2241, rfl⟩
abbrev main_v1957 : Ref sig .tc := ⟨.hbm, 2242, rfl⟩
abbrev main_cst_274 : Ref sig .tc := ⟨.hbm, 2243, rfl⟩
abbrev main_v1958 : Ref sig .tc := ⟨.hbm, 2244, rfl⟩
abbrev main_v1959 : Ref sig .tc := ⟨.hbm, 2245, rfl⟩
abbrev main_v1960 : Ref sig .tc := ⟨.hbm, 2246, rfl⟩
abbrev main_c_275 : Ref sig .tc := ⟨.hbm, 2247, rfl⟩
abbrev main_v1961 : Ref sig .tc := ⟨.hbm, 2248, rfl⟩
abbrev main_v1962 : Ref sig .tc := ⟨.hbm, 2249, rfl⟩
abbrev main_v1963 : Ref sig .tc := ⟨.hbm, 2250, rfl⟩
abbrev main_v1964 : Ref sig .tc := ⟨.hbm, 2251, rfl⟩
abbrev main_v1965 : Ref sig .tc := ⟨.hbm, 2252, rfl⟩
abbrev main_v1966 : Ref sig .tc := ⟨.hbm, 2253, rfl⟩
abbrev main_v1967 : Ref sig .tc := ⟨.hbm, 2254, rfl⟩
abbrev main_v1968 : Ref sig .tc := ⟨.hbm, 2255, rfl⟩
abbrev main_cst_276 : Ref sig .tc := ⟨.hbm, 2256, rfl⟩
abbrev main_v1969 : Ref sig .tc := ⟨.hbm, 2257, rfl⟩
abbrev main_v1970 : Ref sig .tc := ⟨.hbm, 2258, rfl⟩
abbrev main_v1971 : Ref sig .tc := ⟨.hbm, 2259, rfl⟩
abbrev main_v1972 : Ref sig .tc := ⟨.hbm, 2260, rfl⟩
abbrev main_v1973 : Ref sig .tc := ⟨.hbm, 2261, rfl⟩
abbrev main_v1974 : Ref sig .tc := ⟨.hbm, 2262, rfl⟩
abbrev main_v1975 : Ref sig .tc := ⟨.hbm, 2263, rfl⟩
abbrev main_v1976 : Ref sig .tc := ⟨.hbm, 2264, rfl⟩
abbrev main_v1977 : Ref sig .tc := ⟨.hbm, 2265, rfl⟩
abbrev main_cst_277 : Ref sig .tc := ⟨.hbm, 2266, rfl⟩
abbrev main_v1978 : Ref sig .tc := ⟨.hbm, 2267, rfl⟩
abbrev main_v1979 : Ref sig .tc := ⟨.hbm, 2268, rfl⟩
abbrev main_v1980 : Ref sig .tc := ⟨.hbm, 2269, rfl⟩
abbrev main_v1981 : Ref sig .tc := ⟨.hbm, 2270, rfl⟩
abbrev main_v1982 : Ref sig .tc := ⟨.hbm, 2271, rfl⟩
abbrev main_c_278 : Ref sig .tc := ⟨.hbm, 2272, rfl⟩
abbrev main_v1983 : Ref sig .tc := ⟨.hbm, 2273, rfl⟩
abbrev main_v1984 : Ref sig .tc := ⟨.hbm, 2274, rfl⟩
abbrev main_v1985 : Ref sig .tc := ⟨.hbm, 2275, rfl⟩
abbrev main_v1986 : Ref sig .tc := ⟨.hbm, 2276, rfl⟩
abbrev main_v1987 : Ref sig .tc := ⟨.hbm, 2277, rfl⟩
abbrev main_v1988 : Ref sig .tc := ⟨.hbm, 2278, rfl⟩
abbrev main_v1989 : Ref sig .tc := ⟨.hbm, 2279, rfl⟩
abbrev main_v1990 : Ref sig .tc := ⟨.hbm, 2280, rfl⟩
abbrev main_cst_279 : Ref sig .tc := ⟨.hbm, 2281, rfl⟩
abbrev main_v1991 : Ref sig .tc := ⟨.hbm, 2282, rfl⟩
abbrev main_v1992 : Ref sig .tc := ⟨.hbm, 2283, rfl⟩
abbrev main_v1993 : Ref sig .tc := ⟨.hbm, 2284, rfl⟩
abbrev main_v1994 : Ref sig .tc := ⟨.hbm, 2285, rfl⟩
abbrev main_v1995 : Ref sig .tc := ⟨.hbm, 2286, rfl⟩
abbrev main_v1996 : Ref sig .tc := ⟨.hbm, 2287, rfl⟩
abbrev main_v1997 : Ref sig .tc := ⟨.hbm, 2288, rfl⟩
abbrev main_v1998 : Ref sig .tc := ⟨.hbm, 2289, rfl⟩
abbrev main_v1999 : Ref sig .tc := ⟨.hbm, 2290, rfl⟩
abbrev main_cst_280 : Ref sig .tc := ⟨.hbm, 2291, rfl⟩
abbrev main_v2000 : Ref sig .tc := ⟨.hbm, 2292, rfl⟩
abbrev main_v2001 : Ref sig .tc := ⟨.hbm, 2293, rfl⟩
abbrev main_v2002 : Ref sig .tc := ⟨.hbm, 2294, rfl⟩
abbrev main_v2003 : Ref sig .tc := ⟨.hbm, 2295, rfl⟩
abbrev main_v2004 : Ref sig .tc := ⟨.hbm, 2296, rfl⟩
abbrev main_c_281 : Ref sig .tc := ⟨.hbm, 2297, rfl⟩
abbrev main_v2005 : Ref sig .tc := ⟨.hbm, 2298, rfl⟩
abbrev main_v2006 : Ref sig .tc := ⟨.hbm, 2299, rfl⟩
abbrev main_v2007 : Ref sig .tc := ⟨.hbm, 2300, rfl⟩
abbrev main_v2008 : Ref sig .tc := ⟨.hbm, 2301, rfl⟩
abbrev main_v2009 : Ref sig .tc := ⟨.hbm, 2302, rfl⟩
abbrev main_v2010 : Ref sig .tc := ⟨.hbm, 2303, rfl⟩
abbrev main_v2011 : Ref sig .tc := ⟨.hbm, 2304, rfl⟩
abbrev main_v2012 : Ref sig .tc := ⟨.hbm, 2305, rfl⟩
abbrev main_cst_282 : Ref sig .tc := ⟨.hbm, 2306, rfl⟩
abbrev main_v2013 : Ref sig .tc := ⟨.hbm, 2307, rfl⟩
abbrev main_v2014 : Ref sig .tc := ⟨.hbm, 2308, rfl⟩
abbrev main_v2015 : Ref sig .tc := ⟨.hbm, 2309, rfl⟩
abbrev main_v2016 : Ref sig .tc := ⟨.hbm, 2310, rfl⟩
abbrev main_v2017 : Ref sig .tc := ⟨.hbm, 2311, rfl⟩
abbrev main_v2018 : Ref sig .tc := ⟨.hbm, 2312, rfl⟩
abbrev main_v2019 : Ref sig .tc := ⟨.hbm, 2313, rfl⟩
abbrev main_v2020 : Ref sig .tc := ⟨.hbm, 2314, rfl⟩
abbrev main_v2021 : Ref sig .tc := ⟨.hbm, 2315, rfl⟩
abbrev main_cst_283 : Ref sig .tc := ⟨.hbm, 2316, rfl⟩
abbrev main_v2022 : Ref sig .tc := ⟨.hbm, 2317, rfl⟩
abbrev main_v2023 : Ref sig .tc := ⟨.hbm, 2318, rfl⟩
abbrev main_v2024 : Ref sig .tc := ⟨.hbm, 2319, rfl⟩
abbrev main_v2025 : Ref sig .tc := ⟨.hbm, 2320, rfl⟩
abbrev main_v2026 : Ref sig .tc := ⟨.hbm, 2321, rfl⟩
abbrev main_c_284 : Ref sig .tc := ⟨.hbm, 2322, rfl⟩
abbrev main_v2027 : Ref sig .tc := ⟨.hbm, 2323, rfl⟩
abbrev main_v2028 : Ref sig .tc := ⟨.hbm, 2324, rfl⟩
abbrev main_v2029 : Ref sig .tc := ⟨.hbm, 2325, rfl⟩
abbrev main_v2030 : Ref sig .tc := ⟨.hbm, 2326, rfl⟩
abbrev main_v2031 : Ref sig .tc := ⟨.hbm, 2327, rfl⟩
abbrev main_v2032 : Ref sig .tc := ⟨.hbm, 2328, rfl⟩
abbrev main_v2033 : Ref sig .tc := ⟨.hbm, 2329, rfl⟩
abbrev main_v2034 : Ref sig .tc := ⟨.hbm, 2330, rfl⟩
abbrev main_cst_285 : Ref sig .tc := ⟨.hbm, 2331, rfl⟩
abbrev main_v2035 : Ref sig .tc := ⟨.hbm, 2332, rfl⟩
abbrev main_v2036 : Ref sig .tc := ⟨.hbm, 2333, rfl⟩
abbrev main_v2037 : Ref sig .tc := ⟨.hbm, 2334, rfl⟩
abbrev main_v2038 : Ref sig .tc := ⟨.hbm, 2335, rfl⟩
abbrev main_v2039 : Ref sig .tc := ⟨.hbm, 2336, rfl⟩
abbrev main_v2040 : Ref sig .tc := ⟨.hbm, 2337, rfl⟩
abbrev main_v2041 : Ref sig .tc := ⟨.hbm, 2338, rfl⟩
abbrev main_v2042 : Ref sig .tc := ⟨.hbm, 2339, rfl⟩
abbrev main_v2043 : Ref sig .tc := ⟨.hbm, 2340, rfl⟩
abbrev main_cst_286 : Ref sig .tc := ⟨.hbm, 2341, rfl⟩
abbrev main_v2044 : Ref sig .tc := ⟨.hbm, 2342, rfl⟩
abbrev main_v2045 : Ref sig .tc := ⟨.hbm, 2343, rfl⟩
abbrev main_v2046 : Ref sig .tc := ⟨.hbm, 2344, rfl⟩
abbrev main_v2047 : Ref sig .tc := ⟨.hbm, 2345, rfl⟩
abbrev main_v2048 : Ref sig .tc := ⟨.hbm, 2346, rfl⟩
abbrev main_c_287 : Ref sig .tc := ⟨.hbm, 2347, rfl⟩
abbrev main_v2049 : Ref sig .tc := ⟨.hbm, 2348, rfl⟩
abbrev main_v2050 : Ref sig .tc := ⟨.hbm, 2349, rfl⟩
abbrev main_v2051 : Ref sig .tc := ⟨.hbm, 2350, rfl⟩
abbrev main_v2052 : Ref sig .tc := ⟨.hbm, 2351, rfl⟩
abbrev main_v2053 : Ref sig .tc := ⟨.hbm, 2352, rfl⟩
abbrev main_v2054 : Ref sig .tc := ⟨.hbm, 2353, rfl⟩
abbrev main_v2055 : Ref sig .tc := ⟨.hbm, 2354, rfl⟩
abbrev main_v2056 : Ref sig .tc := ⟨.hbm, 2355, rfl⟩
abbrev main_v2057 : Ref sig .tc := ⟨.hbm, 2356, rfl⟩
abbrev main_v2058 : Ref sig .tc := ⟨.hbm, 2357, rfl⟩
abbrev main_v2059 : Ref sig .tc := ⟨.hbm, 2358, rfl⟩
abbrev main_v2060 : Ref sig .tc := ⟨.hbm, 2359, rfl⟩
abbrev main_v2061 : Ref sig .tc := ⟨.hbm, 2360, rfl⟩
abbrev main_v2062 : Ref sig .tc := ⟨.hbm, 2361, rfl⟩
abbrev main_v2063 : Ref sig .tc := ⟨.hbm, 2362, rfl⟩
abbrev main_v2064 : Ref sig .tc := ⟨.hbm, 2363, rfl⟩
abbrev main_v2065 : Ref sig .tc := ⟨.hbm, 2364, rfl⟩
abbrev main_v2066 : Ref sig .tc := ⟨.hbm, 2365, rfl⟩
abbrev main_v2067 : Ref sig .tc := ⟨.hbm, 2366, rfl⟩
abbrev main_v2068 : Ref sig .tc := ⟨.hbm, 2367, rfl⟩
abbrev main_v2069 : Ref sig .tc := ⟨.hbm, 2368, rfl⟩
abbrev main_v2070 : Ref sig .tc := ⟨.hbm, 2369, rfl⟩
abbrev main_v2071 : Ref sig .tc := ⟨.hbm, 2370, rfl⟩
abbrev main_v2072 : Ref sig .tc := ⟨.hbm, 2371, rfl⟩
abbrev main_v2073 : Ref sig .tc := ⟨.hbm, 2372, rfl⟩
abbrev main_v2074 : Ref sig .tc := ⟨.hbm, 2373, rfl⟩
abbrev main_v2075 : Ref sig .tc := ⟨.hbm, 2374, rfl⟩
abbrev main_v2076 : Ref sig .tc := ⟨.hbm, 2375, rfl⟩
abbrev main_cst_288 : Ref sig .tc := ⟨.hbm, 2376, rfl⟩
abbrev main_v2077 : Ref sig .tc := ⟨.hbm, 2377, rfl⟩
abbrev main_cst_289 : Ref sig .tc := ⟨.hbm, 2378, rfl⟩
abbrev main_v2078 : Ref sig .tc := ⟨.hbm, 2379, rfl⟩
abbrev main_v2079 : Ref sig .tc := ⟨.hbm, 2380, rfl⟩
abbrev main_v2080 : Ref sig .tc := ⟨.hbm, 2381, rfl⟩
abbrev main_v2081 : Ref sig .tc := ⟨.hbm, 2382, rfl⟩
abbrev main_v2082 : Ref sig .tc := ⟨.hbm, 2383, rfl⟩
abbrev main_v2083 : Ref sig .tc := ⟨.hbm, 2384, rfl⟩
abbrev main_v2084 : Ref sig .tc := ⟨.hbm, 2385, rfl⟩
abbrev main_v2085 : Ref sig .tc := ⟨.hbm, 2386, rfl⟩
abbrev main_v2086 : Ref sig .tc := ⟨.hbm, 2387, rfl⟩
abbrev main_v2087 : Ref sig .tc := ⟨.hbm, 2388, rfl⟩
abbrev main_v2088 : Ref sig .tc := ⟨.hbm, 2389, rfl⟩
abbrev main_cst_290 : Ref sig .tc := ⟨.hbm, 2390, rfl⟩
abbrev main_v2089 : Ref sig .tc := ⟨.hbm, 2391, rfl⟩
abbrev main_v2090 : Ref sig .tc := ⟨.hbm, 2392, rfl⟩
abbrev main_v2091 : Ref sig .tc := ⟨.hbm, 2393, rfl⟩
abbrev main_v2092 : Ref sig .tc := ⟨.hbm, 2394, rfl⟩
abbrev main_v2093 : Ref sig .tc := ⟨.hbm, 2395, rfl⟩
abbrev main_v2094 : Ref sig .tc := ⟨.hbm, 2396, rfl⟩
abbrev main_v2095 : Ref sig .tc := ⟨.hbm, 2397, rfl⟩
abbrev main_v2096 : Ref sig .tc := ⟨.hbm, 2398, rfl⟩
abbrev main_v2097 : Ref sig .tc := ⟨.hbm, 2399, rfl⟩
abbrev main_cst_291 : Ref sig .tc := ⟨.hbm, 2400, rfl⟩
abbrev main_v2098 : Ref sig .tc := ⟨.hbm, 2401, rfl⟩
abbrev main_v2099 : Ref sig .tc := ⟨.hbm, 2402, rfl⟩
abbrev main_v2100 : Ref sig .tc := ⟨.hbm, 2403, rfl⟩
abbrev main_v2101 : Ref sig .tc := ⟨.hbm, 2404, rfl⟩
abbrev main_v2102 : Ref sig .tc := ⟨.hbm, 2405, rfl⟩
abbrev main_c_292 : Ref sig .tc := ⟨.hbm, 2406, rfl⟩
abbrev main_v2103 : Ref sig .tc := ⟨.hbm, 2407, rfl⟩
abbrev main_v2104 : Ref sig .tc := ⟨.hbm, 2408, rfl⟩
abbrev main_v2105 : Ref sig .tc := ⟨.hbm, 2409, rfl⟩
abbrev main_v2106 : Ref sig .tc := ⟨.hbm, 2410, rfl⟩
abbrev main_v2107 : Ref sig .tc := ⟨.hbm, 2411, rfl⟩
abbrev main_v2108 : Ref sig .tc := ⟨.hbm, 2412, rfl⟩
abbrev main_v2109 : Ref sig .tc := ⟨.hbm, 2413, rfl⟩
abbrev main_v2110 : Ref sig .tc := ⟨.hbm, 2414, rfl⟩
abbrev main_cst_293 : Ref sig .tc := ⟨.hbm, 2415, rfl⟩
abbrev main_v2111 : Ref sig .tc := ⟨.hbm, 2416, rfl⟩
abbrev main_v2112 : Ref sig .tc := ⟨.hbm, 2417, rfl⟩
abbrev main_v2113 : Ref sig .tc := ⟨.hbm, 2418, rfl⟩
abbrev main_v2114 : Ref sig .tc := ⟨.hbm, 2419, rfl⟩
abbrev main_v2115 : Ref sig .tc := ⟨.hbm, 2420, rfl⟩
abbrev main_v2116 : Ref sig .tc := ⟨.hbm, 2421, rfl⟩
abbrev main_v2117 : Ref sig .tc := ⟨.hbm, 2422, rfl⟩
abbrev main_v2118 : Ref sig .tc := ⟨.hbm, 2423, rfl⟩
abbrev main_v2119 : Ref sig .tc := ⟨.hbm, 2424, rfl⟩
abbrev main_cst_294 : Ref sig .tc := ⟨.hbm, 2425, rfl⟩
abbrev main_v2120 : Ref sig .tc := ⟨.hbm, 2426, rfl⟩
abbrev main_v2121 : Ref sig .tc := ⟨.hbm, 2427, rfl⟩
abbrev main_v2122 : Ref sig .tc := ⟨.hbm, 2428, rfl⟩
abbrev main_v2123 : Ref sig .tc := ⟨.hbm, 2429, rfl⟩
abbrev main_v2124 : Ref sig .tc := ⟨.hbm, 2430, rfl⟩
abbrev main_c_295 : Ref sig .tc := ⟨.hbm, 2431, rfl⟩
abbrev main_v2125 : Ref sig .tc := ⟨.hbm, 2432, rfl⟩
abbrev main_v2126 : Ref sig .tc := ⟨.hbm, 2433, rfl⟩
abbrev main_v2127 : Ref sig .tc := ⟨.hbm, 2434, rfl⟩
abbrev main_v2128 : Ref sig .tc := ⟨.hbm, 2435, rfl⟩
abbrev main_v2129 : Ref sig .tc := ⟨.hbm, 2436, rfl⟩
abbrev main_v2130 : Ref sig .tc := ⟨.hbm, 2437, rfl⟩
abbrev main_v2131 : Ref sig .tc := ⟨.hbm, 2438, rfl⟩
abbrev main_v2132 : Ref sig .tc := ⟨.hbm, 2439, rfl⟩
abbrev main_cst_296 : Ref sig .tc := ⟨.hbm, 2440, rfl⟩
abbrev main_v2133 : Ref sig .tc := ⟨.hbm, 2441, rfl⟩
abbrev main_v2134 : Ref sig .tc := ⟨.hbm, 2442, rfl⟩
abbrev main_v2135 : Ref sig .tc := ⟨.hbm, 2443, rfl⟩
abbrev main_v2136 : Ref sig .tc := ⟨.hbm, 2444, rfl⟩
abbrev main_v2137 : Ref sig .tc := ⟨.hbm, 2445, rfl⟩
abbrev main_v2138 : Ref sig .tc := ⟨.hbm, 2446, rfl⟩
abbrev main_v2139 : Ref sig .tc := ⟨.hbm, 2447, rfl⟩
abbrev main_v2140 : Ref sig .tc := ⟨.hbm, 2448, rfl⟩
abbrev main_v2141 : Ref sig .tc := ⟨.hbm, 2449, rfl⟩
abbrev main_cst_297 : Ref sig .tc := ⟨.hbm, 2450, rfl⟩
abbrev main_v2142 : Ref sig .tc := ⟨.hbm, 2451, rfl⟩
abbrev main_v2143 : Ref sig .tc := ⟨.hbm, 2452, rfl⟩
abbrev main_v2144 : Ref sig .tc := ⟨.hbm, 2453, rfl⟩
abbrev main_v2145 : Ref sig .tc := ⟨.hbm, 2454, rfl⟩
abbrev main_v2146 : Ref sig .tc := ⟨.hbm, 2455, rfl⟩
abbrev main_c_298 : Ref sig .tc := ⟨.hbm, 2456, rfl⟩
abbrev main_v2147 : Ref sig .tc := ⟨.hbm, 2457, rfl⟩
abbrev main_v2148 : Ref sig .tc := ⟨.hbm, 2458, rfl⟩
abbrev main_v2149 : Ref sig .tc := ⟨.hbm, 2459, rfl⟩
abbrev main_v2150 : Ref sig .tc := ⟨.hbm, 2460, rfl⟩
abbrev main_v2151 : Ref sig .tc := ⟨.hbm, 2461, rfl⟩
abbrev main_v2152 : Ref sig .tc := ⟨.hbm, 2462, rfl⟩
abbrev main_v2153 : Ref sig .tc := ⟨.hbm, 2463, rfl⟩
abbrev main_v2154 : Ref sig .tc := ⟨.hbm, 2464, rfl⟩
abbrev main_cst_299 : Ref sig .tc := ⟨.hbm, 2465, rfl⟩
abbrev main_v2155 : Ref sig .tc := ⟨.hbm, 2466, rfl⟩
abbrev main_v2156 : Ref sig .tc := ⟨.hbm, 2467, rfl⟩
abbrev main_v2157 : Ref sig .tc := ⟨.hbm, 2468, rfl⟩
abbrev main_v2158 : Ref sig .tc := ⟨.hbm, 2469, rfl⟩
abbrev main_v2159 : Ref sig .tc := ⟨.hbm, 2470, rfl⟩
abbrev main_v2160 : Ref sig .tc := ⟨.hbm, 2471, rfl⟩
abbrev main_v2161 : Ref sig .tc := ⟨.hbm, 2472, rfl⟩
abbrev main_v2162 : Ref sig .tc := ⟨.hbm, 2473, rfl⟩
abbrev main_v2163 : Ref sig .tc := ⟨.hbm, 2474, rfl⟩
abbrev main_cst_300 : Ref sig .tc := ⟨.hbm, 2475, rfl⟩
abbrev main_v2164 : Ref sig .tc := ⟨.hbm, 2476, rfl⟩
abbrev main_v2165 : Ref sig .tc := ⟨.hbm, 2477, rfl⟩
abbrev main_v2166 : Ref sig .tc := ⟨.hbm, 2478, rfl⟩
abbrev main_v2167 : Ref sig .tc := ⟨.hbm, 2479, rfl⟩
abbrev main_v2168 : Ref sig .tc := ⟨.hbm, 2480, rfl⟩
abbrev main_c_301 : Ref sig .tc := ⟨.hbm, 2481, rfl⟩
abbrev main_v2169 : Ref sig .tc := ⟨.hbm, 2482, rfl⟩
abbrev main_v2170 : Ref sig .tc := ⟨.hbm, 2483, rfl⟩
abbrev main_v2171 : Ref sig .tc := ⟨.hbm, 2484, rfl⟩
abbrev main_v2172 : Ref sig .tc := ⟨.hbm, 2485, rfl⟩
abbrev main_cst_302 : Ref sig .tc := ⟨.hbm, 2486, rfl⟩
abbrev main_v2173 : Ref sig .tc := ⟨.hbm, 2487, rfl⟩
abbrev main_v2174 : Ref sig .tc := ⟨.hbm, 2488, rfl⟩
abbrev main_v2175 : Ref sig .tc := ⟨.hbm, 2489, rfl⟩
abbrev main_c_303 : Ref sig .tc := ⟨.hbm, 2490, rfl⟩
abbrev main_v2176 : Ref sig .tc := ⟨.hbm, 2491, rfl⟩
abbrev main_v2177 : Ref sig .tc := ⟨.hbm, 2492, rfl⟩
abbrev main_cst_304 : Ref sig .tc := ⟨.hbm, 2493, rfl⟩
abbrev main_v2178 : Ref sig .tc := ⟨.hbm, 2494, rfl⟩
abbrev main_cst_305 : Ref sig .tc := ⟨.hbm, 2495, rfl⟩
abbrev main_v2179 : Ref sig .tc := ⟨.hbm, 2496, rfl⟩
abbrev main_v2180 : Ref sig .tc := ⟨.hbm, 2497, rfl⟩
abbrev main_v2181 : Ref sig .tc := ⟨.hbm, 2498, rfl⟩
abbrev main_v2182 : Ref sig .tc := ⟨.hbm, 2499, rfl⟩
abbrev main_v2183 : Ref sig .tc := ⟨.hbm, 2500, rfl⟩
abbrev main_v2184 : Ref sig .tc := ⟨.hbm, 2501, rfl⟩
abbrev main_v2185 : Ref sig .tc := ⟨.hbm, 2502, rfl⟩
abbrev main_v2186 : Ref sig .tc := ⟨.hbm, 2503, rfl⟩
abbrev main_v2187 : Ref sig .tc := ⟨.hbm, 2504, rfl⟩
abbrev main_v2188 : Ref sig .tc := ⟨.hbm, 2505, rfl⟩
abbrev main_v2189 : Ref sig .tc := ⟨.hbm, 2506, rfl⟩
abbrev main_v2190 : Ref sig .tc := ⟨.hbm, 2507, rfl⟩
abbrev main_v2191 : Ref sig .tc := ⟨.hbm, 2508, rfl⟩
abbrev main_cst_306 : Ref sig .tc := ⟨.hbm, 2509, rfl⟩
abbrev main_v2192 : Ref sig .tc := ⟨.hbm, 2510, rfl⟩
abbrev main_cst_307 : Ref sig .tc := ⟨.hbm, 2511, rfl⟩
abbrev main_v2193 : Ref sig .tc := ⟨.hbm, 2512, rfl⟩
abbrev main_v2194 : Ref sig .tc := ⟨.hbm, 2513, rfl⟩
abbrev main_v2195 : Ref sig .tc := ⟨.hbm, 2514, rfl⟩
abbrev main_v2196 : Ref sig .tc := ⟨.hbm, 2515, rfl⟩
abbrev main_v2197 : Ref sig .tc := ⟨.hbm, 2516, rfl⟩
abbrev main_v2198 : Ref sig .tc := ⟨.hbm, 2517, rfl⟩
abbrev main_v2199 : Ref sig .tc := ⟨.hbm, 2518, rfl⟩
abbrev main_cst_308 : Ref sig .tc := ⟨.hbm, 2519, rfl⟩
abbrev main_v2200 : Ref sig .tc := ⟨.hbm, 2520, rfl⟩
abbrev main_v2201 : Ref sig .tc := ⟨.hbm, 2521, rfl⟩
abbrev main_v2202 : Ref sig .tc := ⟨.hbm, 2522, rfl⟩
abbrev main_c_309 : Ref sig .tc := ⟨.hbm, 2523, rfl⟩
abbrev main_v2203 : Ref sig .tc := ⟨.hbm, 2524, rfl⟩
abbrev main_v2204 : Ref sig .tc := ⟨.hbm, 2525, rfl⟩
abbrev main_v2205 : Ref sig .tc := ⟨.hbm, 2526, rfl⟩
abbrev main_v2206 : Ref sig .tc := ⟨.hbm, 2527, rfl⟩
abbrev main_v2207 : Ref sig .tc := ⟨.hbm, 2528, rfl⟩
abbrev main_v2208 : Ref sig .tc := ⟨.hbm, 2529, rfl⟩
abbrev main_v2209 : Ref sig .tc := ⟨.hbm, 2530, rfl⟩
abbrev main_v2210 : Ref sig .tc := ⟨.hbm, 2531, rfl⟩
abbrev main_cst_310 : Ref sig .tc := ⟨.hbm, 2532, rfl⟩
abbrev main_v2211 : Ref sig .tc := ⟨.hbm, 2533, rfl⟩
abbrev main_v2212 : Ref sig .tc := ⟨.hbm, 2534, rfl⟩
abbrev main_v2213 : Ref sig .tc := ⟨.hbm, 2535, rfl⟩
abbrev main_v2214 : Ref sig .tc := ⟨.hbm, 2536, rfl⟩
abbrev main_v2215 : Ref sig .tc := ⟨.hbm, 2537, rfl⟩
abbrev main_v2216 : Ref sig .tc := ⟨.hbm, 2538, rfl⟩
abbrev main_v2217 : Ref sig .tc := ⟨.hbm, 2539, rfl⟩
abbrev main_v2218 : Ref sig .tc := ⟨.hbm, 2540, rfl⟩
abbrev main_v2219 : Ref sig .tc := ⟨.hbm, 2541, rfl⟩
abbrev main_cst_311 : Ref sig .tc := ⟨.hbm, 2542, rfl⟩
abbrev main_v2220 : Ref sig .tc := ⟨.hbm, 2543, rfl⟩
abbrev main_v2221 : Ref sig .tc := ⟨.hbm, 2544, rfl⟩
abbrev main_v2222 : Ref sig .tc := ⟨.hbm, 2545, rfl⟩
abbrev main_v2223 : Ref sig .tc := ⟨.hbm, 2546, rfl⟩
abbrev main_v2224 : Ref sig .tc := ⟨.hbm, 2547, rfl⟩
abbrev main_c_312 : Ref sig .tc := ⟨.hbm, 2548, rfl⟩
abbrev main_v2225 : Ref sig .tc := ⟨.hbm, 2549, rfl⟩
abbrev main_v2226 : Ref sig .tc := ⟨.hbm, 2550, rfl⟩
abbrev main_v2227 : Ref sig .tc := ⟨.hbm, 2551, rfl⟩
abbrev main_v2228 : Ref sig .tc := ⟨.hbm, 2552, rfl⟩
abbrev main_v2229 : Ref sig .tc := ⟨.hbm, 2553, rfl⟩
abbrev main_v2230 : Ref sig .tc := ⟨.hbm, 2554, rfl⟩
abbrev main_v2231 : Ref sig .tc := ⟨.hbm, 2555, rfl⟩
abbrev main_v2232 : Ref sig .tc := ⟨.hbm, 2556, rfl⟩
abbrev main_cst_313 : Ref sig .tc := ⟨.hbm, 2557, rfl⟩
abbrev main_v2233 : Ref sig .tc := ⟨.hbm, 2558, rfl⟩
abbrev main_v2234 : Ref sig .tc := ⟨.hbm, 2559, rfl⟩
abbrev main_v2235 : Ref sig .tc := ⟨.hbm, 2560, rfl⟩
abbrev main_v2236 : Ref sig .tc := ⟨.hbm, 2561, rfl⟩
abbrev main_v2237 : Ref sig .tc := ⟨.hbm, 2562, rfl⟩
abbrev main_v2238 : Ref sig .tc := ⟨.hbm, 2563, rfl⟩
abbrev main_v2239 : Ref sig .tc := ⟨.hbm, 2564, rfl⟩
abbrev main_v2240 : Ref sig .tc := ⟨.hbm, 2565, rfl⟩
abbrev main_v2241 : Ref sig .tc := ⟨.hbm, 2566, rfl⟩
abbrev main_cst_314 : Ref sig .tc := ⟨.hbm, 2567, rfl⟩
abbrev main_v2242 : Ref sig .tc := ⟨.hbm, 2568, rfl⟩
abbrev main_v2243 : Ref sig .tc := ⟨.hbm, 2569, rfl⟩
abbrev main_v2244 : Ref sig .tc := ⟨.hbm, 2570, rfl⟩
abbrev main_v2245 : Ref sig .tc := ⟨.hbm, 2571, rfl⟩
abbrev main_v2246 : Ref sig .tc := ⟨.hbm, 2572, rfl⟩
abbrev main_c_315 : Ref sig .tc := ⟨.hbm, 2573, rfl⟩
abbrev main_v2247 : Ref sig .tc := ⟨.hbm, 2574, rfl⟩
abbrev main_v2248 : Ref sig .tc := ⟨.hbm, 2575, rfl⟩
abbrev main_v2249 : Ref sig .tc := ⟨.hbm, 2576, rfl⟩
abbrev main_v2250 : Ref sig .tc := ⟨.hbm, 2577, rfl⟩
abbrev main_v2251 : Ref sig .tc := ⟨.hbm, 2578, rfl⟩
abbrev main_v2252 : Ref sig .tc := ⟨.hbm, 2579, rfl⟩
abbrev main_v2253 : Ref sig .tc := ⟨.hbm, 2580, rfl⟩
abbrev main_v2254 : Ref sig .tc := ⟨.hbm, 2581, rfl⟩
abbrev main_cst_316 : Ref sig .tc := ⟨.hbm, 2582, rfl⟩
abbrev main_v2255 : Ref sig .tc := ⟨.hbm, 2583, rfl⟩
abbrev main_v2256 : Ref sig .tc := ⟨.hbm, 2584, rfl⟩
abbrev main_v2257 : Ref sig .tc := ⟨.hbm, 2585, rfl⟩
abbrev main_v2258 : Ref sig .tc := ⟨.hbm, 2586, rfl⟩
abbrev main_v2259 : Ref sig .tc := ⟨.hbm, 2587, rfl⟩
abbrev main_v2260 : Ref sig .tc := ⟨.hbm, 2588, rfl⟩
abbrev main_v2261 : Ref sig .tc := ⟨.hbm, 2589, rfl⟩
abbrev main_v2262 : Ref sig .tc := ⟨.hbm, 2590, rfl⟩
abbrev main_v2263 : Ref sig .tc := ⟨.hbm, 2591, rfl⟩
abbrev main_cst_317 : Ref sig .tc := ⟨.hbm, 2592, rfl⟩
abbrev main_v2264 : Ref sig .tc := ⟨.hbm, 2593, rfl⟩
abbrev main_v2265 : Ref sig .tc := ⟨.hbm, 2594, rfl⟩
abbrev main_v2266 : Ref sig .tc := ⟨.hbm, 2595, rfl⟩
abbrev main_v2267 : Ref sig .tc := ⟨.hbm, 2596, rfl⟩
abbrev main_v2268 : Ref sig .tc := ⟨.hbm, 2597, rfl⟩
abbrev main_c_318 : Ref sig .tc := ⟨.hbm, 2598, rfl⟩
abbrev main_v2269 : Ref sig .tc := ⟨.hbm, 2599, rfl⟩
abbrev main_v2270 : Ref sig .tc := ⟨.hbm, 2600, rfl⟩
abbrev main_v2271 : Ref sig .tc := ⟨.hbm, 2601, rfl⟩
abbrev main_v2272 : Ref sig .tc := ⟨.hbm, 2602, rfl⟩
abbrev main_v2273 : Ref sig .tc := ⟨.hbm, 2603, rfl⟩
abbrev main_v2274 : Ref sig .tc := ⟨.hbm, 2604, rfl⟩
abbrev main_v2275 : Ref sig .tc := ⟨.hbm, 2605, rfl⟩
abbrev main_v2276 : Ref sig .tc := ⟨.hbm, 2606, rfl⟩
abbrev main_cst_319 : Ref sig .tc := ⟨.hbm, 2607, rfl⟩
abbrev main_v2277 : Ref sig .tc := ⟨.hbm, 2608, rfl⟩
abbrev main_v2278 : Ref sig .tc := ⟨.hbm, 2609, rfl⟩
abbrev main_v2279 : Ref sig .tc := ⟨.hbm, 2610, rfl⟩
abbrev main_v2280 : Ref sig .tc := ⟨.hbm, 2611, rfl⟩
abbrev main_v2281 : Ref sig .tc := ⟨.hbm, 2612, rfl⟩
abbrev main_v2282 : Ref sig .tc := ⟨.hbm, 2613, rfl⟩
abbrev main_v2283 : Ref sig .tc := ⟨.hbm, 2614, rfl⟩
abbrev main_v2284 : Ref sig .tc := ⟨.hbm, 2615, rfl⟩
abbrev main_v2285 : Ref sig .tc := ⟨.hbm, 2616, rfl⟩
abbrev main_cst_320 : Ref sig .tc := ⟨.hbm, 2617, rfl⟩
abbrev main_v2286 : Ref sig .tc := ⟨.hbm, 2618, rfl⟩
abbrev main_v2287 : Ref sig .tc := ⟨.hbm, 2619, rfl⟩
abbrev main_v2288 : Ref sig .tc := ⟨.hbm, 2620, rfl⟩
abbrev main_v2289 : Ref sig .tc := ⟨.hbm, 2621, rfl⟩
abbrev main_v2290 : Ref sig .tc := ⟨.hbm, 2622, rfl⟩
abbrev main_c_321 : Ref sig .tc := ⟨.hbm, 2623, rfl⟩
abbrev main_v2291 : Ref sig .tc := ⟨.hbm, 2624, rfl⟩
abbrev main_v2292 : Ref sig .tc := ⟨.hbm, 2625, rfl⟩
abbrev main_v2293 : Ref sig .tc := ⟨.hbm, 2626, rfl⟩
abbrev main_v2294 : Ref sig .tc := ⟨.hbm, 2627, rfl⟩
abbrev main_v2295 : Ref sig .tc := ⟨.hbm, 2628, rfl⟩
abbrev main_v2296 : Ref sig .tc := ⟨.hbm, 2629, rfl⟩
abbrev main_v2297 : Ref sig .tc := ⟨.hbm, 2630, rfl⟩
abbrev main_v2298 : Ref sig .tc := ⟨.hbm, 2631, rfl⟩
abbrev main_v2299 : Ref sig .tc := ⟨.hbm, 2632, rfl⟩
abbrev main_v2300 : Ref sig .tc := ⟨.hbm, 2633, rfl⟩
abbrev main_v2301 : Ref sig .tc := ⟨.hbm, 2634, rfl⟩
abbrev main_v2302 : Ref sig .tc := ⟨.hbm, 2635, rfl⟩
abbrev main_v2303 : Ref sig .tc := ⟨.hbm, 2636, rfl⟩
abbrev main_v2304 : Ref sig .tc := ⟨.hbm, 2637, rfl⟩
abbrev main_v2305 : Ref sig .tc := ⟨.hbm, 2638, rfl⟩
abbrev main_v2306 : Ref sig .tc := ⟨.hbm, 2639, rfl⟩
abbrev main_v2307 : Ref sig .tc := ⟨.hbm, 2640, rfl⟩
abbrev main_v2308 : Ref sig .tc := ⟨.hbm, 2641, rfl⟩
abbrev main_v2309 : Ref sig .tc := ⟨.hbm, 2642, rfl⟩
abbrev main_v2310 : Ref sig .tc := ⟨.hbm, 2643, rfl⟩
abbrev main_v2311 : Ref sig .tc := ⟨.hbm, 2644, rfl⟩
abbrev main_v2312 : Ref sig .tc := ⟨.hbm, 2645, rfl⟩
abbrev main_v2313 : Ref sig .tc := ⟨.hbm, 2646, rfl⟩
abbrev main_v2314 : Ref sig .tc := ⟨.hbm, 2647, rfl⟩
abbrev main_v2315 : Ref sig .tc := ⟨.hbm, 2648, rfl⟩
abbrev main_v2316 : Ref sig .tc := ⟨.hbm, 2649, rfl⟩
abbrev main_v2317 : Ref sig .tc := ⟨.hbm, 2650, rfl⟩
abbrev main_v2318 : Ref sig .tc := ⟨.hbm, 2651, rfl⟩
abbrev main_cst_322 : Ref sig .tc := ⟨.hbm, 2652, rfl⟩
abbrev main_v2319 : Ref sig .tc := ⟨.hbm, 2653, rfl⟩
abbrev main_cst_323 : Ref sig .tc := ⟨.hbm, 2654, rfl⟩
abbrev main_v2320 : Ref sig .tc := ⟨.hbm, 2655, rfl⟩
abbrev main_v2321 : Ref sig .tc := ⟨.hbm, 2656, rfl⟩
abbrev main_v2322 : Ref sig .tc := ⟨.hbm, 2657, rfl⟩
abbrev main_v2323 : Ref sig .tc := ⟨.hbm, 2658, rfl⟩
abbrev main_v2324 : Ref sig .tc := ⟨.hbm, 2659, rfl⟩
abbrev main_v2325 : Ref sig .tc := ⟨.hbm, 2660, rfl⟩
abbrev main_v2326 : Ref sig .tc := ⟨.hbm, 2661, rfl⟩
abbrev main_v2327 : Ref sig .tc := ⟨.hbm, 2662, rfl⟩
abbrev main_v2328 : Ref sig .tc := ⟨.hbm, 2663, rfl⟩
abbrev main_v2329 : Ref sig .tc := ⟨.hbm, 2664, rfl⟩
abbrev main_v2330 : Ref sig .tc := ⟨.hbm, 2665, rfl⟩
abbrev main_cst_324 : Ref sig .tc := ⟨.hbm, 2666, rfl⟩
abbrev main_v2331 : Ref sig .tc := ⟨.hbm, 2667, rfl⟩
abbrev main_v2332 : Ref sig .tc := ⟨.hbm, 2668, rfl⟩
abbrev main_v2333 : Ref sig .tc := ⟨.hbm, 2669, rfl⟩
abbrev main_v2334 : Ref sig .tc := ⟨.hbm, 2670, rfl⟩
abbrev main_v2335 : Ref sig .tc := ⟨.hbm, 2671, rfl⟩
abbrev main_v2336 : Ref sig .tc := ⟨.hbm, 2672, rfl⟩
abbrev main_v2337 : Ref sig .tc := ⟨.hbm, 2673, rfl⟩
abbrev main_v2338 : Ref sig .tc := ⟨.hbm, 2674, rfl⟩
abbrev main_v2339 : Ref sig .tc := ⟨.hbm, 2675, rfl⟩
abbrev main_cst_325 : Ref sig .tc := ⟨.hbm, 2676, rfl⟩
abbrev main_v2340 : Ref sig .tc := ⟨.hbm, 2677, rfl⟩
abbrev main_v2341 : Ref sig .tc := ⟨.hbm, 2678, rfl⟩
abbrev main_v2342 : Ref sig .tc := ⟨.hbm, 2679, rfl⟩
abbrev main_v2343 : Ref sig .tc := ⟨.hbm, 2680, rfl⟩
abbrev main_v2344 : Ref sig .tc := ⟨.hbm, 2681, rfl⟩
abbrev main_c_326 : Ref sig .tc := ⟨.hbm, 2682, rfl⟩
abbrev main_v2345 : Ref sig .tc := ⟨.hbm, 2683, rfl⟩
abbrev main_v2346 : Ref sig .tc := ⟨.hbm, 2684, rfl⟩
abbrev main_v2347 : Ref sig .tc := ⟨.hbm, 2685, rfl⟩
abbrev main_v2348 : Ref sig .tc := ⟨.hbm, 2686, rfl⟩
abbrev main_v2349 : Ref sig .tc := ⟨.hbm, 2687, rfl⟩
abbrev main_v2350 : Ref sig .tc := ⟨.hbm, 2688, rfl⟩
abbrev main_v2351 : Ref sig .tc := ⟨.hbm, 2689, rfl⟩
abbrev main_v2352 : Ref sig .tc := ⟨.hbm, 2690, rfl⟩
abbrev main_cst_327 : Ref sig .tc := ⟨.hbm, 2691, rfl⟩
abbrev main_v2353 : Ref sig .tc := ⟨.hbm, 2692, rfl⟩
abbrev main_v2354 : Ref sig .tc := ⟨.hbm, 2693, rfl⟩
abbrev main_v2355 : Ref sig .tc := ⟨.hbm, 2694, rfl⟩
abbrev main_v2356 : Ref sig .tc := ⟨.hbm, 2695, rfl⟩
abbrev main_v2357 : Ref sig .tc := ⟨.hbm, 2696, rfl⟩
abbrev main_v2358 : Ref sig .tc := ⟨.hbm, 2697, rfl⟩
abbrev main_v2359 : Ref sig .tc := ⟨.hbm, 2698, rfl⟩
abbrev main_v2360 : Ref sig .tc := ⟨.hbm, 2699, rfl⟩
abbrev main_v2361 : Ref sig .tc := ⟨.hbm, 2700, rfl⟩
abbrev main_cst_328 : Ref sig .tc := ⟨.hbm, 2701, rfl⟩
abbrev main_v2362 : Ref sig .tc := ⟨.hbm, 2702, rfl⟩
abbrev main_v2363 : Ref sig .tc := ⟨.hbm, 2703, rfl⟩
abbrev main_v2364 : Ref sig .tc := ⟨.hbm, 2704, rfl⟩
abbrev main_v2365 : Ref sig .tc := ⟨.hbm, 2705, rfl⟩
abbrev main_v2366 : Ref sig .tc := ⟨.hbm, 2706, rfl⟩
abbrev main_c_329 : Ref sig .tc := ⟨.hbm, 2707, rfl⟩
abbrev main_v2367 : Ref sig .tc := ⟨.hbm, 2708, rfl⟩
abbrev main_v2368 : Ref sig .tc := ⟨.hbm, 2709, rfl⟩
abbrev main_v2369 : Ref sig .tc := ⟨.hbm, 2710, rfl⟩
abbrev main_v2370 : Ref sig .tc := ⟨.hbm, 2711, rfl⟩
abbrev main_v2371 : Ref sig .tc := ⟨.hbm, 2712, rfl⟩
abbrev main_v2372 : Ref sig .tc := ⟨.hbm, 2713, rfl⟩
abbrev main_v2373 : Ref sig .tc := ⟨.hbm, 2714, rfl⟩
abbrev main_v2374 : Ref sig .tc := ⟨.hbm, 2715, rfl⟩
abbrev main_cst_330 : Ref sig .tc := ⟨.hbm, 2716, rfl⟩
abbrev main_v2375 : Ref sig .tc := ⟨.hbm, 2717, rfl⟩
abbrev main_v2376 : Ref sig .tc := ⟨.hbm, 2718, rfl⟩
abbrev main_v2377 : Ref sig .tc := ⟨.hbm, 2719, rfl⟩
abbrev main_v2378 : Ref sig .tc := ⟨.hbm, 2720, rfl⟩
abbrev main_v2379 : Ref sig .tc := ⟨.hbm, 2721, rfl⟩
abbrev main_v2380 : Ref sig .tc := ⟨.hbm, 2722, rfl⟩
abbrev main_v2381 : Ref sig .tc := ⟨.hbm, 2723, rfl⟩
abbrev main_v2382 : Ref sig .tc := ⟨.hbm, 2724, rfl⟩
abbrev main_v2383 : Ref sig .tc := ⟨.hbm, 2725, rfl⟩
abbrev main_cst_331 : Ref sig .tc := ⟨.hbm, 2726, rfl⟩
abbrev main_v2384 : Ref sig .tc := ⟨.hbm, 2727, rfl⟩
abbrev main_v2385 : Ref sig .tc := ⟨.hbm, 2728, rfl⟩
abbrev main_v2386 : Ref sig .tc := ⟨.hbm, 2729, rfl⟩
abbrev main_v2387 : Ref sig .tc := ⟨.hbm, 2730, rfl⟩
abbrev main_v2388 : Ref sig .tc := ⟨.hbm, 2731, rfl⟩
abbrev main_c_332 : Ref sig .tc := ⟨.hbm, 2732, rfl⟩
abbrev main_v2389 : Ref sig .tc := ⟨.hbm, 2733, rfl⟩
abbrev main_v2390 : Ref sig .tc := ⟨.hbm, 2734, rfl⟩
abbrev main_v2391 : Ref sig .tc := ⟨.hbm, 2735, rfl⟩
abbrev main_v2392 : Ref sig .tc := ⟨.hbm, 2736, rfl⟩
abbrev main_v2393 : Ref sig .tc := ⟨.hbm, 2737, rfl⟩
abbrev main_v2394 : Ref sig .tc := ⟨.hbm, 2738, rfl⟩
abbrev main_v2395 : Ref sig .tc := ⟨.hbm, 2739, rfl⟩
abbrev main_v2396 : Ref sig .tc := ⟨.hbm, 2740, rfl⟩
abbrev main_cst_333 : Ref sig .tc := ⟨.hbm, 2741, rfl⟩
abbrev main_v2397 : Ref sig .tc := ⟨.hbm, 2742, rfl⟩
abbrev main_v2398 : Ref sig .tc := ⟨.hbm, 2743, rfl⟩
abbrev main_v2399 : Ref sig .tc := ⟨.hbm, 2744, rfl⟩
abbrev main_v2400 : Ref sig .tc := ⟨.hbm, 2745, rfl⟩
abbrev main_v2401 : Ref sig .tc := ⟨.hbm, 2746, rfl⟩
abbrev main_v2402 : Ref sig .tc := ⟨.hbm, 2747, rfl⟩
abbrev main_v2403 : Ref sig .tc := ⟨.hbm, 2748, rfl⟩
abbrev main_v2404 : Ref sig .tc := ⟨.hbm, 2749, rfl⟩
abbrev main_v2405 : Ref sig .tc := ⟨.hbm, 2750, rfl⟩
abbrev main_cst_334 : Ref sig .tc := ⟨.hbm, 2751, rfl⟩
abbrev main_v2406 : Ref sig .tc := ⟨.hbm, 2752, rfl⟩
abbrev main_v2407 : Ref sig .tc := ⟨.hbm, 2753, rfl⟩
abbrev main_v2408 : Ref sig .tc := ⟨.hbm, 2754, rfl⟩
abbrev main_v2409 : Ref sig .tc := ⟨.hbm, 2755, rfl⟩
abbrev main_v2410 : Ref sig .tc := ⟨.hbm, 2756, rfl⟩
abbrev main_c_335 : Ref sig .tc := ⟨.hbm, 2757, rfl⟩
abbrev main_v2411 : Ref sig .tc := ⟨.hbm, 2758, rfl⟩
abbrev main_v2412 : Ref sig .tc := ⟨.hbm, 2759, rfl⟩
abbrev main_v2413 : Ref sig .tc := ⟨.hbm, 2760, rfl⟩
abbrev main_v2414 : Ref sig .tc := ⟨.hbm, 2761, rfl⟩
abbrev main_cst_336 : Ref sig .tc := ⟨.hbm, 2762, rfl⟩
abbrev main_v2415 : Ref sig .tc := ⟨.hbm, 2763, rfl⟩
abbrev main_v2416 : Ref sig .tc := ⟨.hbm, 2764, rfl⟩
abbrev main_v2417 : Ref sig .tc := ⟨.hbm, 2765, rfl⟩
abbrev main_c_337 : Ref sig .tc := ⟨.hbm, 2766, rfl⟩
abbrev main_v2418 : Ref sig .tc := ⟨.hbm, 2767, rfl⟩
abbrev main_v2419 : Ref sig .tc := ⟨.hbm, 2768, rfl⟩
abbrev main_cst_338 : Ref sig .tc := ⟨.hbm, 2769, rfl⟩
abbrev main_v2420 : Ref sig .tc := ⟨.hbm, 2770, rfl⟩
abbrev main_cst_339 : Ref sig .tc := ⟨.hbm, 2771, rfl⟩
abbrev main_v2421 : Ref sig .tc := ⟨.hbm, 2772, rfl⟩
abbrev main_v2422 : Ref sig .tc := ⟨.hbm, 2773, rfl⟩
abbrev main_v2423 : Ref sig .tc := ⟨.hbm, 2774, rfl⟩
abbrev main_v2424 : Ref sig .tc := ⟨.hbm, 2775, rfl⟩
abbrev main_v2425 : Ref sig .tc := ⟨.hbm, 2776, rfl⟩
abbrev main_v2426 : Ref sig .tc := ⟨.hbm, 2777, rfl⟩
abbrev main_v2427 : Ref sig .tc := ⟨.hbm, 2778, rfl⟩
abbrev main_v2428 : Ref sig .tc := ⟨.hbm, 2779, rfl⟩
abbrev main_v2429 : Ref sig .tc := ⟨.hbm, 2780, rfl⟩
abbrev main_v2430 : Ref sig .tc := ⟨.hbm, 2781, rfl⟩
abbrev main_v2431 : Ref sig .tc := ⟨.hbm, 2782, rfl⟩
abbrev main_v2432 : Ref sig .tc := ⟨.hbm, 2783, rfl⟩
abbrev main_v2433 : Ref sig .tc := ⟨.hbm, 2784, rfl⟩
abbrev main_cst_340 : Ref sig .tc := ⟨.hbm, 2785, rfl⟩
abbrev main_v2434 : Ref sig .tc := ⟨.hbm, 2786, rfl⟩
abbrev main_cst_341 : Ref sig .tc := ⟨.hbm, 2787, rfl⟩
abbrev main_v2435 : Ref sig .tc := ⟨.hbm, 2788, rfl⟩
abbrev main_v2436 : Ref sig .tc := ⟨.hbm, 2789, rfl⟩
abbrev main_v2437 : Ref sig .tc := ⟨.hbm, 2790, rfl⟩
abbrev main_v2438 : Ref sig .tc := ⟨.hbm, 2791, rfl⟩
abbrev main_v2439 : Ref sig .tc := ⟨.hbm, 2792, rfl⟩
abbrev main_v2440 : Ref sig .tc := ⟨.hbm, 2793, rfl⟩
abbrev main_v2441 : Ref sig .tc := ⟨.hbm, 2794, rfl⟩
abbrev main_cst_342 : Ref sig .tc := ⟨.hbm, 2795, rfl⟩
abbrev main_v2442 : Ref sig .tc := ⟨.hbm, 2796, rfl⟩
abbrev main_v2443 : Ref sig .tc := ⟨.hbm, 2797, rfl⟩
abbrev main_v2444 : Ref sig .tc := ⟨.hbm, 2798, rfl⟩
abbrev main_c_343 : Ref sig .tc := ⟨.hbm, 2799, rfl⟩
abbrev main_v2445 : Ref sig .tc := ⟨.hbm, 2800, rfl⟩
abbrev main_v2446 : Ref sig .tc := ⟨.hbm, 2801, rfl⟩
abbrev main_v2447 : Ref sig .tc := ⟨.hbm, 2802, rfl⟩
abbrev main_v2448 : Ref sig .tc := ⟨.hbm, 2803, rfl⟩
abbrev main_v2449 : Ref sig .tc := ⟨.hbm, 2804, rfl⟩
abbrev main_v2450 : Ref sig .tc := ⟨.hbm, 2805, rfl⟩
abbrev main_v2451 : Ref sig .tc := ⟨.hbm, 2806, rfl⟩
abbrev main_v2452 : Ref sig .tc := ⟨.hbm, 2807, rfl⟩
abbrev main_cst_344 : Ref sig .tc := ⟨.hbm, 2808, rfl⟩
abbrev main_v2453 : Ref sig .tc := ⟨.hbm, 2809, rfl⟩
abbrev main_v2454 : Ref sig .tc := ⟨.hbm, 2810, rfl⟩
abbrev main_v2455 : Ref sig .tc := ⟨.hbm, 2811, rfl⟩
abbrev main_v2456 : Ref sig .tc := ⟨.hbm, 2812, rfl⟩
abbrev main_v2457 : Ref sig .tc := ⟨.hbm, 2813, rfl⟩
abbrev main_v2458 : Ref sig .tc := ⟨.hbm, 2814, rfl⟩
abbrev main_v2459 : Ref sig .tc := ⟨.hbm, 2815, rfl⟩
abbrev main_v2460 : Ref sig .tc := ⟨.hbm, 2816, rfl⟩
abbrev main_v2461 : Ref sig .tc := ⟨.hbm, 2817, rfl⟩
abbrev main_cst_345 : Ref sig .tc := ⟨.hbm, 2818, rfl⟩
abbrev main_v2462 : Ref sig .tc := ⟨.hbm, 2819, rfl⟩
abbrev main_v2463 : Ref sig .tc := ⟨.hbm, 2820, rfl⟩
abbrev main_v2464 : Ref sig .tc := ⟨.hbm, 2821, rfl⟩
abbrev main_v2465 : Ref sig .tc := ⟨.hbm, 2822, rfl⟩
abbrev main_v2466 : Ref sig .tc := ⟨.hbm, 2823, rfl⟩
abbrev main_c_346 : Ref sig .tc := ⟨.hbm, 2824, rfl⟩
abbrev main_v2467 : Ref sig .tc := ⟨.hbm, 2825, rfl⟩
abbrev main_v2468 : Ref sig .tc := ⟨.hbm, 2826, rfl⟩
abbrev main_v2469 : Ref sig .tc := ⟨.hbm, 2827, rfl⟩
abbrev main_v2470 : Ref sig .tc := ⟨.hbm, 2828, rfl⟩
abbrev main_v2471 : Ref sig .tc := ⟨.hbm, 2829, rfl⟩
abbrev main_v2472 : Ref sig .tc := ⟨.hbm, 2830, rfl⟩
abbrev main_v2473 : Ref sig .tc := ⟨.hbm, 2831, rfl⟩
abbrev main_v2474 : Ref sig .tc := ⟨.hbm, 2832, rfl⟩
abbrev main_cst_347 : Ref sig .tc := ⟨.hbm, 2833, rfl⟩
abbrev main_v2475 : Ref sig .tc := ⟨.hbm, 2834, rfl⟩
abbrev main_v2476 : Ref sig .tc := ⟨.hbm, 2835, rfl⟩
abbrev main_v2477 : Ref sig .tc := ⟨.hbm, 2836, rfl⟩
abbrev main_v2478 : Ref sig .tc := ⟨.hbm, 2837, rfl⟩
abbrev main_v2479 : Ref sig .tc := ⟨.hbm, 2838, rfl⟩
abbrev main_v2480 : Ref sig .tc := ⟨.hbm, 2839, rfl⟩
abbrev main_v2481 : Ref sig .tc := ⟨.hbm, 2840, rfl⟩
abbrev main_v2482 : Ref sig .tc := ⟨.hbm, 2841, rfl⟩
abbrev main_v2483 : Ref sig .tc := ⟨.hbm, 2842, rfl⟩
abbrev main_cst_348 : Ref sig .tc := ⟨.hbm, 2843, rfl⟩
abbrev main_v2484 : Ref sig .tc := ⟨.hbm, 2844, rfl⟩
abbrev main_v2485 : Ref sig .tc := ⟨.hbm, 2845, rfl⟩
abbrev main_v2486 : Ref sig .tc := ⟨.hbm, 2846, rfl⟩
abbrev main_v2487 : Ref sig .tc := ⟨.hbm, 2847, rfl⟩
abbrev main_v2488 : Ref sig .tc := ⟨.hbm, 2848, rfl⟩
abbrev main_c_349 : Ref sig .tc := ⟨.hbm, 2849, rfl⟩
abbrev main_v2489 : Ref sig .tc := ⟨.hbm, 2850, rfl⟩
abbrev main_v2490 : Ref sig .tc := ⟨.hbm, 2851, rfl⟩
abbrev main_v2491 : Ref sig .tc := ⟨.hbm, 2852, rfl⟩
abbrev main_v2492 : Ref sig .tc := ⟨.hbm, 2853, rfl⟩
abbrev main_v2493 : Ref sig .tc := ⟨.hbm, 2854, rfl⟩
abbrev main_v2494 : Ref sig .tc := ⟨.hbm, 2855, rfl⟩
abbrev main_v2495 : Ref sig .tc := ⟨.hbm, 2856, rfl⟩
abbrev main_v2496 : Ref sig .tc := ⟨.hbm, 2857, rfl⟩
abbrev main_cst_350 : Ref sig .tc := ⟨.hbm, 2858, rfl⟩
abbrev main_v2497 : Ref sig .tc := ⟨.hbm, 2859, rfl⟩
abbrev main_v2498 : Ref sig .tc := ⟨.hbm, 2860, rfl⟩
abbrev main_v2499 : Ref sig .tc := ⟨.hbm, 2861, rfl⟩
abbrev main_v2500 : Ref sig .tc := ⟨.hbm, 2862, rfl⟩
abbrev main_v2501 : Ref sig .tc := ⟨.hbm, 2863, rfl⟩
abbrev main_v2502 : Ref sig .tc := ⟨.hbm, 2864, rfl⟩
abbrev main_v2503 : Ref sig .tc := ⟨.hbm, 2865, rfl⟩
abbrev main_v2504 : Ref sig .tc := ⟨.hbm, 2866, rfl⟩
abbrev main_v2505 : Ref sig .tc := ⟨.hbm, 2867, rfl⟩
abbrev main_cst_351 : Ref sig .tc := ⟨.hbm, 2868, rfl⟩
abbrev main_v2506 : Ref sig .tc := ⟨.hbm, 2869, rfl⟩
abbrev main_v2507 : Ref sig .tc := ⟨.hbm, 2870, rfl⟩
abbrev main_v2508 : Ref sig .tc := ⟨.hbm, 2871, rfl⟩
abbrev main_v2509 : Ref sig .tc := ⟨.hbm, 2872, rfl⟩
abbrev main_v2510 : Ref sig .tc := ⟨.hbm, 2873, rfl⟩
abbrev main_c_352 : Ref sig .tc := ⟨.hbm, 2874, rfl⟩
abbrev main_v2511 : Ref sig .tc := ⟨.hbm, 2875, rfl⟩
abbrev main_v2512 : Ref sig .tc := ⟨.hbm, 2876, rfl⟩
abbrev main_v2513 : Ref sig .tc := ⟨.hbm, 2877, rfl⟩
abbrev main_v2514 : Ref sig .tc := ⟨.hbm, 2878, rfl⟩
abbrev main_v2515 : Ref sig .tc := ⟨.hbm, 2879, rfl⟩
abbrev main_v2516 : Ref sig .tc := ⟨.hbm, 2880, rfl⟩
abbrev main_v2517 : Ref sig .tc := ⟨.hbm, 2881, rfl⟩
abbrev main_v2518 : Ref sig .tc := ⟨.hbm, 2882, rfl⟩
abbrev main_cst_353 : Ref sig .tc := ⟨.hbm, 2883, rfl⟩
abbrev main_v2519 : Ref sig .tc := ⟨.hbm, 2884, rfl⟩
abbrev main_v2520 : Ref sig .tc := ⟨.hbm, 2885, rfl⟩
abbrev main_v2521 : Ref sig .tc := ⟨.hbm, 2886, rfl⟩
abbrev main_v2522 : Ref sig .tc := ⟨.hbm, 2887, rfl⟩
abbrev main_v2523 : Ref sig .tc := ⟨.hbm, 2888, rfl⟩
abbrev main_v2524 : Ref sig .tc := ⟨.hbm, 2889, rfl⟩
abbrev main_v2525 : Ref sig .tc := ⟨.hbm, 2890, rfl⟩
abbrev main_v2526 : Ref sig .tc := ⟨.hbm, 2891, rfl⟩
abbrev main_v2527 : Ref sig .tc := ⟨.hbm, 2892, rfl⟩
abbrev main_cst_354 : Ref sig .tc := ⟨.hbm, 2893, rfl⟩
abbrev main_v2528 : Ref sig .tc := ⟨.hbm, 2894, rfl⟩
abbrev main_v2529 : Ref sig .tc := ⟨.hbm, 2895, rfl⟩
abbrev main_v2530 : Ref sig .tc := ⟨.hbm, 2896, rfl⟩
abbrev main_v2531 : Ref sig .tc := ⟨.hbm, 2897, rfl⟩
abbrev main_v2532 : Ref sig .tc := ⟨.hbm, 2898, rfl⟩
abbrev main_c_355 : Ref sig .tc := ⟨.hbm, 2899, rfl⟩
abbrev main_v2533 : Ref sig .tc := ⟨.hbm, 2900, rfl⟩
abbrev main_v2534 : Ref sig .tc := ⟨.hbm, 2901, rfl⟩
abbrev main_v2535 : Ref sig .tc := ⟨.hbm, 2902, rfl⟩
abbrev main_v2536 : Ref sig .tc := ⟨.hbm, 2903, rfl⟩
abbrev main_v2537 : Ref sig .tc := ⟨.hbm, 2904, rfl⟩
abbrev main_v2538 : Ref sig .tc := ⟨.hbm, 2905, rfl⟩
abbrev main_v2539 : Ref sig .tc := ⟨.hbm, 2906, rfl⟩
abbrev main_v2540 : Ref sig .tc := ⟨.hbm, 2907, rfl⟩
abbrev main_v2541 : Ref sig .tc := ⟨.hbm, 2908, rfl⟩
abbrev main_v2542 : Ref sig .tc := ⟨.hbm, 2909, rfl⟩
abbrev main_v2543 : Ref sig .tc := ⟨.hbm, 2910, rfl⟩
abbrev main_v2544 : Ref sig .tc := ⟨.hbm, 2911, rfl⟩
abbrev main_v2545 : Ref sig .tc := ⟨.hbm, 2912, rfl⟩
abbrev main_v2546 : Ref sig .tc := ⟨.hbm, 2913, rfl⟩
abbrev main_v2547 : Ref sig .tc := ⟨.hbm, 2914, rfl⟩
abbrev main_v2548 : Ref sig .tc := ⟨.hbm, 2915, rfl⟩
abbrev main_v2549 : Ref sig .tc := ⟨.hbm, 2916, rfl⟩
abbrev main_v2550 : Ref sig .tc := ⟨.hbm, 2917, rfl⟩
abbrev main_v2551 : Ref sig .tc := ⟨.hbm, 2918, rfl⟩
abbrev main_v2552 : Ref sig .tc := ⟨.hbm, 2919, rfl⟩
abbrev main_v2553 : Ref sig .tc := ⟨.hbm, 2920, rfl⟩
abbrev main_v2554 : Ref sig .tc := ⟨.hbm, 2921, rfl⟩
abbrev main_v2555 : Ref sig .tc := ⟨.hbm, 2922, rfl⟩
abbrev main_v2556 : Ref sig .tc := ⟨.hbm, 2923, rfl⟩
abbrev main_v2557 : Ref sig .tc := ⟨.hbm, 2924, rfl⟩
abbrev main_v2558 : Ref sig .tc := ⟨.hbm, 2925, rfl⟩
abbrev main_v2559 : Ref sig .tc := ⟨.hbm, 2926, rfl⟩
abbrev main_v2560 : Ref sig .tc := ⟨.hbm, 2927, rfl⟩
abbrev main_cst_356 : Ref sig .tc := ⟨.hbm, 2928, rfl⟩
abbrev main_v2561 : Ref sig .tc := ⟨.hbm, 2929, rfl⟩
abbrev main_cst_357 : Ref sig .tc := ⟨.hbm, 2930, rfl⟩
abbrev main_v2562 : Ref sig .tc := ⟨.hbm, 2931, rfl⟩
abbrev main_v2563 : Ref sig .tc := ⟨.hbm, 2932, rfl⟩
abbrev main_v2564 : Ref sig .tc := ⟨.hbm, 2933, rfl⟩
abbrev main_v2565 : Ref sig .tc := ⟨.hbm, 2934, rfl⟩
abbrev main_v2566 : Ref sig .tc := ⟨.hbm, 2935, rfl⟩
abbrev main_v2567 : Ref sig .tc := ⟨.hbm, 2936, rfl⟩
abbrev main_v2568 : Ref sig .tc := ⟨.hbm, 2937, rfl⟩
abbrev main_v2569 : Ref sig .tc := ⟨.hbm, 2938, rfl⟩
abbrev main_v2570 : Ref sig .tc := ⟨.hbm, 2939, rfl⟩
abbrev main_v2571 : Ref sig .tc := ⟨.hbm, 2940, rfl⟩
abbrev main_v2572 : Ref sig .tc := ⟨.hbm, 2941, rfl⟩
abbrev main_cst_358 : Ref sig .tc := ⟨.hbm, 2942, rfl⟩
abbrev main_v2573 : Ref sig .tc := ⟨.hbm, 2943, rfl⟩
abbrev main_v2574 : Ref sig .tc := ⟨.hbm, 2944, rfl⟩
abbrev main_v2575 : Ref sig .tc := ⟨.hbm, 2945, rfl⟩
abbrev main_v2576 : Ref sig .tc := ⟨.hbm, 2946, rfl⟩
abbrev main_v2577 : Ref sig .tc := ⟨.hbm, 2947, rfl⟩
abbrev main_v2578 : Ref sig .tc := ⟨.hbm, 2948, rfl⟩
abbrev main_v2579 : Ref sig .tc := ⟨.hbm, 2949, rfl⟩
abbrev main_v2580 : Ref sig .tc := ⟨.hbm, 2950, rfl⟩
abbrev main_v2581 : Ref sig .tc := ⟨.hbm, 2951, rfl⟩
abbrev main_cst_359 : Ref sig .tc := ⟨.hbm, 2952, rfl⟩
abbrev main_v2582 : Ref sig .tc := ⟨.hbm, 2953, rfl⟩
abbrev main_v2583 : Ref sig .tc := ⟨.hbm, 2954, rfl⟩
abbrev main_v2584 : Ref sig .tc := ⟨.hbm, 2955, rfl⟩
abbrev main_v2585 : Ref sig .tc := ⟨.hbm, 2956, rfl⟩
abbrev main_v2586 : Ref sig .tc := ⟨.hbm, 2957, rfl⟩
abbrev main_c_360 : Ref sig .tc := ⟨.hbm, 2958, rfl⟩
abbrev main_v2587 : Ref sig .tc := ⟨.hbm, 2959, rfl⟩
abbrev main_v2588 : Ref sig .tc := ⟨.hbm, 2960, rfl⟩
abbrev main_v2589 : Ref sig .tc := ⟨.hbm, 2961, rfl⟩
abbrev main_v2590 : Ref sig .tc := ⟨.hbm, 2962, rfl⟩
abbrev main_v2591 : Ref sig .tc := ⟨.hbm, 2963, rfl⟩
abbrev main_v2592 : Ref sig .tc := ⟨.hbm, 2964, rfl⟩
abbrev main_v2593 : Ref sig .tc := ⟨.hbm, 2965, rfl⟩
abbrev main_v2594 : Ref sig .tc := ⟨.hbm, 2966, rfl⟩
abbrev main_cst_361 : Ref sig .tc := ⟨.hbm, 2967, rfl⟩
abbrev main_v2595 : Ref sig .tc := ⟨.hbm, 2968, rfl⟩
abbrev main_v2596 : Ref sig .tc := ⟨.hbm, 2969, rfl⟩
abbrev main_v2597 : Ref sig .tc := ⟨.hbm, 2970, rfl⟩
abbrev main_v2598 : Ref sig .tc := ⟨.hbm, 2971, rfl⟩
abbrev main_v2599 : Ref sig .tc := ⟨.hbm, 2972, rfl⟩
abbrev main_v2600 : Ref sig .tc := ⟨.hbm, 2973, rfl⟩
abbrev main_v2601 : Ref sig .tc := ⟨.hbm, 2974, rfl⟩
abbrev main_v2602 : Ref sig .tc := ⟨.hbm, 2975, rfl⟩
abbrev main_v2603 : Ref sig .tc := ⟨.hbm, 2976, rfl⟩
abbrev main_cst_362 : Ref sig .tc := ⟨.hbm, 2977, rfl⟩
abbrev main_v2604 : Ref sig .tc := ⟨.hbm, 2978, rfl⟩
abbrev main_v2605 : Ref sig .tc := ⟨.hbm, 2979, rfl⟩
abbrev main_v2606 : Ref sig .tc := ⟨.hbm, 2980, rfl⟩
abbrev main_v2607 : Ref sig .tc := ⟨.hbm, 2981, rfl⟩
abbrev main_v2608 : Ref sig .tc := ⟨.hbm, 2982, rfl⟩
abbrev main_c_363 : Ref sig .tc := ⟨.hbm, 2983, rfl⟩
abbrev main_v2609 : Ref sig .tc := ⟨.hbm, 2984, rfl⟩
abbrev main_v2610 : Ref sig .tc := ⟨.hbm, 2985, rfl⟩
abbrev main_v2611 : Ref sig .tc := ⟨.hbm, 2986, rfl⟩
abbrev main_v2612 : Ref sig .tc := ⟨.hbm, 2987, rfl⟩
abbrev main_v2613 : Ref sig .tc := ⟨.hbm, 2988, rfl⟩
abbrev main_v2614 : Ref sig .tc := ⟨.hbm, 2989, rfl⟩
abbrev main_v2615 : Ref sig .tc := ⟨.hbm, 2990, rfl⟩
abbrev main_v2616 : Ref sig .tc := ⟨.hbm, 2991, rfl⟩
abbrev main_cst_364 : Ref sig .tc := ⟨.hbm, 2992, rfl⟩
abbrev main_v2617 : Ref sig .tc := ⟨.hbm, 2993, rfl⟩
abbrev main_v2618 : Ref sig .tc := ⟨.hbm, 2994, rfl⟩
abbrev main_v2619 : Ref sig .tc := ⟨.hbm, 2995, rfl⟩
abbrev main_v2620 : Ref sig .tc := ⟨.hbm, 2996, rfl⟩
abbrev main_v2621 : Ref sig .tc := ⟨.hbm, 2997, rfl⟩
abbrev main_v2622 : Ref sig .tc := ⟨.hbm, 2998, rfl⟩
abbrev main_v2623 : Ref sig .tc := ⟨.hbm, 2999, rfl⟩
abbrev main_v2624 : Ref sig .tc := ⟨.hbm, 3000, rfl⟩
abbrev main_v2625 : Ref sig .tc := ⟨.hbm, 3001, rfl⟩
abbrev main_cst_365 : Ref sig .tc := ⟨.hbm, 3002, rfl⟩
abbrev main_v2626 : Ref sig .tc := ⟨.hbm, 3003, rfl⟩
abbrev main_v2627 : Ref sig .tc := ⟨.hbm, 3004, rfl⟩
abbrev main_v2628 : Ref sig .tc := ⟨.hbm, 3005, rfl⟩
abbrev main_v2629 : Ref sig .tc := ⟨.hbm, 3006, rfl⟩
abbrev main_v2630 : Ref sig .tc := ⟨.hbm, 3007, rfl⟩
abbrev main_c_366 : Ref sig .tc := ⟨.hbm, 3008, rfl⟩
abbrev main_v2631 : Ref sig .tc := ⟨.hbm, 3009, rfl⟩
abbrev main_v2632 : Ref sig .tc := ⟨.hbm, 3010, rfl⟩
abbrev main_v2633 : Ref sig .tc := ⟨.hbm, 3011, rfl⟩
abbrev main_v2634 : Ref sig .tc := ⟨.hbm, 3012, rfl⟩
abbrev main_v2635 : Ref sig .tc := ⟨.hbm, 3013, rfl⟩
abbrev main_v2636 : Ref sig .tc := ⟨.hbm, 3014, rfl⟩
abbrev main_v2637 : Ref sig .tc := ⟨.hbm, 3015, rfl⟩
abbrev main_v2638 : Ref sig .tc := ⟨.hbm, 3016, rfl⟩
abbrev main_cst_367 : Ref sig .tc := ⟨.hbm, 3017, rfl⟩
abbrev main_v2639 : Ref sig .tc := ⟨.hbm, 3018, rfl⟩
abbrev main_v2640 : Ref sig .tc := ⟨.hbm, 3019, rfl⟩
abbrev main_v2641 : Ref sig .tc := ⟨.hbm, 3020, rfl⟩
abbrev main_v2642 : Ref sig .tc := ⟨.hbm, 3021, rfl⟩
abbrev main_v2643 : Ref sig .tc := ⟨.hbm, 3022, rfl⟩
abbrev main_v2644 : Ref sig .tc := ⟨.hbm, 3023, rfl⟩
abbrev main_v2645 : Ref sig .tc := ⟨.hbm, 3024, rfl⟩
abbrev main_v2646 : Ref sig .tc := ⟨.hbm, 3025, rfl⟩
abbrev main_v2647 : Ref sig .tc := ⟨.hbm, 3026, rfl⟩
abbrev main_cst_368 : Ref sig .tc := ⟨.hbm, 3027, rfl⟩
abbrev main_v2648 : Ref sig .tc := ⟨.hbm, 3028, rfl⟩
abbrev main_v2649 : Ref sig .tc := ⟨.hbm, 3029, rfl⟩
abbrev main_v2650 : Ref sig .tc := ⟨.hbm, 3030, rfl⟩
abbrev main_v2651 : Ref sig .tc := ⟨.hbm, 3031, rfl⟩
abbrev main_v2652 : Ref sig .tc := ⟨.hbm, 3032, rfl⟩
abbrev main_c_369 : Ref sig .tc := ⟨.hbm, 3033, rfl⟩
abbrev main_v2653 : Ref sig .tc := ⟨.hbm, 3034, rfl⟩
abbrev main_v2654 : Ref sig .tc := ⟨.hbm, 3035, rfl⟩
abbrev main_v2655 : Ref sig .tc := ⟨.hbm, 3036, rfl⟩
abbrev main_v2656 : Ref sig .tc := ⟨.hbm, 3037, rfl⟩
abbrev main_cst_370 : Ref sig .tc := ⟨.hbm, 3038, rfl⟩
abbrev main_v2657 : Ref sig .tc := ⟨.hbm, 3039, rfl⟩
abbrev main_v2658 : Ref sig .tc := ⟨.hbm, 3040, rfl⟩
abbrev main_v2659 : Ref sig .tc := ⟨.hbm, 3041, rfl⟩
abbrev main_c_371 : Ref sig .tc := ⟨.hbm, 3042, rfl⟩
abbrev main_v2660 : Ref sig .tc := ⟨.hbm, 3043, rfl⟩
abbrev main_v2661 : Ref sig .tc := ⟨.hbm, 3044, rfl⟩
abbrev main_cst_372 : Ref sig .tc := ⟨.hbm, 3045, rfl⟩
abbrev main_v2662 : Ref sig .tc := ⟨.hbm, 3046, rfl⟩
abbrev main_cst_373 : Ref sig .tc := ⟨.hbm, 3047, rfl⟩
abbrev main_v2663 : Ref sig .tc := ⟨.hbm, 3048, rfl⟩
abbrev main_v2664 : Ref sig .tc := ⟨.hbm, 3049, rfl⟩
abbrev main_v2665 : Ref sig .tc := ⟨.hbm, 3050, rfl⟩
abbrev main_v2666 : Ref sig .tc := ⟨.hbm, 3051, rfl⟩
abbrev main_v2667 : Ref sig .tc := ⟨.hbm, 3052, rfl⟩
abbrev main_v2668 : Ref sig .tc := ⟨.hbm, 3053, rfl⟩
abbrev main_v2669 : Ref sig .tc := ⟨.hbm, 3054, rfl⟩
abbrev main_v2670 : Ref sig .tc := ⟨.hbm, 3055, rfl⟩
abbrev main_v2671 : Ref sig .tc := ⟨.hbm, 3056, rfl⟩
abbrev main_v2672 : Ref sig .tc := ⟨.hbm, 3057, rfl⟩
abbrev main_v2673 : Ref sig .tc := ⟨.hbm, 3058, rfl⟩
abbrev main_v2674 : Ref sig .tc := ⟨.hbm, 3059, rfl⟩
abbrev main_v2675 : Ref sig .tc := ⟨.hbm, 3060, rfl⟩
abbrev main_cst_374 : Ref sig .tc := ⟨.hbm, 3061, rfl⟩
abbrev main_v2676 : Ref sig .tc := ⟨.hbm, 3062, rfl⟩
abbrev main_cst_375 : Ref sig .tc := ⟨.hbm, 3063, rfl⟩
abbrev main_v2677 : Ref sig .tc := ⟨.hbm, 3064, rfl⟩
abbrev main_v2678 : Ref sig .tc := ⟨.hbm, 3065, rfl⟩
abbrev main_v2679 : Ref sig .tc := ⟨.hbm, 3066, rfl⟩
abbrev main_v2680 : Ref sig .tc := ⟨.hbm, 3067, rfl⟩
abbrev main_v2681 : Ref sig .tc := ⟨.hbm, 3068, rfl⟩
abbrev main_v2682 : Ref sig .tc := ⟨.hbm, 3069, rfl⟩
abbrev main_v2683 : Ref sig .tc := ⟨.hbm, 3070, rfl⟩
abbrev main_cst_376 : Ref sig .tc := ⟨.hbm, 3071, rfl⟩
abbrev main_v2684 : Ref sig .tc := ⟨.hbm, 3072, rfl⟩
abbrev main_v2685 : Ref sig .tc := ⟨.hbm, 3073, rfl⟩
abbrev main_v2686 : Ref sig .tc := ⟨.hbm, 3074, rfl⟩
abbrev main_c_377 : Ref sig .tc := ⟨.hbm, 3075, rfl⟩
abbrev main_v2687 : Ref sig .tc := ⟨.hbm, 3076, rfl⟩
abbrev main_v2688 : Ref sig .tc := ⟨.hbm, 3077, rfl⟩
abbrev main_v2689 : Ref sig .tc := ⟨.hbm, 3078, rfl⟩
abbrev main_v2690 : Ref sig .tc := ⟨.hbm, 3079, rfl⟩
abbrev main_v2691 : Ref sig .tc := ⟨.hbm, 3080, rfl⟩
abbrev main_v2692 : Ref sig .tc := ⟨.hbm, 3081, rfl⟩
abbrev main_v2693 : Ref sig .tc := ⟨.hbm, 3082, rfl⟩
abbrev main_v2694 : Ref sig .tc := ⟨.hbm, 3083, rfl⟩
abbrev main_cst_378 : Ref sig .tc := ⟨.hbm, 3084, rfl⟩
abbrev main_v2695 : Ref sig .tc := ⟨.hbm, 3085, rfl⟩
abbrev main_v2696 : Ref sig .tc := ⟨.hbm, 3086, rfl⟩
abbrev main_v2697 : Ref sig .tc := ⟨.hbm, 3087, rfl⟩
abbrev main_v2698 : Ref sig .tc := ⟨.hbm, 3088, rfl⟩
abbrev main_v2699 : Ref sig .tc := ⟨.hbm, 3089, rfl⟩
abbrev main_v2700 : Ref sig .tc := ⟨.hbm, 3090, rfl⟩
abbrev main_v2701 : Ref sig .tc := ⟨.hbm, 3091, rfl⟩
abbrev main_v2702 : Ref sig .tc := ⟨.hbm, 3092, rfl⟩
abbrev main_v2703 : Ref sig .tc := ⟨.hbm, 3093, rfl⟩
abbrev main_cst_379 : Ref sig .tc := ⟨.hbm, 3094, rfl⟩
abbrev main_v2704 : Ref sig .tc := ⟨.hbm, 3095, rfl⟩
abbrev main_v2705 : Ref sig .tc := ⟨.hbm, 3096, rfl⟩
abbrev main_v2706 : Ref sig .tc := ⟨.hbm, 3097, rfl⟩
abbrev main_v2707 : Ref sig .tc := ⟨.hbm, 3098, rfl⟩
abbrev main_v2708 : Ref sig .tc := ⟨.hbm, 3099, rfl⟩
abbrev main_c_380 : Ref sig .tc := ⟨.hbm, 3100, rfl⟩
abbrev main_v2709 : Ref sig .tc := ⟨.hbm, 3101, rfl⟩
abbrev main_v2710 : Ref sig .tc := ⟨.hbm, 3102, rfl⟩
abbrev main_v2711 : Ref sig .tc := ⟨.hbm, 3103, rfl⟩
abbrev main_v2712 : Ref sig .tc := ⟨.hbm, 3104, rfl⟩
abbrev main_v2713 : Ref sig .tc := ⟨.hbm, 3105, rfl⟩
abbrev main_v2714 : Ref sig .tc := ⟨.hbm, 3106, rfl⟩
abbrev main_v2715 : Ref sig .tc := ⟨.hbm, 3107, rfl⟩
abbrev main_v2716 : Ref sig .tc := ⟨.hbm, 3108, rfl⟩
abbrev main_cst_381 : Ref sig .tc := ⟨.hbm, 3109, rfl⟩
abbrev main_v2717 : Ref sig .tc := ⟨.hbm, 3110, rfl⟩
abbrev main_v2718 : Ref sig .tc := ⟨.hbm, 3111, rfl⟩
abbrev main_v2719 : Ref sig .tc := ⟨.hbm, 3112, rfl⟩
abbrev main_v2720 : Ref sig .tc := ⟨.hbm, 3113, rfl⟩
abbrev main_v2721 : Ref sig .tc := ⟨.hbm, 3114, rfl⟩
abbrev main_v2722 : Ref sig .tc := ⟨.hbm, 3115, rfl⟩
abbrev main_v2723 : Ref sig .tc := ⟨.hbm, 3116, rfl⟩
abbrev main_v2724 : Ref sig .tc := ⟨.hbm, 3117, rfl⟩
abbrev main_v2725 : Ref sig .tc := ⟨.hbm, 3118, rfl⟩
abbrev main_cst_382 : Ref sig .tc := ⟨.hbm, 3119, rfl⟩
abbrev main_v2726 : Ref sig .tc := ⟨.hbm, 3120, rfl⟩
abbrev main_v2727 : Ref sig .tc := ⟨.hbm, 3121, rfl⟩
abbrev main_v2728 : Ref sig .tc := ⟨.hbm, 3122, rfl⟩
abbrev main_v2729 : Ref sig .tc := ⟨.hbm, 3123, rfl⟩
abbrev main_v2730 : Ref sig .tc := ⟨.hbm, 3124, rfl⟩
abbrev main_c_383 : Ref sig .tc := ⟨.hbm, 3125, rfl⟩
abbrev main_v2731 : Ref sig .tc := ⟨.hbm, 3126, rfl⟩
abbrev main_v2732 : Ref sig .tc := ⟨.hbm, 3127, rfl⟩
abbrev main_v2733 : Ref sig .tc := ⟨.hbm, 3128, rfl⟩
abbrev main_v2734 : Ref sig .tc := ⟨.hbm, 3129, rfl⟩
abbrev main_v2735 : Ref sig .tc := ⟨.hbm, 3130, rfl⟩
abbrev main_v2736 : Ref sig .tc := ⟨.hbm, 3131, rfl⟩
abbrev main_v2737 : Ref sig .tc := ⟨.hbm, 3132, rfl⟩
abbrev main_v2738 : Ref sig .tc := ⟨.hbm, 3133, rfl⟩
abbrev main_cst_384 : Ref sig .tc := ⟨.hbm, 3134, rfl⟩
abbrev main_v2739 : Ref sig .tc := ⟨.hbm, 3135, rfl⟩
abbrev main_v2740 : Ref sig .tc := ⟨.hbm, 3136, rfl⟩
abbrev main_v2741 : Ref sig .tc := ⟨.hbm, 3137, rfl⟩
abbrev main_v2742 : Ref sig .tc := ⟨.hbm, 3138, rfl⟩
abbrev main_v2743 : Ref sig .tc := ⟨.hbm, 3139, rfl⟩
abbrev main_v2744 : Ref sig .tc := ⟨.hbm, 3140, rfl⟩
abbrev main_v2745 : Ref sig .tc := ⟨.hbm, 3141, rfl⟩
abbrev main_v2746 : Ref sig .tc := ⟨.hbm, 3142, rfl⟩
abbrev main_v2747 : Ref sig .tc := ⟨.hbm, 3143, rfl⟩
abbrev main_cst_385 : Ref sig .tc := ⟨.hbm, 3144, rfl⟩
abbrev main_v2748 : Ref sig .tc := ⟨.hbm, 3145, rfl⟩
abbrev main_v2749 : Ref sig .tc := ⟨.hbm, 3146, rfl⟩
abbrev main_v2750 : Ref sig .tc := ⟨.hbm, 3147, rfl⟩
abbrev main_v2751 : Ref sig .tc := ⟨.hbm, 3148, rfl⟩
abbrev main_v2752 : Ref sig .tc := ⟨.hbm, 3149, rfl⟩
abbrev main_c_386 : Ref sig .tc := ⟨.hbm, 3150, rfl⟩
abbrev main_v2753 : Ref sig .tc := ⟨.hbm, 3151, rfl⟩
abbrev main_v2754 : Ref sig .tc := ⟨.hbm, 3152, rfl⟩
abbrev main_v2755 : Ref sig .tc := ⟨.hbm, 3153, rfl⟩
abbrev main_v2756 : Ref sig .tc := ⟨.hbm, 3154, rfl⟩
abbrev main_v2757 : Ref sig .tc := ⟨.hbm, 3155, rfl⟩
abbrev main_v2758 : Ref sig .tc := ⟨.hbm, 3156, rfl⟩
abbrev main_v2759 : Ref sig .tc := ⟨.hbm, 3157, rfl⟩
abbrev main_v2760 : Ref sig .tc := ⟨.hbm, 3158, rfl⟩
abbrev main_cst_387 : Ref sig .tc := ⟨.hbm, 3159, rfl⟩
abbrev main_v2761 : Ref sig .tc := ⟨.hbm, 3160, rfl⟩
abbrev main_v2762 : Ref sig .tc := ⟨.hbm, 3161, rfl⟩
abbrev main_v2763 : Ref sig .tc := ⟨.hbm, 3162, rfl⟩
abbrev main_v2764 : Ref sig .tc := ⟨.hbm, 3163, rfl⟩
abbrev main_v2765 : Ref sig .tc := ⟨.hbm, 3164, rfl⟩
abbrev main_v2766 : Ref sig .tc := ⟨.hbm, 3165, rfl⟩
abbrev main_v2767 : Ref sig .tc := ⟨.hbm, 3166, rfl⟩
abbrev main_v2768 : Ref sig .tc := ⟨.hbm, 3167, rfl⟩
abbrev main_v2769 : Ref sig .tc := ⟨.hbm, 3168, rfl⟩
abbrev main_cst_388 : Ref sig .tc := ⟨.hbm, 3169, rfl⟩
abbrev main_v2770 : Ref sig .tc := ⟨.hbm, 3170, rfl⟩
abbrev main_v2771 : Ref sig .tc := ⟨.hbm, 3171, rfl⟩
abbrev main_v2772 : Ref sig .tc := ⟨.hbm, 3172, rfl⟩
abbrev main_v2773 : Ref sig .tc := ⟨.hbm, 3173, rfl⟩
abbrev main_v2774 : Ref sig .tc := ⟨.hbm, 3174, rfl⟩
abbrev main_c_389 : Ref sig .tc := ⟨.hbm, 3175, rfl⟩
abbrev main_v2775 : Ref sig .tc := ⟨.hbm, 3176, rfl⟩
abbrev main_v2776 : Ref sig .tc := ⟨.hbm, 3177, rfl⟩
abbrev main_v2777 : Ref sig .tc := ⟨.hbm, 3178, rfl⟩
abbrev main_v2778 : Ref sig .tc := ⟨.hbm, 3179, rfl⟩
abbrev main_v2779 : Ref sig .tc := ⟨.hbm, 3180, rfl⟩
abbrev main_v2780 : Ref sig .tc := ⟨.hbm, 3181, rfl⟩
abbrev main_v2781 : Ref sig .tc := ⟨.hbm, 3182, rfl⟩
abbrev main_v2782 : Ref sig .tc := ⟨.hbm, 3183, rfl⟩
abbrev main_v2783 : Ref sig .tc := ⟨.hbm, 3184, rfl⟩
abbrev main_v2784 : Ref sig .tc := ⟨.hbm, 3185, rfl⟩
abbrev main_v2785 : Ref sig .tc := ⟨.hbm, 3186, rfl⟩
abbrev main_v2786 : Ref sig .tc := ⟨.hbm, 3187, rfl⟩
abbrev main_v2787 : Ref sig .tc := ⟨.hbm, 3188, rfl⟩
abbrev main_v2788 : Ref sig .tc := ⟨.hbm, 3189, rfl⟩
abbrev main_v2789 : Ref sig .tc := ⟨.hbm, 3190, rfl⟩
abbrev main_v2790 : Ref sig .tc := ⟨.hbm, 3191, rfl⟩
abbrev main_v2791 : Ref sig .tc := ⟨.hbm, 3192, rfl⟩
abbrev main_v2792 : Ref sig .tc := ⟨.hbm, 3193, rfl⟩
abbrev main_v2793 : Ref sig .tc := ⟨.hbm, 3194, rfl⟩
abbrev main_v2794 : Ref sig .tc := ⟨.hbm, 3195, rfl⟩
abbrev main_v2795 : Ref sig .tc := ⟨.hbm, 3196, rfl⟩
abbrev main_v2796 : Ref sig .tc := ⟨.hbm, 3197, rfl⟩
abbrev main_v2797 : Ref sig .tc := ⟨.hbm, 3198, rfl⟩
abbrev main_v2798 : Ref sig .tc := ⟨.hbm, 3199, rfl⟩
abbrev main_v2799 : Ref sig .tc := ⟨.hbm, 3200, rfl⟩
abbrev main_v2800 : Ref sig .tc := ⟨.hbm, 3201, rfl⟩
abbrev main_v2801 : Ref sig .tc := ⟨.hbm, 3202, rfl⟩
abbrev main_v2802 : Ref sig .tc := ⟨.hbm, 3203, rfl⟩
abbrev main_cst_390 : Ref sig .tc := ⟨.hbm, 3204, rfl⟩
abbrev main_v2803 : Ref sig .tc := ⟨.hbm, 3205, rfl⟩
abbrev main_cst_391 : Ref sig .tc := ⟨.hbm, 3206, rfl⟩
abbrev main_v2804 : Ref sig .tc := ⟨.hbm, 3207, rfl⟩
abbrev main_v2805 : Ref sig .tc := ⟨.hbm, 3208, rfl⟩
abbrev main_v2806 : Ref sig .tc := ⟨.hbm, 3209, rfl⟩
abbrev main_v2807 : Ref sig .tc := ⟨.hbm, 3210, rfl⟩
abbrev main_v2808 : Ref sig .tc := ⟨.hbm, 3211, rfl⟩
abbrev main_v2809 : Ref sig .tc := ⟨.hbm, 3212, rfl⟩
abbrev main_v2810 : Ref sig .tc := ⟨.hbm, 3213, rfl⟩
abbrev main_v2811 : Ref sig .tc := ⟨.hbm, 3214, rfl⟩
abbrev main_v2812 : Ref sig .tc := ⟨.hbm, 3215, rfl⟩
abbrev main_v2813 : Ref sig .tc := ⟨.hbm, 3216, rfl⟩
abbrev main_v2814 : Ref sig .tc := ⟨.hbm, 3217, rfl⟩
abbrev main_cst_392 : Ref sig .tc := ⟨.hbm, 3218, rfl⟩
abbrev main_v2815 : Ref sig .tc := ⟨.hbm, 3219, rfl⟩
abbrev main_v2816 : Ref sig .tc := ⟨.hbm, 3220, rfl⟩
abbrev main_v2817 : Ref sig .tc := ⟨.hbm, 3221, rfl⟩
abbrev main_v2818 : Ref sig .tc := ⟨.hbm, 3222, rfl⟩
abbrev main_v2819 : Ref sig .tc := ⟨.hbm, 3223, rfl⟩
abbrev main_v2820 : Ref sig .tc := ⟨.hbm, 3224, rfl⟩
abbrev main_v2821 : Ref sig .tc := ⟨.hbm, 3225, rfl⟩
abbrev main_v2822 : Ref sig .tc := ⟨.hbm, 3226, rfl⟩
abbrev main_v2823 : Ref sig .tc := ⟨.hbm, 3227, rfl⟩
abbrev main_cst_393 : Ref sig .tc := ⟨.hbm, 3228, rfl⟩
abbrev main_v2824 : Ref sig .tc := ⟨.hbm, 3229, rfl⟩
abbrev main_v2825 : Ref sig .tc := ⟨.hbm, 3230, rfl⟩
abbrev main_v2826 : Ref sig .tc := ⟨.hbm, 3231, rfl⟩
abbrev main_v2827 : Ref sig .tc := ⟨.hbm, 3232, rfl⟩
abbrev main_v2828 : Ref sig .tc := ⟨.hbm, 3233, rfl⟩
abbrev main_c_394 : Ref sig .tc := ⟨.hbm, 3234, rfl⟩
abbrev main_v2829 : Ref sig .tc := ⟨.hbm, 3235, rfl⟩
abbrev main_v2830 : Ref sig .tc := ⟨.hbm, 3236, rfl⟩
abbrev main_v2831 : Ref sig .tc := ⟨.hbm, 3237, rfl⟩
abbrev main_v2832 : Ref sig .tc := ⟨.hbm, 3238, rfl⟩
abbrev main_v2833 : Ref sig .tc := ⟨.hbm, 3239, rfl⟩
abbrev main_v2834 : Ref sig .tc := ⟨.hbm, 3240, rfl⟩
abbrev main_v2835 : Ref sig .tc := ⟨.hbm, 3241, rfl⟩
abbrev main_v2836 : Ref sig .tc := ⟨.hbm, 3242, rfl⟩
abbrev main_cst_395 : Ref sig .tc := ⟨.hbm, 3243, rfl⟩
abbrev main_v2837 : Ref sig .tc := ⟨.hbm, 3244, rfl⟩
abbrev main_v2838 : Ref sig .tc := ⟨.hbm, 3245, rfl⟩
abbrev main_v2839 : Ref sig .tc := ⟨.hbm, 3246, rfl⟩
abbrev main_v2840 : Ref sig .tc := ⟨.hbm, 3247, rfl⟩
abbrev main_v2841 : Ref sig .tc := ⟨.hbm, 3248, rfl⟩
abbrev main_v2842 : Ref sig .tc := ⟨.hbm, 3249, rfl⟩
abbrev main_v2843 : Ref sig .tc := ⟨.hbm, 3250, rfl⟩
abbrev main_v2844 : Ref sig .tc := ⟨.hbm, 3251, rfl⟩
abbrev main_v2845 : Ref sig .tc := ⟨.hbm, 3252, rfl⟩
abbrev main_cst_396 : Ref sig .tc := ⟨.hbm, 3253, rfl⟩
abbrev main_v2846 : Ref sig .tc := ⟨.hbm, 3254, rfl⟩
abbrev main_v2847 : Ref sig .tc := ⟨.hbm, 3255, rfl⟩
abbrev main_v2848 : Ref sig .tc := ⟨.hbm, 3256, rfl⟩
abbrev main_v2849 : Ref sig .tc := ⟨.hbm, 3257, rfl⟩
abbrev main_v2850 : Ref sig .tc := ⟨.hbm, 3258, rfl⟩
abbrev main_c_397 : Ref sig .tc := ⟨.hbm, 3259, rfl⟩
abbrev main_v2851 : Ref sig .tc := ⟨.hbm, 3260, rfl⟩
abbrev main_v2852 : Ref sig .tc := ⟨.hbm, 3261, rfl⟩
abbrev main_v2853 : Ref sig .tc := ⟨.hbm, 3262, rfl⟩
abbrev main_v2854 : Ref sig .tc := ⟨.hbm, 3263, rfl⟩
abbrev main_v2855 : Ref sig .tc := ⟨.hbm, 3264, rfl⟩
abbrev main_v2856 : Ref sig .tc := ⟨.hbm, 3265, rfl⟩
abbrev main_v2857 : Ref sig .tc := ⟨.hbm, 3266, rfl⟩
abbrev main_v2858 : Ref sig .tc := ⟨.hbm, 3267, rfl⟩
abbrev main_cst_398 : Ref sig .tc := ⟨.hbm, 3268, rfl⟩
abbrev main_v2859 : Ref sig .tc := ⟨.hbm, 3269, rfl⟩
abbrev main_v2860 : Ref sig .tc := ⟨.hbm, 3270, rfl⟩
abbrev main_v2861 : Ref sig .tc := ⟨.hbm, 3271, rfl⟩
abbrev main_v2862 : Ref sig .tc := ⟨.hbm, 3272, rfl⟩
abbrev main_v2863 : Ref sig .tc := ⟨.hbm, 3273, rfl⟩
abbrev main_v2864 : Ref sig .tc := ⟨.hbm, 3274, rfl⟩
abbrev main_v2865 : Ref sig .tc := ⟨.hbm, 3275, rfl⟩
abbrev main_v2866 : Ref sig .tc := ⟨.hbm, 3276, rfl⟩
abbrev main_v2867 : Ref sig .tc := ⟨.hbm, 3277, rfl⟩
abbrev main_cst_399 : Ref sig .tc := ⟨.hbm, 3278, rfl⟩
abbrev main_v2868 : Ref sig .tc := ⟨.hbm, 3279, rfl⟩
abbrev main_v2869 : Ref sig .tc := ⟨.hbm, 3280, rfl⟩
abbrev main_v2870 : Ref sig .tc := ⟨.hbm, 3281, rfl⟩
abbrev main_v2871 : Ref sig .tc := ⟨.hbm, 3282, rfl⟩
abbrev main_v2872 : Ref sig .tc := ⟨.hbm, 3283, rfl⟩
abbrev main_c_400 : Ref sig .tc := ⟨.hbm, 3284, rfl⟩
abbrev main_v2873 : Ref sig .tc := ⟨.hbm, 3285, rfl⟩
abbrev main_v2874 : Ref sig .tc := ⟨.hbm, 3286, rfl⟩
abbrev main_v2875 : Ref sig .tc := ⟨.hbm, 3287, rfl⟩
abbrev main_v2876 : Ref sig .tc := ⟨.hbm, 3288, rfl⟩
abbrev main_v2877 : Ref sig .tc := ⟨.hbm, 3289, rfl⟩
abbrev main_v2878 : Ref sig .tc := ⟨.hbm, 3290, rfl⟩
abbrev main_v2879 : Ref sig .tc := ⟨.hbm, 3291, rfl⟩
abbrev main_v2880 : Ref sig .tc := ⟨.hbm, 3292, rfl⟩
abbrev main_cst_401 : Ref sig .tc := ⟨.hbm, 3293, rfl⟩
abbrev main_v2881 : Ref sig .tc := ⟨.hbm, 3294, rfl⟩
abbrev main_v2882 : Ref sig .tc := ⟨.hbm, 3295, rfl⟩
abbrev main_v2883 : Ref sig .tc := ⟨.hbm, 3296, rfl⟩
abbrev main_v2884 : Ref sig .tc := ⟨.hbm, 3297, rfl⟩
abbrev main_v2885 : Ref sig .tc := ⟨.hbm, 3298, rfl⟩
abbrev main_v2886 : Ref sig .tc := ⟨.hbm, 3299, rfl⟩
abbrev main_v2887 : Ref sig .tc := ⟨.hbm, 3300, rfl⟩
abbrev main_v2888 : Ref sig .tc := ⟨.hbm, 3301, rfl⟩
abbrev main_v2889 : Ref sig .tc := ⟨.hbm, 3302, rfl⟩
abbrev main_cst_402 : Ref sig .tc := ⟨.hbm, 3303, rfl⟩
abbrev main_v2890 : Ref sig .tc := ⟨.hbm, 3304, rfl⟩
abbrev main_v2891 : Ref sig .tc := ⟨.hbm, 3305, rfl⟩
abbrev main_v2892 : Ref sig .tc := ⟨.hbm, 3306, rfl⟩
abbrev main_v2893 : Ref sig .tc := ⟨.hbm, 3307, rfl⟩
abbrev main_v2894 : Ref sig .tc := ⟨.hbm, 3308, rfl⟩
abbrev main_c_403 : Ref sig .tc := ⟨.hbm, 3309, rfl⟩
abbrev main_v2895 : Ref sig .tc := ⟨.hbm, 3310, rfl⟩
abbrev main_v2896 : Ref sig .tc := ⟨.hbm, 3311, rfl⟩
abbrev main_v2897 : Ref sig .tc := ⟨.hbm, 3312, rfl⟩
abbrev main_v2898 : Ref sig .tc := ⟨.hbm, 3313, rfl⟩
abbrev main_cst_404 : Ref sig .tc := ⟨.hbm, 3314, rfl⟩
abbrev main_v2899 : Ref sig .tc := ⟨.hbm, 3315, rfl⟩
abbrev main_v2900 : Ref sig .tc := ⟨.hbm, 3316, rfl⟩
abbrev main_v2901 : Ref sig .tc := ⟨.hbm, 3317, rfl⟩
abbrev main_c_405 : Ref sig .tc := ⟨.hbm, 3318, rfl⟩
abbrev main_v2902 : Ref sig .tc := ⟨.hbm, 3319, rfl⟩
abbrev main_v2903 : Ref sig .tc := ⟨.hbm, 3320, rfl⟩
abbrev main_cst_406 : Ref sig .tc := ⟨.hbm, 3321, rfl⟩
abbrev main_v2904 : Ref sig .tc := ⟨.hbm, 3322, rfl⟩
abbrev main_cst_407 : Ref sig .tc := ⟨.hbm, 3323, rfl⟩
abbrev main_v2905 : Ref sig .tc := ⟨.hbm, 3324, rfl⟩
abbrev main_v2906 : Ref sig .tc := ⟨.hbm, 3325, rfl⟩
abbrev main_v2907 : Ref sig .tc := ⟨.hbm, 3326, rfl⟩
abbrev main_v2908 : Ref sig .tc := ⟨.hbm, 3327, rfl⟩
abbrev main_v2909 : Ref sig .tc := ⟨.hbm, 3328, rfl⟩
abbrev main_v2910 : Ref sig .tc := ⟨.hbm, 3329, rfl⟩
abbrev main_v2911 : Ref sig .tc := ⟨.hbm, 3330, rfl⟩
abbrev main_v2912 : Ref sig .tc := ⟨.hbm, 3331, rfl⟩
abbrev main_v2913 : Ref sig .tc := ⟨.hbm, 3332, rfl⟩
abbrev main_v2914 : Ref sig .tc := ⟨.hbm, 3333, rfl⟩
abbrev main_v2915 : Ref sig .tc := ⟨.hbm, 3334, rfl⟩
abbrev main_v2916 : Ref sig .tc := ⟨.hbm, 3335, rfl⟩
abbrev main_v2917 : Ref sig .tc := ⟨.hbm, 3336, rfl⟩
abbrev main_cst_408 : Ref sig .tc := ⟨.hbm, 3337, rfl⟩
abbrev main_v2918 : Ref sig .tc := ⟨.hbm, 3338, rfl⟩
abbrev main_cst_409 : Ref sig .tc := ⟨.hbm, 3339, rfl⟩
abbrev main_v2919 : Ref sig .tc := ⟨.hbm, 3340, rfl⟩
abbrev main_v2920 : Ref sig .tc := ⟨.hbm, 3341, rfl⟩
abbrev main_v2921 : Ref sig .tc := ⟨.hbm, 3342, rfl⟩
abbrev main_v2922 : Ref sig .tc := ⟨.hbm, 3343, rfl⟩
abbrev main_v2923 : Ref sig .tc := ⟨.hbm, 3344, rfl⟩
abbrev main_v2924 : Ref sig .tc := ⟨.hbm, 3345, rfl⟩
abbrev main_v2925 : Ref sig .tc := ⟨.hbm, 3346, rfl⟩
abbrev main_cst_410 : Ref sig .tc := ⟨.hbm, 3347, rfl⟩
abbrev main_v2926 : Ref sig .tc := ⟨.hbm, 3348, rfl⟩
abbrev main_v2927 : Ref sig .tc := ⟨.hbm, 3349, rfl⟩
abbrev main_v2928 : Ref sig .tc := ⟨.hbm, 3350, rfl⟩
abbrev main_c_411 : Ref sig .tc := ⟨.hbm, 3351, rfl⟩
abbrev main_v2929 : Ref sig .tc := ⟨.hbm, 3352, rfl⟩
abbrev main_v2930 : Ref sig .tc := ⟨.hbm, 3353, rfl⟩
abbrev main_v2931 : Ref sig .tc := ⟨.hbm, 3354, rfl⟩
abbrev main_v2932 : Ref sig .tc := ⟨.hbm, 3355, rfl⟩
abbrev main_v2933 : Ref sig .tc := ⟨.hbm, 3356, rfl⟩
abbrev main_v2934 : Ref sig .tc := ⟨.hbm, 3357, rfl⟩
abbrev main_v2935 : Ref sig .tc := ⟨.hbm, 3358, rfl⟩
abbrev main_v2936 : Ref sig .tc := ⟨.hbm, 3359, rfl⟩
abbrev main_cst_412 : Ref sig .tc := ⟨.hbm, 3360, rfl⟩
abbrev main_v2937 : Ref sig .tc := ⟨.hbm, 3361, rfl⟩
abbrev main_v2938 : Ref sig .tc := ⟨.hbm, 3362, rfl⟩
abbrev main_v2939 : Ref sig .tc := ⟨.hbm, 3363, rfl⟩
abbrev main_v2940 : Ref sig .tc := ⟨.hbm, 3364, rfl⟩
abbrev main_v2941 : Ref sig .tc := ⟨.hbm, 3365, rfl⟩
abbrev main_v2942 : Ref sig .tc := ⟨.hbm, 3366, rfl⟩
abbrev main_v2943 : Ref sig .tc := ⟨.hbm, 3367, rfl⟩
abbrev main_v2944 : Ref sig .tc := ⟨.hbm, 3368, rfl⟩
abbrev main_v2945 : Ref sig .tc := ⟨.hbm, 3369, rfl⟩
abbrev main_cst_413 : Ref sig .tc := ⟨.hbm, 3370, rfl⟩
abbrev main_v2946 : Ref sig .tc := ⟨.hbm, 3371, rfl⟩
abbrev main_v2947 : Ref sig .tc := ⟨.hbm, 3372, rfl⟩
abbrev main_v2948 : Ref sig .tc := ⟨.hbm, 3373, rfl⟩
abbrev main_v2949 : Ref sig .tc := ⟨.hbm, 3374, rfl⟩
abbrev main_v2950 : Ref sig .tc := ⟨.hbm, 3375, rfl⟩
abbrev main_c_414 : Ref sig .tc := ⟨.hbm, 3376, rfl⟩
abbrev main_v2951 : Ref sig .tc := ⟨.hbm, 3377, rfl⟩
abbrev main_v2952 : Ref sig .tc := ⟨.hbm, 3378, rfl⟩
abbrev main_v2953 : Ref sig .tc := ⟨.hbm, 3379, rfl⟩
abbrev main_v2954 : Ref sig .tc := ⟨.hbm, 3380, rfl⟩
abbrev main_v2955 : Ref sig .tc := ⟨.hbm, 3381, rfl⟩
abbrev main_v2956 : Ref sig .tc := ⟨.hbm, 3382, rfl⟩
abbrev main_v2957 : Ref sig .tc := ⟨.hbm, 3383, rfl⟩
abbrev main_v2958 : Ref sig .tc := ⟨.hbm, 3384, rfl⟩
abbrev main_cst_415 : Ref sig .tc := ⟨.hbm, 3385, rfl⟩
abbrev main_v2959 : Ref sig .tc := ⟨.hbm, 3386, rfl⟩
abbrev main_v2960 : Ref sig .tc := ⟨.hbm, 3387, rfl⟩
abbrev main_v2961 : Ref sig .tc := ⟨.hbm, 3388, rfl⟩
abbrev main_v2962 : Ref sig .tc := ⟨.hbm, 3389, rfl⟩
abbrev main_v2963 : Ref sig .tc := ⟨.hbm, 3390, rfl⟩
abbrev main_v2964 : Ref sig .tc := ⟨.hbm, 3391, rfl⟩
abbrev main_v2965 : Ref sig .tc := ⟨.hbm, 3392, rfl⟩
abbrev main_v2966 : Ref sig .tc := ⟨.hbm, 3393, rfl⟩
abbrev main_v2967 : Ref sig .tc := ⟨.hbm, 3394, rfl⟩
abbrev main_cst_416 : Ref sig .tc := ⟨.hbm, 3395, rfl⟩
abbrev main_v2968 : Ref sig .tc := ⟨.hbm, 3396, rfl⟩
abbrev main_v2969 : Ref sig .tc := ⟨.hbm, 3397, rfl⟩
abbrev main_v2970 : Ref sig .tc := ⟨.hbm, 3398, rfl⟩
abbrev main_v2971 : Ref sig .tc := ⟨.hbm, 3399, rfl⟩
abbrev main_v2972 : Ref sig .tc := ⟨.hbm, 3400, rfl⟩
abbrev main_c_417 : Ref sig .tc := ⟨.hbm, 3401, rfl⟩
abbrev main_v2973 : Ref sig .tc := ⟨.hbm, 3402, rfl⟩
abbrev main_v2974 : Ref sig .tc := ⟨.hbm, 3403, rfl⟩
abbrev main_v2975 : Ref sig .tc := ⟨.hbm, 3404, rfl⟩
abbrev main_v2976 : Ref sig .tc := ⟨.hbm, 3405, rfl⟩
abbrev main_v2977 : Ref sig .tc := ⟨.hbm, 3406, rfl⟩
abbrev main_v2978 : Ref sig .tc := ⟨.hbm, 3407, rfl⟩
abbrev main_v2979 : Ref sig .tc := ⟨.hbm, 3408, rfl⟩
abbrev main_v2980 : Ref sig .tc := ⟨.hbm, 3409, rfl⟩
abbrev main_cst_418 : Ref sig .tc := ⟨.hbm, 3410, rfl⟩
abbrev main_v2981 : Ref sig .tc := ⟨.hbm, 3411, rfl⟩
abbrev main_v2982 : Ref sig .tc := ⟨.hbm, 3412, rfl⟩
abbrev main_v2983 : Ref sig .tc := ⟨.hbm, 3413, rfl⟩
abbrev main_v2984 : Ref sig .tc := ⟨.hbm, 3414, rfl⟩
abbrev main_v2985 : Ref sig .tc := ⟨.hbm, 3415, rfl⟩
abbrev main_v2986 : Ref sig .tc := ⟨.hbm, 3416, rfl⟩
abbrev main_v2987 : Ref sig .tc := ⟨.hbm, 3417, rfl⟩
abbrev main_v2988 : Ref sig .tc := ⟨.hbm, 3418, rfl⟩
abbrev main_v2989 : Ref sig .tc := ⟨.hbm, 3419, rfl⟩
abbrev main_cst_419 : Ref sig .tc := ⟨.hbm, 3420, rfl⟩
abbrev main_v2990 : Ref sig .tc := ⟨.hbm, 3421, rfl⟩
abbrev main_v2991 : Ref sig .tc := ⟨.hbm, 3422, rfl⟩
abbrev main_v2992 : Ref sig .tc := ⟨.hbm, 3423, rfl⟩
abbrev main_v2993 : Ref sig .tc := ⟨.hbm, 3424, rfl⟩
abbrev main_v2994 : Ref sig .tc := ⟨.hbm, 3425, rfl⟩
abbrev main_c_420 : Ref sig .tc := ⟨.hbm, 3426, rfl⟩
abbrev main_v2995 : Ref sig .tc := ⟨.hbm, 3427, rfl⟩
abbrev main_v2996 : Ref sig .tc := ⟨.hbm, 3428, rfl⟩
abbrev main_v2997 : Ref sig .tc := ⟨.hbm, 3429, rfl⟩
abbrev main_v2998 : Ref sig .tc := ⟨.hbm, 3430, rfl⟩
abbrev main_v2999 : Ref sig .tc := ⟨.hbm, 3431, rfl⟩
abbrev main_v3000 : Ref sig .tc := ⟨.hbm, 3432, rfl⟩
abbrev main_v3001 : Ref sig .tc := ⟨.hbm, 3433, rfl⟩
abbrev main_v3002 : Ref sig .tc := ⟨.hbm, 3434, rfl⟩
abbrev main_cst_421 : Ref sig .tc := ⟨.hbm, 3435, rfl⟩
abbrev main_v3003 : Ref sig .tc := ⟨.hbm, 3436, rfl⟩
abbrev main_v3004 : Ref sig .tc := ⟨.hbm, 3437, rfl⟩
abbrev main_v3005 : Ref sig .tc := ⟨.hbm, 3438, rfl⟩
abbrev main_v3006 : Ref sig .tc := ⟨.hbm, 3439, rfl⟩
abbrev main_v3007 : Ref sig .tc := ⟨.hbm, 3440, rfl⟩
abbrev main_v3008 : Ref sig .tc := ⟨.hbm, 3441, rfl⟩
abbrev main_v3009 : Ref sig .tc := ⟨.hbm, 3442, rfl⟩
abbrev main_v3010 : Ref sig .tc := ⟨.hbm, 3443, rfl⟩
abbrev main_v3011 : Ref sig .tc := ⟨.hbm, 3444, rfl⟩
abbrev main_cst_422 : Ref sig .tc := ⟨.hbm, 3445, rfl⟩
abbrev main_v3012 : Ref sig .tc := ⟨.hbm, 3446, rfl⟩
abbrev main_v3013 : Ref sig .tc := ⟨.hbm, 3447, rfl⟩
abbrev main_v3014 : Ref sig .tc := ⟨.hbm, 3448, rfl⟩
abbrev main_v3015 : Ref sig .tc := ⟨.hbm, 3449, rfl⟩
abbrev main_v3016 : Ref sig .tc := ⟨.hbm, 3450, rfl⟩
abbrev main_c_423 : Ref sig .tc := ⟨.hbm, 3451, rfl⟩
abbrev main_v3017 : Ref sig .tc := ⟨.hbm, 3452, rfl⟩
abbrev main_v3018 : Ref sig .tc := ⟨.hbm, 3453, rfl⟩
abbrev main_v3019 : Ref sig .tc := ⟨.hbm, 3454, rfl⟩
abbrev main_v3020 : Ref sig .tc := ⟨.hbm, 3455, rfl⟩
abbrev main_v3021 : Ref sig .tc := ⟨.hbm, 3456, rfl⟩
abbrev main_v3022 : Ref sig .tc := ⟨.hbm, 3457, rfl⟩
abbrev main_v3023 : Ref sig .tc := ⟨.hbm, 3458, rfl⟩
abbrev main_v3024 : Ref sig .tc := ⟨.hbm, 3459, rfl⟩
abbrev main_v3025 : Ref sig .tc := ⟨.hbm, 3460, rfl⟩
abbrev main_v3026 : Ref sig .tc := ⟨.hbm, 3461, rfl⟩
abbrev main_v3027 : Ref sig .tc := ⟨.hbm, 3462, rfl⟩
abbrev main_v3028 : Ref sig .tc := ⟨.hbm, 3463, rfl⟩
abbrev main_v3029 : Ref sig .tc := ⟨.hbm, 3464, rfl⟩
abbrev main_v3030 : Ref sig .tc := ⟨.hbm, 3465, rfl⟩
abbrev main_v3031 : Ref sig .tc := ⟨.hbm, 3466, rfl⟩
abbrev main_v3032 : Ref sig .tc := ⟨.hbm, 3467, rfl⟩
abbrev main_v3033 : Ref sig .tc := ⟨.hbm, 3468, rfl⟩
abbrev main_v3034 : Ref sig .tc := ⟨.hbm, 3469, rfl⟩
abbrev main_v3035 : Ref sig .tc := ⟨.hbm, 3470, rfl⟩
abbrev main_v3036 : Ref sig .tc := ⟨.hbm, 3471, rfl⟩
abbrev main_v3037 : Ref sig .tc := ⟨.hbm, 3472, rfl⟩
abbrev main_v3038 : Ref sig .tc := ⟨.hbm, 3473, rfl⟩
abbrev main_v3039 : Ref sig .tc := ⟨.hbm, 3474, rfl⟩
abbrev main_v3040 : Ref sig .tc := ⟨.hbm, 3475, rfl⟩
abbrev main_v3041 : Ref sig .tc := ⟨.hbm, 3476, rfl⟩
abbrev main_v3042 : Ref sig .tc := ⟨.hbm, 3477, rfl⟩
abbrev main_v3043 : Ref sig .tc := ⟨.hbm, 3478, rfl⟩
abbrev main_v3044 : Ref sig .tc := ⟨.hbm, 3479, rfl⟩
abbrev main_cst_424 : Ref sig .tc := ⟨.hbm, 3480, rfl⟩
abbrev main_v3045 : Ref sig .tc := ⟨.hbm, 3481, rfl⟩
abbrev main_cst_425 : Ref sig .tc := ⟨.hbm, 3482, rfl⟩
abbrev main_v3046 : Ref sig .tc := ⟨.hbm, 3483, rfl⟩
abbrev main_v3047 : Ref sig .tc := ⟨.hbm, 3484, rfl⟩
abbrev main_v3048 : Ref sig .tc := ⟨.hbm, 3485, rfl⟩
abbrev main_v3049 : Ref sig .tc := ⟨.hbm, 3486, rfl⟩
abbrev main_v3050 : Ref sig .tc := ⟨.hbm, 3487, rfl⟩
abbrev main_v3051 : Ref sig .tc := ⟨.hbm, 3488, rfl⟩
abbrev main_v3052 : Ref sig .tc := ⟨.hbm, 3489, rfl⟩
abbrev main_v3053 : Ref sig .tc := ⟨.hbm, 3490, rfl⟩
abbrev main_v3054 : Ref sig .tc := ⟨.hbm, 3491, rfl⟩
abbrev main_v3055 : Ref sig .tc := ⟨.hbm, 3492, rfl⟩
abbrev main_v3056 : Ref sig .tc := ⟨.hbm, 3493, rfl⟩
abbrev main_cst_426 : Ref sig .tc := ⟨.hbm, 3494, rfl⟩
abbrev main_v3057 : Ref sig .tc := ⟨.hbm, 3495, rfl⟩
abbrev main_v3058 : Ref sig .tc := ⟨.hbm, 3496, rfl⟩
abbrev main_v3059 : Ref sig .tc := ⟨.hbm, 3497, rfl⟩
abbrev main_v3060 : Ref sig .tc := ⟨.hbm, 3498, rfl⟩
abbrev main_v3061 : Ref sig .tc := ⟨.hbm, 3499, rfl⟩
abbrev main_v3062 : Ref sig .tc := ⟨.hbm, 3500, rfl⟩
abbrev main_v3063 : Ref sig .tc := ⟨.hbm, 3501, rfl⟩
abbrev main_v3064 : Ref sig .tc := ⟨.hbm, 3502, rfl⟩
abbrev main_v3065 : Ref sig .tc := ⟨.hbm, 3503, rfl⟩
abbrev main_cst_427 : Ref sig .tc := ⟨.hbm, 3504, rfl⟩
abbrev main_v3066 : Ref sig .tc := ⟨.hbm, 3505, rfl⟩
abbrev main_v3067 : Ref sig .tc := ⟨.hbm, 3506, rfl⟩
abbrev main_v3068 : Ref sig .tc := ⟨.hbm, 3507, rfl⟩
abbrev main_v3069 : Ref sig .tc := ⟨.hbm, 3508, rfl⟩
abbrev main_v3070 : Ref sig .tc := ⟨.hbm, 3509, rfl⟩
abbrev main_c_428 : Ref sig .tc := ⟨.hbm, 3510, rfl⟩
abbrev main_v3071 : Ref sig .tc := ⟨.hbm, 3511, rfl⟩
abbrev main_v3072 : Ref sig .tc := ⟨.hbm, 3512, rfl⟩
abbrev main_v3073 : Ref sig .tc := ⟨.hbm, 3513, rfl⟩
abbrev main_v3074 : Ref sig .tc := ⟨.hbm, 3514, rfl⟩
abbrev main_v3075 : Ref sig .tc := ⟨.hbm, 3515, rfl⟩
abbrev main_v3076 : Ref sig .tc := ⟨.hbm, 3516, rfl⟩
abbrev main_v3077 : Ref sig .tc := ⟨.hbm, 3517, rfl⟩
abbrev main_v3078 : Ref sig .tc := ⟨.hbm, 3518, rfl⟩
abbrev main_cst_429 : Ref sig .tc := ⟨.hbm, 3519, rfl⟩
abbrev main_v3079 : Ref sig .tc := ⟨.hbm, 3520, rfl⟩
abbrev main_v3080 : Ref sig .tc := ⟨.hbm, 3521, rfl⟩
abbrev main_v3081 : Ref sig .tc := ⟨.hbm, 3522, rfl⟩
abbrev main_v3082 : Ref sig .tc := ⟨.hbm, 3523, rfl⟩
abbrev main_v3083 : Ref sig .tc := ⟨.hbm, 3524, rfl⟩
abbrev main_v3084 : Ref sig .tc := ⟨.hbm, 3525, rfl⟩
abbrev main_v3085 : Ref sig .tc := ⟨.hbm, 3526, rfl⟩
abbrev main_v3086 : Ref sig .tc := ⟨.hbm, 3527, rfl⟩
abbrev main_v3087 : Ref sig .tc := ⟨.hbm, 3528, rfl⟩
abbrev main_cst_430 : Ref sig .tc := ⟨.hbm, 3529, rfl⟩
abbrev main_v3088 : Ref sig .tc := ⟨.hbm, 3530, rfl⟩
abbrev main_v3089 : Ref sig .tc := ⟨.hbm, 3531, rfl⟩
abbrev main_v3090 : Ref sig .tc := ⟨.hbm, 3532, rfl⟩
abbrev main_v3091 : Ref sig .tc := ⟨.hbm, 3533, rfl⟩
abbrev main_v3092 : Ref sig .tc := ⟨.hbm, 3534, rfl⟩
abbrev main_c_431 : Ref sig .tc := ⟨.hbm, 3535, rfl⟩
abbrev main_v3093 : Ref sig .tc := ⟨.hbm, 3536, rfl⟩
abbrev main_v3094 : Ref sig .tc := ⟨.hbm, 3537, rfl⟩
abbrev main_v3095 : Ref sig .tc := ⟨.hbm, 3538, rfl⟩
abbrev main_v3096 : Ref sig .tc := ⟨.hbm, 3539, rfl⟩
abbrev main_v3097 : Ref sig .tc := ⟨.hbm, 3540, rfl⟩
abbrev main_v3098 : Ref sig .tc := ⟨.hbm, 3541, rfl⟩
abbrev main_v3099 : Ref sig .tc := ⟨.hbm, 3542, rfl⟩
abbrev main_v3100 : Ref sig .tc := ⟨.hbm, 3543, rfl⟩
abbrev main_cst_432 : Ref sig .tc := ⟨.hbm, 3544, rfl⟩
abbrev main_v3101 : Ref sig .tc := ⟨.hbm, 3545, rfl⟩
abbrev main_v3102 : Ref sig .tc := ⟨.hbm, 3546, rfl⟩
abbrev main_v3103 : Ref sig .tc := ⟨.hbm, 3547, rfl⟩
abbrev main_v3104 : Ref sig .tc := ⟨.hbm, 3548, rfl⟩
abbrev main_v3105 : Ref sig .tc := ⟨.hbm, 3549, rfl⟩
abbrev main_v3106 : Ref sig .tc := ⟨.hbm, 3550, rfl⟩
abbrev main_v3107 : Ref sig .tc := ⟨.hbm, 3551, rfl⟩
abbrev main_v3108 : Ref sig .tc := ⟨.hbm, 3552, rfl⟩
abbrev main_v3109 : Ref sig .tc := ⟨.hbm, 3553, rfl⟩
abbrev main_cst_433 : Ref sig .tc := ⟨.hbm, 3554, rfl⟩
abbrev main_v3110 : Ref sig .tc := ⟨.hbm, 3555, rfl⟩
abbrev main_v3111 : Ref sig .tc := ⟨.hbm, 3556, rfl⟩
abbrev main_v3112 : Ref sig .tc := ⟨.hbm, 3557, rfl⟩
abbrev main_v3113 : Ref sig .tc := ⟨.hbm, 3558, rfl⟩
abbrev main_v3114 : Ref sig .tc := ⟨.hbm, 3559, rfl⟩
abbrev main_c_434 : Ref sig .tc := ⟨.hbm, 3560, rfl⟩
abbrev main_v3115 : Ref sig .tc := ⟨.hbm, 3561, rfl⟩
abbrev main_v3116 : Ref sig .tc := ⟨.hbm, 3562, rfl⟩
abbrev main_v3117 : Ref sig .tc := ⟨.hbm, 3563, rfl⟩
abbrev main_v3118 : Ref sig .tc := ⟨.hbm, 3564, rfl⟩
abbrev main_v3119 : Ref sig .tc := ⟨.hbm, 3565, rfl⟩
abbrev main_v3120 : Ref sig .tc := ⟨.hbm, 3566, rfl⟩
abbrev main_v3121 : Ref sig .tc := ⟨.hbm, 3567, rfl⟩
abbrev main_v3122 : Ref sig .tc := ⟨.hbm, 3568, rfl⟩
abbrev main_cst_435 : Ref sig .tc := ⟨.hbm, 3569, rfl⟩
abbrev main_v3123 : Ref sig .tc := ⟨.hbm, 3570, rfl⟩
abbrev main_v3124 : Ref sig .tc := ⟨.hbm, 3571, rfl⟩
abbrev main_v3125 : Ref sig .tc := ⟨.hbm, 3572, rfl⟩
abbrev main_v3126 : Ref sig .tc := ⟨.hbm, 3573, rfl⟩
abbrev main_v3127 : Ref sig .tc := ⟨.hbm, 3574, rfl⟩
abbrev main_v3128 : Ref sig .tc := ⟨.hbm, 3575, rfl⟩
abbrev main_v3129 : Ref sig .tc := ⟨.hbm, 3576, rfl⟩
abbrev main_v3130 : Ref sig .tc := ⟨.hbm, 3577, rfl⟩
abbrev main_v3131 : Ref sig .tc := ⟨.hbm, 3578, rfl⟩
abbrev main_cst_436 : Ref sig .tc := ⟨.hbm, 3579, rfl⟩
abbrev main_v3132 : Ref sig .tc := ⟨.hbm, 3580, rfl⟩
abbrev main_v3133 : Ref sig .tc := ⟨.hbm, 3581, rfl⟩
abbrev main_v3134 : Ref sig .tc := ⟨.hbm, 3582, rfl⟩
abbrev main_v3135 : Ref sig .tc := ⟨.hbm, 3583, rfl⟩
abbrev main_v3136 : Ref sig .tc := ⟨.hbm, 3584, rfl⟩
abbrev main_c_437 : Ref sig .tc := ⟨.hbm, 3585, rfl⟩
abbrev main_v3137 : Ref sig .tc := ⟨.hbm, 3586, rfl⟩
abbrev main_v3138 : Ref sig .tc := ⟨.hbm, 3587, rfl⟩
abbrev main_v3139 : Ref sig .tc := ⟨.hbm, 3588, rfl⟩
abbrev main_v3140 : Ref sig .tc := ⟨.hbm, 3589, rfl⟩
abbrev main_cst_438 : Ref sig .tc := ⟨.hbm, 3590, rfl⟩
abbrev main_v3141 : Ref sig .tc := ⟨.hbm, 3591, rfl⟩
abbrev main_v3142 : Ref sig .tc := ⟨.hbm, 3592, rfl⟩
abbrev main_v3143 : Ref sig .tc := ⟨.hbm, 3593, rfl⟩
abbrev main_c_439 : Ref sig .tc := ⟨.hbm, 3594, rfl⟩
abbrev main_v3144 : Ref sig .tc := ⟨.hbm, 3595, rfl⟩
abbrev main_v3145 : Ref sig .tc := ⟨.hbm, 3596, rfl⟩
abbrev main_cst_440 : Ref sig .tc := ⟨.hbm, 3597, rfl⟩
abbrev main_v3146 : Ref sig .tc := ⟨.hbm, 3598, rfl⟩
abbrev main_cst_441 : Ref sig .tc := ⟨.hbm, 3599, rfl⟩
abbrev main_v3147 : Ref sig .tc := ⟨.hbm, 3600, rfl⟩
abbrev main_v3148 : Ref sig .tc := ⟨.hbm, 3601, rfl⟩
abbrev main_v3149 : Ref sig .tc := ⟨.hbm, 3602, rfl⟩
abbrev main_v3150 : Ref sig .tc := ⟨.hbm, 3603, rfl⟩
abbrev main_v3151 : Ref sig .tc := ⟨.hbm, 3604, rfl⟩
abbrev main_v3152 : Ref sig .tc := ⟨.hbm, 3605, rfl⟩
abbrev main_v3153 : Ref sig .tc := ⟨.hbm, 3606, rfl⟩
abbrev main_v3154 : Ref sig .tc := ⟨.hbm, 3607, rfl⟩
abbrev main_v3155 : Ref sig .tc := ⟨.hbm, 3608, rfl⟩
abbrev main_v3156 : Ref sig .tc := ⟨.hbm, 3609, rfl⟩
abbrev main_v3157 : Ref sig .tc := ⟨.hbm, 3610, rfl⟩
abbrev main_v3158 : Ref sig .tc := ⟨.hbm, 3611, rfl⟩
abbrev main_v3159 : Ref sig .tc := ⟨.hbm, 3612, rfl⟩
abbrev main_cst_442 : Ref sig .tc := ⟨.hbm, 3613, rfl⟩
abbrev main_v3160 : Ref sig .tc := ⟨.hbm, 3614, rfl⟩
abbrev main_cst_443 : Ref sig .tc := ⟨.hbm, 3615, rfl⟩
abbrev main_v3161 : Ref sig .tc := ⟨.hbm, 3616, rfl⟩
abbrev main_v3162 : Ref sig .tc := ⟨.hbm, 3617, rfl⟩
abbrev main_v3163 : Ref sig .tc := ⟨.hbm, 3618, rfl⟩
abbrev main_v3164 : Ref sig .tc := ⟨.hbm, 3619, rfl⟩
abbrev main_v3165 : Ref sig .tc := ⟨.hbm, 3620, rfl⟩
abbrev main_v3166 : Ref sig .tc := ⟨.hbm, 3621, rfl⟩
abbrev main_v3167 : Ref sig .tc := ⟨.hbm, 3622, rfl⟩
abbrev main_cst_444 : Ref sig .tc := ⟨.hbm, 3623, rfl⟩
abbrev main_v3168 : Ref sig .tc := ⟨.hbm, 3624, rfl⟩
abbrev main_v3169 : Ref sig .tc := ⟨.hbm, 3625, rfl⟩
abbrev main_v3170 : Ref sig .tc := ⟨.hbm, 3626, rfl⟩
abbrev main_c_445 : Ref sig .tc := ⟨.hbm, 3627, rfl⟩
abbrev main_v3171 : Ref sig .tc := ⟨.hbm, 3628, rfl⟩
abbrev main_v3172 : Ref sig .tc := ⟨.hbm, 3629, rfl⟩
abbrev main_v3173 : Ref sig .tc := ⟨.hbm, 3630, rfl⟩
abbrev main_v3174 : Ref sig .tc := ⟨.hbm, 3631, rfl⟩
abbrev main_v3175 : Ref sig .tc := ⟨.hbm, 3632, rfl⟩
abbrev main_v3176 : Ref sig .tc := ⟨.hbm, 3633, rfl⟩
abbrev main_v3177 : Ref sig .tc := ⟨.hbm, 3634, rfl⟩
abbrev main_v3178 : Ref sig .tc := ⟨.hbm, 3635, rfl⟩
abbrev main_cst_446 : Ref sig .tc := ⟨.hbm, 3636, rfl⟩
abbrev main_v3179 : Ref sig .tc := ⟨.hbm, 3637, rfl⟩
abbrev main_v3180 : Ref sig .tc := ⟨.hbm, 3638, rfl⟩
abbrev main_v3181 : Ref sig .tc := ⟨.hbm, 3639, rfl⟩
abbrev main_v3182 : Ref sig .tc := ⟨.hbm, 3640, rfl⟩
abbrev main_v3183 : Ref sig .tc := ⟨.hbm, 3641, rfl⟩
abbrev main_v3184 : Ref sig .tc := ⟨.hbm, 3642, rfl⟩
abbrev main_v3185 : Ref sig .tc := ⟨.hbm, 3643, rfl⟩
abbrev main_v3186 : Ref sig .tc := ⟨.hbm, 3644, rfl⟩
abbrev main_v3187 : Ref sig .tc := ⟨.hbm, 3645, rfl⟩
abbrev main_cst_447 : Ref sig .tc := ⟨.hbm, 3646, rfl⟩
abbrev main_v3188 : Ref sig .tc := ⟨.hbm, 3647, rfl⟩
abbrev main_v3189 : Ref sig .tc := ⟨.hbm, 3648, rfl⟩
abbrev main_v3190 : Ref sig .tc := ⟨.hbm, 3649, rfl⟩
abbrev main_v3191 : Ref sig .tc := ⟨.hbm, 3650, rfl⟩
abbrev main_v3192 : Ref sig .tc := ⟨.hbm, 3651, rfl⟩
abbrev main_c_448 : Ref sig .tc := ⟨.hbm, 3652, rfl⟩
abbrev main_v3193 : Ref sig .tc := ⟨.hbm, 3653, rfl⟩
abbrev main_v3194 : Ref sig .tc := ⟨.hbm, 3654, rfl⟩
abbrev main_v3195 : Ref sig .tc := ⟨.hbm, 3655, rfl⟩
abbrev main_v3196 : Ref sig .tc := ⟨.hbm, 3656, rfl⟩
abbrev main_v3197 : Ref sig .tc := ⟨.hbm, 3657, rfl⟩
abbrev main_v3198 : Ref sig .tc := ⟨.hbm, 3658, rfl⟩
abbrev main_v3199 : Ref sig .tc := ⟨.hbm, 3659, rfl⟩
abbrev main_v3200 : Ref sig .tc := ⟨.hbm, 3660, rfl⟩
abbrev main_cst_449 : Ref sig .tc := ⟨.hbm, 3661, rfl⟩
abbrev main_v3201 : Ref sig .tc := ⟨.hbm, 3662, rfl⟩
abbrev main_v3202 : Ref sig .tc := ⟨.hbm, 3663, rfl⟩
abbrev main_v3203 : Ref sig .tc := ⟨.hbm, 3664, rfl⟩
abbrev main_v3204 : Ref sig .tc := ⟨.hbm, 3665, rfl⟩
abbrev main_v3205 : Ref sig .tc := ⟨.hbm, 3666, rfl⟩
abbrev main_v3206 : Ref sig .tc := ⟨.hbm, 3667, rfl⟩
abbrev main_v3207 : Ref sig .tc := ⟨.hbm, 3668, rfl⟩
abbrev main_v3208 : Ref sig .tc := ⟨.hbm, 3669, rfl⟩
abbrev main_v3209 : Ref sig .tc := ⟨.hbm, 3670, rfl⟩
abbrev main_cst_450 : Ref sig .tc := ⟨.hbm, 3671, rfl⟩
abbrev main_v3210 : Ref sig .tc := ⟨.hbm, 3672, rfl⟩
abbrev main_v3211 : Ref sig .tc := ⟨.hbm, 3673, rfl⟩
abbrev main_v3212 : Ref sig .tc := ⟨.hbm, 3674, rfl⟩
abbrev main_v3213 : Ref sig .tc := ⟨.hbm, 3675, rfl⟩
abbrev main_v3214 : Ref sig .tc := ⟨.hbm, 3676, rfl⟩
abbrev main_c_451 : Ref sig .tc := ⟨.hbm, 3677, rfl⟩
abbrev main_v3215 : Ref sig .tc := ⟨.hbm, 3678, rfl⟩
abbrev main_v3216 : Ref sig .tc := ⟨.hbm, 3679, rfl⟩
abbrev main_v3217 : Ref sig .tc := ⟨.hbm, 3680, rfl⟩
abbrev main_v3218 : Ref sig .tc := ⟨.hbm, 3681, rfl⟩
abbrev main_v3219 : Ref sig .tc := ⟨.hbm, 3682, rfl⟩
abbrev main_v3220 : Ref sig .tc := ⟨.hbm, 3683, rfl⟩
abbrev main_v3221 : Ref sig .tc := ⟨.hbm, 3684, rfl⟩
abbrev main_v3222 : Ref sig .tc := ⟨.hbm, 3685, rfl⟩
abbrev main_cst_452 : Ref sig .tc := ⟨.hbm, 3686, rfl⟩
abbrev main_v3223 : Ref sig .tc := ⟨.hbm, 3687, rfl⟩
abbrev main_v3224 : Ref sig .tc := ⟨.hbm, 3688, rfl⟩
abbrev main_v3225 : Ref sig .tc := ⟨.hbm, 3689, rfl⟩
abbrev main_v3226 : Ref sig .tc := ⟨.hbm, 3690, rfl⟩
abbrev main_v3227 : Ref sig .tc := ⟨.hbm, 3691, rfl⟩
abbrev main_v3228 : Ref sig .tc := ⟨.hbm, 3692, rfl⟩
abbrev main_v3229 : Ref sig .tc := ⟨.hbm, 3693, rfl⟩
abbrev main_v3230 : Ref sig .tc := ⟨.hbm, 3694, rfl⟩
abbrev main_v3231 : Ref sig .tc := ⟨.hbm, 3695, rfl⟩
abbrev main_cst_453 : Ref sig .tc := ⟨.hbm, 3696, rfl⟩
abbrev main_v3232 : Ref sig .tc := ⟨.hbm, 3697, rfl⟩
abbrev main_v3233 : Ref sig .tc := ⟨.hbm, 3698, rfl⟩
abbrev main_v3234 : Ref sig .tc := ⟨.hbm, 3699, rfl⟩
abbrev main_v3235 : Ref sig .tc := ⟨.hbm, 3700, rfl⟩
abbrev main_v3236 : Ref sig .tc := ⟨.hbm, 3701, rfl⟩
abbrev main_c_454 : Ref sig .tc := ⟨.hbm, 3702, rfl⟩
abbrev main_v3237 : Ref sig .tc := ⟨.hbm, 3703, rfl⟩
abbrev main_v3238 : Ref sig .tc := ⟨.hbm, 3704, rfl⟩
abbrev main_v3239 : Ref sig .tc := ⟨.hbm, 3705, rfl⟩
abbrev main_v3240 : Ref sig .tc := ⟨.hbm, 3706, rfl⟩
abbrev main_v3241 : Ref sig .tc := ⟨.hbm, 3707, rfl⟩
abbrev main_v3242 : Ref sig .tc := ⟨.hbm, 3708, rfl⟩
abbrev main_v3243 : Ref sig .tc := ⟨.hbm, 3709, rfl⟩
abbrev main_v3244 : Ref sig .tc := ⟨.hbm, 3710, rfl⟩
abbrev main_cst_455 : Ref sig .tc := ⟨.hbm, 3711, rfl⟩
abbrev main_v3245 : Ref sig .tc := ⟨.hbm, 3712, rfl⟩
abbrev main_v3246 : Ref sig .tc := ⟨.hbm, 3713, rfl⟩
abbrev main_v3247 : Ref sig .tc := ⟨.hbm, 3714, rfl⟩
abbrev main_v3248 : Ref sig .tc := ⟨.hbm, 3715, rfl⟩
abbrev main_v3249 : Ref sig .tc := ⟨.hbm, 3716, rfl⟩
abbrev main_v3250 : Ref sig .tc := ⟨.hbm, 3717, rfl⟩
abbrev main_v3251 : Ref sig .tc := ⟨.hbm, 3718, rfl⟩
abbrev main_v3252 : Ref sig .tc := ⟨.hbm, 3719, rfl⟩
abbrev main_v3253 : Ref sig .tc := ⟨.hbm, 3720, rfl⟩
abbrev main_cst_456 : Ref sig .tc := ⟨.hbm, 3721, rfl⟩
abbrev main_v3254 : Ref sig .tc := ⟨.hbm, 3722, rfl⟩
abbrev main_v3255 : Ref sig .tc := ⟨.hbm, 3723, rfl⟩
abbrev main_v3256 : Ref sig .tc := ⟨.hbm, 3724, rfl⟩
abbrev main_v3257 : Ref sig .tc := ⟨.hbm, 3725, rfl⟩
abbrev main_v3258 : Ref sig .tc := ⟨.hbm, 3726, rfl⟩
abbrev main_c_457 : Ref sig .tc := ⟨.hbm, 3727, rfl⟩
abbrev main_v3259 : Ref sig .tc := ⟨.hbm, 3728, rfl⟩
abbrev main_v3260 : Ref sig .tc := ⟨.hbm, 3729, rfl⟩
abbrev main_v3261 : Ref sig .tc := ⟨.hbm, 3730, rfl⟩
abbrev main_v3262 : Ref sig .tc := ⟨.hbm, 3731, rfl⟩
abbrev main_v3263 : Ref sig .tc := ⟨.hbm, 3732, rfl⟩
abbrev main_v3264 : Ref sig .tc := ⟨.hbm, 3733, rfl⟩
abbrev main_v3265 : Ref sig .tc := ⟨.hbm, 3734, rfl⟩
abbrev main_v3266 : Ref sig .tc := ⟨.hbm, 3735, rfl⟩
abbrev main_v3267 : Ref sig .tc := ⟨.hbm, 3736, rfl⟩
abbrev main_v3268 : Ref sig .tc := ⟨.hbm, 3737, rfl⟩
abbrev main_v3269 : Ref sig .tc := ⟨.hbm, 3738, rfl⟩
abbrev main_v3270 : Ref sig .tc := ⟨.hbm, 3739, rfl⟩
abbrev main_v3271 : Ref sig .tc := ⟨.hbm, 3740, rfl⟩
abbrev main_v3272 : Ref sig .tc := ⟨.hbm, 3741, rfl⟩
abbrev main_v3273 : Ref sig .tc := ⟨.hbm, 3742, rfl⟩
abbrev main_v3274 : Ref sig .tc := ⟨.hbm, 3743, rfl⟩
abbrev main_v3275 : Ref sig .tc := ⟨.hbm, 3744, rfl⟩
abbrev main_v3276 : Ref sig .tc := ⟨.hbm, 3745, rfl⟩
abbrev main_v3277 : Ref sig .tc := ⟨.hbm, 3746, rfl⟩
abbrev main_v3278 : Ref sig .tc := ⟨.hbm, 3747, rfl⟩
abbrev main_v3279 : Ref sig .tc := ⟨.hbm, 3748, rfl⟩
abbrev main_v3280 : Ref sig .tc := ⟨.hbm, 3749, rfl⟩
abbrev main_v3281 : Ref sig .tc := ⟨.hbm, 3750, rfl⟩
abbrev main_v3282 : Ref sig .tc := ⟨.hbm, 3751, rfl⟩
abbrev main_v3283 : Ref sig .tc := ⟨.hbm, 3752, rfl⟩
abbrev main_v3284 : Ref sig .tc := ⟨.hbm, 3753, rfl⟩
abbrev main_v3285 : Ref sig .tc := ⟨.hbm, 3754, rfl⟩
abbrev main_v3286 : Ref sig .tc := ⟨.hbm, 3755, rfl⟩
abbrev main_cst_458 : Ref sig .tc := ⟨.hbm, 3756, rfl⟩
abbrev main_v3287 : Ref sig .tc := ⟨.hbm, 3757, rfl⟩
abbrev main_cst_459 : Ref sig .tc := ⟨.hbm, 3758, rfl⟩
abbrev main_v3288 : Ref sig .tc := ⟨.hbm, 3759, rfl⟩
abbrev main_v3289 : Ref sig .tc := ⟨.hbm, 3760, rfl⟩
abbrev main_v3290 : Ref sig .tc := ⟨.hbm, 3761, rfl⟩
abbrev main_v3291 : Ref sig .tc := ⟨.hbm, 3762, rfl⟩
abbrev main_v3292 : Ref sig .tc := ⟨.hbm, 3763, rfl⟩
abbrev main_v3293 : Ref sig .tc := ⟨.hbm, 3764, rfl⟩
abbrev main_v3294 : Ref sig .tc := ⟨.hbm, 3765, rfl⟩
abbrev main_v3295 : Ref sig .tc := ⟨.hbm, 3766, rfl⟩
abbrev main_v3296 : Ref sig .tc := ⟨.hbm, 3767, rfl⟩
abbrev main_v3297 : Ref sig .tc := ⟨.hbm, 3768, rfl⟩
abbrev main_v3298 : Ref sig .tc := ⟨.hbm, 3769, rfl⟩
abbrev main_cst_460 : Ref sig .tc := ⟨.hbm, 3770, rfl⟩
abbrev main_v3299 : Ref sig .tc := ⟨.hbm, 3771, rfl⟩
abbrev main_v3300 : Ref sig .tc := ⟨.hbm, 3772, rfl⟩
abbrev main_v3301 : Ref sig .tc := ⟨.hbm, 3773, rfl⟩
abbrev main_v3302 : Ref sig .tc := ⟨.hbm, 3774, rfl⟩
abbrev main_v3303 : Ref sig .tc := ⟨.hbm, 3775, rfl⟩
abbrev main_v3304 : Ref sig .tc := ⟨.hbm, 3776, rfl⟩
abbrev main_v3305 : Ref sig .tc := ⟨.hbm, 3777, rfl⟩
abbrev main_v3306 : Ref sig .tc := ⟨.hbm, 3778, rfl⟩
abbrev main_v3307 : Ref sig .tc := ⟨.hbm, 3779, rfl⟩
abbrev main_cst_461 : Ref sig .tc := ⟨.hbm, 3780, rfl⟩
abbrev main_v3308 : Ref sig .tc := ⟨.hbm, 3781, rfl⟩
abbrev main_v3309 : Ref sig .tc := ⟨.hbm, 3782, rfl⟩
abbrev main_v3310 : Ref sig .tc := ⟨.hbm, 3783, rfl⟩
abbrev main_v3311 : Ref sig .tc := ⟨.hbm, 3784, rfl⟩
abbrev main_v3312 : Ref sig .tc := ⟨.hbm, 3785, rfl⟩
abbrev main_c_462 : Ref sig .tc := ⟨.hbm, 3786, rfl⟩
abbrev main_v3313 : Ref sig .tc := ⟨.hbm, 3787, rfl⟩
abbrev main_v3314 : Ref sig .tc := ⟨.hbm, 3788, rfl⟩
abbrev main_v3315 : Ref sig .tc := ⟨.hbm, 3789, rfl⟩
abbrev main_v3316 : Ref sig .tc := ⟨.hbm, 3790, rfl⟩
abbrev main_v3317 : Ref sig .tc := ⟨.hbm, 3791, rfl⟩
abbrev main_v3318 : Ref sig .tc := ⟨.hbm, 3792, rfl⟩
abbrev main_v3319 : Ref sig .tc := ⟨.hbm, 3793, rfl⟩
abbrev main_v3320 : Ref sig .tc := ⟨.hbm, 3794, rfl⟩
abbrev main_cst_463 : Ref sig .tc := ⟨.hbm, 3795, rfl⟩
abbrev main_v3321 : Ref sig .tc := ⟨.hbm, 3796, rfl⟩
abbrev main_v3322 : Ref sig .tc := ⟨.hbm, 3797, rfl⟩
abbrev main_v3323 : Ref sig .tc := ⟨.hbm, 3798, rfl⟩
abbrev main_v3324 : Ref sig .tc := ⟨.hbm, 3799, rfl⟩
abbrev main_v3325 : Ref sig .tc := ⟨.hbm, 3800, rfl⟩
abbrev main_v3326 : Ref sig .tc := ⟨.hbm, 3801, rfl⟩
abbrev main_v3327 : Ref sig .tc := ⟨.hbm, 3802, rfl⟩
abbrev main_v3328 : Ref sig .tc := ⟨.hbm, 3803, rfl⟩
abbrev main_v3329 : Ref sig .tc := ⟨.hbm, 3804, rfl⟩
abbrev main_cst_464 : Ref sig .tc := ⟨.hbm, 3805, rfl⟩
abbrev main_v3330 : Ref sig .tc := ⟨.hbm, 3806, rfl⟩
abbrev main_v3331 : Ref sig .tc := ⟨.hbm, 3807, rfl⟩
abbrev main_v3332 : Ref sig .tc := ⟨.hbm, 3808, rfl⟩
abbrev main_v3333 : Ref sig .tc := ⟨.hbm, 3809, rfl⟩
abbrev main_v3334 : Ref sig .tc := ⟨.hbm, 3810, rfl⟩
abbrev main_c_465 : Ref sig .tc := ⟨.hbm, 3811, rfl⟩
abbrev main_v3335 : Ref sig .tc := ⟨.hbm, 3812, rfl⟩
abbrev main_v3336 : Ref sig .tc := ⟨.hbm, 3813, rfl⟩
abbrev main_v3337 : Ref sig .tc := ⟨.hbm, 3814, rfl⟩
abbrev main_v3338 : Ref sig .tc := ⟨.hbm, 3815, rfl⟩
abbrev main_v3339 : Ref sig .tc := ⟨.hbm, 3816, rfl⟩
abbrev main_v3340 : Ref sig .tc := ⟨.hbm, 3817, rfl⟩
abbrev main_v3341 : Ref sig .tc := ⟨.hbm, 3818, rfl⟩
abbrev main_v3342 : Ref sig .tc := ⟨.hbm, 3819, rfl⟩
abbrev main_cst_466 : Ref sig .tc := ⟨.hbm, 3820, rfl⟩
abbrev main_v3343 : Ref sig .tc := ⟨.hbm, 3821, rfl⟩
abbrev main_v3344 : Ref sig .tc := ⟨.hbm, 3822, rfl⟩
abbrev main_v3345 : Ref sig .tc := ⟨.hbm, 3823, rfl⟩
abbrev main_v3346 : Ref sig .tc := ⟨.hbm, 3824, rfl⟩
abbrev main_v3347 : Ref sig .tc := ⟨.hbm, 3825, rfl⟩
abbrev main_v3348 : Ref sig .tc := ⟨.hbm, 3826, rfl⟩
abbrev main_v3349 : Ref sig .tc := ⟨.hbm, 3827, rfl⟩
abbrev main_v3350 : Ref sig .tc := ⟨.hbm, 3828, rfl⟩
abbrev main_v3351 : Ref sig .tc := ⟨.hbm, 3829, rfl⟩
abbrev main_cst_467 : Ref sig .tc := ⟨.hbm, 3830, rfl⟩
abbrev main_v3352 : Ref sig .tc := ⟨.hbm, 3831, rfl⟩
abbrev main_v3353 : Ref sig .tc := ⟨.hbm, 3832, rfl⟩
abbrev main_v3354 : Ref sig .tc := ⟨.hbm, 3833, rfl⟩
abbrev main_v3355 : Ref sig .tc := ⟨.hbm, 3834, rfl⟩
abbrev main_v3356 : Ref sig .tc := ⟨.hbm, 3835, rfl⟩
abbrev main_c_468 : Ref sig .tc := ⟨.hbm, 3836, rfl⟩
abbrev main_v3357 : Ref sig .tc := ⟨.hbm, 3837, rfl⟩
abbrev main_v3358 : Ref sig .tc := ⟨.hbm, 3838, rfl⟩
abbrev main_v3359 : Ref sig .tc := ⟨.hbm, 3839, rfl⟩
abbrev main_v3360 : Ref sig .tc := ⟨.hbm, 3840, rfl⟩
abbrev main_v3361 : Ref sig .tc := ⟨.hbm, 3841, rfl⟩
abbrev main_v3362 : Ref sig .tc := ⟨.hbm, 3842, rfl⟩
abbrev main_v3363 : Ref sig .tc := ⟨.hbm, 3843, rfl⟩
abbrev main_v3364 : Ref sig .tc := ⟨.hbm, 3844, rfl⟩
abbrev main_cst_469 : Ref sig .tc := ⟨.hbm, 3845, rfl⟩
abbrev main_v3365 : Ref sig .tc := ⟨.hbm, 3846, rfl⟩
abbrev main_v3366 : Ref sig .tc := ⟨.hbm, 3847, rfl⟩
abbrev main_v3367 : Ref sig .tc := ⟨.hbm, 3848, rfl⟩
abbrev main_v3368 : Ref sig .tc := ⟨.hbm, 3849, rfl⟩
abbrev main_v3369 : Ref sig .tc := ⟨.hbm, 3850, rfl⟩
abbrev main_v3370 : Ref sig .tc := ⟨.hbm, 3851, rfl⟩
abbrev main_v3371 : Ref sig .tc := ⟨.hbm, 3852, rfl⟩
abbrev main_v3372 : Ref sig .tc := ⟨.hbm, 3853, rfl⟩
abbrev main_v3373 : Ref sig .tc := ⟨.hbm, 3854, rfl⟩
abbrev main_cst_470 : Ref sig .tc := ⟨.hbm, 3855, rfl⟩
abbrev main_v3374 : Ref sig .tc := ⟨.hbm, 3856, rfl⟩
abbrev main_v3375 : Ref sig .tc := ⟨.hbm, 3857, rfl⟩
abbrev main_v3376 : Ref sig .tc := ⟨.hbm, 3858, rfl⟩
abbrev main_v3377 : Ref sig .tc := ⟨.hbm, 3859, rfl⟩
abbrev main_v3378 : Ref sig .tc := ⟨.hbm, 3860, rfl⟩
abbrev main_c_471 : Ref sig .tc := ⟨.hbm, 3861, rfl⟩
abbrev main_v3379 : Ref sig .tc := ⟨.hbm, 3862, rfl⟩
abbrev main_v3380 : Ref sig .tc := ⟨.hbm, 3863, rfl⟩
abbrev main_v3381 : Ref sig .tc := ⟨.hbm, 3864, rfl⟩
abbrev main_v3382 : Ref sig .tc := ⟨.hbm, 3865, rfl⟩
abbrev main_cst_472 : Ref sig .tc := ⟨.hbm, 3866, rfl⟩
abbrev main_v3383 : Ref sig .tc := ⟨.hbm, 3867, rfl⟩
abbrev main_v3384 : Ref sig .tc := ⟨.hbm, 3868, rfl⟩
abbrev main_v3385 : Ref sig .tc := ⟨.hbm, 3869, rfl⟩
abbrev main_c_473 : Ref sig .tc := ⟨.hbm, 3870, rfl⟩
abbrev main_v3386 : Ref sig .tc := ⟨.hbm, 3871, rfl⟩
abbrev main_v3387 : Ref sig .tc := ⟨.hbm, 3872, rfl⟩

abbrev nD : Nat := 1
abbrev τ : Topo := Topo.v7x

variable {F : FTy → Type} [FloatOps F]

class Facts₀ : Prop where
  bcast_S_S32 : S_.BroadcastsInDim S32 (![] : Fin 0 → Fin S32.rank)
  slices_S32x5_S32x4_0_0 : S32x5.Slices ![0, 0] S32x4
  bcast_S32_S32x1_0 : S32.BroadcastsInDim S32x1 (![0] : Fin 1 → Fin S32x1.rank)
  bcast_S32x1_S32x4_0_1 : S32x1.BroadcastsInDim S32x4 (![0, 1] : Fin 2 → Fin S32x4.rank)
  bcast_S32x131072_S32x131072x1_0_1 : S32x131072.BroadcastsInDim S32x131072x1 (![0, 1] : Fin 2 → Fin S32x131072x1.rank)
  bcast_S32x131072x1_S32x131072x3_0_1_2 : S32x131072x1.BroadcastsInDim S32x131072x3 (![0, 1, 2] : Fin 3 → Fin S32x131072x3.rank)
  reducesTo_S32x131072x3_S32_d1_2 : S32x131072x3.ReducesTo [1, 2] S32
  h_S_ : 0 < S_.numel
  concatenates_S32x1_S32x4_S32x5_d1 : Shape.Concatenates [S32x1, S32x4] S32x5 1
  slices_S32x5_S32x1_0_4 : S32x5.Slices ![0, 4] S32x1
  shapeCasts_S32x1_S32 : S32x1.ShapeCasts S32
  bcast_S_S1 : S_.BroadcastsInDim S1 (![] : Fin 0 → Fin S1.rank)
  slices_S32x5_S32x1_0_3 : S32x5.Slices ![0, 3] S32x1
  slices_S32x5_S32x1_0_2 : S32x5.Slices ![0, 2] S32x1
  slices_S32x5_S32x1_0_1 : S32x5.Slices ![0, 1] S32x1
  slices_S32x5_S32x1_0_0 : S32x5.Slices ![0, 0] S32x1
  bcast_S32x1_S32x5_0_1 : S32x1.BroadcastsInDim S32x5 (![0, 1] : Fin 2 → Fin S32x5.rank)
  bcast_S32_S32x1x1_0 : S32.BroadcastsInDim S32x1x1 (![0] : Fin 1 → Fin S32x1x1.rank)
  bcast_S32x1x1_S32x131072x3_0_1_2 : S32x1x1.BroadcastsInDim S32x131072x3 (![0, 1, 2] : Fin 3 → Fin S32x131072x3.rank)
  scatter_S32x5_S1_S32_0_1_1_0_wf : ScatterDims.WF S32x5 S1 S32 [0] [1] [1] 0

variable [Facts₀]

def scatter_S32x5_S1_S32_0_1_1_0 : ScatterDims S32x5 S1 S32 where
  updateWindowDims := [0]
  insertedWindowDims := [1]
  scatterDimsToOperandDims := [1]
  indexVectorDim := 0
  wf := scatter_S32x5_S1_S32_0_1_1_0_wf

class Facts : Prop extends Facts₀ where

variable [Facts]
-- ==== Proof.KRunBits.lean ====
/-
  The kernel body run once, at symbolic operands.

  The body reads its seven input blocks (whole blocks, and single columns of the S2x1x5 and S2x1x14 blocks), computes on
  vectors of one entry per batch row of the block, and at its end writes each of its three output blocks whole, once.  So
  what the three output blocks hold when the body returns is a function of the seven input blocks alone, whatever the output
  blocks held before.  Those three functions are not written down here: they are the witnesses of a subtype, found while the
  body is executed statement by statement against the rules of the memory operations; the proof that comes with them is the
  body's triple, from the ten blocks held whole (inputs at `x0 … x6`, outputs at anything) to the ten blocks held whole,
  inputs unchanged and outputs at the witnesses.
-/
import proofs.«138430_j46600395162250_2_alg».proof.Proof.Gen.Kernel.Launch
import proofs.«138430_j46600395162250_2_alg».proof.Proof.Gen.Kernel.Skeleton
import proofs.«138430_j46600395162250_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's elements held at raw contents `f` are held at contents that read, through the memref, what `f` reads. -/
theorem pt_reads (c : Thread nD τ) {sp : Space} {sh : Shape} {e : EltTy} (m : Memref sig c.2.kind sp sh e) (q : PosShare TreeShare)
    (f : Buf (Elt F) (m.view.loc c)) :
    (m.view.loc c ↦[m.view.set]{q} f : sProp 𝕄)
      ⊢ iprop(∃ g, ⌜m.view.read (Elt F) g = m.view.read (Elt F) f⌝ ∗ (m.view.loc c ↦[m.view.set]{q} g)) := by
  iintro H; iexists f; isplitr; · ipureintro; rfl
  iexact H

set_option maxHeartbeats 16000000 in
/-- What the body leaves in its three output blocks (the updated positions' block of shape 2x131072x3, and the two
    2x1x5 blocks), as functions of the seven input blocks `x0 … x6`, WITH the body's triple: from the seven input blocks
    held whole at `x0 … x6` and the three output blocks held whole at anything, the body runs to its return, where the input
    blocks are as they were and the output blocks hold the three witnesses. -/
noncomputable def kernelRun (c : Dev nD) (i : grid0.Coords) (arg1 : Memref sig .tc .vmem S2x131072x3 .f32) (harg1 : arg1.IsWhole) (arg2 : Memref sig .tc .vmem S2x131072x1 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x131072x3 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x131072x3 .f32) (x1 : Vec F S2x131072x1 .f32) (x2 : Vec F S2x1x5 .f32) (x3 : Vec F S2x1x5 .f32) (x4 : Vec F S2x1x5 .f32) (x5 : Vec F S2x1x1 .f32) (x6 : Vec F S2x1x14 .f32) :
    { W : Vec F S2x131072x3 .f32 × Vec F S2x1x5 .f32 × Vec F S2x1x5 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ owns (c : Thread nD τ) arg8 fullShare W.1 ∗ owns (c : Thread nD τ) arg9 fullShare W.2.1 ∗ owns (c : Thread nD τ) arg10 fullShare W.2.2) -∗ K ⟨⟩))
          ⊢ wp frame (wpE (defs₀ (F := F)) Variants.none c none) E (cc0__nhc_kernel i arg1 harg1 arg2 harg2 arg3 harg3 arg4 harg4 arg5 harg5 arg6 harg6 arg7 harg7 arg8 harg8 arg9 harg9 arg10 harg10) K } := by
  refine ⟨⟨?_, ?_, ?_⟩, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec_parts!
    sl_step
    icases (pt_reads (c : Thread nD τ) arg8 fullShare _) $$ H7 with H7
    icases (pt_reads (c : Thread nD τ) arg9 fullShare _) $$ H8 with H8
    icases (pt_reads (c : Thread nD τ) arg10 fullShare _) $$ H9 with H9
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexact H7
    isplitl [H8]; · iexact H8
    iexact H9

end Cert.Kernel.Frame

end
-- ==== Proof.KVBits.lean ====
/-
  The contents of a core's buffers when the kernel's region is entered: the launch contents after the host
  operations that precede the region.
-/
import proofs.«138430_j46600395162250_2_alg».proof.Proof.Gen.Kernel.Launch
import Idealize.ShloMosaic.Lib.Pipeline.FrameSuffix

noncomputable section

namespace Cert.Kernel.Frame

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- Core c's buffer contents when the region is entered, as a valuation: the launch contents after the host operations
    before the region. -/
abbrev V0 (c : Dev nD) : Valuation τ sig (Elt F) := StableHlo.after (List.flatten [hostOps0]) (fun b => m (c, b))

/-- The same read at one of the core's references. -/
abbrev V (c : Dev nD) (b : Ref sig .tc) : Buf (Elt F) ((c : Thread nD τ).loc b) := V0 m c (Proc.devRef .tc b)

end Cert.Kernel.Frame

end
-- ==== Proof.KFrameBits.lean ====
/-
  The frame of the program around its one kernel region.

  The program is: 105 host operations, the kernel's region over a grid of 16 points with ten windows (seven fetched, three
  written back), two reshapes of the last two results.  No host operation writes an argument array, so the region finds the
  nine arguments as launched; the region's pipeline moves blocks between the windows' arrays and their staging blocks, and the
  body at a point, run on the point's input blocks, leaves the input blocks in place and the three output blocks at what the
  body's run (the witnesses found there) computes from the input blocks.  With the proof data stating exactly that, the
  library's frame run around a region gives: every execution terminates, and the nine argument arrays end as launched.
-/
import proofs.«138430_j46600395162250_2_alg».proof.Proof.KRunBits
import proofs.«138430_j46600395162250_2_alg».proof.Proof.KVBits

set_option maxRecDepth 16384

noncomputable section

namespace Cert.Kernel.Frame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host operations before the region allocate nothing. -/
theorem hostOps0_fresh : (hostOps0 : List (HloOp τ sig (Elt F))).Forall fun op => op.fresh = ∅ := by
  simp only [List.Forall]; repeat' constructor
/-- Nor do the two reshapes after it. -/
theorem hostOps1_fresh : (hostOps1 : List (HloOp τ sig (Elt F))).Forall fun op => op.fresh = ∅ := by
  simp only [List.Forall]; repeat' constructor

/-- The program is the host operations before the region, the region, and the two reshapes after it: from the launch it
    reduces to the region entered at the contents `V`, continued by the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes after the region touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the pipeline: each writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays before and after the region -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes argument 6, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes argument 7, and it is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation after the region writes argument 8, and it is no array of the pipeline: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging block holds the window's block at every point, fetched there or not, for any proof
    data whose array is the region-entry contents and whose body leaves the block in place: each of the seven input
    windows is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, the frame run's post read at the nine argument arrays
    is the frame claim's: argument 1 is the first input window's array, which the region leaves at its entry contents;
    the other eight are arrays of no window, left by the region and by the reshapes after it as the region found them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).1 0).trans (((dats 0 c).arrAt_in 0 rfl _).trans ((hA c 0).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

/-! ## The body at a point -/

/-- Each window's current staging memref at point `t`, as the pipeline passes it to the body, and its wholeness. -/
abbrev ms0_0 (t : Fin cfg0.N) : Memref sig .tc .vmem S2x131072x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x131072x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1x5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1x5 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1x14 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x131072x3 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x1x5 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x1x5 .f32 := win0_9.stage (cfg0.slots t 9)
abbrev hs0_9 (t : Fin cfg0.N) : (ms0_9 t).IsWhole := hstage0_9 ((cfg0.slots t 9).cast nbuf0_9)

/-- The body's run at point `t`: on the point's staging memrefs, at the point's seven input blocks. -/
abbrev runAt (c : Dev nD) (t : Fin cfg0.N) :=
  kernelRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t)

/-! ## The pipeline's proof data -/

/-- The proof data of the pipeline on core `c`: the arrays as the region finds them; after the body at point `t` each
    input's staging block at its block, each output's at the witness the body's run finds from the point's input blocks;
    the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (runAt m c t).1.1
    | ⟨8, _⟩ => (runAt m c t).1.2.1
    | ⟨9, _⟩ => (runAt m c t).1.2.2
  Φ _ := Pipeline.ΦA spec0 c
  q _ := fullShare
  owed _ := 0

/-- The proof data's arrays are the region-entry contents (the definition projected; the fold over the host operations
    stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (runAt m c t).1.1 := by dsimp only [dats]
theorem after0_8 (c : Dev nD) (t : Fin cfg0.N) : (dats m 0 c).after 8 t = (runAt m c t).1.2.1 := by dsimp only [dats]
theorem after0_9 (c : Dev nD) (t : Fin cfg0.N) : (dats m 0 c).after 9 t = (runAt m c t).1.2.2 := by dsimp only [dats]

/-- Each input's current staging block holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4000000 in
/-- The body at any point: the inputs' staging blocks hold the windows' blocks, so the body's run applies at them; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data and every other unscoped buffer as the
    reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any float type: the program runs to its end and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Frame

end
-- ==== Proof.KRun.lean ====
/-
  The kernel body run once, at symbolic operands.

  The body reads its seven input blocks (whole blocks, and single columns of the S2x1x5 and S2x1x14 blocks), computes on
  vectors of one entry per batch row of the block, and at its end writes each of its three output blocks whole, once.  So
  what the three output blocks hold when the body returns is a function of the seven input blocks alone, whatever the output
  blocks held before.  Those three functions are not written down here: they are the witnesses of a subtype, found while the
  body is executed statement by statement against the rules of the memory operations; the proof that comes with them is the
  body's triple, from the ten blocks held whole (inputs at `x0 … x6`, outputs at anything) to the ten blocks held whole,
  inputs unchanged and outputs at the witnesses.
-/
import proofs.«138430_j46600395162250_2_alg».proof.Proof.Gen.KernelIdeal.Launch
import proofs.«138430_j46600395162250_2_alg».proof.Proof.Gen.KernelIdeal.Skeleton
import proofs.«138430_j46600395162250_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's elements held at raw contents `f` are held at contents that read, through the memref, what `f` reads. -/
theorem pt_reads (c : Thread nD τ) {sp : Space} {sh : Shape} {e : EltTy} (m : Memref sig c.2.kind sp sh e) (q : PosShare TreeShare)
    (f : Buf (Elt F) (m.view.loc c)) :
    (m.view.loc c ↦[m.view.set]{q} f : sProp 𝕄)
      ⊢ iprop(∃ g, ⌜m.view.read (Elt F) g = m.view.read (Elt F) f⌝ ∗ (m.view.loc c ↦[m.view.set]{q} g)) := by
  iintro H; iexists f; isplitr; · ipureintro; rfl
  iexact H

set_option maxHeartbeats 16000000 in
/-- What the body leaves in its three output blocks (the updated positions' block of shape 2x131072x3, and the two
    2x1x5 blocks), as functions of the seven input blocks `x0 … x6`, WITH the body's triple: from the seven input blocks
    held whole at `x0 … x6` and the three output blocks held whole at anything, the body runs to its return, where the input
    blocks are as they were and the output blocks hold the three witnesses. -/
noncomputable def kernelRun (c : Dev nD) (i : grid0.Coords) (arg1 : Memref sig .tc .vmem S2x131072x3 .f32) (harg1 : arg1.IsWhole) (arg2 : Memref sig .tc .vmem S2x131072x1 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x131072x3 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x131072x3 .f32) (x1 : Vec F S2x131072x1 .f32) (x2 : Vec F S2x1x5 .f32) (x3 : Vec F S2x1x5 .f32) (x4 : Vec F S2x1x5 .f32) (x5 : Vec F S2x1x1 .f32) (x6 : Vec F S2x1x14 .f32) :
    { W : Vec F S2x131072x3 .f32 × Vec F S2x1x5 .f32 × Vec F S2x1x5 .f32 //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ owns (c : Thread nD τ) arg8 fullShare W.1 ∗ owns (c : Thread nD τ) arg9 fullShare W.2.1 ∗ owns (c : Thread nD τ) arg10 fullShare W.2.2) -∗ K ⟨⟩))
          ⊢ wp frame (wpE (defs₀ (F := F)) Variants.none c none) E (cc0__nhc_kernel i arg1 harg1 arg2 harg2 arg3 harg3 arg4 harg4 arg5 harg5 arg6 harg6 arg7 harg7 arg8 harg8 arg9 harg9 arg10 harg10) K } := by
  refine ⟨⟨?_, ?_, ?_⟩, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec_parts!
    sl_step
    icases (pt_reads (c : Thread nD τ) arg8 fullShare _) $$ H7 with H7
    icases (pt_reads (c : Thread nD τ) arg9 fullShare _) $$ H8 with H8
    icases (pt_reads (c : Thread nD τ) arg10 fullShare _) $$ H9 with H9
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexact H7
    isplitl [H8]; · iexact H8
    iexact H9

end Cert.KernelIdeal.Frame

end
-- ==== Proof.KV.lean ====
/-
  The contents of a core's buffers when the kernel's region is entered: the launch contents after the host
  operations that precede the region.
-/
import proofs.«138430_j46600395162250_2_alg».proof.Proof.Gen.KernelIdeal.Launch
import Idealize.ShloMosaic.Lib.Pipeline.FrameSuffix

noncomputable section

namespace Cert.KernelIdeal.Frame

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- Core c's buffer contents when the region is entered, as a valuation: the launch contents after the host operations
    before the region. -/
abbrev V0 (c : Dev nD) : Valuation τ sig (Elt F) := StableHlo.after (List.flatten [hostOps0]) (fun b => m (c, b))

/-- The same read at one of the core's references. -/
abbrev V (c : Dev nD) (b : Ref sig .tc) : Buf (Elt F) ((c : Thread nD τ).loc b) := V0 m c (Proc.devRef .tc b)

end Cert.KernelIdeal.Frame

end
-- ==== Proof.KFrame.lean ====
/-
  The frame of the program around its one kernel region.

  The program is: 105 host operations, the kernel's region over a grid of 16 points with ten windows (seven fetched, three
  written back), two reshapes of the last two results.  No host operation writes an argument array, so the region finds the
  nine arguments as launched; the region's pipeline moves blocks between the windows' arrays and their staging blocks, and the
  body at a point, run on the point's input blocks, leaves the input blocks in place and the three output blocks at what the
  body's run (the witnesses found there) computes from the input blocks.  With the proof data stating exactly that, the
  library's frame run around a region gives: every execution terminates, and the nine argument arrays end as launched.
-/
import proofs.«138430_j46600395162250_2_alg».proof.Proof.KRun
import proofs.«138430_j46600395162250_2_alg».proof.Proof.KV

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The host operations before the region allocate nothing. -/
theorem hostOps0_fresh : (hostOps0 : List (HloOp τ sig (Elt F))).Forall fun op => op.fresh = ∅ := by
  simp only [List.Forall]; repeat' constructor
/-- Nor do the two reshapes after it. -/
theorem hostOps1_fresh : (hostOps1 : List (HloOp τ sig (Elt F))).Forall fun op => op.fresh = ∅ := by
  simp only [List.Forall]; repeat' constructor

/-- The program is the host operations before the region, the region, and the two reshapes after it: from the launch it
    reduces to the region entered at the contents `V`, continued by the reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes after the region touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of the pipeline: each writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The argument arrays before and after the region -/

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 3, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes argument 4, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation after the region writes argument 5, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes argument 6, and it is no array of the pipeline: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation after the region writes argument 7, and it is no array of the pipeline: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation after the region writes argument 8, and it is no array of the pipeline: it ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging block holds the window's block at every point, fetched there or not, for any proof
    data whose array is the region-entry contents and whose body leaves the block in place: each of the seven input
    windows is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, the frame run's post read at the nine argument arrays
    is the frame claim's: argument 1 is the first input window's array, which the region leaves at its entry contents;
    the other eight are arrays of no window, left by the region and by the reshapes after it as the region found them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
      ((h c).1 0).trans (((dats 0 c).arrAt_in 0 rfl _).trans ((hA c 0).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

/-! ## The body at a point -/

/-- Each window's current staging memref at point `t`, as the pipeline passes it to the body, and its wholeness. -/
abbrev ms0_0 (t : Fin cfg0.N) : Memref sig .tc .vmem S2x131072x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x131072x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x1x5 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1x5 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1x14 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x131072x3 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x1x5 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x1x5 .f32 := win0_9.stage (cfg0.slots t 9)
abbrev hs0_9 (t : Fin cfg0.N) : (ms0_9 t).IsWhole := hstage0_9 ((cfg0.slots t 9).cast nbuf0_9)

/-- The body's run at point `t`: on the point's staging memrefs, at the point's seven input blocks. -/
abbrev runAt (c : Dev nD) (t : Fin cfg0.N) :=
  kernelRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t)

/-! ## The pipeline's proof data -/

/-- The proof data of the pipeline on core `c`: the arrays as the region finds them; after the body at point `t` each
    input's staging block at its block, each output's at the witness the body's run finds from the point's input blocks;
    the invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (runAt m c t).1.1
    | ⟨8, _⟩ => (runAt m c t).1.2.1
    | ⟨9, _⟩ => (runAt m c t).1.2.2
  Φ _ := Pipeline.ΦA spec0 c
  q _ := fullShare
  owed _ := 0

/-- The proof data's arrays are the region-entry contents (the definition projected; the fold over the host operations
    stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (runAt m c t).1.1 := by dsimp only [dats]
theorem after0_8 (c : Dev nD) (t : Fin cfg0.N) : (dats m 0 c).after 8 t = (runAt m c t).1.2.1 := by dsimp only [dats]
theorem after0_9 (c : Dev nD) (t : Fin cfg0.N) : (dats m 0 c).after 9 t = (runAt m c t).1.2.2 := by dsimp only [dats]

/-- Each input's current staging block holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 4000000 in
/-- The body at any point: the inputs' staging blocks hold the windows' blocks, so the body's run applies at them; the
    invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data and every other unscoped buffer as the
    reshapes after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any float type: the program runs to its end and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Frame

end
-- ==== Proof.KHost.lean ====
/-
  What the region finds in its input arrays. Before the region the program runs 105 array operations on the launch
  contents; seven arrays are then staged into the region. One of them (the momenta) is an argument no operation
  writes. Five are relayouts of arguments: the masses with a trailing unit axis, three [32,5] tables and the
  temperature vector with unit axes inserted. The last is the coefficient table: fourteen columns, column s being
  the per-row time step times (step scale · w_s) / 2 for a literal single-precision word w_s, laid side by side and
  recast to [32,1,14].

  Part one states each array, for any float instance, as that term of the launch contents. Part two reads each term
  at an index over the extended reals, where every operation is exact: the relayouts read the argument at the
  matching coordinates, and an entry of the coefficient table is the real number δ · (σ · ω s / 2) once the time step
  δ and the step scale σ are real, ω s being the real number the word w_s denotes.
-/
import proofs.«138430_j46600395162250_2_alg».proof.Proof.KV
import Idealize.ShloMosaic.Lib.StableHlo.Run
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal

-- the list of 105 operations is a nest of 105 conses: elaborating it recurses past the default depth
set_option maxRecDepth 1908

noncomputable section

namespace Cert.KernelIdeal.Frame

open Idealize.ShloMosaic Idealize.ShloMosaic.TcCoe
open Idealize.SL Idealize.SL.Sem
open Cert.KernelIdeal Cert.KernelIdeal.Gen
open Idealize.ShloMosaic.ValueIdx

/-! ## The arrays as terms of the launch contents, at any float instance -/

section Generic
variable {F : FTy → Type} [FloatOps F]
variable (m : (ℓ : Loc nD τ sig) → Buf (Elt F) ℓ)

/-- The fourteen single-precision words of the coefficient table, in column order (a palindromic run of seven, twice). -/
def wWord : Fin 14 → BitVec 32 :=
  ![0x3F48D5E2#32, 0x3E713A1B#32, 0xBF96BE38#32, 0x3FA85806#32, 0xBF96BE38#32, 0x3E713A1B#32, 0x3F48D5E2#32, 0x3F48D5E2#32, 0x3E713A1B#32, 0xBF96BE38#32, 0x3FA85806#32, 0xBF96BE38#32, 0x3E713A1B#32, 0x3F48D5E2#32]

/-- One column of the coefficient table as the host operations compute it from the word `w`: the per-row array
    `dtm` times the scalar `(stp · w) / 2` splat over the rows, as a one-column matrix. -/
abbrev hcol (c : Dev nD) (w : BitVec 32) : (⟨S32x1, .f32⟩ : BufTy).Contents (Elt F) :=
  broadcastInDim S32x1 ![0] bcast_S32_S32x1_0
    (mulf (m ((c : Thread nD τ).loc main_arg4) : (⟨S32, .f32⟩ : BufTy).Contents (Elt F))
      (broadcastInDim S32 ![] bcast_S_S32
        (Host.divf (mulf (m ((c : Thread nD τ).loc main_arg8) : (⟨S_, .f32⟩ : BufTy).Contents (Elt F)) (constant S_ .f32 w))
          (constant S_ .f32 0x40000000#32))))

/-- No operation writes the momenta: the region finds them as launched. -/
theorem V_arg1 (c : Dev nD) : V m c main_arg1 = m ((c : Thread nD τ).loc main_arg1) := by
  show StableHlo.after hostOps0 (fun b => m (c, b)) (Proc.devRef .tc main_arg1) = _
  after_results_simp <;> rfl

/-- The masses [32,131072] with a trailing unit axis. -/
theorem V_v71 (c : Dev nD) :
    V m c main_v71 = broadcastInDim S32x131072x1 ![0, 1] bcast_S32x131072_S32x131072x1_0_1 (m ((c : Thread nD τ).loc main_arg2)) := by
  show StableHlo.after hostOps0 (fun b => m (c, b)) (Proc.devRef .tc main_v71) = _
  after_results_simp <;> rfl

/-- The [32,5] table that is argument 6, recast to [32,1,5]. -/
theorem V_v72 (c : Dev nD) :
    V m c main_v72 = shapeCast S32x1x5 (m ((c : Thread nD τ).loc main_arg6)) shapeCasts_S32x5_S32x1x5 := by
  show StableHlo.after hostOps0 (fun b => m (c, b)) (Proc.devRef .tc main_v72) = _
  after_results_simp <;> rfl

/-- The [32,5] table that is argument 5, recast to [32,1,5]. -/
theorem V_v73 (c : Dev nD) :
    V m c main_v73 = shapeCast S32x1x5 (m ((c : Thread nD τ).loc main_arg5)) shapeCasts_S32x5_S32x1x5 := by
  show StableHlo.after hostOps0 (fun b => m (c, b)) (Proc.devRef .tc main_v73) = _
  after_results_simp <;> rfl

/-- The [32,5] table that is argument 7, recast to [32,1,5]. -/
theorem V_v74 (c : Dev nD) :
    V m c main_v74 = shapeCast S32x1x5 (m ((c : Thread nD τ).loc main_arg7)) shapeCasts_S32x5_S32x1x5 := by
  show StableHlo.after hostOps0 (fun b => m (c, b)) (Proc.devRef .tc main_v74) = _
  after_results_simp <;> rfl

/-- The temperature vector [32], recast to [32,1,1]. -/
theorem V_v75 (c : Dev nD) :
    V m c main_v75 = shapeCast S32x1x1 (m ((c : Thread nD τ).loc main_arg3)) shapeCasts_S32_S32x1x1 := by
  show StableHlo.after hostOps0 (fun b => m (c, b)) (Proc.devRef .tc main_v75) = _
  after_results_simp <;> rfl

set_option maxHeartbeats 40000000 in  -- fourteen columns, each a chain of six operations, compared through the whole list
/-- The coefficient table: the fourteen columns laid side by side, recast to [32,1,14]. -/
theorem V_v76 (c : Dev nD) :
    V m c main_v76 = shapeCast S32x1x14 (concatenate S32x14 1 [⟨S32x1, hcol m c (wWord 0)⟩, ⟨S32x1, hcol m c (wWord 1)⟩, ⟨S32x1, hcol m c (wWord 2)⟩, ⟨S32x1, hcol m c (wWord 3)⟩, ⟨S32x1, hcol m c (wWord 4)⟩, ⟨S32x1, hcol m c (wWord 5)⟩, ⟨S32x1, hcol m c (wWord 6)⟩, ⟨S32x1, hcol m c (wWord 7)⟩, ⟨S32x1, hcol m c (wWord 8)⟩, ⟨S32x1, hcol m c (wWord 9)⟩, ⟨S32x1, hcol m c (wWord 10)⟩, ⟨S32x1, hcol m c (wWord 11)⟩, ⟨S32x1, hcol m c (wWord 12)⟩, ⟨S32x1, hcol m c (wWord 13)⟩] concatenates_S32x1_S32x1_S32x1_S32x1_S32x1_S32x1_S32x1_S32x1_S32x1_S32x1_S32x1_S32x1_S32x1_S32x1_S32x14_d1) shapeCasts_S32x14_S32x1x14 := by
  show StableHlo.after hostOps0 (fun b => m (c, b)) (Proc.devRef .tc main_v76) = _
  after_results
  rfl

end Generic

/-! ## The fourteen words as reals -/

/-- The real number each word denotes. -/
def ω (s : Fin 14) : ℝ := (Ideal.ofBits .f32 (wWord s)).toReal

/-- Every word is a finite pattern (its exponent field is not all ones), so it denotes a real number. -/
theorem ofBits_wWord (s : Fin 14) : Ideal.ofBits .f32 (wWord s) = ((ω s : ℝ) : EReal) := by
  have fin : ∀ s : Fin 14, ∃ r : ℝ, Ideal.ofBits .f32 (wWord s) = (r : EReal) := by
    intro s
    fin_cases s <;> exact ⟨_, by simp [wWord, Ideal.ofBits, Ideal.ieee, -EReal.coe_mul]; rfl⟩
  obtain ⟨r, hr⟩ := fin s
  rw [ω, hr, EReal.toReal_coe]

/-- The pattern 0x40000000 is the real number two. -/
theorem ofBits_two : Ideal.ofBits .f32 0x40000000#32 = ((2 : ℝ) : EReal) := by
  simp [Ideal.ofBits, Ideal.ieee, -EReal.coe_mul]; norm_num

/-! ## A concatenation of fourteen one-column pieces, read at an index -/

/-- Fourteen [32,1] columns laid side by side, read at row `b`, column `s`: column `s` at row `b`. -/
theorem concat14_unit_apply {α : Type} (x : Fin 14 → (S32x1.Idx → α))
    (h : Shape.Concatenates [S32x1, S32x1, S32x1, S32x1, S32x1, S32x1, S32x1, S32x1, S32x1, S32x1, S32x1, S32x1, S32x1, S32x1] S32x14 1)
    (b : Fin 32) (s : Fin 14) :
    concatenate S32x14 1 [⟨S32x1, x 0⟩, ⟨S32x1, x 1⟩, ⟨S32x1, x 2⟩, ⟨S32x1, x 3⟩, ⟨S32x1, x 4⟩, ⟨S32x1, x 5⟩, ⟨S32x1, x 6⟩, ⟨S32x1, x 7⟩, ⟨S32x1, x 8⟩, ⟨S32x1, x 9⟩, ⟨S32x1, x 10⟩, ⟨S32x1, x 11⟩, ⟨S32x1, x 12⟩, ⟨S32x1, x 13⟩] h (ix2 b s) = x s (ix2 b 0) := by
  show concatenate S32x14 1 (List.ofFn fun n : Fin 14 => (⟨S32x1, x n⟩ : (s : Shape) × (s.Idx → α))) h (ix2 b s) = _
  refine concatenate_ofFn_unit_apply (t := S32x14) (s₁ := S32x1) 1 x h rfl rfl (ix2 b s) s rfl (ix2 b 0) ?_
  intro a ha
  match a, ha with
  | ⟨0, _⟩, _ => rfl
  | ⟨1, _⟩, ha => exact absurd rfl ha

section AtIdeal

variable (m : (ℓ : Loc nD τ sig) → Buf (Elt Ideal) ℓ)

/-- The mass array with a trailing unit axis reads the mass array. -/
theorem V_v71_apply (c : Dev nD) (b : Fin 32) (n : Fin 131072) :
    V m c main_v71 (ix3 b n 0) = m ((c : Thread nD τ).loc main_arg2) (ix2 b n) := by
  rw [V_v71]
  refine broadcastInDim_apply _ _ _ _ (ix2 b n) ?_
  intro a
  match a with
  | ⟨0, _⟩ => rfl
  | ⟨1, _⟩ => rfl

/-- A [32,5] array recast to [32,1,5] keeps row `b`, entry `j` at `(b, 0, j)`: both sit at row-major position 5·b + j. -/
theorem cast_S32x5_apply {α : Type} (x : S32x5.Idx → α) (b : Fin 32) (j : Fin 5) :
    shapeCast S32x1x5 x shapeCasts_S32x5_S32x1x5 (ix3 b 0 j) = x (ix2 b j) := by
  refine shapeCast_apply x _ (ix3 b 0 j) (ix2 b j) ?_
  rw [Shape.rowMajor_val_two, Shape.rowMajor_val_three]
  show b.val * 5 + j.val = (b.val * 1 + 0) * 5 + j.val
  omega

theorem V_v72_apply (c : Dev nD) (b : Fin 32) (j : Fin 5) :
    V m c main_v72 (ix3 b 0 j) = m ((c : Thread nD τ).loc main_arg6) (ix2 b j) := by
  rw [V_v72]; exact cast_S32x5_apply _ b j

theorem V_v73_apply (c : Dev nD) (b : Fin 32) (j : Fin 5) :
    V m c main_v73 (ix3 b 0 j) = m ((c : Thread nD τ).loc main_arg5) (ix2 b j) := by
  rw [V_v73]; exact cast_S32x5_apply _ b j

theorem V_v74_apply (c : Dev nD) (b : Fin 32) (j : Fin 5) :
    V m c main_v74 (ix3 b 0 j) = m ((c : Thread nD τ).loc main_arg7) (ix2 b j) := by
  rw [V_v74]; exact cast_S32x5_apply _ b j

/-- The temperature vector recast to [32,1,1] keeps entry `b` at `(b, 0, 0)`. -/
theorem V_v75_apply (c : Dev nD) (b : Fin 32) :
    V m c main_v75 (ix3 b 0 0) = m ((c : Thread nD τ).loc main_arg3) (ix1 b) := by
  rw [V_v75]
  refine shapeCast_apply _ _ (ix3 b 0 0) (ix1 b) ?_
  rw [Shape.rowMajor_val_one, Shape.rowMajor_val_three]
  show b.val = (b.val * 1 + 0) * 1 + 0
  omega

/-- One entry of a column of the coefficient table: row `b`'s time step times `(stp · w) / 2`, all three real. -/
theorem hcol_apply (c : Dev nD) (w : BitVec 32) (b : Fin 32) (δ σ r : ℝ)
    (hδ : m ((c : Thread nD τ).loc main_arg4) (ix1 b) = ((δ : ℝ) : EReal))
    (hσ : m ((c : Thread nD τ).loc main_arg8) ix0 = ((σ : ℝ) : EReal))
    (hw : Ideal.ofBits .f32 w = ((r : ℝ) : EReal)) :
    hcol m c w (ix2 b 0) = ((δ * (σ * r / 2) : ℝ) : EReal) := by
  refine (broadcastInDim_apply _ _ _ _ (ix1 b) ?_).trans ?_
  · intro a
    match a with
    | ⟨0, _⟩ => rfl
  rw [mulf_apply, broadcastInDim_scalar_apply, hδ]
  show ((δ : ℝ) : EReal) * Ideal.div (_ * Ideal.ofBits .f32 w) (Ideal.ofBits .f32 0x40000000#32) = _
  rw [hσ, hw, ofBits_two, Ideal.div_coe (by norm_num : (2 : ℝ) ≠ 0)]
  rw [← EReal.coe_mul, ← EReal.coe_mul, ← EReal.coe_mul]
  congr 1
  ring

/-- The coefficient table the region reads, at row `b` and column `s`: for a real time step δ and a real step scale σ it
    is the real number δ · (σ · ω s / 2). -/
theorem V_v76_apply (c : Dev nD) (b : Fin 32) (s : Fin 14) (δ σ : ℝ)
    (hδ : m ((c : Thread nD τ).loc main_arg4) (ix1 b) = ((δ : ℝ) : EReal))
    (hσ : m ((c : Thread nD τ).loc main_arg8) ix0 = ((σ : ℝ) : EReal)) :
    V m c main_v76 (ix3 b 0 s) = ((δ * (σ * ω s / 2) : ℝ) : EReal) := by
  rw [V_v76]
  have e1 : ∀ (x : S32x14.Idx → EReal),
      shapeCast S32x1x14 x shapeCasts_S32x14_S32x1x14 (ix3 b 0 s) = x (ix2 b s) := by
    intro x
    refine shapeCast_apply x _ (ix3 b 0 s) (ix2 b s) ?_
    rw [Shape.rowMajor_val_two, Shape.rowMajor_val_three]
    show b.val * 14 + s.val = (b.val * 1 + 0) * 14 + s.val
    omega
  rw [e1]
  have e2 := concat14_unit_apply (fun s : Fin 14 => hcol m c (wWord s)) concatenates_S32x1_S32x1_S32x1_S32x1_S32x1_S32x1_S32x1_S32x1_S32x1_S32x1_S32x1_S32x1_S32x1_S32x1_S32x14_d1 b s
  refine e2.trans ?_
  show hcol m c (wWord s) (ix2 b 0) = _
  exact hcol_apply m c (wWord s) b δ σ (ω s) hδ hσ (ofBits_wWord s)

end AtIdeal

end Cert.KernelIdeal.Frame

end
-- ==== Proof.KStep.lean ====

/-
  One substep of the chain as the kernel body computes it, on the body's own value type (one entry per batch row of
  the block), and the values before the first substep and after the last one.  The operations and their order are the
  printed body's: the state is the kinetic sum, the accumulated factor, five chain positions and five chain momenta.
-/
import proofs.«138430_j46600395162250_2_alg».proof.KernelIdeal

noncomputable section

namespace Cert.KernelIdeal.Chain

open Idealize.ShloMosaic Cert.KernelIdeal

variable {F : FTy → Type} [FloatOps F]

/-- What a substep carries: the kinetic sum, the accumulated factor, the chain positions and the chain momenta, each one
    entry per batch row of the block. -/
structure KSt (F : FTy → Type) [FloatOps F] where
  kin : FVec F S2x1x1 .f32
  tot : FVec F S2x1x1 .f32
  p0 : FVec F S2x1x1 .f32
  p1 : FVec F S2x1x1 .f32
  p2 : FVec F S2x1x1 .f32
  p3 : FVec F S2x1x1 .f32
  p4 : FVec F S2x1x1 .f32
  q0 : FVec F S2x1x1 .f32
  q1 : FVec F S2x1x1 .f32
  q2 : FVec F S2x1x1 .f32
  q3 : FVec F S2x1x1 .f32
  q4 : FVec F S2x1x1 .f32

/-- One substep with step size dea, temperature kbt and chain masses a0 … a4: the forces from the momenta the substep
    starts with, the last link pushed, a sweep down the chain, the drift of the positions, the rescaling factor, the kinetic
    sum times its square, the second sweep with the new force on link 0, the last link pushed again. -/
def kstepV (dea kbt a0 a1 a2 a3 a4 : FVec F S2x1x1 .f32) (s : KSt F) : KSt F :=
  have t2 : FVec F S2x1x1 .f32 := mulf s.q0 s.q0
  have t3 : FVec F S2x1x1 .f32 := divf t2 a0
  have t4 : FVec F S2x1x1 .f32 := subf t3 kbt
  have t5 : FVec F S2x1x1 .f32 := mulf s.q1 s.q1
  have t6 : FVec F S2x1x1 .f32 := divf t5 a1
  have t7 : FVec F S2x1x1 .f32 := subf t6 kbt
  have t8 : FVec F S2x1x1 .f32 := mulf s.q2 s.q2
  have t9 : FVec F S2x1x1 .f32 := divf t8 a2
  have t10 : FVec F S2x1x1 .f32 := subf t9 kbt
  have t11 : FVec F S2x1x1 .f32 := mulf s.q3 s.q3
  have t12 : FVec F S2x1x1 .f32 := divf t11 a3
  have t13 : FVec F S2x1x1 .f32 := subf t12 kbt
  have t14 : F .f32 := Scalar.ofBits .f32 0x48C00000#32
  have t15 : FVec F S2x1x1 .f32 := broadcast S2x1x1 t14
  have t16 : FVec F S2x1x1 .f32 := mulf kbt t15
  have t17 : FVec F S2x1x1 .f32 := subf s.kin t16
  have t18 : F .f32 := Scalar.ofBits .f32 0x3F000000#32
  have t19 : FVec F S2x1x1 .f32 := broadcast S2x1x1 t18
  have t20 : FVec F S2x1x1 .f32 := mulf dea t19
  have t21 : FVec F S2x1x1 .f32 := mulf t13 t20
  have t22 : FVec F S2x1x1 .f32 := addf s.q4 t21
  have t23 : F .f32 := Scalar.ofBits .f32 0x00000000#32
  have t24 : FVec F S2x1x1 .f32 := broadcast S2x1x1 t23
  have t25 : FVec F S2x1x1 .f32 := subf t24 t22
  have t26 : FVec F S2x1x1 .f32 := divf t25 a4
  have t27 : F .f32 := Scalar.ofBits .f32 0x3E800000#32
  have t28 : FVec F S2x1x1 .f32 := broadcast S2x1x1 t27
  have t29 : FVec F S2x1x1 .f32 := mulf dea t28
  have t30 : FVec F S2x1x1 .f32 := mulf t26 t29
  have t31 : FVec F S2x1x1 .f32 := exp t30
  have t32 : FVec F S2x1x1 .f32 := mulf s.q3 t31
  have t33 : F .f32 := Scalar.ofBits .f32 0x3F000000#32
  have t34 : FVec F S2x1x1 .f32 := broadcast S2x1x1 t33
  have t35 : FVec F S2x1x1 .f32 := mulf dea t34
  have t36 : FVec F S2x1x1 .f32 := mulf t10 t35
  have t37 : FVec F S2x1x1 .f32 := addf t32 t36
  have t38 : FVec F S2x1x1 .f32 := mulf t37 t31
  have t39 : F .f32 := Scalar.ofBits .f32 0x00000000#32
  have t40 : FVec F S2x1x1 .f32 := broadcast S2x1x1 t39
  have t41 : FVec F S2x1x1 .f32 := subf t40 t38
  have t42 : FVec F S2x1x1 .f32 := divf t41 a3
  have t43 : F .f32 := Scalar.ofBits .f32 0x3E800000#32
  have t44 : FVec F S2x1x1 .f32 := broadcast S2x1x1 t43
  have t45 : FVec F S2x1x1 .f32 := mulf dea t44
  have t46 : FVec F S2x1x1 .f32 := mulf t42 t45
  have t47 : FVec F S2x1x1 .f32 := exp t46
  have t48 : FVec F S2x1x1 .f32 := mulf s.q2 t47
  have t49 : F .f32 := Scalar.ofBits .f32 0x3F000000#32
  have t50 : FVec F S2x1x1 .f32 := broadcast S2x1x1 t49
  have t51 : FVec F S2x1x1 .f32 := mulf dea t50
  have t52 : FVec F S2x1x1 .f32 := mulf t7 t51
  have t53 : FVec F S2x1x1 .f32 := addf t48 t52
  have t54 : FVec F S2x1x1 .f32 := mulf t53 t47
  have t55 : F .f32 := Scalar.ofBits .f32 0x00000000#32
  have t56 : FVec F S2x1x1 .f32 := broadcast S2x1x1 t55
  have t57 : FVec F S2x1x1 .f32 := subf t56 t54
  have t58 : FVec F S2x1x1 .f32 := divf t57 a2
  have t59 : F .f32 := Scalar.ofBits .f32 0x3E800000#32
  have t60 : FVec F S2x1x1 .f32 := broadcast S2x1x1 t59
  have t61 : FVec F S2x1x1 .f32 := mulf dea t60
  have t62 : FVec F S2x1x1 .f32 := mulf t58 t61
  have t63 : FVec F S2x1x1 .f32 := exp t62
  have t64 : FVec F S2x1x1 .f32 := mulf s.q1 t63
  have t65 : F .f32 := Scalar.ofBits .f32 0x3F000000#32
  have t66 : FVec F S2x1x1 .f32 := broadcast S2x1x1 t65
  have t67 : FVec F S2x1x1 .f32 := mulf dea t66
  have t68 : FVec F S2x1x1 .f32 := mulf t4 t67
  have t69 : FVec F S2x1x1 .f32 := addf t64 t68
  have t70 : FVec F S2x1x1 .f32 := mulf t69 t63
  have t71 : F .f32 := Scalar.ofBits .f32 0x00000000#32
  have t72 : FVec F S2x1x1 .f32 := broadcast S2x1x1 t71
  have t73 : FVec F S2x1x1 .f32 := subf t72 t70
  have t74 : FVec F S2x1x1 .f32 := divf t73 a1
  have t75 : F .f32 := Scalar.ofBits .f32 0x3E800000#32
  have t76 : FVec F S2x1x1 .f32 := broadcast S2x1x1 t75
  have t77 : FVec F S2x1x1 .f32 := mulf dea t76
  have t78 : FVec F S2x1x1 .f32 := mulf t74 t77
  have t79 : FVec F S2x1x1 .f32 := exp t78
  have t80 : FVec F S2x1x1 .f32 := mulf s.q0 t79
  have t81 : F .f32 := Scalar.ofBits .f32 0x3F000000#32
  have t82 : FVec F S2x1x1 .f32 := broadcast S2x1x1 t81
  have t83 : FVec F S2x1x1 .f32 := mulf dea t82
  have t84 : FVec F S2x1x1 .f32 := mulf t17 t83
  have t85 : FVec F S2x1x1 .f32 := addf t80 t84
  have t86 : FVec F S2x1x1 .f32 := mulf t85 t79
  have t87 : FVec F S2x1x1 .f32 := divf t86 a0
  have t88 : FVec F S2x1x1 .f32 := mulf t87 dea
  have t89 : FVec F S2x1x1 .f32 := addf s.p0 t88
  have t90 : FVec F S2x1x1 .f32 := divf t70 a1
  have t91 : FVec F S2x1x1 .f32 := mulf t90 dea
  have t92 : FVec F S2x1x1 .f32 := addf s.p1 t91
  have t93 : FVec F S2x1x1 .f32 := divf t54 a2
  have t94 : FVec F S2x1x1 .f32 := mulf t93 dea
  have t95 : FVec F S2x1x1 .f32 := addf s.p2 t94
  have t96 : FVec F S2x1x1 .f32 := divf t38 a3
  have t97 : FVec F S2x1x1 .f32 := mulf t96 dea
  have t98 : FVec F S2x1x1 .f32 := addf s.p3 t97
  have t99 : FVec F S2x1x1 .f32 := divf t22 a4
  have t100 : FVec F S2x1x1 .f32 := mulf t99 dea
  have t101 : FVec F S2x1x1 .f32 := addf s.p4 t100
  have t102 : F .f32 := Scalar.ofBits .f32 0x00000000#32
  have t103 : FVec F S2x1x1 .f32 := broadcast S2x1x1 t102
  have t104 : FVec F S2x1x1 .f32 := subf t103 t86
  have t105 : FVec F S2x1x1 .f32 := divf t104 a0
  have t106 : FVec F S2x1x1 .f32 := mulf t105 dea
  have t107 : FVec F S2x1x1 .f32 := exp t106
  have t108 : FVec F S2x1x1 .f32 := mulf s.kin t107
  have t109 : FVec F S2x1x1 .f32 := mulf t108 t107
  have t110 : FVec F S2x1x1 .f32 := mulf s.tot t107
  have t111 : F .f32 := Scalar.ofBits .f32 0x48C00000#32
  have t112 : FVec F S2x1x1 .f32 := broadcast S2x1x1 t111
  have t113 : FVec F S2x1x1 .f32 := mulf kbt t112
  have t114 : FVec F S2x1x1 .f32 := subf t109 t113
  have t115 : F .f32 := Scalar.ofBits .f32 0x00000000#32
  have t116 : FVec F S2x1x1 .f32 := broadcast S2x1x1 t115
  have t117 : FVec F S2x1x1 .f32 := subf t116 t22
  have t118 : FVec F S2x1x1 .f32 := divf t117 a4
  have t119 : F .f32 := Scalar.ofBits .f32 0x3E800000#32
  have t120 : FVec F S2x1x1 .f32 := broadcast S2x1x1 t119
  have t121 : FVec F S2x1x1 .f32 := mulf dea t120
  have t122 : FVec F S2x1x1 .f32 := mulf t118 t121
  have t123 : FVec F S2x1x1 .f32 := exp t122
  have t124 : FVec F S2x1x1 .f32 := mulf t38 t123
  have t125 : F .f32 := Scalar.ofBits .f32 0x3F000000#32
  have t126 : FVec F S2x1x1 .f32 := broadcast S2x1x1 t125
  have t127 : FVec F S2x1x1 .f32 := mulf dea t126
  have t128 : FVec F S2x1x1 .f32 := mulf t10 t127
  have t129 : FVec F S2x1x1 .f32 := addf t124 t128
  have t130 : FVec F S2x1x1 .f32 := mulf t129 t123
  have t131 : F .f32 := Scalar.ofBits .f32 0x00000000#32
  have t132 : FVec F S2x1x1 .f32 := broadcast S2x1x1 t131
  have t133 : FVec F S2x1x1 .f32 := subf t132 t130
  have t134 : FVec F S2x1x1 .f32 := divf t133 a3
  have t135 : F .f32 := Scalar.ofBits .f32 0x3E800000#32
  have t136 : FVec F S2x1x1 .f32 := broadcast S2x1x1 t135
  have t137 : FVec F S2x1x1 .f32 := mulf dea t136
  have t138 : FVec F S2x1x1 .f32 := mulf t134 t137
  have t139 : FVec F S2x1x1 .f32 := exp t138
  have t140 : FVec F S2x1x1 .f32 := mulf t54 t139
  have t141 : F .f32 := Scalar.ofBits .f32 0x3F000000#32
  have t142 : FVec F S2x1x1 .f32 := broadcast S2x1x1 t141
  have t143 : FVec F S2x1x1 .f32 := mulf dea t142
  have t144 : FVec F S2x1x1 .f32 := mulf t7 t143
  have t145 : FVec F S2x1x1 .f32 := addf t140 t144
  have t146 : FVec F S2x1x1 .f32 := mulf t145 t139
  have t147 : F .f32 := Scalar.ofBits .f32 0x00000000#32
  have t148 : FVec F S2x1x1 .f32 := broadcast S2x1x1 t147
  have t149 : FVec F S2x1x1 .f32 := subf t148 t146
  have t150 : FVec F S2x1x1 .f32 := divf t149 a2
  have t151 : F .f32 := Scalar.ofBits .f32 0x3E800000#32
  have t152 : FVec F S2x1x1 .f32 := broadcast S2x1x1 t151
  have t153 : FVec F S2x1x1 .f32 := mulf dea t152
  have t154 : FVec F S2x1x1 .f32 := mulf t150 t153
  have t155 : FVec F S2x1x1 .f32 := exp t154
  have t156 : FVec F S2x1x1 .f32 := mulf t70 t155
  have t157 : F .f32 := Scalar.ofBits .f32 0x3F000000#32
  have t158 : FVec F S2x1x1 .f32 := broadcast S2x1x1 t157
  have t159 : FVec F S2x1x1 .f32 := mulf dea t158
  have t160 : FVec F S2x1x1 .f32 := mulf t4 t159
  have t161 : FVec F S2x1x1 .f32 := addf t156 t160
  have t162 : FVec F S2x1x1 .f32 := mulf t161 t155
  have t163 : F .f32 := Scalar.ofBits .f32 0x00000000#32
  have t164 : FVec F S2x1x1 .f32 := broadcast S2x1x1 t163
  have t165 : FVec F S2x1x1 .f32 := subf t164 t162
  have t166 : FVec F S2x1x1 .f32 := divf t165 a1
  have t167 : F .f32 := Scalar.ofBits .f32 0x3E800000#32
  have t168 : FVec F S2x1x1 .f32 := broadcast S2x1x1 t167
  have t169 : FVec F S2x1x1 .f32 := mulf dea t168
  have t170 : FVec F S2x1x1 .f32 := mulf t166 t169
  have t171 : FVec F S2x1x1 .f32 := exp t170
  have t172 : FVec F S2x1x1 .f32 := mulf t86 t171
  have t173 : F .f32 := Scalar.ofBits .f32 0x3F000000#32
  have t174 : FVec F S2x1x1 .f32 := broadcast S2x1x1 t173
  have t175 : FVec F S2x1x1 .f32 := mulf dea t174
  have t176 : FVec F S2x1x1 .f32 := mulf t114 t175
  have t177 : FVec F S2x1x1 .f32 := addf t172 t176
  have t178 : FVec F S2x1x1 .f32 := mulf t177 t171
  have t179 : F .f32 := Scalar.ofBits .f32 0x3F000000#32
  have t180 : FVec F S2x1x1 .f32 := broadcast S2x1x1 t179
  have t181 : FVec F S2x1x1 .f32 := mulf dea t180
  have t182 : FVec F S2x1x1 .f32 := mulf t13 t181
  have t183 : FVec F S2x1x1 .f32 := addf t22 t182
  { kin := t109, tot := t110, p0 := t89, p1 := t92, p2 := t95, p3 := t98, p4 := t101,
    q0 := t178, q1 := t162, q2 := t146, q3 := t130, q4 := t183 }

variable [Facts]
open Facts₀ Facts

/-- The kinetic sum of a block: the squares over the masses, summed over the three components, then over the particles. -/
def kin0V (x0 : Vec F S2x131072x3 .f32) (x1 : Vec F S2x131072x1 .f32) : FVec F S2x1x1 .f32 :=
  have v2 : FVec F S2x131072x1 .f32 := shapeCast S2x131072x1 x1 shapeCasts_S2x131072x1_S2x131072x1
  have v5 : FVec F S2x131072x3 .f32 := mulf x0 x0
  have v6 : FVec F S2x131072x3 .f32 := broadcastTo S2x131072x3 v2 broadcasts_S2x131072x1_S2x131072x3
  have v7 : FVec F S2x131072x3 .f32 := divf v5 v6
  have v8 : FVec F S2x131072 .f32 := multiReduction .add [2] S2x131072 v7 0x00000000#32 reduces_S2x131072x3_S2x131072 (.inl rfl) rfl
  have v9 : FVec F S2x131072x1 .f32 := shapeCast S2x131072x1 v8 shapeCasts_S2x131072_S2x131072x1
  have v10 : FVec F S2x1 .f32 := multiReduction .add [1] S2x1 v9 0x00000000#32 reduces_S2x131072x1_S2x1 (.inl rfl) rfl
  shapeCast S2x1x1 v10 shapeCasts_S2x1_S2x1x1

/-- The accumulated factor before the first substep: one. -/
def tot0V : FVec F S2x1x1 .f32 := broadcast S2x1x1 (Scalar.ofBits .f32 0x3F800000#32)

/-- The rescaled particle momenta: the block times the accumulated factor of its batch row. -/
def momOutV (x0 : Vec F S2x131072x3 .f32) (tot : FVec F S2x1x1 .f32) : FVec F S2x131072x3 .f32 :=
  mulf x0 (broadcastTo S2x131072x3 tot broadcasts_S2x1x1_S2x131072x3)

/-- Five one-column values side by side. -/
def cat5V (c0 c1 c2 c3 c4 : FVec F S2x1x1 .f32) : FVec F S2x1x5 .f32 :=
  concatenate S2x1x5 2 [⟨S2x1x1, c0⟩, ⟨S2x1x1, c1⟩, ⟨S2x1x1, c2⟩, ⟨S2x1x1, c3⟩, ⟨S2x1x1, c4⟩] concatenates_S2x1x1_S2x1x1_S2x1x1_S2x1x1_S2x1x1_S2x1x5_d2

end Cert.KernelIdeal.Chain

end
-- ==== Proof.RealChain.lean ====
/-
  The thermostat chain over the real numbers.  One substep acts on five chain momenta q, five chain
  positions p and the particle momenta; the particle momenta enter the chain only through the kinetic
  sum of mom² / mas, and every substep rescales all of them by one factor s, so the kinetic sum is
  multiplied by s².  Two recurrences are defined: one that carries the particle momenta and recomputes the
  kinetic sum (stepR), and one that carries the kinetic sum and the accumulated factor (stepK).  They
  agree (agree).
-/
import Mathlib.Analysis.SpecialFunctions.Exp
import Mathlib.Algebra.BigOperators.Ring.Finset
import Mathlib.Data.Fin.VecNotation

noncomputable section

namespace Cert.NHC

/-- The number of degrees of freedom, 131072 · 3. -/
def dof : ℝ := 393216

/-- One sweep down the chain, links 3, 2, 1, 0 in that order: link j is damped by
    exp (-(m (j+1)) / a (j+1) · d/4) of the link above as already updated, pushed by g j · d/2, damped again. -/
def sweep (a mc g : Fin 5 → ℝ) (d : ℝ) : Fin 5 → ℝ :=
  let m4 := mc 4
  let f3 := Real.exp (-m4 / a 4 * (d / 4))
  let m3 := (mc 3 * f3 + g 3 * (d / 2)) * f3
  let f2 := Real.exp (-m3 / a 3 * (d / 4))
  let m2 := (mc 2 * f2 + g 2 * (d / 2)) * f2
  let f1 := Real.exp (-m2 / a 2 * (d / 4))
  let m1 := (mc 1 * f1 + g 1 * (d / 2)) * f1
  let f0 := Real.exp (-m1 / a 1 * (d / 4))
  let m0 := (mc 0 * f0 + g 0 * (d / 2)) * f0
  ![m0, m1, m2, m3, m4]

/-- The forces on the chain: g0 on link 0 (from the particles), q (c-1)² / a (c-1) - kbt on link c ≥ 1. -/
def forces (a q : Fin 5 → ℝ) (kbt g0 : ℝ) : Fin 5 → ℝ :=
  ![g0, q 0 * q 0 / a 0 - kbt, q 1 * q 1 / a 1 - kbt, q 2 * q 2 / a 2 - kbt, q 3 * q 3 / a 3 - kbt]

/-- Add x to the last link. -/
def bump (mc : Fin 5 → ℝ) (x : ℝ) : Fin 5 → ℝ := ![mc 0, mc 1, mc 2, mc 3, mc 4 + x]

/-- First half of a substep: the last link is pushed, then one sweep; forces from the momenta q the substep started with. -/
def firstHalf (a q : Fin 5 → ℝ) (kbt g0 d : ℝ) : Fin 5 → ℝ :=
  sweep a (bump q (forces a q kbt g0 4 * (d / 2))) (forces a q kbt g0) d

/-- Second half: one sweep, then the last link is pushed; forces again from the momenta q the substep started
    with, but with the particles' new force g0b. -/
def secondHalf (a q mc : Fin 5 → ℝ) (kbt g0b d : ℝ) : Fin 5 → ℝ :=
  bump (sweep a mc (forces a q kbt g0b) d) (forces a q kbt g0b 4 * (d / 2))

/-- The drift of the chain positions. -/
def drift (a p mc : Fin 5 → ℝ) (d : ℝ) : Fin 5 → ℝ := fun c => p c + mc c / a c * d

/-- The factor by which the particle momenta are rescaled. -/
def scaleOf (a mc : Fin 5 → ℝ) (d : ℝ) : ℝ := Real.exp (-(mc 0) / a 0 * d)

/-- State of the recurrence that carries the kinetic sum and the accumulated factor. -/
structure StK where
  kin : ℝ
  tot : ℝ
  p : Fin 5 → ℝ
  q : Fin 5 → ℝ

/-- One substep, carrying the kinetic sum. -/
def stepK (a : Fin 5 → ℝ) (kbt d : ℝ) (s : StK) : StK :=
  let mc := firstHalf a s.q kbt (s.kin - kbt * dof) d
  let sc := scaleOf a mc d
  let kin' := s.kin * sc * sc
  { kin := kin', tot := s.tot * sc, p := drift a s.p mc d, q := secondHalf a s.q mc kbt (kin' - kbt * dof) d }

/-- State of the recurrence that carries the particle momenta. -/
structure StR (ι : Type) where
  mom : ι → ℝ
  p : Fin 5 → ℝ
  q : Fin 5 → ℝ

variable {ι : Type} [Fintype ι]

/-- The kinetic sum of particle momenta mom with masses mas. -/
def kinOf (mas mom : ι → ℝ) : ℝ := ∑ i, mom i * mom i / mas i

/-- One substep, carrying the particle momenta. -/
def stepR (mas : ι → ℝ) (a : Fin 5 → ℝ) (kbt d : ℝ) (s : StR ι) : StR ι :=
  let mc := firstHalf a s.q kbt (kinOf mas s.mom - kbt * dof) d
  let sc := scaleOf a mc d
  let mom' : ι → ℝ := fun i => s.mom i * sc
  { mom := mom', p := drift a s.p mc d, q := secondHalf a s.q mc kbt (kinOf mas mom' - kbt * dof) d }

/-- The state after n substeps with step sizes d 0, d 1, …. -/
def iterK (a : Fin 5 → ℝ) (kbt : ℝ) (d : ℕ → ℝ) (s0 : StK) : ℕ → StK
  | 0 => s0
  | n + 1 => stepK a kbt (d n) (iterK a kbt d s0 n)

/-- The same for the recurrence that carries the particle momenta. -/
def iterR (mas : ι → ℝ) (a : Fin 5 → ℝ) (kbt : ℝ) (d : ℕ → ℝ) (s0 : StR ι) : ℕ → StR ι
  | 0 => s0
  | n + 1 => stepR mas a kbt (d n) (iterR mas a kbt d s0 n)

/-- Rescaling all particle momenta by s multiplies the kinetic sum by s². -/
theorem kinOf_scale (mas mom : ι → ℝ) (s : ℝ) : kinOf mas (fun i => mom i * s) = kinOf mas mom * s * s := by
  unfold kinOf
  rw [Finset.sum_mul, Finset.sum_mul]
  refine Finset.sum_congr rfl (fun i _ => ?_)
  -- termwise: (m·s)·(m·s)/a = m·m/a·s·s, division being multiplication by the inverse (no a ≠ 0 needed)
  ring

/-- One substep preserves the correspondence between the two recurrences: if the chains are equal, the particle
    momenta are mom0 times the accumulated factor, and the carried kinetic sum is the kinetic sum of the particle
    momenta, then the same holds after one substep of each.  Both substeps compute the same chain momenta mc (the
    force on link 0 is the same), hence the same factor sc; the new kinetic sum is the old one times sc². -/
theorem step_agree (mas mom0 : ι → ℝ) (a : Fin 5 → ℝ) (kbt d : ℝ) (R : StR ι) (K : StK)
    (hm : ∀ i, R.mom i = mom0 i * K.tot) (hp : R.p = K.p) (hq : R.q = K.q) (hk : K.kin = kinOf mas R.mom) :
    (∀ i, (stepR mas a kbt d R).mom i = mom0 i * (stepK a kbt d K).tot)
    ∧ (stepR mas a kbt d R).p = (stepK a kbt d K).p
    ∧ (stepR mas a kbt d R).q = (stepK a kbt d K).q
    ∧ (stepK a kbt d K).kin = kinOf mas (stepR mas a kbt d R).mom := by
  obtain ⟨mom, p, q⟩ := R
  obtain ⟨kin, tot, p', q'⟩ := K
  simp only at hm hp hq hk
  subst hp hq hk
  refine ⟨?_, ?_, ?_, ?_⟩
  · intro i
    simp only [stepR, stepK]
    rw [hm i, mul_assoc]
  · rfl
  · simp only [stepR, stepK, kinOf_scale]
  · simp only [stepR, stepK, kinOf_scale]

/-- The two recurrences agree: started from the same chain and from the kinetic sum of the same particle momenta, after
    n substeps the chains are equal, the particle momenta are the initial ones times the accumulated factor, and the
    carried kinetic sum is the kinetic sum of the current particle momenta. -/
theorem agree (mas mom0 : ι → ℝ) (a p0 q0 : Fin 5 → ℝ) (kbt : ℝ) (d : ℕ → ℝ) (n : ℕ) :
    (∀ i, (iterR mas a kbt d ⟨mom0, p0, q0⟩ n).mom i = mom0 i * (iterK a kbt d ⟨kinOf mas mom0, 1, p0, q0⟩ n).tot)
    ∧ (iterR mas a kbt d ⟨mom0, p0, q0⟩ n).p = (iterK a kbt d ⟨kinOf mas mom0, 1, p0, q0⟩ n).p
    ∧ (iterR mas a kbt d ⟨mom0, p0, q0⟩ n).q = (iterK a kbt d ⟨kinOf mas mom0, 1, p0, q0⟩ n).q
    ∧ (iterK a kbt d ⟨kinOf mas mom0, 1, p0, q0⟩ n).kin = kinOf mas (iterR mas a kbt d ⟨mom0, p0, q0⟩ n).mom := by
  induction n with
  | zero =>
    -- no substep yet: the accumulated factor is 1
    refine ⟨fun i => ?_, rfl, rfl, rfl⟩
    simp only [iterR, iterK, mul_one]
  | succ n ih =>
    obtain ⟨hm, hp, hq, hk⟩ := ih
    simp only [iterR, iterK]
    exact step_agree mas mom0 a kbt (d n) _ _ hm hp hq hk

end Cert.NHC

end
-- ==== Proof.KStepReal.lean ====
/-
  One substep of the chain as the kernel body computes it, read at the exact instance (a float an extended real, every
  operation the exact one), on values whose entry at a batch row is a real number: it is the real substep
  (RealChain.lean, stepK).  The body's 182 operations are first regrouped, by definitional unfolding, into the parts the
  real recurrence is made of (a force, a damping factor, a link of a sweep, a sweep, the push of the last link, the
  factor, the drift); each part is then read on real entries by the pointwise facts (a product of reals is the real
  product, a quotient by a nonzero real the real quotient, the exponential of a real the real exponential, the four
  literals 393216, 1/2, 1/4 and 0), and the substep is put together entry by entry.  Only the division needs a
  hypothesis: the chain masses are nonzero.  Then the values before the first substep (the kinetic sum, a double sum over
  particles and components; the accumulated factor, one) and after the last one (the rescaled momenta; five columns side
  by side), read at an index.
-/
import proofs.«138430_j46600395162250_2_alg».proof.Proof.KStep
import proofs.«138430_j46600395162250_2_alg».proof.Proof.RealChain
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

/-! ### The real substep, read one entry at a time -/

namespace Cert.NHC

section Entries
variable (a mc g q : Fin 5 → ℝ) (kbt g0 d x : ℝ) (s : StK)

theorem bump_zero : bump mc x 0 = mc 0 := rfl
theorem bump_one : bump mc x 1 = mc 1 := rfl
theorem bump_two : bump mc x 2 = mc 2 := rfl
theorem bump_three : bump mc x 3 = mc 3 := rfl
theorem bump_four : bump mc x 4 = mc 4 + x := rfl

theorem forces_zero : forces a q kbt g0 0 = g0 := rfl
theorem forces_one : forces a q kbt g0 1 = q 0 * q 0 / a 0 - kbt := rfl
theorem forces_two : forces a q kbt g0 2 = q 1 * q 1 / a 1 - kbt := rfl
theorem forces_three : forces a q kbt g0 3 = q 2 * q 2 / a 2 - kbt := rfl
theorem forces_four : forces a q kbt g0 4 = q 3 * q 3 / a 3 - kbt := rfl

/-- A sweep leaves the last link alone, and each link below it is updated from the one above as already updated. -/
theorem sweep_four : sweep a mc g d 4 = mc 4 := rfl
theorem sweep_three : sweep a mc g d 3
    = (mc 3 * Real.exp (-(sweep a mc g d 4) / a 4 * (d / 4)) + g 3 * (d / 2)) * Real.exp (-(sweep a mc g d 4) / a 4 * (d / 4)) := rfl
theorem sweep_two : sweep a mc g d 2
    = (mc 2 * Real.exp (-(sweep a mc g d 3) / a 3 * (d / 4)) + g 2 * (d / 2)) * Real.exp (-(sweep a mc g d 3) / a 3 * (d / 4)) := rfl
theorem sweep_one : sweep a mc g d 1
    = (mc 1 * Real.exp (-(sweep a mc g d 2) / a 2 * (d / 4)) + g 1 * (d / 2)) * Real.exp (-(sweep a mc g d 2) / a 2 * (d / 4)) := rfl
theorem sweep_zero : sweep a mc g d 0
    = (mc 0 * Real.exp (-(sweep a mc g d 1) / a 1 * (d / 4)) + g 0 * (d / 2)) * Real.exp (-(sweep a mc g d 1) / a 1 * (d / 4)) := rfl

/-- The chain momenta after the first half of the substep from s. -/
def mcOf : Fin 5 → ℝ := firstHalf a s.q kbt (s.kin - kbt * dof) d
/-- The factor of the substep from s. -/
def scOf : ℝ := scaleOf a (mcOf a kbt d s) d
/-- The kinetic sum after the substep from s. -/
def kinNew : ℝ := s.kin * scOf a kbt d s * scOf a kbt d s

theorem mcOf_eq : mcOf a kbt d s
    = sweep a (bump s.q (forces a s.q kbt (s.kin - kbt * dof) 4 * (d / 2))) (forces a s.q kbt (s.kin - kbt * dof)) d := rfl
theorem scOf_eq : scOf a kbt d s = Real.exp (-(mcOf a kbt d s 0) / a 0 * d) := rfl
theorem kinNew_eq : kinNew a kbt d s = s.kin * scOf a kbt d s * scOf a kbt d s := rfl
theorem stepK_kin : (stepK a kbt d s).kin = kinNew a kbt d s := rfl
theorem stepK_tot : (stepK a kbt d s).tot = s.tot * scOf a kbt d s := rfl
theorem stepK_p (c : Fin 5) : (stepK a kbt d s).p c = s.p c + mcOf a kbt d s c / a c * d := rfl
theorem stepK_q : (stepK a kbt d s).q
    = bump (sweep a (mcOf a kbt d s) (forces a s.q kbt (kinNew a kbt d s - kbt * dof)) d)
        (forces a s.q kbt (kinNew a kbt d s - kbt * dof) 4 * (d / 2)) := rfl

end Entries

end Cert.NHC

namespace Cert.KernelIdeal.Chain

open Idealize.ShloMosaic Idealize.ShloMosaic.ValueIdx Cert.KernelIdeal

/-- The index of batch row b of a one-entry-per-row value. -/
abbrev rowIx (b : Fin 2) : S2x1x1.Idx := ix3 b (0 : Fin 1) (0 : Fin 1)

/-- The entry of v at row b is the real number x. -/
@[reducible] def IsR (b : Fin 2) (v : FVec Ideal S2x1x1 .f32) (x : ℝ) : Prop := v (rowIx b) = ((x : ℝ) : EReal)

/-! ### The four literals, as reals -/

theorem word_dof : Ideal.ofBits .f32 0x48C00000#32 = ((393216 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_quarter : Ideal.ofBits .f32 0x3E800000#32 = ((1 / 4 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_zero : Ideal.ofBits .f32 0x00000000#32 = ((0 : ℝ) : EReal) := by
  simp [Ideal.ofBits, Ideal.ieee]

/-! ### The pointwise operations on entries that are reals -/

section Pointwise
variable {b : Fin 2} {u v : FVec Ideal S2x1x1 .f32} {x y : ℝ}

theorem IsR.mulf (hu : IsR b u x) (hv : IsR b v y) : IsR b (mulf u v) (x * y) := by
  show u (rowIx b) * v (rowIx b) = _
  rw [hu, hv, EReal.coe_mul]

theorem IsR.addf (hu : IsR b u x) (hv : IsR b v y) : IsR b (addf u v) (x + y) := by
  show u (rowIx b) + v (rowIx b) = _
  rw [hu, hv, EReal.coe_add]

theorem IsR.subf (hu : IsR b u x) (hv : IsR b v y) : IsR b (subf u v) (x - y) := by
  show u (rowIx b) - v (rowIx b) = _
  rw [hu, hv, EReal.coe_sub]

/-- Division by an entry that is a nonzero real is the real quotient. -/
theorem IsR.divf (hu : IsR b u x) (hv : IsR b v y) (hy : y ≠ 0) : IsR b (divf u v) (x / y) := by
  show Ideal.div (u (rowIx b)) (v (rowIx b)) = _
  rw [hu, hv, Ideal.div_coe hy, ← EReal.coe_mul, mul_one_div]

theorem IsR.exp (hu : IsR b u x) : IsR b (exp u) (Real.exp x) := by
  show Ideal.exp (u (rowIx b)) = _
  rw [hu, Ideal.exp_coe]

theorem IsR.splat (w : BitVec 32) (hw : Ideal.ofBits .f32 w = ((x : ℝ) : EReal)) :
    IsR b (broadcast S2x1x1 (Scalar.ofBits (F := Ideal) .f32 w)) x := hw

end Pointwise

/-! ### The substep, restated by its parts -/

section Parts
variable {F : FTy → Type} [FloatOps F]

/-- Half the step size. -/
def halfV (dea : FVec F S2x1x1 .f32) : FVec F S2x1x1 .f32 := mulf dea (broadcast S2x1x1 (Scalar.ofBits .f32 0x3F000000#32))
/-- A quarter of the step size. -/
def quarterV (dea : FVec F S2x1x1 .f32) : FVec F S2x1x1 .f32 := mulf dea (broadcast S2x1x1 (Scalar.ofBits .f32 0x3E800000#32))
/-- The negation, as the body writes it: zero minus the value. -/
def negV (x : FVec F S2x1x1 .f32) : FVec F S2x1x1 .f32 := subf (broadcast S2x1x1 (Scalar.ofBits .f32 0x00000000#32)) x
/-- The force on a link above link 0: the square of the momentum below over its mass, less the temperature. -/
def forceV (kbt q a : FVec F S2x1x1 .f32) : FVec F S2x1x1 .f32 := subf (divf (mulf q q) a) kbt
/-- The force on link 0: the kinetic sum less the temperature times the number of degrees of freedom. -/
def force0V (kbt kin : FVec F S2x1x1 .f32) : FVec F S2x1x1 .f32 :=
  subf kin (mulf kbt (broadcast S2x1x1 (Scalar.ofBits .f32 0x48C00000#32)))
/-- The damping factor a link with momentum m and mass a puts on the link below it. -/
def dampV (dea m a : FVec F S2x1x1 .f32) : FVec F S2x1x1 .f32 := exp (mulf (divf (negV m) a) (quarterV dea))
/-- One link of a sweep: damped by f, pushed by g for half a step, damped again. -/
def linkV (dea q f g : FVec F S2x1x1 .f32) : FVec F S2x1x1 .f32 := mulf (addf (mulf q f) (mulf g (halfV dea))) f
/-- The last link pushed for half a step by the force from the momentum q3 below it. -/
def pushV (kbt dea a3 q3 m : FVec F S2x1x1 .f32) : FVec F S2x1x1 .f32 := addf m (mulf (forceV kbt q3 a3) (halfV dea))
/-- The rescaling factor from link 0's momentum. -/
def scaleV (dea a0 m0 : FVec F S2x1x1 .f32) : FVec F S2x1x1 .f32 := exp (mulf (divf (negV m0) a0) dea)
/-- A position drifted by its link's momentum over its mass. -/
def driftV (dea p m a : FVec F S2x1x1 .f32) : FVec F S2x1x1 .f32 := addf p (mulf (divf m a) dea)

/-- The four momenta a sweep changes. -/
structure Sw (F : FTy → Type) [FloatOps F] where
  m0 : FVec F S2x1x1 .f32
  m1 : FVec F S2x1x1 .f32
  m2 : FVec F S2x1x1 .f32
  m3 : FVec F S2x1x1 .f32

/-- One sweep down the chain from the last link's momentum m4. -/
def sweepV (dea a1 a2 a3 a4 c0 c1 c2 c3 m4 g0 g1 g2 g3 : FVec F S2x1x1 .f32) : Sw F :=
  let m3 := linkV dea c3 (dampV dea m4 a4) g3
  let m2 := linkV dea c2 (dampV dea m3 a3) g2
  let m1 := linkV dea c1 (dampV dea m2 a2) g1
  let m0 := linkV dea c0 (dampV dea m1 a1) g0
  ⟨m0, m1, m2, m3⟩

section SweepEntries
variable (dea a1 a2 a3 a4 c0 c1 c2 c3 m4 g0 g1 g2 g3 : FVec F S2x1x1 .f32)
theorem sweepV_m3 : (sweepV dea a1 a2 a3 a4 c0 c1 c2 c3 m4 g0 g1 g2 g3).m3 = linkV dea c3 (dampV dea m4 a4) g3 := rfl
theorem sweepV_m2 : (sweepV dea a1 a2 a3 a4 c0 c1 c2 c3 m4 g0 g1 g2 g3).m2
    = linkV dea c2 (dampV dea (sweepV dea a1 a2 a3 a4 c0 c1 c2 c3 m4 g0 g1 g2 g3).m3 a3) g2 := rfl
theorem sweepV_m1 : (sweepV dea a1 a2 a3 a4 c0 c1 c2 c3 m4 g0 g1 g2 g3).m1
    = linkV dea c1 (dampV dea (sweepV dea a1 a2 a3 a4 c0 c1 c2 c3 m4 g0 g1 g2 g3).m2 a2) g1 := rfl
theorem sweepV_m0 : (sweepV dea a1 a2 a3 a4 c0 c1 c2 c3 m4 g0 g1 g2 g3).m0
    = linkV dea c0 (dampV dea (sweepV dea a1 a2 a3 a4 c0 c1 c2 c3 m4 g0 g1 g2 g3).m1 a1) g0 := rfl
end SweepEntries

variable (dea kbt a0 a1 a2 a3 a4 : FVec F S2x1x1 .f32) (s : KSt F)

/-- The first sweep of the substep from s. -/
def swA : Sw F :=
  sweepV dea a1 a2 a3 a4 s.q0 s.q1 s.q2 s.q3 (pushV kbt dea a3 s.q3 s.q4) (force0V kbt s.kin)
    (forceV kbt s.q0 a0) (forceV kbt s.q1 a1) (forceV kbt s.q2 a2)
/-- The factor of the substep from s. -/
def scV : FVec F S2x1x1 .f32 := scaleV dea a0 (swA dea kbt a0 a1 a2 a3 a4 s).m0
/-- The kinetic sum after the substep from s. -/
def kinV : FVec F S2x1x1 .f32 := mulf (mulf s.kin (scV dea kbt a0 a1 a2 a3 a4 s)) (scV dea kbt a0 a1 a2 a3 a4 s)
/-- The second sweep of the substep from s. -/
def swB : Sw F :=
  sweepV dea a1 a2 a3 a4 (swA dea kbt a0 a1 a2 a3 a4 s).m0 (swA dea kbt a0 a1 a2 a3 a4 s).m1 (swA dea kbt a0 a1 a2 a3 a4 s).m2
    (swA dea kbt a0 a1 a2 a3 a4 s).m3 (pushV kbt dea a3 s.q3 s.q4) (force0V kbt (kinV dea kbt a0 a1 a2 a3 a4 s))
    (forceV kbt s.q0 a0) (forceV kbt s.q1 a1) (forceV kbt s.q2 a2)

/-- The substep is: the forces, the last link pushed, a sweep, the drift, the factor, the kinetic sum rescaled, a second
    sweep with the new force on link 0, the last link pushed again. -/
theorem kstepV_eq : kstepV dea kbt a0 a1 a2 a3 a4 s =
    { kin := kinV dea kbt a0 a1 a2 a3 a4 s, tot := mulf s.tot (scV dea kbt a0 a1 a2 a3 a4 s),
      p0 := driftV dea s.p0 (swA dea kbt a0 a1 a2 a3 a4 s).m0 a0, p1 := driftV dea s.p1 (swA dea kbt a0 a1 a2 a3 a4 s).m1 a1,
      p2 := driftV dea s.p2 (swA dea kbt a0 a1 a2 a3 a4 s).m2 a2, p3 := driftV dea s.p3 (swA dea kbt a0 a1 a2 a3 a4 s).m3 a3,
      p4 := driftV dea s.p4 (pushV kbt dea a3 s.q3 s.q4) a4,
      q0 := (swB dea kbt a0 a1 a2 a3 a4 s).m0, q1 := (swB dea kbt a0 a1 a2 a3 a4 s).m1,
      q2 := (swB dea kbt a0 a1 a2 a3 a4 s).m2, q3 := (swB dea kbt a0 a1 a2 a3 a4 s).m3,
      q4 := pushV kbt dea a3 s.q3 (pushV kbt dea a3 s.q3 s.q4) } := rfl

end Parts

/-! ### The parts on entries that are reals -/

section PartsReal
variable {b : Fin 2} {dea kbt kin m a q f g p : FVec Ideal S2x1x1 .f32} {d κ k x y z : ℝ}

theorem IsR.halfV (hd : IsR b dea d) : IsR b (halfV dea) (d / 2) := by
  have h := hd.mulf (IsR.splat (b := b) _ word_half)
  rw [mul_one_div] at h
  exact h

theorem IsR.quarterV (hd : IsR b dea d) : IsR b (quarterV dea) (d / 4) := by
  have h := hd.mulf (IsR.splat (b := b) _ word_quarter)
  rw [mul_one_div] at h
  exact h

theorem IsR.negV (hm : IsR b m x) : IsR b (negV m) (-x) := by
  have h := (IsR.splat (b := b) _ word_zero).subf hm
  rw [zero_sub] at h
  exact h

theorem IsR.forceV (hκ : IsR b kbt κ) (hq : IsR b q x) (ha : IsR b a y) (hy : y ≠ 0) :
    IsR b (forceV kbt q a) (x * x / y - κ) :=
  ((hq.mulf hq).divf ha hy).subf hκ

theorem IsR.force0V (hκ : IsR b kbt κ) (hk : IsR b kin k) : IsR b (force0V kbt kin) (k - κ * Cert.NHC.dof) :=
  hk.subf (hκ.mulf (IsR.splat (b := b) _ word_dof))

theorem IsR.dampV (hd : IsR b dea d) (hm : IsR b m x) (ha : IsR b a y) (hy : y ≠ 0) :
    IsR b (dampV dea m a) (Real.exp (-x / y * (d / 4))) :=
  ((hm.negV.divf ha hy).mulf hd.quarterV).exp

theorem IsR.linkV (hd : IsR b dea d) (hq : IsR b q x) (hf : IsR b f y) (hg : IsR b g z) :
    IsR b (linkV dea q f g) ((x * y + z * (d / 2)) * y) :=
  ((hq.mulf hf).addf (hg.mulf hd.halfV)).mulf hf

theorem IsR.pushV (hκ : IsR b kbt κ) (hd : IsR b dea d) (ha : IsR b a y) (hq : IsR b q x) (hm : IsR b m z) (hy : y ≠ 0) :
    IsR b (pushV kbt dea a q m) (z + (x * x / y - κ) * (d / 2)) :=
  hm.addf ((IsR.forceV hκ hq ha hy).mulf hd.halfV)

theorem IsR.scaleV (hd : IsR b dea d) (ha : IsR b a y) (hm : IsR b m x) (hy : y ≠ 0) :
    IsR b (scaleV dea a m) (Real.exp (-x / y * d)) :=
  ((hm.negV.divf ha hy).mulf hd).exp

theorem IsR.driftV (hd : IsR b dea d) (hp : IsR b p z) (hm : IsR b m x) (ha : IsR b a y) (hy : y ≠ 0) :
    IsR b (driftV dea p m a) (z + x / y * d) :=
  hp.addf ((hm.divf ha hy).mulf hd)

open Cert.NHC in
/-- A sweep on entries that are reals is the real sweep, link by link. -/
theorem sweepV_real {dea a1 a2 a3 a4 c0 c1 c2 c3 m4 g0 g1 g2 g3 : FVec Ideal S2x1x1 .f32} {d : ℝ} {a mc g : Fin 5 → ℝ}
    (ha : ∀ c, a c ≠ 0) (hd : IsR b dea d)
    (h1 : IsR b a1 (a 1)) (h2 : IsR b a2 (a 2)) (h3 : IsR b a3 (a 3)) (h4 : IsR b a4 (a 4))
    (hc0 : IsR b c0 (mc 0)) (hc1 : IsR b c1 (mc 1)) (hc2 : IsR b c2 (mc 2)) (hc3 : IsR b c3 (mc 3)) (hm4 : IsR b m4 (mc 4))
    (hg0 : IsR b g0 (g 0)) (hg1 : IsR b g1 (g 1)) (hg2 : IsR b g2 (g 2)) (hg3 : IsR b g3 (g 3)) :
    IsR b (sweepV dea a1 a2 a3 a4 c0 c1 c2 c3 m4 g0 g1 g2 g3).m0 (sweep a mc g d 0)
    ∧ IsR b (sweepV dea a1 a2 a3 a4 c0 c1 c2 c3 m4 g0 g1 g2 g3).m1 (sweep a mc g d 1)
    ∧ IsR b (sweepV dea a1 a2 a3 a4 c0 c1 c2 c3 m4 g0 g1 g2 g3).m2 (sweep a mc g d 2)
    ∧ IsR b (sweepV dea a1 a2 a3 a4 c0 c1 c2 c3 m4 g0 g1 g2 g3).m3 (sweep a mc g d 3)
    ∧ IsR b m4 (sweep a mc g d 4) := by
  -- the last link is left alone; link 3 from it, then 2, 1, 0, each from the one above as already updated
  have e4 : IsR b m4 (sweep a mc g d 4) := by rw [sweep_four]; exact hm4
  have e3 : IsR b (sweepV dea a1 a2 a3 a4 c0 c1 c2 c3 m4 g0 g1 g2 g3).m3 (sweep a mc g d 3) := by
    rw [sweep_three, sweepV_m3]; exact IsR.linkV hd hc3 (IsR.dampV hd e4 h4 (ha 4)) hg3
  have e2 : IsR b (sweepV dea a1 a2 a3 a4 c0 c1 c2 c3 m4 g0 g1 g2 g3).m2 (sweep a mc g d 2) := by
    rw [sweep_two, sweepV_m2]; exact IsR.linkV hd hc2 (IsR.dampV hd e3 h3 (ha 3)) hg2
  have e1 : IsR b (sweepV dea a1 a2 a3 a4 c0 c1 c2 c3 m4 g0 g1 g2 g3).m1 (sweep a mc g d 1) := by
    rw [sweep_one, sweepV_m1]; exact IsR.linkV hd hc1 (IsR.dampV hd e2 h2 (ha 2)) hg1
  have e0 : IsR b (sweepV dea a1 a2 a3 a4 c0 c1 c2 c3 m4 g0 g1 g2 g3).m0 (sweep a mc g d 0) := by
    rw [sweep_zero, sweepV_m0]; exact IsR.linkV hd hc0 (IsR.dampV hd e1 h1 (ha 1)) hg0
  exact ⟨e0, e1, e2, e3, e4⟩

end PartsReal

/-! ### The substep -/

/-- The state of the body at row b is the real state r, entry by entry. -/
@[reducible] def Holds (b : Fin 2) (s : KSt Ideal) (r : Cert.NHC.StK) : Prop :=
  s.kin (rowIx b) = ((r.kin : ℝ) : EReal) ∧ s.tot (rowIx b) = ((r.tot : ℝ) : EReal)
  ∧ s.p0 (rowIx b) = ((r.p 0 : ℝ) : EReal) ∧ s.p1 (rowIx b) = ((r.p 1 : ℝ) : EReal) ∧ s.p2 (rowIx b) = ((r.p 2 : ℝ) : EReal)
  ∧ s.p3 (rowIx b) = ((r.p 3 : ℝ) : EReal) ∧ s.p4 (rowIx b) = ((r.p 4 : ℝ) : EReal)
  ∧ s.q0 (rowIx b) = ((r.q 0 : ℝ) : EReal) ∧ s.q1 (rowIx b) = ((r.q 1 : ℝ) : EReal) ∧ s.q2 (rowIx b) = ((r.q 2 : ℝ) : EReal)
  ∧ s.q3 (rowIx b) = ((r.q 3 : ℝ) : EReal) ∧ s.q4 (rowIx b) = ((r.q 4 : ℝ) : EReal)

open Cert.NHC in
/-- One substep of the body, on a state whose entries at row b are reals, with step size, temperature and (nonzero) chain
    masses that are reals at row b, is the real substep. -/
theorem kstepV_holds (b : Fin 2) (dea kbt a0 a1 a2 a3 a4 : FVec Ideal S2x1x1 .f32) (s : KSt Ideal) (r : Cert.NHC.StK)
    (d κ : ℝ) (a : Fin 5 → ℝ) (ha : ∀ c, a c ≠ 0) (hd : dea (rowIx b) = ((d : ℝ) : EReal)) (hκ : kbt (rowIx b) = ((κ : ℝ) : EReal))
    (h0 : a0 (rowIx b) = ((a 0 : ℝ) : EReal)) (h1 : a1 (rowIx b) = ((a 1 : ℝ) : EReal)) (h2 : a2 (rowIx b) = ((a 2 : ℝ) : EReal))
    (h3 : a3 (rowIx b) = ((a 3 : ℝ) : EReal)) (h4 : a4 (rowIx b) = ((a 4 : ℝ) : EReal)) (h : Holds b s r) :
    Holds b (kstepV dea kbt a0 a1 a2 a3 a4 s) (Cert.NHC.stepK a κ d r) := by
  obtain ⟨hkin, htot, hp0, hp1, hp2, hp3, hp4, hq0, hq1, hq2, hq3, hq4⟩ := h
  -- the forces on links 1, 2, 3, from the momenta the substep starts with; they serve both sweeps
  have eg1 : ∀ G, IsR b (forceV kbt s.q0 a0) (forces a r.q κ G 1) := fun G => by
    rw [forces_one]; exact IsR.forceV hκ hq0 h0 (ha 0)
  have eg2 : ∀ G, IsR b (forceV kbt s.q1 a1) (forces a r.q κ G 2) := fun G => by
    rw [forces_two]; exact IsR.forceV hκ hq1 h1 (ha 1)
  have eg3 : ∀ G, IsR b (forceV kbt s.q2 a2) (forces a r.q κ G 3) := fun G => by
    rw [forces_three]; exact IsR.forceV hκ hq2 h2 (ha 2)
  -- the first sweep, from the momenta the substep starts with, the last one pushed: the chain momenta of the real substep
  have eA : IsR b (swA dea kbt a0 a1 a2 a3 a4 s).m0 (mcOf a κ d r 0) ∧ IsR b (swA dea kbt a0 a1 a2 a3 a4 s).m1 (mcOf a κ d r 1)
      ∧ IsR b (swA dea kbt a0 a1 a2 a3 a4 s).m2 (mcOf a κ d r 2) ∧ IsR b (swA dea kbt a0 a1 a2 a3 a4 s).m3 (mcOf a κ d r 3)
      ∧ IsR b (pushV kbt dea a3 s.q3 s.q4) (mcOf a κ d r 4) := by
    rw [mcOf_eq]
    refine sweepV_real ha hd h1 h2 h3 h4 ?_ ?_ ?_ ?_ ?_ ?_ (eg1 _) (eg2 _) (eg3 _)
    · rw [bump_zero]; exact hq0
    · rw [bump_one]; exact hq1
    · rw [bump_two]; exact hq2
    · rw [bump_three]; exact hq3
    · rw [bump_four, forces_four]; exact IsR.pushV hκ hd h3 hq3 hq4 (ha 3)
    · rw [forces_zero]; exact IsR.force0V hκ hkin
  obtain ⟨eA0, eA1, eA2, eA3, eA4⟩ := eA
  -- the factor, the kinetic sum times its square
  have esc : IsR b (scV dea kbt a0 a1 a2 a3 a4 s) (scOf a κ d r) := by
    rw [scOf_eq]; exact IsR.scaleV hd h0 eA0 (ha 0)
  have ekin : IsR b (kinV dea kbt a0 a1 a2 a3 a4 s) (kinNew a κ d r) := by
    rw [kinNew_eq]; exact (IsR.mulf hkin esc).mulf esc
  -- the second sweep, with the new force on link 0
  have eB := sweepV_real (g := forces a r.q κ (kinNew a κ d r - κ * dof)) ha hd h1 h2 h3 h4 eA0 eA1 eA2 eA3 eA4
    (by rw [forces_zero]; exact IsR.force0V hκ ekin) (eg1 _) (eg2 _) (eg3 _)
  obtain ⟨eB0, eB1, eB2, eB3, eB4⟩ := eB
  -- entry by entry
  rw [kstepV_eq]
  refine ⟨?_, ?_, ?_, ?_, ?_, ?_, ?_, ?_, ?_, ?_, ?_, ?_⟩
  · rw [stepK_kin]; exact ekin
  · rw [stepK_tot]; exact IsR.mulf htot esc
  · rw [stepK_p]; exact IsR.driftV hd hp0 eA0 h0 (ha 0)
  · rw [stepK_p]; exact IsR.driftV hd hp1 eA1 h1 (ha 1)
  · rw [stepK_p]; exact IsR.driftV hd hp2 eA2 h2 (ha 2)
  · rw [stepK_p]; exact IsR.driftV hd hp3 eA3 h3 (ha 3)
  · rw [stepK_p]; exact IsR.driftV hd hp4 eA4 h4 (ha 4)
  · rw [stepK_q, bump_zero]; exact eB0
  · rw [stepK_q, bump_one]; exact eB1
  · rw [stepK_q, bump_two]; exact eB2
  · rw [stepK_q, bump_three]; exact eB3
  · rw [stepK_q, bump_four, forces_four]; exact IsR.pushV hκ hd h3 hq3 eB4 (ha 3)

/-! ### Before the first substep and after the last -/

section Edges

/-- The coercion of a finite sum of reals is the sum of the coercions. -/
theorem coe_sum {ι : Type} (s : Finset ι) (f : ι → ℝ) : ((∑ i ∈ s, f i : ℝ) : EReal) = ∑ i ∈ s, ((f i : ℝ) : EReal) := by
  classical
  induction s using Finset.induction_on with
  | empty => rw [Finset.sum_empty, Finset.sum_empty, EReal.coe_zero]
  | insert i s hi ih => rw [Finset.sum_insert hi, Finset.sum_insert hi, EReal.coe_add, ih]

/-- The index over (i, j) with coordinate k put on the middle axis is (i, k, j). -/
theorem lift_axis1 {n0 n1 n2 : ℕ} (h : (⟨3, ![n0, n1, n2]⟩ : Shape).Reduces [1] ⟨2, ![n0, n2]⟩) (i : Fin n0) (j : Fin n2)
    (k : Fin n1) : h.lift (ix2 i j) k = ix3 i k j := by
  funext c
  apply Fin.ext
  match c with
  | ⟨0, _⟩ => rfl
  | ⟨1, _⟩ => rfl
  | ⟨2, _⟩ => rfl

/-- The index over (i, j) with coordinate k put on the last axis is (i, j, k). -/
theorem lift_axis2 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c
  apply Fin.ext
  match c with
  | ⟨0, _⟩ => rfl
  | ⟨1, _⟩ => rfl
  | ⟨2, _⟩ => rfl

/-- The accumulated factor before the first substep is one. -/
theorem tot0V_real (b : Fin 2) : (tot0V (F := Ideal)) (rowIx b) = ((1 : ℝ) : EReal) := word_one

variable [Facts]
open Facts₀ Facts

/-- The kinetic sum of a block whose momenta and (nonzero) masses at row b are reals is the real kinetic sum: the body
    sums the three components of each particle, then the particles. -/
theorem kin0V_real (b : Fin 2) (x0 : Vec Ideal S2x131072x3 .f32) (x1 : Vec Ideal S2x131072x1 .f32)
    (mom : Fin 131072 × Fin 3 → ℝ) (mas : Fin 131072 → ℝ) (hmas : ∀ n, mas n ≠ 0)
    (hx0 : ∀ (n : Fin 131072) (k : Fin 3), x0 (ix3 b n k) = ((mom (n, k) : ℝ) : EReal))
    (hx1 : ∀ n : Fin 131072, x1 (ix3 b n (0 : Fin 1)) = ((mas n : ℝ) : EReal)) :
    kin0V x0 x1 (rowIx b) = ((Cert.NHC.kinOf (fun i : Fin 131072 × Fin 3 => mas i.1) mom : ℝ) : EReal) := by
  -- the real side as the double sum, the coercion inside
  have hreal : Cert.NHC.kinOf (fun i : Fin 131072 × Fin 3 => mas i.1) mom
      = ∑ n : Fin 131072, ∑ k : Fin 3, mom (n, k) * mom (n, k) / mas n := by
    unfold Cert.NHC.kinOf; rw [Fintype.sum_prod_type]
  rw [hreal, coe_sum]
  unfold kin0V
  dsimp only
  -- the last cast, then the sum over the particles
  refine (shapeCast_apply _ _ (rowIx b) (ix2 b (0 : Fin 1)) ?_).trans ?_
  · rw [Shape.rowMajor_val_two, Shape.rowMajor_val_three]
    show b.val * 1 + 0 = (b.val * 1 + 0) * 1 + 0
    omega
  refine (Ideal.multiReduction_add_single _ _ _ _ _ _).trans ?_
  refine Finset.sum_congr rfl fun (n : Fin 131072) _ => ?_
  rw [lift_axis1, coe_sum]
  -- the middle cast, then the sum over the three components
  refine (shapeCast_apply _ _ (ix3 b n (0 : Fin 1)) (ix2 b n) ?_).trans ?_
  · rw [Shape.rowMajor_val_two, Shape.rowMajor_val_three]
    show b.val * 131072 + n.val = (b.val * 131072 + n.val) * 1 + 0
    omega
  refine (Ideal.multiReduction_add_single _ _ _ _ _ _).trans ?_
  refine Finset.sum_congr rfl fun (k : Fin 3) _ => ?_
  rw [lift_axis2]
  -- one term: the square over the mass of its particle, which the broadcast reads at component 0
  show Ideal.div (x0 (ix3 b n k) * x0 (ix3 b n k)) (broadcastTo S2x131072x3 (shapeCast S2x131072x1 x1 _) _ (ix3 b n k)) = _
  rw [broadcastTo_apply _ _ (ix3 b n k) (ix3 b n (0 : Fin 1)) (fun ax => by
    match ax with
    | ⟨0, _⟩ => rfl
    | ⟨1, _⟩ => rfl
    | ⟨2, _⟩ => rfl), shapeCast_self, hx0, hx1, ← EReal.coe_mul, Ideal.div_coe (hmas n), ← EReal.coe_mul, mul_one_div]

/-- The rescaled momenta at an entry: the entry times the accumulated factor of its batch row. -/
theorem momOutV_apply (x0 : Vec Ideal S2x131072x3 .f32) (tot : FVec Ideal S2x1x1 .f32) (b : Fin 2) (n : Fin 131072) (k : Fin 3) :
    momOutV x0 tot (ix3 b n k) = x0 (ix3 b n k) * tot (rowIx b) := by
  show x0 (ix3 b n k) * broadcastTo S2x131072x3 tot _ (ix3 b n k) = _
  rw [broadcastTo_apply _ _ (ix3 b n k) (rowIx b) (fun ax => by
    match ax with
    | ⟨0, _⟩ => rfl
    | ⟨1, _⟩ => rfl
    | ⟨2, _⟩ => rfl)]

end Edges

/-! ### Five columns side by side -/

section Cat
variable [Facts]
open Facts₀ Facts
variable {F : FTy → Type} (c0 c1 c2 c3 c4 : FVec F S2x1x1 .f32) (b : Fin 2)

/-- The row's index in a piece agrees with the index in the five-column value off the last axis. -/
theorem rowIx_off_axis (c : Fin 5) (hr : S2x1x1.rank = S2x1x5.rank) (b' : Fin S2x1x1.rank) (hb : b'.cast hr ≠ (2 : Fin 3)) :
    (rowIx b b').val = (ix3 b (0 : Fin 1) c (b'.cast hr)).val := by
  match b', hb with
  | ⟨0, _⟩, _ => rfl
  | ⟨1, _⟩, _ => rfl
  | ⟨2, _⟩, hb => exact absurd rfl hb

theorem cat5V_apply_0 : cat5V c0 c1 c2 c3 c4 (ix3 b (0 : Fin 1) (0 : Fin 5)) = c0 (rowIx b) := by
  unfold cat5V
  exact concatenate_apply_piece (t := S2x1x5) 2 _ _ _ 0 (by simp) S2x1x1 c0 rfl rfl 0 rfl (rowIx b) (rowIx_off_axis b 0 rfl) rfl

theorem cat5V_apply_1 : cat5V c0 c1 c2 c3 c4 (ix3 b (0 : Fin 1) (1 : Fin 5)) = c1 (rowIx b) := by
  unfold cat5V
  exact concatenate_apply_piece (t := S2x1x5) 2 _ _ _ 1 (by simp) S2x1x1 c1 rfl rfl 1 rfl (rowIx b) (rowIx_off_axis b 1 rfl) rfl

theorem cat5V_apply_2 : cat5V c0 c1 c2 c3 c4 (ix3 b (0 : Fin 1) (2 : Fin 5)) = c2 (rowIx b) := by
  unfold cat5V
  exact concatenate_apply_piece (t := S2x1x5) 2 _ _ _ 2 (by simp) S2x1x1 c2 rfl rfl 2 rfl (rowIx b) (rowIx_off_axis b 2 rfl) rfl

theorem cat5V_apply_3 : cat5V c0 c1 c2 c3 c4 (ix3 b (0 : Fin 1) (3 : Fin 5)) = c3 (rowIx b) := by
  unfold cat5V
  exact concatenate_apply_piece (t := S2x1x5) 2 _ _ _ 3 (by simp) S2x1x1 c3 rfl rfl 3 rfl (rowIx b) (rowIx_off_axis b 3 rfl) rfl

theorem cat5V_apply_4 : cat5V c0 c1 c2 c3 c4 (ix3 b (0 : Fin 1) (4 : Fin 5)) = c4 (rowIx b) := by
  unfold cat5V
  exact concatenate_apply_piece (t := S2x1x5) 2 _ _ _ 4 (by simp) S2x1x1 c4 rfl rfl 4 rfl (rowIx b) (rowIx_off_axis b 4 rfl) rfl

/-- Column c of five one-column values side by side is the c-th of them. -/
theorem cat5V_apply (c : Fin 5) :
    cat5V c0 c1 c2 c3 c4 (ix3 b (0 : Fin 1) c)
      = (match c with | 0 => c0 | 1 => c1 | 2 => c2 | 3 => c3 | 4 => c4) (rowIx b) := by
  match c with
  | 0 => exact cat5V_apply_0 c0 c1 c2 c3 c4 b
  | 1 => exact cat5V_apply_1 c0 c1 c2 c3 c4 b
  | 2 => exact cat5V_apply_2 c0 c1 c2 c3 c4 b
  | 3 => exact cat5V_apply_3 c0 c1 c2 c3 c4 b
  | 4 => exact cat5V_apply_4 c0 c1 c2 c3 c4 b

end Cat

end Cert.KernelIdeal.Chain

end
-- ==== Proof.KWit.lean ====
/-
  The three witnesses of the body's run in closed form.

  The body is a chain: it reads its blocks, forms the kinetic sum of the particle block, then takes fourteen substeps of one
  fixed form on a state of twelve values (the kinetic sum, the accumulated factor, five chain positions, five chain momenta),
  each substep with its own step size (a column of the 2x1x14 block), and at the end writes the particle block times the
  accumulated factor, the five positions side by side, and the five momenta side by side.  The run names every value it
  meets; the statements here say that those names, followed from the three stores back to the loads, spell exactly the
  fourteen-fold nest of the substep function over the values loaded: both sides are the same expression once every name is
  replaced by what it stands for, so each equation holds by unfolding definitions.
-/
import proofs.«138430_j46600395162250_2_alg».proof.Proof.KRun
import proofs.«138430_j46600395162250_2_alg».proof.Proof.KStep
import Idealize.ShloMosaic.Lib.Pipeline.Value

set_option maxRecDepth 65536

noncomputable section

namespace Cert.KernelIdeal.Frame

open Cert.KernelIdeal Cert.KernelIdeal.Gen Cert.KernelIdeal.Chain

open Idealize.ShloMosaic Idealize.ShloMosaic.TcCoe Idealize.ShloMosaic.Tactic
open Idealize.SL Idealize.SL.Sem

variable {F : FTy → Type} [FloatOps F]

/-- The zero offsets of a rank-3 block, however spelt. -/
theorem hz3 : (![0, 0, 0] : Fin 3 → Nat) = fun _ => 0 := funext fun a => by fin_cases a <;> rfl

/-- Column `j` of a 2x1x5 block lies inside it. -/
theorem inb5 (j : Nat) (hj : j + 1 ≤ 5) : ∀ a, (![0, 0, j] : Fin 3 → Nat) a + S2x1x1.size a ≤ S2x1x5.size a := by
  intro a; fin_cases a
  · show 0 + 2 ≤ 2; omega
  · show 0 + 1 ≤ 1; omega
  · show j + 1 ≤ 5; exact hj

/-- Column `j` of a 2x1x14 block lies inside it. -/
theorem inb14 (j : Nat) (hj : j + 1 ≤ 14) : ∀ a, (![0, 0, j] : Fin 3 → Nat) a + S2x1x1.size a ≤ S2x1x14.size a := by
  intro a; fin_cases a
  · show 0 + 2 ≤ 2; omega
  · show 0 + 1 ≤ 1; omega
  · show j + 1 ≤ 14; exact hj

/-- Column `j` of a 2x1x5 block, one entry per batch row: what the body's load of that column gives. -/
def colV5 (x : Vec F S2x1x5 .f32) (j : Nat) (hj : j + 1 ≤ 5 := by decide) : FVec F S2x1x1 .f32 :=
  shapeCast S2x1x1 (View.ld x (Rect.unit (s := S2x1x5) ![0, 0, j] S2x1x1.size (inb5 j hj))) shapeCasts_S2x1x1_S2x1x1

/-- Column `j` of the 2x1x14 block of step sizes. -/
def colV14 (x : Vec F S2x1x14 .f32) (j : Nat) (hj : j + 1 ≤ 14 := by decide) : FVec F S2x1x1 .f32 :=
  shapeCast S2x1x1 (View.ld x (Rect.unit (s := S2x1x14) ![0, 0, j] S2x1x1.size (inb14 j hj))) shapeCasts_S2x1x1_S2x1x1

/-- The 2x1x1 block of temperatures, as the body's load of it gives it. -/
def kbtV (x : Vec F S2x1x1 .f32) : FVec F S2x1x1 .f32 :=
  shapeCast S2x1x1 (View.ld x (Rect.unit (s := S2x1x1) ![0, 0, 0] S2x1x1.size inb_S2x1x1_S2x1x1_0_0_0)) shapeCasts_S2x1x1_S2x1x1

/-- The state before the first substep: the kinetic sum of the particle block, the factor one, the chain positions (the
    columns of `x3`) and the chain momenta (the columns of `x2`). -/
def kinitV (x0 : Vec F S2x131072x3 .f32) (x1 : Vec F S2x131072x1 .f32) (x2 x3 : Vec F S2x1x5 .f32) : KSt F :=
  { kin := kin0V x0 x1, tot := tot0V,
    p0 := colV5 x3 0, p1 := colV5 x3 1, p2 := colV5 x3 2, p3 := colV5 x3 3, p4 := colV5 x3 4,
    q0 := colV5 x2 0, q1 := colV5 x2 1, q2 := colV5 x2 2, q3 := colV5 x2 3, q4 := colV5 x2 4 }

/-- Substep `k`: the substep function at step size column `k` of `x6`, temperature `x5`, chain masses the columns of `x4`. -/
def kstepAt (x4 : Vec F S2x1x5 .f32) (x5 : Vec F S2x1x1 .f32) (x6 : Vec F S2x1x14 .f32) (k : Nat) (s : KSt F)
    (hk : k + 1 ≤ 14 := by decide) : KSt F :=
  kstepV (colV14 x6 k hk) (kbtV x5) (colV5 x4 0) (colV5 x4 1) (colV5 x4 2) (colV5 x4 3) (colV5 x4 4) s

/-- The state after the fourteen substeps. -/
def kfinalV (x0 : Vec F S2x131072x3 .f32) (x1 : Vec F S2x131072x1 .f32) (x2 x3 x4 : Vec F S2x1x5 .f32) (x5 : Vec F S2x1x1 .f32)
    (x6 : Vec F S2x1x14 .f32) : KSt F :=
  kstepAt x4 x5 x6 13 (kstepAt x4 x5 x6 12 (kstepAt x4 x5 x6 11 (kstepAt x4 x5 x6 10 (kstepAt x4 x5 x6 9 (kstepAt x4 x5 x6 8
    (kstepAt x4 x5 x6 7 (kstepAt x4 x5 x6 6 (kstepAt x4 x5 x6 5 (kstepAt x4 x5 x6 4 (kstepAt x4 x5 x6 3 (kstepAt x4 x5 x6 2
    (kstepAt x4 x5 x6 1 (kstepAt x4 x5 x6 0 (kinitV x0 x1 x2 x3))))))))))))))

/-! ## The witnesses over the values as loaded

Each witness is what one whole store left, read back: the store's payload.  The payload's arguments are names of the run;
followed back to the loads they spell the nest of substeps. -/

set_option maxHeartbeats 4000000 in
/-- The particle block the body leaves, over the values as loaded. -/
theorem wit8_raw (c : Dev nD) (i : grid0.Coords) (arg1 : Memref sig .tc .vmem S2x131072x3 .f32) (harg1 : arg1.IsWhole) (arg2 : Memref sig .tc .vmem S2x131072x1 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x131072x3 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x131072x3 .f32) (x1 : Vec F S2x131072x1 .f32) (x2 : Vec F S2x1x5 .f32) (x3 : Vec F S2x1x5 .f32) (x4 : Vec F S2x1x5 .f32) (x5 : Vec F S2x1x1 .f32) (x6 : Vec F S2x1x14 .f32) :
    (kernelRun (F := F) c i arg1 harg1 arg2 harg2 arg3 harg3 arg4 harg4 arg5 harg5 arg6 harg6 arg7 harg7 arg8 harg8 arg9 harg9 arg10 harg10 x0 x1 x2 x3 x4 x5 x6).1.1 = momOutV (View.ld (arg1.view.read (Elt F) (harg1.unread x0)) (Rect.unit (s := S2x131072x3) ![0, 0, 0] S2x131072x3.size inb_S2x131072x3_S2x131072x3_0_0_0)) (kfinalV (View.ld (arg1.view.read (Elt F) (harg1.unread x0)) (Rect.unit (s := S2x131072x3) ![0, 0, 0] S2x131072x3.size inb_S2x131072x3_S2x131072x3_0_0_0)) (View.ld (arg2.view.read (Elt F) (harg2.unread x1)) (Rect.unit (s := S2x131072x1) ![0, 0, 0] S2x131072x1.size inb_S2x131072x1_S2x131072x1_0_0_0)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))).tot := by
  dsimp only [kernelRun]
  rw [View.read_writes_junk_eq_canon]
  unfold kernelRun.sl.H7_1
  rw [View.canon_unit_zero hz3]
  sl_kernel_rfl

set_option maxHeartbeats 4000000 in
/-- The positions' block the body leaves, over the values as loaded. -/
theorem wit9_raw (c : Dev nD) (i : grid0.Coords) (arg1 : Memref sig .tc .vmem S2x131072x3 .f32) (harg1 : arg1.IsWhole) (arg2 : Memref sig .tc .vmem S2x131072x1 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x131072x3 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x131072x3 .f32) (x1 : Vec F S2x131072x1 .f32) (x2 : Vec F S2x1x5 .f32) (x3 : Vec F S2x1x5 .f32) (x4 : Vec F S2x1x5 .f32) (x5 : Vec F S2x1x1 .f32) (x6 : Vec F S2x1x14 .f32) :
    (kernelRun (F := F) c i arg1 harg1 arg2 harg2 arg3 harg3 arg4 harg4 arg5 harg5 arg6 harg6 arg7 harg7 arg8 harg8 arg9 harg9 arg10 harg10 x0 x1 x2 x3 x4 x5 x6).1.2.1 = cat5V (kfinalV (View.ld (arg1.view.read (Elt F) (harg1.unread x0)) (Rect.unit (s := S2x131072x3) ![0, 0, 0] S2x131072x3.size inb_S2x131072x3_S2x131072x3_0_0_0)) (View.ld (arg2.view.read (Elt F) (harg2.unread x1)) (Rect.unit (s := S2x131072x1) ![0, 0, 0] S2x131072x1.size inb_S2x131072x1_S2x131072x1_0_0_0)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))).p0 (kfinalV (View.ld (arg1.view.read (Elt F) (harg1.unread x0)) (Rect.unit (s := S2x131072x3) ![0, 0, 0] S2x131072x3.size inb_S2x131072x3_S2x131072x3_0_0_0)) (View.ld (arg2.view.read (Elt F) (harg2.unread x1)) (Rect.unit (s := S2x131072x1) ![0, 0, 0] S2x131072x1.size inb_S2x131072x1_S2x131072x1_0_0_0)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))).p1 (kfinalV (View.ld (arg1.view.read (Elt F) (harg1.unread x0)) (Rect.unit (s := S2x131072x3) ![0, 0, 0] S2x131072x3.size inb_S2x131072x3_S2x131072x3_0_0_0)) (View.ld (arg2.view.read (Elt F) (harg2.unread x1)) (Rect.unit (s := S2x131072x1) ![0, 0, 0] S2x131072x1.size inb_S2x131072x1_S2x131072x1_0_0_0)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))).p2 (kfinalV (View.ld (arg1.view.read (Elt F) (harg1.unread x0)) (Rect.unit (s := S2x131072x3) ![0, 0, 0] S2x131072x3.size inb_S2x131072x3_S2x131072x3_0_0_0)) (View.ld (arg2.view.read (Elt F) (harg2.unread x1)) (Rect.unit (s := S2x131072x1) ![0, 0, 0] S2x131072x1.size inb_S2x131072x1_S2x131072x1_0_0_0)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))).p3 (kfinalV (View.ld (arg1.view.read (Elt F) (harg1.unread x0)) (Rect.unit (s := S2x131072x3) ![0, 0, 0] S2x131072x3.size inb_S2x131072x3_S2x131072x3_0_0_0)) (View.ld (arg2.view.read (Elt F) (harg2.unread x1)) (Rect.unit (s := S2x131072x1) ![0, 0, 0] S2x131072x1.size inb_S2x131072x1_S2x131072x1_0_0_0)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))).p4 := by
  dsimp only [kernelRun]
  rw [View.read_writes_junk_eq_canon]
  unfold kernelRun.sl.H8_1
  rw [View.canon_unit_zero hz3]
  sl_kernel_rfl

set_option maxHeartbeats 4000000 in
/-- The momenta's block the body leaves, over the values as loaded. -/
theorem wit10_raw (c : Dev nD) (i : grid0.Coords) (arg1 : Memref sig .tc .vmem S2x131072x3 .f32) (harg1 : arg1.IsWhole) (arg2 : Memref sig .tc .vmem S2x131072x1 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x131072x3 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x131072x3 .f32) (x1 : Vec F S2x131072x1 .f32) (x2 : Vec F S2x1x5 .f32) (x3 : Vec F S2x1x5 .f32) (x4 : Vec F S2x1x5 .f32) (x5 : Vec F S2x1x1 .f32) (x6 : Vec F S2x1x14 .f32) :
    (kernelRun (F := F) c i arg1 harg1 arg2 harg2 arg3 harg3 arg4 harg4 arg5 harg5 arg6 harg6 arg7 harg7 arg8 harg8 arg9 harg9 arg10 harg10 x0 x1 x2 x3 x4 x5 x6).1.2.2 = cat5V (kfinalV (View.ld (arg1.view.read (Elt F) (harg1.unread x0)) (Rect.unit (s := S2x131072x3) ![0, 0, 0] S2x131072x3.size inb_S2x131072x3_S2x131072x3_0_0_0)) (View.ld (arg2.view.read (Elt F) (harg2.unread x1)) (Rect.unit (s := S2x131072x1) ![0, 0, 0] S2x131072x1.size inb_S2x131072x1_S2x131072x1_0_0_0)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))).q0 (kfinalV (View.ld (arg1.view.read (Elt F) (harg1.unread x0)) (Rect.unit (s := S2x131072x3) ![0, 0, 0] S2x131072x3.size inb_S2x131072x3_S2x131072x3_0_0_0)) (View.ld (arg2.view.read (Elt F) (harg2.unread x1)) (Rect.unit (s := S2x131072x1) ![0, 0, 0] S2x131072x1.size inb_S2x131072x1_S2x131072x1_0_0_0)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))).q1 (kfinalV (View.ld (arg1.view.read (Elt F) (harg1.unread x0)) (Rect.unit (s := S2x131072x3) ![0, 0, 0] S2x131072x3.size inb_S2x131072x3_S2x131072x3_0_0_0)) (View.ld (arg2.view.read (Elt F) (harg2.unread x1)) (Rect.unit (s := S2x131072x1) ![0, 0, 0] S2x131072x1.size inb_S2x131072x1_S2x131072x1_0_0_0)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))).q2 (kfinalV (View.ld (arg1.view.read (Elt F) (harg1.unread x0)) (Rect.unit (s := S2x131072x3) ![0, 0, 0] S2x131072x3.size inb_S2x131072x3_S2x131072x3_0_0_0)) (View.ld (arg2.view.read (Elt F) (harg2.unread x1)) (Rect.unit (s := S2x131072x1) ![0, 0, 0] S2x131072x1.size inb_S2x131072x1_S2x131072x1_0_0_0)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))).q3 (kfinalV (View.ld (arg1.view.read (Elt F) (harg1.unread x0)) (Rect.unit (s := S2x131072x3) ![0, 0, 0] S2x131072x3.size inb_S2x131072x3_S2x131072x3_0_0_0)) (View.ld (arg2.view.read (Elt F) (harg2.unread x1)) (Rect.unit (s := S2x131072x1) ![0, 0, 0] S2x131072x1.size inb_S2x131072x1_S2x131072x1_0_0_0)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6))).q4 := by
  dsimp only [kernelRun]
  rw [View.read_writes_junk_eq_canon]
  unfold kernelRun.sl.H9_1
  rw [View.canon_unit_zero hz3]
  sl_kernel_rfl

/-! ## The witnesses over the input blocks

A whole memref held at contents that read `x` reads `x`, and a load of a whole block at zero offsets reads the block. -/

/-- The particle block the body leaves: the input particle block times the accumulated factor after the fourteen substeps. -/
theorem wit8 (c : Dev nD) (i : grid0.Coords) (arg1 : Memref sig .tc .vmem S2x131072x3 .f32) (harg1 : arg1.IsWhole) (arg2 : Memref sig .tc .vmem S2x131072x1 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x131072x3 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x131072x3 .f32) (x1 : Vec F S2x131072x1 .f32) (x2 : Vec F S2x1x5 .f32) (x3 : Vec F S2x1x5 .f32) (x4 : Vec F S2x1x5 .f32) (x5 : Vec F S2x1x1 .f32) (x6 : Vec F S2x1x14 .f32) :
    (kernelRun (F := F) c i arg1 harg1 arg2 harg2 arg3 harg3 arg4 harg4 arg5 harg5 arg6 harg6 arg7 harg7 arg8 harg8 arg9 harg9 arg10 harg10 x0 x1 x2 x3 x4 x5 x6).1.1 = momOutV x0 (kfinalV x0 x1 x2 x3 x4 x5 x6).tot := by
  rw [wit8_raw]
  simp only [harg1.read_unread, harg2.read_unread, harg3.read_unread, harg4.read_unread, harg5.read_unread, harg6.read_unread, harg7.read_unread, View.ld_unit_zero (S := S2x131072x3) hz3, View.ld_unit_zero (S := S2x131072x1) hz3]

/-- The positions' block the body leaves: the five chain positions after the fourteen substeps, side by side. -/
theorem wit9 (c : Dev nD) (i : grid0.Coords) (arg1 : Memref sig .tc .vmem S2x131072x3 .f32) (harg1 : arg1.IsWhole) (arg2 : Memref sig .tc .vmem S2x131072x1 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x131072x3 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x131072x3 .f32) (x1 : Vec F S2x131072x1 .f32) (x2 : Vec F S2x1x5 .f32) (x3 : Vec F S2x1x5 .f32) (x4 : Vec F S2x1x5 .f32) (x5 : Vec F S2x1x1 .f32) (x6 : Vec F S2x1x14 .f32) :
    (kernelRun (F := F) c i arg1 harg1 arg2 harg2 arg3 harg3 arg4 harg4 arg5 harg5 arg6 harg6 arg7 harg7 arg8 harg8 arg9 harg9 arg10 harg10 x0 x1 x2 x3 x4 x5 x6).1.2.1 = cat5V (kfinalV x0 x1 x2 x3 x4 x5 x6).p0 (kfinalV x0 x1 x2 x3 x4 x5 x6).p1 (kfinalV x0 x1 x2 x3 x4 x5 x6).p2 (kfinalV x0 x1 x2 x3 x4 x5 x6).p3 (kfinalV x0 x1 x2 x3 x4 x5 x6).p4 := by
  rw [wit9_raw]
  simp only [harg1.read_unread, harg2.read_unread, harg3.read_unread, harg4.read_unread, harg5.read_unread, harg6.read_unread, harg7.read_unread, View.ld_unit_zero (S := S2x131072x3) hz3, View.ld_unit_zero (S := S2x131072x1) hz3]

/-- The momenta's block the body leaves: the five chain momenta after the fourteen substeps, side by side. -/
theorem wit10 (c : Dev nD) (i : grid0.Coords) (arg1 : Memref sig .tc .vmem S2x131072x3 .f32) (harg1 : arg1.IsWhole) (arg2 : Memref sig .tc .vmem S2x131072x1 .f32) (harg2 : arg2.IsWhole) (arg3 : Memref sig .tc .vmem S2x1x5 .f32) (harg3 : arg3.IsWhole) (arg4 : Memref sig .tc .vmem S2x1x5 .f32) (harg4 : arg4.IsWhole) (arg5 : Memref sig .tc .vmem S2x1x5 .f32) (harg5 : arg5.IsWhole) (arg6 : Memref sig .tc .vmem S2x1x1 .f32) (harg6 : arg6.IsWhole) (arg7 : Memref sig .tc .vmem S2x1x14 .f32) (harg7 : arg7.IsWhole) (arg8 : Memref sig .tc .vmem S2x131072x3 .f32) (harg8 : arg8.IsWhole) (arg9 : Memref sig .tc .vmem S2x1x5 .f32) (harg9 : arg9.IsWhole) (arg10 : Memref sig .tc .vmem S2x1x5 .f32) (harg10 : arg10.IsWhole)
    (x0 : Vec F S2x131072x3 .f32) (x1 : Vec F S2x131072x1 .f32) (x2 : Vec F S2x1x5 .f32) (x3 : Vec F S2x1x5 .f32) (x4 : Vec F S2x1x5 .f32) (x5 : Vec F S2x1x1 .f32) (x6 : Vec F S2x1x14 .f32) :
    (kernelRun (F := F) c i arg1 harg1 arg2 harg2 arg3 harg3 arg4 harg4 arg5 harg5 arg6 harg6 arg7 harg7 arg8 harg8 arg9 harg9 arg10 harg10 x0 x1 x2 x3 x4 x5 x6).1.2.2 = cat5V (kfinalV x0 x1 x2 x3 x4 x5 x6).q0 (kfinalV x0 x1 x2 x3 x4 x5 x6).q1 (kfinalV x0 x1 x2 x3 x4 x5 x6).q2 (kfinalV x0 x1 x2 x3 x4 x5 x6).q3 (kfinalV x0 x1 x2 x3 x4 x5 x6).q4 := by
  rw [wit10_raw]
  simp only [harg1.read_unread, harg2.read_unread, harg3.read_unread, harg4.read_unread, harg5.read_unread, harg6.read_unread, harg7.read_unread, View.ld_unit_zero (S := S2x131072x3) hz3, View.ld_unit_zero (S := S2x131072x1) hz3]

end Cert.KernelIdeal.Frame

end
-- ==== Proof.KWitRows.lean ====
/-
  The loaded columns entry by entry: the entry of a column at a batch row is the block's entry at that row and that column.
-/
import proofs.«138430_j46600395162250_2_alg».proof.Proof.KWit
import proofs.«138430_j46600395162250_2_alg».proof.Proof.KStepReal

noncomputable section

namespace Cert.KernelIdeal.Frame

open Cert.KernelIdeal Cert.KernelIdeal.Gen Cert.KernelIdeal.Chain

open Idealize.ShloMosaic Idealize.ShloMosaic.TcCoe Idealize.ShloMosaic.ValueIdx
open Idealize.SL Idealize.SL.Sem

variable {F : FTy → Type} [FloatOps F]

/-- A column of a 2x1x5 block is the block read through the column's rectangle. -/
theorem colV5_eq (x : Vec F S2x1x5 .f32) (j : Nat) (hj : j + 1 ≤ 5) :
    colV5 x j hj = View.ld x (Rect.unit (s := S2x1x5) ![0, 0, j] S2x1x1.size (inb5 j hj)) :=
  shapeCast_self _ _

/-- A column of the 2x1x14 block is the block read through the column's rectangle. -/
theorem colV14_eq (x : Vec F S2x1x14 .f32) (j : Nat) (hj : j + 1 ≤ 14) :
    colV14 x j hj = View.ld x (Rect.unit (s := S2x1x14) ![0, 0, j] S2x1x1.size (inb14 j hj)) :=
  shapeCast_self _ _

/-- The 2x1x1 block as loaded is the block. -/
theorem kbtV_eq (x : Vec F S2x1x1 .f32) : kbtV x = x :=
  (shapeCast_self _ _).trans (View.ld_unit_zero (S := S2x1x1) hz3 _ x)

/-- The entry of column `j` of a 2x1x5 block at batch row `b` is the block's entry at row `b`, column `j`. -/
theorem colV5_row (x : Vec F S2x1x5 .f32) (j : Nat) (hj : j + 1 ≤ 5) (b : Fin 2) :
    colV5 x j hj (rowIx b) = x (ix3 b (0 : Fin 1) (⟨j, hj⟩ : Fin 5)) := by
  rw [colV5_eq]
  show x _ = x _
  congr 1
  funext a
  apply Fin.ext
  match a with
  | ⟨0, _⟩ => show 0 + 1 * b.val = b.val; omega
  | ⟨1, _⟩ => show 0 + 1 * 0 = 0; rfl
  | ⟨2, _⟩ => show j + 1 * 0 = j; omega

/-- The entry of column `s` of the 2x1x14 block at batch row `b` is the block's entry at row `b`, column `s`. -/
theorem colV14_row (x : Vec F S2x1x14 .f32) (s : Nat) (hs : s + 1 ≤ 14) (b : Fin 2) :
    colV14 x s hs (rowIx b) = x (ix3 b (0 : Fin 1) (⟨s, hs⟩ : Fin 14)) := by
  rw [colV14_eq]
  show x _ = x _
  congr 1
  funext a
  apply Fin.ext
  match a with
  | ⟨0, _⟩ => show 0 + 1 * b.val = b.val; omega
  | ⟨1, _⟩ => show 0 + 1 * 0 = 0; rfl
  | ⟨2, _⟩ => show s + 1 * 0 = s; omega

/-- The entry of the 2x1x1 block as loaded at batch row `b` is the block's entry at row `b`. -/
theorem kbtV_row (x : Vec F S2x1x1 .f32) (b : Fin 2) :
    kbtV x (rowIx b) = x (ix3 b (0 : Fin 1) (0 : Fin 1)) := by
  rw [kbtV_eq]

end Cert.KernelIdeal.Frame

end
-- ==== Proof.KBlocks.lean ====
/-
  Blocks and arrays. The region's grid has sixteen points; at point t each of the ten windows stages the two rows
  2t and 2t + 1 of its array, whole in the other two coordinates (block index (t, 0, 0)).

  So a block read off any contents A of its array is A at row 2t + b', for b' the row inside the block: first for any
  A, then for the seven input windows at the arrays the region finds, and, over the extended reals, down to the
  arguments themselves (the relayouts read the argument at the matching coordinates; an entry of the coefficient
  table's block is a real number once the time steps and the step scale are real).

  In the other direction, for the three output windows: every point writes its block back and row r lies in the block
  of point r / 2, so the sixteen blocks cover the array, and an array every block of which is G read through the block
  ends holding G. The windows are not cut at the array's end, so what a point writes back is what the body left.
-/
import proofs.«138430_j46600395162250_2_alg».proof.Proof.KFrame
import proofs.«138430_j46600395162250_2_alg».proof.Proof.KHost
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

/-! ## Rows, and where a block sits in its array -/

section Generic
variable {F : FTy → Type} [FloatOps F]
variable (m : (ℓ : Loc nD τ sig) → Buf (Elt F) ℓ)

/-- The grid has sixteen points. -/
theorem N16 : cfg0.N = 16 := N_0

/-- The array row that row `b'` of point `t`'s block is: each point stages two consecutive rows. -/
def row (t : Fin cfg0.N) (b' : Fin 2) : Fin 32 := ⟨2 * t.val + b'.val, by have := t.isLt; have := N16; have := b'.isLt; omega⟩

theorem row_val (t : Fin cfg0.N) (b' : Fin 2) : (row t b').val = 2 * t.val + b'.val := rfl

/-! Every window's block index at point `t` is `(t, 0, 0)`: decided over the sixteen points. -/

theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx0_2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx0_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx0_4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx0_5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx0_6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx0_7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx0_8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx0_9 : ∀ t : Fin cfg0.N, win0_9.index t (0 : Fin 3) = t.val ∧ win0_9.index t (1 : Fin 3) = 0 ∧ win0_9.index t (2 : Fin 3) = 0 :=
  (by decide +kernel : ∀ t : Fin grid0.N, _)

/-! ## A block read off any contents of its array

Point `t`'s block of window `w`, read off contents `A` of the window's array, at block index `x`: `A` at row
`2t + x 0` and at `x`'s other two coordinates. -/

theorem blk0_read (A : S32x131072x3.Idx → Elt F .f32) (t : Fin cfg0.N) (x : S2x131072x3.Idx) :
    (((cfg0.win 0).blk t).view.read (Elt F) A : Vec F S2x131072x3 .f32) x = A (ix3 (row t (x 0)) (x 1) (x 2)) := by
  obtain ⟨e0, e1, e2⟩ := idx0_0 t
  rw [View.read_apply]
  show A _ = A _
  congr 1
  funext a
  apply Fin.ext
  match a with
  | ⟨0, _⟩ => show win0_0.index t (0 : Fin 3) * 2 + 1 * (x 0).val = 2 * t.val + (x 0).val; omega
  | ⟨1, _⟩ => show win0_0.index t (1 : Fin 3) * 131072 + 1 * (x 1).val = (x 1).val; omega
  | ⟨2, _⟩ => show win0_0.index t (2 : Fin 3) * 3 + 1 * (x 2).val = (x 2).val; omega

theorem blk1_read (A : S32x131072x1.Idx → Elt F .f32) (t : Fin cfg0.N) (x : S2x131072x1.Idx) :
    (((cfg0.win 1).blk t).view.read (Elt F) A : Vec F S2x131072x1 .f32) x = A (ix3 (row t (x 0)) (x 1) (x 2)) := by
  obtain ⟨e0, e1, e2⟩ := idx0_1 t
  rw [View.read_apply]
  show A _ = A _
  congr 1
  funext a
  apply Fin.ext
  match a with
  | ⟨0, _⟩ => show win0_1.index t (0 : Fin 3) * 2 + 1 * (x 0).val = 2 * t.val + (x 0).val; omega
  | ⟨1, _⟩ => show win0_1.index t (1 : Fin 3) * 131072 + 1 * (x 1).val = (x 1).val; omega
  | ⟨2, _⟩ => show win0_1.index t (2 : Fin 3) * 1 + 1 * (x 2).val = (x 2).val; omega

theorem blk2_read (A : S32x1x5.Idx → Elt F .f32) (t : Fin cfg0.N) (x : S2x1x5.Idx) :
    (((cfg0.win 2).blk t).view.read (Elt F) A : Vec F S2x1x5 .f32) x = A (ix3 (row t (x 0)) (x 1) (x 2)) := by
  obtain ⟨e0, e1, e2⟩ := idx0_2 t
  rw [View.read_apply]
  show A _ = A _
  congr 1
  funext a
  apply Fin.ext
  match a with
  | ⟨0, _⟩ => show win0_2.index t (0 : Fin 3) * 2 + 1 * (x 0).val = 2 * t.val + (x 0).val; omega
  | ⟨1, _⟩ => show win0_2.index t (1 : Fin 3) * 1 + 1 * (x 1).val = (x 1).val; omega
  | ⟨2, _⟩ => show win0_2.index t (2 : Fin 3) * 5 + 1 * (x 2).val = (x 2).val; omega

theorem blk3_read (A : S32x1x5.Idx → Elt F .f32) (t : Fin cfg0.N) (x : S2x1x5.Idx) :
    (((cfg0.win 3).blk t).view.read (Elt F) A : Vec F S2x1x5 .f32) x = A (ix3 (row t (x 0)) (x 1) (x 2)) := by
  obtain ⟨e0, e1, e2⟩ := idx0_3 t
  rw [View.read_apply]
  show A _ = A _
  congr 1
  funext a
  apply Fin.ext
  match a with
  | ⟨0, _⟩ => show win0_3.index t (0 : Fin 3) * 2 + 1 * (x 0).val = 2 * t.val + (x 0).val; omega
  | ⟨1, _⟩ => show win0_3.index t (1 : Fin 3) * 1 + 1 * (x 1).val = (x 1).val; omega
  | ⟨2, _⟩ => show win0_3.index t (2 : Fin 3) * 5 + 1 * (x 2).val = (x 2).val; omega

theorem blk4_read (A : S32x1x5.Idx → Elt F .f32) (t : Fin cfg0.N) (x : S2x1x5.Idx) :
    (((cfg0.win 4).blk t).view.read (Elt F) A : Vec F S2x1x5 .f32) x = A (ix3 (row t (x 0)) (x 1) (x 2)) := by
  obtain ⟨e0, e1, e2⟩ := idx0_4 t
  rw [View.read_apply]
  show A _ = A _
  congr 1
  funext a
  apply Fin.ext
  match a with
  | ⟨0, _⟩ => show win0_4.index t (0 : Fin 3) * 2 + 1 * (x 0).val = 2 * t.val + (x 0).val; omega
  | ⟨1, _⟩ => show win0_4.index t (1 : Fin 3) * 1 + 1 * (x 1).val = (x 1).val; omega
  | ⟨2, _⟩ => show win0_4.index t (2 : Fin 3) * 5 + 1 * (x 2).val = (x 2).val; omega

theorem blk5_read (A : S32x1x1.Idx → Elt F .f32) (t : Fin cfg0.N) (x : S2x1x1.Idx) :
    (((cfg0.win 5).blk t).view.read (Elt F) A : Vec F S2x1x1 .f32) x = A (ix3 (row t (x 0)) (x 1) (x 2)) := by
  obtain ⟨e0, e1, e2⟩ := idx0_5 t
  rw [View.read_apply]
  show A _ = A _
  congr 1
  funext a
  apply Fin.ext
  match a with
  | ⟨0, _⟩ => show win0_5.index t (0 : Fin 3) * 2 + 1 * (x 0).val = 2 * t.val + (x 0).val; omega
  | ⟨1, _⟩ => show win0_5.index t (1 : Fin 3) * 1 + 1 * (x 1).val = (x 1).val; omega
  | ⟨2, _⟩ => show win0_5.index t (2 : Fin 3) * 1 + 1 * (x 2).val = (x 2).val; omega

theorem blk6_read (A : S32x1x14.Idx → Elt F .f32) (t : Fin cfg0.N) (x : S2x1x14.Idx) :
    (((cfg0.win 6).blk t).view.read (Elt F) A : Vec F S2x1x14 .f32) x = A (ix3 (row t (x 0)) (x 1) (x 2)) := by
  obtain ⟨e0, e1, e2⟩ := idx0_6 t
  rw [View.read_apply]
  show A _ = A _
  congr 1
  funext a
  apply Fin.ext
  match a with
  | ⟨0, _⟩ => show win0_6.index t (0 : Fin 3) * 2 + 1 * (x 0).val = 2 * t.val + (x 0).val; omega
  | ⟨1, _⟩ => show win0_6.index t (1 : Fin 3) * 1 + 1 * (x 1).val = (x 1).val; omega
  | ⟨2, _⟩ => show win0_6.index t (2 : Fin 3) * 14 + 1 * (x 2).val = (x 2).val; omega

theorem blk7_read (A : S32x131072x3.Idx → Elt F .f32) (t : Fin cfg0.N) (x : S2x131072x3.Idx) :
    (((cfg0.win 7).blk t).view.read (Elt F) A : Vec F S2x131072x3 .f32) x = A (ix3 (row t (x 0)) (x 1) (x 2)) := by
  obtain ⟨e0, e1, e2⟩ := idx0_7 t
  rw [View.read_apply]
  show A _ = A _
  congr 1
  funext a
  apply Fin.ext
  match a with
  | ⟨0, _⟩ => show win0_7.index t (0 : Fin 3) * 2 + 1 * (x 0).val = 2 * t.val + (x 0).val; omega
  | ⟨1, _⟩ => show win0_7.index t (1 : Fin 3) * 131072 + 1 * (x 1).val = (x 1).val; omega
  | ⟨2, _⟩ => show win0_7.index t (2 : Fin 3) * 3 + 1 * (x 2).val = (x 2).val; omega

theorem blk8_read (A : S32x1x5.Idx → Elt F .f32) (t : Fin cfg0.N) (x : S2x1x5.Idx) :
    (((cfg0.win 8).blk t).view.read (Elt F) A : Vec F S2x1x5 .f32) x = A (ix3 (row t (x 0)) (x 1) (x 2)) := by
  obtain ⟨e0, e1, e2⟩ := idx0_8 t
  rw [View.read_apply]
  show A _ = A _
  congr 1
  funext a
  apply Fin.ext
  match a with
  | ⟨0, _⟩ => show win0_8.index t (0 : Fin 3) * 2 + 1 * (x 0).val = 2 * t.val + (x 0).val; omega
  | ⟨1, _⟩ => show win0_8.index t (1 : Fin 3) * 1 + 1 * (x 1).val = (x 1).val; omega
  | ⟨2, _⟩ => show win0_8.index t (2 : Fin 3) * 5 + 1 * (x 2).val = (x 2).val; omega

theorem blk9_read (A : S32x1x5.Idx → Elt F .f32) (t : Fin cfg0.N) (x : S2x1x5.Idx) :
    (((cfg0.win 9).blk t).view.read (Elt F) A : Vec F S2x1x5 .f32) x = A (ix3 (row t (x 0)) (x 1) (x 2)) := by
  obtain ⟨e0, e1, e2⟩ := idx0_9 t
  rw [View.read_apply]
  show A _ = A _
  congr 1
  funext a
  apply Fin.ext
  match a with
  | ⟨0, _⟩ => show win0_9.index t (0 : Fin 3) * 2 + 1 * (x 0).val = 2 * t.val + (x 0).val; omega
  | ⟨1, _⟩ => show win0_9.index t (1 : Fin 3) * 1 + 1 * (x 1).val = (x 1).val; omega
  | ⟨2, _⟩ => show win0_9.index t (2 : Fin 3) * 5 + 1 * (x 2).val = (x 2).val; omega

/-! ## The input blocks as entries of the arrays the region finds -/

theorem iblk0_apply (c : Dev nD) (t : Fin cfg0.N) (b' : Fin 2) (n : Fin 131072) (k : Fin 3) :
    (iblk m c 0 t : Vec F S2x131072x3 .f32) (ix3 b' n k) = (V m c main_arg1 : S32x131072x3.Idx → Elt F .f32) (ix3 (row t b') n k) :=
  blk0_read (V m c main_arg1) t (ix3 b' n k)

theorem iblk1_apply (c : Dev nD) (t : Fin cfg0.N) (b' : Fin 2) (n : Fin 131072) :
    (iblk m c 1 t : Vec F S2x131072x1 .f32) (ix3 b' n 0) = (V m c main_v71 : S32x131072x1.Idx → Elt F .f32) (ix3 (row t b') n 0) :=
  blk1_read (V m c main_v71) t (ix3 b' n 0)

theorem iblk2_apply (c : Dev nD) (t : Fin cfg0.N) (b' : Fin 2) (j : Fin 5) :
    (iblk m c 2 t : Vec F S2x1x5 .f32) (ix3 b' 0 j) = (V m c main_v72 : S32x1x5.Idx → Elt F .f32) (ix3 (row t b') 0 j) :=
  blk2_read (V m c main_v72) t (ix3 b' 0 j)

theorem iblk3_apply (c : Dev nD) (t : Fin cfg0.N) (b' : Fin 2) (j : Fin 5) :
    (iblk m c 3 t : Vec F S2x1x5 .f32) (ix3 b' 0 j) = (V m c main_v73 : S32x1x5.Idx → Elt F .f32) (ix3 (row t b') 0 j) :=
  blk3_read (V m c main_v73) t (ix3 b' 0 j)

theorem iblk4_apply (c : Dev nD) (t : Fin cfg0.N) (b' : Fin 2) (j : Fin 5) :
    (iblk m c 4 t : Vec F S2x1x5 .f32) (ix3 b' 0 j) = (V m c main_v74 : S32x1x5.Idx → Elt F .f32) (ix3 (row t b') 0 j) :=
  blk4_read (V m c main_v74) t (ix3 b' 0 j)

theorem iblk5_apply (c : Dev nD) (t : Fin cfg0.N) (b' : Fin 2) :
    (iblk m c 5 t : Vec F S2x1x1 .f32) (ix3 b' 0 0) = (V m c main_v75 : S32x1x1.Idx → Elt F .f32) (ix3 (row t b') 0 0) :=
  blk5_read (V m c main_v75) t (ix3 b' 0 0)

theorem iblk6_apply (c : Dev nD) (t : Fin cfg0.N) (b' : Fin 2) (s : Fin 14) :
    (iblk m c 6 t : Vec F S2x1x14 .f32) (ix3 b' 0 s) = (V m c main_v76 : S32x1x14.Idx → Elt F .f32) (ix3 (row t b') 0 s) :=
  blk6_read (V m c main_v76) t (ix3 b' 0 s)

/-- The momenta are no operation's result: their block reads the launch contents. -/
theorem iblk0_entry (c : Dev nD) (t : Fin cfg0.N) (b' : Fin 2) (n : Fin 131072) (k : Fin 3) :
    (iblk m c 0 t : Vec F S2x131072x3 .f32) (ix3 b' n k)
      = (m ((c : Thread nD τ).loc main_arg1) : S32x131072x3.Idx → Elt F .f32) (ix3 (row t b') n k) := by
  rw [iblk0_apply, V_arg1]

/-! ## The output arrays from their blocks -/

/-! ### Output window 7 -/

/-- An index of the array lies in point `t`'s block iff each coordinate lies in the block's range on its axis. -/
theorem mem_blk7 (t : Fin cfg0.N) (i : S32x131072x3.Idx) :
    i ∈ ((cfg0.win 7).blk t).view.set ↔ ∀ a : Fin 3, win0_7.index t a * S2x131072x3.size a ≤ (i a).val ∧ (i a).val < win0_7.index t a * S2x131072x3.size a + S2x131072x3.size a := by
  show i ∈ ((View.whole main_v77_0).slice (win0_7.rect t)).set ↔ _
  rw [View.set_slice_whole, Rect.mem_set_unit]
  exact Iff.rfl

/-- Row `r` of the array lies in the block of point `r / 2`, and every point writes its block back: the sixteen blocks
    cover the array. -/
theorem cover7 (i : S32x131072x3.Idx) : ∃ t : Fin cfg0.N, (cfg0.win 7).flush t = true ∧ i ∈ ((cfg0.win 7).blk t).view.set := by
  have hi0 : (i 0).val < 32 := (i 0).isLt
  have hi1 : (i 1).val < 131072 := (i 1).isLt
  have hi2 : (i 2).val < 3 := (i 2).isLt
  let t : Fin cfg0.N := ⟨(i 0).val / 2, by rw [N16]; omega⟩
  obtain ⟨e0, e1, e2⟩ := idx0_7 t
  have ht : t.val = (i 0).val / 2 := rfl
  refine ⟨t, flush0_7 t, ?_⟩
  rw [mem_blk7]
  intro a
  match a with
  | ⟨0, _⟩ => show win0_7.index t (0 : Fin 3) * 2 ≤ (i 0).val ∧ (i 0).val < win0_7.index t (0 : Fin 3) * 2 + 2; omega
  | ⟨1, _⟩ => show win0_7.index t (1 : Fin 3) * 131072 ≤ (i 1).val ∧ (i 1).val < win0_7.index t (1 : Fin 3) * 131072 + 131072; omega
  | ⟨2, _⟩ => show win0_7.index t (2 : Fin 3) * 3 ≤ (i 2).val ∧ (i 2).val < win0_7.index t (2 : Fin 3) * 3 + 3; omega

/-- If what every point writes back is `G` read through the point's block, the array ends holding `G`. -/
theorem final7 (c : Dev nD) (G : S32x131072x3.Idx → Elt F .f32)
    (hG : ∀ t, (dats m 0 c).flushed 7 t = ((cfg0.win 7).blk t).view.read (Elt F) G) :
    (dats m 0 c).arrAt 7 cfg0.N = G :=
  (dats m 0 c).arrAt_eq_of_cover 7 G (fun t _ => hG t) cover7

/-- What point `t` writes back is what the body left in the staging block: the window is not cut at the array's end. -/
theorem flushed7_eq (c : Dev nD) (t : Fin cfg0.N) :
    ((dats m 0 c).flushed 7 t : Vec F S2x131072x3 .f32) = (runAt m c t).1.1 := by
  show (cfg0.win 7).cut (grid0.coords t) ((dats m 0 c).after 7 t) = _
  rw [after0_7]
  rfl

/-- The same entry by entry: if at every point the body leaves, at row `b'` of its block, row `2t + b'` of `G`, the array
    ends holding `G`. -/
theorem final7_of_rows (c : Dev nD) (G : S32x131072x3.Idx → Elt F .f32)
    (h : ∀ (t : Fin cfg0.N) (x : S2x131072x3.Idx),
      ((runAt m c t).1.1 : Vec F S2x131072x3 .f32) x = G (ix3 (row t (x 0)) (x 1) (x 2))) :
    (dats m 0 c).arrAt 7 cfg0.N = G :=
  final7 m c G fun t => (flushed7_eq m c t).trans (funext fun (x : S2x131072x3.Idx) => by
    rw [blk7_read]; exact h t x)

/-! ### Output window 8 -/

/-- An index of the array lies in point `t`'s block iff each coordinate lies in the block's range on its axis. -/
theorem mem_blk8 (t : Fin cfg0.N) (i : S32x1x5.Idx) :
    i ∈ ((cfg0.win 8).blk t).view.set ↔ ∀ a : Fin 3, win0_8.index t a * S2x1x5.size a ≤ (i a).val ∧ (i a).val < win0_8.index t a * S2x1x5.size a + S2x1x5.size a := by
  show i ∈ ((View.whole main_v77_1).slice (win0_8.rect t)).set ↔ _
  rw [View.set_slice_whole, Rect.mem_set_unit]
  exact Iff.rfl

/-- Row `r` of the array lies in the block of point `r / 2`, and every point writes its block back: the sixteen blocks
    cover the array. -/
theorem cover8 (i : S32x1x5.Idx) : ∃ t : Fin cfg0.N, (cfg0.win 8).flush t = true ∧ i ∈ ((cfg0.win 8).blk t).view.set := by
  have hi0 : (i 0).val < 32 := (i 0).isLt
  have hi1 : (i 1).val < 1 := (i 1).isLt
  have hi2 : (i 2).val < 5 := (i 2).isLt
  let t : Fin cfg0.N := ⟨(i 0).val / 2, by rw [N16]; omega⟩
  obtain ⟨e0, e1, e2⟩ := idx0_8 t
  have ht : t.val = (i 0).val / 2 := rfl
  refine ⟨t, flush0_8 t, ?_⟩
  rw [mem_blk8]
  intro a
  match a with
  | ⟨0, _⟩ => show win0_8.index t (0 : Fin 3) * 2 ≤ (i 0).val ∧ (i 0).val < win0_8.index t (0 : Fin 3) * 2 + 2; omega
  | ⟨1, _⟩ => show win0_8.index t (1 : Fin 3) * 1 ≤ (i 1).val ∧ (i 1).val < win0_8.index t (1 : Fin 3) * 1 + 1; omega
  | ⟨2, _⟩ => show win0_8.index t (2 : Fin 3) * 5 ≤ (i 2).val ∧ (i 2).val < win0_8.index t (2 : Fin 3) * 5 + 5; omega

/-- If what every point writes back is `G` read through the point's block, the array ends holding `G`. -/
theorem final8 (c : Dev nD) (G : S32x1x5.Idx → Elt F .f32)
    (hG : ∀ t, (dats m 0 c).flushed 8 t = ((cfg0.win 8).blk t).view.read (Elt F) G) :
    (dats m 0 c).arrAt 8 cfg0.N = G :=
  (dats m 0 c).arrAt_eq_of_cover 8 G (fun t _ => hG t) cover8

/-- What point `t` writes back is what the body left in the staging block: the window is not cut at the array's end. -/
theorem flushed8_eq (c : Dev nD) (t : Fin cfg0.N) :
    ((dats m 0 c).flushed 8 t : Vec F S2x1x5 .f32) = (runAt m c t).1.2.1 := by
  show (cfg0.win 8).cut (grid0.coords t) ((dats m 0 c).after 8 t) = _
  rw [after0_8]
  rfl

/-- The same entry by entry: if at every point the body leaves, at row `b'` of its block, row `2t + b'` of `G`, the array
    ends holding `G`. -/
theorem final8_of_rows (c : Dev nD) (G : S32x1x5.Idx → Elt F .f32)
    (h : ∀ (t : Fin cfg0.N) (x : S2x1x5.Idx),
      ((runAt m c t).1.2.1 : Vec F S2x1x5 .f32) x = G (ix3 (row t (x 0)) (x 1) (x 2))) :
    (dats m 0 c).arrAt 8 cfg0.N = G :=
  final8 m c G fun t => (flushed8_eq m c t).trans (funext fun (x : S2x1x5.Idx) => by
    rw [blk8_read]; exact h t x)

/-! ### Output window 9 -/

/-- An index of the array lies in point `t`'s block iff each coordinate lies in the block's range on its axis. -/
theorem mem_blk9 (t : Fin cfg0.N) (i : S32x1x5.Idx) :
    i ∈ ((cfg0.win 9).blk t).view.set ↔ ∀ a : Fin 3, win0_9.index t a * S2x1x5.size a ≤ (i a).val ∧ (i a).val < win0_9.index t a * S2x1x5.size a + S2x1x5.size a := by
  show i ∈ ((View.whole main_v77_2).slice (win0_9.rect t)).set ↔ _
  rw [View.set_slice_whole, Rect.mem_set_unit]
  exact Iff.rfl

/-- Row `r` of the array lies in the block of point `r / 2`, and every point writes its block back: the sixteen blocks
    cover the array. -/
theorem cover9 (i : S32x1x5.Idx) : ∃ t : Fin cfg0.N, (cfg0.win 9).flush t = true ∧ i ∈ ((cfg0.win 9).blk t).view.set := by
  have hi0 : (i 0).val < 32 := (i 0).isLt
  have hi1 : (i 1).val < 1 := (i 1).isLt
  have hi2 : (i 2).val < 5 := (i 2).isLt
  let t : Fin cfg0.N := ⟨(i 0).val / 2, by rw [N16]; omega⟩
  obtain ⟨e0, e1, e2⟩ := idx0_9 t
  have ht : t.val = (i 0).val / 2 := rfl
  refine ⟨t, flush0_9 t, ?_⟩
  rw [mem_blk9]
  intro a
  match a with
  | ⟨0, _⟩ => show win0_9.index t (0 : Fin 3) * 2 ≤ (i 0).val ∧ (i 0).val < win0_9.index t (0 : Fin 3) * 2 + 2; omega
  | ⟨1, _⟩ => show win0_9.index t (1 : Fin 3) * 1 ≤ (i 1).val ∧ (i 1).val < win0_9.index t (1 : Fin 3) * 1 + 1; omega
  | ⟨2, _⟩ => show win0_9.index t (2 : Fin 3) * 5 ≤ (i 2).val ∧ (i 2).val < win0_9.index t (2 : Fin 3) * 5 + 5; omega

/-- If what every point writes back is `G` read through the point's block, the array ends holding `G`. -/
theorem final9 (c : Dev nD) (G : S32x1x5.Idx → Elt F .f32)
    (hG : ∀ t, (dats m 0 c).flushed 9 t = ((cfg0.win 9).blk t).view.read (Elt F) G) :
    (dats m 0 c).arrAt 9 cfg0.N = G :=
  (dats m 0 c).arrAt_eq_of_cover 9 G (fun t _ => hG t) cover9

/-- What point `t` writes back is what the body left in the staging block: the window is not cut at the array's end. -/
theorem flushed9_eq (c : Dev nD) (t : Fin cfg0.N) :
    ((dats m 0 c).flushed 9 t : Vec F S2x1x5 .f32) = (runAt m c t).1.2.2 := by
  show (cfg0.win 9).cut (grid0.coords t) ((dats m 0 c).after 9 t) = _
  rw [after0_9]
  rfl

/-- The same entry by entry: if at every point the body leaves, at row `b'` of its block, row `2t + b'` of `G`, the array
    ends holding `G`. -/
theorem final9_of_rows (c : Dev nD) (G : S32x1x5.Idx → Elt F .f32)
    (h : ∀ (t : Fin cfg0.N) (x : S2x1x5.Idx),
      ((runAt m c t).1.2.2 : Vec F S2x1x5 .f32) x = G (ix3 (row t (x 0)) (x 1) (x 2))) :
    (dats m 0 c).arrAt 9 cfg0.N = G :=
  final9 m c G fun t => (flushed9_eq m c t).trans (funext fun (x : S2x1x5.Idx) => by
    rw [blk9_read]; exact h t x)

/-- Window 7's whole-array lemma with the block index split into its three coordinates. -/
theorem final7_of_entries (c : Dev nD) (G : S32x131072x3.Idx → Elt F .f32)
    (h : ∀ (t : Fin cfg0.N) (b' : Fin 2) (n : Fin 131072) (k : Fin 3),
      ((runAt m c t).1.1 : Vec F S2x131072x3 .f32) (ix3 b' n k) = G (ix3 (row t b') n k)) :
    (dats m 0 c).arrAt 7 cfg0.N = G :=
  final7_of_rows m c G fun t x =>
    (congrArg (fun y => ((runAt m c t).1.1 : Vec F S2x131072x3 .f32) y) (eq_ix3 x)).trans (h t (x 0) (x 1) (x 2))

/-- An index of a [2,1,5] block is its first and last coordinates around the one middle coordinate 0. -/
theorem eq_ix3_mid (x : S2x1x5.Idx) : x = ix3 (x 0) 0 (x 2) := by
  funext a
  match a with
  | ⟨0, _⟩ => rfl
  | ⟨1, _⟩ => exact Fin.ext (by have : (x 1).val < 1 := (x 1).isLt; show (x 1).val = 0; omega)
  | ⟨2, _⟩ => rfl

/-- The same index built on an array row: the middle coordinate is 0 either way. -/
theorem ix3_mid_row (r : Fin 32) (x : S2x1x5.Idx) : (ix3 r 0 (x 2) : S32x1x5.Idx) = ix3 r (x 1) (x 2) := by
  funext a
  match a with
  | ⟨0, _⟩ => rfl
  | ⟨1, _⟩ => exact Fin.ext (by have : (x 1).val < 1 := (x 1).isLt; show 0 = (x 1).val; omega)
  | ⟨2, _⟩ => rfl

/-- Window 8's whole-array lemma with the block index split into its coordinates. -/
theorem final8_of_entries (c : Dev nD) (G : S32x1x5.Idx → Elt F .f32)
    (h : ∀ (t : Fin cfg0.N) (b' : Fin 2) (j : Fin 5),
      ((runAt m c t).1.2.1 : Vec F S2x1x5 .f32) (ix3 b' 0 j) = G (ix3 (row t b') 0 j)) :
    (dats m 0 c).arrAt 8 cfg0.N = G :=
  final8_of_rows m c G fun t x =>
    (congrArg (fun y => ((runAt m c t).1.2.1 : Vec F S2x1x5 .f32) y) (eq_ix3_mid x)).trans
      ((h t (x 0) (x 2)).trans (congrArg G (ix3_mid_row (row t (x 0)) x)))

/-- Window 9's whole-array lemma with the block index split into its coordinates. -/
theorem final9_of_entries (c : Dev nD) (G : S32x1x5.Idx → Elt F .f32)
    (h : ∀ (t : Fin cfg0.N) (b' : Fin 2) (j : Fin 5),
      ((runAt m c t).1.2.2 : Vec F S2x1x5 .f32) (ix3 b' 0 j) = G (ix3 (row t b') 0 j)) :
    (dats m 0 c).arrAt 9 cfg0.N = G :=
  final9_of_rows m c G fun t x =>
    (congrArg (fun y => ((runAt m c t).1.2.2 : Vec F S2x1x5 .f32) y) (eq_ix3_mid x)).trans
      ((h t (x 0) (x 2)).trans (congrArg G (ix3_mid_row (row t (x 0)) x)))

end Generic

/-! ## The input blocks' entries over the extended reals -/

section AtIdeal

variable (m : (ℓ : Loc nD τ sig) → Buf (Elt Ideal) ℓ)

/-- The masses' block: row `b'` of point `t`'s block is row `2t + b'` of the mass array. -/
theorem iblk1_entry (c : Dev nD) (t : Fin cfg0.N) (b' : Fin 2) (n : Fin 131072) :
    (iblk m c 1 t : Vec Ideal S2x131072x1 .f32) (ix3 b' n 0) = m ((c : Thread nD τ).loc main_arg2) (ix2 (row t b') n) := by
  rw [iblk1_apply]; exact V_v71_apply m c (row t b') n

/-- The three [32,5] tables' blocks. -/
theorem iblk2_entry (c : Dev nD) (t : Fin cfg0.N) (b' : Fin 2) (j : Fin 5) :
    (iblk m c 2 t : Vec Ideal S2x1x5 .f32) (ix3 b' 0 j) = m ((c : Thread nD τ).loc main_arg6) (ix2 (row t b') j) := by
  rw [iblk2_apply]; exact V_v72_apply m c (row t b') j

theorem iblk3_entry (c : Dev nD) (t : Fin cfg0.N) (b' : Fin 2) (j : Fin 5) :
    (iblk m c 3 t : Vec Ideal S2x1x5 .f32) (ix3 b' 0 j) = m ((c : Thread nD τ).loc main_arg5) (ix2 (row t b') j) := by
  rw [iblk3_apply]; exact V_v73_apply m c (row t b') j

theorem iblk4_entry (c : Dev nD) (t : Fin cfg0.N) (b' : Fin 2) (j : Fin 5) :
    (iblk m c 4 t : Vec Ideal S2x1x5 .f32) (ix3 b' 0 j) = m ((c : Thread nD τ).loc main_arg7) (ix2 (row t b') j) := by
  rw [iblk4_apply]; exact V_v74_apply m c (row t b') j

/-- The temperatures' block. -/
theorem iblk5_entry (c : Dev nD) (t : Fin cfg0.N) (b' : Fin 2) :
    (iblk m c 5 t : Vec Ideal S2x1x1 .f32) (ix3 b' 0 0) = m ((c : Thread nD τ).loc main_arg3) (ix1 (row t b')) := by
  rw [iblk5_apply]; exact V_v75_apply m c (row t b')

/-- The coefficient table's block: for real time steps δ and a real step scale σ, row `b'`, column `s` of point `t`'s
    block is the real number δ (2t + b') · (σ · ω s / 2). -/
theorem iblk6_entry (c : Dev nD) (t : Fin cfg0.N) (b' : Fin 2) (s : Fin 14) (δ : Fin 32 → ℝ) (σ : ℝ)
    (hδ : ∀ b : Fin 32, m ((c : Thread nD τ).loc main_arg4) (ix1 b) = ((δ b : ℝ) : EReal))
    (hσ : m ((c : Thread nD τ).loc main_arg8) ix0 = ((σ : ℝ) : EReal)) :
    (iblk m c 6 t : Vec Ideal S2x1x14 .f32) (ix3 b' 0 s) = ((δ (row t b') * (σ * ω s / 2) : ℝ) : EReal) := by
  rw [iblk6_apply]; exact V_v76_apply m c (row t b') s (δ (row t b')) σ (hδ _) hσ

end AtIdeal

end Cert.KernelIdeal.Frame

end
-- ==== Proof.KTail.lean ====
/-
  The results of the program, read off its run.

  After the kernel's region the program recasts two of the three arrays the region writes from [32,1,5] to [32,5]; the
  third, [32,131072,3], is a result as the region leaves it. A recast keeps the row-major order of the entries: entry
  (b, j) of a [32,5] array sits at position 5·b + j, where entry (b, 0, j) of a [32,1,5] array sits, so each recast
  result at (b, j) is the region's final array at (b, 0, j). Each recast writes its own result only: the second finds
  the array it reads as the region left it, and the first recast's result is not written again. The nine arguments
  end as launched, as in the frame.
-/
import proofs.«138430_j46600395162250_2_alg».proof.Proof.KFrame
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Frame

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ) (ρ : Dev nD → PrngReg)

/-! ## A recast from [32,1,5] to [32,5], read at an index -/

/-- A [32,1,5] array recast to [32,5] keeps entry (b, 0, j) at (b, j): both sit at row-major position 5·b + j. -/
theorem uncast_S32x1x5_apply {α : Type} (x : S32x1x5.Idx → α) (b : Fin 32) (j : Fin 5) :
    shapeCast S32x5 x shapeCasts_S32x1x5_S32x5 (ix2 b j) = x (ix3 b 0 j) := by
  refine shapeCast_apply x _ (ix2 b j) (ix3 b 0 j) ?_
  rw [Shape.rowMajor_val_two, Shape.rowMajor_val_three]
  show (b.val * 1 + 0) * 5 + j.val = b.val * 5 + j.val
  omega

/-! ## The two recast results after the region -/

/-- The first recast's result once both recasts have run: the second array the region writes, as the region leaves it,
    recast. The second recast writes another buffer. Stated for any proof data of the pipeline. -/
theorem W_main_v78 (dats : (p : Fin _) → (c : Dev nD) → Dat τ (Elt F) Unit ℕ (UR sig nD τ) ℕ (cfgs p) c) (c : Dev nD) :
    Pipeline.afterTail₀ cfgs dats 0 (V0 m) [hostOps1] c main_v78
      = shapeCast S32x5 ((dats 0 c).arrAt 8 cfg0.N) shapeCasts_S32x1x5_S32x5 := by
  unfold Pipeline.afterTail₀
  show StableHlo.after hostOps1 _ (Proc.devRef .tc main_v78) = _
  after_results
  exact congrArg (fun x => shapeCast S32x5 x shapeCasts_S32x1x5_S32x5)
    (Pipeline.withArrays_arr spec0 launch0.win.arr_inj c (V0 m c) (fun w => (dats 0 c).arrAt w cfg0.N) 8)

/-- The second recast's result: the third array the region writes, as the region leaves it (the first recast writes
    another buffer), recast. -/
theorem W_main_v79 (dats : (p : Fin _) → (c : Dev nD) → Dat τ (Elt F) Unit ℕ (UR sig nD τ) ℕ (cfgs p) c) (c : Dev nD) :
    Pipeline.afterTail₀ cfgs dats 0 (V0 m) [hostOps1] c main_v79
      = shapeCast S32x5 ((dats 0 c).arrAt 9 cfg0.N) shapeCasts_S32x1x5_S32x5 := by
  unfold Pipeline.afterTail₀
  show StableHlo.after hostOps1 _ (Proc.devRef .tc main_v79) = _
  after_results
  exact congrArg (fun x => shapeCast S32x5 x shapeCasts_S32x1x5_S32x5)
    (Pipeline.withArrays_arr spec0 launch0.win.arr_inj c (V0 m c) (fun w => (dats 0 c).arrAt w cfg0.N) 9)

/-- The first recast result at (b, j) is the region's final second written array at (b, 0, j). -/
theorem W_main_v78_apply (dats : (p : Fin _) → (c : Dev nD) → Dat τ (Elt F) Unit ℕ (UR sig nD τ) ℕ (cfgs p) c) (c : Dev nD)
    (b : Fin 32) (j : Fin 5) :
    Pipeline.afterTail₀ cfgs dats 0 (V0 m) [hostOps1] c main_v78 (ix2 b j) = (dats 0 c).arrAt 8 cfg0.N (ix3 b 0 j) :=
  (congrFun (W_main_v78 m dats c) (ix2 b j)).trans (uncast_S32x1x5_apply _ b j)

/-- The second recast result at (b, j) is the region's final third written array at (b, 0, j). -/
theorem W_main_v79_apply (dats : (p : Fin _) → (c : Dev nD) → Dat τ (Elt F) Unit ℕ (UR sig nD τ) ℕ (cfgs p) c) (c : Dev nD)
    (b : Fin 32) (j : Fin 5) :
    Pipeline.afterTail₀ cfgs dats 0 (V0 m) [hostOps1] c main_v79 (ix2 b j) = (dats 0 c).arrAt 9 cfg0.N (ix3 b 0 j) :=
  (congrFun (W_main_v79 m dats c) (ix2 b j)).trans (uncast_S32x1x5_apply _ b j)

/-! ## The run's post read at the results and the arguments -/

/-- For any proof data whose arrays are the region-entry contents, the frame run's post read at the program's three
    results and nine arguments: the first result is the first written window's array, which the run leaves at what the
    library computes from the proof data; the other two results are buffers of no window, which the recasts after the
    region leave at the recast final arrays; the arguments as in the frame. -/
theorem run_arrays_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v77_0) = (dats 0 c).arrAt 7 cfg0.N
      ∧ (∀ (b : Fin 32) (j : Fin 5), r.2.mem ((c.tc : Thread nD τ).loc main_v78) (ix2 b j) = (dats 0 c).arrAt 8 cfg0.N (ix3 b 0 j))
      ∧ (∀ (b : Fin 32) (j : Fin 5), r.2.mem ((c.tc : Thread nD τ).loc main_v79) (ix2 b j) = (dats 0 c).arrAt 9 cfg0.N (ix3 b 0 j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1 7,
      fun b j => (congrFun ((h c).2 main_v78 (Pipeline.mem_restRefs_of main_v78 (by decide) (by decide))) (ix2 b j)).trans
        (W_main_v78_apply m dats c b j),
      fun b j => (congrFun ((h c).2 main_v79 (Pipeline.mem_restRefs_of main_v79 (by decide) (by decide))) (ix2 b j)).trans
        (W_main_v79_apply m dats c b j),
      ((h c).2 main_arg0 (Pipeline.mem_restRefs_of main_arg0 (by decide) (by decide))).trans (W_main_arg0 m dats c),
      ((h c).1 0).trans (((dats 0 c).arrAt_in 0 rfl _).trans ((hA c 0).trans (V_main_arg1 m c))),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c)⟩) h

/-- THE RUN, at any float type: the program runs to its end; its first result is the first written window's final
    array, its second and third results at (b, j) are the second and third written windows' final arrays at (b, 0, j),
    and the nine argument arrays end as launched. -/
theorem run_arrays : θ_run defs (onTc (τ := τ) (main (F := F))) ⟨m, fun _ => 0, ρ⟩ (fun r => ∀ c : Dev nD,
      r.2.mem ((c.tc : Thread nD τ).loc main_v77_0) = (dats m 0 c).arrAt 7 cfg0.N
      ∧ (∀ (b : Fin 32) (j : Fin 5), r.2.mem ((c.tc : Thread nD τ).loc main_v78) (ix2 b j) = (dats m 0 c).arrAt 8 cfg0.N (ix3 b 0 j))
      ∧ (∀ (b : Fin 32) (j : Fin 5), r.2.mem ((c.tc : Thread nD τ).loc main_v79) (ix2 b j) = (dats m 0 c).arrAt 9 cfg0.N (ix3 b 0 j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_arrays_of m ρ (dats m) (A_eq m) (run_main m ρ)

end Cert.KernelIdeal.Frame

end
-- ==== Proof.Weights.lean ====
/-
  The fourteen substep weights (twice the seven Suzuki-Yoshida weights), as the f32 words both programs carry, and the
  real numbers they denote.
-/
import Idealize.ShloMosaic.PureOps.Ideal

noncomputable section

namespace Cert.NHC

open Idealize.ShloMosaic

/-- The weight of substep k, as an f32 word. -/
def wAt : ℕ → BitVec 32
  | 0 => 0x3F48D5E2#32
  | 1 => 0x3E713A1B#32
  | 2 => 0xBF96BE38#32
  | 3 => 0x3FA85806#32
  | 4 => 0xBF96BE38#32
  | 5 => 0x3E713A1B#32
  | 6 => 0x3F48D5E2#32
  | 7 => 0x3F48D5E2#32
  | 8 => 0x3E713A1B#32
  | 9 => 0xBF96BE38#32
  | 10 => 0x3FA85806#32
  | 11 => 0xBF96BE38#32
  | 12 => 0x3E713A1B#32
  | 13 => 0x3F48D5E2#32
  | _ => 0#32

/-- The real number the weight of substep k denotes. -/
def ωAt (k : ℕ) : ℝ := (Ideal.ofBits .f32 (wAt k)).toReal

/-- Each of the fourteen weights is a finite pattern (its exponent field is not all ones), so it denotes a real number. -/
theorem ofBits_wAt (k : ℕ) (hk : k < 14) : Ideal.ofBits .f32 (wAt k) = ((ωAt k : ℝ) : EReal) := by
  have fin : ∃ r : ℝ, Ideal.ofBits .f32 (wAt k) = (r : EReal) := by
    interval_cases k <;> exact ⟨_, by simp [wAt, Ideal.ofBits, Ideal.ieee, -EReal.coe_mul]; rfl⟩
  obtain ⟨r, hr⟩ := fin
  rw [ωAt, hr, EReal.toReal_coe]

end Cert.NHC

end
-- ==== Proof.KValue.lean ====
/-
  The kernel's three results as real numbers.

  At a grid point the body reads seven blocks of two batch rows each and leaves three.  When the launch contents are real
  numbers (nonzero masses, nonzero chain masses), every entry the body reads at a row is a real number: the momenta and
  masses of the row's particles, its temperature, its chain, and its fourteen step sizes δ · (σ · w_s / 2).  The body's
  state before the first substep is then the real chain's start (the kinetic sum of the row, the factor one, the chain), each
  of the fourteen substeps of the body is the real substep, and so after the last one the body's state at the row is the real
  chain after fourteen substeps.  What the body leaves is that state laid out: the row's momenta times the accumulated factor,
  the five chain positions side by side, the five chain momenta side by side.  Point t's blocks are rows 2t and 2t + 1 of the
  arrays, the sixteen points cover the thirty-two rows, and so each of the three output arrays ends holding, row by row, the
  real chain of that row.
-/
import proofs.«138430_j46600395162250_2_alg».proof.Proof.KFrame
import proofs.«138430_j46600395162250_2_alg».proof.Proof.KHost
import proofs.«138430_j46600395162250_2_alg».proof.Proof.KStepReal
import proofs.«138430_j46600395162250_2_alg».proof.Proof.KWit
import proofs.«138430_j46600395162250_2_alg».proof.Proof.KWitRows
import proofs.«138430_j46600395162250_2_alg».proof.Proof.KBlocks
import proofs.«138430_j46600395162250_2_alg».proof.Proof.KTail
import proofs.«138430_j46600395162250_2_alg».proof.Proof.Weights
import Idealize.ShloMosaic.Lib.ValueIdx
import Idealize.ShloMosaic.Lib.Pipeline.Value

set_option maxRecDepth 65536

noncomputable section

namespace Cert.KernelIdeal.Frame

open Cert.KernelIdeal Cert.KernelIdeal.Gen Cert.KernelIdeal.Chain

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The real recurrence of one batch row -/

/-- The chain of batch row b over the reals after n substeps, from one core's real data: started from the kinetic sum of the
    row's particle momenta momR b with masses μ b, the factor one, the chain positions pR b and the chain momenta qR b; run
    with chain masses α b at temperature κ b, substep s with step size δ b · (σ · w_s / 2) for the weight w_s. -/
def rowOf (momR : Fin 32 → Fin 131072 × Fin 3 → ℝ) (μ : Fin 32 → Fin 131072 → ℝ) (κ δ : Fin 32 → ℝ)
    (pR qR α : Fin 32 → Fin 5 → ℝ) (σ : ℝ) (b : Fin 32) (n : ℕ) : Cert.NHC.StK :=
  Cert.NHC.iterK (α b) (κ b) (fun s => δ b * (σ * Cert.NHC.ωAt s / 2))
    ⟨Cert.NHC.kinOf (fun i : Fin 131072 × Fin 3 => μ b i.1) (momR b), 1, pR b, qR b⟩ n

/-- Before any substep it is the start. -/
theorem rowOf_zero (momR : Fin 32 → Fin 131072 × Fin 3 → ℝ) (μ : Fin 32 → Fin 131072 → ℝ) (κ δ : Fin 32 → ℝ)
    (pR qR α : Fin 32 → Fin 5 → ℝ) (σ : ℝ) (b : Fin 32) :
    rowOf momR μ κ δ pR qR α σ b 0 = ⟨Cert.NHC.kinOf (fun i : Fin 131072 × Fin 3 => μ b i.1) (momR b), 1, pR b, qR b⟩ := rfl

/-- One more substep is the real substep with that substep's step size. -/
theorem rowOf_succ (momR : Fin 32 → Fin 131072 × Fin 3 → ℝ) (μ : Fin 32 → Fin 131072 → ℝ) (κ δ : Fin 32 → ℝ)
    (pR qR α : Fin 32 → Fin 5 → ℝ) (σ : ℝ) (b : Fin 32) (n : ℕ) :
    rowOf momR μ κ δ pR qR α σ b (n + 1)
      = Cert.NHC.stepK (α b) (κ b) (δ b * (σ * Cert.NHC.ωAt n / 2)) (rowOf momR μ κ δ pR qR α σ b n) := rfl

/-- The chain of batch row b of core c after all fourteen substeps, from the cores' real data. -/
def KK (momR : Dev nD → Fin 32 → Fin 131072 × Fin 3 → ℝ) (μ : Dev nD → Fin 32 → Fin 131072 → ℝ) (κ δ : Dev nD → Fin 32 → ℝ)
    (pR qR α : Dev nD → Fin 32 → Fin 5 → ℝ) (σ : Dev nD → ℝ) (c : Dev nD) (b : Fin 32) : Cert.NHC.StK :=
  Cert.NHC.iterK (α c b) (κ c b) (fun s => δ c b * (σ c * Cert.NHC.ωAt s / 2))
    ⟨Cert.NHC.kinOf (fun i : Fin 131072 × Fin 3 => μ c b i.1) (momR c b), 1, pR c b, qR c b⟩ 14

/-- It is the row's chain from core c's data. -/
theorem KK_eq (momR : Dev nD → Fin 32 → Fin 131072 × Fin 3 → ℝ) (μ : Dev nD → Fin 32 → Fin 131072 → ℝ) (κ δ : Dev nD → Fin 32 → ℝ)
    (pR qR α : Dev nD → Fin 32 → Fin 5 → ℝ) (σ : Dev nD → ℝ) (c : Dev nD) (b : Fin 32) :
    KK momR μ κ δ pR qR α σ c b = rowOf (momR c) (μ c) (κ c) (δ c) (pR c) (qR c) (α c) (σ c) b 14 := rfl

/-- The coefficient table's word of column s is the weight of substep s. -/
theorem wWord_eq (s : Fin 14) : wWord s = Cert.NHC.wAt s.val := by
  fin_cases s <;> rfl

/-- So the real number it denotes is that weight's. -/
theorem ω_eq (s : Fin 14) : ω s = Cert.NHC.ωAt s.val := by
  unfold ω Cert.NHC.ωAt; rw [wWord_eq]

/-! ## What the body's run leaves, over the state after the fourteen substeps -/

section Witnesses
variable {F : FTy → Type} [FloatOps F]
variable (m : (ℓ : Loc nD τ sig) → Buf (Elt F) ℓ)

/-- The state after the fourteen substeps at point t, from the point's seven input blocks. -/
abbrev kfin (c : Dev nD) (t : Fin cfg0.N) : KSt F :=
  kfinalV (iblk m c 0 t) (iblk m c 1 t) (iblk m c 2 t) (iblk m c 3 t) (iblk m c 4 t) (iblk m c 5 t) (iblk m c 6 t)

/-- The particle block the run leaves at point t. -/
theorem runAt_out7 (c : Dev nD) (t : Fin cfg0.N) :
    ((runAt m c t).1.1 : Vec F S2x131072x3 .f32) = momOutV (iblk m c 0 t) (kfin m c t).tot :=
  wit8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t)
/-- The positions' block it leaves. -/
theorem runAt_out8 (c : Dev nD) (t : Fin cfg0.N) :
    ((runAt m c t).1.2.1 : Vec F S2x1x5 .f32) = cat5V (kfin m c t).p0 (kfin m c t).p1 (kfin m c t).p2 (kfin m c t).p3 (kfin m c t).p4 :=
  wit9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t)
/-- The momenta's block it leaves. -/
theorem runAt_out9 (c : Dev nD) (t : Fin cfg0.N) :
    ((runAt m c t).1.2.2 : Vec F S2x1x5 .f32) = cat5V (kfin m c t).q0 (kfin m c t).q1 (kfin m c t).q2 (kfin m c t).q3 (kfin m c t).q4 :=
  wit10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t)

end Witnesses

/-! ## Over the extended reals -/

section AtIdeal

variable (m : (ℓ : Loc nD τ sig) → Buf (Elt Ideal) ℓ)

/-- The launch contents of core c that the kernel reads are real numbers: the particle momenta momR, the particle masses μ
    (none zero), the temperatures κ, the time steps δ, the chain positions pR, momenta qR and masses α (none zero), one row
    per batch entry, and the step scale σ. -/
structure RealLaunch (c : Dev nD) (momR : Fin 32 → Fin 131072 × Fin 3 → ℝ) (μ : Fin 32 → Fin 131072 → ℝ) (κ δ : Fin 32 → ℝ)
    (pR qR α : Fin 32 → Fin 5 → ℝ) (σ : ℝ) : Prop where
  mom : ∀ b n k, m ((c : Thread nD τ).loc main_arg1) (ix3 b n k) = ((momR b (n, k) : ℝ) : EReal)
  mas : ∀ b n, m ((c : Thread nD τ).loc main_arg2) (ix2 b n) = ((μ b n : ℝ) : EReal)
  mas_ne : ∀ b n, μ b n ≠ 0
  kbt : ∀ b, m ((c : Thread nD τ).loc main_arg3) (ix1 b) = ((κ b : ℝ) : EReal)
  dt : ∀ b, m ((c : Thread nD τ).loc main_arg4) (ix1 b) = ((δ b : ℝ) : EReal)
  pos : ∀ b j, m ((c : Thread nD τ).loc main_arg5) (ix2 b j) = ((pR b j : ℝ) : EReal)
  chm : ∀ b j, m ((c : Thread nD τ).loc main_arg6) (ix2 b j) = ((qR b j : ℝ) : EReal)
  cms : ∀ b j, m ((c : Thread nD τ).loc main_arg7) (ix2 b j) = ((α b j : ℝ) : EReal)
  cms_ne : ∀ b j, α b j ≠ 0
  scale : m ((c : Thread nD τ).loc main_arg8) ix0 = ((σ : ℝ) : EReal)

section Rows
variable {m}
variable {c : Dev nD} {momR : Fin 32 → Fin 131072 × Fin 3 → ℝ} {μ : Fin 32 → Fin 131072 → ℝ} {κ δ : Fin 32 → ℝ}
  {pR qR α : Fin 32 → Fin 5 → ℝ} {σ : ℝ} (H : RealLaunch m c momR μ κ δ pR qR α σ)
include H

/-! ### The seven input blocks of a point, entry by entry -/

theorem x0_real (t : Fin cfg0.N) (b' : Fin 2) (n : Fin 131072) (k : Fin 3) :
    (iblk m c 0 t : Vec Ideal S2x131072x3 .f32) (ix3 b' n k) = ((momR (row t b') (n, k) : ℝ) : EReal) :=
  (iblk0_entry m c t b' n k).trans (H.mom (row t b') n k)

theorem x1_real (t : Fin cfg0.N) (b' : Fin 2) (n : Fin 131072) :
    (iblk m c 1 t : Vec Ideal S2x131072x1 .f32) (ix3 b' n (0 : Fin 1)) = ((μ (row t b') n : ℝ) : EReal) :=
  (iblk1_entry m c t b' n).trans (H.mas (row t b') n)

theorem x2_real (t : Fin cfg0.N) (b' : Fin 2) (j : Fin 5) :
    (iblk m c 2 t : Vec Ideal S2x1x5 .f32) (ix3 b' (0 : Fin 1) j) = ((qR (row t b') j : ℝ) : EReal) :=
  (iblk2_entry m c t b' j).trans (H.chm (row t b') j)

theorem x3_real (t : Fin cfg0.N) (b' : Fin 2) (j : Fin 5) :
    (iblk m c 3 t : Vec Ideal S2x1x5 .f32) (ix3 b' (0 : Fin 1) j) = ((pR (row t b') j : ℝ) : EReal) :=
  (iblk3_entry m c t b' j).trans (H.pos (row t b') j)

theorem x4_real (t : Fin cfg0.N) (b' : Fin 2) (j : Fin 5) :
    (iblk m c 4 t : Vec Ideal S2x1x5 .f32) (ix3 b' (0 : Fin 1) j) = ((α (row t b') j : ℝ) : EReal) :=
  (iblk4_entry m c t b' j).trans (H.cms (row t b') j)

theorem x5_real (t : Fin cfg0.N) (b' : Fin 2) :
    (iblk m c 5 t : Vec Ideal S2x1x1 .f32) (ix3 b' (0 : Fin 1) (0 : Fin 1)) = ((κ (row t b') : ℝ) : EReal) :=
  (iblk5_entry m c t b').trans (H.kbt (row t b'))

theorem x6_real (t : Fin cfg0.N) (b' : Fin 2) (k : Nat) (hk : k + 1 ≤ 14) :
    (iblk m c 6 t : Vec Ideal S2x1x14 .f32) (ix3 b' (0 : Fin 1) (⟨k, hk⟩ : Fin 14))
      = ((δ (row t b') * (σ * Cert.NHC.ωAt k / 2) : ℝ) : EReal) := by
  rw [← ω_eq ⟨k, hk⟩]
  exact iblk6_entry m c t b' ⟨k, hk⟩ δ σ H.dt H.scale

/-! ### The fourteen substeps at a point -/

/-- The kinetic sum the body computes from point t's particle block, at row b', is the real kinetic sum of array row 2t + b'. -/
theorem kin_start (t : Fin cfg0.N) (b' : Fin 2) :
    kin0V (iblk m c 0 t) (iblk m c 1 t) (rowIx b')
      = ((Cert.NHC.kinOf (fun i : Fin 131072 × Fin 3 => μ (row t b') i.1) (momR (row t b')) : ℝ) : EReal) :=
  kin0V_real b' (iblk m c 0 t) (iblk m c 1 t) (momR (row t b')) (μ (row t b')) (H.mas_ne (row t b'))
    (fun n k => x0_real H t b' n k) (fun n => x1_real H t b' n)

/-- Before the first substep the body's state at row b' of point t is the real chain's start for array row 2t + b'. -/
theorem start_holds (t : Fin cfg0.N) (b' : Fin 2) :
    Holds b' (kinitV (iblk m c 0 t) (iblk m c 1 t) (iblk m c 2 t) (iblk m c 3 t)) (rowOf momR μ κ δ pR qR α σ (row t b') 0) := by
  rw [rowOf_zero]
  unfold kinitV
  -- the twelve fields, each read off the two records before it is compared
  refine ⟨?_, ?_, ?_, ?_, ?_, ?_, ?_, ?_, ?_, ?_, ?_, ?_⟩ <;> dsimp only
  · exact kin_start H t b'
  · exact tot0V_real b'
  · exact (colV5_row (iblk m c 3 t) 0 (by decide) b').trans (x3_real H t b' ⟨0, by decide⟩)
  · exact (colV5_row (iblk m c 3 t) 1 (by decide) b').trans (x3_real H t b' ⟨1, by decide⟩)
  · exact (colV5_row (iblk m c 3 t) 2 (by decide) b').trans (x3_real H t b' ⟨2, by decide⟩)
  · exact (colV5_row (iblk m c 3 t) 3 (by decide) b').trans (x3_real H t b' ⟨3, by decide⟩)
  · exact (colV5_row (iblk m c 3 t) 4 (by decide) b').trans (x3_real H t b' ⟨4, by decide⟩)
  · exact (colV5_row (iblk m c 2 t) 0 (by decide) b').trans (x2_real H t b' ⟨0, by decide⟩)
  · exact (colV5_row (iblk m c 2 t) 1 (by decide) b').trans (x2_real H t b' ⟨1, by decide⟩)
  · exact (colV5_row (iblk m c 2 t) 2 (by decide) b').trans (x2_real H t b' ⟨2, by decide⟩)
  · exact (colV5_row (iblk m c 2 t) 3 (by decide) b').trans (x2_real H t b' ⟨3, by decide⟩)
  · exact (colV5_row (iblk m c 2 t) 4 (by decide) b').trans (x2_real H t b' ⟨4, by decide⟩)

/-- Substep k of the body, on a state that is the real chain after k substeps, is the real chain after k + 1. -/
theorem step_holds (t : Fin cfg0.N) (b' : Fin 2) (k : Nat) (hk : k + 1 ≤ 14) (st : KSt Ideal)
    (h : Holds b' st (rowOf momR μ κ δ pR qR α σ (row t b') k)) :
    Holds b' (kstepAt (iblk m c 4 t) (iblk m c 5 t) (iblk m c 6 t) k st hk) (rowOf momR μ κ δ pR qR α σ (row t b') (k + 1)) := by
  rw [rowOf_succ]
  unfold kstepAt
  exact kstepV_holds b' (colV14 (iblk m c 6 t) k hk) (kbtV (iblk m c 5 t)) (colV5 (iblk m c 4 t) 0) (colV5 (iblk m c 4 t) 1)
    (colV5 (iblk m c 4 t) 2) (colV5 (iblk m c 4 t) 3) (colV5 (iblk m c 4 t) 4) st (rowOf momR μ κ δ pR qR α σ (row t b') k)
    (δ (row t b') * (σ * Cert.NHC.ωAt k / 2)) (κ (row t b')) (α (row t b')) (H.cms_ne (row t b'))
    ((colV14_row (iblk m c 6 t) k hk b').trans (x6_real H t b' k hk))
    ((kbtV_row (iblk m c 5 t) b').trans (x5_real H t b'))
    ((colV5_row (iblk m c 4 t) 0 (by decide) b').trans (x4_real H t b' ⟨0, by decide⟩))
    ((colV5_row (iblk m c 4 t) 1 (by decide) b').trans (x4_real H t b' ⟨1, by decide⟩))
    ((colV5_row (iblk m c 4 t) 2 (by decide) b').trans (x4_real H t b' ⟨2, by decide⟩))
    ((colV5_row (iblk m c 4 t) 3 (by decide) b').trans (x4_real H t b' ⟨3, by decide⟩))
    ((colV5_row (iblk m c 4 t) 4 (by decide) b').trans (x4_real H t b' ⟨4, by decide⟩)) h

/-- After the last substep the body's state at row b' of point t is the real chain of array row 2t + b' after fourteen. -/
theorem final_holds (t : Fin cfg0.N) (b' : Fin 2) :
    Holds b' (kfin m c t) (rowOf momR μ κ δ pR qR α σ (row t b') 14) := by
  have s0 := start_holds H t b'
  have s1 := step_holds H t b' 0 (by decide) _ s0
  have s2 := step_holds H t b' 1 (by decide) _ s1
  have s3 := step_holds H t b' 2 (by decide) _ s2
  have s4 := step_holds H t b' 3 (by decide) _ s3
  have s5 := step_holds H t b' 4 (by decide) _ s4
  have s6 := step_holds H t b' 5 (by decide) _ s5
  have s7 := step_holds H t b' 6 (by decide) _ s6
  have s8 := step_holds H t b' 7 (by decide) _ s7
  have s9 := step_holds H t b' 8 (by decide) _ s8
  have s10 := step_holds H t b' 9 (by decide) _ s9
  have s11 := step_holds H t b' 10 (by decide) _ s10
  have s12 := step_holds H t b' 11 (by decide) _ s11
  have s13 := step_holds H t b' 12 (by decide) _ s12
  have s14 := step_holds H t b' 13 (by decide) _ s13
  exact s14

/-! ### The three output arrays after the region -/

/-- Window 7's array: the momenta, each row times its chain's accumulated factor. -/
theorem out7 : (dats m 0 c).arrAt 7 cfg0.N
    = (fun i : S32x131072x3.Idx => ((momR (i 0) (i 1, i 2) * (rowOf momR μ κ δ pR qR α σ (i 0) 14).tot : ℝ) : EReal)) := by
  refine final7_of_entries m c _ (fun t b' n k => ?_)
  rw [runAt_out7 m c t, momOutV_apply, x0_real H t b' n k, (final_holds H t b').2.1, ← EReal.coe_mul]

/-- Window 8's array: the chains' positions. -/
theorem out8 : (dats m 0 c).arrAt 8 cfg0.N
    = (fun i : S32x1x5.Idx => (((rowOf momR μ κ δ pR qR α σ (i 0) 14).p (i 2) : ℝ) : EReal)) := by
  refine final8_of_entries m c _ (fun t b' j => ?_)
  obtain ⟨-, -, h0, h1, h2, h3, h4, -⟩ := final_holds H t b'
  rw [runAt_out8 m c t]
  fin_cases j
  · exact (cat5V_apply_0 _ _ _ _ _ b').trans h0
  · exact (cat5V_apply_1 _ _ _ _ _ b').trans h1
  · exact (cat5V_apply_2 _ _ _ _ _ b').trans h2
  · exact (cat5V_apply_3 _ _ _ _ _ b').trans h3
  · exact (cat5V_apply_4 _ _ _ _ _ b').trans h4

/-- Window 9's array: the chains' momenta. -/
theorem out9 : (dats m 0 c).arrAt 9 cfg0.N
    = (fun i : S32x1x5.Idx => (((rowOf momR μ κ δ pR qR α σ (i 0) 14).q (i 2) : ℝ) : EReal)) := by
  refine final9_of_entries m c _ (fun t b' j => ?_)
  obtain ⟨-, -, -, -, -, -, -, h0, h1, h2, h3, h4⟩ := final_holds H t b'
  rw [runAt_out9 m c t]
  fin_cases j
  · exact (cat5V_apply_0 _ _ _ _ _ b').trans h0
  · exact (cat5V_apply_1 _ _ _ _ _ b').trans h1
  · exact (cat5V_apply_2 _ _ _ _ _ b').trans h2
  · exact (cat5V_apply_3 _ _ _ _ _ b').trans h3
  · exact (cat5V_apply_4 _ _ _ _ _ b').trans h4

end Rows

/-! ## The run -/

/-- THE KERNEL'S RESULTS over the extended reals: from launch contents that are real numbers on every core (nonzero particle
    masses, nonzero chain masses) every execution of the program terminates, and on each core the first result holds the
    momenta, row b times the accumulated factor of row b's real chain after its fourteen substeps, the second and third
    results hold that chain's positions and momenta, and the nine arguments are as launched. -/
theorem kernel_results (ρ : Dev nD → PrngReg)
    (momR : Dev nD → Fin 32 → Fin 131072 × Fin 3 → ℝ) (μ : Dev nD → Fin 32 → Fin 131072 → ℝ) (κ δ : Dev nD → Fin 32 → ℝ)
    (pR qR α : Dev nD → Fin 32 → Fin 5 → ℝ) (σ : Dev nD → ℝ)
    (hmom : ∀ (c : Dev nD) (b : Fin 32) (n : Fin 131072) (k : Fin 3), m ((c.tc : Thread nD τ).loc main_arg1) (ix3 b n k) = ((momR c b (n, k) : ℝ) : EReal))
    (hμ : ∀ (c : Dev nD) (b : Fin 32) (n : Fin 131072), m ((c.tc : Thread nD τ).loc main_arg2) (ix2 b n) = ((μ c b n : ℝ) : EReal))
    (hμ0 : ∀ (c : Dev nD) (b : Fin 32) (n : Fin 131072), μ c b n ≠ 0)
    (hκ : ∀ (c : Dev nD) (b : Fin 32), m ((c.tc : Thread nD τ).loc main_arg3) (ix1 b) = ((κ c b : ℝ) : EReal))
    (hδ : ∀ (c : Dev nD) (b : Fin 32), m ((c.tc : Thread nD τ).loc main_arg4) (ix1 b) = ((δ c b : ℝ) : EReal))
    (hp : ∀ (c : Dev nD) (b : Fin 32) (j : Fin 5), m ((c.tc : Thread nD τ).loc main_arg5) (ix2 b j) = ((pR c b j : ℝ) : EReal))
    (hq : ∀ (c : Dev nD) (b : Fin 32) (j : Fin 5), m ((c.tc : Thread nD τ).loc main_arg6) (ix2 b j) = ((qR c b j : ℝ) : EReal))
    (hα : ∀ (c : Dev nD) (b : Fin 32) (j : Fin 5), m ((c.tc : Thread nD τ).loc main_arg7) (ix2 b j) = ((α c b j : ℝ) : EReal))
    (hα0 : ∀ (c : Dev nD) (b : Fin 32) (j : Fin 5), α c b j ≠ 0)
    (hσ : ∀ c : Dev nD, m ((c.tc : Thread nD τ).loc main_arg8) ix0 = ((σ c : ℝ) : EReal)) :
    θ_run defs (onTc (τ := τ) (main (F := Ideal))) ⟨m, fun _ => 0, ρ⟩ (fun r => ∀ c : Dev nD,
      (∀ (b : Fin 32) (n : Fin 131072) (k : Fin 3), r.2.mem ((c.tc : Thread nD τ).loc main_v77_0) (ix3 b n k)
          = ((momR c b (n, k) * (KK momR μ κ δ pR qR α σ c b).tot : ℝ) : EReal))
      ∧ (∀ (b : Fin 32) (j : Fin 5), r.2.mem ((c.tc : Thread nD τ).loc main_v78) (ix2 b j) = (((KK momR μ κ δ pR qR α σ c b).p j : ℝ) : EReal))
      ∧ (∀ (b : Fin 32) (j : Fin 5), r.2.mem ((c.tc : Thread nD τ).loc main_v79) (ix2 b j) = (((KK momR μ κ δ pR qR α σ c b).q j : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    have H : RealLaunch m c (momR c) (μ c) (κ c) (δ c) (pR c) (qR c) (α c) (σ c) :=
      ⟨hmom c, hμ c, hμ0 c, hκ c, hδ c, hp c, hq c, hα c, hα0 c, hσ c⟩
    obtain ⟨h7, h8, h9, hargs⟩ := h c
    refine ⟨fun b n k => ?_, fun b j => ?_, fun b j => ?_, hargs⟩
    · rw [h7, KK_eq]; exact congrFun (out7 H) (ix3 b n k)
    · rw [h8 b j, KK_eq]; exact congrFun (out8 H) (ix3 b (0 : Fin 1) j)
    · rw [h9 b j, KK_eq]; exact congrFun (out9 H) (ix3 b (0 : Fin 1) j)) (run_arrays m ρ)

end AtIdeal

end Cert.KernelIdeal.Frame

end
-- ==== Proof.RStep.lean ====

/-
  One substep of the chain as the reference computes it, on whole arrays (all 32 batch rows at once): the particle
  momenta, the chain positions and the chain momenta go in and come out; the step size is dtm · (stp · w / 2) with w the
  substep's weight.  The operations and their order are the printed reference's.
-/
import proofs.«138430_j46600395162250_2_alg».proof.ReferenceIdeal

noncomputable section

namespace Cert.ReferenceIdeal.Chain

open Idealize.ShloMosaic Cert.ReferenceIdeal

variable {F : FTy → Type} [FloatOps F]

variable [Facts]
open Facts₀ Facts

/-- What a substep carries: the particle momenta, the chain positions, the chain momenta. -/
structure RSt (F : FTy → Type) [FloatOps F] where
  mom : (⟨S32x131072x3, .f32⟩ : BufTy).Contents (Elt F)
  pos : (⟨S32x5, .f32⟩ : BufTy).Contents (Elt F)
  q : (⟨S32x5, .f32⟩ : BufTy).Contents (Elt F)

/-- One substep with weight w (an f32 word), time step stp, per-row factors dtm, masses mas, temperatures kbt and chain
    masses a. -/
def rstepV (w : BitVec 32) (stp : (⟨S_, .f32⟩ : BufTy).Contents (Elt F)) (dtm kbt : (⟨S32, .f32⟩ : BufTy).Contents (Elt F))
    (mas : (⟨S32x131072, .f32⟩ : BufTy).Contents (Elt F)) (a : (⟨S32x5, .f32⟩ : BufTy).Contents (Elt F)) (s : RSt F) : RSt F :=
  have t0 : (⟨S_, .f32⟩ : BufTy).Contents (Elt F) := constant S_ .f32 w
  have t1 : (⟨S_, .f32⟩ : BufTy).Contents (Elt F) := mulf stp t0
  have t2 : (⟨S_, .f32⟩ : BufTy).Contents (Elt F) := constant S_ .f32 0x40000000#32
  have t3 : (⟨S_, .f32⟩ : BufTy).Contents (Elt F) := Host.divf t1 t2
  have t4 : (⟨S32, .f32⟩ : BufTy).Contents (Elt F) := broadcastInDim S32 ![] bcast_S_S32 t3
  have t5 : (⟨S32, .f32⟩ : BufTy).Contents (Elt F) := mulf dtm t4
  have t6 : (⟨S32x5, .f32⟩ : BufTy).Contents (Elt F) := mulf s.q s.q
  have t7 : (⟨S32x5, .f32⟩ : BufTy).Contents (Elt F) := Host.divf t6 a
  have t8 : (⟨S32x4, .f32⟩ : BufTy).Contents (Elt F) := extractStridedSlice S32x4 ![0, 0] t7 slices_S32x5_S32x4_0_0
  have t9 : (⟨S32x1, .f32⟩ : BufTy).Contents (Elt F) := broadcastInDim S32x1 ![0] bcast_S32_S32x1_0 kbt
  have t10 : (⟨S32x4, .f32⟩ : BufTy).Contents (Elt F) := broadcastInDim S32x4 ![0, 1] bcast_S32x1_S32x4_0_1 t9
  have t11 : (⟨S32x4, .f32⟩ : BufTy).Contents (Elt F) := subf t8 t10
  have t12 : (⟨S32x131072x3, .f32⟩ : BufTy).Contents (Elt F) := mulf s.mom s.mom
  have t13 : (⟨S32x131072x1, .f32⟩ : BufTy).Contents (Elt F) := broadcastInDim S32x131072x1 ![0, 1] bcast_S32x131072_S32x131072x1_0_1 mas
  have t14 : (⟨S32x131072x3, .f32⟩ : BufTy).Contents (Elt F) := broadcastInDim S32x131072x3 ![0, 1, 2] bcast_S32x131072x1_S32x131072x3_0_1_2 t13
  have t15 : (⟨S32x131072x3, .f32⟩ : BufTy).Contents (Elt F) := Host.divf t12 t14
  have t16 : (⟨S_, .f32⟩ : BufTy).Contents (Elt F) := constant S_ .f32 0x00000000#32
  have t17 : (⟨S32, .f32⟩ : BufTy).Contents (Elt F) := Host.reduceAdd t15 t16 reducesTo_S32x131072x3_S32_d1_2 h_S_
  have t18 : (⟨S_, .f32⟩ : BufTy).Contents (Elt F) := constant S_ .f32 0x48C00000#32
  have t19 : (⟨S32, .f32⟩ : BufTy).Contents (Elt F) := broadcastInDim S32 ![] bcast_S_S32 t18
  have t20 : (⟨S32, .f32⟩ : BufTy).Contents (Elt F) := mulf kbt t19
  have t21 : (⟨S32, .f32⟩ : BufTy).Contents (Elt F) := subf t17 t20
  have t22 : (⟨S32x1, .f32⟩ : BufTy).Contents (Elt F) := broadcastInDim S32x1 ![0] bcast_S32_S32x1_0 t21
  have t23 : (⟨S32x5, .f32⟩ : BufTy).Contents (Elt F) := concatenate S32x5 1 [⟨S32x1, t22⟩, ⟨S32x4, t11⟩] concatenates_S32x1_S32x4_S32x5_d1
  have t24 : (⟨S32x1, .f32⟩ : BufTy).Contents (Elt F) := extractStridedSlice S32x1 ![0, 4] t23 slices_S32x5_S32x1_0_4
  have t25 : (⟨S32, .f32⟩ : BufTy).Contents (Elt F) := shapeCast _ t24 shapeCasts_S32x1_S32
  have t26 : (⟨S_, .f32⟩ : BufTy).Contents (Elt F) := constant S_ .f32 0x40000000#32
  have t27 : (⟨S32, .f32⟩ : BufTy).Contents (Elt F) := broadcastInDim S32 ![] bcast_S_S32 t26
  have t28 : (⟨S32, .f32⟩ : BufTy).Contents (Elt F) := Host.divf t5 t27
  have t29 : (⟨S32, .f32⟩ : BufTy).Contents (Elt F) := mulf t25 t28
  have t30 : (⟨S_, .i32⟩ : BufTy).Contents (Elt F) := constantI S_ 32 4#32
  have t31 : (⟨S1, .i32⟩ : BufTy).Contents (Elt F) := broadcastInDim S1 ![] bcast_S_S1 t30
  have t32 : (⟨S32x5, .f32⟩ : BufTy).Contents (Elt F) := Host.scatter scatter_S32x5_S1_S32_0_1_1_0 FloatOps.addf s.q t31 t29
  have t33 : (⟨S32x1, .f32⟩ : BufTy).Contents (Elt F) := extractStridedSlice S32x1 ![0, 4] t32 slices_S32x5_S32x1_0_4
  have t34 : (⟨S32, .f32⟩ : BufTy).Contents (Elt F) := shapeCast _ t33 shapeCasts_S32x1_S32
  have t35 : (⟨S32, .f32⟩ : BufTy).Contents (Elt F) := Host.negf t34
  have t36 : (⟨S32x1, .f32⟩ : BufTy).Contents (Elt F) := extractStridedSlice S32x1 ![0, 4] a slices_S32x5_S32x1_0_4
  have t37 : (⟨S32, .f32⟩ : BufTy).Contents (Elt F) := shapeCast _ t36 shapeCasts_S32x1_S32
  have t38 : (⟨S32, .f32⟩ : BufTy).Contents (Elt F) := Host.divf t35 t37
  have t39 : (⟨S_, .f32⟩ : BufTy).Contents (Elt F) := constant S_ .f32 0x40800000#32
  have t40 : (⟨S32, .f32⟩ : BufTy).Contents (Elt F) := broadcastInDim S32 ![] bcast_S_S32 t39
  have t41 : (⟨S32, .f32⟩ : BufTy).Contents (Elt F) := Host.divf t5 t40
  have t42 : (⟨S32, .f32⟩ : BufTy).Contents (Elt F) := mulf t38 t41
  have t43 : (⟨S32, .f32⟩ : BufTy).Contents (Elt F) := Host.exp t42
  have t44 : (⟨S32x1, .f32⟩ : BufTy).Contents (Elt F) := extractStridedSlice S32x1 ![0, 3] t32 slices_S32x5_S32x1_0_3
  have t45 : (⟨S32, .f32⟩ : BufTy).Contents (Elt F) := shapeCast _ t44 shapeCasts_S32x1_S32
  have t46 : (⟨S32, .f32⟩ : BufTy).Contents (Elt F) := mulf t45 t43
  have t47 : (⟨S32x1, .f32⟩ : BufTy).Contents (Elt F) := extractStridedSlice S32x1 ![0, 3] t23 slices_S32x5_S32x1_0_3
  have t48 : (⟨S32, .f32⟩ : BufTy).Contents (Elt F) := shapeCast _ t47 shapeCasts_S32x1_S32
  have t49 : (⟨S_, .f32⟩ : BufTy).Contents (Elt F) := constant S_ .f32 0x40000000#32
  have t50 : (⟨S32, .f32⟩ : BufTy).Contents (Elt F) := broadcastInDim S32 ![] bcast_S_S32 t49
  have t51 : (⟨S32, .f32⟩ : BufTy).Contents (Elt F) := Host.divf t5 t50
  have t52 : (⟨S32, .f32⟩ : BufTy).Contents (Elt F) := mulf t48 t51
  have t53 : (⟨S32, .f32⟩ : BufTy).Contents (Elt F) := addf t46 t52
  have t54 : (⟨S32, .f32⟩ : BufTy).Contents (Elt F) := mulf t53 t43
  have t55 : (⟨S_, .i32⟩ : BufTy).Contents (Elt F) := constantI S_ 32 3#32
  have t56 : (⟨S1, .i32⟩ : BufTy).Contents (Elt F) := broadcastInDim S1 ![] bcast_S_S1 t55
  have t57 : (⟨S32x5, .f32⟩ : BufTy).Contents (Elt F) := Host.scatter scatter_S32x5_S1_S32_0_1_1_0 (fun _ b => b) t32 t56 t54
  have t58 : (⟨S32x1, .f32⟩ : BufTy).Contents (Elt F) := extractStridedSlice S32x1 ![0, 3] t57 slices_S32x5_S32x1_0_3
  have t59 : (⟨S32, .f32⟩ : BufTy).Contents (Elt F) := shapeCast _ t58 shapeCasts_S32x1_S32
  have t60 : (⟨S32, .f32⟩ : BufTy).Contents (Elt F) := Host.negf t59
  have t61 : (⟨S32x1, .f32⟩ : BufTy).Contents (Elt F) := extractStridedSlice S32x1 ![0, 3] a slices_S32x5_S32x1_0_3
  have t62 : (⟨S32, .f32⟩ : BufTy).Contents (Elt F) := shapeCast _ t61 shapeCasts_S32x1_S32
  have t63 : (⟨S32, .f32⟩ : BufTy).Contents (Elt F) := Host.divf t60 t62
  have t64 : (⟨S_, .f32⟩ : BufTy).Contents (Elt F) := constant S_ .f32 0x40800000#32
  have t65 : (⟨S32, .f32⟩ : BufTy).Contents (Elt F) := broadcastInDim S32 ![] bcast_S_S32 t64
  have t66 : (⟨S32, .f32⟩ : BufTy).Contents (Elt F) := Host.divf t5 t65
  have t67 : (⟨S32, .f32⟩ : BufTy).Contents (Elt F) := mulf t63 t66
  have t68 : (⟨S32, .f32⟩ : BufTy).Contents (Elt F) := Host.exp t67
  have t69 : (⟨S32x1, .f32⟩ : BufTy).Contents (Elt F) := extractStridedSlice S32x1 ![0, 2] t57 slices_S32x5_S32x1_0_2
  have t70 : (⟨S32, .f32⟩ : BufTy).Contents (Elt F) := shapeCast _ t69 shapeCasts_S32x1_S32
  have t71 : (⟨S32, .f32⟩ : BufTy).Contents (Elt F) := mulf t70 t68
  have t72 : (⟨S32x1, .f32⟩ : BufTy).Contents (Elt F) := extractStridedSlice S32x1 ![0, 2] t23 slices_S32x5_S32x1_0_2
  have t73 : (⟨S32, .f32⟩ : BufTy).Contents (Elt F) := shapeCast _ t72 shapeCasts_S32x1_S32
  have t74 : (⟨S_, .f32⟩ : BufTy).Contents (Elt F) := constant S_ .f32 0x40000000#32
  have t75 : (⟨S32, .f32⟩ : BufTy).Contents (Elt F) := broadcastInDim S32 ![] bcast_S_S32 t74
  have t76 : (⟨S32, .f32⟩ : BufTy).Contents (Elt F) := Host.divf t5 t75
  have t77 : (⟨S32, .f32⟩ : BufTy).Contents (Elt F) := mulf t73 t76
  have t78 : (⟨S32, .f32⟩ : BufTy).Contents (Elt F) := addf t71 t77
  have t79 : (⟨S32, .f32⟩ : BufTy).Contents (Elt F) := mulf t78 t68
  have t80 : (⟨S_, .i32⟩ : BufTy).Contents (Elt F) := constantI S_ 32 2#32
  have t81 : (⟨S1, .i32⟩ : BufTy).Contents (Elt F) := broadcastInDim S1 ![] bcast_S_S1 t80
  have t82 : (⟨S32x5, .f32⟩ : BufTy).Contents (Elt F) := Host.scatter scatter_S32x5_S1_S32_0_1_1_0 (fun _ b => b) t57 t81 t79
  have t83 : (⟨S32x1, .f32⟩ : BufTy).Contents (Elt F) := extractStridedSlice S32x1 ![0, 2] t82 slices_S32x5_S32x1_0_2
  have t84 : (⟨S32, .f32⟩ : BufTy).Contents (Elt F) := shapeCast _ t83 shapeCasts_S32x1_S32
  have t85 : (⟨S32, .f32⟩ : BufTy).Contents (Elt F) := Host.negf t84
  have t86 : (⟨S32x1, .f32⟩ : BufTy).Contents (Elt F) := extractStridedSlice S32x1 ![0, 2] a slices_S32x5_S32x1_0_2
  have t87 : (⟨S32, .f32⟩ : BufTy).Contents (Elt F) := shapeCast _ t86 shapeCasts_S32x1_S32
  have t88 : (⟨S32, .f32⟩ : BufTy).Contents (Elt F) := Host.divf t85 t87
  have t89 : (⟨S_, .f32⟩ : BufTy).Contents (Elt F) := constant S_ .f32 0x40800000#32
  have t90 : (⟨S32, .f32⟩ : BufTy).Contents (Elt F) := broadcastInDim S32 ![] bcast_S_S32 t89
  have t91 : (⟨S32, .f32⟩ : BufTy).Contents (Elt F) := Host.divf t5 t90
  have t92 : (⟨S32, .f32⟩ : BufTy).Contents (Elt F) := mulf t88 t91
  have t93 : (⟨S32, .f32⟩ : BufTy).Contents (Elt F) := Host.exp t92
  have t94 : (⟨S32x1, .f32⟩ : BufTy).Contents (Elt F) := extractStridedSlice S32x1 ![0, 1] t82 slices_S32x5_S32x1_0_1
  have t95 : (⟨S32, .f32⟩ : BufTy).Contents (Elt F) := shapeCast _ t94 shapeCasts_S32x1_S32
  have t96 : (⟨S32, .f32⟩ : BufTy).Contents (Elt F) := mulf t95 t93
  have t97 : (⟨S32x1, .f32⟩ : BufTy).Contents (Elt F) := extractStridedSlice S32x1 ![0, 1] t23 slices_S32x5_S32x1_0_1
  have t98 : (⟨S32, .f32⟩ : BufTy).Contents (Elt F) := shapeCast _ t97 shapeCasts_S32x1_S32
  have t99 : (⟨S_, .f32⟩ : BufTy).Contents (Elt F) := constant S_ .f32 0x40000000#32
  have t100 : (⟨S32, .f32⟩ : BufTy).Contents (Elt F) := broadcastInDim S32 ![] bcast_S_S32 t99
  have t101 : (⟨S32, .f32⟩ : BufTy).Contents (Elt F) := Host.divf t5 t100
  have t102 : (⟨S32, .f32⟩ : BufTy).Contents (Elt F) := mulf t98 t101
  have t103 : (⟨S32, .f32⟩ : BufTy).Contents (Elt F) := addf t96 t102
  have t104 : (⟨S32, .f32⟩ : BufTy).Contents (Elt F) := mulf t103 t93
  have t105 : (⟨S_, .i32⟩ : BufTy).Contents (Elt F) := constantI S_ 32 1#32
  have t106 : (⟨S1, .i32⟩ : BufTy).Contents (Elt F) := broadcastInDim S1 ![] bcast_S_S1 t105
  have t107 : (⟨S32x5, .f32⟩ : BufTy).Contents (Elt F) := Host.scatter scatter_S32x5_S1_S32_0_1_1_0 (fun _ b => b) t82 t106 t104
  have t108 : (⟨S32x1, .f32⟩ : BufTy).Contents (Elt F) := extractStridedSlice S32x1 ![0, 1] t107 slices_S32x5_S32x1_0_1
  have t109 : (⟨S32, .f32⟩ : BufTy).Contents (Elt F) := shapeCast _ t108 shapeCasts_S32x1_S32
  have t110 : (⟨S32, .f32⟩ : BufTy).Contents (Elt F) := Host.negf t109
  have t111 : (⟨S32x1, .f32⟩ : BufTy).Contents (Elt F) := extractStridedSlice S32x1 ![0, 1] a slices_S32x5_S32x1_0_1
  have t112 : (⟨S32, .f32⟩ : BufTy).Contents (Elt F) := shapeCast _ t111 shapeCasts_S32x1_S32
  have t113 : (⟨S32, .f32⟩ : BufTy).Contents (Elt F) := Host.divf t110 t112
  have t114 : (⟨S_, .f32⟩ : BufTy).Contents (Elt F) := constant S_ .f32 0x40800000#32
  have t115 : (⟨S32, .f32⟩ : BufTy).Contents (Elt F) := broadcastInDim S32 ![] bcast_S_S32 t114
  have t116 : (⟨S32, .f32⟩ : BufTy).Contents (Elt F) := Host.divf t5 t115
  have t117 : (⟨S32, .f32⟩ : BufTy).Contents (Elt F) := mulf t113 t116
  have t118 : (⟨S32, .f32⟩ : BufTy).Contents (Elt F) := Host.exp t117
  have t119 : (⟨S32x1, .f32⟩ : BufTy).Contents (Elt F) := extractStridedSlice S32x1 ![0, 0] t107 slices_S32x5_S32x1_0_0
  have t120 : (⟨S32, .f32⟩ : BufTy).Contents (Elt F) := shapeCast _ t119 shapeCasts_S32x1_S32
  have t121 : (⟨S32, .f32⟩ : BufTy).Contents (Elt F) := mulf t120 t118
  have t122 : (⟨S32x1, .f32⟩ : BufTy).Contents (Elt F) := extractStridedSlice S32x1 ![0, 0] t23 slices_S32x5_S32x1_0_0
  have t123 : (⟨S32, .f32⟩ : BufTy).Contents (Elt F) := shapeCast _ t122 shapeCasts_S32x1_S32
  have t124 : (⟨S_, .f32⟩ : BufTy).Contents (Elt F) := constant S_ .f32 0x40000000#32
  have t125 : (⟨S32, .f32⟩ : BufTy).Contents (Elt F) := broadcastInDim S32 ![] bcast_S_S32 t124
  have t126 : (⟨S32, .f32⟩ : BufTy).Contents (Elt F) := Host.divf t5 t125
  have t127 : (⟨S32, .f32⟩ : BufTy).Contents (Elt F) := mulf t123 t126
  have t128 : (⟨S32, .f32⟩ : BufTy).Contents (Elt F) := addf t121 t127
  have t129 : (⟨S32, .f32⟩ : BufTy).Contents (Elt F) := mulf t128 t118
  have t130 : (⟨S_, .i32⟩ : BufTy).Contents (Elt F) := constantI S_ 32 0#32
  have t131 : (⟨S1, .i32⟩ : BufTy).Contents (Elt F) := broadcastInDim S1 ![] bcast_S_S1 t130
  have t132 : (⟨S32x5, .f32⟩ : BufTy).Contents (Elt F) := Host.scatter scatter_S32x5_S1_S32_0_1_1_0 (fun _ b => b) t107 t131 t129
  have t133 : (⟨S32x5, .f32⟩ : BufTy).Contents (Elt F) := Host.divf t132 a
  have t134 : (⟨S32x1, .f32⟩ : BufTy).Contents (Elt F) := broadcastInDim S32x1 ![0] bcast_S32_S32x1_0 t5
  have t135 : (⟨S32x5, .f32⟩ : BufTy).Contents (Elt F) := broadcastInDim S32x5 ![0, 1] bcast_S32x1_S32x5_0_1 t134
  have t136 : (⟨S32x5, .f32⟩ : BufTy).Contents (Elt F) := mulf t133 t135
  have t137 : (⟨S32x5, .f32⟩ : BufTy).Contents (Elt F) := addf s.pos t136
  have t138 : (⟨S32x1, .f32⟩ : BufTy).Contents (Elt F) := extractStridedSlice S32x1 ![0, 0] t132 slices_S32x5_S32x1_0_0
  have t139 : (⟨S32, .f32⟩ : BufTy).Contents (Elt F) := shapeCast _ t138 shapeCasts_S32x1_S32
  have t140 : (⟨S32, .f32⟩ : BufTy).Contents (Elt F) := Host.negf t139
  have t141 : (⟨S32x1, .f32⟩ : BufTy).Contents (Elt F) := extractStridedSlice S32x1 ![0, 0] a slices_S32x5_S32x1_0_0
  have t142 : (⟨S32, .f32⟩ : BufTy).Contents (Elt F) := shapeCast _ t141 shapeCasts_S32x1_S32
  have t143 : (⟨S32, .f32⟩ : BufTy).Contents (Elt F) := Host.divf t140 t142
  have t144 : (⟨S32, .f32⟩ : BufTy).Contents (Elt F) := mulf t143 t5
  have t145 : (⟨S32, .f32⟩ : BufTy).Contents (Elt F) := Host.exp t144
  have t146 : (⟨S32x1x1, .f32⟩ : BufTy).Contents (Elt F) := broadcastInDim S32x1x1 ![0] bcast_S32_S32x1x1_0 t145
  have t147 : (⟨S32x131072x3, .f32⟩ : BufTy).Contents (Elt F) := broadcastInDim S32x131072x3 ![0, 1, 2] bcast_S32x1x1_S32x131072x3_0_1_2 t146
  have t148 : (⟨S32x131072x3, .f32⟩ : BufTy).Contents (Elt F) := mulf s.mom t147
  have t149 : (⟨S32x5, .f32⟩ : BufTy).Contents (Elt F) := mulf s.q s.q
  have t150 : (⟨S32x5, .f32⟩ : BufTy).Contents (Elt F) := Host.divf t149 a
  have t151 : (⟨S32x4, .f32⟩ : BufTy).Contents (Elt F) := extractStridedSlice S32x4 ![0, 0] t150 slices_S32x5_S32x4_0_0
  have t152 : (⟨S32x1, .f32⟩ : BufTy).Contents (Elt F) := broadcastInDim S32x1 ![0] bcast_S32_S32x1_0 kbt
  have t153 : (⟨S32x4, .f32⟩ : BufTy).Contents (Elt F) := broadcastInDim S32x4 ![0, 1] bcast_S32x1_S32x4_0_1 t152
  have t154 : (⟨S32x4, .f32⟩ : BufTy).Contents (Elt F) := subf t151 t153
  have t155 : (⟨S32x131072x3, .f32⟩ : BufTy).Contents (Elt F) := mulf t148 t148
  have t156 : (⟨S32x131072x1, .f32⟩ : BufTy).Contents (Elt F) := broadcastInDim S32x131072x1 ![0, 1] bcast_S32x131072_S32x131072x1_0_1 mas
  have t157 : (⟨S32x131072x3, .f32⟩ : BufTy).Contents (Elt F) := broadcastInDim S32x131072x3 ![0, 1, 2] bcast_S32x131072x1_S32x131072x3_0_1_2 t156
  have t158 : (⟨S32x131072x3, .f32⟩ : BufTy).Contents (Elt F) := Host.divf t155 t157
  have t159 : (⟨S_, .f32⟩ : BufTy).Contents (Elt F) := constant S_ .f32 0x00000000#32
  have t160 : (⟨S32, .f32⟩ : BufTy).Contents (Elt F) := Host.reduceAdd t158 t159 reducesTo_S32x131072x3_S32_d1_2 h_S_
  have t161 : (⟨S_, .f32⟩ : BufTy).Contents (Elt F) := constant S_ .f32 0x48C00000#32
  have t162 : (⟨S32, .f32⟩ : BufTy).Contents (Elt F) := broadcastInDim S32 ![] bcast_S_S32 t161
  have t163 : (⟨S32, .f32⟩ : BufTy).Contents (Elt F) := mulf kbt t162
  have t164 : (⟨S32, .f32⟩ : BufTy).Contents (Elt F) := subf t160 t163
  have t165 : (⟨S32x1, .f32⟩ : BufTy).Contents (Elt F) := broadcastInDim S32x1 ![0] bcast_S32_S32x1_0 t164
  have t166 : (⟨S32x5, .f32⟩ : BufTy).Contents (Elt F) := concatenate S32x5 1 [⟨S32x1, t165⟩, ⟨S32x4, t154⟩] concatenates_S32x1_S32x4_S32x5_d1
  have t167 : (⟨S32x1, .f32⟩ : BufTy).Contents (Elt F) := extractStridedSlice S32x1 ![0, 4] t132 slices_S32x5_S32x1_0_4
  have t168 : (⟨S32, .f32⟩ : BufTy).Contents (Elt F) := shapeCast _ t167 shapeCasts_S32x1_S32
  have t169 : (⟨S32, .f32⟩ : BufTy).Contents (Elt F) := Host.negf t168
  have t170 : (⟨S32x1, .f32⟩ : BufTy).Contents (Elt F) := extractStridedSlice S32x1 ![0, 4] a slices_S32x5_S32x1_0_4
  have t171 : (⟨S32, .f32⟩ : BufTy).Contents (Elt F) := shapeCast _ t170 shapeCasts_S32x1_S32
  have t172 : (⟨S32, .f32⟩ : BufTy).Contents (Elt F) := Host.divf t169 t171
  have t173 : (⟨S_, .f32⟩ : BufTy).Contents (Elt F) := constant S_ .f32 0x40800000#32
  have t174 : (⟨S32, .f32⟩ : BufTy).Contents (Elt F) := broadcastInDim S32 ![] bcast_S_S32 t173
  have t175 : (⟨S32, .f32⟩ : BufTy).Contents (Elt F) := Host.divf t5 t174
  have t176 : (⟨S32, .f32⟩ : BufTy).Contents (Elt F) := mulf t172 t175
  have t177 : (⟨S32, .f32⟩ : BufTy).Contents (Elt F) := Host.exp t176
  have t178 : (⟨S32x1, .f32⟩ : BufTy).Contents (Elt F) := extractStridedSlice S32x1 ![0, 3] t132 slices_S32x5_S32x1_0_3
  have t179 : (⟨S32, .f32⟩ : BufTy).Contents (Elt F) := shapeCast _ t178 shapeCasts_S32x1_S32
  have t180 : (⟨S32, .f32⟩ : BufTy).Contents (Elt F) := mulf t179 t177
  have t181 : (⟨S32x1, .f32⟩ : BufTy).Contents (Elt F) := extractStridedSlice S32x1 ![0, 3] t166 slices_S32x5_S32x1_0_3
  have t182 : (⟨S32, .f32⟩ : BufTy).Contents (Elt F) := shapeCast _ t181 shapeCasts_S32x1_S32
  have t183 : (⟨S_, .f32⟩ : BufTy).Contents (Elt F) := constant S_ .f32 0x40000000#32
  have t184 : (⟨S32, .f32⟩ : BufTy).Contents (Elt F) := broadcastInDim S32 ![] bcast_S_S32 t183
  have t185 : (⟨S32, .f32⟩ : BufTy).Contents (Elt F) := Host.divf t5 t184
  have t186 : (⟨S32, .f32⟩ : BufTy).Contents (Elt F) := mulf t182 t185
  have t187 : (⟨S32, .f32⟩ : BufTy).Contents (Elt F) := addf t180 t186
  have t188 : (⟨S32, .f32⟩ : BufTy).Contents (Elt F) := mulf t187 t177
  have t189 : (⟨S_, .i32⟩ : BufTy).Contents (Elt F) := constantI S_ 32 3#32
  have t190 : (⟨S1, .i32⟩ : BufTy).Contents (Elt F) := broadcastInDim S1 ![] bcast_S_S1 t189
  have t191 : (⟨S32x5, .f32⟩ : BufTy).Contents (Elt F) := Host.scatter scatter_S32x5_S1_S32_0_1_1_0 (fun _ b => b) t132 t190 t188
  have t192 : (⟨S32x1, .f32⟩ : BufTy).Contents (Elt F) := extractStridedSlice S32x1 ![0, 3] t191 slices_S32x5_S32x1_0_3
  have t193 : (⟨S32, .f32⟩ : BufTy).Contents (Elt F) := shapeCast _ t192 shapeCasts_S32x1_S32
  have t194 : (⟨S32, .f32⟩ : BufTy).Contents (Elt F) := Host.negf t193
  have t195 : (⟨S32x1, .f32⟩ : BufTy).Contents (Elt F) := extractStridedSlice S32x1 ![0, 3] a slices_S32x5_S32x1_0_3
  have t196 : (⟨S32, .f32⟩ : BufTy).Contents (Elt F) := shapeCast _ t195 shapeCasts_S32x1_S32
  have t197 : (⟨S32, .f32⟩ : BufTy).Contents (Elt F) := Host.divf t194 t196
  have t198 : (⟨S_, .f32⟩ : BufTy).Contents (Elt F) := constant S_ .f32 0x40800000#32
  have t199 : (⟨S32, .f32⟩ : BufTy).Contents (Elt F) := broadcastInDim S32 ![] bcast_S_S32 t198
  have t200 : (⟨S32, .f32⟩ : BufTy).Contents (Elt F) := Host.divf t5 t199
  have t201 : (⟨S32, .f32⟩ : BufTy).Contents (Elt F) := mulf t197 t200
  have t202 : (⟨S32, .f32⟩ : BufTy).Contents (Elt F) := Host.exp t201
  have t203 : (⟨S32x1, .f32⟩ : BufTy).Contents (Elt F) := extractStridedSlice S32x1 ![0, 2] t191 slices_S32x5_S32x1_0_2
  have t204 : (⟨S32, .f32⟩ : BufTy).Contents (Elt F) := shapeCast _ t203 shapeCasts_S32x1_S32
  have t205 : (⟨S32, .f32⟩ : BufTy).Contents (Elt F) := mulf t204 t202
  have t206 : (⟨S32x1, .f32⟩ : BufTy).Contents (Elt F) := extractStridedSlice S32x1 ![0, 2] t166 slices_S32x5_S32x1_0_2
  have t207 : (⟨S32, .f32⟩ : BufTy).Contents (Elt F) := shapeCast _ t206 shapeCasts_S32x1_S32
  have t208 : (⟨S_, .f32⟩ : BufTy).Contents (Elt F) := constant S_ .f32 0x40000000#32
  have t209 : (⟨S32, .f32⟩ : BufTy).Contents (Elt F) := broadcastInDim S32 ![] bcast_S_S32 t208
  have t210 : (⟨S32, .f32⟩ : BufTy).Contents (Elt F) := Host.divf t5 t209
  have t211 : (⟨S32, .f32⟩ : BufTy).Contents (Elt F) := mulf t207 t210
  have t212 : (⟨S32, .f32⟩ : BufTy).Contents (Elt F) := addf t205 t211
  have t213 : (⟨S32, .f32⟩ : BufTy).Contents (Elt F) := mulf t212 t202
  have t214 : (⟨S_, .i32⟩ : BufTy).Contents (Elt F) := constantI S_ 32 2#32
  have t215 : (⟨S1, .i32⟩ : BufTy).Contents (Elt F) := broadcastInDim S1 ![] bcast_S_S1 t214
  have t216 : (⟨S32x5, .f32⟩ : BufTy).Contents (Elt F) := Host.scatter scatter_S32x5_S1_S32_0_1_1_0 (fun _ b => b) t191 t215 t213
  have t217 : (⟨S32x1, .f32⟩ : BufTy).Contents (Elt F) := extractStridedSlice S32x1 ![0, 2] t216 slices_S32x5_S32x1_0_2
  have t218 : (⟨S32, .f32⟩ : BufTy).Contents (Elt F) := shapeCast _ t217 shapeCasts_S32x1_S32
  have t219 : (⟨S32, .f32⟩ : BufTy).Contents (Elt F) := Host.negf t218
  have t220 : (⟨S32x1, .f32⟩ : BufTy).Contents (Elt F) := extractStridedSlice S32x1 ![0, 2] a slices_S32x5_S32x1_0_2
  have t221 : (⟨S32, .f32⟩ : BufTy).Contents (Elt F) := shapeCast _ t220 shapeCasts_S32x1_S32
  have t222 : (⟨S32, .f32⟩ : BufTy).Contents (Elt F) := Host.divf t219 t221
  have t223 : (⟨S_, .f32⟩ : BufTy).Contents (Elt F) := constant S_ .f32 0x40800000#32
  have t224 : (⟨S32, .f32⟩ : BufTy).Contents (Elt F) := broadcastInDim S32 ![] bcast_S_S32 t223
  have t225 : (⟨S32, .f32⟩ : BufTy).Contents (Elt F) := Host.divf t5 t224
  have t226 : (⟨S32, .f32⟩ : BufTy).Contents (Elt F) := mulf t222 t225
  have t227 : (⟨S32, .f32⟩ : BufTy).Contents (Elt F) := Host.exp t226
  have t228 : (⟨S32x1, .f32⟩ : BufTy).Contents (Elt F) := extractStridedSlice S32x1 ![0, 1] t216 slices_S32x5_S32x1_0_1
  have t229 : (⟨S32, .f32⟩ : BufTy).Contents (Elt F) := shapeCast _ t228 shapeCasts_S32x1_S32
  have t230 : (⟨S32, .f32⟩ : BufTy).Contents (Elt F) := mulf t229 t227
  have t231 : (⟨S32x1, .f32⟩ : BufTy).Contents (Elt F) := extractStridedSlice S32x1 ![0, 1] t166 slices_S32x5_S32x1_0_1
  have t232 : (⟨S32, .f32⟩ : BufTy).Contents (Elt F) := shapeCast _ t231 shapeCasts_S32x1_S32
  have t233 : (⟨S_, .f32⟩ : BufTy).Contents (Elt F) := constant S_ .f32 0x40000000#32
  have t234 : (⟨S32, .f32⟩ : BufTy).Contents (Elt F) := broadcastInDim S32 ![] bcast_S_S32 t233
  have t235 : (⟨S32, .f32⟩ : BufTy).Contents (Elt F) := Host.divf t5 t234
  have t236 : (⟨S32, .f32⟩ : BufTy).Contents (Elt F) := mulf t232 t235
  have t237 : (⟨S32, .f32⟩ : BufTy).Contents (Elt F) := addf t230 t236
  have t238 : (⟨S32, .f32⟩ : BufTy).Contents (Elt F) := mulf t237 t227
  have t239 : (⟨S_, .i32⟩ : BufTy).Contents (Elt F) := constantI S_ 32 1#32
  have t240 : (⟨S1, .i32⟩ : BufTy).Contents (Elt F) := broadcastInDim S1 ![] bcast_S_S1 t239
  have t241 : (⟨S32x5, .f32⟩ : BufTy).Contents (Elt F) := Host.scatter scatter_S32x5_S1_S32_0_1_1_0 (fun _ b => b) t216 t240 t238
  have t242 : (⟨S32x1, .f32⟩ : BufTy).Contents (Elt F) := extractStridedSlice S32x1 ![0, 1] t241 slices_S32x5_S32x1_0_1
  have t243 : (⟨S32, .f32⟩ : BufTy).Contents (Elt F) := shapeCast _ t242 shapeCasts_S32x1_S32
  have t244 : (⟨S32, .f32⟩ : BufTy).Contents (Elt F) := Host.negf t243
  have t245 : (⟨S32x1, .f32⟩ : BufTy).Contents (Elt F) := extractStridedSlice S32x1 ![0, 1] a slices_S32x5_S32x1_0_1
  have t246 : (⟨S32, .f32⟩ : BufTy).Contents (Elt F) := shapeCast _ t245 shapeCasts_S32x1_S32
  have t247 : (⟨S32, .f32⟩ : BufTy).Contents (Elt F) := Host.divf t244 t246
  have t248 : (⟨S_, .f32⟩ : BufTy).Contents (Elt F) := constant S_ .f32 0x40800000#32
  have t249 : (⟨S32, .f32⟩ : BufTy).Contents (Elt F) := broadcastInDim S32 ![] bcast_S_S32 t248
  have t250 : (⟨S32, .f32⟩ : BufTy).Contents (Elt F) := Host.divf t5 t249
  have t251 : (⟨S32, .f32⟩ : BufTy).Contents (Elt F) := mulf t247 t250
  have t252 : (⟨S32, .f32⟩ : BufTy).Contents (Elt F) := Host.exp t251
  have t253 : (⟨S32x1, .f32⟩ : BufTy).Contents (Elt F) := extractStridedSlice S32x1 ![0, 0] t241 slices_S32x5_S32x1_0_0
  have t254 : (⟨S32, .f32⟩ : BufTy).Contents (Elt F) := shapeCast _ t253 shapeCasts_S32x1_S32
  have t255 : (⟨S32, .f32⟩ : BufTy).Contents (Elt F) := mulf t254 t252
  have t256 : (⟨S32x1, .f32⟩ : BufTy).Contents (Elt F) := extractStridedSlice S32x1 ![0, 0] t166 slices_S32x5_S32x1_0_0
  have t257 : (⟨S32, .f32⟩ : BufTy).Contents (Elt F) := shapeCast _ t256 shapeCasts_S32x1_S32
  have t258 : (⟨S_, .f32⟩ : BufTy).Contents (Elt F) := constant S_ .f32 0x40000000#32
  have t259 : (⟨S32, .f32⟩ : BufTy).Contents (Elt F) := broadcastInDim S32 ![] bcast_S_S32 t258
  have t260 : (⟨S32, .f32⟩ : BufTy).Contents (Elt F) := Host.divf t5 t259
  have t261 : (⟨S32, .f32⟩ : BufTy).Contents (Elt F) := mulf t257 t260
  have t262 : (⟨S32, .f32⟩ : BufTy).Contents (Elt F) := addf t255 t261
  have t263 : (⟨S32, .f32⟩ : BufTy).Contents (Elt F) := mulf t262 t252
  have t264 : (⟨S_, .i32⟩ : BufTy).Contents (Elt F) := constantI S_ 32 0#32
  have t265 : (⟨S1, .i32⟩ : BufTy).Contents (Elt F) := broadcastInDim S1 ![] bcast_S_S1 t264
  have t266 : (⟨S32x5, .f32⟩ : BufTy).Contents (Elt F) := Host.scatter scatter_S32x5_S1_S32_0_1_1_0 (fun _ b => b) t241 t265 t263
  have t267 : (⟨S32x1, .f32⟩ : BufTy).Contents (Elt F) := extractStridedSlice S32x1 ![0, 4] t166 slices_S32x5_S32x1_0_4
  have t268 : (⟨S32, .f32⟩ : BufTy).Contents (Elt F) := shapeCast _ t267 shapeCasts_S32x1_S32
  have t269 : (⟨S_, .f32⟩ : BufTy).Contents (Elt F) := constant S_ .f32 0x40000000#32
  have t270 : (⟨S32, .f32⟩ : BufTy).Contents (Elt F) := broadcastInDim S32 ![] bcast_S_S32 t269
  have t271 : (⟨S32, .f32⟩ : BufTy).Contents (Elt F) := Host.divf t5 t270
  have t272 : (⟨S32, .f32⟩ : BufTy).Contents (Elt F) := mulf t268 t271
  have t273 : (⟨S_, .i32⟩ : BufTy).Contents (Elt F) := constantI S_ 32 4#32
  have t274 : (⟨S1, .i32⟩ : BufTy).Contents (Elt F) := broadcastInDim S1 ![] bcast_S_S1 t273
  have t275 : (⟨S32x5, .f32⟩ : BufTy).Contents (Elt F) := Host.scatter scatter_S32x5_S1_S32_0_1_1_0 FloatOps.addf t266 t274 t272
  { mom := t148, pos := t137, q := t275 }

/-- The fourteen weights, in order. -/
def weights : List (BitVec 32) := [0x3F48D5E2#32, 0x3E713A1B#32, 0xBF96BE38#32, 0x3FA85806#32, 0xBF96BE38#32, 0x3E713A1B#32, 0x3F48D5E2#32, 0x3F48D5E2#32, 0x3E713A1B#32, 0xBF96BE38#32, 0x3FA85806#32, 0xBF96BE38#32, 0x3E713A1B#32, 0x3F48D5E2#32]

end Cert.ReferenceIdeal.Chain

end
-- ==== Proof.RGlue.lean ====

/-
  The reference's run names the arrays its later operations read more than once.  After substep k the particle momenta, the
  chain positions and the chain momenta are three of those arrays (the positions a sum the run states inline); this module
  says which, substep by substep, so that the run's three results are the three components of the state after the fourteenth
  substep of the array-level recurrence.
-/
import proofs.«138430_j46600395162250_2_alg».proof.Proof.RefRun1
import proofs.«138430_j46600395162250_2_alg».proof.Proof.RStep
import proofs.«138430_j46600395162250_2_alg».proof.Proof.Weights
import Idealize.ShloMosaic.Lib.Tactic

set_option maxRecDepth 65536

noncomputable section

namespace Cert.ReferenceIdeal.Chain

open Idealize.ShloMosaic Idealize.SL.Sem Cert.ReferenceIdeal Cert.ReferenceIdeal.Gen Cert.ReferenceIdeal.Value Cert.NHC Idealize.ShloMosaic.Tactic

variable {F : FTy → Type} [FloatOps F]

variable (V0 : Valuation τ sig (Elt F))

/-- The state after k substeps of the array-level recurrence, from the arguments' contents. -/
def iterV : ℕ → RSt F
  | 0 => ⟨V0 (Proc.devRef .tc main_arg1), V0 (Proc.devRef .tc main_arg5), V0 (Proc.devRef .tc main_arg6)⟩
  | k + 1 => rstepV (wAt k) (V0 (Proc.devRef .tc main_arg8)) (V0 (Proc.devRef .tc main_arg4)) (V0 (Proc.devRef .tc main_arg3))
      (V0 (Proc.devRef .tc main_arg2)) (V0 (Proc.devRef .tc main_arg7)) (iterV k)

theorem iterV_succ (k : ℕ) : iterV V0 (k + 1) = rstepV (wAt k) (V0 (Proc.devRef .tc main_arg8)) (V0 (Proc.devRef .tc main_arg4))
    (V0 (Proc.devRef .tc main_arg3)) (V0 (Proc.devRef .tc main_arg2)) (V0 (Proc.devRef .tc main_arg7)) (iterV V0 k) := rfl

theorem iter_0 : iterV V0 0 = ⟨V0 (Proc.devRef .tc main_arg1), V0 (Proc.devRef .tc main_arg5), V0 (Proc.devRef .tc main_arg6)⟩ := rfl

/-- After substep 1. -/
theorem iter_1 : iterV V0 1 = ⟨(res_main_v130 V0), (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))), (res_main_v241 V0)⟩ := by
  rw [iterV_succ, iter_0]; sl_kernel_rfl

/-- After substep 2. -/
theorem iter_2 : iterV V0 2 = ⟨(res_main_v372 V0), (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))), (res_main_v483 V0)⟩ := by
  rw [iterV_succ, iter_1]; sl_kernel_rfl

/-- After substep 3. -/
theorem iter_3 : iterV V0 3 = ⟨(res_main_v614 V0), (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))), (res_main_v725 V0)⟩ := by
  rw [iterV_succ, iter_2]; sl_kernel_rfl

/-- After substep 4. -/
theorem iter_4 : iterV V0 4 = ⟨(res_main_v856 V0), (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))), (res_main_v967 V0)⟩ := by
  rw [iterV_succ, iter_3]; sl_kernel_rfl

/-- After substep 5. -/
theorem iter_5 : iterV V0 5 = ⟨(res_main_v1098 V0), (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))), (res_main_v1209 V0)⟩ := by
  rw [iterV_succ, iter_4]; sl_kernel_rfl

/-- After substep 6. -/
theorem iter_6 : iterV V0 6 = ⟨(res_main_v1340 V0), (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))), (res_main_v1451 V0)⟩ := by
  rw [iterV_succ, iter_5]; sl_kernel_rfl

/-- After substep 7. -/
theorem iter_7 : iterV V0 7 = ⟨(res_main_v1582 V0), (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))), (res_main_v1693 V0)⟩ := by
  rw [iterV_succ, iter_6]; sl_kernel_rfl

/-- After substep 8. -/
theorem iter_8 : iterV V0 8 = ⟨(res_main_v1824 V0), (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))), (res_main_v1935 V0)⟩ := by
  rw [iterV_succ, iter_7]; sl_kernel_rfl

/-- After substep 9. -/
theorem iter_9 : iterV V0 9 = ⟨(res_main_v2066 V0), (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))), (res_main_v2177 V0)⟩ := by
  rw [iterV_succ, iter_8]; sl_kernel_rfl

/-- After substep 10. -/
theorem iter_10 : iterV V0 10 = ⟨(res_main_v2308 V0), (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))), (res_main_v2419 V0)⟩ := by
  rw [iterV_succ, iter_9]; sl_kernel_rfl

/-- After substep 11. -/
theorem iter_11 : iterV V0 11 = ⟨(res_main_v2550 V0), (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0))))), (res_main_v2661 V0)⟩ := by
  rw [iterV_succ, iter_10]; sl_kernel_rfl

/-- After substep 12. -/
theorem iter_12 : iterV V0 12 = ⟨(res_main_v2792 V0), (addf (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0))))) (mulf (Host.divf (res_main_v2776 V0) (V0 (Proc.devRef .tc main_arg7))) (broadcastInDim S32x5 ![0, 1] bcast_S32x1_S32x5_0_1 (broadcastInDim S32x1 ![0] bcast_S32_S32x1_0 (res_main_v2665 V0))))), (res_main_v2903 V0)⟩ := by
  rw [iterV_succ, iter_11]; sl_kernel_rfl

/-- After substep 13. -/
theorem iter_13 : iterV V0 13 = ⟨(res_main_v3034 V0), (addf (addf (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0))))) (mulf (Host.divf (res_main_v2776 V0) (V0 (Proc.devRef .tc main_arg7))) (broadcastInDim S32x5 ![0, 1] bcast_S32x1_S32x5_0_1 (broadcastInDim S32x1 ![0] bcast_S32_S32x1_0 (res_main_v2665 V0))))) (mulf (Host.divf (res_main_v3018 V0) (V0 (Proc.devRef .tc main_arg7))) (broadcastInDim S32x5 ![0, 1] bcast_S32x1_S32x5_0_1 (broadcastInDim S32x1 ![0] bcast_S32_S32x1_0 (res_main_v2907 V0))))), (res_main_v3145 V0)⟩ := by
  rw [iterV_succ, iter_12]; sl_kernel_rfl

/-- The run's first result is the particle momenta after the last substep. -/
theorem fin_mom : (iterV V0 14).mom = res_main_v3276 V0 := by
  rw [iterV_succ, iter_13]; sl_kernel_rfl

/-- The run's second result, stated inline there, is the chain positions after the last substep. -/
theorem fin_pos : (iterV V0 14).pos = addf (addf (addf (addf (addf (addf (addf (addf (addf (addf (addf (addf (addf (addf (V0 (Proc.devRef .tc main_arg5)) (mulf (Host.divf (res_main_v114 V0) (V0 (Proc.devRef .tc main_arg7))) (broadcastInDim S32x5 ![0, 1] bcast_S32x1_S32x5_0_1 (broadcastInDim S32x1 ![0] bcast_S32_S32x1_0 (res_main_v3 V0))))) (mulf (Host.divf (res_main_v356 V0) (V0 (Proc.devRef .tc main_arg7))) (broadcastInDim S32x5 ![0, 1] bcast_S32x1_S32x5_0_1 (broadcastInDim S32x1 ![0] bcast_S32_S32x1_0 (res_main_v245 V0))))) (mulf (Host.divf (res_main_v598 V0) (V0 (Proc.devRef .tc main_arg7))) (broadcastInDim S32x5 ![0, 1] bcast_S32x1_S32x5_0_1 (broadcastInDim S32x1 ![0] bcast_S32_S32x1_0 (res_main_v487 V0))))) (mulf (Host.divf (res_main_v840 V0) (V0 (Proc.devRef .tc main_arg7))) (broadcastInDim S32x5 ![0, 1] bcast_S32x1_S32x5_0_1 (broadcastInDim S32x1 ![0] bcast_S32_S32x1_0 (res_main_v729 V0))))) (mulf (Host.divf (res_main_v1082 V0) (V0 (Proc.devRef .tc main_arg7))) (broadcastInDim S32x5 ![0, 1] bcast_S32x1_S32x5_0_1 (broadcastInDim S32x1 ![0] bcast_S32_S32x1_0 (res_main_v971 V0))))) (mulf (Host.divf (res_main_v1324 V0) (V0 (Proc.devRef .tc main_arg7))) (broadcastInDim S32x5 ![0, 1] bcast_S32x1_S32x5_0_1 (broadcastInDim S32x1 ![0] bcast_S32_S32x1_0 (res_main_v1213 V0))))) (mulf (Host.divf (res_main_v1566 V0) (V0 (Proc.devRef .tc main_arg7))) (broadcastInDim S32x5 ![0, 1] bcast_S32x1_S32x5_0_1 (broadcastInDim S32x1 ![0] bcast_S32_S32x1_0 (res_main_v1455 V0))))) (mulf (Host.divf (res_main_v1808 V0) (V0 (Proc.devRef .tc main_arg7))) (broadcastInDim S32x5 ![0, 1] bcast_S32x1_S32x5_0_1 (broadcastInDim S32x1 ![0] bcast_S32_S32x1_0 (res_main_v1697 V0))))) (mulf (Host.divf (res_main_v2050 V0) (V0 (Proc.devRef .tc main_arg7))) (broadcastInDim S32x5 ![0, 1] bcast_S32x1_S32x5_0_1 (broadcastInDim S32x1 ![0] bcast_S32_S32x1_0 (res_main_v1939 V0))))) (mulf (Host.divf (res_main_v2292 V0) (V0 (Proc.devRef .tc main_arg7))) (broadcastInDim S32x5 ![0, 1] bcast_S32x1_S32x5_0_1 (broadcastInDim S32x1 ![0] bcast_S32_S32x1_0 (res_main_v2181 V0))))) (mulf (Host.divf (res_main_v2534 V0) (V0 (Proc.devRef .tc main_arg7))) (broadcastInDim S32x5 ![0, 1] bcast_S32x1_S32x5_0_1 (broadcastInDim S32x1 ![0] bcast_S32_S32x1_0 (res_main_v2423 V0))))) (mulf (Host.divf (res_main_v2776 V0) (V0 (Proc.devRef .tc main_arg7))) (broadcastInDim S32x5 ![0, 1] bcast_S32x1_S32x5_0_1 (broadcastInDim S32x1 ![0] bcast_S32_S32x1_0 (res_main_v2665 V0))))) (mulf (Host.divf (res_main_v3018 V0) (V0 (Proc.devRef .tc main_arg7))) (broadcastInDim S32x5 ![0, 1] bcast_S32x1_S32x5_0_1 (broadcastInDim S32x1 ![0] bcast_S32_S32x1_0 (res_main_v2907 V0))))) (mulf (Host.divf (res_main_v3260 V0) (V0 (Proc.devRef .tc main_arg7))) (broadcastInDim S32x5 ![0, 1] bcast_S32x1_S32x5_0_1 (broadcastInDim S32x1 ![0] bcast_S32_S32x1_0 (res_main_v3149 V0)))) := by
  rw [iterV_succ, iter_13]; sl_kernel_rfl

/-- The run's third result, stated inline there, is the chain momenta after the last substep. -/
theorem fin_q : (iterV V0 14).q = Host.scatter scatter_S32x5_S1_S32_0_1_1_0 FloatOps.addf (Host.scatter scatter_S32x5_S1_S32_0_1_1_0 (fun _ b => b) (res_main_v3358 V0) (broadcastInDim S1 ![] bcast_S_S1 (constantI S_ 32 0#32)) (mulf (addf (mulf (shapeCast _ (extractStridedSlice S32x1 ![0, 0] (res_main_v3358 V0) slices_S32x5_S32x1_0_0) shapeCasts_S32x1_S32) (res_main_v3368 V0)) (mulf (shapeCast _ (extractStridedSlice S32x1 ![0, 0] (res_main_v3292 V0) slices_S32x5_S32x1_0_0) shapeCasts_S32x1_S32) (Host.divf (res_main_v3149 V0) (broadcastInDim S32 ![] bcast_S_S32 (constant S_ .f32 0x40000000#32))))) (res_main_v3368 V0))) (broadcastInDim S1 ![] bcast_S_S1 (constantI S_ 32 4#32)) (mulf (shapeCast _ (extractStridedSlice S32x1 ![0, 4] (res_main_v3292 V0) slices_S32x5_S32x1_0_4) shapeCasts_S32x1_S32) (Host.divf (res_main_v3149 V0) (broadcastInDim S32 ![] bcast_S_S32 (constant S_ .f32 0x40000000#32)))) := by
  rw [iterV_succ, iter_13]; sl_kernel_rfl

end Cert.ReferenceIdeal.Chain

end
-- ==== Proof.RStepRealA.lean ====
/-
  Reading the arrays of one substep at an index.  Each layout operation the substep uses (a scalar broadcast, a row
  broadcast along the chain or the particles, a column cut out and flattened, the two-piece concatenation, the write of
  one column, the sum over the particles) is read at one index; the float operations at coerced reals are the real
  operations; the literal words are the reals 2, 4, 393216 and 0.
-/
import proofs.«138430_j46600395162250_2_alg».proof.Proof.RStep
import Idealize.ShloMosaic.PureOps.Ideal
import Idealize.ShloMosaic.PureOps.Ideal.Laws
import Idealize.ShloMosaic.Lib.ValueIdx
import Idealize.ShloMosaic.Lib.ValueIdxCoords
import Idealize.ShloMosaic.Lib.IdealHost
import Idealize.ShloMosaic.Lib.Pipeline.Value

noncomputable section

namespace Cert.ReferenceIdeal.Chain

open Idealize.ShloMosaic Idealize.ShloMosaic.ValueIdx Cert.ReferenceIdeal

/-! ## Layout operations at an index -/

section Reads
variable {α : Type}

/-- A scalar broadcast to any shape reads the scalar. -/
theorem bcastS_apply {T : Shape} (h : S_.BroadcastsInDim T ![]) (x : S_.Idx → α) (j : T.Idx) :
    broadcastInDim T ![] h x j = x ix0 := broadcastInDim_scalar_apply h x j

/-- A vector over the rows as a one-column matrix. -/
theorem bcast_row1_apply (h : S32.BroadcastsInDim S32x1 ![0]) (v : S32.Idx → α) (b : Fin 32) (u : Fin 1) :
    broadcastInDim S32x1 ![0] h v (ix2 b u) = v (ix1 b) :=
  broadcastInDim_apply _ h v _ _ (fun a => by match a with | ⟨0, _⟩ => rfl)

/-- A one-column matrix repeated along m columns. -/
theorem bcast_col_apply {m : Nat} (h : S32x1.BroadcastsInDim ⟨2, ![32, m]⟩ ![0, 1]) (v : S32x1.Idx → α) (b : Fin 32) (c : Fin m) :
    broadcastInDim ⟨2, ![32, m]⟩ ![0, 1] h v (ix2 b c) = v (ix2 b 0) :=
  broadcastInDim_apply _ h v _ _ (fun a => by match a with | ⟨0, _⟩ => rfl | ⟨1, _⟩ => rfl)

/-- The masses, one per particle, repeated along the three coordinates. -/
theorem bcast_mas_apply (h₁ : S32x131072.BroadcastsInDim S32x131072x1 ![0, 1])
    (h₂ : S32x131072x1.BroadcastsInDim S32x131072x3 ![0, 1, 2]) (v : S32x131072.Idx → α) (b : Fin 32) (n : Fin 131072) (k : Fin 3) :
    broadcastInDim S32x131072x3 ![0, 1, 2] h₂ (broadcastInDim S32x131072x1 ![0, 1] h₁ v) (ix3 b n k) = v (ix2 b n) := by
  refine (broadcastInDim_apply _ h₂ _ _ (ix3 b n (0 : Fin 1)) (fun a => by
    match a with | ⟨0, _⟩ => rfl | ⟨1, _⟩ => rfl | ⟨2, _⟩ => rfl)).trans ?_
  exact broadcastInDim_apply _ h₁ v _ _ (fun a => by match a with | ⟨0, _⟩ => rfl | ⟨1, _⟩ => rfl)

/-- A vector over the rows repeated along all particles and coordinates. -/
theorem bcast_row3_apply (h₁ : S32.BroadcastsInDim S32x1x1 ![0])
    (h₂ : S32x1x1.BroadcastsInDim S32x131072x3 ![0, 1, 2]) (v : S32.Idx → α) (b : Fin 32) (n : Fin 131072) (k : Fin 3) :
    broadcastInDim S32x131072x3 ![0, 1, 2] h₂ (broadcastInDim S32x1x1 ![0] h₁ v) (ix3 b n k) = v (ix1 b) := by
  refine (broadcastInDim_apply _ h₂ _ _ (ix3 b (0 : Fin 1) (0 : Fin 1)) (fun a => by
    match a with | ⟨0, _⟩ => rfl | ⟨1, _⟩ => rfl | ⟨2, _⟩ => rfl)).trans ?_
  exact broadcastInDim_apply _ h₁ v _ _ (fun a => by match a with | ⟨0, _⟩ => rfl)

/-- Column j of a 32 × 5 matrix, cut out and flattened to a vector over the rows. -/
theorem col_apply (j : Nat) (hj : j < 5) (hs : S32x5.Slices ![0, j] S32x1) (hc : S32x1.ShapeCasts S32) (x : S32x5.Idx → α)
    (b : Fin 32) :
    shapeCast S32 (extractStridedSlice S32x1 ![0, j] x hs) hc (ix1 b) = x (ix2 b ⟨j, hj⟩) := by
  refine (shapeCast_apply _ hc (ix1 b) (ix2 b (0 : Fin 1)) ?_).trans ?_
  · rw [Shape.rowMajor_val_two, Shape.rowMajor_val_one]
    show b.val * 1 + 0 = b.val
    omega
  · exact extractStridedSlice_apply _ x hs _ _ (fun a => by
      match a with
      | ⟨0, _⟩ => exact (Nat.zero_add _).symm
      | ⟨1, _⟩ => rfl)

/-- The first four columns. -/
theorem cols4_apply (hs : S32x5.Slices ![0, 0] S32x4) (x : S32x5.Idx → α) (b : Fin 32) (c : Fin 4) :
    extractStridedSlice S32x4 ![0, 0] x hs (ix2 b c) = x (ix2 b c.castSucc) :=
  extractStridedSlice_apply _ x hs _ _ (fun a => by
    match a with
    | ⟨0, _⟩ => exact (Nat.zero_add _).symm
    | ⟨1, _⟩ => exact (Nat.zero_add _).symm)

/-- One column followed by four: column 0 is the first piece. -/
theorem concat_zero_apply (h : Shape.Concatenates [S32x1, S32x4] S32x5 1) (x₁ : S32x1.Idx → α) (x₂ : S32x4.Idx → α) (b : Fin 32) :
    concatenate S32x5 1 [⟨S32x1, x₁⟩, ⟨S32x4, x₂⟩] h (ix2 b 0) = x₁ (ix2 b 0) :=
  concatenate_pair_apply_left 1 x₁ x₂ h _ rfl _ (fun a => by match a with | ⟨0, _⟩ => rfl | ⟨1, _⟩ => rfl)

/-- One column followed by four: column c + 1 is column c of the second piece. -/
theorem concat_succ_apply (h : Shape.Concatenates [S32x1, S32x4] S32x5 1) (x₁ : S32x1.Idx → α) (x₂ : S32x4.Idx → α) (b : Fin 32)
    (c : Fin 4) :
    concatenate S32x5 1 [⟨S32x1, x₁⟩, ⟨S32x4, x₂⟩] h (ix2 b c.succ) = x₂ (ix2 b c) :=
  concatenate_pair_apply_right 1 x₁ x₂ h _ rfl rfl _
    (fun a ha => by
      match a with
      | ⟨0, _⟩ => rfl
      | ⟨1, _⟩ => exact absurd rfl ha)
    (by show c.val + 1 = c.val + 1; rfl)

end Reads

/-! ## The write of one column -/

section Scatter
variable {α : Type}

/-- A left fold of writes, each at one position: a position no write names keeps its value. -/
theorem foldl_write_miss {ι κ : Type} [DecidableEq ι] (p : κ → ι) (f : α → α → α) (v : κ → α) (i : ι) :
    ∀ (l : List κ) (x : ι → α), (∀ n ∈ l, p n ≠ i) →
      (l.foldl (fun r n => fun i' => if i' = p n then f (r (p n)) (v n) else r i') x) i = x i
  | [], _, _ => rfl
  | n :: l, x, h => by
    rw [List.foldl_cons, foldl_write_miss p f v i l _ (fun m hm => h m (List.mem_cons_of_mem _ hm))]
    exact if_neg (fun e => h n List.mem_cons_self e.symm)

/-- A left fold of writes at pairwise distinct positions: the position write n₀ names holds the body applied to
    its old value and that write's value. -/
theorem foldl_write_hit {ι κ : Type} [DecidableEq ι] (p : κ → ι) (hp : Function.Injective p) (f : α → α → α) (v : κ → α) (n₀ : κ) :
    ∀ (l : List κ) (x : ι → α), l.Nodup → n₀ ∈ l →
      (l.foldl (fun r n => fun i' => if i' = p n then f (r (p n)) (v n) else r i') x) (p n₀) = f (x (p n₀)) (v n₀)
  | [], _, _, h => absurd h List.not_mem_nil
  | n :: l, x, hnd, h => by
    rw [List.foldl_cons]
    rcases List.mem_cons.1 h with e | hm
    · subst e
      rw [foldl_write_miss p f v (p n₀) l _ (fun m hm e => (List.nodup_cons.1 hnd).1 (hp e ▸ hm))]
      exact if_pos rfl
    · rw [foldl_write_hit p hp f v n₀ l _ (List.nodup_cons.1 hnd).2 hm]
      have hne : p n₀ ≠ p n := fun e => (List.nodup_cons.1 hnd).1 (hp e ▸ hm)
      rw [if_neg hne]

/-- A scatter every update of which lands inside the operand, at pairwise distinct positions, is that fold. -/
theorem scatter_eq_foldl {s si u : Shape} {w : Nat} (d : ScatterDims s si u) (f : α → α → α) (x : s.Idx → α) (idx : IVec si w)
    (upd : u.Idx → α) (P : u.Idx → s.Idx) (hP : ∀ j, d.resultIdx? j idx = some (P j)) :
    Host.scatter d f x idx upd
      = (List.finRange u.numel).foldl (fun r n => fun i' =>
          if i' = P (u.rowMajor.symm n) then f (r (P (u.rowMajor.symm n))) (upd (u.rowMajor.symm n)) else r i') x := by
  unfold Host.scatter
  simp only [hP]

theorem scatter_hit {s si u : Shape} {w : Nat} (d : ScatterDims s si u) (f : α → α → α) (x : s.Idx → α) (idx : IVec si w)
    (upd : u.Idx → α) (P : u.Idx → s.Idx) (hP : ∀ j, d.resultIdx? j idx = some (P j)) (hinj : Function.Injective P) (j : u.Idx) :
    Host.scatter d f x idx upd (P j) = f (x (P j)) (upd j) := by
  rw [scatter_eq_foldl d f x idx upd P hP]
  have h := foldl_write_hit (fun n => P (u.rowMajor.symm n)) (fun a b e => u.rowMajor.symm.injective (hinj e)) f
    (fun n => upd (u.rowMajor.symm n)) (u.rowMajor j) (List.finRange u.numel) x (List.nodup_finRange _) (List.mem_finRange _)
  simp only [Equiv.symm_apply_apply] at h
  exact h

theorem scatter_miss {s si u : Shape} {w : Nat} (d : ScatterDims s si u) (f : α → α → α) (x : s.Idx → α) (idx : IVec si w)
    (upd : u.Idx → α) (P : u.Idx → s.Idx) (hP : ∀ j, d.resultIdx? j idx = some (P j)) (i : s.Idx) (hi : ∀ j, P j ≠ i) :
    Host.scatter d f x idx upd i = x i := by
  rw [scatter_eq_foldl d f x idx upd P hP]
  exact foldl_write_miss (fun n => P (u.rowMajor.symm n)) f (fun n => upd (u.rowMajor.symm n)) i _ x (fun n _ => hi _)

variable [Facts]
open Facts₀ Facts

/-- With the one scatter index the column c, update b lands at row b, column c. -/
theorem resultIdx_col (idx : IVec S1 32) (c : Fin 5) (hidx : ∀ k, idx k = BitVec.ofNat 32 c.val) (j : S32.Idx) :
    scatter_S32x5_S1_S32_0_1_1_0.resultIdx? j idx = some (ix2 (j 0) c) := by
  have hc : ((BitVec.ofNat 32 c.val).toInt : Int) = (c.val : Int) := by
    have := c.isLt
    unfold BitVec.toInt
    rw [BitVec.toNat_ofNat]
    have e : c.val % 2 ^ 32 = c.val := Nat.mod_eq_of_lt (by omega)
    rw [e, if_pos (by omega)]
  have hs0 : scatter_S32x5_S1_S32_0_1_1_0.start j idx 0 = 0 := by
    unfold ScatterDims.start
    rw [dif_neg (by show (0 : Fin S32x5.rank) ∉ ([1] : List (Fin S32x5.rank)); decide)]
  have hs1 : scatter_S32x5_S1_S32_0_1_1_0.start j idx 1 = (c.val : Int) := by
    unfold ScatterDims.start
    rw [dif_pos (by show (1 : Fin S32x5.rank) ∈ ([1] : List (Fin S32x5.rank)); decide), hidx, hc]
  have hw0 : scatter_S32x5_S1_S32_0_1_1_0.window j 0 = (j 0).val := by
    unfold ScatterDims.window
    rw [dif_pos (by show (0 : Fin S32x5.rank) ∈ S32x5.kept [1]; decide)]; rfl
  have hw1 : scatter_S32x5_S1_S32_0_1_1_0.window j 1 = 0 := by
    unfold ScatterDims.window
    rw [dif_neg (by show (1 : Fin S32x5.rank) ∉ S32x5.kept [1]; decide)]
  have hj := (j 0).isLt
  have hcl := c.isLt
  unfold ScatterDims.resultIdx?
  rw [dif_pos (fun a => by
    match a with
    | ⟨0, _⟩ =>
      show 0 ≤ scatter_S32x5_S1_S32_0_1_1_0.start j idx 0 + ((scatter_S32x5_S1_S32_0_1_1_0.window j 0 : Nat) : Int)
        ∧ scatter_S32x5_S1_S32_0_1_1_0.start j idx 0 + ((scatter_S32x5_S1_S32_0_1_1_0.window j 0 : Nat) : Int) < ((32 : Nat) : Int)
      rw [hs0, hw0]
      have hj' : (j 0).val < 32 := hj
      exact ⟨by omega, by omega⟩
    | ⟨1, _⟩ =>
      show 0 ≤ scatter_S32x5_S1_S32_0_1_1_0.start j idx 1 + ((scatter_S32x5_S1_S32_0_1_1_0.window j 1 : Nat) : Int)
        ∧ scatter_S32x5_S1_S32_0_1_1_0.start j idx 1 + ((scatter_S32x5_S1_S32_0_1_1_0.window j 1 : Nat) : Int) < ((5 : Nat) : Int)
      rw [hs1, hw1]
      exact ⟨by omega, by omega⟩)]
  congr 1
  funext a
  match a with
  | ⟨0, _⟩ =>
    apply Fin.ext
    show (scatter_S32x5_S1_S32_0_1_1_0.start j idx 0 + ((scatter_S32x5_S1_S32_0_1_1_0.window j 0 : Nat) : Int)).toNat = (j 0).val
    rw [hs0, hw0]; omega
  | ⟨1, _⟩ =>
    apply Fin.ext
    show (scatter_S32x5_S1_S32_0_1_1_0.start j idx 1 + ((scatter_S32x5_S1_S32_0_1_1_0.window j 1 : Nat) : Int)).toNat = c.val
    rw [hs1, hw1]; omega

/-- The write of column c of a 32 × 5 matrix from a vector over the rows: column c holds the body applied to the old
    entry and the vector's, the other columns are kept. -/
theorem scatter_col_apply (f : α → α → α) (x : S32x5.Idx → α) (idx : IVec S1 32) (upd : S32.Idx → α) (c : Fin 5)
    (hidx : ∀ k, idx k = BitVec.ofNat 32 c.val) (b : Fin 32) (c' : Fin 5) :
    Host.scatter scatter_S32x5_S1_S32_0_1_1_0 f x idx upd (ix2 b c')
      = if c' = c then f (x (ix2 b c)) (upd (ix1 b)) else x (ix2 b c') := by
  have hP := resultIdx_col idx c hidx
  have hinj : Function.Injective (fun j : S32.Idx => (ix2 (j 0) c : S32x5.Idx)) := fun j j' e => by
    rw [eq_ix1 j, eq_ix1 j']
    exact congrArg ix1 (congrFun e 0)
  by_cases h : c' = c
  · subst h
    rw [if_pos rfl]
    exact scatter_hit _ f x idx upd (fun j : S32.Idx => (ix2 (j 0) c' : S32x5.Idx)) hP hinj (ix1 b)
  · rw [if_neg h]
    exact scatter_miss _ f x idx upd (fun j : S32.Idx => (ix2 (j 0) c : S32x5.Idx)) hP _ (fun j e => h (congrFun e 1).symm)

/-- The one-element index vector made from a literal column. -/
theorem idx_const_apply (h : S_.BroadcastsInDim S1 ![]) (wc : BitVec 32) (k : S1.Idx) :
    broadcastInDim S1 ![] h (constantI S_ 32 wc) k = wc := bcastS_apply h _ k

end Scatter

/-! ## The sum over the particles -/

section Reduce
open scoped BigOperators

/-- The sum over axes 1 and 2 of a 32 × 131072 × 3 array, at row b: the initial value plus the sum over the
    particles and their coordinates. -/
theorem reduce_apply (h : S32x131072x3.ReducesTo [1, 2] S32) (hu : 0 < S_.numel) (x : FVec Ideal S32x131072x3 .f32)
    (init : S_.Idx → Ideal .f32) (b : Fin 32) :
    Host.reduceAdd x init h hu (ix1 b) = init ix0 + ∑ p : Fin 131072 × Fin 3, x (ix3 b p.1 p.2) := by
  rw [hostReduceAdd_apply, eq_ix0 (Shape.Idx.first hu)]
  unfold Ideal.hostReduceAdd
  refine congrArg (fun z => init ix0 + z) ?_
  -- an index of the array is a row together with a particle and a coordinate
  let E : Fin 32 × (Fin 131072 × Fin 3) ≃ S32x131072x3.Idx :=
    { toFun := fun q => ix3 q.1 q.2.1 q.2.2
      invFun := fun i => (i 0, (i 1, i 2))
      left_inv := fun _ => rfl
      right_inv := fun i => (eq_ix3 i).symm }
  -- dropping axes 1 and 2 keeps the row
  have key : ∀ (b' : Fin 32) (p : Fin 131072 × Fin 3), h.drop (E (b', p)) = ix1 b ↔ b' = b := fun b' p => by
    constructor
    · intro e
      exact Fin.ext ((Shape.ReducesTo.drop_apply_val_of_eq h (E (b', p)) 0 0).symm.trans
        (congrArg (fun k : S32.Idx => (k 0).val) e))
    · rintro rfl
      funext a
      match a with
      | ⟨0, _⟩ => exact Fin.ext (Shape.ReducesTo.drop_apply_val_of_eq h _ 0 0)
  rw [Finset.sum_filter, ← Equiv.sum_comp E, Fintype.sum_prod_type, Finset.sum_eq_single b]
  · exact Finset.sum_congr rfl (fun p _ => if_pos ((key b p).2 rfl))
  · intro b' _ hb'
    exact Finset.sum_eq_zero (fun p _ => if_neg (fun e => hb' ((key b' p).1 e)))
  · intro hb
    exact absurd (Finset.mem_univ b) hb

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Reduce

/-! ## The literal words -/

theorem ofBits_two : Ideal.ofBits .f32 0x40000000#32 = ((2 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_dof : Ideal.ofBits .f32 0x48C00000#32 = ((393216 : ℝ) : EReal) := by
  simp [Ideal.ofBits, Ideal.ieee, -EReal.coe_mul]; norm_num

theorem ofBits_zero : Ideal.ofBits .f32 0x00000000#32 = ((0 : ℝ) : EReal) := by
  rw [Ideal.ofBits_zero_f32, EReal.coe_zero]

/-! ## The float operations at coerced reals -/

theorem div_real (x y : ℝ) (hy : y ≠ 0) : Ideal.div (x : EReal) (y : EReal) = ((x / y : ℝ) : EReal) := by
  rw [Ideal.div_coe hy, ← EReal.coe_mul, mul_one_div]

theorem exp_real (x : ℝ) : Ideal.exp (x : EReal) = ((Real.exp x : ℝ) : EReal) := rfl

/-! ## Arrays of coerced reals -/

/-- Every entry of v is the coerced real r gives at that index. -/
def IsR {s : Shape} (v : FVec Ideal s .f32) (r : s.Idx → ℝ) : Prop := ∀ i, v i = ((r i : ℝ) : EReal)

/-- A scalar that is a coerced real. -/
abbrev IsR0 (v : FVec Ideal S_ .f32) (x : ℝ) : Prop := IsR v (fun _ => x)
/-- A vector over the rows of coerced reals. -/
abbrev IsR1 (v : FVec Ideal S32 .f32) (x : Fin 32 → ℝ) : Prop := IsR v (fun i => x (i 0))
/-- A 32 × n matrix of coerced reals. -/
abbrev IsR2 {n : Nat} (v : FVec Ideal ⟨2, ![32, n]⟩ .f32) (m : Fin 32 → Fin n → ℝ) : Prop := IsR v (fun i => m (i 0) (i 1))
/-- The masses as coerced reals. -/
abbrev IsRm (v : FVec Ideal S32x131072 .f32) (x : Fin 32 → Fin 131072 → ℝ) : Prop := IsR v (fun i => x (i 0) (i 1))
/-- The particle momenta as coerced reals. -/
abbrev IsR3 (v : FVec Ideal S32x131072x3 .f32) (x : Fin 32 → Fin 131072 → Fin 3 → ℝ) : Prop := IsR v (fun i => x (i 0) (i 1) (i 2))

theorem isR1_iff {v : FVec Ideal S32 .f32} {x : Fin 32 → ℝ} : IsR1 v x ↔ ∀ b, v (ix1 b) = ((x b : ℝ) : EReal) :=
  ⟨fun h b => h (ix1 b), fun h i => by
    obtain ⟨b, rfl⟩ : ∃ b : Fin 32, i = ix1 b := ⟨i 0, eq_ix1 i⟩
    exact h b⟩

theorem isR2_iff {n : Nat} {v : FVec Ideal ⟨2, ![32, n]⟩ .f32} {m : Fin 32 → Fin n → ℝ} :
    IsR2 v m ↔ ∀ b c, v (ix2 b c) = ((m b c : ℝ) : EReal) :=
  ⟨fun h b c => h (ix2 b c), fun h i => by
    obtain ⟨b, c, rfl⟩ : ∃ (b : Fin 32) (c : Fin n), i = ix2 b c := ⟨i 0, i 1, eq_ix2 i⟩
    exact h b c⟩

theorem isRm_iff {v : FVec Ideal S32x131072 .f32} {m : Fin 32 → Fin 131072 → ℝ} :
    IsRm v m ↔ ∀ b c, v (ix2 b c) = ((m b c : ℝ) : EReal) :=
  ⟨fun h b c => h (ix2 b c), fun h i => by
    obtain ⟨b, c, rfl⟩ : ∃ (b : Fin 32) (c : Fin 131072), i = ix2 b c := ⟨i 0, i 1, eq_ix2 i⟩
    exact h b c⟩

theorem isR3_iff {v : FVec Ideal S32x131072x3 .f32} {x : Fin 32 → Fin 131072 → Fin 3 → ℝ} :
    IsR3 v x ↔ ∀ b n k, v (ix3 b n k) = ((x b n k : ℝ) : EReal) :=
  ⟨fun h b n k => h (ix3 b n k), fun h i => by
    obtain ⟨b, n, k, rfl⟩ : ∃ (b : Fin 32) (n : Fin 131072) (k : Fin 3), i = ix3 b n k := ⟨i 0, i 1, i 2, eq_ix3 i⟩
    exact h b n k⟩

namespace IsR
variable {s : Shape} {u v : FVec Ideal s .f32} {x y : s.Idx → ℝ}

theorem mul (hu : IsR u x) (hv : IsR v y) : IsR (mulf u v) (fun i => x i * y i) := fun i => by
  show u i * v i = _; rw [hu i, hv i, EReal.coe_mul]

theorem add (hu : IsR u x) (hv : IsR v y) : IsR (addf u v) (fun i => x i + y i) := fun i => by
  show u i + v i = _; rw [hu i, hv i, EReal.coe_add]

theorem sub (hu : IsR u x) (hv : IsR v y) : IsR (subf u v) (fun i => x i - y i) := fun i => by
  show u i - v i = _; rw [hu i, hv i, EReal.coe_sub]

theorem neg (hu : IsR u x) : IsR (Host.negf u) (fun i => -x i) := fun i => by
  show -(u i) = _; rw [hu i, EReal.coe_neg]

theorem div (hu : IsR u x) (hv : IsR v y) (hy : ∀ i, y i ≠ 0) : IsR (Host.divf u v) (fun i => x i / y i) := fun i => by
  show Ideal.div (u i) (v i) = _; rw [hu i, hv i, div_real _ _ (hy i)]

theorem exp (hu : IsR u x) : IsR (Host.exp u) (fun i => Real.exp (x i)) := fun i => by
  show Ideal.exp (u i) = _; rw [hu i, exp_real]

/-- The same array, its reals spelled another way. -/
theorem congr (hu : IsR u x) (h : ∀ i, x i = y i) : IsR u y := fun i => by rw [hu i, h i]

/-- A literal word repeated over a shape. -/
theorem const {w : BitVec 32} {ω : ℝ} (hw : Ideal.ofBits .f32 w = ((ω : ℝ) : EReal)) : IsR (constant (F := Ideal) s .f32 w) (fun _ => ω) :=
  fun _ => hw

/-- A scalar repeated over a shape. -/
theorem bcastS {T : Shape} {v : FVec Ideal S_ .f32} {x : ℝ} (hv : IsR0 v x) (h : S_.BroadcastsInDim T ![]) :
    IsR (broadcastInDim T ![] h v) (fun _ => x) := fun j => by rw [bcastS_apply h v j, hv ix0]

/-- A vector over the rows as one column. -/
theorem row1 {v : FVec Ideal S32 .f32} {x : Fin 32 → ℝ} (hv : IsR1 v x) (h : S32.BroadcastsInDim S32x1 ![0]) :
    IsR2 (n := 1) (broadcastInDim S32x1 ![0] h v) (fun b _ => x b) :=
  isR2_iff.2 fun b c => (bcast_row1_apply h v b c).trans (hv (ix1 b))

/-- One column repeated along m columns. -/
theorem colm {m : Nat} {v : FVec Ideal S32x1 .f32} {x : Fin 32 → Fin 1 → ℝ} (hv : IsR2 (n := 1) v x)
    (h : S32x1.BroadcastsInDim ⟨2, ![32, m]⟩ ![0, 1]) :
    IsR2 (n := m) (broadcastInDim ⟨2, ![32, m]⟩ ![0, 1] h v) (fun b _ => x b 0) :=
  isR2_iff.2 fun b c => (bcast_col_apply h v b c).trans (hv (ix2 b 0))

/-- The masses repeated along the three coordinates. -/
theorem mas3 {v : FVec Ideal S32x131072 .f32} {x : Fin 32 → Fin 131072 → ℝ} (hv : IsRm v x) (h₁ : S32x131072.BroadcastsInDim S32x131072x1 ![0, 1])
    (h₂ : S32x131072x1.BroadcastsInDim S32x131072x3 ![0, 1, 2]) :
    IsR3 (broadcastInDim S32x131072x3 ![0, 1, 2] h₂ (broadcastInDim S32x131072x1 ![0, 1] h₁ v)) (fun b n _ => x b n) :=
  isR3_iff.2 fun b n k => (bcast_mas_apply h₁ h₂ v b n k).trans (hv (ix2 b n))

/-- A vector over the rows repeated along all particles and coordinates. -/
theorem row3 {v : FVec Ideal S32 .f32} {x : Fin 32 → ℝ} (hv : IsR1 v x) (h₁ : S32.BroadcastsInDim S32x1x1 ![0])
    (h₂ : S32x1x1.BroadcastsInDim S32x131072x3 ![0, 1, 2]) :
    IsR3 (broadcastInDim S32x131072x3 ![0, 1, 2] h₂ (broadcastInDim S32x1x1 ![0] h₁ v)) (fun b _ _ => x b) :=
  isR3_iff.2 fun b n k => (bcast_row3_apply h₁ h₂ v b n k).trans (hv (ix1 b))

/-- Column j, flattened. -/
theorem col {v : FVec Ideal S32x5 .f32} {m : Fin 32 → Fin 5 → ℝ} (hv : IsR2 (n := 5) v m) (j : Nat) (hj : j < 5)
    (hs : S32x5.Slices ![0, j] S32x1) (hc : S32x1.ShapeCasts S32) :
    IsR1 (shapeCast S32 (extractStridedSlice S32x1 ![0, j] v hs) hc) (fun b => m b ⟨j, hj⟩) :=
  isR1_iff.2 fun b => (col_apply j hj hs hc v b).trans (hv (ix2 b ⟨j, hj⟩))

/-- The first four columns. -/
theorem cols4 {v : FVec Ideal S32x5 .f32} {m : Fin 32 → Fin 5 → ℝ} (hv : IsR2 (n := 5) v m) (hs : S32x5.Slices ![0, 0] S32x4) :
    IsR2 (n := 4) (extractStridedSlice S32x4 ![0, 0] v hs) (fun b c => m b c.castSucc) :=
  isR2_iff.2 fun b c => (cols4_apply hs v b c).trans (hv (ix2 b c.castSucc))

/-- One column followed by four. -/
theorem concat {v₁ : FVec Ideal S32x1 .f32} {v₂ : FVec Ideal S32x4 .f32} {x₁ : Fin 32 → Fin 1 → ℝ} {x₂ : Fin 32 → Fin 4 → ℝ}
    (h₁ : IsR2 (n := 1) v₁ x₁) (h₂ : IsR2 (n := 4) v₂ x₂) (h : Shape.Concatenates [S32x1, S32x4] S32x5 1) :
    IsR2 (n := 5) (concatenate S32x5 1 [⟨S32x1, v₁⟩, ⟨S32x4, v₂⟩] h) (fun b => Fin.cases (x₁ b 0) (x₂ b)) :=
  isR2_iff.2 fun b c => by
    refine Fin.cases ?_ (fun c => ?_) c
    · exact (concat_zero_apply h v₁ v₂ b).trans (h₁ (ix2 b 0))
    · exact (concat_succ_apply h v₁ v₂ b c).trans (h₂ (ix2 b c))

/-- The sum over the particles. -/
theorem reduce {v : FVec Ideal S32x131072x3 .f32} {x : Fin 32 → Fin 131072 → Fin 3 → ℝ} {init : FVec Ideal S_ .f32} {x₀ : ℝ} (hv : IsR3 v x)
    (h₀ : IsR0 init x₀) (h : S32x131072x3.ReducesTo [1, 2] S32) (hu : 0 < S_.numel) :
    IsR1 (Host.reduceAdd v init h hu) (fun b => x₀ + ∑ p : Fin 131072 × Fin 3, x b p.1 p.2) :=
  isR1_iff.2 fun b => by
    rw [reduce_apply h hu v init, h₀ ix0, EReal.coe_add, coe_sum]
    refine congrArg (fun z => ((x₀ : ℝ) : EReal) + z) ?_
    exact Finset.sum_congr rfl (fun p _ => hv (ix3 b p.1 p.2))

variable [Facts]
open Facts₀ Facts

/-- The write of column c from a vector over the rows. -/
theorem scatter_set {v : FVec Ideal S32x5 .f32} {m : Fin 32 → Fin 5 → ℝ} {upd : FVec Ideal S32 .f32} {y : Fin 32 → ℝ} (hv : IsR2 (n := 5) v m)
    (hu : IsR1 upd y) (idx : IVec S1 32) (c : Fin 5) (hidx : ∀ k, idx k = BitVec.ofNat 32 c.val) :
    IsR2 (n := 5) (Host.scatter scatter_S32x5_S1_S32_0_1_1_0 (fun _ b => b) v idx upd) (fun b c' => if c' = c then y b else m b c') :=
  isR2_iff.2 fun b c' => by
    rw [scatter_col_apply _ v idx upd c hidx]
    split_ifs
    · exact hu (ix1 b)
    · exact hv (ix2 b c')

/-- The addition of a vector over the rows into column c. -/
theorem scatter_add {v : FVec Ideal S32x5 .f32} {m : Fin 32 → Fin 5 → ℝ} {upd : FVec Ideal S32 .f32} {y : Fin 32 → ℝ} (hv : IsR2 (n := 5) v m)
    (hu : IsR1 upd y) (idx : IVec S1 32) (c : Fin 5) (hidx : ∀ k, idx k = BitVec.ofNat 32 c.val) :
    IsR2 (n := 5) (Host.scatter scatter_S32x5_S1_S32_0_1_1_0 FloatOps.addf v idx upd)
      (fun b c' => if c' = c then m b c + y b else m b c') :=
  isR2_iff.2 fun b c' => by
    rw [scatter_col_apply _ v idx upd c hidx]
    split_ifs
    · show v (ix2 b c) + upd (ix1 b) = _
      rw [hv (ix2 b c), hu (ix1 b), EReal.coe_add]
    · exact hv (ix2 b c')

end IsR

end Cert.ReferenceIdeal.Chain

end
-- ==== Proof.RStepReal.lean ====
/-
  One substep of the reference, on arrays whose entries are coerced reals, is row by row the real substep of the
  thermostat chain.  First the stretches of a substep, each over arbitrary arrays of coerced reals: the step size, the
  forces on the chain, the push of the last link, one link update of a sweep, the drift of the positions, the factor for
  the particles and their rescaling; each array is, row by row, the real quantity of the same name.  Then the substep:
  its operations are gone through in their order, each stretch recognised as one of these, and the four link updates
  of a sweep put together as the real sweep.
-/
import proofs.«138430_j46600395162250_2_alg».proof.Proof.RStepRealA
import proofs.«138430_j46600395162250_2_alg».proof.Proof.RealChain

noncomputable section

namespace Cert.ReferenceIdeal.Chain

open Idealize.ShloMosaic Idealize.ShloMosaic.ValueIdx Cert.ReferenceIdeal

/-! ## Pointwise operations, rank by rank -/

namespace IsR0
variable {u v : FVec Ideal S_ .f32} {x y : ℝ}
theorem mul (hu : IsR0 u x) (hv : IsR0 v y) : IsR0 (mulf u v) (x * y) := IsR.mul hu hv
theorem div (hu : IsR0 u x) (hv : IsR0 v y) (hy : y ≠ 0) : IsR0 (Host.divf u v) (x / y) := IsR.div hu hv (fun _ => hy)
end IsR0

namespace IsR1
variable {u v : FVec Ideal S32 .f32} {x y : Fin 32 → ℝ}
theorem mul (hu : IsR1 u x) (hv : IsR1 v y) : IsR1 (mulf u v) (fun b => x b * y b) := IsR.mul hu hv
theorem add (hu : IsR1 u x) (hv : IsR1 v y) : IsR1 (addf u v) (fun b => x b + y b) := IsR.add hu hv
theorem sub (hu : IsR1 u x) (hv : IsR1 v y) : IsR1 (subf u v) (fun b => x b - y b) := IsR.sub hu hv
theorem neg (hu : IsR1 u x) : IsR1 (Host.negf u) (fun b => -x b) := IsR.neg hu
theorem div (hu : IsR1 u x) (hv : IsR1 v y) (hy : ∀ b, y b ≠ 0) : IsR1 (Host.divf u v) (fun b => x b / y b) :=
  IsR.div hu hv (fun i => hy (i 0))
theorem exp (hu : IsR1 u x) : IsR1 (Host.exp u) (fun b => Real.exp (x b)) := IsR.exp hu
/-- A literal word repeated over the rows. -/
theorem const {w : BitVec 32} {ω : ℝ} (hw : Ideal.ofBits .f32 w = ((ω : ℝ) : EReal)) (h : S_.BroadcastsInDim S32 ![]) :
    IsR1 (broadcastInDim S32 ![] h (constant (F := Ideal) S_ .f32 w)) (fun _ => ω) :=
  IsR.bcastS (IsR.const hw) h
end IsR1

namespace IsR2
variable {n : Nat} {u v : FVec Ideal ⟨2, ![32, n]⟩ .f32} {x y : Fin 32 → Fin n → ℝ}
theorem mul (hu : IsR2 u x) (hv : IsR2 v y) : IsR2 (mulf u v) (fun b c => x b c * y b c) := IsR.mul hu hv
theorem add (hu : IsR2 u x) (hv : IsR2 v y) : IsR2 (addf u v) (fun b c => x b c + y b c) := IsR.add hu hv
theorem sub (hu : IsR2 u x) (hv : IsR2 v y) : IsR2 (subf u v) (fun b c => x b c - y b c) := IsR.sub hu hv
theorem div (hu : IsR2 u x) (hv : IsR2 v y) (hy : ∀ b c, y b c ≠ 0) : IsR2 (Host.divf u v) (fun b c => x b c / y b c) :=
  IsR.div hu hv (fun i => hy (i 0) (i 1))
/-- The same matrix, its rows spelled another way. -/
theorem congr (hu : IsR2 u x) (h : ∀ b, x b = y b) : IsR2 u y := IsR.congr hu (fun i => congrFun (h (i 0)) (i 1))
end IsR2

namespace IsR3
variable {u v : FVec Ideal S32x131072x3 .f32} {x y : Fin 32 → Fin 131072 → Fin 3 → ℝ}
theorem mul (hu : IsR3 u x) (hv : IsR3 v y) : IsR3 (mulf u v) (fun b n k => x b n k * y b n k) := IsR.mul hu hv
theorem div (hu : IsR3 u x) (hv : IsR3 v y) (hy : ∀ b n k, y b n k ≠ 0) : IsR3 (Host.divf u v) (fun b n k => x b n k / y b n k) :=
  IsR.div hu hv (fun i => hy (i 0) (i 1) (i 2))
end IsR3

/-! ## One link of a sweep, over the reals -/

open Cert.NHC

/-- Link j is damped by the link j1 above it, pushed by its force, damped again; the other links are kept. -/
def linkR (j j1 : Fin 5) (a m g : Fin 5 → ℝ) (d : ℝ) : Fin 5 → ℝ := fun c =>
  if c = j then (m j * Real.exp (-(m j1) / a j1 * (d / 4)) + g j * (d / 2)) * Real.exp (-(m j1) / a j1 * (d / 4)) else m c

/-- A sweep is the four link updates 3, 2, 1, 0 in that order. -/
theorem sweep_eq_links (a mc g : Fin 5 → ℝ) (d : ℝ) :
    sweep a mc g d = linkR 0 1 a (linkR 1 2 a (linkR 2 3 a (linkR 3 4 a mc g d) g d) g d) g d := by
  funext c
  fin_cases c <;> simp [sweep, linkR]

/-- The forces, column 0 first and then the four columns from the chain momenta. -/
theorem forces_eq_cases (a q : Fin 5 → ℝ) (kbt g0 : ℝ) :
    (Fin.cases g0 (fun c : Fin 4 => q c.castSucc * q c.castSucc / a c.castSucc - kbt) : Fin 5 → ℝ) = forces a q kbt g0 := by
  funext c
  fin_cases c <;> rfl

/-- Adding x into the last link. -/
theorem bump_eq_ite (mc : Fin 5 → ℝ) (x : ℝ) : (fun c : Fin 5 => if c = 4 then mc 4 + x else mc c) = bump mc x := by
  funext c
  fin_cases c <;> simp [bump]

/-! ## The stretches of a substep, as arrays -/

section Arrays
variable [Facts]
open Facts₀ Facts

/-- A scalar repeated over the rows. -/
theorem IsR1.ofScalar {v : FVec Ideal S_ .f32} {x : ℝ} (hv : IsR0 v x) (h : S_.BroadcastsInDim S32 ![]) :
    IsR1 (broadcastInDim S32 ![] h v) (fun _ => x) := IsR.bcastS hv h

/-- A literal word over the rows. -/
def constV (w : BitVec 32) : FVec Ideal S32 .f32 := broadcastInDim S32 ![] bcast_S_S32 (constant S_ .f32 w)

/-- Column j, flattened. -/
def colV (j : Nat) (hs : S32x5.Slices ![0, j] S32x1) (x : FVec Ideal S32x5 .f32) : FVec Ideal S32 .f32 :=
  shapeCast _ (extractStridedSlice S32x1 ![0, j] x hs) shapeCasts_S32x1_S32

/-- The one-element index vector naming column j. -/
def idxV (j : Nat) : IVec S1 32 := broadcastInDim S1 ![] bcast_S_S1 (constantI S_ 32 (BitVec.ofNat 32 j))

/-- The step size of a substep with weight w. -/
def deaV (w : BitVec 32) (stp : FVec Ideal S_ .f32) (dtm : FVec Ideal S32 .f32) : FVec Ideal S32 .f32 :=
  mulf dtm (broadcastInDim S32 ![] bcast_S_S32 (Host.divf (mulf stp (constant S_ .f32 w)) (constant S_ .f32 0x40000000#32)))

/-- The forces on the chain. -/
def forcesV (kbt : FVec Ideal S32 .f32) (mas : FVec Ideal S32x131072 .f32) (a q : FVec Ideal S32x5 .f32)
    (mom : FVec Ideal S32x131072x3 .f32) : FVec Ideal S32x5 .f32 :=
  concatenate S32x5 1
    [⟨S32x1, broadcastInDim S32x1 ![0] bcast_S32_S32x1_0
        (subf (Host.reduceAdd
                (Host.divf (mulf mom mom)
                  (broadcastInDim S32x131072x3 ![0, 1, 2] bcast_S32x131072x1_S32x131072x3_0_1_2
                    (broadcastInDim S32x131072x1 ![0, 1] bcast_S32x131072_S32x131072x1_0_1 mas)))
                (constant S_ .f32 0x00000000#32) reducesTo_S32x131072x3_S32_d1_2 h_S_)
          (mulf kbt (constV 0x48C00000#32)))⟩,
     ⟨S32x4, subf (extractStridedSlice S32x4 ![0, 0] (Host.divf (mulf q q) a) slices_S32x5_S32x4_0_0)
        (broadcastInDim S32x4 ![0, 1] bcast_S32x1_S32x4_0_1 (broadcastInDim S32x1 ![0] bcast_S32_S32x1_0 kbt))⟩]
    concatenates_S32x1_S32x4_S32x5_d1

/-- The push of the last link. -/
def pushV (x g : FVec Ideal S32x5 .f32) (dea : FVec Ideal S32 .f32) : FVec Ideal S32x5 .f32 :=
  Host.scatter scatter_S32x5_S1_S32_0_1_1_0 FloatOps.addf x (idxV 4)
    (mulf (colV 4 slices_S32x5_S32x1_0_4 g) (Host.divf dea (constV 0x40000000#32)))

/-- The update of link j from the link j1 above it. -/
def linkV (j j1 : Nat) (hs : S32x5.Slices ![0, j] S32x1) (hs1 : S32x5.Slices ![0, j1] S32x1) (x g a : FVec Ideal S32x5 .f32)
    (dea : FVec Ideal S32 .f32) : FVec Ideal S32x5 .f32 :=
  Host.scatter scatter_S32x5_S1_S32_0_1_1_0 (fun _ b => b) x (idxV j)
    (mulf
      (addf
        (mulf (colV j hs x)
          (Host.exp (mulf (Host.divf (Host.negf (colV j1 hs1 x)) (colV j1 hs1 a)) (Host.divf dea (constV 0x40800000#32)))))
        (mulf (colV j hs g) (Host.divf dea (constV 0x40000000#32))))
      (Host.exp (mulf (Host.divf (Host.negf (colV j1 hs1 x)) (colV j1 hs1 a)) (Host.divf dea (constV 0x40800000#32)))))

/-- The drift of the chain positions. -/
def driftV (pos x a : FVec Ideal S32x5 .f32) (dea : FVec Ideal S32 .f32) : FVec Ideal S32x5 .f32 :=
  addf pos (mulf (Host.divf x a)
    (broadcastInDim S32x5 ![0, 1] bcast_S32x1_S32x5_0_1 (broadcastInDim S32x1 ![0] bcast_S32_S32x1_0 dea)))

/-- The factor for the particle momenta. -/
def scaleV (x a : FVec Ideal S32x5 .f32) (dea : FVec Ideal S32 .f32) : FVec Ideal S32 .f32 :=
  Host.exp (mulf (Host.divf (Host.negf (colV 0 slices_S32x5_S32x1_0_0 x)) (colV 0 slices_S32x5_S32x1_0_0 a)) dea)

/-- The particle momenta rescaled. -/
def momV (mom : FVec Ideal S32x131072x3 .f32) (sc : FVec Ideal S32 .f32) : FVec Ideal S32x131072x3 .f32 :=
  mulf mom (broadcastInDim S32x131072x3 ![0, 1, 2] bcast_S32x1x1_S32x131072x3_0_1_2
    (broadcastInDim S32x1x1 ![0] bcast_S32_S32x1x1_0 sc))

variable {w : BitVec 32} {ω σ : ℝ} {stp : FVec Ideal S_ .f32} {dtm kbt dea sc : FVec Ideal S32 .f32} {δ κ d s : Fin 32 → ℝ}
  {mas : FVec Ideal S32x131072 .f32} {μ : Fin 32 → Fin 131072 → ℝ} {a q x g pos : FVec Ideal S32x5 .f32}
  {α Q m G P : Fin 32 → Fin 5 → ℝ} {mom : FVec Ideal S32x131072x3 .f32} {M : Fin 32 → Fin 131072 → Fin 3 → ℝ}

/-- The step size, row by row: the row's factor times the time step times the weight over two. -/
theorem dea_isR (hw : Ideal.ofBits .f32 w = ((ω : ℝ) : EReal)) (hσ : IsR0 stp σ) (hδ : IsR1 dtm δ) :
    IsR1 (deaV w stp dtm) (fun b => δ b * (σ * ω / 2)) :=
  hδ.mul (IsR1.ofScalar ((hσ.mul (IsR.const hw)).div (IsR.const ofBits_two) two_ne_zero) bcast_S_S32)

/-- The forces, row by row: on link 0 the kinetic sum less kbt times the number of degrees of freedom, on link c ≥ 1
    the square of the chain momentum below over its mass, less kbt. -/
theorem forces_isR (hκ : IsR1 kbt κ) (hμ : IsRm mas μ) (hμ0 : ∀ b n, μ b n ≠ 0) (hα : IsR2 (n := 5) a α) (hα0 : ∀ b c, α b c ≠ 0)
    (hQ : IsR2 (n := 5) q Q) (hM : IsR3 mom M) :
    IsR2 (n := 5) (forcesV kbt mas a q mom)
      (fun b => forces (α b) (Q b) (κ b)
        (kinOf (fun i : Fin 131072 × Fin 3 => μ b i.1) (fun i : Fin 131072 × Fin 3 => M b i.1 i.2) - κ b * dof)) := by
  have hkin := IsR.reduce ((hM.mul hM).div (IsR.mas3 hμ bcast_S32x131072_S32x131072x1_0_1 bcast_S32x131072x1_S32x131072x3_0_1_2)
    (fun b n _ => hμ0 b n)) (IsR.const ofBits_zero) reducesTo_S32x131072x3_S32_d1_2 h_S_
  have h0 := IsR.row1 (hkin.sub (hκ.mul (IsR1.const ofBits_dof bcast_S_S32))) bcast_S32_S32x1_0
  have h4 := (IsR.cols4 ((hQ.mul hQ).div hα hα0) slices_S32x5_S32x4_0_0).sub
    (IsR.colm (IsR.row1 hκ bcast_S32_S32x1_0) bcast_S32x1_S32x4_0_1)
  refine (IsR.concat h0 h4 concatenates_S32x1_S32x4_S32x5_d1).congr (fun b => ?_)
  rw [← forces_eq_cases]
  simp only [kinOf, dof, zero_add]

/-- The push of the last link, row by row. -/
theorem push_isR (hx : IsR2 (n := 5) x m) (hg : IsR2 (n := 5) g G) (hd : IsR1 dea d) :
    IsR2 (n := 5) (pushV x g dea) (fun b => bump (m b) (G b 4 * (d b / 2))) := by
  have hu := (IsR.col hg 4 (by decide) slices_S32x5_S32x1_0_4 shapeCasts_S32x1_S32).mul
    (hd.div (IsR1.const ofBits_two bcast_S_S32) (fun _ => two_ne_zero))
  refine (IsR.scatter_add hx hu (idxV 4) 4 (fun k => idx_const_apply _ _ k)).congr (fun b => ?_)
  exact bump_eq_ite (m b) _

/-- One link update, row by row. -/
theorem link_isR (jf j1f : Fin 5) {hs : S32x5.Slices ![0, jf.val] S32x1} {hs1 : S32x5.Slices ![0, j1f.val] S32x1}
    (hx : IsR2 (n := 5) x m) (hg : IsR2 (n := 5) g G) (hα : IsR2 (n := 5) a α) (hα0 : ∀ b c, α b c ≠ 0) (hd : IsR1 dea d) :
    IsR2 (n := 5) (linkV jf.val j1f.val hs hs1 x g a dea) (fun b => linkR jf j1f (α b) (m b) (G b) (d b)) := by
  have hF := (((IsR.col hx j1f.val j1f.isLt hs1 shapeCasts_S32x1_S32).neg.div
      (IsR.col hα j1f.val j1f.isLt hs1 shapeCasts_S32x1_S32) (fun b => hα0 b _)).mul
      (hd.div (IsR1.const ofBits_four bcast_S_S32) (fun _ => four_ne_zero))).exp
  have hu := (((IsR.col hx jf.val jf.isLt hs shapeCasts_S32x1_S32).mul hF).add
      ((IsR.col hg jf.val jf.isLt hs shapeCasts_S32x1_S32).mul
        (hd.div (IsR1.const ofBits_two bcast_S_S32) (fun _ => two_ne_zero)))).mul hF
  exact (IsR.scatter_set hx hu (idxV jf.val) jf (fun k => idx_const_apply _ _ k)).congr (fun b => rfl)

/-- The drift of the chain positions, row by row. -/
theorem drift_isR (hP : IsR2 (n := 5) pos P) (hx : IsR2 (n := 5) x m) (hα : IsR2 (n := 5) a α) (hα0 : ∀ b c, α b c ≠ 0)
    (hd : IsR1 dea d) :
    IsR2 (n := 5) (driftV pos x a dea) (fun b => drift (α b) (P b) (m b) (d b)) :=
  (hP.add ((hx.div hα hα0).mul (IsR.colm (IsR.row1 hd bcast_S32_S32x1_0) bcast_S32x1_S32x5_0_1))).congr (fun b => rfl)

/-- The factor for the particle momenta, row by row. -/
theorem scale_isR (hx : IsR2 (n := 5) x m) (hα : IsR2 (n := 5) a α) (hα0 : ∀ b c, α b c ≠ 0) (hd : IsR1 dea d) :
    IsR1 (scaleV x a dea) (fun b => scaleOf (α b) (m b) (d b)) :=
  (((IsR.col hx 0 (by decide) slices_S32x5_S32x1_0_0 shapeCasts_S32x1_S32).neg.div
    (IsR.col hα 0 (by decide) slices_S32x5_S32x1_0_0 shapeCasts_S32x1_S32) (fun b => hα0 b _)).mul hd).exp

/-- The particle momenta rescaled, row by row. -/
theorem mom_isR (hM : IsR3 mom M) (hs : IsR1 sc s) : IsR3 (momV mom sc) (fun b n k => M b n k * s b) :=
  hM.mul (IsR.row3 hs bcast_S32_S32x1x1_0 bcast_S32x1x1_S32x131072x3_0_1_2)

end Arrays

/-! ## One substep -/

open Cert.NHC

variable [Facts]
open Facts₀ Facts

/-- The arrays of a substep hold, row by row, the coerced reals of the states r. -/
def HoldsR (s : RSt Ideal) (r : Fin 32 → Cert.NHC.StR (Fin 131072 × Fin 3)) : Prop :=
  (∀ b n k, s.mom (ix3 b n k) = (((r b).mom (n, k) : ℝ) : EReal)) ∧
  (∀ b c, s.pos (ix2 b c) = (((r b).p c : ℝ) : EReal)) ∧
  (∀ b c, s.q (ix2 b c) = (((r b).q c : ℝ) : EReal))

/-- One substep of the reference on arrays of coerced reals is, row by row, the real substep with step size
    δ b · (σ · ω / 2): the masses of row b are μ b, its chain masses α b, its temperature κ b. -/
theorem rstepV_holds (w : BitVec 32) (ω σ : ℝ) (hw : Ideal.ofBits .f32 w = ((ω : ℝ) : EReal))
    (stp : (⟨S_, .f32⟩ : BufTy).Contents (Elt Ideal)) (hσ : stp ix0 = ((σ : ℝ) : EReal))
    (dtm kbt : (⟨S32, .f32⟩ : BufTy).Contents (Elt Ideal)) (δ κ : Fin 32 → ℝ)
    (hδ : ∀ b, dtm (ix1 b) = ((δ b : ℝ) : EReal)) (hκ : ∀ b, kbt (ix1 b) = ((κ b : ℝ) : EReal))
    (mas : (⟨S32x131072, .f32⟩ : BufTy).Contents (Elt Ideal)) (μ : Fin 32 → Fin 131072 → ℝ)
    (hμ : ∀ b n, mas (ix2 b n) = ((μ b n : ℝ) : EReal)) (hμ0 : ∀ b n, μ b n ≠ 0)
    (a : (⟨S32x5, .f32⟩ : BufTy).Contents (Elt Ideal)) (α : Fin 32 → Fin 5 → ℝ)
    (hα : ∀ b c, a (ix2 b c) = ((α b c : ℝ) : EReal)) (hα0 : ∀ b c, α b c ≠ 0)
    (s : RSt Ideal) (r : Fin 32 → Cert.NHC.StR (Fin 131072 × Fin 3)) (h : HoldsR s r) :
    HoldsR (rstepV w stp dtm kbt mas a s)
      (fun b => Cert.NHC.stepR (fun i : Fin 131072 × Fin 3 => μ b i.1) (α b) (κ b) (δ b * (σ * ω / 2)) (r b)) := by
  obtain ⟨hmom, hpos, hq⟩ := h
  have hS : IsR0 stp σ := fun i => by rw [eq_ix0 i]; exact hσ
  have hD : IsR1 dtm δ := isR1_iff.2 hδ
  have hK : IsR1 kbt κ := isR1_iff.2 hκ
  have hMas : IsRm mas μ := isRm_iff.2 hμ
  have hA : IsR2 (n := 5) a α := isR2_iff.2 hα
  have hM : IsR3 s.mom (fun b n k => (r b).mom (n, k)) := isR3_iff.2 hmom
  have hP : IsR2 (n := 5) s.pos (fun b => (r b).p) := isR2_iff.2 hpos
  have hQ : IsR2 (n := 5) s.q (fun b => (r b).q) := isR2_iff.2 hq
  unfold rstepV
  extract_lets -merge
    t0 t1 t2 t3 t4 t5 t6 t7 t8 t9 t10 t11 t12 t13 t14 t15 t16 t17 t18 t19 t20 t21 t22 t23
    t24 t25 t26 t27 t28 t29 t30 t31 t32 t33 t34 t35 t36 t37 t38 t39 t40 t41 t42 t43 t44 t45 t46 t47
    t48 t49 t50 t51 t52 t53 t54 t55 t56 t57 t58 t59 t60 t61 t62 t63 t64 t65 t66 t67 t68 t69 t70 t71
    t72 t73 t74 t75 t76 t77 t78 t79 t80 t81 t82 t83 t84 t85 t86 t87 t88 t89 t90 t91 t92 t93 t94 t95
    t96 t97 t98 t99 t100 t101 t102 t103 t104 t105 t106 t107 t108 t109 t110 t111 t112 t113 t114 t115 t116 t117 t118 t119
    t120 t121 t122 t123 t124 t125 t126 t127 t128 t129 t130 t131 t132 t133 t134 t135 t136 t137 t138 t139 t140 t141 t142 t143
    t144 t145 t146 t147 t148 t149 t150 t151 t152 t153 t154 t155 t156 t157 t158 t159 t160 t161 t162 t163 t164 t165 t166 t167
    t168 t169 t170 t171 t172 t173 t174 t175 t176 t177 t178 t179 t180 t181 t182 t183 t184 t185 t186 t187 t188 t189 t190 t191
    t192 t193 t194 t195 t196 t197 t198 t199 t200 t201 t202 t203 t204 t205 t206 t207 t208 t209 t210 t211 t212 t213 t214 t215
    t216 t217 t218 t219 t220 t221 t222 t223 t224 t225 t226 t227 t228 t229 t230 t231 t232 t233 t234 t235 t236 t237 t238 t239
    t240 t241 t242 t243 t244 t245 t246 t247 t248 t249 t250 t251 t252 t253 t254 t255 t256 t257 t258 t259 t260 t261 t262 t263
    t264 t265 t266 t267 t268 t269 t270 t271 t272 t273 t274 t275
  -- the step size, the forces, the push of the last link
  have h5 : IsR1 t5 _ := dea_isR hw hS hD
  have h23 : IsR2 (n := 5) t23 _ := forces_isR hK hMas hμ0 hA hα0 hQ hM
  have h32 : IsR2 (n := 5) t32 _ := push_isR hQ h23 h5
  -- the first sweep: links 3, 2, 1, 0
  have h57 : IsR2 (n := 5) t57 _ := link_isR 3 4 h32 h23 hA hα0 h5
  have h82 : IsR2 (n := 5) t82 _ := link_isR 2 3 h57 h23 hA hα0 h5
  have h107 : IsR2 (n := 5) t107 _ := link_isR 1 2 h82 h23 hA hα0 h5
  have h132 : IsR2 (n := 5) t132 _ := link_isR 0 1 h107 h23 hA hα0 h5
  have h132' := h132.congr (fun b => (sweep_eq_links _ _ _ _).symm)
  -- the positions drift, the particles are rescaled
  have h137 : IsR2 (n := 5) t137 _ := drift_isR hP h132' hA hα0 h5
  have h145 : IsR1 t145 _ := scale_isR h132' hA hα0 h5
  have h148 : IsR3 t148 _ := mom_isR hM h145
  -- the forces again, from the new particle momenta; the second sweep; the push of the last link
  have h166 : IsR2 (n := 5) t166 _ := forces_isR hK hMas hμ0 hA hα0 hQ h148
  have h191 : IsR2 (n := 5) t191 _ := link_isR 3 4 h132' h166 hA hα0 h5
  have h216 : IsR2 (n := 5) t216 _ := link_isR 2 3 h191 h166 hA hα0 h5
  have h241 : IsR2 (n := 5) t241 _ := link_isR 1 2 h216 h166 hA hα0 h5
  have h266 : IsR2 (n := 5) t266 _ := link_isR 0 1 h241 h166 hA hα0 h5
  have h266' := h266.congr (fun b => (sweep_eq_links _ _ _ _).symm)
  have h275 : IsR2 (n := 5) t275 _ := push_isR h266' h166 h5
  exact ⟨isR3_iff.1 h148, isR2_iff.1 h137, isR2_iff.1 h275⟩

end Cert.ReferenceIdeal.Chain

end
-- ==== Proof.RValue.lean ====
/-
  The reference's three results as real numbers.  Its run ends with the particle momenta, the chain positions and the chain
  momenta after fourteen substeps of the array-level recurrence; on launch contents that are real numbers, with nonzero
  masses and chain masses, every substep is, batch row by batch row, the substep of the real recurrence that carries the
  particle momenta; so the results are, entry by entry, the real recurrence's state after fourteen substeps.
-/
import proofs.«138430_j46600395162250_2_alg».proof.Proof.RefRun7
import proofs.«138430_j46600395162250_2_alg».proof.Proof.RGlue
import proofs.«138430_j46600395162250_2_alg».proof.Proof.RStepReal
import proofs.«138430_j46600395162250_2_alg».proof.Proof.RealChain
import proofs.«138430_j46600395162250_2_alg».proof.Proof.Weights
import Idealize.ShloMosaic.Lib.ValueIdx

noncomputable section

namespace Cert.ReferenceIdeal.Chain

open Idealize.ShloMosaic Idealize.ShloMosaic.TcCoe Idealize.SL.Sem Idealize.ShloMosaic.ValueIdx
open Cert.ReferenceIdeal Cert.ReferenceIdeal.Gen Cert.ReferenceIdeal.Value Cert.NHC

section
variable (V0 : Valuation τ sig (Elt Ideal))
variable (σ : ℝ) (δ κ : Fin 32 → ℝ) (μ : Fin 32 → Fin 131072 → ℝ) (α : Fin 32 → Fin 5 → ℝ)
variable (r0 : Fin 32 → StR (Fin 131072 × Fin 3))

/-- The real state of batch row b after k substeps. -/
def RR (b : Fin 32) (k : ℕ) : StR (Fin 131072 × Fin 3) :=
  iterR (fun i : Fin 131072 × Fin 3 => μ b i.1) (α b) (κ b) (fun s => δ b * (σ * ωAt s / 2)) (r0 b) k

/-- After k ≤ 14 substeps the array-level state holds, row by row, the real state. -/
theorem iterV_holds
    (hσ : V0 (Proc.devRef .tc main_arg8) ix0 = ((σ : ℝ) : EReal))
    (hδ : ∀ b, V0 (Proc.devRef .tc main_arg4) (ix1 b) = ((δ b : ℝ) : EReal))
    (hκ : ∀ b, V0 (Proc.devRef .tc main_arg3) (ix1 b) = ((κ b : ℝ) : EReal))
    (hμ : ∀ b n, V0 (Proc.devRef .tc main_arg2) (ix2 b n) = ((μ b n : ℝ) : EReal)) (hμ0 : ∀ b n, μ b n ≠ 0)
    (hα : ∀ b c, V0 (Proc.devRef .tc main_arg7) (ix2 b c) = ((α b c : ℝ) : EReal)) (hα0 : ∀ b c, α b c ≠ 0)
    (h0 : HoldsR (iterV V0 0) r0) :
    ∀ k, k ≤ 14 → HoldsR (iterV V0 k) (fun b => RR σ δ κ μ α r0 b k)
  | 0, _ => h0
  | k + 1, hk => by
    rw [iterV_succ]
    exact rstepV_holds (wAt k) (ωAt k) σ (ofBits_wAt k (by omega)) _ hσ _ _ δ κ hδ hκ _ μ hμ hμ0 _ α hα hα0 _ _
      (iterV_holds hσ hδ hκ hμ hμ0 hα hα0 h0 k (by omega))

end

section
variable (m : (ℓ : Loc nD τ sig) → Buf (Elt Ideal) ℓ) (ρ : Dev nD → PrngReg)
variable (σ : Dev nD → ℝ) (δ κ : Dev nD → Fin 32 → ℝ) (μ : Dev nD → Fin 32 → Fin 131072 → ℝ) (pR qR α : Dev nD → Fin 32 → Fin 5 → ℝ)
variable (momR : Dev nD → Fin 32 → Fin 131072 × Fin 3 → ℝ)

/-- The run of the reference, read: on launch contents that are real numbers with nonzero masses and chain masses, the three
    results are, entry by entry, the real recurrence's state after fourteen substeps; the arguments end unchanged. -/
theorem ref_results
    (hmom : ∀ (c : Dev nD) (b : Fin 32) (n : Fin 131072) (k : Fin 3), m ((c.tc : Thread nD τ).loc main_arg1) (ix3 b n k) = ((momR c b (n, k) : ℝ) : EReal))
    (hμ : ∀ (c : Dev nD) (b : Fin 32) (n : Fin 131072), m ((c.tc : Thread nD τ).loc main_arg2) (ix2 b n) = ((μ c b n : ℝ) : EReal)) (hμ0 : ∀ (c : Dev nD) (b : Fin 32) (n : Fin 131072), μ c b n ≠ 0)
    (hκ : ∀ (c : Dev nD) (b : Fin 32), m ((c.tc : Thread nD τ).loc main_arg3) (ix1 b) = ((κ c b : ℝ) : EReal))
    (hδ : ∀ (c : Dev nD) (b : Fin 32), m ((c.tc : Thread nD τ).loc main_arg4) (ix1 b) = ((δ c b : ℝ) : EReal))
    (hp : ∀ (c : Dev nD) (b : Fin 32) (j : Fin 5), m ((c.tc : Thread nD τ).loc main_arg5) (ix2 b j) = ((pR c b j : ℝ) : EReal))
    (hq : ∀ (c : Dev nD) (b : Fin 32) (j : Fin 5), m ((c.tc : Thread nD τ).loc main_arg6) (ix2 b j) = ((qR c b j : ℝ) : EReal))
    (hα : ∀ (c : Dev nD) (b : Fin 32) (j : Fin 5), m ((c.tc : Thread nD τ).loc main_arg7) (ix2 b j) = ((α c b j : ℝ) : EReal)) (hα0 : ∀ (c : Dev nD) (b : Fin 32) (j : Fin 5), α c b j ≠ 0)
    (hσ : ∀ (c : Dev nD), m ((c.tc : Thread nD τ).loc main_arg8) ix0 = ((σ c : ℝ) : EReal)) :
    θ_run defs (onTc (τ := τ) (main (F := Ideal))) ⟨m, fun _ => 0, ρ⟩ (fun r => ∀ c : Dev nD,
      (∀ b n k, r.2.mem ((c.tc : Thread nD τ).loc main_v3276) (ix3 b n k)
          = (((RR (σ c) (δ c) (κ c) (μ c) (α c) (fun b => ⟨momR c b, pR c b, qR c b⟩) b 14).mom (n, k) : ℝ) : EReal))
      ∧ (∀ b j, r.2.mem ((c.tc : Thread nD τ).loc main_v3265) (ix2 b j)
          = (((RR (σ c) (δ c) (κ c) (μ c) (α c) (fun b => ⟨momR c b, pR c b, qR c b⟩) b 14).p j : ℝ) : EReal))
      ∧ (∀ b j, r.2.mem ((c.tc : Thread nD τ).loc main_v3387) (ix2 b j)
          = (((RR (σ c) (δ c) (κ c) (μ c) (α c) (fun b => ⟨momR c b, pR c b, qR c b⟩) b 14).q j : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (Cert.ReferenceIdeal.Value.run (F := Ideal) m ρ)
  have H := iterV_holds (StableHlo.launchContents m c) (σ c) (δ c) (κ c) (μ c) (α c) (fun b => ⟨momR c b, pR c b, qR c b⟩)
    (hσ c) (hδ c) (hκ c) (hμ c) (hμ0 c) (hα c) (hα0 c) ⟨hmom c, hp c, hq c⟩ 14 (le_refl _)
  obtain ⟨Hm, Hp, Hq⟩ := H
  refine ⟨fun b n k => ?_, fun b j => ?_, fun b j => ?_, (h c).2.2.2⟩
  · exact (congrFun ((h c).1.trans (fin_mom _).symm) _).trans (Hm b n k)
  · exact (congrFun ((h c).2.1.trans (fin_pos _).symm) _).trans (Hp b j)
  · exact (congrFun ((h c).2.2.1.trans (fin_q _).symm) _).trans (Hq b j)

end

end Cert.ReferenceIdeal.Chain

end
-- ==== Proof.PreReal.lean ====
/-
  The printed precondition, read at the extended reals. The predicate is the conjunction of eleven
  "for all" tests over the nine argument arrays: nine of the form |x| < +∞ at every index, and two of
  the form x ≠ 0 at every index. An extended real whose absolute value max x (-x) lies strictly below ⊤
  is neither ⊤ nor ⊥, hence is (the image of) a real number; and the comparison "not equal" against
  the pattern of +0.0, which denotes the extended real 0, says exactly x ≠ 0. No reduction is ever
  evaluated: a conjunction over an array that came out true was true at each index.
-/
import proofs.«138430_j46600395162250_2_alg».proof.Pre_finite_inputs
import proofs.«138430_j46600395162250_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.PreReal

open Idealize.ShloMosaic Cert.Pre_finite_inputs

/-- The scalar shape has exactly one index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- The f32 pattern 0x7F800000 (exponent all ones, fraction zero, sign clear) denotes +∞. -/
theorem ofBits_inf_f32 : Ideal.ofBits .f32 0x7F800000#32 = (⊤ : EReal) := by
  simp [Ideal.ofBits, Ideal.ieee]

/-- An extended real x with max x (-x) < ⊤ is a real: at ⊤ the maximum is ⊤, and at ⊥ it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The element test "|x| < +∞" answered 1: x is a real. -/
theorem real_of_olt (x : EReal)
    (h : Ideal.cmp .olt (max x (-x)) (Ideal.ofBits .f32 0x7F800000#32) = 1#1) : ∃ r : ℝ, x = (r : EReal) := by
  rw [ofBits_inf_f32] at h
  unfold Ideal.cmp at h
  rw [ofBool_eq_one] at h
  exact real_of_abs_lt_top x (of_decide_eq_true h)

/-- The element test "x ≠ +0.0" answered 1: x is not zero (the unordered "not equal" is read on the order). -/
theorem ne_zero_of_une (x : EReal)
    (h : Ideal.cmp .une x (Ideal.ofBits .f32 0x00000000#32) = 1#1) : x ≠ 0 := by
  rw [Ideal.ofBits_zero_f32] at h
  unfold Ideal.cmp at h
  rw [ofBool_eq_one] at h
  exact of_decide_eq_true h

/-- A "for all |x| < +∞" over an array of any shape (the bound splat from a scalar) that came out 1:
    every element is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) (i : s.Idx) : ∃ r : ℝ, x i = (r : EReal) :=
  real_of_olt (x i) (Host.reduce_andi_all _ _ hr hu _ e i)

/-- A "for all x ≠ 0" over an array of any shape (the zero splat from a scalar) that came out 1:
    no element is zero. -/
theorem ne_zero_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .une x (broadcastInDim s ![] hb (constant (F := Ideal) S_ .f32 0x00000000#32)))
          (constantI S_ 1 1#1) hr hu ValueIdx.ix0 = 1#1) (i : s.Idx) : x i ≠ 0 :=
  ne_zero_of_une (x i) (Host.reduce_andi_all _ _ hr hu _ e i)

/-- The scalar argument's test, whose bound is the constant itself (no splat). -/
theorem real_of_all_scalar {axes : List (Fin S_.rank)} (x : FVec Ideal S_ .f32)
    (hr : S_.ReducesTo axes S_) (hu : 0 < S_.numel)
    (e : Host.reduce IntOp.andi
          (cmpf .olt (Host.absf x) (constant (F := Ideal) S_ .f32 0x7F800000#32))
          (constantI S_ 1 1#1) hr hu ValueIdx.ix0 = 1#1) (i : S_.Idx) : ∃ r : ℝ, x i = (r : EReal) :=
  real_of_olt (x i) (Host.reduce_andi_all _ _ hr hu _ e i)

/-- THE PRECONDITION DECODED: momenta, masses, temperatures, time steps, the three thermostat arrays and the
    step count are real at every index, and no mass (particle or thermostat) is zero. -/
theorem of_pre (x0 x1 : FVec Ideal S32x131072x3 .f32) (x2 : FVec Ideal S32x131072 .f32)
    (x3 x4 : FVec Ideal S32 .f32) (x5 x6 x7 : FVec Ideal S32x5 .f32) (x8 : FVec Ideal S_ .f32)
    (h : Cert.Pre_finite_inputs.fn (F := Ideal) x0 x1 x2 x3 x4 x5 x6 x7 x8 = (fun _ => 1#1)) :
    (∀ i, ∃ r : ℝ, x1 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x5 i = (r : EReal)) ∧ (∀ i, ∃ r : ℝ, x6 i = (r : EReal))
    ∧ (∀ i, ∃ r : ℝ, x7 i = (r : EReal)) ∧ (∀ i, ∃ r : ℝ, x8 i = (r : EReal))
    ∧ (∀ i, x2 i ≠ 0) ∧ (∀ i, x7 i ≠ 0) := by
  have e := congrFun h ValueIdx.ix0
  dsimp only [fn, fn_part1, fn_part2, fn_part3] at e
  simp only [andi, IntOp.andi_eq_one] at e
  obtain ⟨⟨⟨⟨⟨⟨⟨⟨⟨⟨-, e1⟩, e2⟩, e3⟩, e4⟩, e5⟩, e6⟩, e7⟩, e8⟩, n2⟩, n7⟩ := e
  exact ⟨real_of_all x1 _ _ _ e1, real_of_all x2 _ _ _ e2, real_of_all x3 _ _ _ e3, real_of_all x4 _ _ _ e4,
    real_of_all x5 _ _ _ e5, real_of_all x6 _ _ _ e6, real_of_all x7 _ _ _ e7, real_of_all_scalar x8 _ _ e8,
    ne_zero_of_all x2 _ _ _ n2, ne_zero_of_all x7 _ _ _ n7⟩

end Cert.PreReal

end
-- ==== Proof.lean ====
/-
  The claim.  Under the precondition every input is a real number, and the masses and the chain masses are nonzero (their
  quotients are what the reference divides by).  Then the kernel's three results are, entry by entry, mom · tot, p and q of
  the real recurrence that carries the kinetic sum, and the reference's are mom, p and q of the real recurrence that carries
  the particle momenta; the two recurrences agree (rescaling all momenta by s multiplies the kinetic sum by s², which needs
  the distributive law and so the finiteness of every value).
-/
import proofs.«138430_j46600395162250_2_alg».proof.Defs
import proofs.«138430_j46600395162250_2_alg».proof.Proof.Gen.Kernel
import proofs.«138430_j46600395162250_2_alg».proof.Proof.Gen.KernelIdeal
import proofs.«138430_j46600395162250_2_alg».proof.Proof.Gen.ReferenceIdeal
import proofs.«138430_j46600395162250_2_alg».proof.Proof.Gen.Pre_finite_inputs
import proofs.«138430_j46600395162250_2_alg».proof.Proof.KFrameBits
import proofs.«138430_j46600395162250_2_alg».proof.Proof.KValue
import proofs.«138430_j46600395162250_2_alg».proof.Proof.RValue
import proofs.«138430_j46600395162250_2_alg».proof.Proof.PreReal
import proofs.«138430_j46600395162250_2_alg».proof.Proof.RealChain

noncomputable section

namespace Cert.Proof

open Idealize.ShloMosaic Idealize.ShloMosaic.TcCoe Idealize.SL.Sem Idealize.ShloMosaic.ValueIdx Cert.NHC

/-- An array of shape 32 × 131072 × 3 from its entries. -/
def arr3 (f : Fin 32 → Fin 131072 → Fin 3 → EReal) : Cert.KernelIdeal.S32x131072x3.Idx → EReal := fun i => f (i 0) (i 1) (i 2)
/-- An array of shape 32 × 5 from its entries. -/
def arr2 (f : Fin 32 → Fin 5 → EReal) : Cert.KernelIdeal.S32x5.Idx → EReal := fun i => f (i 0) (i 1)

theorem eq_arr3 {x : Cert.KernelIdeal.S32x131072x3.Idx → EReal} {f : Fin 32 → Fin 131072 → Fin 3 → EReal}
    (h : ∀ b n k, x (ix3 b n k) = f b n k) : x = arr3 f := by
  funext i
  obtain ⟨b, n, k, rfl⟩ : ∃ (b : Fin 32) (n : Fin 131072) (k : Fin 3), i = ix3 b n k := ⟨i 0, i 1, i 2, eq_ix3 i⟩
  exact h b n k

theorem eq_arr2 {x : Cert.KernelIdeal.S32x5.Idx → EReal} {f : Fin 32 → Fin 5 → EReal}
    (h : ∀ b j, x (ix2 b j) = f b j) : x = arr2 f := by
  funext i
  obtain ⟨b, j, rfl⟩ : ∃ (b : Fin 32) (j : Fin 5), i = ix2 b j := ⟨i 0, i 1, eq_ix2 i⟩
  exact h b j

theorem frame_k : Cert.frame_Kernel := fun m ρ _ => Cert.Kernel.Frame.frame m ρ
theorem frame_ki : Cert.frame_KernelIdeal := fun m ρ _ => Cert.KernelIdeal.Frame.frame m ρ
theorem frame_r : Cert.frame_ReferenceIdeal := fun m ρ _ =>
  (θ_run Cert.ReferenceIdeal.defs _ _).mono (fun _ h c => (h c).2.2.2) (Cert.ReferenceIdeal.Value.run (F := Ideal) m ρ)

theorem algebraic : Cert.algebraic_KernelIdeal_ReferenceIdeal := by
  intro m ρ m' ρ' hpre hagree
  -- every input is a real number; the masses and the chain masses are nonzero
  have hR := fun c => Cert.PreReal.of_pre _ _ _ _ _ _ _ _ _ (hpre c)
  choose f1 h1 using fun c => (hR c).1
  choose f2 h2 using fun c => (hR c).2.1
  choose f3 h3 using fun c => (hR c).2.2.1
  choose f4 h4 using fun c => (hR c).2.2.2.1
  choose f5 h5 using fun c => (hR c).2.2.2.2.1
  choose f6 h6 using fun c => (hR c).2.2.2.2.2.1
  choose f7 h7 using fun c => (hR c).2.2.2.2.2.2.1
  choose f8 h8 using fun c => (hR c).2.2.2.2.2.2.2.1
  have h20 := fun c => (hR c).2.2.2.2.2.2.2.2.1
  have h70 := fun c => (hR c).2.2.2.2.2.2.2.2.2
  -- the real data, by batch row
  let momR : Dev Cert.KernelIdeal.nD → Fin 32 → Fin 131072 × Fin 3 → ℝ := fun c b i => f1 c (ix3 b i.1 i.2)
  let μ : Dev Cert.KernelIdeal.nD → Fin 32 → Fin 131072 → ℝ := fun c b n => f2 c (ix2 b n)
  let κ : Dev Cert.KernelIdeal.nD → Fin 32 → ℝ := fun c b => f3 c (ix1 b)
  let δ : Dev Cert.KernelIdeal.nD → Fin 32 → ℝ := fun c b => f4 c (ix1 b)
  let pR : Dev Cert.KernelIdeal.nD → Fin 32 → Fin 5 → ℝ := fun c b j => f5 c (ix2 b j)
  let qR : Dev Cert.KernelIdeal.nD → Fin 32 → Fin 5 → ℝ := fun c b j => f6 c (ix2 b j)
  let α : Dev Cert.KernelIdeal.nD → Fin 32 → Fin 5 → ℝ := fun c b j => f7 c (ix2 b j)
  let σ : Dev Cert.KernelIdeal.nD → ℝ := fun c => f8 c ix0
  have hμ0 : ∀ c b n, μ c b n ≠ 0 := fun c b n e => h20 c (ix2 b n) (by rw [h2 c (ix2 b n)]; exact congrArg _ e)
  have hα0 : ∀ c b j, α c b j ≠ 0 := fun c b j e => h70 c (ix2 b j) (by rw [h7 c (ix2 b j)]; exact congrArg _ e)
  -- the kernel's real recurrence, by batch row
  let KK : Dev Cert.KernelIdeal.nD → Fin 32 → StK := Cert.KernelIdeal.Frame.KK momR μ κ δ pR qR α σ
  refine ⟨fun c => arr3 (fun b n k => ((momR c b (n, k) * (KK c b).tot : ℝ) : EReal)),
    fun c => arr2 (fun b j => (((KK c b).p j : ℝ) : EReal)), fun c => arr2 (fun b j => (((KK c b).q j : ℝ) : EReal)), ?_, ?_⟩
  · refine (θ_run Cert.KernelIdeal.defs _ _).mono (fun r h c => ⟨eq_arr3 (h c).1, eq_arr2 (h c).2.1, eq_arr2 (h c).2.2.1, (h c).2.2.2⟩)
      (Cert.KernelIdeal.Frame.kernel_results m ρ momR μ κ δ pR qR α σ
        (fun c b n k => h1 c _) (fun c b n => h2 c _) hμ0 (fun c b => h3 c _) (fun c b => h4 c _)
        (fun c b j => h5 c _) (fun c b j => h6 c _) (fun c b j => h7 c _) hα0 (fun c => h8 c _))
  · have ha : ∀ c, _ := fun c => hagree c
    refine (θ_run Cert.ReferenceIdeal.defs _ _).mono (fun r h c => ?_)
      (Cert.ReferenceIdeal.Chain.ref_results m' ρ' σ δ κ μ pR qR α momR
        (fun c b n k => by rw [(ha c).2.1]; exact h1 c _) (fun c b n => by rw [(ha c).2.2.1]; exact h2 c _) hμ0
        (fun c b => by rw [(ha c).2.2.2.1]; exact h3 c _) (fun c b => by rw [(ha c).2.2.2.2.1]; exact h4 c _)
        (fun c b j => by rw [(ha c).2.2.2.2.2.1]; exact h5 c _) (fun c b j => by rw [(ha c).2.2.2.2.2.2.1]; exact h6 c _)
        (fun c b j => by rw [(ha c).2.2.2.2.2.2.2.1]; exact h7 c _) hα0 (fun c => by rw [(ha c).2.2.2.2.2.2.2.2]; exact h8 c _))
    have ag := fun b => agree (fun i : Fin 131072 × Fin 3 => μ c b i.1) (momR c b) (α c b) (pR c b) (qR c b) (κ c b)
      (fun s => δ c b * (σ c * ωAt s / 2)) 14
    refine ⟨eq_arr3 (fun b n k => ((h c).1 b n k).trans ?_), eq_arr2 (fun b j => ((h c).2.1 b j).trans ?_),
      eq_arr2 (fun b j => ((h c).2.2.1 b j).trans ?_), (h c).2.2.2⟩
    · exact congrArg _ ((ag b).1 (n, k))
    · exact congrArg _ (congrFun (ag b).2.1 j)
    · exact congrArg _ (congrFun (ag b).2.2.1 j)

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
